-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v333) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S26009x256 : Shape := ⟨2, ![26009, 256]⟩
abbrev S1024x127 : Shape := ⟨2, ![1024, 127]⟩
abbrev S1024x128x10 : Shape := ⟨3, ![1024, 128, 10]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S26009x256 : S_.BroadcastsInDim S26009x256 (![] : Fin 0 → Fin S26009x256.rank)
  reducesTo_S26009x256_S_d0_1 : S26009x256.ReducesTo [0, 1] S_
  bcast_S_S1024x127 : S_.BroadcastsInDim S1024x127 (![] : Fin 0 → Fin S1024x127.rank)
  reducesTo_S1024x127_S_d0_1 : S1024x127.ReducesTo [0, 1] S_
  bcast_S_S1024x128x10 : S_.BroadcastsInDim S1024x128x10 (![] : Fin 0 → Fin S1024x128x10.rank)
  reducesTo_S1024x128x10_S_d0_1_2 : S1024x128x10.ReducesTo [0, 1, 2] S_

variable [Facts]

def fn_part1 {F : FTy → Type} [FloatOps F] (main_arg4 : IVec S1024x127 32) (main_v13 : IVec S_ 1) (main_v16 : IVec S1024x128x10 1) : IVec S_ 1 :=
  let main_c_5 : IVec S_ 1 := constantI S_ 1 1#1
  let main_v17 : IVec S_ 1 := (fun x v => Host.reduce IntOp.andi x v reducesTo_S1024x128x10_S_d0_1_2 h_S_) main_v16 main_c_5
  let main_v18 : IVec S_ 1 := andi main_v13 main_v17
  let main_c_6 : IVec S_ 32 := constantI S_ 32 0#32
  let main_v19 : IVec S1024x127 32 := broadcastInDim S1024x127 ![] bcast_S_S1024x127 main_c_6
  let main_v20 : IVec S1024x127 1 := cmpi .sge main_arg4 main_v19
  let main_c_7 : IVec S_ 1 := constantI S_ 1 1#1
  let main_v21 : IVec S_ 1 := (fun x v => Host.reduce IntOp.andi x v reducesTo_S1024x127_S_d0_1 h_S_) main_v20 main_c_7
  let main_v22 : IVec S_ 1 := andi main_v18 main_v21
  let main_c_8 : IVec S_ 32 := constantI S_ 32 26009#32
  let main_v23 : IVec S1024x127 32 := broadcastInDim S1024x127 ![] bcast_S_S1024x127 main_c_8
  let main_v24 : IVec S1024x127 1 := cmpi .slt main_arg4 main_v23
  let main_c_9 : IVec S_ 1 := constantI S_ 1 1#1
  let main_v25 : IVec S_ 1 := (fun x v => Host.reduce IntOp.andi x v reducesTo_S1024x127_S_d0_1 h_S_) main_v24 main_c_9
  let main_v26 : IVec S_ 1 := andi main_v22 main_v25
  main_v26

def fn {F : FTy → Type} [FloatOps F] (main_arg0 : FVec F S2048x256 .f32) (main_arg1 : FVec F S26009x256 .f32) (main_arg2 : FVec F S1024x127 .f32) (main_arg3 : FVec F S1024x128x10 .f32) (main_arg4 : IVec S1024x127 32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S26009x256 .f32 := Host.absf main_arg1
  let main_cst_0 : FVec F S_ .f32 := constant S_ .f32 0x7F800000#32
  let main_v5 : FVec F S26009x256 .f32 := broadcastInDim S26009x256 ![] bcast_S_S26009x256 main_cst_0
  let main_v6 : IVec S26009x256 1 := cmpf .olt main_v4 main_v5
  let main_c_1 : IVec S_ 1 := constantI S_ 1 1#1
  let main_v7 : IVec S_ 1 := (fun x v => Host.reduce IntOp.andi x v reducesTo_S26009x256_S_d0_1 h_S_) main_v6 main_c_1
  let main_v8 : IVec S_ 1 := andi main_v3 main_v7
  let main_v9 : FVec F S1024x127 .f32 := Host.absf main_arg2
  let main_cst_2 : FVec F S_ .f32 := constant S_ .f32 0x7F800000#32
  let main_v10 : FVec F S1024x127 .f32 := broadcastInDim S1024x127 ![] bcast_S_S1024x127 main_cst_2
  let main_v11 : IVec S1024x127 1 := cmpf .olt main_v9 main_v10
  let main_c_3 : IVec S_ 1 := constantI S_ 1 1#1
  let main_v12 : IVec S_ 1 := (fun x v => Host.reduce IntOp.andi x v reducesTo_S1024x127_S_d0_1 h_S_) main_v11 main_c_3
  let main_v13 : IVec S_ 1 := andi main_v8 main_v12
  let main_v14 : FVec F S1024x128x10 .f32 := Host.absf main_arg3
  let main_cst_4 : FVec F S_ .f32 := constant S_ .f32 0x7F800000#32
  let main_v15 : FVec F S1024x128x10 .f32 := broadcastInDim S1024x128x10 ![] bcast_S_S1024x128x10 main_cst_4
  let main_v16 : IVec S1024x128x10 1 := cmpf .olt main_v14 main_v15
  fn_part1 (F := F) main_arg4 main_v13 main_v16
-- ==== Kernel.lean ====
abbrev S2048x256 : Shape := ⟨2, ![2048, 256]⟩
abbrev S26009x256 : Shape := ⟨2, ![26009, 256]⟩
abbrev S1024x127 : Shape := ⟨2, ![1024, 127]⟩
abbrev S1024x128x10 : Shape := ⟨3, ![1024, 128, 10]⟩
abbrev S_ : Shape := ⟨0, ![]⟩
abbrev S26112x256 : Shape := ⟨2, ![26112, 256]⟩
abbrev S256x2048 : Shape := ⟨2, ![256, 2048]⟩
abbrev S26112x2048 : Shape := ⟨2, ![26112, 2048]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1024x127x1 : Shape := ⟨3, ![1024, 127, 1]⟩
abbrev S2x2048x10 : Shape := ⟨3, ![2, 2048, 10]⟩
abbrev S1x127x1 : Shape := ⟨3, ![1, 127, 1]⟩
abbrev S1x128x10 : Shape := ⟨3, ![1, 128, 10]⟩
abbrev S1x2048x10 : Shape := ⟨3, ![1, 2048, 10]⟩
abbrev S127x2048 : Shape := ⟨2, ![127, 2048]⟩
abbrev S127 : Shape := ⟨1, ![127]⟩
abbrev S1x1 : Shape := ⟨2, ![1, 1]⟩
abbrev S1 : Shape := ⟨1, ![1]⟩
abbrev S1x2048 : Shape := ⟨2, ![1, 2048]⟩
abbrev S127x1 : Shape := ⟨2, ![127, 1]⟩
abbrev S2048 : Shape := ⟨1, ![2048]⟩
abbrev S128x2048 : Shape := ⟨2, ![128, 2048]⟩
abbrev S128x10 : Shape := ⟨2, ![128, 10]⟩
abbrev S2048x10 : Shape := ⟨2, ![2048, 10]⟩
abbrev S2048x1 : Shape := ⟨2, ![2048, 1]⟩

abbrev nBuf : Space → Nat
  | .hbm => 13
  | .vmem => 12
  | .smem => 1
  | _ => 0

abbrev bufTy : (tb : Table) → Fin (tcTables nBuf tb) → BufTy
  | .hbm, ⟨0, _⟩ => ⟨S2048x256, .f32⟩
  | .hbm, ⟨1, _⟩ => ⟨S26009x256, .f32⟩
  | .hbm, ⟨2, _⟩ => ⟨S1024x127, .f32⟩
  | .hbm, ⟨3, _⟩ => ⟨S1024x128x10, .f32⟩
  | .hbm, ⟨4, _⟩ => ⟨S_, .i32⟩
  | .hbm, ⟨5, _⟩ => ⟨S_, .f32⟩
  | .hbm, ⟨6, _⟩ => ⟨S26112x256, .f32⟩
  | .hbm, ⟨7, _⟩ => ⟨S256x2048, .f32⟩
  | .hbm, ⟨8, _⟩ => ⟨S26112x2048, .f32⟩
  | .hbm, ⟨9, _⟩ => ⟨S1024x127x1, .f32⟩
  | .hbm, ⟨10, _⟩ => ⟨S2x2048x10, .f32⟩
  | .hbm, ⟨11, _⟩ => ⟨S_, .f32⟩
  | .hbm, ⟨12, _⟩ => ⟨S2048x10, .f32⟩
  | .local _ .vmem, ⟨0, _⟩ => ⟨S256x2048, .f32⟩
  | .local _ .vmem, ⟨1, _⟩ => ⟨S512x256, .f32⟩
  | .local _ .vmem, ⟨2, _⟩ => ⟨S512x256, .f32⟩
  | .local _ .vmem, ⟨3, _⟩ => ⟨S512x2048, .f32⟩
  | .local _ .vmem, ⟨4, _⟩ => ⟨S512x2048, .f32⟩
  | .local _ .vmem, ⟨5, _⟩ => ⟨S1x127x1, .f32⟩
  | .local _ .vmem, ⟨6, _⟩ => ⟨S1x127x1, .f32⟩
  | .local _ .vmem, ⟨7, _⟩ => ⟨S1x128x10, .f32⟩
  | .local _ .vmem, ⟨8, _⟩ => ⟨S1x128x10, .f32⟩
  | .local _ .vmem, ⟨9, _⟩ => ⟨S1x2048x10, .f32⟩
  | .local _ .vmem, ⟨10, _⟩ => ⟨S1x2048x10, .f32⟩
  | .local _ .vmem, ⟨11, _⟩ => ⟨S127x2048, .f32⟩
  | .local _ .smem, ⟨0, _⟩ => ⟨S1024x127, .i32⟩
  | _, _ => ⟨S2048x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 512], ![false, false]⟩

abbrev pre1 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v5 : Index := Scalar.indexCast v1
  let c0 : Index := 0#32
  ![v5.toNat, 0]
def k1_off2 (v6 : BitVec 32) : Fin 2 → Nat :=
  let c0_i32_4 : BitVec 32 := 0#32
  ![v6.toNat, 0]

def k1_off3 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v11 : Index := Scalar.indexCast v1
  let c1 : Index := 1#32
  ![v11.toNat, 1]
def k1_off4 (v12 : BitVec 32) : Fin 2 → Nat :=
  let c0_i32_7 : BitVec 32 := 0#32
  ![v12.toNat, 0]

def k1_off5 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v17 : Index := Scalar.indexCast v1
  let c2 : Index := 2#32
  ![v17.toNat, 2]
def k1_off6 (v18 : BitVec 32) : Fin 2 → Nat :=
  let c0_i32_10 : BitVec 32 := 0#32
  ![v18.toNat, 0]

def k1_off7 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v23 : Index := Scalar.indexCast v1
  let c3 : Index := 3#32
  ![v23.toNat, 3]
def k1_off8 (v24 : BitVec 32) : Fin 2 → Nat :=
  let c0_i32_13 : BitVec 32 := 0#32
  ![v24.toNat, 0]

def k1_off9 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v29 : Index := Scalar.indexCast v1
  let c4 : Index := 4#32
  ![v29.toNat, 4]
def k1_off10 (v30 : BitVec 32) : Fin 2 → Nat :=
  let c0_i32_16 : BitVec 32 := 0#32
  ![v30.toNat, 0]

def k1_off11 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v35 : Index := Scalar.indexCast v1
  let c5 : Index := 5#32
  ![v35.toNat, 5]
def k1_off12 (v36 : BitVec 32) : Fin 2 → Nat :=
  let c0_i32_19 : BitVec 32 := 0#32
  ![v36.toNat, 0]

def k1_off13 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v41 : Index := Scalar.indexCast v1
  let c6 : Index := 6#32
  ![v41.toNat, 6]
def k1_off14 (v42 : BitVec 32) : Fin 2 → Nat :=
  let c0_i32_22 : BitVec 32 := 0#32
  ![v42.toNat, 0]

def k1_off15 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v47 : Index := Scalar.indexCast v1
  let c7 : Index := 7#32
  ![v47.toNat, 7]
def k1_off16 (v48 : BitVec 32) : Fin 2 → Nat :=
  let c0_i32_25 : BitVec 32 := 0#32
  ![v48.toNat, 0]

def k1_off17 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v53 : Index := Scalar.indexCast v1
  let c8 : Index := 8#32
  ![v53.toNat, 8]
def k1_off18 (v54 : BitVec 32) : Fin 2 → Nat :=
  let c0_i32_28 : BitVec 32 := 0#32
  ![v54.toNat, 0]

def k1_off19 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v59 : Index := Scalar.indexCast v1
  let c9 : Index := 9#32
  ![v59.toNat, 9]
def k1_off20 (v60 : BitVec 32) : Fin 2 → Nat :=
  let c0_i32_31 : BitVec 32 := 0#32
  ![v60.toNat, 0]

def k1_off21 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v65 : Index := Scalar.indexCast v1
  let c10 : Index := 10#32
  ![v65.toNat, 10]
def k1_off22 (v66 : BitVec 32) : Fin 2 → Nat :=
  let c0_i32_34 : BitVec 32 := 0#32
  ![v66.toNat, 0]

def k1_off23 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v71 : Index := Scalar.indexCast v1
  let c11 : Index := 11#32
  ![v71.toNat, 11]
def k1_off24 (v72 : BitVec 32) : Fin 2 → Nat :=
  let c0_i32_37 : BitVec 32 := 0#32
  ![v72.toNat, 0]

def k1_off25 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v77 : Index := Scalar.indexCast v1
  let c12 : Index := 12#32
  ![v77.toNat, 12]
def k1_off26 (v78 : BitVec 32) : Fin 2 → Nat :=
  let c0_i32_40 : BitVec 32 := 0#32
  ![v78.toNat, 0]

def k1_off27 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v83 : Index := Scalar.indexCast v1
  let c13 : Index := 13#32
  ![v83.toNat, 13]
def k1_off28 (v84 : BitVec 32) : Fin 2 → Nat :=
  let c0_i32_43 : BitVec 32 := 0#32
  ![v84.toNat, 0]

def k1_off29 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v89 : Index := Scalar.indexCast v1
  let c14 : Index := 14#32
  ![v89.toNat, 14]
def k1_off30 (v90 : BitVec 32) : Fin 2 → Nat :=
  let c0_i32_46 : BitVec 32 := 0#32
  ![v90.toNat, 0]

def k1_off31 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v95 : Index := Scalar.indexCast v1
  let c15 : Index := 15#32
  ![v95.toNat, 15]
def k1_off32 (v96 : BitVec 32) : Fin 2 → Nat :=
  let c0_i32_49 : BitVec 32 := 0#32
  ![v96.toNat, 0]

def k1_off33 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v101 : Index := Scalar.indexCast v1
  let c16 : Index := 16#32
  ![v101.toNat, 16]
def k1_off34 (v102 : BitVec 32) : Fin 2 → Nat :=
  let c0_i32_52 : BitVec 32 := 0#32
  ![v102.toNat, 0]

def k1_off35 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v107 : Index := Scalar.indexCast v1
  let c17 : Index := 17#32
  ![v107.toNat, 17]
def k1_off36 (v108 : BitVec 32) : Fin 2 → Nat :=
  let c0_i32_55 : BitVec 32 := 0#32
  ![v108.toNat, 0]

def k1_off37 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v113 : Index := Scalar.indexCast v1
  let c18 : Index := 18#32
  ![v113.toNat, 18]
def k1_off38 (v114 : BitVec 32) : Fin 2 → Nat :=
  let c0_i32_58 : BitVec 32 := 0#32
  ![v114.toNat, 0]

def k1_off39 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v119 : Index := Scalar.indexCast v1
  let c19 : Index := 19#32
  ![v119.toNat, 19]
def k1_off40 (v120 : BitVec 32) : Fin 2 → Nat :=
  let c0_i32_61 : BitVec 32 := 0#32
  ![v120.toNat, 0]

def k1_off41 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v125 : Index := Scalar.indexCast v1
  let c20 : Index := 20#32
  ![v125.toNat, 20]
def k1_off42 (v126 : BitVec 32) : Fin 2 → Nat :=
  let c0_i32_64 : BitVec 32 := 0#32
  ![v126.toNat, 0]

def k1_off43 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v131 : Index := Scalar.indexCast v1
  let c21 : Index := 21#32
  ![v131.toNat, 21]
def k1_off44 (v132 : BitVec 32) : Fin 2 → Nat :=
  let c0_i32_67 : BitVec 32 := 0#32
  ![v132.toNat, 0]

def k1_off45 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v137 : Index := Scalar.indexCast v1
  let c22 : Index := 22#32
  ![v137.toNat, 22]
def k1_off46 (v138 : BitVec 32) : Fin 2 → Nat :=
  let c0_i32_70 : BitVec 32 := 0#32
  ![v138.toNat, 0]

def k1_off47 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v143 : Index := Scalar.indexCast v1
  let c23 : Index := 23#32
  ![v143.toNat, 23]
def k1_off48 (v144 : BitVec 32) : Fin 2 → Nat :=
  let c0_i32_73 : BitVec 32 := 0#32
  ![v144.toNat, 0]

def k1_off49 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v149 : Index := Scalar.indexCast v1
  let c24 : Index := 24#32
  ![v149.toNat, 24]
def k1_off50 (v150 : BitVec 32) : Fin 2 → Nat :=
  let c0_i32_76 : BitVec 32 := 0#32
  ![v150.toNat, 0]

def k1_off51 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v155 : Index := Scalar.indexCast v1
  let c25 : Index := 25#32
  ![v155.toNat, 25]
def k1_off52 (v156 : BitVec 32) : Fin 2 → Nat :=
  let c0_i32_79 : BitVec 32 := 0#32
  ![v156.toNat, 0]

def k1_off53 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v161 : Index := Scalar.indexCast v1
  let c26 : Index := 26#32
  ![v161.toNat, 26]
def k1_off54 (v162 : BitVec 32) : Fin 2 → Nat :=
  let c0_i32_82 : BitVec 32 := 0#32
  ![v162.toNat, 0]

def k1_off55 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v167 : Index := Scalar.indexCast v1
  let c27 : Index := 27#32
  ![v167.toNat, 27]
def k1_off56 (v168 : BitVec 32) : Fin 2 → Nat :=
  let c0_i32_85 : BitVec 32 := 0#32
  ![v168.toNat, 0]

def k1_off57 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v173 : Index := Scalar.indexCast v1
  let c28 : Index := 28#32
  ![v173.toNat, 28]
def k1_off58 (v174 : BitVec 32) : Fin 2 → Nat :=
  let c0_i32_88 : BitVec 32 := 0#32
  ![v174.toNat, 0]

def k1_off59 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v179 : Index := Scalar.indexCast v1
  let c29 : Index := 29#32
  ![v179.toNat, 29]
def k1_off60 (v180 : BitVec 32) : Fin 2 → Nat :=
  let c0_i32_91 : BitVec 32 := 0#32
  ![v180.toNat, 0]

def k1_off61 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v185 : Index := Scalar.indexCast v1
  let c30 : Index := 30#32
  ![v185.toNat, 30]
def k1_off62 (v186 : BitVec 32) : Fin 2 → Nat :=
  let c0_i32_94 : BitVec 32 := 0#32
  ![v186.toNat, 0]

def k1_off63 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v191 : Index := Scalar.indexCast v1
  let c31 : Index := 31#32
  ![v191.toNat, 31]
def k1_off64 (v192 : BitVec 32) : Fin 2 → Nat :=
  let c0_i32_97 : BitVec 32 := 0#32
  ![v192.toNat, 0]

def k1_off65 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v197 : Index := Scalar.indexCast v1
  let c32 : Index := 32#32
  ![v197.toNat, 32]
def k1_off66 (v198 : BitVec 32) : Fin 2 → Nat :=
  let c0_i32_100 : BitVec 32 := 0#32
  ![v198.toNat, 0]

def k1_off67 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v203 : Index := Scalar.indexCast v1
  let c33 : Index := 33#32
  ![v203.toNat, 33]
def k1_off68 (v204 : BitVec 32) : Fin 2 → Nat :=
  let c0_i32_103 : BitVec 32 := 0#32
  ![v204.toNat, 0]

def k1_off69 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v209 : Index := Scalar.indexCast v1
  let c34 : Index := 34#32
  ![v209.toNat, 34]
def k1_off70 (v210 : BitVec 32) : Fin 2 → Nat :=
  let c0_i32_106 : BitVec 32 := 0#32
  ![v210.toNat, 0]

def k1_off71 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v215 : Index := Scalar.indexCast v1
  let c35 : Index := 35#32
  ![v215.toNat, 35]
def k1_off72 (v216 : BitVec 32) : Fin 2 → Nat :=
  let c0_i32_109 : BitVec 32 := 0#32
  ![v216.toNat, 0]

def k1_off73 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v221 : Index := Scalar.indexCast v1
  let c36 : Index := 36#32
  ![v221.toNat, 36]
def k1_off74 (v222 : BitVec 32) : Fin 2 → Nat :=
  let c0_i32_112 : BitVec 32 := 0#32
  ![v222.toNat, 0]

def k1_off75 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v227 : Index := Scalar.indexCast v1
  let c37 : Index := 37#32
  ![v227.toNat, 37]
def k1_off76 (v228 : BitVec 32) : Fin 2 → Nat :=
  let c0_i32_115 : BitVec 32 := 0#32
  ![v228.toNat, 0]

def k1_off77 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v233 : Index := Scalar.indexCast v1
  let c38 : Index := 38#32
  ![v233.toNat, 38]
def k1_off78 (v234 : BitVec 32) : Fin 2 → Nat :=
  let c0_i32_118 : BitVec 32 := 0#32
  ![v234.toNat, 0]

def k1_off79 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v239 : Index := Scalar.indexCast v1
  let c39 : Index := 39#32
  ![v239.toNat, 39]
def k1_off80 (v240 : BitVec 32) : Fin 2 → Nat :=
  let c0_i32_121 : BitVec 32 := 0#32
  ![v240.toNat, 0]

def k1_off81 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v245 : Index := Scalar.indexCast v1
  let c40 : Index := 40#32
  ![v245.toNat, 40]
def k1_off82 (v246 : BitVec 32) : Fin 2 → Nat :=
  let c0_i32_124 : BitVec 32 := 0#32
  ![v246.toNat, 0]

def k1_off83 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v251 : Index := Scalar.indexCast v1
  let c41 : Index := 41#32
  ![v251.toNat, 41]
def k1_off84 (v252 : BitVec 32) : Fin 2 → Nat :=
  let c0_i32_127 : BitVec 32 := 0#32
  ![v252.toNat, 0]

def k1_off85 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v257 : Index := Scalar.indexCast v1
  let c42 : Index := 42#32
  ![v257.toNat, 42]
def k1_off86 (v258 : BitVec 32) : Fin 2 → Nat :=
  let c0_i32_130 : BitVec 32 := 0#32
  ![v258.toNat, 0]

def k1_off87 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v263 : Index := Scalar.indexCast v1
  let c43 : Index := 43#32
  ![v263.toNat, 43]
def k1_off88 (v264 : BitVec 32) : Fin 2 → Nat :=
  let c0_i32_133 : BitVec 32 := 0#32
  ![v264.toNat, 0]

def k1_off89 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v269 : Index := Scalar.indexCast v1
  let c44 : Index := 44#32
  ![v269.toNat, 44]
def k1_off90 (v270 : BitVec 32) : Fin 2 → Nat :=
  let c0_i32_136 : BitVec 32 := 0#32
  ![v270.toNat, 0]

def k1_off91 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v275 : Index := Scalar.indexCast v1
  let c45 : Index := 45#32
  ![v275.toNat, 45]
def k1_off92 (v276 : BitVec 32) : Fin 2 → Nat :=
  let c0_i32_139 : BitVec 32 := 0#32
  ![v276.toNat, 0]

def k1_off93 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v281 : Index := Scalar.indexCast v1
  let c46 : Index := 46#32
  ![v281.toNat, 46]
def k1_off94 (v282 : BitVec 32) : Fin 2 → Nat :=
  let c0_i32_142 : BitVec 32 := 0#32
  ![v282.toNat, 0]

def k1_off95 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v287 : Index := Scalar.indexCast v1
  let c47 : Index := 47#32
  ![v287.toNat, 47]
def k1_off96 (v288 : BitVec 32) : Fin 2 → Nat :=
  let c0_i32_145 : BitVec 32 := 0#32
  ![v288.toNat, 0]

def k1_off97 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v293 : Index := Scalar.indexCast v1
  let c48 : Index := 48#32
  ![v293.toNat, 48]
def k1_off98 (v294 : BitVec 32) : Fin 2 → Nat :=
  let c0_i32_148 : BitVec 32 := 0#32
  ![v294.toNat, 0]

def k1_off99 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v299 : Index := Scalar.indexCast v1
  let c49 : Index := 49#32
  ![v299.toNat, 49]
def k1_off100 (v300 : BitVec 32) : Fin 2 → Nat :=
  let c0_i32_151 : BitVec 32 := 0#32
  ![v300.toNat, 0]

def k1_off101 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v305 : Index := Scalar.indexCast v1
  let c50 : Index := 50#32
  ![v305.toNat, 50]
def k1_off102 (v306 : BitVec 32) : Fin 2 → Nat :=
  let c0_i32_154 : BitVec 32 := 0#32
  ![v306.toNat, 0]

def k1_off103 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v311 : Index := Scalar.indexCast v1
  let c51 : Index := 51#32
  ![v311.toNat, 51]
def k1_off104 (v312 : BitVec 32) : Fin 2 → Nat :=
  let c0_i32_157 : BitVec 32 := 0#32
  ![v312.toNat, 0]

def k1_off105 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v317 : Index := Scalar.indexCast v1
  let c52 : Index := 52#32
  ![v317.toNat, 52]
def k1_off106 (v318 : BitVec 32) : Fin 2 → Nat :=
  let c0_i32_160 : BitVec 32 := 0#32
  ![v318.toNat, 0]

def k1_off107 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v323 : Index := Scalar.indexCast v1
  let c53 : Index := 53#32
  ![v323.toNat, 53]
def k1_off108 (v324 : BitVec 32) : Fin 2 → Nat :=
  let c0_i32_163 : BitVec 32 := 0#32
  ![v324.toNat, 0]

def k1_off109 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v329 : Index := Scalar.indexCast v1
  let c54 : Index := 54#32
  ![v329.toNat, 54]
def k1_off110 (v330 : BitVec 32) : Fin 2 → Nat :=
  let c0_i32_166 : BitVec 32 := 0#32
  ![v330.toNat, 0]

def k1_off111 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v335 : Index := Scalar.indexCast v1
  let c55 : Index := 55#32
  ![v335.toNat, 55]
def k1_off112 (v336 : BitVec 32) : Fin 2 → Nat :=
  let c0_i32_169 : BitVec 32 := 0#32
  ![v336.toNat, 0]

def k1_off113 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v341 : Index := Scalar.indexCast v1
  let c56 : Index := 56#32
  ![v341.toNat, 56]
def k1_off114 (v342 : BitVec 32) : Fin 2 → Nat :=
  let c0_i32_172 : BitVec 32 := 0#32
  ![v342.toNat, 0]

def k1_off115 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v347 : Index := Scalar.indexCast v1
  let c57 : Index := 57#32
  ![v347.toNat, 57]
def k1_off116 (v348 : BitVec 32) : Fin 2 → Nat :=
  let c0_i32_175 : BitVec 32 := 0#32
  ![v348.toNat, 0]

def k1_off117 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v353 : Index := Scalar.indexCast v1
  let c58 : Index := 58#32
  ![v353.toNat, 58]
def k1_off118 (v354 : BitVec 32) : Fin 2 → Nat :=
  let c0_i32_178 : BitVec 32 := 0#32
  ![v354.toNat, 0]

def k1_off119 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v359 : Index := Scalar.indexCast v1
  let c59 : Index := 59#32
  ![v359.toNat, 59]
def k1_off120 (v360 : BitVec 32) : Fin 2 → Nat :=
  let c0_i32_181 : BitVec 32 := 0#32
  ![v360.toNat, 0]

def k1_off121 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v365 : Index := Scalar.indexCast v1
  let c60 : Index := 60#32
  ![v365.toNat, 60]
def k1_off122 (v366 : BitVec 32) : Fin 2 → Nat :=
  let c0_i32_184 : BitVec 32 := 0#32
  ![v366.toNat, 0]

def k1_off123 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v371 : Index := Scalar.indexCast v1
  let c61 : Index := 61#32
  ![v371.toNat, 61]
def k1_off124 (v372 : BitVec 32) : Fin 2 → Nat :=
  let c0_i32_187 : BitVec 32 := 0#32
  ![v372.toNat, 0]

def k1_off125 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v377 : Index := Scalar.indexCast v1
  let c62 : Index := 62#32
  ![v377.toNat, 62]
def k1_off126 (v378 : BitVec 32) : Fin 2 → Nat :=
  let c0_i32_190 : BitVec 32 := 0#32
  ![v378.toNat, 0]

def k1_off127 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v383 : Index := Scalar.indexCast v1
  let c63 : Index := 63#32
  ![v383.toNat, 63]
def k1_off128 (v384 : BitVec 32) : Fin 2 → Nat :=
  let c0_i32_193 : BitVec 32 := 0#32
  ![v384.toNat, 0]

def k1_off129 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v389 : Index := Scalar.indexCast v1
  let c64 : Index := 64#32
  ![v389.toNat, 64]
def k1_off130 (v390 : BitVec 32) : Fin 2 → Nat :=
  let c0_i32_196 : BitVec 32 := 0#32
  ![v390.toNat, 0]

def k1_off131 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v395 : Index := Scalar.indexCast v1
  let c65 : Index := 65#32
  ![v395.toNat, 65]
def k1_off132 (v396 : BitVec 32) : Fin 2 → Nat :=
  let c0_i32_199 : BitVec 32 := 0#32
  ![v396.toNat, 0]

def k1_off133 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v401 : Index := Scalar.indexCast v1
  let c66 : Index := 66#32
  ![v401.toNat, 66]
def k1_off134 (v402 : BitVec 32) : Fin 2 → Nat :=
  let c0_i32_202 : BitVec 32 := 0#32
  ![v402.toNat, 0]

def k1_off135 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v407 : Index := Scalar.indexCast v1
  let c67 : Index := 67#32
  ![v407.toNat, 67]
def k1_off136 (v408 : BitVec 32) : Fin 2 → Nat :=
  let c0_i32_205 : BitVec 32 := 0#32
  ![v408.toNat, 0]

def k1_off137 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v413 : Index := Scalar.indexCast v1
  let c68 : Index := 68#32
  ![v413.toNat, 68]
def k1_off138 (v414 : BitVec 32) : Fin 2 → Nat :=
  let c0_i32_208 : BitVec 32 := 0#32
  ![v414.toNat, 0]

def k1_off139 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v419 : Index := Scalar.indexCast v1
  let c69 : Index := 69#32
  ![v419.toNat, 69]
def k1_off140 (v420 : BitVec 32) : Fin 2 → Nat :=
  let c0_i32_211 : BitVec 32 := 0#32
  ![v420.toNat, 0]

def k1_off141 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v425 : Index := Scalar.indexCast v1
  let c70 : Index := 70#32
  ![v425.toNat, 70]
def k1_off142 (v426 : BitVec 32) : Fin 2 → Nat :=
  let c0_i32_214 : BitVec 32 := 0#32
  ![v426.toNat, 0]

def k1_off143 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v431 : Index := Scalar.indexCast v1
  let c71 : Index := 71#32
  ![v431.toNat, 71]
def k1_off144 (v432 : BitVec 32) : Fin 2 → Nat :=
  let c0_i32_217 : BitVec 32 := 0#32
  ![v432.toNat, 0]

def k1_off145 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v437 : Index := Scalar.indexCast v1
  let c72 : Index := 72#32
  ![v437.toNat, 72]
def k1_off146 (v438 : BitVec 32) : Fin 2 → Nat :=
  let c0_i32_220 : BitVec 32 := 0#32
  ![v438.toNat, 0]

def k1_off147 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v443 : Index := Scalar.indexCast v1
  let c73 : Index := 73#32
  ![v443.toNat, 73]
def k1_off148 (v444 : BitVec 32) : Fin 2 → Nat :=
  let c0_i32_223 : BitVec 32 := 0#32
  ![v444.toNat, 0]

def k1_off149 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v449 : Index := Scalar.indexCast v1
  let c74 : Index := 74#32
  ![v449.toNat, 74]
def k1_off150 (v450 : BitVec 32) : Fin 2 → Nat :=
  let c0_i32_226 : BitVec 32 := 0#32
  ![v450.toNat, 0]

def k1_off151 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v455 : Index := Scalar.indexCast v1
  let c75 : Index := 75#32
  ![v455.toNat, 75]
def k1_off152 (v456 : BitVec 32) : Fin 2 → Nat :=
  let c0_i32_229 : BitVec 32 := 0#32
  ![v456.toNat, 0]

def k1_off153 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v461 : Index := Scalar.indexCast v1
  let c76 : Index := 76#32
  ![v461.toNat, 76]
def k1_off154 (v462 : BitVec 32) : Fin 2 → Nat :=
  let c0_i32_232 : BitVec 32 := 0#32
  ![v462.toNat, 0]

def k1_off155 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v467 : Index := Scalar.indexCast v1
  let c77 : Index := 77#32
  ![v467.toNat, 77]
def k1_off156 (v468 : BitVec 32) : Fin 2 → Nat :=
  let c0_i32_235 : BitVec 32 := 0#32
  ![v468.toNat, 0]

def k1_off157 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v473 : Index := Scalar.indexCast v1
  let c78 : Index := 78#32
  ![v473.toNat, 78]
def k1_off158 (v474 : BitVec 32) : Fin 2 → Nat :=
  let c0_i32_238 : BitVec 32 := 0#32
  ![v474.toNat, 0]

def k1_off159 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v479 : Index := Scalar.indexCast v1
  let c79 : Index := 79#32
  ![v479.toNat, 79]
def k1_off160 (v480 : BitVec 32) : Fin 2 → Nat :=
  let c0_i32_241 : BitVec 32 := 0#32
  ![v480.toNat, 0]

def k1_off161 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v485 : Index := Scalar.indexCast v1
  let c80 : Index := 80#32
  ![v485.toNat, 80]
def k1_off162 (v486 : BitVec 32) : Fin 2 → Nat :=
  let c0_i32_244 : BitVec 32 := 0#32
  ![v486.toNat, 0]

def k1_off163 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v491 : Index := Scalar.indexCast v1
  let c81 : Index := 81#32
  ![v491.toNat, 81]
def k1_off164 (v492 : BitVec 32) : Fin 2 → Nat :=
  let c0_i32_247 : BitVec 32 := 0#32
  ![v492.toNat, 0]

def k1_off165 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v497 : Index := Scalar.indexCast v1
  let c82 : Index := 82#32
  ![v497.toNat, 82]
def k1_off166 (v498 : BitVec 32) : Fin 2 → Nat :=
  let c0_i32_250 : BitVec 32 := 0#32
  ![v498.toNat, 0]

def k1_off167 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v503 : Index := Scalar.indexCast v1
  let c83 : Index := 83#32
  ![v503.toNat, 83]
def k1_off168 (v504 : BitVec 32) : Fin 2 → Nat :=
  let c0_i32_253 : BitVec 32 := 0#32
  ![v504.toNat, 0]

def k1_off169 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v509 : Index := Scalar.indexCast v1
  let c84 : Index := 84#32
  ![v509.toNat, 84]
def k1_off170 (v510 : BitVec 32) : Fin 2 → Nat :=
  let c0_i32_256 : BitVec 32 := 0#32
  ![v510.toNat, 0]

def k1_off171 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v515 : Index := Scalar.indexCast v1
  let c85 : Index := 85#32
  ![v515.toNat, 85]
def k1_off172 (v516 : BitVec 32) : Fin 2 → Nat :=
  let c0_i32_259 : BitVec 32 := 0#32
  ![v516.toNat, 0]

def k1_off173 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v521 : Index := Scalar.indexCast v1
  let c86 : Index := 86#32
  ![v521.toNat, 86]
def k1_off174 (v522 : BitVec 32) : Fin 2 → Nat :=
  let c0_i32_262 : BitVec 32 := 0#32
  ![v522.toNat, 0]

def k1_off175 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v527 : Index := Scalar.indexCast v1
  let c87 : Index := 87#32
  ![v527.toNat, 87]
def k1_off176 (v528 : BitVec 32) : Fin 2 → Nat :=
  let c0_i32_265 : BitVec 32 := 0#32
  ![v528.toNat, 0]

def k1_off177 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v533 : Index := Scalar.indexCast v1
  let c88 : Index := 88#32
  ![v533.toNat, 88]
def k1_off178 (v534 : BitVec 32) : Fin 2 → Nat :=
  let c0_i32_268 : BitVec 32 := 0#32
  ![v534.toNat, 0]

def k1_off179 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v539 : Index := Scalar.indexCast v1
  let c89 : Index := 89#32
  ![v539.toNat, 89]
def k1_off180 (v540 : BitVec 32) : Fin 2 → Nat :=
  let c0_i32_271 : BitVec 32 := 0#32
  ![v540.toNat, 0]

def k1_off181 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v545 : Index := Scalar.indexCast v1
  let c90 : Index := 90#32
  ![v545.toNat, 90]
def k1_off182 (v546 : BitVec 32) : Fin 2 → Nat :=
  let c0_i32_274 : BitVec 32 := 0#32
  ![v546.toNat, 0]

def k1_off183 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v551 : Index := Scalar.indexCast v1
  let c91 : Index := 91#32
  ![v551.toNat, 91]
def k1_off184 (v552 : BitVec 32) : Fin 2 → Nat :=
  let c0_i32_277 : BitVec 32 := 0#32
  ![v552.toNat, 0]

def k1_off185 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v557 : Index := Scalar.indexCast v1
  let c92 : Index := 92#32
  ![v557.toNat, 92]
def k1_off186 (v558 : BitVec 32) : Fin 2 → Nat :=
  let c0_i32_280 : BitVec 32 := 0#32
  ![v558.toNat, 0]

def k1_off187 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v563 : Index := Scalar.indexCast v1
  let c93 : Index := 93#32
  ![v563.toNat, 93]
def k1_off188 (v564 : BitVec 32) : Fin 2 → Nat :=
  let c0_i32_283 : BitVec 32 := 0#32
  ![v564.toNat, 0]

def k1_off189 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v569 : Index := Scalar.indexCast v1
  let c94 : Index := 94#32
  ![v569.toNat, 94]
def k1_off190 (v570 : BitVec 32) : Fin 2 → Nat :=
  let c0_i32_286 : BitVec 32 := 0#32
  ![v570.toNat, 0]

def k1_off191 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v575 : Index := Scalar.indexCast v1
  let c95 : Index := 95#32
  ![v575.toNat, 95]
def k1_off192 (v576 : BitVec 32) : Fin 2 → Nat :=
  let c0_i32_289 : BitVec 32 := 0#32
  ![v576.toNat, 0]

def k1_off193 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v581 : Index := Scalar.indexCast v1
  let c96 : Index := 96#32
  ![v581.toNat, 96]
def k1_off194 (v582 : BitVec 32) : Fin 2 → Nat :=
  let c0_i32_292 : BitVec 32 := 0#32
  ![v582.toNat, 0]

def k1_off195 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v587 : Index := Scalar.indexCast v1
  let c97 : Index := 97#32
  ![v587.toNat, 97]
def k1_off196 (v588 : BitVec 32) : Fin 2 → Nat :=
  let c0_i32_295 : BitVec 32 := 0#32
  ![v588.toNat, 0]

def k1_off197 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v593 : Index := Scalar.indexCast v1
  let c98 : Index := 98#32
  ![v593.toNat, 98]
def k1_off198 (v594 : BitVec 32) : Fin 2 → Nat :=
  let c0_i32_298 : BitVec 32 := 0#32
  ![v594.toNat, 0]

def k1_off199 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v599 : Index := Scalar.indexCast v1
  let c99 : Index := 99#32
  ![v599.toNat, 99]
def k1_off200 (v600 : BitVec 32) : Fin 2 → Nat :=
  let c0_i32_301 : BitVec 32 := 0#32
  ![v600.toNat, 0]

def k1_off201 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v605 : Index := Scalar.indexCast v1
  let c100 : Index := 100#32
  ![v605.toNat, 100]
def k1_off202 (v606 : BitVec 32) : Fin 2 → Nat :=
  let c0_i32_304 : BitVec 32 := 0#32
  ![v606.toNat, 0]

def k1_off203 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v611 : Index := Scalar.indexCast v1
  let c101 : Index := 101#32
  ![v611.toNat, 101]
def k1_off204 (v612 : BitVec 32) : Fin 2 → Nat :=
  let c0_i32_307 : BitVec 32 := 0#32
  ![v612.toNat, 0]

def k1_off205 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v617 : Index := Scalar.indexCast v1
  let c102 : Index := 102#32
  ![v617.toNat, 102]
def k1_off206 (v618 : BitVec 32) : Fin 2 → Nat :=
  let c0_i32_310 : BitVec 32 := 0#32
  ![v618.toNat, 0]

def k1_off207 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v623 : Index := Scalar.indexCast v1
  let c103 : Index := 103#32
  ![v623.toNat, 103]
def k1_off208 (v624 : BitVec 32) : Fin 2 → Nat :=
  let c0_i32_313 : BitVec 32 := 0#32
  ![v624.toNat, 0]

def k1_off209 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v629 : Index := Scalar.indexCast v1
  let c104 : Index := 104#32
  ![v629.toNat, 104]
def k1_off210 (v630 : BitVec 32) : Fin 2 → Nat :=
  let c0_i32_316 : BitVec 32 := 0#32
  ![v630.toNat, 0]

def k1_off211 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v635 : Index := Scalar.indexCast v1
  let c105 : Index := 105#32
  ![v635.toNat, 105]
def k1_off212 (v636 : BitVec 32) : Fin 2 → Nat :=
  let c0_i32_319 : BitVec 32 := 0#32
  ![v636.toNat, 0]

def k1_off213 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v641 : Index := Scalar.indexCast v1
  let c106 : Index := 106#32
  ![v641.toNat, 106]
def k1_off214 (v642 : BitVec 32) : Fin 2 → Nat :=
  let c0_i32_322 : BitVec 32 := 0#32
  ![v642.toNat, 0]

def k1_off215 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v647 : Index := Scalar.indexCast v1
  let c107 : Index := 107#32
  ![v647.toNat, 107]
def k1_off216 (v648 : BitVec 32) : Fin 2 → Nat :=
  let c0_i32_325 : BitVec 32 := 0#32
  ![v648.toNat, 0]

def k1_off217 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v653 : Index := Scalar.indexCast v1
  let c108 : Index := 108#32
  ![v653.toNat, 108]
def k1_off218 (v654 : BitVec 32) : Fin 2 → Nat :=
  let c0_i32_328 : BitVec 32 := 0#32
  ![v654.toNat, 0]

def k1_off219 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v659 : Index := Scalar.indexCast v1
  let c109 : Index := 109#32
  ![v659.toNat, 109]
def k1_off220 (v660 : BitVec 32) : Fin 2 → Nat :=
  let c0_i32_331 : BitVec 32 := 0#32
  ![v660.toNat, 0]

def k1_off221 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v665 : Index := Scalar.indexCast v1
  let c110 : Index := 110#32
  ![v665.toNat, 110]
def k1_off222 (v666 : BitVec 32) : Fin 2 → Nat :=
  let c0_i32_334 : BitVec 32 := 0#32
  ![v666.toNat, 0]

def k1_off223 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v671 : Index := Scalar.indexCast v1
  let c111 : Index := 111#32
  ![v671.toNat, 111]
def k1_off224 (v672 : BitVec 32) : Fin 2 → Nat :=
  let c0_i32_337 : BitVec 32 := 0#32
  ![v672.toNat, 0]

def k1_off225 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v677 : Index := Scalar.indexCast v1
  let c112 : Index := 112#32
  ![v677.toNat, 112]
def k1_off226 (v678 : BitVec 32) : Fin 2 → Nat :=
  let c0_i32_340 : BitVec 32 := 0#32
  ![v678.toNat, 0]

def k1_off227 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v683 : Index := Scalar.indexCast v1
  let c113 : Index := 113#32
  ![v683.toNat, 113]
def k1_off228 (v684 : BitVec 32) : Fin 2 → Nat :=
  let c0_i32_343 : BitVec 32 := 0#32
  ![v684.toNat, 0]

def k1_off229 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v689 : Index := Scalar.indexCast v1
  let c114 : Index := 114#32
  ![v689.toNat, 114]
def k1_off230 (v690 : BitVec 32) : Fin 2 → Nat :=
  let c0_i32_346 : BitVec 32 := 0#32
  ![v690.toNat, 0]

def k1_off231 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v695 : Index := Scalar.indexCast v1
  let c115 : Index := 115#32
  ![v695.toNat, 115]
def k1_off232 (v696 : BitVec 32) : Fin 2 → Nat :=
  let c0_i32_349 : BitVec 32 := 0#32
  ![v696.toNat, 0]

def k1_off233 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v701 : Index := Scalar.indexCast v1
  let c116 : Index := 116#32
  ![v701.toNat, 116]
def k1_off234 (v702 : BitVec 32) : Fin 2 → Nat :=
  let c0_i32_352 : BitVec 32 := 0#32
  ![v702.toNat, 0]

def k1_off235 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v707 : Index := Scalar.indexCast v1
  let c117 : Index := 117#32
  ![v707.toNat, 117]
def k1_off236 (v708 : BitVec 32) : Fin 2 → Nat :=
  let c0_i32_355 : BitVec 32 := 0#32
  ![v708.toNat, 0]

def k1_off237 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v713 : Index := Scalar.indexCast v1
  let c118 : Index := 118#32
  ![v713.toNat, 118]
def k1_off238 (v714 : BitVec 32) : Fin 2 → Nat :=
  let c0_i32_358 : BitVec 32 := 0#32
  ![v714.toNat, 0]

def k1_off239 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v719 : Index := Scalar.indexCast v1
  let c119 : Index := 119#32
  ![v719.toNat, 119]
def k1_off240 (v720 : BitVec 32) : Fin 2 → Nat :=
  let c0_i32_361 : BitVec 32 := 0#32
  ![v720.toNat, 0]

def k1_off241 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v725 : Index := Scalar.indexCast v1
  let c120 : Index := 120#32
  ![v725.toNat, 120]
def k1_off242 (v726 : BitVec 32) : Fin 2 → Nat :=
  let c0_i32_364 : BitVec 32 := 0#32
  ![v726.toNat, 0]

def k1_off243 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v731 : Index := Scalar.indexCast v1
  let c121 : Index := 121#32
  ![v731.toNat, 121]
def k1_off244 (v732 : BitVec 32) : Fin 2 → Nat :=
  let c0_i32_367 : BitVec 32 := 0#32
  ![v732.toNat, 0]

def k1_off245 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v737 : Index := Scalar.indexCast v1
  let c122 : Index := 122#32
  ![v737.toNat, 122]
def k1_off246 (v738 : BitVec 32) : Fin 2 → Nat :=
  let c0_i32_370 : BitVec 32 := 0#32
  ![v738.toNat, 0]

def k1_off247 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v743 : Index := Scalar.indexCast v1
  let c123 : Index := 123#32
  ![v743.toNat, 123]
def k1_off248 (v744 : BitVec 32) : Fin 2 → Nat :=
  let c0_i32_373 : BitVec 32 := 0#32
  ![v744.toNat, 0]

def k1_off249 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v749 : Index := Scalar.indexCast v1
  let c124 : Index := 124#32
  ![v749.toNat, 124]
def k1_off250 (v750 : BitVec 32) : Fin 2 → Nat :=
  let c0_i32_376 : BitVec 32 := 0#32
  ![v750.toNat, 0]

def k1_off251 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v755 : Index := Scalar.indexCast v1
  let c125 : Index := 125#32
  ![v755.toNat, 125]
def k1_off252 (v756 : BitVec 32) : Fin 2 → Nat :=
  let c0_i32_379 : BitVec 32 := 0#32
  ![v756.toNat, 0]

def k1_off253 (i : grid1.Coords) : Fin 2 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let v1 : BitVec 32 := Scalar.addi v0 arg1
  let v761 : Index := Scalar.indexCast v1
  let c126 : Index := 126#32
  ![v761.toNat, 126]
def k1_off254 (v762 : BitVec 32) : Fin 2 → Nat :=
  let c0_i32_382 : BitVec 32 := 0#32
  ![v762.toNat, 0]

def k1_chk127 (v762 : BitVec 32) : Prop :=
  (∀ a, (k1_off254 v762) a + S1x2048.size a ≤ S26112x2048.size a)
instance k1_chk127.dec : ∀ (v762 : BitVec 32), Decidable (k1_chk127 v762) := fun v762 => decidable_of_iff' _ (Iff.of_eq (k1_chk127.eq_1 v762))
theorem k1_off254_inb : ∀ (v762 : BitVec 32) (k1_hw127 : k1_chk127 v762), ∀ a, (k1_off254 v762) a + S1x2048.size a ≤ S26112x2048.size a := fun v762 k1_hw127 => k1_hw127

def k1_off255 (v6 : BitVec 32) : Fin 2 → Nat :=
  let c0_i32_386 : BitVec 32 := 0#32
  ![v6.toNat, 0]

def k1_chk1 (v6 : BitVec 32) : Prop :=
  (∀ a, (k1_off2 v6) a + S1x2048.size a ≤ S26112x2048.size a) ∧
  (∀ a, (k1_off255 v6) a + S1x2048.size a ≤ S26112x2048.size a)
instance k1_chk1.dec : ∀ (v6 : BitVec 32), Decidable (k1_chk1 v6) := fun v6 => decidable_of_iff' _ (Iff.of_eq (k1_chk1.eq_1 v6))
theorem k1_off2_inb : ∀ (v6 : BitVec 32) (k1_hw1 : k1_chk1 v6), ∀ a, (k1_off2 v6) a + S1x2048.size a ≤ S26112x2048.size a := fun v6 k1_hw1 => k1_hw1.1
theorem k1_off255_inb : ∀ (v6 : BitVec 32) (k1_hw1 : k1_chk1 v6), ∀ a, (k1_off255 v6) a + S1x2048.size a ≤ S26112x2048.size a := fun v6 k1_hw1 => k1_hw1.2

def k1_off256 (v12 : BitVec 32) : Fin 2 → Nat :=
  let c0_i32_390 : BitVec 32 := 0#32
  ![v12.toNat, 0]

def k1_chk2 (v12 : BitVec 32) : Prop :=
  (∀ a, (k1_off4 v12) a + S1x2048.size a ≤ S26112x2048.size a) ∧
  (∀ a, (k1_off256 v12) a + S1x2048.size a ≤ S26112x2048.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x2048.size a ≤ S26112x2048.size a := fun v12 k1_hw2 => k1_hw2.1
theorem k1_off256_inb : ∀ (v12 : BitVec 32) (k1_hw2 : k1_chk2 v12), ∀ a, (k1_off256 v12) a + S1x2048.size a ≤ S26112x2048.size a := fun v12 k1_hw2 => k1_hw2.2

def k1_off257 (v18 : BitVec 32) : Fin 2 → Nat :=
  let c0_i32_394 : BitVec 32 := 0#32
  ![v18.toNat, 0]

def k1_chk3 (v18 : BitVec 32) : Prop :=
  (∀ a, (k1_off6 v18) a + S1x2048.size a ≤ S26112x2048.size a) ∧
  (∀ a, (k1_off257 v18) a + S1x2048.size a ≤ S26112x2048.size a)
instance k1_chk3.dec : ∀ (v18 : BitVec 32), Decidable (k1_chk3 v18) := fun v18 => decidable_of_iff' _ (Iff.of_eq (k1_chk3.eq_1 v18))
theorem k1_off6_inb : ∀ (v18 : BitVec 32) (k1_hw3 : k1_chk3 v18), ∀ a, (k1_off6 v18) a + S1x2048.size a ≤ S26112x2048.size a := fun v18 k1_hw3 => k1_hw3.1
theorem k1_off257_inb : ∀ (v18 : BitVec 32) (k1_hw3 : k1_chk3 v18), ∀ a, (k1_off257 v18) a + S1x2048.size a ≤ S26112x2048.size a := fun v18 k1_hw3 => k1_hw3.2

def k1_off258 (v24 : BitVec 32) : Fin 2 → Nat :=
  let c0_i32_398 : BitVec 32 := 0#32
  ![v24.toNat, 0]

def k1_chk4 (v24 : BitVec 32) : Prop :=
  (∀ a, (k1_off8 v24) a + S1x2048.size a ≤ S26112x2048.size a) ∧
  (∀ a, (k1_off258 v24) a + S1x2048.size a ≤ S26112x2048.size a)
instance k1_chk4.dec : ∀ (v24 : BitVec 32), Decidable (k1_chk4 v24) := fun v24 => decidable_of_iff' _ (Iff.of_eq (k1_chk4.eq_1 v24))
theorem k1_off8_inb : ∀ (v24 : BitVec 32) (k1_hw4 : k1_chk4 v24), ∀ a, (k1_off8 v24) a + S1x2048.size a ≤ S26112x2048.size a := fun v24 k1_hw4 => k1_hw4.1
theorem k1_off258_inb : ∀ (v24 : BitVec 32) (k1_hw4 : k1_chk4 v24), ∀ a, (k1_off258 v24) a + S1x2048.size a ≤ S26112x2048.size a := fun v24 k1_hw4 => k1_hw4.2

def k1_off259 (v30 : BitVec 32) : Fin 2 → Nat :=
  let c0_i32_402 : BitVec 32 := 0#32
  ![v30.toNat, 0]

def k1_chk5 (v30 : BitVec 32) : Prop :=
  (∀ a, (k1_off10 v30) a + S1x2048.size a ≤ S26112x2048.size a) ∧
  (∀ a, (k1_off259 v30) a + S1x2048.size a ≤ S26112x2048.size a)
instance k1_chk5.dec : ∀ (v30 : BitVec 32), Decidable (k1_chk5 v30) := fun v30 => decidable_of_iff' _ (Iff.of_eq (k1_chk5.eq_1 v30))
theorem k1_off10_inb : ∀ (v30 : BitVec 32) (k1_hw5 : k1_chk5 v30), ∀ a, (k1_off10 v30) a + S1x2048.size a ≤ S26112x2048.size a := fun v30 k1_hw5 => k1_hw5.1
theorem k1_off259_inb : ∀ (v30 : BitVec 32) (k1_hw5 : k1_chk5 v30), ∀ a, (k1_off259 v30) a + S1x2048.size a ≤ S26112x2048.size a := fun v30 k1_hw5 => k1_hw5.2

def k1_off260 (v36 : BitVec 32) : Fin 2 → Nat :=
  let c0_i32_406 : BitVec 32 := 0#32
  ![v36.toNat, 0]

def k1_chk6 (v36 : BitVec 32) : Prop :=
  (∀ a, (k1_off12 v36) a + S1x2048.size a ≤ S26112x2048.size a) ∧
  (∀ a, (k1_off260 v36) a + S1x2048.size a ≤ S26112x2048.size a)
instance k1_chk6.dec : ∀ (v36 : BitVec 32), Decidable (k1_chk6 v36) := fun v36 => decidable_of_iff' _ (Iff.of_eq (k1_chk6.eq_1 v36))
theorem k1_off12_inb : ∀ (v36 : BitVec 32) (k1_hw6 : k1_chk6 v36), ∀ a, (k1_off12 v36) a + S1x2048.size a ≤ S26112x2048.size a := fun v36 k1_hw6 => k1_hw6.1
theorem k1_off260_inb : ∀ (v36 : BitVec 32) (k1_hw6 : k1_chk6 v36), ∀ a, (k1_off260 v36) a + S1x2048.size a ≤ S26112x2048.size a := fun v36 k1_hw6 => k1_hw6.2

def k1_off261 (v42 : BitVec 32) : Fin 2 → Nat :=
  let c0_i32_410 : BitVec 32 := 0#32
  ![v42.toNat, 0]

def k1_chk7 (v42 : BitVec 32) : Prop :=
  (∀ a, (k1_off14 v42) a + S1x2048.size a ≤ S26112x2048.size a) ∧
  (∀ a, (k1_off261 v42) a + S1x2048.size a ≤ S26112x2048.size a)
instance k1_chk7.dec : ∀ (v42 : BitVec 32), Decidable (k1_chk7 v42) := fun v42 => decidable_of_iff' _ (Iff.of_eq (k1_chk7.eq_1 v42))
theorem k1_off14_inb : ∀ (v42 : BitVec 32) (k1_hw7 : k1_chk7 v42), ∀ a, (k1_off14 v42) a + S1x2048.size a ≤ S26112x2048.size a := fun v42 k1_hw7 => k1_hw7.1
theorem k1_off261_inb : ∀ (v42 : BitVec 32) (k1_hw7 : k1_chk7 v42), ∀ a, (k1_off261 v42) a + S1x2048.size a ≤ S26112x2048.size a := fun v42 k1_hw7 => k1_hw7.2

def k1_off262 (v48 : BitVec 32) : Fin 2 → Nat :=
  let c0_i32_414 : BitVec 32 := 0#32
  ![v48.toNat, 0]

def k1_chk8 (v48 : BitVec 32) : Prop :=
  (∀ a, (k1_off16 v48) a + S1x2048.size a ≤ S26112x2048.size a) ∧
  (∀ a, (k1_off262 v48) a + S1x2048.size a ≤ S26112x2048.size a)
instance k1_chk8.dec : ∀ (v48 : BitVec 32), Decidable (k1_chk8 v48) := fun v48 => decidable_of_iff' _ (Iff.of_eq (k1_chk8.eq_1 v48))
theorem k1_off16_inb : ∀ (v48 : BitVec 32) (k1_hw8 : k1_chk8 v48), ∀ a, (k1_off16 v48) a + S1x2048.size a ≤ S26112x2048.size a := fun v48 k1_hw8 => k1_hw8.1
theorem k1_off262_inb : ∀ (v48 : BitVec 32) (k1_hw8 : k1_chk8 v48), ∀ a, (k1_off262 v48) a + S1x2048.size a ≤ S26112x2048.size a := fun v48 k1_hw8 => k1_hw8.2

def k1_off263 (v54 : BitVec 32) : Fin 2 → Nat :=
  let c0_i32_418 : BitVec 32 := 0#32
  ![v54.toNat, 0]

def k1_chk9 (v54 : BitVec 32) : Prop :=
  (∀ a, (k1_off18 v54) a + S1x2048.size a ≤ S26112x2048.size a) ∧
  (∀ a, (k1_off263 v54) a + S1x2048.size a ≤ S26112x2048.size a)
instance k1_chk9.dec : ∀ (v54 : BitVec 32), Decidable (k1_chk9 v54) := fun v54 => decidable_of_iff' _ (Iff.of_eq (k1_chk9.eq_1 v54))
theorem k1_off18_inb : ∀ (v54 : BitVec 32) (k1_hw9 : k1_chk9 v54), ∀ a, (k1_off18 v54) a + S1x2048.size a ≤ S26112x2048.size a := fun v54 k1_hw9 => k1_hw9.1
theorem k1_off263_inb : ∀ (v54 : BitVec 32) (k1_hw9 : k1_chk9 v54), ∀ a, (k1_off263 v54) a + S1x2048.size a ≤ S26112x2048.size a := fun v54 k1_hw9 => k1_hw9.2

def k1_off264 (v60 : BitVec 32) : Fin 2 → Nat :=
  let c0_i32_422 : BitVec 32 := 0#32
  ![v60.toNat, 0]

def k1_chk10 (v60 : BitVec 32) : Prop :=
  (∀ a, (k1_off20 v60) a + S1x2048.size a ≤ S26112x2048.size a) ∧
  (∀ a, (k1_off264 v60) a + S1x2048.size a ≤ S26112x2048.size a)
instance k1_chk10.dec : ∀ (v60 : BitVec 32), Decidable (k1_chk10 v60) := fun v60 => decidable_of_iff' _ (Iff.of_eq (k1_chk10.eq_1 v60))
theorem k1_off20_inb : ∀ (v60 : BitVec 32) (k1_hw10 : k1_chk10 v60), ∀ a, (k1_off20 v60) a + S1x2048.size a ≤ S26112x2048.size a := fun v60 k1_hw10 => k1_hw10.1
theorem k1_off264_inb : ∀ (v60 : BitVec 32) (k1_hw10 : k1_chk10 v60), ∀ a, (k1_off264 v60) a + S1x2048.size a ≤ S26112x2048.size a := fun v60 k1_hw10 => k1_hw10.2

def k1_off265 (v66 : BitVec 32) : Fin 2 → Nat :=
  let c0_i32_426 : BitVec 32 := 0#32
  ![v66.toNat, 0]

def k1_chk11 (v66 : BitVec 32) : Prop :=
  (∀ a, (k1_off22 v66) a + S1x2048.size a ≤ S26112x2048.size a) ∧
  (∀ a, (k1_off265 v66) a + S1x2048.size a ≤ S26112x2048.size a)
instance k1_chk11.dec : ∀ (v66 : BitVec 32), Decidable (k1_chk11 v66) := fun v66 => decidable_of_iff' _ (Iff.of_eq (k1_chk11.eq_1 v66))
theorem k1_off22_inb : ∀ (v66 : BitVec 32) (k1_hw11 : k1_chk11 v66), ∀ a, (k1_off22 v66) a + S1x2048.size a ≤ S26112x2048.size a := fun v66 k1_hw11 => k1_hw11.1
theorem k1_off265_inb : ∀ (v66 : BitVec 32) (k1_hw11 : k1_chk11 v66), ∀ a, (k1_off265 v66) a + S1x2048.size a ≤ S26112x2048.size a := fun v66 k1_hw11 => k1_hw11.2

def k1_off266 (v72 : BitVec 32) : Fin 2 → Nat :=
  let c0_i32_430 : BitVec 32 := 0#32
  ![v72.toNat, 0]

def k1_chk12 (v72 : BitVec 32) : Prop :=
  (∀ a, (k1_off24 v72) a + S1x2048.size a ≤ S26112x2048.size a) ∧
  (∀ a, (k1_off266 v72) a + S1x2048.size a ≤ S26112x2048.size a)
instance k1_chk12.dec : ∀ (v72 : BitVec 32), Decidable (k1_chk12 v72) := fun v72 => decidable_of_iff' _ (Iff.of_eq (k1_chk12.eq_1 v72))
theorem k1_off24_inb : ∀ (v72 : BitVec 32) (k1_hw12 : k1_chk12 v72), ∀ a, (k1_off24 v72) a + S1x2048.size a ≤ S26112x2048.size a := fun v72 k1_hw12 => k1_hw12.1
theorem k1_off266_inb : ∀ (v72 : BitVec 32) (k1_hw12 : k1_chk12 v72), ∀ a, (k1_off266 v72) a + S1x2048.size a ≤ S26112x2048.size a := fun v72 k1_hw12 => k1_hw12.2

def k1_off267 (v78 : BitVec 32) : Fin 2 → Nat :=
  let c0_i32_434 : BitVec 32 := 0#32
  ![v78.toNat, 0]

def k1_chk13 (v78 : BitVec 32) : Prop :=
  (∀ a, (k1_off26 v78) a + S1x2048.size a ≤ S26112x2048.size a) ∧
  (∀ a, (k1_off267 v78) a + S1x2048.size a ≤ S26112x2048.size a)
instance k1_chk13.dec : ∀ (v78 : BitVec 32), Decidable (k1_chk13 v78) := fun v78 => decidable_of_iff' _ (Iff.of_eq (k1_chk13.eq_1 v78))
theorem k1_off26_inb : ∀ (v78 : BitVec 32) (k1_hw13 : k1_chk13 v78), ∀ a, (k1_off26 v78) a + S1x2048.size a ≤ S26112x2048.size a := fun v78 k1_hw13 => k1_hw13.1
theorem k1_off267_inb : ∀ (v78 : BitVec 32) (k1_hw13 : k1_chk13 v78), ∀ a, (k1_off267 v78) a + S1x2048.size a ≤ S26112x2048.size a := fun v78 k1_hw13 => k1_hw13.2

def k1_off268 (v84 : BitVec 32) : Fin 2 → Nat :=
  let c0_i32_438 : BitVec 32 := 0#32
  ![v84.toNat, 0]

def k1_chk14 (v84 : BitVec 32) : Prop :=
  (∀ a, (k1_off28 v84) a + S1x2048.size a ≤ S26112x2048.size a) ∧
  (∀ a, (k1_off268 v84) a + S1x2048.size a ≤ S26112x2048.size a)
instance k1_chk14.dec : ∀ (v84 : BitVec 32), Decidable (k1_chk14 v84) := fun v84 => decidable_of_iff' _ (Iff.of_eq (k1_chk14.eq_1 v84))
theorem k1_off28_inb : ∀ (v84 : BitVec 32) (k1_hw14 : k1_chk14 v84), ∀ a, (k1_off28 v84) a + S1x2048.size a ≤ S26112x2048.size a := fun v84 k1_hw14 => k1_hw14.1
theorem k1_off268_inb : ∀ (v84 : BitVec 32) (k1_hw14 : k1_chk14 v84), ∀ a, (k1_off268 v84) a + S1x2048.size a ≤ S26112x2048.size a := fun v84 k1_hw14 => k1_hw14.2

def k1_off269 (v90 : BitVec 32) : Fin 2 → Nat :=
  let c0_i32_442 : BitVec 32 := 0#32
  ![v90.toNat, 0]

def k1_chk15 (v90 : BitVec 32) : Prop :=
  (∀ a, (k1_off30 v90) a + S1x2048.size a ≤ S26112x2048.size a) ∧
  (∀ a, (k1_off269 v90) a + S1x2048.size a ≤ S26112x2048.size a)
instance k1_chk15.dec : ∀ (v90 : BitVec 32), Decidable (k1_chk15 v90) := fun v90 => decidable_of_iff' _ (Iff.of_eq (k1_chk15.eq_1 v90))
theorem k1_off30_inb : ∀ (v90 : BitVec 32) (k1_hw15 : k1_chk15 v90), ∀ a, (k1_off30 v90) a + S1x2048.size a ≤ S26112x2048.size a := fun v90 k1_hw15 => k1_hw15.1
theorem k1_off269_inb : ∀ (v90 : BitVec 32) (k1_hw15 : k1_chk15 v90), ∀ a, (k1_off269 v90) a + S1x2048.size a ≤ S26112x2048.size a := fun v90 k1_hw15 => k1_hw15.2

def k1_off270 (v96 : BitVec 32) : Fin 2 → Nat :=
  let c0_i32_446 : BitVec 32 := 0#32
  ![v96.toNat, 0]

def k1_chk16 (v96 : BitVec 32) : Prop :=
  (∀ a, (k1_off32 v96) a + S1x2048.size a ≤ S26112x2048.size a) ∧
  (∀ a, (k1_off270 v96) a + S1x2048.size a ≤ S26112x2048.size a)
instance k1_chk16.dec : ∀ (v96 : BitVec 32), Decidable (k1_chk16 v96) := fun v96 => decidable_of_iff' _ (Iff.of_eq (k1_chk16.eq_1 v96))
theorem k1_off32_inb : ∀ (v96 : BitVec 32) (k1_hw16 : k1_chk16 v96), ∀ a, (k1_off32 v96) a + S1x2048.size a ≤ S26112x2048.size a := fun v96 k1_hw16 => k1_hw16.1
theorem k1_off270_inb : ∀ (v96 : BitVec 32) (k1_hw16 : k1_chk16 v96), ∀ a, (k1_off270 v96) a + S1x2048.size a ≤ S26112x2048.size a := fun v96 k1_hw16 => k1_hw16.2

def k1_off271 (v102 : BitVec 32) : Fin 2 → Nat :=
  let c0_i32_450 : BitVec 32 := 0#32
  ![v102.toNat, 0]

def k1_chk17 (v102 : BitVec 32) : Prop :=
  (∀ a, (k1_off34 v102) a + S1x2048.size a ≤ S26112x2048.size a) ∧
  (∀ a, (k1_off271 v102) a + S1x2048.size a ≤ S26112x2048.size a)
instance k1_chk17.dec : ∀ (v102 : BitVec 32), Decidable (k1_chk17 v102) := fun v102 => decidable_of_iff' _ (Iff.of_eq (k1_chk17.eq_1 v102))
theorem k1_off34_inb : ∀ (v102 : BitVec 32) (k1_hw17 : k1_chk17 v102), ∀ a, (k1_off34 v102) a + S1x2048.size a ≤ S26112x2048.size a := fun v102 k1_hw17 => k1_hw17.1
theorem k1_off271_inb : ∀ (v102 : BitVec 32) (k1_hw17 : k1_chk17 v102), ∀ a, (k1_off271 v102) a + S1x2048.size a ≤ S26112x2048.size a := fun v102 k1_hw17 => k1_hw17.2

def k1_off272 (v108 : BitVec 32) : Fin 2 → Nat :=
  let c0_i32_454 : BitVec 32 := 0#32
  ![v108.toNat, 0]

def k1_chk18 (v108 : BitVec 32) : Prop :=
  (∀ a, (k1_off36 v108) a + S1x2048.size a ≤ S26112x2048.size a) ∧
  (∀ a, (k1_off272 v108) a + S1x2048.size a ≤ S26112x2048.size a)
instance k1_chk18.dec : ∀ (v108 : BitVec 32), Decidable (k1_chk18 v108) := fun v108 => decidable_of_iff' _ (Iff.of_eq (k1_chk18.eq_1 v108))
theorem k1_off36_inb : ∀ (v108 : BitVec 32) (k1_hw18 : k1_chk18 v108), ∀ a, (k1_off36 v108) a + S1x2048.size a ≤ S26112x2048.size a := fun v108 k1_hw18 => k1_hw18.1
theorem k1_off272_inb : ∀ (v108 : BitVec 32) (k1_hw18 : k1_chk18 v108), ∀ a, (k1_off272 v108) a + S1x2048.size a ≤ S26112x2048.size a := fun v108 k1_hw18 => k1_hw18.2

def k1_off273 (v114 : BitVec 32) : Fin 2 → Nat :=
  let c0_i32_458 : BitVec 32 := 0#32
  ![v114.toNat, 0]

def k1_chk19 (v114 : BitVec 32) : Prop :=
  (∀ a, (k1_off38 v114) a + S1x2048.size a ≤ S26112x2048.size a) ∧
  (∀ a, (k1_off273 v114) a + S1x2048.size a ≤ S26112x2048.size a)
instance k1_chk19.dec : ∀ (v114 : BitVec 32), Decidable (k1_chk19 v114) := fun v114 => decidable_of_iff' _ (Iff.of_eq (k1_chk19.eq_1 v114))
theorem k1_off38_inb : ∀ (v114 : BitVec 32) (k1_hw19 : k1_chk19 v114), ∀ a, (k1_off38 v114) a + S1x2048.size a ≤ S26112x2048.size a := fun v114 k1_hw19 => k1_hw19.1
theorem k1_off273_inb : ∀ (v114 : BitVec 32) (k1_hw19 : k1_chk19 v114), ∀ a, (k1_off273 v114) a + S1x2048.size a ≤ S26112x2048.size a := fun v114 k1_hw19 => k1_hw19.2

def k1_off274 (v120 : BitVec 32) : Fin 2 → Nat :=
  let c0_i32_462 : BitVec 32 := 0#32
  ![v120.toNat, 0]

def k1_chk20 (v120 : BitVec 32) : Prop :=
  (∀ a, (k1_off40 v120) a + S1x2048.size a ≤ S26112x2048.size a) ∧
  (∀ a, (k1_off274 v120) a + S1x2048.size a ≤ S26112x2048.size a)
instance k1_chk20.dec : ∀ (v120 : BitVec 32), Decidable (k1_chk20 v120) := fun v120 => decidable_of_iff' _ (Iff.of_eq (k1_chk20.eq_1 v120))
theorem k1_off40_inb : ∀ (v120 : BitVec 32) (k1_hw20 : k1_chk20 v120), ∀ a, (k1_off40 v120) a + S1x2048.size a ≤ S26112x2048.size a := fun v120 k1_hw20 => k1_hw20.1
theorem k1_off274_inb : ∀ (v120 : BitVec 32) (k1_hw20 : k1_chk20 v120), ∀ a, (k1_off274 v120) a + S1x2048.size a ≤ S26112x2048.size a := fun v120 k1_hw20 => k1_hw20.2

def k1_off275 (v126 : BitVec 32) : Fin 2 → Nat :=
  let c0_i32_466 : BitVec 32 := 0#32
  ![v126.toNat, 0]

def k1_chk21 (v126 : BitVec 32) : Prop :=
  (∀ a, (k1_off42 v126) a + S1x2048.size a ≤ S26112x2048.size a) ∧
  (∀ a, (k1_off275 v126) a + S1x2048.size a ≤ S26112x2048.size a)
instance k1_chk21.dec : ∀ (v126 : BitVec 32), Decidable (k1_chk21 v126) := fun v126 => decidable_of_iff' _ (Iff.of_eq (k1_chk21.eq_1 v126))
theorem k1_off42_inb : ∀ (v126 : BitVec 32) (k1_hw21 : k1_chk21 v126), ∀ a, (k1_off42 v126) a + S1x2048.size a ≤ S26112x2048.size a := fun v126 k1_hw21 => k1_hw21.1
theorem k1_off275_inb : ∀ (v126 : BitVec 32) (k1_hw21 : k1_chk21 v126), ∀ a, (k1_off275 v126) a + S1x2048.size a ≤ S26112x2048.size a := fun v126 k1_hw21 => k1_hw21.2

def k1_off276 (v132 : BitVec 32) : Fin 2 → Nat :=
  let c0_i32_470 : BitVec 32 := 0#32
  ![v132.toNat, 0]

def k1_chk22 (v132 : BitVec 32) : Prop :=
  (∀ a, (k1_off44 v132) a + S1x2048.size a ≤ S26112x2048.size a) ∧
  (∀ a, (k1_off276 v132) a + S1x2048.size a ≤ S26112x2048.size a)
instance k1_chk22.dec : ∀ (v132 : BitVec 32), Decidable (k1_chk22 v132) := fun v132 => decidable_of_iff' _ (Iff.of_eq (k1_chk22.eq_1 v132))
theorem k1_off44_inb : ∀ (v132 : BitVec 32) (k1_hw22 : k1_chk22 v132), ∀ a, (k1_off44 v132) a + S1x2048.size a ≤ S26112x2048.size a := fun v132 k1_hw22 => k1_hw22.1
theorem k1_off276_inb : ∀ (v132 : BitVec 32) (k1_hw22 : k1_chk22 v132), ∀ a, (k1_off276 v132) a + S1x2048.size a ≤ S26112x2048.size a := fun v132 k1_hw22 => k1_hw22.2

def k1_off277 (v138 : BitVec 32) : Fin 2 → Nat :=
  let c0_i32_474 : BitVec 32 := 0#32
  ![v138.toNat, 0]

def k1_chk23 (v138 : BitVec 32) : Prop :=
  (∀ a, (k1_off46 v138) a + S1x2048.size a ≤ S26112x2048.size a) ∧
  (∀ a, (k1_off277 v138) a + S1x2048.size a ≤ S26112x2048.size a)
instance k1_chk23.dec : ∀ (v138 : BitVec 32), Decidable (k1_chk23 v138) := fun v138 => decidable_of_iff' _ (Iff.of_eq (k1_chk23.eq_1 v138))
theorem k1_off46_inb : ∀ (v138 : BitVec 32) (k1_hw23 : k1_chk23 v138), ∀ a, (k1_off46 v138) a + S1x2048.size a ≤ S26112x2048.size a := fun v138 k1_hw23 => k1_hw23.1
theorem k1_off277_inb : ∀ (v138 : BitVec 32) (k1_hw23 : k1_chk23 v138), ∀ a, (k1_off277 v138) a + S1x2048.size a ≤ S26112x2048.size a := fun v138 k1_hw23 => k1_hw23.2

def k1_off278 (v144 : BitVec 32) : Fin 2 → Nat :=
  let c0_i32_478 : BitVec 32 := 0#32
  ![v144.toNat, 0]

def k1_chk24 (v144 : BitVec 32) : Prop :=
  (∀ a, (k1_off48 v144) a + S1x2048.size a ≤ S26112x2048.size a) ∧
  (∀ a, (k1_off278 v144) a + S1x2048.size a ≤ S26112x2048.size a)
instance k1_chk24.dec : ∀ (v144 : BitVec 32), Decidable (k1_chk24 v144) := fun v144 => decidable_of_iff' _ (Iff.of_eq (k1_chk24.eq_1 v144))
theorem k1_off48_inb : ∀ (v144 : BitVec 32) (k1_hw24 : k1_chk24 v144), ∀ a, (k1_off48 v144) a + S1x2048.size a ≤ S26112x2048.size a := fun v144 k1_hw24 => k1_hw24.1
theorem k1_off278_inb : ∀ (v144 : BitVec 32) (k1_hw24 : k1_chk24 v144), ∀ a, (k1_off278 v144) a + S1x2048.size a ≤ S26112x2048.size a := fun v144 k1_hw24 => k1_hw24.2

def k1_off279 (v150 : BitVec 32) : Fin 2 → Nat :=
  let c0_i32_482 : BitVec 32 := 0#32
  ![v150.toNat, 0]

def k1_chk25 (v150 : BitVec 32) : Prop :=
  (∀ a, (k1_off50 v150) a + S1x2048.size a ≤ S26112x2048.size a) ∧
  (∀ a, (k1_off279 v150) a + S1x2048.size a ≤ S26112x2048.size a)
instance k1_chk25.dec : ∀ (v150 : BitVec 32), Decidable (k1_chk25 v150) := fun v150 => decidable_of_iff' _ (Iff.of_eq (k1_chk25.eq_1 v150))
theorem k1_off50_inb : ∀ (v150 : BitVec 32) (k1_hw25 : k1_chk25 v150), ∀ a, (k1_off50 v150) a + S1x2048.size a ≤ S26112x2048.size a := fun v150 k1_hw25 => k1_hw25.1
theorem k1_off279_inb : ∀ (v150 : BitVec 32) (k1_hw25 : k1_chk25 v150), ∀ a, (k1_off279 v150) a + S1x2048.size a ≤ S26112x2048.size a := fun v150 k1_hw25 => k1_hw25.2

def k1_off280 (v156 : BitVec 32) : Fin 2 → Nat :=
  let c0_i32_486 : BitVec 32 := 0#32
  ![v156.toNat, 0]

def k1_chk26 (v156 : BitVec 32) : Prop :=
  (∀ a, (k1_off52 v156) a + S1x2048.size a ≤ S26112x2048.size a) ∧
  (∀ a, (k1_off280 v156) a + S1x2048.size a ≤ S26112x2048.size a)
instance k1_chk26.dec : ∀ (v156 : BitVec 32), Decidable (k1_chk26 v156) := fun v156 => decidable_of_iff' _ (Iff.of_eq (k1_chk26.eq_1 v156))
theorem k1_off52_inb : ∀ (v156 : BitVec 32) (k1_hw26 : k1_chk26 v156), ∀ a, (k1_off52 v156) a + S1x2048.size a ≤ S26112x2048.size a := fun v156 k1_hw26 => k1_hw26.1
theorem k1_off280_inb : ∀ (v156 : BitVec 32) (k1_hw26 : k1_chk26 v156), ∀ a, (k1_off280 v156) a + S1x2048.size a ≤ S26112x2048.size a := fun v156 k1_hw26 => k1_hw26.2

def k1_off281 (v162 : BitVec 32) : Fin 2 → Nat :=
  let c0_i32_490 : BitVec 32 := 0#32
  ![v162.toNat, 0]

def k1_chk27 (v162 : BitVec 32) : Prop :=
  (∀ a, (k1_off54 v162) a + S1x2048.size a ≤ S26112x2048.size a) ∧
  (∀ a, (k1_off281 v162) a + S1x2048.size a ≤ S26112x2048.size a)
instance k1_chk27.dec : ∀ (v162 : BitVec 32), Decidable (k1_chk27 v162) := fun v162 => decidable_of_iff' _ (Iff.of_eq (k1_chk27.eq_1 v162))
theorem k1_off54_inb : ∀ (v162 : BitVec 32) (k1_hw27 : k1_chk27 v162), ∀ a, (k1_off54 v162) a + S1x2048.size a ≤ S26112x2048.size a := fun v162 k1_hw27 => k1_hw27.1
theorem k1_off281_inb : ∀ (v162 : BitVec 32) (k1_hw27 : k1_chk27 v162), ∀ a, (k1_off281 v162) a + S1x2048.size a ≤ S26112x2048.size a := fun v162 k1_hw27 => k1_hw27.2

def k1_off282 (v168 : BitVec 32) : Fin 2 → Nat :=
  let c0_i32_494 : BitVec 32 := 0#32
  ![v168.toNat, 0]

def k1_chk28 (v168 : BitVec 32) : Prop :=
  (∀ a, (k1_off56 v168) a + S1x2048.size a ≤ S26112x2048.size a) ∧
  (∀ a, (k1_off282 v168) a + S1x2048.size a ≤ S26112x2048.size a)
instance k1_chk28.dec : ∀ (v168 : BitVec 32), Decidable (k1_chk28 v168) := fun v168 => decidable_of_iff' _ (Iff.of_eq (k1_chk28.eq_1 v168))
theorem k1_off56_inb : ∀ (v168 : BitVec 32) (k1_hw28 : k1_chk28 v168), ∀ a, (k1_off56 v168) a + S1x2048.size a ≤ S26112x2048.size a := fun v168 k1_hw28 => k1_hw28.1
theorem k1_off282_inb : ∀ (v168 : BitVec 32) (k1_hw28 : k1_chk28 v168), ∀ a, (k1_off282 v168) a + S1x2048.size a ≤ S26112x2048.size a := fun v168 k1_hw28 => k1_hw28.2

def k1_off283 (v174 : BitVec 32) : Fin 2 → Nat :=
  let c0_i32_498 : BitVec 32 := 0#32
  ![v174.toNat, 0]

def k1_chk29 (v174 : BitVec 32) : Prop :=
  (∀ a, (k1_off58 v174) a + S1x2048.size a ≤ S26112x2048.size a) ∧
  (∀ a, (k1_off283 v174) a + S1x2048.size a ≤ S26112x2048.size a)
instance k1_chk29.dec : ∀ (v174 : BitVec 32), Decidable (k1_chk29 v174) := fun v174 => decidable_of_iff' _ (Iff.of_eq (k1_chk29.eq_1 v174))
theorem k1_off58_inb : ∀ (v174 : BitVec 32) (k1_hw29 : k1_chk29 v174), ∀ a, (k1_off58 v174) a + S1x2048.size a ≤ S26112x2048.size a := fun v174 k1_hw29 => k1_hw29.1
theorem k1_off283_inb : ∀ (v174 : BitVec 32) (k1_hw29 : k1_chk29 v174), ∀ a, (k1_off283 v174) a + S1x2048.size a ≤ S26112x2048.size a := fun v174 k1_hw29 => k1_hw29.2

def k1_off284 (v180 : BitVec 32) : Fin 2 → Nat :=
  let c0_i32_502 : BitVec 32 := 0#32
  ![v180.toNat, 0]

def k1_chk30 (v180 : BitVec 32) : Prop :=
  (∀ a, (k1_off60 v180) a + S1x2048.size a ≤ S26112x2048.size a) ∧
  (∀ a, (k1_off284 v180) a + S1x2048.size a ≤ S26112x2048.size a)
instance k1_chk30.dec : ∀ (v180 : BitVec 32), Decidable (k1_chk30 v180) := fun v180 => decidable_of_iff' _ (Iff.of_eq (k1_chk30.eq_1 v180))
theorem k1_off60_inb : ∀ (v180 : BitVec 32) (k1_hw30 : k1_chk30 v180), ∀ a, (k1_off60 v180) a + S1x2048.size a ≤ S26112x2048.size a := fun v180 k1_hw30 => k1_hw30.1
theorem k1_off284_inb : ∀ (v180 : BitVec 32) (k1_hw30 : k1_chk30 v180), ∀ a, (k1_off284 v180) a + S1x2048.size a ≤ S26112x2048.size a := fun v180 k1_hw30 => k1_hw30.2

def k1_off285 (v186 : BitVec 32) : Fin 2 → Nat :=
  let c0_i32_506 : BitVec 32 := 0#32
  ![v186.toNat, 0]

def k1_chk31 (v186 : BitVec 32) : Prop :=
  (∀ a, (k1_off62 v186) a + S1x2048.size a ≤ S26112x2048.size a) ∧
  (∀ a, (k1_off285 v186) a + S1x2048.size a ≤ S26112x2048.size a)
instance k1_chk31.dec : ∀ (v186 : BitVec 32), Decidable (k1_chk31 v186) := fun v186 => decidable_of_iff' _ (Iff.of_eq (k1_chk31.eq_1 v186))
theorem k1_off62_inb : ∀ (v186 : BitVec 32) (k1_hw31 : k1_chk31 v186), ∀ a, (k1_off62 v186) a + S1x2048.size a ≤ S26112x2048.size a := fun v186 k1_hw31 => k1_hw31.1
theorem k1_off285_inb : ∀ (v186 : BitVec 32) (k1_hw31 : k1_chk31 v186), ∀ a, (k1_off285 v186) a + S1x2048.size a ≤ S26112x2048.size a := fun v186 k1_hw31 => k1_hw31.2

def k1_off286 (v192 : BitVec 32) : Fin 2 → Nat :=
  let c0_i32_510 : BitVec 32 := 0#32
  ![v192.toNat, 0]

def k1_chk32 (v192 : BitVec 32) : Prop :=
  (∀ a, (k1_off64 v192) a + S1x2048.size a ≤ S26112x2048.size a) ∧
  (∀ a, (k1_off286 v192) a + S1x2048.size a ≤ S26112x2048.size a)
instance k1_chk32.dec : ∀ (v192 : BitVec 32), Decidable (k1_chk32 v192) := fun v192 => decidable_of_iff' _ (Iff.of_eq (k1_chk32.eq_1 v192))
theorem k1_off64_inb : ∀ (v192 : BitVec 32) (k1_hw32 : k1_chk32 v192), ∀ a, (k1_off64 v192) a + S1x2048.size a ≤ S26112x2048.size a := fun v192 k1_hw32 => k1_hw32.1
theorem k1_off286_inb : ∀ (v192 : BitVec 32) (k1_hw32 : k1_chk32 v192), ∀ a, (k1_off286 v192) a + S1x2048.size a ≤ S26112x2048.size a := fun v192 k1_hw32 => k1_hw32.2

def k1_off287 (v198 : BitVec 32) : Fin 2 → Nat :=
  let c0_i32_514 : BitVec 32 := 0#32
  ![v198.toNat, 0]

def k1_chk33 (v198 : BitVec 32) : Prop :=
  (∀ a, (k1_off66 v198) a + S1x2048.size a ≤ S26112x2048.size a) ∧
  (∀ a, (k1_off287 v198) a + S1x2048.size a ≤ S26112x2048.size a)
instance k1_chk33.dec : ∀ (v198 : BitVec 32), Decidable (k1_chk33 v198) := fun v198 => decidable_of_iff' _ (Iff.of_eq (k1_chk33.eq_1 v198))
theorem k1_off66_inb : ∀ (v198 : BitVec 32) (k1_hw33 : k1_chk33 v198), ∀ a, (k1_off66 v198) a + S1x2048.size a ≤ S26112x2048.size a := fun v198 k1_hw33 => k1_hw33.1
theorem k1_off287_inb : ∀ (v198 : BitVec 32) (k1_hw33 : k1_chk33 v198), ∀ a, (k1_off287 v198) a + S1x2048.size a ≤ S26112x2048.size a := fun v198 k1_hw33 => k1_hw33.2

def k1_off288 (v204 : BitVec 32) : Fin 2 → Nat :=
  let c0_i32_518 : BitVec 32 := 0#32
  ![v204.toNat, 0]

def k1_chk34 (v204 : BitVec 32) : Prop :=
  (∀ a, (k1_off68 v204) a + S1x2048.size a ≤ S26112x2048.size a) ∧
  (∀ a, (k1_off288 v204) a + S1x2048.size a ≤ S26112x2048.size a)
instance k1_chk34.dec : ∀ (v204 : BitVec 32), Decidable (k1_chk34 v204) := fun v204 => decidable_of_iff' _ (Iff.of_eq (k1_chk34.eq_1 v204))
theorem k1_off68_inb : ∀ (v204 : BitVec 32) (k1_hw34 : k1_chk34 v204), ∀ a, (k1_off68 v204) a + S1x2048.size a ≤ S26112x2048.size a := fun v204 k1_hw34 => k1_hw34.1
theorem k1_off288_inb : ∀ (v204 : BitVec 32) (k1_hw34 : k1_chk34 v204), ∀ a, (k1_off288 v204) a + S1x2048.size a ≤ S26112x2048.size a := fun v204 k1_hw34 => k1_hw34.2

def k1_off289 (v210 : BitVec 32) : Fin 2 → Nat :=
  let c0_i32_522 : BitVec 32 := 0#32
  ![v210.toNat, 0]

def k1_chk35 (v210 : BitVec 32) : Prop :=
  (∀ a, (k1_off70 v210) a + S1x2048.size a ≤ S26112x2048.size a) ∧
  (∀ a, (k1_off289 v210) a + S1x2048.size a ≤ S26112x2048.size a)
instance k1_chk35.dec : ∀ (v210 : BitVec 32), Decidable (k1_chk35 v210) := fun v210 => decidable_of_iff' _ (Iff.of_eq (k1_chk35.eq_1 v210))
theorem k1_off70_inb : ∀ (v210 : BitVec 32) (k1_hw35 : k1_chk35 v210), ∀ a, (k1_off70 v210) a + S1x2048.size a ≤ S26112x2048.size a := fun v210 k1_hw35 => k1_hw35.1
theorem k1_off289_inb : ∀ (v210 : BitVec 32) (k1_hw35 : k1_chk35 v210), ∀ a, (k1_off289 v210) a + S1x2048.size a ≤ S26112x2048.size a := fun v210 k1_hw35 => k1_hw35.2

def k1_off290 (v216 : BitVec 32) : Fin 2 → Nat :=
  let c0_i32_526 : BitVec 32 := 0#32
  ![v216.toNat, 0]

def k1_chk36 (v216 : BitVec 32) : Prop :=
  (∀ a, (k1_off72 v216) a + S1x2048.size a ≤ S26112x2048.size a) ∧
  (∀ a, (k1_off290 v216) a + S1x2048.size a ≤ S26112x2048.size a)
instance k1_chk36.dec : ∀ (v216 : BitVec 32), Decidable (k1_chk36 v216) := fun v216 => decidable_of_iff' _ (Iff.of_eq (k1_chk36.eq_1 v216))
theorem k1_off72_inb : ∀ (v216 : BitVec 32) (k1_hw36 : k1_chk36 v216), ∀ a, (k1_off72 v216) a + S1x2048.size a ≤ S26112x2048.size a := fun v216 k1_hw36 => k1_hw36.1
theorem k1_off290_inb : ∀ (v216 : BitVec 32) (k1_hw36 : k1_chk36 v216), ∀ a, (k1_off290 v216) a + S1x2048.size a ≤ S26112x2048.size a := fun v216 k1_hw36 => k1_hw36.2

def k1_off291 (v222 : BitVec 32) : Fin 2 → Nat :=
  let c0_i32_530 : BitVec 32 := 0#32
  ![v222.toNat, 0]

def k1_chk37 (v222 : BitVec 32) : Prop :=
  (∀ a, (k1_off74 v222) a + S1x2048.size a ≤ S26112x2048.size a) ∧
  (∀ a, (k1_off291 v222) a + S1x2048.size a ≤ S26112x2048.size a)
instance k1_chk37.dec : ∀ (v222 : BitVec 32), Decidable (k1_chk37 v222) := fun v222 => decidable_of_iff' _ (Iff.of_eq (k1_chk37.eq_1 v222))
theorem k1_off74_inb : ∀ (v222 : BitVec 32) (k1_hw37 : k1_chk37 v222), ∀ a, (k1_off74 v222) a + S1x2048.size a ≤ S26112x2048.size a := fun v222 k1_hw37 => k1_hw37.1
theorem k1_off291_inb : ∀ (v222 : BitVec 32) (k1_hw37 : k1_chk37 v222), ∀ a, (k1_off291 v222) a + S1x2048.size a ≤ S26112x2048.size a := fun v222 k1_hw37 => k1_hw37.2

def k1_off292 (v228 : BitVec 32) : Fin 2 → Nat :=
  let c0_i32_534 : BitVec 32 := 0#32
  ![v228.toNat, 0]

def k1_chk38 (v228 : BitVec 32) : Prop :=
  (∀ a, (k1_off76 v228) a + S1x2048.size a ≤ S26112x2048.size a) ∧
  (∀ a, (k1_off292 v228) a + S1x2048.size a ≤ S26112x2048.size a)
instance k1_chk38.dec : ∀ (v228 : BitVec 32), Decidable (k1_chk38 v228) := fun v228 => decidable_of_iff' _ (Iff.of_eq (k1_chk38.eq_1 v228))
theorem k1_off76_inb : ∀ (v228 : BitVec 32) (k1_hw38 : k1_chk38 v228), ∀ a, (k1_off76 v228) a + S1x2048.size a ≤ S26112x2048.size a := fun v228 k1_hw38 => k1_hw38.1
theorem k1_off292_inb : ∀ (v228 : BitVec 32) (k1_hw38 : k1_chk38 v228), ∀ a, (k1_off292 v228) a + S1x2048.size a ≤ S26112x2048.size a := fun v228 k1_hw38 => k1_hw38.2

def k1_off293 (v234 : BitVec 32) : Fin 2 → Nat :=
  let c0_i32_538 : BitVec 32 := 0#32
  ![v234.toNat, 0]

def k1_chk39 (v234 : BitVec 32) : Prop :=
  (∀ a, (k1_off78 v234) a + S1x2048.size a ≤ S26112x2048.size a) ∧
  (∀ a, (k1_off293 v234) a + S1x2048.size a ≤ S26112x2048.size a)
instance k1_chk39.dec : ∀ (v234 : BitVec 32), Decidable (k1_chk39 v234) := fun v234 => decidable_of_iff' _ (Iff.of_eq (k1_chk39.eq_1 v234))
theorem k1_off78_inb : ∀ (v234 : BitVec 32) (k1_hw39 : k1_chk39 v234), ∀ a, (k1_off78 v234) a + S1x2048.size a ≤ S26112x2048.size a := fun v234 k1_hw39 => k1_hw39.1
theorem k1_off293_inb : ∀ (v234 : BitVec 32) (k1_hw39 : k1_chk39 v234), ∀ a, (k1_off293 v234) a + S1x2048.size a ≤ S26112x2048.size a := fun v234 k1_hw39 => k1_hw39.2

def k1_off294 (v240 : BitVec 32) : Fin 2 → Nat :=
  let c0_i32_542 : BitVec 32 := 0#32
  ![v240.toNat, 0]

def k1_chk40 (v240 : BitVec 32) : Prop :=
  (∀ a, (k1_off80 v240) a + S1x2048.size a ≤ S26112x2048.size a) ∧
  (∀ a, (k1_off294 v240) a + S1x2048.size a ≤ S26112x2048.size a)
instance k1_chk40.dec : ∀ (v240 : BitVec 32), Decidable (k1_chk40 v240) := fun v240 => decidable_of_iff' _ (Iff.of_eq (k1_chk40.eq_1 v240))
theorem k1_off80_inb : ∀ (v240 : BitVec 32) (k1_hw40 : k1_chk40 v240), ∀ a, (k1_off80 v240) a + S1x2048.size a ≤ S26112x2048.size a := fun v240 k1_hw40 => k1_hw40.1
theorem k1_off294_inb : ∀ (v240 : BitVec 32) (k1_hw40 : k1_chk40 v240), ∀ a, (k1_off294 v240) a + S1x2048.size a ≤ S26112x2048.size a := fun v240 k1_hw40 => k1_hw40.2

def k1_off295 (v246 : BitVec 32) : Fin 2 → Nat :=
  let c0_i32_546 : BitVec 32 := 0#32
  ![v246.toNat, 0]

def k1_chk41 (v246 : BitVec 32) : Prop :=
  (∀ a, (k1_off82 v246) a + S1x2048.size a ≤ S26112x2048.size a) ∧
  (∀ a, (k1_off295 v246) a + S1x2048.size a ≤ S26112x2048.size a)
instance k1_chk41.dec : ∀ (v246 : BitVec 32), Decidable (k1_chk41 v246) := fun v246 => decidable_of_iff' _ (Iff.of_eq (k1_chk41.eq_1 v246))
theorem k1_off82_inb : ∀ (v246 : BitVec 32) (k1_hw41 : k1_chk41 v246), ∀ a, (k1_off82 v246) a + S1x2048.size a ≤ S26112x2048.size a := fun v246 k1_hw41 => k1_hw41.1
theorem k1_off295_inb : ∀ (v246 : BitVec 32) (k1_hw41 : k1_chk41 v246), ∀ a, (k1_off295 v246) a + S1x2048.size a ≤ S26112x2048.size a := fun v246 k1_hw41 => k1_hw41.2

def k1_off296 (v252 : BitVec 32) : Fin 2 → Nat :=
  let c0_i32_550 : BitVec 32 := 0#32
  ![v252.toNat, 0]

def k1_chk42 (v252 : BitVec 32) : Prop :=
  (∀ a, (k1_off84 v252) a + S1x2048.size a ≤ S26112x2048.size a) ∧
  (∀ a, (k1_off296 v252) a + S1x2048.size a ≤ S26112x2048.size a)
instance k1_chk42.dec : ∀ (v252 : BitVec 32), Decidable (k1_chk42 v252) := fun v252 => decidable_of_iff' _ (Iff.of_eq (k1_chk42.eq_1 v252))
theorem k1_off84_inb : ∀ (v252 : BitVec 32) (k1_hw42 : k1_chk42 v252), ∀ a, (k1_off84 v252) a + S1x2048.size a ≤ S26112x2048.size a := fun v252 k1_hw42 => k1_hw42.1
theorem k1_off296_inb : ∀ (v252 : BitVec 32) (k1_hw42 : k1_chk42 v252), ∀ a, (k1_off296 v252) a + S1x2048.size a ≤ S26112x2048.size a := fun v252 k1_hw42 => k1_hw42.2

def k1_off297 (v258 : BitVec 32) : Fin 2 → Nat :=
  let c0_i32_554 : BitVec 32 := 0#32
  ![v258.toNat, 0]

def k1_chk43 (v258 : BitVec 32) : Prop :=
  (∀ a, (k1_off86 v258) a + S1x2048.size a ≤ S26112x2048.size a) ∧
  (∀ a, (k1_off297 v258) a + S1x2048.size a ≤ S26112x2048.size a)
instance k1_chk43.dec : ∀ (v258 : BitVec 32), Decidable (k1_chk43 v258) := fun v258 => decidable_of_iff' _ (Iff.of_eq (k1_chk43.eq_1 v258))
theorem k1_off86_inb : ∀ (v258 : BitVec 32) (k1_hw43 : k1_chk43 v258), ∀ a, (k1_off86 v258) a + S1x2048.size a ≤ S26112x2048.size a := fun v258 k1_hw43 => k1_hw43.1
theorem k1_off297_inb : ∀ (v258 : BitVec 32) (k1_hw43 : k1_chk43 v258), ∀ a, (k1_off297 v258) a + S1x2048.size a ≤ S26112x2048.size a := fun v258 k1_hw43 => k1_hw43.2

def k1_off298 (v264 : BitVec 32) : Fin 2 → Nat :=
  let c0_i32_558 : BitVec 32 := 0#32
  ![v264.toNat, 0]

def k1_chk44 (v264 : BitVec 32) : Prop :=
  (∀ a, (k1_off88 v264) a + S1x2048.size a ≤ S26112x2048.size a) ∧
  (∀ a, (k1_off298 v264) a + S1x2048.size a ≤ S26112x2048.size a)
instance k1_chk44.dec : ∀ (v264 : BitVec 32), Decidable (k1_chk44 v264) := fun v264 => decidable_of_iff' _ (Iff.of_eq (k1_chk44.eq_1 v264))
theorem k1_off88_inb : ∀ (v264 : BitVec 32) (k1_hw44 : k1_chk44 v264), ∀ a, (k1_off88 v264) a + S1x2048.size a ≤ S26112x2048.size a := fun v264 k1_hw44 => k1_hw44.1
theorem k1_off298_inb : ∀ (v264 : BitVec 32) (k1_hw44 : k1_chk44 v264), ∀ a, (k1_off298 v264) a + S1x2048.size a ≤ S26112x2048.size a := fun v264 k1_hw44 => k1_hw44.2

def k1_off299 (v270 : BitVec 32) : Fin 2 → Nat :=
  let c0_i32_562 : BitVec 32 := 0#32
  ![v270.toNat, 0]

def k1_chk45 (v270 : BitVec 32) : Prop :=
  (∀ a, (k1_off90 v270) a + S1x2048.size a ≤ S26112x2048.size a) ∧
  (∀ a, (k1_off299 v270) a + S1x2048.size a ≤ S26112x2048.size a)
instance k1_chk45.dec : ∀ (v270 : BitVec 32), Decidable (k1_chk45 v270) := fun v270 => decidable_of_iff' _ (Iff.of_eq (k1_chk45.eq_1 v270))
theorem k1_off90_inb : ∀ (v270 : BitVec 32) (k1_hw45 : k1_chk45 v270), ∀ a, (k1_off90 v270) a + S1x2048.size a ≤ S26112x2048.size a := fun v270 k1_hw45 => k1_hw45.1
theorem k1_off299_inb : ∀ (v270 : BitVec 32) (k1_hw45 : k1_chk45 v270), ∀ a, (k1_off299 v270) a + S1x2048.size a ≤ S26112x2048.size a := fun v270 k1_hw45 => k1_hw45.2

def k1_off300 (v276 : BitVec 32) : Fin 2 → Nat :=
  let c0_i32_566 : BitVec 32 := 0#32
  ![v276.toNat, 0]

def k1_chk46 (v276 : BitVec 32) : Prop :=
  (∀ a, (k1_off92 v276) a + S1x2048.size a ≤ S26112x2048.size a) ∧
  (∀ a, (k1_off300 v276) a + S1x2048.size a ≤ S26112x2048.size a)
instance k1_chk46.dec : ∀ (v276 : BitVec 32), Decidable (k1_chk46 v276) := fun v276 => decidable_of_iff' _ (Iff.of_eq (k1_chk46.eq_1 v276))
theorem k1_off92_inb : ∀ (v276 : BitVec 32) (k1_hw46 : k1_chk46 v276), ∀ a, (k1_off92 v276) a + S1x2048.size a ≤ S26112x2048.size a := fun v276 k1_hw46 => k1_hw46.1
theorem k1_off300_inb : ∀ (v276 : BitVec 32) (k1_hw46 : k1_chk46 v276), ∀ a, (k1_off300 v276) a + S1x2048.size a ≤ S26112x2048.size a := fun v276 k1_hw46 => k1_hw46.2

def k1_off301 (v282 : BitVec 32) : Fin 2 → Nat :=
  let c0_i32_570 : BitVec 32 := 0#32
  ![v282.toNat, 0]

def k1_chk47 (v282 : BitVec 32) : Prop :=
  (∀ a, (k1_off94 v282) a + S1x2048.size a ≤ S26112x2048.size a) ∧
  (∀ a, (k1_off301 v282) a + S1x2048.size a ≤ S26112x2048.size a)
instance k1_chk47.dec : ∀ (v282 : BitVec 32), Decidable (k1_chk47 v282) := fun v282 => decidable_of_iff' _ (Iff.of_eq (k1_chk47.eq_1 v282))
theorem k1_off94_inb : ∀ (v282 : BitVec 32) (k1_hw47 : k1_chk47 v282), ∀ a, (k1_off94 v282) a + S1x2048.size a ≤ S26112x2048.size a := fun v282 k1_hw47 => k1_hw47.1
theorem k1_off301_inb : ∀ (v282 : BitVec 32) (k1_hw47 : k1_chk47 v282), ∀ a, (k1_off301 v282) a + S1x2048.size a ≤ S26112x2048.size a := fun v282 k1_hw47 => k1_hw47.2

def k1_off302 (v288 : BitVec 32) : Fin 2 → Nat :=
  let c0_i32_574 : BitVec 32 := 0#32
  ![v288.toNat, 0]

def k1_chk48 (v288 : BitVec 32) : Prop :=
  (∀ a, (k1_off96 v288) a + S1x2048.size a ≤ S26112x2048.size a) ∧
  (∀ a, (k1_off302 v288) a + S1x2048.size a ≤ S26112x2048.size a)
instance k1_chk48.dec : ∀ (v288 : BitVec 32), Decidable (k1_chk48 v288) := fun v288 => decidable_of_iff' _ (Iff.of_eq (k1_chk48.eq_1 v288))
theorem k1_off96_inb : ∀ (v288 : BitVec 32) (k1_hw48 : k1_chk48 v288), ∀ a, (k1_off96 v288) a + S1x2048.size a ≤ S26112x2048.size a := fun v288 k1_hw48 => k1_hw48.1
theorem k1_off302_inb : ∀ (v288 : BitVec 32) (k1_hw48 : k1_chk48 v288), ∀ a, (k1_off302 v288) a + S1x2048.size a ≤ S26112x2048.size a := fun v288 k1_hw48 => k1_hw48.2

def k1_off303 (v294 : BitVec 32) : Fin 2 → Nat :=
  let c0_i32_578 : BitVec 32 := 0#32
  ![v294.toNat, 0]

def k1_chk49 (v294 : BitVec 32) : Prop :=
  (∀ a, (k1_off98 v294) a + S1x2048.size a ≤ S26112x2048.size a) ∧
  (∀ a, (k1_off303 v294) a + S1x2048.size a ≤ S26112x2048.size a)
instance k1_chk49.dec : ∀ (v294 : BitVec 32), Decidable (k1_chk49 v294) := fun v294 => decidable_of_iff' _ (Iff.of_eq (k1_chk49.eq_1 v294))
theorem k1_off98_inb : ∀ (v294 : BitVec 32) (k1_hw49 : k1_chk49 v294), ∀ a, (k1_off98 v294) a + S1x2048.size a ≤ S26112x2048.size a := fun v294 k1_hw49 => k1_hw49.1
theorem k1_off303_inb : ∀ (v294 : BitVec 32) (k1_hw49 : k1_chk49 v294), ∀ a, (k1_off303 v294) a + S1x2048.size a ≤ S26112x2048.size a := fun v294 k1_hw49 => k1_hw49.2

def k1_off304 (v300 : BitVec 32) : Fin 2 → Nat :=
  let c0_i32_582 : BitVec 32 := 0#32
  ![v300.toNat, 0]

def k1_chk50 (v300 : BitVec 32) : Prop :=
  (∀ a, (k1_off100 v300) a + S1x2048.size a ≤ S26112x2048.size a) ∧
  (∀ a, (k1_off304 v300) a + S1x2048.size a ≤ S26112x2048.size a)
instance k1_chk50.dec : ∀ (v300 : BitVec 32), Decidable (k1_chk50 v300) := fun v300 => decidable_of_iff' _ (Iff.of_eq (k1_chk50.eq_1 v300))
theorem k1_off100_inb : ∀ (v300 : BitVec 32) (k1_hw50 : k1_chk50 v300), ∀ a, (k1_off100 v300) a + S1x2048.size a ≤ S26112x2048.size a := fun v300 k1_hw50 => k1_hw50.1
theorem k1_off304_inb : ∀ (v300 : BitVec 32) (k1_hw50 : k1_chk50 v300), ∀ a, (k1_off304 v300) a + S1x2048.size a ≤ S26112x2048.size a := fun v300 k1_hw50 => k1_hw50.2

def k1_off305 (v306 : BitVec 32) : Fin 2 → Nat :=
  let c0_i32_586 : BitVec 32 := 0#32
  ![v306.toNat, 0]

def k1_chk51 (v306 : BitVec 32) : Prop :=
  (∀ a, (k1_off102 v306) a + S1x2048.size a ≤ S26112x2048.size a) ∧
  (∀ a, (k1_off305 v306) a + S1x2048.size a ≤ S26112x2048.size a)
instance k1_chk51.dec : ∀ (v306 : BitVec 32), Decidable (k1_chk51 v306) := fun v306 => decidable_of_iff' _ (Iff.of_eq (k1_chk51.eq_1 v306))
theorem k1_off102_inb : ∀ (v306 : BitVec 32) (k1_hw51 : k1_chk51 v306), ∀ a, (k1_off102 v306) a + S1x2048.size a ≤ S26112x2048.size a := fun v306 k1_hw51 => k1_hw51.1
theorem k1_off305_inb : ∀ (v306 : BitVec 32) (k1_hw51 : k1_chk51 v306), ∀ a, (k1_off305 v306) a + S1x2048.size a ≤ S26112x2048.size a := fun v306 k1_hw51 => k1_hw51.2

def k1_off306 (v312 : BitVec 32) : Fin 2 → Nat :=
  let c0_i32_590 : BitVec 32 := 0#32
  ![v312.toNat, 0]

def k1_chk52 (v312 : BitVec 32) : Prop :=
  (∀ a, (k1_off104 v312) a + S1x2048.size a ≤ S26112x2048.size a) ∧
  (∀ a, (k1_off306 v312) a + S1x2048.size a ≤ S26112x2048.size a)
instance k1_chk52.dec : ∀ (v312 : BitVec 32), Decidable (k1_chk52 v312) := fun v312 => decidable_of_iff' _ (Iff.of_eq (k1_chk52.eq_1 v312))
theorem k1_off104_inb : ∀ (v312 : BitVec 32) (k1_hw52 : k1_chk52 v312), ∀ a, (k1_off104 v312) a + S1x2048.size a ≤ S26112x2048.size a := fun v312 k1_hw52 => k1_hw52.1
theorem k1_off306_inb : ∀ (v312 : BitVec 32) (k1_hw52 : k1_chk52 v312), ∀ a, (k1_off306 v312) a + S1x2048.size a ≤ S26112x2048.size a := fun v312 k1_hw52 => k1_hw52.2

def k1_off307 (v318 : BitVec 32) : Fin 2 → Nat :=
  let c0_i32_594 : BitVec 32 := 0#32
  ![v318.toNat, 0]

def k1_chk53 (v318 : BitVec 32) : Prop :=
  (∀ a, (k1_off106 v318) a + S1x2048.size a ≤ S26112x2048.size a) ∧
  (∀ a, (k1_off307 v318) a + S1x2048.size a ≤ S26112x2048.size a)
instance k1_chk53.dec : ∀ (v318 : BitVec 32), Decidable (k1_chk53 v318) := fun v318 => decidable_of_iff' _ (Iff.of_eq (k1_chk53.eq_1 v318))
theorem k1_off106_inb : ∀ (v318 : BitVec 32) (k1_hw53 : k1_chk53 v318), ∀ a, (k1_off106 v318) a + S1x2048.size a ≤ S26112x2048.size a := fun v318 k1_hw53 => k1_hw53.1
theorem k1_off307_inb : ∀ (v318 : BitVec 32) (k1_hw53 : k1_chk53 v318), ∀ a, (k1_off307 v318) a + S1x2048.size a ≤ S26112x2048.size a := fun v318 k1_hw53 => k1_hw53.2

def k1_off308 (v324 : BitVec 32) : Fin 2 → Nat :=
  let c0_i32_598 : BitVec 32 := 0#32
  ![v324.toNat, 0]

def k1_chk54 (v324 : BitVec 32) : Prop :=
  (∀ a, (k1_off108 v324) a + S1x2048.size a ≤ S26112x2048.size a) ∧
  (∀ a, (k1_off308 v324) a + S1x2048.size a ≤ S26112x2048.size a)
instance k1_chk54.dec : ∀ (v324 : BitVec 32), Decidable (k1_chk54 v324) := fun v324 => decidable_of_iff' _ (Iff.of_eq (k1_chk54.eq_1 v324))
theorem k1_off108_inb : ∀ (v324 : BitVec 32) (k1_hw54 : k1_chk54 v324), ∀ a, (k1_off108 v324) a + S1x2048.size a ≤ S26112x2048.size a := fun v324 k1_hw54 => k1_hw54.1
theorem k1_off308_inb : ∀ (v324 : BitVec 32) (k1_hw54 : k1_chk54 v324), ∀ a, (k1_off308 v324) a + S1x2048.size a ≤ S26112x2048.size a := fun v324 k1_hw54 => k1_hw54.2

def k1_off309 (v330 : BitVec 32) : Fin 2 → Nat :=
  let c0_i32_602 : BitVec 32 := 0#32
  ![v330.toNat, 0]

def k1_chk55 (v330 : BitVec 32) : Prop :=
  (∀ a, (k1_off110 v330) a + S1x2048.size a ≤ S26112x2048.size a) ∧
  (∀ a, (k1_off309 v330) a + S1x2048.size a ≤ S26112x2048.size a)
instance k1_chk55.dec : ∀ (v330 : BitVec 32), Decidable (k1_chk55 v330) := fun v330 => decidable_of_iff' _ (Iff.of_eq (k1_chk55.eq_1 v330))
theorem k1_off110_inb : ∀ (v330 : BitVec 32) (k1_hw55 : k1_chk55 v330), ∀ a, (k1_off110 v330) a + S1x2048.size a ≤ S26112x2048.size a := fun v330 k1_hw55 => k1_hw55.1
theorem k1_off309_inb : ∀ (v330 : BitVec 32) (k1_hw55 : k1_chk55 v330), ∀ a, (k1_off309 v330) a + S1x2048.size a ≤ S26112x2048.size a := fun v330 k1_hw55 => k1_hw55.2

def k1_off310 (v336 : BitVec 32) : Fin 2 → Nat :=
  let c0_i32_606 : BitVec 32 := 0#32
  ![v336.toNat, 0]

def k1_chk56 (v336 : BitVec 32) : Prop :=
  (∀ a, (k1_off112 v336) a + S1x2048.size a ≤ S26112x2048.size a) ∧
  (∀ a, (k1_off310 v336) a + S1x2048.size a ≤ S26112x2048.size a)
instance k1_chk56.dec : ∀ (v336 : BitVec 32), Decidable (k1_chk56 v336) := fun v336 => decidable_of_iff' _ (Iff.of_eq (k1_chk56.eq_1 v336))
theorem k1_off112_inb : ∀ (v336 : BitVec 32) (k1_hw56 : k1_chk56 v336), ∀ a, (k1_off112 v336) a + S1x2048.size a ≤ S26112x2048.size a := fun v336 k1_hw56 => k1_hw56.1
theorem k1_off310_inb : ∀ (v336 : BitVec 32) (k1_hw56 : k1_chk56 v336), ∀ a, (k1_off310 v336) a + S1x2048.size a ≤ S26112x2048.size a := fun v336 k1_hw56 => k1_hw56.2

def k1_off311 (v342 : BitVec 32) : Fin 2 → Nat :=
  let c0_i32_610 : BitVec 32 := 0#32
  ![v342.toNat, 0]

def k1_chk57 (v342 : BitVec 32) : Prop :=
  (∀ a, (k1_off114 v342) a + S1x2048.size a ≤ S26112x2048.size a) ∧
  (∀ a, (k1_off311 v342) a + S1x2048.size a ≤ S26112x2048.size a)
instance k1_chk57.dec : ∀ (v342 : BitVec 32), Decidable (k1_chk57 v342) := fun v342 => decidable_of_iff' _ (Iff.of_eq (k1_chk57.eq_1 v342))
theorem k1_off114_inb : ∀ (v342 : BitVec 32) (k1_hw57 : k1_chk57 v342), ∀ a, (k1_off114 v342) a + S1x2048.size a ≤ S26112x2048.size a := fun v342 k1_hw57 => k1_hw57.1
theorem k1_off311_inb : ∀ (v342 : BitVec 32) (k1_hw57 : k1_chk57 v342), ∀ a, (k1_off311 v342) a + S1x2048.size a ≤ S26112x2048.size a := fun v342 k1_hw57 => k1_hw57.2

def k1_off312 (v348 : BitVec 32) : Fin 2 → Nat :=
  let c0_i32_614 : BitVec 32 := 0#32
  ![v348.toNat, 0]

def k1_chk58 (v348 : BitVec 32) : Prop :=
  (∀ a, (k1_off116 v348) a + S1x2048.size a ≤ S26112x2048.size a) ∧
  (∀ a, (k1_off312 v348) a + S1x2048.size a ≤ S26112x2048.size a)
instance k1_chk58.dec : ∀ (v348 : BitVec 32), Decidable (k1_chk58 v348) := fun v348 => decidable_of_iff' _ (Iff.of_eq (k1_chk58.eq_1 v348))
theorem k1_off116_inb : ∀ (v348 : BitVec 32) (k1_hw58 : k1_chk58 v348), ∀ a, (k1_off116 v348) a + S1x2048.size a ≤ S26112x2048.size a := fun v348 k1_hw58 => k1_hw58.1
theorem k1_off312_inb : ∀ (v348 : BitVec 32) (k1_hw58 : k1_chk58 v348), ∀ a, (k1_off312 v348) a + S1x2048.size a ≤ S26112x2048.size a := fun v348 k1_hw58 => k1_hw58.2

def k1_off313 (v354 : BitVec 32) : Fin 2 → Nat :=
  let c0_i32_618 : BitVec 32 := 0#32
  ![v354.toNat, 0]

def k1_chk59 (v354 : BitVec 32) : Prop :=
  (∀ a, (k1_off118 v354) a + S1x2048.size a ≤ S26112x2048.size a) ∧
  (∀ a, (k1_off313 v354) a + S1x2048.size a ≤ S26112x2048.size a)
instance k1_chk59.dec : ∀ (v354 : BitVec 32), Decidable (k1_chk59 v354) := fun v354 => decidable_of_iff' _ (Iff.of_eq (k1_chk59.eq_1 v354))
theorem k1_off118_inb : ∀ (v354 : BitVec 32) (k1_hw59 : k1_chk59 v354), ∀ a, (k1_off118 v354) a + S1x2048.size a ≤ S26112x2048.size a := fun v354 k1_hw59 => k1_hw59.1
theorem k1_off313_inb : ∀ (v354 : BitVec 32) (k1_hw59 : k1_chk59 v354), ∀ a, (k1_off313 v354) a + S1x2048.size a ≤ S26112x2048.size a := fun v354 k1_hw59 => k1_hw59.2

def k1_off314 (v360 : BitVec 32) : Fin 2 → Nat :=
  let c0_i32_622 : BitVec 32 := 0#32
  ![v360.toNat, 0]

def k1_chk60 (v360 : BitVec 32) : Prop :=
  (∀ a, (k1_off120 v360) a + S1x2048.size a ≤ S26112x2048.size a) ∧
  (∀ a, (k1_off314 v360) a + S1x2048.size a ≤ S26112x2048.size a)
instance k1_chk60.dec : ∀ (v360 : BitVec 32), Decidable (k1_chk60 v360) := fun v360 => decidable_of_iff' _ (Iff.of_eq (k1_chk60.eq_1 v360))
theorem k1_off120_inb : ∀ (v360 : BitVec 32) (k1_hw60 : k1_chk60 v360), ∀ a, (k1_off120 v360) a + S1x2048.size a ≤ S26112x2048.size a := fun v360 k1_hw60 => k1_hw60.1
theorem k1_off314_inb : ∀ (v360 : BitVec 32) (k1_hw60 : k1_chk60 v360), ∀ a, (k1_off314 v360) a + S1x2048.size a ≤ S26112x2048.size a := fun v360 k1_hw60 => k1_hw60.2

def k1_off315 (v366 : BitVec 32) : Fin 2 → Nat :=
  let c0_i32_626 : BitVec 32 := 0#32
  ![v366.toNat, 0]

def k1_chk61 (v366 : BitVec 32) : Prop :=
  (∀ a, (k1_off122 v366) a + S1x2048.size a ≤ S26112x2048.size a) ∧
  (∀ a, (k1_off315 v366) a + S1x2048.size a ≤ S26112x2048.size a)
instance k1_chk61.dec : ∀ (v366 : BitVec 32), Decidable (k1_chk61 v366) := fun v366 => decidable_of_iff' _ (Iff.of_eq (k1_chk61.eq_1 v366))
theorem k1_off122_inb : ∀ (v366 : BitVec 32) (k1_hw61 : k1_chk61 v366), ∀ a, (k1_off122 v366) a + S1x2048.size a ≤ S26112x2048.size a := fun v366 k1_hw61 => k1_hw61.1
theorem k1_off315_inb : ∀ (v366 : BitVec 32) (k1_hw61 : k1_chk61 v366), ∀ a, (k1_off315 v366) a + S1x2048.size a ≤ S26112x2048.size a := fun v366 k1_hw61 => k1_hw61.2

def k1_off316 (v372 : BitVec 32) : Fin 2 → Nat :=
  let c0_i32_630 : BitVec 32 := 0#32
  ![v372.toNat, 0]

def k1_chk62 (v372 : BitVec 32) : Prop :=
  (∀ a, (k1_off124 v372) a + S1x2048.size a ≤ S26112x2048.size a) ∧
  (∀ a, (k1_off316 v372) a + S1x2048.size a ≤ S26112x2048.size a)
instance k1_chk62.dec : ∀ (v372 : BitVec 32), Decidable (k1_chk62 v372) := fun v372 => decidable_of_iff' _ (Iff.of_eq (k1_chk62.eq_1 v372))
theorem k1_off124_inb : ∀ (v372 : BitVec 32) (k1_hw62 : k1_chk62 v372), ∀ a, (k1_off124 v372) a + S1x2048.size a ≤ S26112x2048.size a := fun v372 k1_hw62 => k1_hw62.1
theorem k1_off316_inb : ∀ (v372 : BitVec 32) (k1_hw62 : k1_chk62 v372), ∀ a, (k1_off316 v372) a + S1x2048.size a ≤ S26112x2048.size a := fun v372 k1_hw62 => k1_hw62.2

def k1_off317 (v378 : BitVec 32) : Fin 2 → Nat :=
  let c0_i32_634 : BitVec 32 := 0#32
  ![v378.toNat, 0]

def k1_chk63 (v378 : BitVec 32) : Prop :=
  (∀ a, (k1_off126 v378) a + S1x2048.size a ≤ S26112x2048.size a) ∧
  (∀ a, (k1_off317 v378) a + S1x2048.size a ≤ S26112x2048.size a)
instance k1_chk63.dec : ∀ (v378 : BitVec 32), Decidable (k1_chk63 v378) := fun v378 => decidable_of_iff' _ (Iff.of_eq (k1_chk63.eq_1 v378))
theorem k1_off126_inb : ∀ (v378 : BitVec 32) (k1_hw63 : k1_chk63 v378), ∀ a, (k1_off126 v378) a + S1x2048.size a ≤ S26112x2048.size a := fun v378 k1_hw63 => k1_hw63.1
theorem k1_off317_inb : ∀ (v378 : BitVec 32) (k1_hw63 : k1_chk63 v378), ∀ a, (k1_off317 v378) a + S1x2048.size a ≤ S26112x2048.size a := fun v378 k1_hw63 => k1_hw63.2

def k1_off318 (v384 : BitVec 32) : Fin 2 → Nat :=
  let c0_i32_638 : BitVec 32 := 0#32
  ![v384.toNat, 0]

def k1_chk64 (v384 : BitVec 32) : Prop :=
  (∀ a, (k1_off128 v384) a + S1x2048.size a ≤ S26112x2048.size a) ∧
  (∀ a, (k1_off318 v384) a + S1x2048.size a ≤ S26112x2048.size a)
instance k1_chk64.dec : ∀ (v384 : BitVec 32), Decidable (k1_chk64 v384) := fun v384 => decidable_of_iff' _ (Iff.of_eq (k1_chk64.eq_1 v384))
theorem k1_off128_inb : ∀ (v384 : BitVec 32) (k1_hw64 : k1_chk64 v384), ∀ a, (k1_off128 v384) a + S1x2048.size a ≤ S26112x2048.size a := fun v384 k1_hw64 => k1_hw64.1
theorem k1_off318_inb : ∀ (v384 : BitVec 32) (k1_hw64 : k1_chk64 v384), ∀ a, (k1_off318 v384) a + S1x2048.size a ≤ S26112x2048.size a := fun v384 k1_hw64 => k1_hw64.2

def k1_off319 (v390 : BitVec 32) : Fin 2 → Nat :=
  let c0_i32_642 : BitVec 32 := 0#32
  ![v390.toNat, 0]

def k1_chk65 (v390 : BitVec 32) : Prop :=
  (∀ a, (k1_off130 v390) a + S1x2048.size a ≤ S26112x2048.size a) ∧
  (∀ a, (k1_off319 v390) a + S1x2048.size a ≤ S26112x2048.size a)
instance k1_chk65.dec : ∀ (v390 : BitVec 32), Decidable (k1_chk65 v390) := fun v390 => decidable_of_iff' _ (Iff.of_eq (k1_chk65.eq_1 v390))
theorem k1_off130_inb : ∀ (v390 : BitVec 32) (k1_hw65 : k1_chk65 v390), ∀ a, (k1_off130 v390) a + S1x2048.size a ≤ S26112x2048.size a := fun v390 k1_hw65 => k1_hw65.1
theorem k1_off319_inb : ∀ (v390 : BitVec 32) (k1_hw65 : k1_chk65 v390), ∀ a, (k1_off319 v390) a + S1x2048.size a ≤ S26112x2048.size a := fun v390 k1_hw65 => k1_hw65.2

def k1_off320 (v396 : BitVec 32) : Fin 2 → Nat :=
  let c0_i32_646 : BitVec 32 := 0#32
  ![v396.toNat, 0]

def k1_chk66 (v396 : BitVec 32) : Prop :=
  (∀ a, (k1_off132 v396) a + S1x2048.size a ≤ S26112x2048.size a) ∧
  (∀ a, (k1_off320 v396) a + S1x2048.size a ≤ S26112x2048.size a)
instance k1_chk66.dec : ∀ (v396 : BitVec 32), Decidable (k1_chk66 v396) := fun v396 => decidable_of_iff' _ (Iff.of_eq (k1_chk66.eq_1 v396))
theorem k1_off132_inb : ∀ (v396 : BitVec 32) (k1_hw66 : k1_chk66 v396), ∀ a, (k1_off132 v396) a + S1x2048.size a ≤ S26112x2048.size a := fun v396 k1_hw66 => k1_hw66.1
theorem k1_off320_inb : ∀ (v396 : BitVec 32) (k1_hw66 : k1_chk66 v396), ∀ a, (k1_off320 v396) a + S1x2048.size a ≤ S26112x2048.size a := fun v396 k1_hw66 => k1_hw66.2

def k1_off321 (v402 : BitVec 32) : Fin 2 → Nat :=
  let c0_i32_650 : BitVec 32 := 0#32
  ![v402.toNat, 0]

def k1_chk67 (v402 : BitVec 32) : Prop :=
  (∀ a, (k1_off134 v402) a + S1x2048.size a ≤ S26112x2048.size a) ∧
  (∀ a, (k1_off321 v402) a + S1x2048.size a ≤ S26112x2048.size a)
instance k1_chk67.dec : ∀ (v402 : BitVec 32), Decidable (k1_chk67 v402) := fun v402 => decidable_of_iff' _ (Iff.of_eq (k1_chk67.eq_1 v402))
theorem k1_off134_inb : ∀ (v402 : BitVec 32) (k1_hw67 : k1_chk67 v402), ∀ a, (k1_off134 v402) a + S1x2048.size a ≤ S26112x2048.size a := fun v402 k1_hw67 => k1_hw67.1
theorem k1_off321_inb : ∀ (v402 : BitVec 32) (k1_hw67 : k1_chk67 v402), ∀ a, (k1_off321 v402) a + S1x2048.size a ≤ S26112x2048.size a := fun v402 k1_hw67 => k1_hw67.2

def k1_off322 (v408 : BitVec 32) : Fin 2 → Nat :=
  let c0_i32_654 : BitVec 32 := 0#32
  ![v408.toNat, 0]

def k1_chk68 (v408 : BitVec 32) : Prop :=
  (∀ a, (k1_off136 v408) a + S1x2048.size a ≤ S26112x2048.size a) ∧
  (∀ a, (k1_off322 v408) a + S1x2048.size a ≤ S26112x2048.size a)
instance k1_chk68.dec : ∀ (v408 : BitVec 32), Decidable (k1_chk68 v408) := fun v408 => decidable_of_iff' _ (Iff.of_eq (k1_chk68.eq_1 v408))
theorem k1_off136_inb : ∀ (v408 : BitVec 32) (k1_hw68 : k1_chk68 v408), ∀ a, (k1_off136 v408) a + S1x2048.size a ≤ S26112x2048.size a := fun v408 k1_hw68 => k1_hw68.1
theorem k1_off322_inb : ∀ (v408 : BitVec 32) (k1_hw68 : k1_chk68 v408), ∀ a, (k1_off322 v408) a + S1x2048.size a ≤ S26112x2048.size a := fun v408 k1_hw68 => k1_hw68.2

def k1_off323 (v414 : BitVec 32) : Fin 2 → Nat :=
  let c0_i32_658 : BitVec 32 := 0#32
  ![v414.toNat, 0]

def k1_chk69 (v414 : BitVec 32) : Prop :=
  (∀ a, (k1_off138 v414) a + S1x2048.size a ≤ S26112x2048.size a) ∧
  (∀ a, (k1_off323 v414) a + S1x2048.size a ≤ S26112x2048.size a)
instance k1_chk69.dec : ∀ (v414 : BitVec 32), Decidable (k1_chk69 v414) := fun v414 => decidable_of_iff' _ (Iff.of_eq (k1_chk69.eq_1 v414))
theorem k1_off138_inb : ∀ (v414 : BitVec 32) (k1_hw69 : k1_chk69 v414), ∀ a, (k1_off138 v414) a + S1x2048.size a ≤ S26112x2048.size a := fun v414 k1_hw69 => k1_hw69.1
theorem k1_off323_inb : ∀ (v414 : BitVec 32) (k1_hw69 : k1_chk69 v414), ∀ a, (k1_off323 v414) a + S1x2048.size a ≤ S26112x2048.size a := fun v414 k1_hw69 => k1_hw69.2

def k1_off324 (v420 : BitVec 32) : Fin 2 → Nat :=
  let c0_i32_662 : BitVec 32 := 0#32
  ![v420.toNat, 0]

def k1_chk70 (v420 : BitVec 32) : Prop :=
  (∀ a, (k1_off140 v420) a + S1x2048.size a ≤ S26112x2048.size a) ∧
  (∀ a, (k1_off324 v420) a + S1x2048.size a ≤ S26112x2048.size a)
instance k1_chk70.dec : ∀ (v420 : BitVec 32), Decidable (k1_chk70 v420) := fun v420 => decidable_of_iff' _ (Iff.of_eq (k1_chk70.eq_1 v420))
theorem k1_off140_inb : ∀ (v420 : BitVec 32) (k1_hw70 : k1_chk70 v420), ∀ a, (k1_off140 v420) a + S1x2048.size a ≤ S26112x2048.size a := fun v420 k1_hw70 => k1_hw70.1
theorem k1_off324_inb : ∀ (v420 : BitVec 32) (k1_hw70 : k1_chk70 v420), ∀ a, (k1_off324 v420) a + S1x2048.size a ≤ S26112x2048.size a := fun v420 k1_hw70 => k1_hw70.2

def k1_off325 (v426 : BitVec 32) : Fin 2 → Nat :=
  let c0_i32_666 : BitVec 32 := 0#32
  ![v426.toNat, 0]

def k1_chk71 (v426 : BitVec 32) : Prop :=
  (∀ a, (k1_off142 v426) a + S1x2048.size a ≤ S26112x2048.size a) ∧
  (∀ a, (k1_off325 v426) a + S1x2048.size a ≤ S26112x2048.size a)
instance k1_chk71.dec : ∀ (v426 : BitVec 32), Decidable (k1_chk71 v426) := fun v426 => decidable_of_iff' _ (Iff.of_eq (k1_chk71.eq_1 v426))
theorem k1_off142_inb : ∀ (v426 : BitVec 32) (k1_hw71 : k1_chk71 v426), ∀ a, (k1_off142 v426) a + S1x2048.size a ≤ S26112x2048.size a := fun v426 k1_hw71 => k1_hw71.1
theorem k1_off325_inb : ∀ (v426 : BitVec 32) (k1_hw71 : k1_chk71 v426), ∀ a, (k1_off325 v426) a + S1x2048.size a ≤ S26112x2048.size a := fun v426 k1_hw71 => k1_hw71.2

def k1_off326 (v432 : BitVec 32) : Fin 2 → Nat :=
  let c0_i32_670 : BitVec 32 := 0#32
  ![v432.toNat, 0]

def k1_chk72 (v432 : BitVec 32) : Prop :=
  (∀ a, (k1_off144 v432) a + S1x2048.size a ≤ S26112x2048.size a) ∧
  (∀ a, (k1_off326 v432) a + S1x2048.size a ≤ S26112x2048.size a)
instance k1_chk72.dec : ∀ (v432 : BitVec 32), Decidable (k1_chk72 v432) := fun v432 => decidable_of_iff' _ (Iff.of_eq (k1_chk72.eq_1 v432))
theorem k1_off144_inb : ∀ (v432 : BitVec 32) (k1_hw72 : k1_chk72 v432), ∀ a, (k1_off144 v432) a + S1x2048.size a ≤ S26112x2048.size a := fun v432 k1_hw72 => k1_hw72.1
theorem k1_off326_inb : ∀ (v432 : BitVec 32) (k1_hw72 : k1_chk72 v432), ∀ a, (k1_off326 v432) a + S1x2048.size a ≤ S26112x2048.size a := fun v432 k1_hw72 => k1_hw72.2

def k1_off327 (v438 : BitVec 32) : Fin 2 → Nat :=
  let c0_i32_674 : BitVec 32 := 0#32
  ![v438.toNat, 0]

def k1_chk73 (v438 : BitVec 32) : Prop :=
  (∀ a, (k1_off146 v438) a + S1x2048.size a ≤ S26112x2048.size a) ∧
  (∀ a, (k1_off327 v438) a + S1x2048.size a ≤ S26112x2048.size a)
instance k1_chk73.dec : ∀ (v438 : BitVec 32), Decidable (k1_chk73 v438) := fun v438 => decidable_of_iff' _ (Iff.of_eq (k1_chk73.eq_1 v438))
theorem k1_off146_inb : ∀ (v438 : BitVec 32) (k1_hw73 : k1_chk73 v438), ∀ a, (k1_off146 v438) a + S1x2048.size a ≤ S26112x2048.size a := fun v438 k1_hw73 => k1_hw73.1
theorem k1_off327_inb : ∀ (v438 : BitVec 32) (k1_hw73 : k1_chk73 v438), ∀ a, (k1_off327 v438) a + S1x2048.size a ≤ S26112x2048.size a := fun v438 k1_hw73 => k1_hw73.2

def k1_off328 (v444 : BitVec 32) : Fin 2 → Nat :=
  let c0_i32_678 : BitVec 32 := 0#32
  ![v444.toNat, 0]

def k1_chk74 (v444 : BitVec 32) : Prop :=
  (∀ a, (k1_off148 v444) a + S1x2048.size a ≤ S26112x2048.size a) ∧
  (∀ a, (k1_off328 v444) a + S1x2048.size a ≤ S26112x2048.size a)
instance k1_chk74.dec : ∀ (v444 : BitVec 32), Decidable (k1_chk74 v444) := fun v444 => decidable_of_iff' _ (Iff.of_eq (k1_chk74.eq_1 v444))
theorem k1_off148_inb : ∀ (v444 : BitVec 32) (k1_hw74 : k1_chk74 v444), ∀ a, (k1_off148 v444) a + S1x2048.size a ≤ S26112x2048.size a := fun v444 k1_hw74 => k1_hw74.1
theorem k1_off328_inb : ∀ (v444 : BitVec 32) (k1_hw74 : k1_chk74 v444), ∀ a, (k1_off328 v444) a + S1x2048.size a ≤ S26112x2048.size a := fun v444 k1_hw74 => k1_hw74.2

def k1_off329 (v450 : BitVec 32) : Fin 2 → Nat :=
  let c0_i32_682 : BitVec 32 := 0#32
  ![v450.toNat, 0]

def k1_chk75 (v450 : BitVec 32) : Prop :=
  (∀ a, (k1_off150 v450) a + S1x2048.size a ≤ S26112x2048.size a) ∧
  (∀ a, (k1_off329 v450) a + S1x2048.size a ≤ S26112x2048.size a)
instance k1_chk75.dec : ∀ (v450 : BitVec 32), Decidable (k1_chk75 v450) := fun v450 => decidable_of_iff' _ (Iff.of_eq (k1_chk75.eq_1 v450))
theorem k1_off150_inb : ∀ (v450 : BitVec 32) (k1_hw75 : k1_chk75 v450), ∀ a, (k1_off150 v450) a + S1x2048.size a ≤ S26112x2048.size a := fun v450 k1_hw75 => k1_hw75.1
theorem k1_off329_inb : ∀ (v450 : BitVec 32) (k1_hw75 : k1_chk75 v450), ∀ a, (k1_off329 v450) a + S1x2048.size a ≤ S26112x2048.size a := fun v450 k1_hw75 => k1_hw75.2

def k1_off330 (v456 : BitVec 32) : Fin 2 → Nat :=
  let c0_i32_686 : BitVec 32 := 0#32
  ![v456.toNat, 0]

def k1_chk76 (v456 : BitVec 32) : Prop :=
  (∀ a, (k1_off152 v456) a + S1x2048.size a ≤ S26112x2048.size a) ∧
  (∀ a, (k1_off330 v456) a + S1x2048.size a ≤ S26112x2048.size a)
instance k1_chk76.dec : ∀ (v456 : BitVec 32), Decidable (k1_chk76 v456) := fun v456 => decidable_of_iff' _ (Iff.of_eq (k1_chk76.eq_1 v456))
theorem k1_off152_inb : ∀ (v456 : BitVec 32) (k1_hw76 : k1_chk76 v456), ∀ a, (k1_off152 v456) a + S1x2048.size a ≤ S26112x2048.size a := fun v456 k1_hw76 => k1_hw76.1
theorem k1_off330_inb : ∀ (v456 : BitVec 32) (k1_hw76 : k1_chk76 v456), ∀ a, (k1_off330 v456) a + S1x2048.size a ≤ S26112x2048.size a := fun v456 k1_hw76 => k1_hw76.2

def k1_off331 (v462 : BitVec 32) : Fin 2 → Nat :=
  let c0_i32_690 : BitVec 32 := 0#32
  ![v462.toNat, 0]

def k1_chk77 (v462 : BitVec 32) : Prop :=
  (∀ a, (k1_off154 v462) a + S1x2048.size a ≤ S26112x2048.size a) ∧
  (∀ a, (k1_off331 v462) a + S1x2048.size a ≤ S26112x2048.size a)
instance k1_chk77.dec : ∀ (v462 : BitVec 32), Decidable (k1_chk77 v462) := fun v462 => decidable_of_iff' _ (Iff.of_eq (k1_chk77.eq_1 v462))
theorem k1_off154_inb : ∀ (v462 : BitVec 32) (k1_hw77 : k1_chk77 v462), ∀ a, (k1_off154 v462) a + S1x2048.size a ≤ S26112x2048.size a := fun v462 k1_hw77 => k1_hw77.1
theorem k1_off331_inb : ∀ (v462 : BitVec 32) (k1_hw77 : k1_chk77 v462), ∀ a, (k1_off331 v462) a + S1x2048.size a ≤ S26112x2048.size a := fun v462 k1_hw77 => k1_hw77.2

def k1_off332 (v468 : BitVec 32) : Fin 2 → Nat :=
  let c0_i32_694 : BitVec 32 := 0#32
  ![v468.toNat, 0]

def k1_chk78 (v468 : BitVec 32) : Prop :=
  (∀ a, (k1_off156 v468) a + S1x2048.size a ≤ S26112x2048.size a) ∧
  (∀ a, (k1_off332 v468) a + S1x2048.size a ≤ S26112x2048.size a)
instance k1_chk78.dec : ∀ (v468 : BitVec 32), Decidable (k1_chk78 v468) := fun v468 => decidable_of_iff' _ (Iff.of_eq (k1_chk78.eq_1 v468))
theorem k1_off156_inb : ∀ (v468 : BitVec 32) (k1_hw78 : k1_chk78 v468), ∀ a, (k1_off156 v468) a + S1x2048.size a ≤ S26112x2048.size a := fun v468 k1_hw78 => k1_hw78.1
theorem k1_off332_inb : ∀ (v468 : BitVec 32) (k1_hw78 : k1_chk78 v468), ∀ a, (k1_off332 v468) a + S1x2048.size a ≤ S26112x2048.size a := fun v468 k1_hw78 => k1_hw78.2

def k1_off333 (v474 : BitVec 32) : Fin 2 → Nat :=
  let c0_i32_698 : BitVec 32 := 0#32
  ![v474.toNat, 0]

def k1_chk79 (v474 : BitVec 32) : Prop :=
  (∀ a, (k1_off158 v474) a + S1x2048.size a ≤ S26112x2048.size a) ∧
  (∀ a, (k1_off333 v474) a + S1x2048.size a ≤ S26112x2048.size a)
instance k1_chk79.dec : ∀ (v474 : BitVec 32), Decidable (k1_chk79 v474) := fun v474 => decidable_of_iff' _ (Iff.of_eq (k1_chk79.eq_1 v474))
theorem k1_off158_inb : ∀ (v474 : BitVec 32) (k1_hw79 : k1_chk79 v474), ∀ a, (k1_off158 v474) a + S1x2048.size a ≤ S26112x2048.size a := fun v474 k1_hw79 => k1_hw79.1
theorem k1_off333_inb : ∀ (v474 : BitVec 32) (k1_hw79 : k1_chk79 v474), ∀ a, (k1_off333 v474) a + S1x2048.size a ≤ S26112x2048.size a := fun v474 k1_hw79 => k1_hw79.2

def k1_off334 (v480 : BitVec 32) : Fin 2 → Nat :=
  let c0_i32_702 : BitVec 32 := 0#32
  ![v480.toNat, 0]

def k1_chk80 (v480 : BitVec 32) : Prop :=
  (∀ a, (k1_off160 v480) a + S1x2048.size a ≤ S26112x2048.size a) ∧
  (∀ a, (k1_off334 v480) a + S1x2048.size a ≤ S26112x2048.size a)
instance k1_chk80.dec : ∀ (v480 : BitVec 32), Decidable (k1_chk80 v480) := fun v480 => decidable_of_iff' _ (Iff.of_eq (k1_chk80.eq_1 v480))
theorem k1_off160_inb : ∀ (v480 : BitVec 32) (k1_hw80 : k1_chk80 v480), ∀ a, (k1_off160 v480) a + S1x2048.size a ≤ S26112x2048.size a := fun v480 k1_hw80 => k1_hw80.1
theorem k1_off334_inb : ∀ (v480 : BitVec 32) (k1_hw80 : k1_chk80 v480), ∀ a, (k1_off334 v480) a + S1x2048.size a ≤ S26112x2048.size a := fun v480 k1_hw80 => k1_hw80.2

def k1_off335 (v486 : BitVec 32) : Fin 2 → Nat :=
  let c0_i32_706 : BitVec 32 := 0#32
  ![v486.toNat, 0]

def k1_chk81 (v486 : BitVec 32) : Prop :=
  (∀ a, (k1_off162 v486) a + S1x2048.size a ≤ S26112x2048.size a) ∧
  (∀ a, (k1_off335 v486) a + S1x2048.size a ≤ S26112x2048.size a)
instance k1_chk81.dec : ∀ (v486 : BitVec 32), Decidable (k1_chk81 v486) := fun v486 => decidable_of_iff' _ (Iff.of_eq (k1_chk81.eq_1 v486))
theorem k1_off162_inb : ∀ (v486 : BitVec 32) (k1_hw81 : k1_chk81 v486), ∀ a, (k1_off162 v486) a + S1x2048.size a ≤ S26112x2048.size a := fun v486 k1_hw81 => k1_hw81.1
theorem k1_off335_inb : ∀ (v486 : BitVec 32) (k1_hw81 : k1_chk81 v486), ∀ a, (k1_off335 v486) a + S1x2048.size a ≤ S26112x2048.size a := fun v486 k1_hw81 => k1_hw81.2

def k1_off336 (v492 : BitVec 32) : Fin 2 → Nat :=
  let c0_i32_710 : BitVec 32 := 0#32
  ![v492.toNat, 0]

def k1_chk82 (v492 : BitVec 32) : Prop :=
  (∀ a, (k1_off164 v492) a + S1x2048.size a ≤ S26112x2048.size a) ∧
  (∀ a, (k1_off336 v492) a + S1x2048.size a ≤ S26112x2048.size a)
instance k1_chk82.dec : ∀ (v492 : BitVec 32), Decidable (k1_chk82 v492) := fun v492 => decidable_of_iff' _ (Iff.of_eq (k1_chk82.eq_1 v492))
theorem k1_off164_inb : ∀ (v492 : BitVec 32) (k1_hw82 : k1_chk82 v492), ∀ a, (k1_off164 v492) a + S1x2048.size a ≤ S26112x2048.size a := fun v492 k1_hw82 => k1_hw82.1
theorem k1_off336_inb : ∀ (v492 : BitVec 32) (k1_hw82 : k1_chk82 v492), ∀ a, (k1_off336 v492) a + S1x2048.size a ≤ S26112x2048.size a := fun v492 k1_hw82 => k1_hw82.2

def k1_off337 (v498 : BitVec 32) : Fin 2 → Nat :=
  let c0_i32_714 : BitVec 32 := 0#32
  ![v498.toNat, 0]

def k1_chk83 (v498 : BitVec 32) : Prop :=
  (∀ a, (k1_off166 v498) a + S1x2048.size a ≤ S26112x2048.size a) ∧
  (∀ a, (k1_off337 v498) a + S1x2048.size a ≤ S26112x2048.size a)
instance k1_chk83.dec : ∀ (v498 : BitVec 32), Decidable (k1_chk83 v498) := fun v498 => decidable_of_iff' _ (Iff.of_eq (k1_chk83.eq_1 v498))
theorem k1_off166_inb : ∀ (v498 : BitVec 32) (k1_hw83 : k1_chk83 v498), ∀ a, (k1_off166 v498) a + S1x2048.size a ≤ S26112x2048.size a := fun v498 k1_hw83 => k1_hw83.1
theorem k1_off337_inb : ∀ (v498 : BitVec 32) (k1_hw83 : k1_chk83 v498), ∀ a, (k1_off337 v498) a + S1x2048.size a ≤ S26112x2048.size a := fun v498 k1_hw83 => k1_hw83.2

def k1_off338 (v504 : BitVec 32) : Fin 2 → Nat :=
  let c0_i32_718 : BitVec 32 := 0#32
  ![v504.toNat, 0]

def k1_chk84 (v504 : BitVec 32) : Prop :=
  (∀ a, (k1_off168 v504) a + S1x2048.size a ≤ S26112x2048.size a) ∧
  (∀ a, (k1_off338 v504) a + S1x2048.size a ≤ S26112x2048.size a)
instance k1_chk84.dec : ∀ (v504 : BitVec 32), Decidable (k1_chk84 v504) := fun v504 => decidable_of_iff' _ (Iff.of_eq (k1_chk84.eq_1 v504))
theorem k1_off168_inb : ∀ (v504 : BitVec 32) (k1_hw84 : k1_chk84 v504), ∀ a, (k1_off168 v504) a + S1x2048.size a ≤ S26112x2048.size a := fun v504 k1_hw84 => k1_hw84.1
theorem k1_off338_inb : ∀ (v504 : BitVec 32) (k1_hw84 : k1_chk84 v504), ∀ a, (k1_off338 v504) a + S1x2048.size a ≤ S26112x2048.size a := fun v504 k1_hw84 => k1_hw84.2

def k1_off339 (v510 : BitVec 32) : Fin 2 → Nat :=
  let c0_i32_722 : BitVec 32 := 0#32
  ![v510.toNat, 0]

def k1_chk85 (v510 : BitVec 32) : Prop :=
  (∀ a, (k1_off170 v510) a + S1x2048.size a ≤ S26112x2048.size a) ∧
  (∀ a, (k1_off339 v510) a + S1x2048.size a ≤ S26112x2048.size a)
instance k1_chk85.dec : ∀ (v510 : BitVec 32), Decidable (k1_chk85 v510) := fun v510 => decidable_of_iff' _ (Iff.of_eq (k1_chk85.eq_1 v510))
theorem k1_off170_inb : ∀ (v510 : BitVec 32) (k1_hw85 : k1_chk85 v510), ∀ a, (k1_off170 v510) a + S1x2048.size a ≤ S26112x2048.size a := fun v510 k1_hw85 => k1_hw85.1
theorem k1_off339_inb : ∀ (v510 : BitVec 32) (k1_hw85 : k1_chk85 v510), ∀ a, (k1_off339 v510) a + S1x2048.size a ≤ S26112x2048.size a := fun v510 k1_hw85 => k1_hw85.2

def k1_off340 (v516 : BitVec 32) : Fin 2 → Nat :=
  let c0_i32_726 : BitVec 32 := 0#32
  ![v516.toNat, 0]

def k1_chk86 (v516 : BitVec 32) : Prop :=
  (∀ a, (k1_off172 v516) a + S1x2048.size a ≤ S26112x2048.size a) ∧
  (∀ a, (k1_off340 v516) a + S1x2048.size a ≤ S26112x2048.size a)
instance k1_chk86.dec : ∀ (v516 : BitVec 32), Decidable (k1_chk86 v516) := fun v516 => decidable_of_iff' _ (Iff.of_eq (k1_chk86.eq_1 v516))
theorem k1_off172_inb : ∀ (v516 : BitVec 32) (k1_hw86 : k1_chk86 v516), ∀ a, (k1_off172 v516) a + S1x2048.size a ≤ S26112x2048.size a := fun v516 k1_hw86 => k1_hw86.1
theorem k1_off340_inb : ∀ (v516 : BitVec 32) (k1_hw86 : k1_chk86 v516), ∀ a, (k1_off340 v516) a + S1x2048.size a ≤ S26112x2048.size a := fun v516 k1_hw86 => k1_hw86.2

def k1_off341 (v522 : BitVec 32) : Fin 2 → Nat :=
  let c0_i32_730 : BitVec 32 := 0#32
  ![v522.toNat, 0]

def k1_chk87 (v522 : BitVec 32) : Prop :=
  (∀ a, (k1_off174 v522) a + S1x2048.size a ≤ S26112x2048.size a) ∧
  (∀ a, (k1_off341 v522) a + S1x2048.size a ≤ S26112x2048.size a)
instance k1_chk87.dec : ∀ (v522 : BitVec 32), Decidable (k1_chk87 v522) := fun v522 => decidable_of_iff' _ (Iff.of_eq (k1_chk87.eq_1 v522))
theorem k1_off174_inb : ∀ (v522 : BitVec 32) (k1_hw87 : k1_chk87 v522), ∀ a, (k1_off174 v522) a + S1x2048.size a ≤ S26112x2048.size a := fun v522 k1_hw87 => k1_hw87.1
theorem k1_off341_inb : ∀ (v522 : BitVec 32) (k1_hw87 : k1_chk87 v522), ∀ a, (k1_off341 v522) a + S1x2048.size a ≤ S26112x2048.size a := fun v522 k1_hw87 => k1_hw87.2

def k1_off342 (v528 : BitVec 32) : Fin 2 → Nat :=
  let c0_i32_734 : BitVec 32 := 0#32
  ![v528.toNat, 0]

def k1_chk88 (v528 : BitVec 32) : Prop :=
  (∀ a, (k1_off176 v528) a + S1x2048.size a ≤ S26112x2048.size a) ∧
  (∀ a, (k1_off342 v528) a + S1x2048.size a ≤ S26112x2048.size a)
instance k1_chk88.dec : ∀ (v528 : BitVec 32), Decidable (k1_chk88 v528) := fun v528 => decidable_of_iff' _ (Iff.of_eq (k1_chk88.eq_1 v528))
theorem k1_off176_inb : ∀ (v528 : BitVec 32) (k1_hw88 : k1_chk88 v528), ∀ a, (k1_off176 v528) a + S1x2048.size a ≤ S26112x2048.size a := fun v528 k1_hw88 => k1_hw88.1
theorem k1_off342_inb : ∀ (v528 : BitVec 32) (k1_hw88 : k1_chk88 v528), ∀ a, (k1_off342 v528) a + S1x2048.size a ≤ S26112x2048.size a := fun v528 k1_hw88 => k1_hw88.2

def k1_off343 (v534 : BitVec 32) : Fin 2 → Nat :=
  let c0_i32_738 : BitVec 32 := 0#32
  ![v534.toNat, 0]

def k1_chk89 (v534 : BitVec 32) : Prop :=
  (∀ a, (k1_off178 v534) a + S1x2048.size a ≤ S26112x2048.size a) ∧
  (∀ a, (k1_off343 v534) a + S1x2048.size a ≤ S26112x2048.size a)
instance k1_chk89.dec : ∀ (v534 : BitVec 32), Decidable (k1_chk89 v534) := fun v534 => decidable_of_iff' _ (Iff.of_eq (k1_chk89.eq_1 v534))
theorem k1_off178_inb : ∀ (v534 : BitVec 32) (k1_hw89 : k1_chk89 v534), ∀ a, (k1_off178 v534) a + S1x2048.size a ≤ S26112x2048.size a := fun v534 k1_hw89 => k1_hw89.1
theorem k1_off343_inb : ∀ (v534 : BitVec 32) (k1_hw89 : k1_chk89 v534), ∀ a, (k1_off343 v534) a + S1x2048.size a ≤ S26112x2048.size a := fun v534 k1_hw89 => k1_hw89.2

def k1_off344 (v540 : BitVec 32) : Fin 2 → Nat :=
  let c0_i32_742 : BitVec 32 := 0#32
  ![v540.toNat, 0]

def k1_chk90 (v540 : BitVec 32) : Prop :=
  (∀ a, (k1_off180 v540) a + S1x2048.size a ≤ S26112x2048.size a) ∧
  (∀ a, (k1_off344 v540) a + S1x2048.size a ≤ S26112x2048.size a)
instance k1_chk90.dec : ∀ (v540 : BitVec 32), Decidable (k1_chk90 v540) := fun v540 => decidable_of_iff' _ (Iff.of_eq (k1_chk90.eq_1 v540))
theorem k1_off180_inb : ∀ (v540 : BitVec 32) (k1_hw90 : k1_chk90 v540), ∀ a, (k1_off180 v540) a + S1x2048.size a ≤ S26112x2048.size a := fun v540 k1_hw90 => k1_hw90.1
theorem k1_off344_inb : ∀ (v540 : BitVec 32) (k1_hw90 : k1_chk90 v540), ∀ a, (k1_off344 v540) a + S1x2048.size a ≤ S26112x2048.size a := fun v540 k1_hw90 => k1_hw90.2

def k1_off345 (v546 : BitVec 32) : Fin 2 → Nat :=
  let c0_i32_746 : BitVec 32 := 0#32
  ![v546.toNat, 0]

def k1_chk91 (v546 : BitVec 32) : Prop :=
  (∀ a, (k1_off182 v546) a + S1x2048.size a ≤ S26112x2048.size a) ∧
  (∀ a, (k1_off345 v546) a + S1x2048.size a ≤ S26112x2048.size a)
instance k1_chk91.dec : ∀ (v546 : BitVec 32), Decidable (k1_chk91 v546) := fun v546 => decidable_of_iff' _ (Iff.of_eq (k1_chk91.eq_1 v546))
theorem k1_off182_inb : ∀ (v546 : BitVec 32) (k1_hw91 : k1_chk91 v546), ∀ a, (k1_off182 v546) a + S1x2048.size a ≤ S26112x2048.size a := fun v546 k1_hw91 => k1_hw91.1
theorem k1_off345_inb : ∀ (v546 : BitVec 32) (k1_hw91 : k1_chk91 v546), ∀ a, (k1_off345 v546) a + S1x2048.size a ≤ S26112x2048.size a := fun v546 k1_hw91 => k1_hw91.2

def k1_off346 (v552 : BitVec 32) : Fin 2 → Nat :=
  let c0_i32_750 : BitVec 32 := 0#32
  ![v552.toNat, 0]

def k1_chk92 (v552 : BitVec 32) : Prop :=
  (∀ a, (k1_off184 v552) a + S1x2048.size a ≤ S26112x2048.size a) ∧
  (∀ a, (k1_off346 v552) a + S1x2048.size a ≤ S26112x2048.size a)
instance k1_chk92.dec : ∀ (v552 : BitVec 32), Decidable (k1_chk92 v552) := fun v552 => decidable_of_iff' _ (Iff.of_eq (k1_chk92.eq_1 v552))
theorem k1_off184_inb : ∀ (v552 : BitVec 32) (k1_hw92 : k1_chk92 v552), ∀ a, (k1_off184 v552) a + S1x2048.size a ≤ S26112x2048.size a := fun v552 k1_hw92 => k1_hw92.1
theorem k1_off346_inb : ∀ (v552 : BitVec 32) (k1_hw92 : k1_chk92 v552), ∀ a, (k1_off346 v552) a + S1x2048.size a ≤ S26112x2048.size a := fun v552 k1_hw92 => k1_hw92.2

def k1_off347 (v558 : BitVec 32) : Fin 2 → Nat :=
  let c0_i32_754 : BitVec 32 := 0#32
  ![v558.toNat, 0]

def k1_chk93 (v558 : BitVec 32) : Prop :=
  (∀ a, (k1_off186 v558) a + S1x2048.size a ≤ S26112x2048.size a) ∧
  (∀ a, (k1_off347 v558) a + S1x2048.size a ≤ S26112x2048.size a)
instance k1_chk93.dec : ∀ (v558 : BitVec 32), Decidable (k1_chk93 v558) := fun v558 => decidable_of_iff' _ (Iff.of_eq (k1_chk93.eq_1 v558))
theorem k1_off186_inb : ∀ (v558 : BitVec 32) (k1_hw93 : k1_chk93 v558), ∀ a, (k1_off186 v558) a + S1x2048.size a ≤ S26112x2048.size a := fun v558 k1_hw93 => k1_hw93.1
theorem k1_off347_inb : ∀ (v558 : BitVec 32) (k1_hw93 : k1_chk93 v558), ∀ a, (k1_off347 v558) a + S1x2048.size a ≤ S26112x2048.size a := fun v558 k1_hw93 => k1_hw93.2

def k1_off348 (v564 : BitVec 32) : Fin 2 → Nat :=
  let c0_i32_758 : BitVec 32 := 0#32
  ![v564.toNat, 0]

def k1_chk94 (v564 : BitVec 32) : Prop :=
  (∀ a, (k1_off188 v564) a + S1x2048.size a ≤ S26112x2048.size a) ∧
  (∀ a, (k1_off348 v564) a + S1x2048.size a ≤ S26112x2048.size a)
instance k1_chk94.dec : ∀ (v564 : BitVec 32), Decidable (k1_chk94 v564) := fun v564 => decidable_of_iff' _ (Iff.of_eq (k1_chk94.eq_1 v564))
theorem k1_off188_inb : ∀ (v564 : BitVec 32) (k1_hw94 : k1_chk94 v564), ∀ a, (k1_off188 v564) a + S1x2048.size a ≤ S26112x2048.size a := fun v564 k1_hw94 => k1_hw94.1
theorem k1_off348_inb : ∀ (v564 : BitVec 32) (k1_hw94 : k1_chk94 v564), ∀ a, (k1_off348 v564) a + S1x2048.size a ≤ S26112x2048.size a := fun v564 k1_hw94 => k1_hw94.2

def k1_off349 (v570 : BitVec 32) : Fin 2 → Nat :=
  let c0_i32_762 : BitVec 32 := 0#32
  ![v570.toNat, 0]

def k1_chk95 (v570 : BitVec 32) : Prop :=
  (∀ a, (k1_off190 v570) a + S1x2048.size a ≤ S26112x2048.size a) ∧
  (∀ a, (k1_off349 v570) a + S1x2048.size a ≤ S26112x2048.size a)
instance k1_chk95.dec : ∀ (v570 : BitVec 32), Decidable (k1_chk95 v570) := fun v570 => decidable_of_iff' _ (Iff.of_eq (k1_chk95.eq_1 v570))
theorem k1_off190_inb : ∀ (v570 : BitVec 32) (k1_hw95 : k1_chk95 v570), ∀ a, (k1_off190 v570) a + S1x2048.size a ≤ S26112x2048.size a := fun v570 k1_hw95 => k1_hw95.1
theorem k1_off349_inb : ∀ (v570 : BitVec 32) (k1_hw95 : k1_chk95 v570), ∀ a, (k1_off349 v570) a + S1x2048.size a ≤ S26112x2048.size a := fun v570 k1_hw95 => k1_hw95.2

def k1_off350 (v576 : BitVec 32) : Fin 2 → Nat :=
  let c0_i32_766 : BitVec 32 := 0#32
  ![v576.toNat, 0]

def k1_chk96 (v576 : BitVec 32) : Prop :=
  (∀ a, (k1_off192 v576) a + S1x2048.size a ≤ S26112x2048.size a) ∧
  (∀ a, (k1_off350 v576) a + S1x2048.size a ≤ S26112x2048.size a)
instance k1_chk96.dec : ∀ (v576 : BitVec 32), Decidable (k1_chk96 v576) := fun v576 => decidable_of_iff' _ (Iff.of_eq (k1_chk96.eq_1 v576))
theorem k1_off192_inb : ∀ (v576 : BitVec 32) (k1_hw96 : k1_chk96 v576), ∀ a, (k1_off192 v576) a + S1x2048.size a ≤ S26112x2048.size a := fun v576 k1_hw96 => k1_hw96.1
theorem k1_off350_inb : ∀ (v576 : BitVec 32) (k1_hw96 : k1_chk96 v576), ∀ a, (k1_off350 v576) a + S1x2048.size a ≤ S26112x2048.size a := fun v576 k1_hw96 => k1_hw96.2

def k1_off351 (v582 : BitVec 32) : Fin 2 → Nat :=
  let c0_i32_770 : BitVec 32 := 0#32
  ![v582.toNat, 0]

def k1_chk97 (v582 : BitVec 32) : Prop :=
  (∀ a, (k1_off194 v582) a + S1x2048.size a ≤ S26112x2048.size a) ∧
  (∀ a, (k1_off351 v582) a + S1x2048.size a ≤ S26112x2048.size a)
instance k1_chk97.dec : ∀ (v582 : BitVec 32), Decidable (k1_chk97 v582) := fun v582 => decidable_of_iff' _ (Iff.of_eq (k1_chk97.eq_1 v582))
theorem k1_off194_inb : ∀ (v582 : BitVec 32) (k1_hw97 : k1_chk97 v582), ∀ a, (k1_off194 v582) a + S1x2048.size a ≤ S26112x2048.size a := fun v582 k1_hw97 => k1_hw97.1
theorem k1_off351_inb : ∀ (v582 : BitVec 32) (k1_hw97 : k1_chk97 v582), ∀ a, (k1_off351 v582) a + S1x2048.size a ≤ S26112x2048.size a := fun v582 k1_hw97 => k1_hw97.2

def k1_off352 (v588 : BitVec 32) : Fin 2 → Nat :=
  let c0_i32_774 : BitVec 32 := 0#32
  ![v588.toNat, 0]

def k1_chk98 (v588 : BitVec 32) : Prop :=
  (∀ a, (k1_off196 v588) a + S1x2048.size a ≤ S26112x2048.size a) ∧
  (∀ a, (k1_off352 v588) a + S1x2048.size a ≤ S26112x2048.size a)
instance k1_chk98.dec : ∀ (v588 : BitVec 32), Decidable (k1_chk98 v588) := fun v588 => decidable_of_iff' _ (Iff.of_eq (k1_chk98.eq_1 v588))
theorem k1_off196_inb : ∀ (v588 : BitVec 32) (k1_hw98 : k1_chk98 v588), ∀ a, (k1_off196 v588) a + S1x2048.size a ≤ S26112x2048.size a := fun v588 k1_hw98 => k1_hw98.1
theorem k1_off352_inb : ∀ (v588 : BitVec 32) (k1_hw98 : k1_chk98 v588), ∀ a, (k1_off352 v588) a + S1x2048.size a ≤ S26112x2048.size a := fun v588 k1_hw98 => k1_hw98.2

def k1_off353 (v594 : BitVec 32) : Fin 2 → Nat :=
  let c0_i32_778 : BitVec 32 := 0#32
  ![v594.toNat, 0]

def k1_chk99 (v594 : BitVec 32) : Prop :=
  (∀ a, (k1_off198 v594) a + S1x2048.size a ≤ S26112x2048.size a) ∧
  (∀ a, (k1_off353 v594) a + S1x2048.size a ≤ S26112x2048.size a)
instance k1_chk99.dec : ∀ (v594 : BitVec 32), Decidable (k1_chk99 v594) := fun v594 => decidable_of_iff' _ (Iff.of_eq (k1_chk99.eq_1 v594))
theorem k1_off198_inb : ∀ (v594 : BitVec 32) (k1_hw99 : k1_chk99 v594), ∀ a, (k1_off198 v594) a + S1x2048.size a ≤ S26112x2048.size a := fun v594 k1_hw99 => k1_hw99.1
theorem k1_off353_inb : ∀ (v594 : BitVec 32) (k1_hw99 : k1_chk99 v594), ∀ a, (k1_off353 v594) a + S1x2048.size a ≤ S26112x2048.size a := fun v594 k1_hw99 => k1_hw99.2

def k1_off354 (v600 : BitVec 32) : Fin 2 → Nat :=
  let c0_i32_782 : BitVec 32 := 0#32
  ![v600.toNat, 0]

def k1_chk100 (v600 : BitVec 32) : Prop :=
  (∀ a, (k1_off200 v600) a + S1x2048.size a ≤ S26112x2048.size a) ∧
  (∀ a, (k1_off354 v600) a + S1x2048.size a ≤ S26112x2048.size a)
instance k1_chk100.dec : ∀ (v600 : BitVec 32), Decidable (k1_chk100 v600) := fun v600 => decidable_of_iff' _ (Iff.of_eq (k1_chk100.eq_1 v600))
theorem k1_off200_inb : ∀ (v600 : BitVec 32) (k1_hw100 : k1_chk100 v600), ∀ a, (k1_off200 v600) a + S1x2048.size a ≤ S26112x2048.size a := fun v600 k1_hw100 => k1_hw100.1
theorem k1_off354_inb : ∀ (v600 : BitVec 32) (k1_hw100 : k1_chk100 v600), ∀ a, (k1_off354 v600) a + S1x2048.size a ≤ S26112x2048.size a := fun v600 k1_hw100 => k1_hw100.2

def k1_off355 (v606 : BitVec 32) : Fin 2 → Nat :=
  let c0_i32_786 : BitVec 32 := 0#32
  ![v606.toNat, 0]

def k1_chk101 (v606 : BitVec 32) : Prop :=
  (∀ a, (k1_off202 v606) a + S1x2048.size a ≤ S26112x2048.size a) ∧
  (∀ a, (k1_off355 v606) a + S1x2048.size a ≤ S26112x2048.size a)
instance k1_chk101.dec : ∀ (v606 : BitVec 32), Decidable (k1_chk101 v606) := fun v606 => decidable_of_iff' _ (Iff.of_eq (k1_chk101.eq_1 v606))
theorem k1_off202_inb : ∀ (v606 : BitVec 32) (k1_hw101 : k1_chk101 v606), ∀ a, (k1_off202 v606) a + S1x2048.size a ≤ S26112x2048.size a := fun v606 k1_hw101 => k1_hw101.1
theorem k1_off355_inb : ∀ (v606 : BitVec 32) (k1_hw101 : k1_chk101 v606), ∀ a, (k1_off355 v606) a + S1x2048.size a ≤ S26112x2048.size a := fun v606 k1_hw101 => k1_hw101.2

def k1_off356 (v612 : BitVec 32) : Fin 2 → Nat :=
  let c0_i32_790 : BitVec 32 := 0#32
  ![v612.toNat, 0]

def k1_chk102 (v612 : BitVec 32) : Prop :=
  (∀ a, (k1_off204 v612) a + S1x2048.size a ≤ S26112x2048.size a) ∧
  (∀ a, (k1_off356 v612) a + S1x2048.size a ≤ S26112x2048.size a)
instance k1_chk102.dec : ∀ (v612 : BitVec 32), Decidable (k1_chk102 v612) := fun v612 => decidable_of_iff' _ (Iff.of_eq (k1_chk102.eq_1 v612))
theorem k1_off204_inb : ∀ (v612 : BitVec 32) (k1_hw102 : k1_chk102 v612), ∀ a, (k1_off204 v612) a + S1x2048.size a ≤ S26112x2048.size a := fun v612 k1_hw102 => k1_hw102.1
theorem k1_off356_inb : ∀ (v612 : BitVec 32) (k1_hw102 : k1_chk102 v612), ∀ a, (k1_off356 v612) a + S1x2048.size a ≤ S26112x2048.size a := fun v612 k1_hw102 => k1_hw102.2

def k1_off357 (v618 : BitVec 32) : Fin 2 → Nat :=
  let c0_i32_794 : BitVec 32 := 0#32
  ![v618.toNat, 0]

def k1_chk103 (v618 : BitVec 32) : Prop :=
  (∀ a, (k1_off206 v618) a + S1x2048.size a ≤ S26112x2048.size a) ∧
  (∀ a, (k1_off357 v618) a + S1x2048.size a ≤ S26112x2048.size a)
instance k1_chk103.dec : ∀ (v618 : BitVec 32), Decidable (k1_chk103 v618) := fun v618 => decidable_of_iff' _ (Iff.of_eq (k1_chk103.eq_1 v618))
theorem k1_off206_inb : ∀ (v618 : BitVec 32) (k1_hw103 : k1_chk103 v618), ∀ a, (k1_off206 v618) a + S1x2048.size a ≤ S26112x2048.size a := fun v618 k1_hw103 => k1_hw103.1
theorem k1_off357_inb : ∀ (v618 : BitVec 32) (k1_hw103 : k1_chk103 v618), ∀ a, (k1_off357 v618) a + S1x2048.size a ≤ S26112x2048.size a := fun v618 k1_hw103 => k1_hw103.2

def k1_off358 (v624 : BitVec 32) : Fin 2 → Nat :=
  let c0_i32_798 : BitVec 32 := 0#32
  ![v624.toNat, 0]

def k1_chk104 (v624 : BitVec 32) : Prop :=
  (∀ a, (k1_off208 v624) a + S1x2048.size a ≤ S26112x2048.size a) ∧
  (∀ a, (k1_off358 v624) a + S1x2048.size a ≤ S26112x2048.size a)
instance k1_chk104.dec : ∀ (v624 : BitVec 32), Decidable (k1_chk104 v624) := fun v624 => decidable_of_iff' _ (Iff.of_eq (k1_chk104.eq_1 v624))
theorem k1_off208_inb : ∀ (v624 : BitVec 32) (k1_hw104 : k1_chk104 v624), ∀ a, (k1_off208 v624) a + S1x2048.size a ≤ S26112x2048.size a := fun v624 k1_hw104 => k1_hw104.1
theorem k1_off358_inb : ∀ (v624 : BitVec 32) (k1_hw104 : k1_chk104 v624), ∀ a, (k1_off358 v624) a + S1x2048.size a ≤ S26112x2048.size a := fun v624 k1_hw104 => k1_hw104.2

def k1_off359 (v630 : BitVec 32) : Fin 2 → Nat :=
  let c0_i32_802 : BitVec 32 := 0#32
  ![v630.toNat, 0]

def k1_chk105 (v630 : BitVec 32) : Prop :=
  (∀ a, (k1_off210 v630) a + S1x2048.size a ≤ S26112x2048.size a) ∧
  (∀ a, (k1_off359 v630) a + S1x2048.size a ≤ S26112x2048.size a)
instance k1_chk105.dec : ∀ (v630 : BitVec 32), Decidable (k1_chk105 v630) := fun v630 => decidable_of_iff' _ (Iff.of_eq (k1_chk105.eq_1 v630))
theorem k1_off210_inb : ∀ (v630 : BitVec 32) (k1_hw105 : k1_chk105 v630), ∀ a, (k1_off210 v630) a + S1x2048.size a ≤ S26112x2048.size a := fun v630 k1_hw105 => k1_hw105.1
theorem k1_off359_inb : ∀ (v630 : BitVec 32) (k1_hw105 : k1_chk105 v630), ∀ a, (k1_off359 v630) a + S1x2048.size a ≤ S26112x2048.size a := fun v630 k1_hw105 => k1_hw105.2

def k1_off360 (v636 : BitVec 32) : Fin 2 → Nat :=
  let c0_i32_806 : BitVec 32 := 0#32
  ![v636.toNat, 0]

def k1_chk106 (v636 : BitVec 32) : Prop :=
  (∀ a, (k1_off212 v636) a + S1x2048.size a ≤ S26112x2048.size a) ∧
  (∀ a, (k1_off360 v636) a + S1x2048.size a ≤ S26112x2048.size a)
instance k1_chk106.dec : ∀ (v636 : BitVec 32), Decidable (k1_chk106 v636) := fun v636 => decidable_of_iff' _ (Iff.of_eq (k1_chk106.eq_1 v636))
theorem k1_off212_inb : ∀ (v636 : BitVec 32) (k1_hw106 : k1_chk106 v636), ∀ a, (k1_off212 v636) a + S1x2048.size a ≤ S26112x2048.size a := fun v636 k1_hw106 => k1_hw106.1
theorem k1_off360_inb : ∀ (v636 : BitVec 32) (k1_hw106 : k1_chk106 v636), ∀ a, (k1_off360 v636) a + S1x2048.size a ≤ S26112x2048.size a := fun v636 k1_hw106 => k1_hw106.2

def k1_off361 (v642 : BitVec 32) : Fin 2 → Nat :=
  let c0_i32_810 : BitVec 32 := 0#32
  ![v642.toNat, 0]

def k1_chk107 (v642 : BitVec 32) : Prop :=
  (∀ a, (k1_off214 v642) a + S1x2048.size a ≤ S26112x2048.size a) ∧
  (∀ a, (k1_off361 v642) a + S1x2048.size a ≤ S26112x2048.size a)
instance k1_chk107.dec : ∀ (v642 : BitVec 32), Decidable (k1_chk107 v642) := fun v642 => decidable_of_iff' _ (Iff.of_eq (k1_chk107.eq_1 v642))
theorem k1_off214_inb : ∀ (v642 : BitVec 32) (k1_hw107 : k1_chk107 v642), ∀ a, (k1_off214 v642) a + S1x2048.size a ≤ S26112x2048.size a := fun v642 k1_hw107 => k1_hw107.1
theorem k1_off361_inb : ∀ (v642 : BitVec 32) (k1_hw107 : k1_chk107 v642), ∀ a, (k1_off361 v642) a + S1x2048.size a ≤ S26112x2048.size a := fun v642 k1_hw107 => k1_hw107.2

def k1_off362 (v648 : BitVec 32) : Fin 2 → Nat :=
  let c0_i32_814 : BitVec 32 := 0#32
  ![v648.toNat, 0]

def k1_chk108 (v648 : BitVec 32) : Prop :=
  (∀ a, (k1_off216 v648) a + S1x2048.size a ≤ S26112x2048.size a) ∧
  (∀ a, (k1_off362 v648) a + S1x2048.size a ≤ S26112x2048.size a)
instance k1_chk108.dec : ∀ (v648 : BitVec 32), Decidable (k1_chk108 v648) := fun v648 => decidable_of_iff' _ (Iff.of_eq (k1_chk108.eq_1 v648))
theorem k1_off216_inb : ∀ (v648 : BitVec 32) (k1_hw108 : k1_chk108 v648), ∀ a, (k1_off216 v648) a + S1x2048.size a ≤ S26112x2048.size a := fun v648 k1_hw108 => k1_hw108.1
theorem k1_off362_inb : ∀ (v648 : BitVec 32) (k1_hw108 : k1_chk108 v648), ∀ a, (k1_off362 v648) a + S1x2048.size a ≤ S26112x2048.size a := fun v648 k1_hw108 => k1_hw108.2

def k1_off363 (v654 : BitVec 32) : Fin 2 → Nat :=
  let c0_i32_818 : BitVec 32 := 0#32
  ![v654.toNat, 0]

def k1_chk109 (v654 : BitVec 32) : Prop :=
  (∀ a, (k1_off218 v654) a + S1x2048.size a ≤ S26112x2048.size a) ∧
  (∀ a, (k1_off363 v654) a + S1x2048.size a ≤ S26112x2048.size a)
instance k1_chk109.dec : ∀ (v654 : BitVec 32), Decidable (k1_chk109 v654) := fun v654 => decidable_of_iff' _ (Iff.of_eq (k1_chk109.eq_1 v654))
theorem k1_off218_inb : ∀ (v654 : BitVec 32) (k1_hw109 : k1_chk109 v654), ∀ a, (k1_off218 v654) a + S1x2048.size a ≤ S26112x2048.size a := fun v654 k1_hw109 => k1_hw109.1
theorem k1_off363_inb : ∀ (v654 : BitVec 32) (k1_hw109 : k1_chk109 v654), ∀ a, (k1_off363 v654) a + S1x2048.size a ≤ S26112x2048.size a := fun v654 k1_hw109 => k1_hw109.2

def k1_off364 (v660 : BitVec 32) : Fin 2 → Nat :=
  let c0_i32_822 : BitVec 32 := 0#32
  ![v660.toNat, 0]

def k1_chk110 (v660 : BitVec 32) : Prop :=
  (∀ a, (k1_off220 v660) a + S1x2048.size a ≤ S26112x2048.size a) ∧
  (∀ a, (k1_off364 v660) a + S1x2048.size a ≤ S26112x2048.size a)
instance k1_chk110.dec : ∀ (v660 : BitVec 32), Decidable (k1_chk110 v660) := fun v660 => decidable_of_iff' _ (Iff.of_eq (k1_chk110.eq_1 v660))
theorem k1_off220_inb : ∀ (v660 : BitVec 32) (k1_hw110 : k1_chk110 v660), ∀ a, (k1_off220 v660) a + S1x2048.size a ≤ S26112x2048.size a := fun v660 k1_hw110 => k1_hw110.1
theorem k1_off364_inb : ∀ (v660 : BitVec 32) (k1_hw110 : k1_chk110 v660), ∀ a, (k1_off364 v660) a + S1x2048.size a ≤ S26112x2048.size a := fun v660 k1_hw110 => k1_hw110.2

def k1_off365 (v666 : BitVec 32) : Fin 2 → Nat :=
  let c0_i32_826 : BitVec 32 := 0#32
  ![v666.toNat, 0]

def k1_chk111 (v666 : BitVec 32) : Prop :=
  (∀ a, (k1_off222 v666) a + S1x2048.size a ≤ S26112x2048.size a) ∧
  (∀ a, (k1_off365 v666) a + S1x2048.size a ≤ S26112x2048.size a)
instance k1_chk111.dec : ∀ (v666 : BitVec 32), Decidable (k1_chk111 v666) := fun v666 => decidable_of_iff' _ (Iff.of_eq (k1_chk111.eq_1 v666))
theorem k1_off222_inb : ∀ (v666 : BitVec 32) (k1_hw111 : k1_chk111 v666), ∀ a, (k1_off222 v666) a + S1x2048.size a ≤ S26112x2048.size a := fun v666 k1_hw111 => k1_hw111.1
theorem k1_off365_inb : ∀ (v666 : BitVec 32) (k1_hw111 : k1_chk111 v666), ∀ a, (k1_off365 v666) a + S1x2048.size a ≤ S26112x2048.size a := fun v666 k1_hw111 => k1_hw111.2

def k1_off366 (v672 : BitVec 32) : Fin 2 → Nat :=
  let c0_i32_830 : BitVec 32 := 0#32
  ![v672.toNat, 0]

def k1_chk112 (v672 : BitVec 32) : Prop :=
  (∀ a, (k1_off224 v672) a + S1x2048.size a ≤ S26112x2048.size a) ∧
  (∀ a, (k1_off366 v672) a + S1x2048.size a ≤ S26112x2048.size a)
instance k1_chk112.dec : ∀ (v672 : BitVec 32), Decidable (k1_chk112 v672) := fun v672 => decidable_of_iff' _ (Iff.of_eq (k1_chk112.eq_1 v672))
theorem k1_off224_inb : ∀ (v672 : BitVec 32) (k1_hw112 : k1_chk112 v672), ∀ a, (k1_off224 v672) a + S1x2048.size a ≤ S26112x2048.size a := fun v672 k1_hw112 => k1_hw112.1
theorem k1_off366_inb : ∀ (v672 : BitVec 32) (k1_hw112 : k1_chk112 v672), ∀ a, (k1_off366 v672) a + S1x2048.size a ≤ S26112x2048.size a := fun v672 k1_hw112 => k1_hw112.2

def k1_off367 (v678 : BitVec 32) : Fin 2 → Nat :=
  let c0_i32_834 : BitVec 32 := 0#32
  ![v678.toNat, 0]

def k1_chk113 (v678 : BitVec 32) : Prop :=
  (∀ a, (k1_off226 v678) a + S1x2048.size a ≤ S26112x2048.size a) ∧
  (∀ a, (k1_off367 v678) a + S1x2048.size a ≤ S26112x2048.size a)
instance k1_chk113.dec : ∀ (v678 : BitVec 32), Decidable (k1_chk113 v678) := fun v678 => decidable_of_iff' _ (Iff.of_eq (k1_chk113.eq_1 v678))
theorem k1_off226_inb : ∀ (v678 : BitVec 32) (k1_hw113 : k1_chk113 v678), ∀ a, (k1_off226 v678) a + S1x2048.size a ≤ S26112x2048.size a := fun v678 k1_hw113 => k1_hw113.1
theorem k1_off367_inb : ∀ (v678 : BitVec 32) (k1_hw113 : k1_chk113 v678), ∀ a, (k1_off367 v678) a + S1x2048.size a ≤ S26112x2048.size a := fun v678 k1_hw113 => k1_hw113.2

def k1_off368 (v684 : BitVec 32) : Fin 2 → Nat :=
  let c0_i32_838 : BitVec 32 := 0#32
  ![v684.toNat, 0]

def k1_chk114 (v684 : BitVec 32) : Prop :=
  (∀ a, (k1_off228 v684) a + S1x2048.size a ≤ S26112x2048.size a) ∧
  (∀ a, (k1_off368 v684) a + S1x2048.size a ≤ S26112x2048.size a)
instance k1_chk114.dec : ∀ (v684 : BitVec 32), Decidable (k1_chk114 v684) := fun v684 => decidable_of_iff' _ (Iff.of_eq (k1_chk114.eq_1 v684))
theorem k1_off228_inb : ∀ (v684 : BitVec 32) (k1_hw114 : k1_chk114 v684), ∀ a, (k1_off228 v684) a + S1x2048.size a ≤ S26112x2048.size a := fun v684 k1_hw114 => k1_hw114.1
theorem k1_off368_inb : ∀ (v684 : BitVec 32) (k1_hw114 : k1_chk114 v684), ∀ a, (k1_off368 v684) a + S1x2048.size a ≤ S26112x2048.size a := fun v684 k1_hw114 => k1_hw114.2

def k1_off369 (v690 : BitVec 32) : Fin 2 → Nat :=
  let c0_i32_842 : BitVec 32 := 0#32
  ![v690.toNat, 0]

def k1_chk115 (v690 : BitVec 32) : Prop :=
  (∀ a, (k1_off230 v690) a + S1x2048.size a ≤ S26112x2048.size a) ∧
  (∀ a, (k1_off369 v690) a + S1x2048.size a ≤ S26112x2048.size a)
instance k1_chk115.dec : ∀ (v690 : BitVec 32), Decidable (k1_chk115 v690) := fun v690 => decidable_of_iff' _ (Iff.of_eq (k1_chk115.eq_1 v690))
theorem k1_off230_inb : ∀ (v690 : BitVec 32) (k1_hw115 : k1_chk115 v690), ∀ a, (k1_off230 v690) a + S1x2048.size a ≤ S26112x2048.size a := fun v690 k1_hw115 => k1_hw115.1
theorem k1_off369_inb : ∀ (v690 : BitVec 32) (k1_hw115 : k1_chk115 v690), ∀ a, (k1_off369 v690) a + S1x2048.size a ≤ S26112x2048.size a := fun v690 k1_hw115 => k1_hw115.2

def k1_off370 (v696 : BitVec 32) : Fin 2 → Nat :=
  let c0_i32_846 : BitVec 32 := 0#32
  ![v696.toNat, 0]

def k1_chk116 (v696 : BitVec 32) : Prop :=
  (∀ a, (k1_off232 v696) a + S1x2048.size a ≤ S26112x2048.size a) ∧
  (∀ a, (k1_off370 v696) a + S1x2048.size a ≤ S26112x2048.size a)
instance k1_chk116.dec : ∀ (v696 : BitVec 32), Decidable (k1_chk116 v696) := fun v696 => decidable_of_iff' _ (Iff.of_eq (k1_chk116.eq_1 v696))
theorem k1_off232_inb : ∀ (v696 : BitVec 32) (k1_hw116 : k1_chk116 v696), ∀ a, (k1_off232 v696) a + S1x2048.size a ≤ S26112x2048.size a := fun v696 k1_hw116 => k1_hw116.1
theorem k1_off370_inb : ∀ (v696 : BitVec 32) (k1_hw116 : k1_chk116 v696), ∀ a, (k1_off370 v696) a + S1x2048.size a ≤ S26112x2048.size a := fun v696 k1_hw116 => k1_hw116.2

def k1_off371 (v702 : BitVec 32) : Fin 2 → Nat :=
  let c0_i32_850 : BitVec 32 := 0#32
  ![v702.toNat, 0]

def k1_chk117 (v702 : BitVec 32) : Prop :=
  (∀ a, (k1_off234 v702) a + S1x2048.size a ≤ S26112x2048.size a) ∧
  (∀ a, (k1_off371 v702) a + S1x2048.size a ≤ S26112x2048.size a)
instance k1_chk117.dec : ∀ (v702 : BitVec 32), Decidable (k1_chk117 v702) := fun v702 => decidable_of_iff' _ (Iff.of_eq (k1_chk117.eq_1 v702))
theorem k1_off234_inb : ∀ (v702 : BitVec 32) (k1_hw117 : k1_chk117 v702), ∀ a, (k1_off234 v702) a + S1x2048.size a ≤ S26112x2048.size a := fun v702 k1_hw117 => k1_hw117.1
theorem k1_off371_inb : ∀ (v702 : BitVec 32) (k1_hw117 : k1_chk117 v702), ∀ a, (k1_off371 v702) a + S1x2048.size a ≤ S26112x2048.size a := fun v702 k1_hw117 => k1_hw117.2

def k1_off372 (v708 : BitVec 32) : Fin 2 → Nat :=
  let c0_i32_854 : BitVec 32 := 0#32
  ![v708.toNat, 0]

def k1_chk118 (v708 : BitVec 32) : Prop :=
  (∀ a, (k1_off236 v708) a + S1x2048.size a ≤ S26112x2048.size a) ∧
  (∀ a, (k1_off372 v708) a + S1x2048.size a ≤ S26112x2048.size a)
instance k1_chk118.dec : ∀ (v708 : BitVec 32), Decidable (k1_chk118 v708) := fun v708 => decidable_of_iff' _ (Iff.of_eq (k1_chk118.eq_1 v708))
theorem k1_off236_inb : ∀ (v708 : BitVec 32) (k1_hw118 : k1_chk118 v708), ∀ a, (k1_off236 v708) a + S1x2048.size a ≤ S26112x2048.size a := fun v708 k1_hw118 => k1_hw118.1
theorem k1_off372_inb : ∀ (v708 : BitVec 32) (k1_hw118 : k1_chk118 v708), ∀ a, (k1_off372 v708) a + S1x2048.size a ≤ S26112x2048.size a := fun v708 k1_hw118 => k1_hw118.2

def k1_off373 (v714 : BitVec 32) : Fin 2 → Nat :=
  let c0_i32_858 : BitVec 32 := 0#32
  ![v714.toNat, 0]

def k1_chk119 (v714 : BitVec 32) : Prop :=
  (∀ a, (k1_off238 v714) a + S1x2048.size a ≤ S26112x2048.size a) ∧
  (∀ a, (k1_off373 v714) a + S1x2048.size a ≤ S26112x2048.size a)
instance k1_chk119.dec : ∀ (v714 : BitVec 32), Decidable (k1_chk119 v714) := fun v714 => decidable_of_iff' _ (Iff.of_eq (k1_chk119.eq_1 v714))
theorem k1_off238_inb : ∀ (v714 : BitVec 32) (k1_hw119 : k1_chk119 v714), ∀ a, (k1_off238 v714) a + S1x2048.size a ≤ S26112x2048.size a := fun v714 k1_hw119 => k1_hw119.1
theorem k1_off373_inb : ∀ (v714 : BitVec 32) (k1_hw119 : k1_chk119 v714), ∀ a, (k1_off373 v714) a + S1x2048.size a ≤ S26112x2048.size a := fun v714 k1_hw119 => k1_hw119.2

def k1_off374 (v720 : BitVec 32) : Fin 2 → Nat :=
  let c0_i32_862 : BitVec 32 := 0#32
  ![v720.toNat, 0]

def k1_chk120 (v720 : BitVec 32) : Prop :=
  (∀ a, (k1_off240 v720) a + S1x2048.size a ≤ S26112x2048.size a) ∧
  (∀ a, (k1_off374 v720) a + S1x2048.size a ≤ S26112x2048.size a)
instance k1_chk120.dec : ∀ (v720 : BitVec 32), Decidable (k1_chk120 v720) := fun v720 => decidable_of_iff' _ (Iff.of_eq (k1_chk120.eq_1 v720))
theorem k1_off240_inb : ∀ (v720 : BitVec 32) (k1_hw120 : k1_chk120 v720), ∀ a, (k1_off240 v720) a + S1x2048.size a ≤ S26112x2048.size a := fun v720 k1_hw120 => k1_hw120.1
theorem k1_off374_inb : ∀ (v720 : BitVec 32) (k1_hw120 : k1_chk120 v720), ∀ a, (k1_off374 v720) a + S1x2048.size a ≤ S26112x2048.size a := fun v720 k1_hw120 => k1_hw120.2

def k1_off375 (v726 : BitVec 32) : Fin 2 → Nat :=
  let c0_i32_866 : BitVec 32 := 0#32
  ![v726.toNat, 0]

def k1_chk121 (v726 : BitVec 32) : Prop :=
  (∀ a, (k1_off242 v726) a + S1x2048.size a ≤ S26112x2048.size a) ∧
  (∀ a, (k1_off375 v726) a + S1x2048.size a ≤ S26112x2048.size a)
instance k1_chk121.dec : ∀ (v726 : BitVec 32), Decidable (k1_chk121 v726) := fun v726 => decidable_of_iff' _ (Iff.of_eq (k1_chk121.eq_1 v726))
theorem k1_off242_inb : ∀ (v726 : BitVec 32) (k1_hw121 : k1_chk121 v726), ∀ a, (k1_off242 v726) a + S1x2048.size a ≤ S26112x2048.size a := fun v726 k1_hw121 => k1_hw121.1
theorem k1_off375_inb : ∀ (v726 : BitVec 32) (k1_hw121 : k1_chk121 v726), ∀ a, (k1_off375 v726) a + S1x2048.size a ≤ S26112x2048.size a := fun v726 k1_hw121 => k1_hw121.2

def k1_off376 (v732 : BitVec 32) : Fin 2 → Nat :=
  let c0_i32_870 : BitVec 32 := 0#32
  ![v732.toNat, 0]

def k1_chk122 (v732 : BitVec 32) : Prop :=
  (∀ a, (k1_off244 v732) a + S1x2048.size a ≤ S26112x2048.size a) ∧
  (∀ a, (k1_off376 v732) a + S1x2048.size a ≤ S26112x2048.size a)
instance k1_chk122.dec : ∀ (v732 : BitVec 32), Decidable (k1_chk122 v732) := fun v732 => decidable_of_iff' _ (Iff.of_eq (k1_chk122.eq_1 v732))
theorem k1_off244_inb : ∀ (v732 : BitVec 32) (k1_hw122 : k1_chk122 v732), ∀ a, (k1_off244 v732) a + S1x2048.size a ≤ S26112x2048.size a := fun v732 k1_hw122 => k1_hw122.1
theorem k1_off376_inb : ∀ (v732 : BitVec 32) (k1_hw122 : k1_chk122 v732), ∀ a, (k1_off376 v732) a + S1x2048.size a ≤ S26112x2048.size a := fun v732 k1_hw122 => k1_hw122.2

def k1_off377 (v738 : BitVec 32) : Fin 2 → Nat :=
  let c0_i32_874 : BitVec 32 := 0#32
  ![v738.toNat, 0]

def k1_chk123 (v738 : BitVec 32) : Prop :=
  (∀ a, (k1_off246 v738) a + S1x2048.size a ≤ S26112x2048.size a) ∧
  (∀ a, (k1_off377 v738) a + S1x2048.size a ≤ S26112x2048.size a)
instance k1_chk123.dec : ∀ (v738 : BitVec 32), Decidable (k1_chk123 v738) := fun v738 => decidable_of_iff' _ (Iff.of_eq (k1_chk123.eq_1 v738))
theorem k1_off246_inb : ∀ (v738 : BitVec 32) (k1_hw123 : k1_chk123 v738), ∀ a, (k1_off246 v738) a + S1x2048.size a ≤ S26112x2048.size a := fun v738 k1_hw123 => k1_hw123.1
theorem k1_off377_inb : ∀ (v738 : BitVec 32) (k1_hw123 : k1_chk123 v738), ∀ a, (k1_off377 v738) a + S1x2048.size a ≤ S26112x2048.size a := fun v738 k1_hw123 => k1_hw123.2

def k1_off378 (v744 : BitVec 32) : Fin 2 → Nat :=
  let c0_i32_878 : BitVec 32 := 0#32
  ![v744.toNat, 0]

def k1_chk124 (v744 : BitVec 32) : Prop :=
  (∀ a, (k1_off248 v744) a + S1x2048.size a ≤ S26112x2048.size a) ∧
  (∀ a, (k1_off378 v744) a + S1x2048.size a ≤ S26112x2048.size a)
instance k1_chk124.dec : ∀ (v744 : BitVec 32), Decidable (k1_chk124 v744) := fun v744 => decidable_of_iff' _ (Iff.of_eq (k1_chk124.eq_1 v744))
theorem k1_off248_inb : ∀ (v744 : BitVec 32) (k1_hw124 : k1_chk124 v744), ∀ a, (k1_off248 v744) a + S1x2048.size a ≤ S26112x2048.size a := fun v744 k1_hw124 => k1_hw124.1
theorem k1_off378_inb : ∀ (v744 : BitVec 32) (k1_hw124 : k1_chk124 v744), ∀ a, (k1_off378 v744) a + S1x2048.size a ≤ S26112x2048.size a := fun v744 k1_hw124 => k1_hw124.2

def k1_off379 (v750 : BitVec 32) : Fin 2 → Nat :=
  let c0_i32_882 : BitVec 32 := 0#32
  ![v750.toNat, 0]

def k1_chk125 (v750 : BitVec 32) : Prop :=
  (∀ a, (k1_off250 v750) a + S1x2048.size a ≤ S26112x2048.size a) ∧
  (∀ a, (k1_off379 v750) a + S1x2048.size a ≤ S26112x2048.size a)
instance k1_chk125.dec : ∀ (v750 : BitVec 32), Decidable (k1_chk125 v750) := fun v750 => decidable_of_iff' _ (Iff.of_eq (k1_chk125.eq_1 v750))
theorem k1_off250_inb : ∀ (v750 : BitVec 32) (k1_hw125 : k1_chk125 v750), ∀ a, (k1_off250 v750) a + S1x2048.size a ≤ S26112x2048.size a := fun v750 k1_hw125 => k1_hw125.1
theorem k1_off379_inb : ∀ (v750 : BitVec 32) (k1_hw125 : k1_chk125 v750), ∀ a, (k1_off379 v750) a + S1x2048.size a ≤ S26112x2048.size a := fun v750 k1_hw125 => k1_hw125.2

def k1_off380 (v756 : BitVec 32) : Fin 2 → Nat :=
  let c0_i32_886 : BitVec 32 := 0#32
  ![v756.toNat, 0]

def k1_chk126 (v756 : BitVec 32) : Prop :=
  (∀ a, (k1_off252 v756) a + S1x2048.size a ≤ S26112x2048.size a) ∧
  (∀ a, (k1_off380 v756) a + S1x2048.size a ≤ S26112x2048.size a)
instance k1_chk126.dec : ∀ (v756 : BitVec 32), Decidable (k1_chk126 v756) := fun v756 => decidable_of_iff' _ (Iff.of_eq (k1_chk126.eq_1 v756))
theorem k1_off252_inb : ∀ (v756 : BitVec 32) (k1_hw126 : k1_chk126 v756), ∀ a, (k1_off252 v756) a + S1x2048.size a ≤ S26112x2048.size a := fun v756 k1_hw126 => k1_hw126.1
theorem k1_off380_inb : ∀ (v756 : BitVec 32) (k1_hw126 : k1_chk126 v756), ∀ a, (k1_off380 v756) a + S1x2048.size a ≤ S26112x2048.size a := fun v756 k1_hw126 => k1_hw126.2

def cc1_transform_0 (i : grid1.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x127x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S26009x256_S26112x256_01030_000 : S26009x256.Pads (![0, 0] : Fin 2 → Nat) ![103, 0] ![0, 0] S26112x256
  h_S_ : 0 < S_.numel
  transposes_S2048x256_S256x2048_1_0 : S2048x256.Transposes [1, 0] S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x2048_S512 : S512x2048.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  bcast_S1024x127_S1024x127x1_0_1 : S1024x127.BroadcastsInDim S1024x127x1 (![0, 1] : Fin 2 → Fin S1024x127x1.rank)
  inb_S1x2048x10_S1x2048x10_0_0_0 : ∀ a, (![0, 0, 0] : Fin 3 → Nat) a + S1x2048x10.size a ≤ S1x2048x10.size a
  h_S1x2048x10 : 0 < S1x2048x10.numel
  numel1_S1x1 : S1x1.numel = 1
  inb_S127_S1_0 : ∀ a, (![0] : Fin 1 → Nat) a + S1.size a ≤ S127.size a
  squeezes_S1_S_ : S1.Squeezes S_
  inb_S127x2048_S1x2048_0_0 : ∀ a, (![0, 0] : Fin 2 → Nat) a + S1x2048.size a ≤ S127x2048.size a
  inb_S127_S1_1 : ∀ a, (![1] : Fin 1 → Nat) a + S1.size a ≤ S127.size a
  inb_S127x2048_S1x2048_1_0 : ∀ a, (![1, 0] : Fin 2 → Nat) a + S1x2048.size a ≤ S127x2048.size a
  inb_S127_S1_2 : ∀ a, (![2] : Fin 1 → Nat) a + S1.size a ≤ S127.size a
  inb_S127x2048_S1x2048_2_0 : ∀ a, (![2, 0] : Fin 2 → Nat) a + S1x2048.size a ≤ S127x2048.size a
  inb_S127_S1_3 : ∀ a, (![3] : Fin 1 → Nat) a + S1.size a ≤ S127.size a
  inb_S127x2048_S1x2048_3_0 : ∀ a, (![3, 0] : Fin 2 → Nat) a + S1x2048.size a ≤ S127x2048.size a
  inb_S127_S1_4 : ∀ a, (![4] : Fin 1 → Nat) a + S1.size a ≤ S127.size a
  inb_S127x2048_S1x2048_4_0 : ∀ a, (![4, 0] : Fin 2 → Nat) a + S1x2048.size a ≤ S127x2048.size a
  inb_S127_S1_5 : ∀ a, (![5] : Fin 1 → Nat) a + S1.size a ≤ S127.size a
  inb_S127x2048_S1x2048_5_0 : ∀ a, (![5, 0] : Fin 2 → Nat) a + S1x2048.size a ≤ S127x2048.size a
  inb_S127_S1_6 : ∀ a, (![6] : Fin 1 → Nat) a + S1.size a ≤ S127.size a
  inb_S127x2048_S1x2048_6_0 : ∀ a, (![6, 0] : Fin 2 → Nat) a + S1x2048.size a ≤ S127x2048.size a
  inb_S127_S1_7 : ∀ a, (![7] : Fin 1 → Nat) a + S1.size a ≤ S127.size a
  inb_S127x2048_S1x2048_7_0 : ∀ a, (![7, 0] : Fin 2 → Nat) a + S1x2048.size a ≤ S127x2048.size a
  inb_S127_S1_8 : ∀ a, (![8] : Fin 1 → Nat) a + S1.size a ≤ S127.size a
  inb_S127x2048_S1x2048_8_0 : ∀ a, (![8, 0] : Fin 2 → Nat) a + S1x2048.size a ≤ S127x2048.size a
  inb_S127_S1_9 : ∀ a, (![9] : Fin 1 → Nat) a + S1.size a ≤ S127.size a
  inb_S127x2048_S1x2048_9_0 : ∀ a, (![9, 0] : Fin 2 → Nat) a + S1x2048.size a ≤ S127x2048.size a
  inb_S127_S1_10 : ∀ a, (![10] : Fin 1 → Nat) a + S1.size a ≤ S127.size a
  inb_S127x2048_S1x2048_10_0 : ∀ a, (![10, 0] : Fin 2 → Nat) a + S1x2048.size a ≤ S127x2048.size a
  inb_S127_S1_11 : ∀ a, (![11] : Fin 1 → Nat) a + S1.size a ≤ S127.size a
  inb_S127x2048_S1x2048_11_0 : ∀ a, (![11, 0] : Fin 2 → Nat) a + S1x2048.size a ≤ S127x2048.size a
  inb_S127_S1_12 : ∀ a, (![12] : Fin 1 → Nat) a + S1.size a ≤ S127.size a
  inb_S127x2048_S1x2048_12_0 : ∀ a, (![12, 0] : Fin 2 → Nat) a + S1x2048.size a ≤ S127x2048.size a
  inb_S127_S1_13 : ∀ a, (![13] : Fin 1 → Nat) a + S1.size a ≤ S127.size a
  inb_S127x2048_S1x2048_13_0 : ∀ a, (![13, 0] : Fin 2 → Nat) a + S1x2048.size a ≤ S127x2048.size a
  inb_S127_S1_14 : ∀ a, (![14] : Fin 1 → Nat) a + S1.size a ≤ S127.size a
  inb_S127x2048_S1x2048_14_0 : ∀ a, (![14, 0] : Fin 2 → Nat) a + S1x2048.size a ≤ S127x2048.size a
  inb_S127_S1_15 : ∀ a, (![15] : Fin 1 → Nat) a + S1.size a ≤ S127.size a
  inb_S127x2048_S1x2048_15_0 : ∀ a, (![15, 0] : Fin 2 → Nat) a + S1x2048.size a ≤ S127x2048.size a
  inb_S127_S1_16 : ∀ a, (![16] : Fin 1 → Nat) a + S1.size a ≤ S127.size a
  inb_S127x2048_S1x2048_16_0 : ∀ a, (![16, 0] : Fin 2 → Nat) a + S1x2048.size a ≤ S127x2048.size a
  inb_S127_S1_17 : ∀ a, (![17] : Fin 1 → Nat) a + S1.size a ≤ S127.size a
  inb_S127x2048_S1x2048_17_0 : ∀ a, (![17, 0] : Fin 2 → Nat) a + S1x2048.size a ≤ S127x2048.size a
  inb_S127_S1_18 : ∀ a, (![18] : Fin 1 → Nat) a + S1.size a ≤ S127.size a
  inb_S127x2048_S1x2048_18_0 : ∀ a, (![18, 0] : Fin 2 → Nat) a + S1x2048.size a ≤ S127x2048.size a
  inb_S127_S1_19 : ∀ a, (![19] : Fin 1 → Nat) a + S1.size a ≤ S127.size a
  inb_S127x2048_S1x2048_19_0 : ∀ a, (![19, 0] : Fin 2 → Nat) a + S1x2048.size a ≤ S127x2048.size a
  inb_S127_S1_20 : ∀ a, (![20] : Fin 1 → Nat) a + S1.size a ≤ S127.size a
  inb_S127x2048_S1x2048_20_0 : ∀ a, (![20, 0] : Fin 2 → Nat) a + S1x2048.size a ≤ S127x2048.size a
  inb_S127_S1_21 : ∀ a, (![21] : Fin 1 → Nat) a + S1.size a ≤ S127.size a
  inb_S127x2048_S1x2048_21_0 : ∀ a, (![21, 0] : Fin 2 → Nat) a + S1x2048.size a ≤ S127x2048.size a
  inb_S127_S1_22 : ∀ a, (![22] : Fin 1 → Nat) a + S1.size a ≤ S127.size a
  inb_S127x2048_S1x2048_22_0 : ∀ a, (![22, 0] : Fin 2 → Nat) a + S1x2048.size a ≤ S127x2048.size a
  inb_S127_S1_23 : ∀ a, (![23] : Fin 1 → Nat) a + S1.size a ≤ S127.size a
  inb_S127x2048_S1x2048_23_0 : ∀ a, (![23, 0] : Fin 2 → Nat) a + S1x2048.size a ≤ S127x2048.size a
  inb_S127_S1_24 : ∀ a, (![24] : Fin 1 → Nat) a + S1.size a ≤ S127.size a
  inb_S127x2048_S1x2048_24_0 : ∀ a, (![24, 0] : Fin 2 → Nat) a + S1x2048.size a ≤ S127x2048.size a
  inb_S127_S1_25 : ∀ a, (![25] : Fin 1 → Nat) a + S1.size a ≤ S127.size a
  inb_S127x2048_S1x2048_25_0 : ∀ a, (![25, 0] : Fin 2 → Nat) a + S1x2048.size a ≤ S127x2048.size a
  inb_S127_S1_26 : ∀ a, (![26] : Fin 1 → Nat) a + S1.size a ≤ S127.size a
  inb_S127x2048_S1x2048_26_0 : ∀ a, (![26, 0] : Fin 2 → Nat) a + S1x2048.size a ≤ S127x2048.size a
  inb_S127_S1_27 : ∀ a, (![27] : Fin 1 → Nat) a + S1.size a ≤ S127.size a
  inb_S127x2048_S1x2048_27_0 : ∀ a, (![27, 0] : Fin 2 → Nat) a + S1x2048.size a ≤ S127x2048.size a
  inb_S127_S1_28 : ∀ a, (![28] : Fin 1 → Nat) a + S1.size a ≤ S127.size a
  inb_S127x2048_S1x2048_28_0 : ∀ a, (![28, 0] : Fin 2 → Nat) a + S1x2048.size a ≤ S127x2048.size a
  inb_S127_S1_29 : ∀ a, (![29] : Fin 1 → Nat) a + S1.size a ≤ S127.size a
  inb_S127x2048_S1x2048_29_0 : ∀ a, (![29, 0] : Fin 2 → Nat) a + S1x2048.size a ≤ S127x2048.size a
  inb_S127_S1_30 : ∀ a, (![30] : Fin 1 → Nat) a + S1.size a ≤ S127.size a
  inb_S127x2048_S1x2048_30_0 : ∀ a, (![30, 0] : Fin 2 → Nat) a + S1x2048.size a ≤ S127x2048.size a
  inb_S127_S1_31 : ∀ a, (![31] : Fin 1 → Nat) a + S1.size a ≤ S127.size a
  inb_S127x2048_S1x2048_31_0 : ∀ a, (![31, 0] : Fin 2 → Nat) a + S1x2048.size a ≤ S127x2048.size a
  inb_S127_S1_32 : ∀ a, (![32] : Fin 1 → Nat) a + S1.size a ≤ S127.size a
  inb_S127x2048_S1x2048_32_0 : ∀ a, (![32, 0] : Fin 2 → Nat) a + S1x2048.size a ≤ S127x2048.size a
  inb_S127_S1_33 : ∀ a, (![33] : Fin 1 → Nat) a + S1.size a ≤ S127.size a
  inb_S127x2048_S1x2048_33_0 : ∀ a, (![33, 0] : Fin 2 → Nat) a + S1x2048.size a ≤ S127x2048.size a
  inb_S127_S1_34 : ∀ a, (![34] : Fin 1 → Nat) a + S1.size a ≤ S127.size a
  inb_S127x2048_S1x2048_34_0 : ∀ a, (![34, 0] : Fin 2 → Nat) a + S1x2048.size a ≤ S127x2048.size a
  inb_S127_S1_35 : ∀ a, (![35] : Fin 1 → Nat) a + S1.size a ≤ S127.size a
  inb_S127x2048_S1x2048_35_0 : ∀ a, (![35, 0] : Fin 2 → Nat) a + S1x2048.size a ≤ S127x2048.size a
  inb_S127_S1_36 : ∀ a, (![36] : Fin 1 → Nat) a + S1.size a ≤ S127.size a
  inb_S127x2048_S1x2048_36_0 : ∀ a, (![36, 0] : Fin 2 → Nat) a + S1x2048.size a ≤ S127x2048.size a
  inb_S127_S1_37 : ∀ a, (![37] : Fin 1 → Nat) a + S1.size a ≤ S127.size a
  inb_S127x2048_S1x2048_37_0 : ∀ a, (![37, 0] : Fin 2 → Nat) a + S1x2048.size a ≤ S127x2048.size a
  inb_S127_S1_38 : ∀ a, (![38] : Fin 1 → Nat) a + S1.size a ≤ S127.size a
  inb_S127x2048_S1x2048_38_0 : ∀ a, (![38, 0] : Fin 2 → Nat) a + S1x2048.size a ≤ S127x2048.size a
  inb_S127_S1_39 : ∀ a, (![39] : Fin 1 → Nat) a + S1.size a ≤ S127.size a
  inb_S127x2048_S1x2048_39_0 : ∀ a, (![39, 0] : Fin 2 → Nat) a + S1x2048.size a ≤ S127x2048.size a
  inb_S127_S1_40 : ∀ a, (![40] : Fin 1 → Nat) a + S1.size a ≤ S127.size a
  inb_S127x2048_S1x2048_40_0 : ∀ a, (![40, 0] : Fin 2 → Nat) a + S1x2048.size a ≤ S127x2048.size a
  inb_S127_S1_41 : ∀ a, (![41] : Fin 1 → Nat) a + S1.size a ≤ S127.size a
  inb_S127x2048_S1x2048_41_0 : ∀ a, (![41, 0] : Fin 2 → Nat) a + S1x2048.size a ≤ S127x2048.size a
  inb_S127_S1_42 : ∀ a, (![42] : Fin 1 → Nat) a + S1.size a ≤ S127.size a
  inb_S127x2048_S1x2048_42_0 : ∀ a, (![42, 0] : Fin 2 → Nat) a + S1x2048.size a ≤ S127x2048.size a
  inb_S127_S1_43 : ∀ a, (![43] : Fin 1 → Nat) a + S1.size a ≤ S127.size a
  inb_S127x2048_S1x2048_43_0 : ∀ a, (![43, 0] : Fin 2 → Nat) a + S1x2048.size a ≤ S127x2048.size a
  inb_S127_S1_44 : ∀ a, (![44] : Fin 1 → Nat) a + S1.size a ≤ S127.size a
  inb_S127x2048_S1x2048_44_0 : ∀ a, (![44, 0] : Fin 2 → Nat) a + S1x2048.size a ≤ S127x2048.size a
  inb_S127_S1_45 : ∀ a, (![45] : Fin 1 → Nat) a + S1.size a ≤ S127.size a
  inb_S127x2048_S1x2048_45_0 : ∀ a, (![45, 0] : Fin 2 → Nat) a + S1x2048.size a ≤ S127x2048.size a
  inb_S127_S1_46 : ∀ a, (![46] : Fin 1 → Nat) a + S1.size a ≤ S127.size a
  inb_S127x2048_S1x2048_46_0 : ∀ a, (![46, 0] : Fin 2 → Nat) a + S1x2048.size a ≤ S127x2048.size a
  inb_S127_S1_47 : ∀ a, (![47] : Fin 1 → Nat) a + S1.size a ≤ S127.size a
  inb_S127x2048_S1x2048_47_0 : ∀ a, (![47, 0] : Fin 2 → Nat) a + S1x2048.size a ≤ S127x2048.size a
  inb_S127_S1_48 : ∀ a, (![48] : Fin 1 → Nat) a + S1.size a ≤ S127.size a
  inb_S127x2048_S1x2048_48_0 : ∀ a, (![48, 0] : Fin 2 → Nat) a + S1x2048.size a ≤ S127x2048.size a
  inb_S127_S1_49 : ∀ a, (![49] : Fin 1 → Nat) a + S1.size a ≤ S127.size a
  inb_S127x2048_S1x2048_49_0 : ∀ a, (![49, 0] : Fin 2 → Nat) a + S1x2048.size a ≤ S127x2048.size a
  inb_S127_S1_50 : ∀ a, (![50] : Fin 1 → Nat) a + S1.size a ≤ S127.size a
  inb_S127x2048_S1x2048_50_0 : ∀ a, (![50, 0] : Fin 2 → Nat) a + S1x2048.size a ≤ S127x2048.size a
  inb_S127_S1_51 : ∀ a, (![51] : Fin 1 → Nat) a + S1.size a ≤ S127.size a
  inb_S127x2048_S1x2048_51_0 : ∀ a, (![51, 0] : Fin 2 → Nat) a + S1x2048.size a ≤ S127x2048.size a
  inb_S127_S1_52 : ∀ a, (![52] : Fin 1 → Nat) a + S1.size a ≤ S127.size a
  inb_S127x2048_S1x2048_52_0 : ∀ a, (![52, 0] : Fin 2 → Nat) a + S1x2048.size a ≤ S127x2048.size a
  inb_S127_S1_53 : ∀ a, (![53] : Fin 1 → Nat) a + S1.size a ≤ S127.size a
  inb_S127x2048_S1x2048_53_0 : ∀ a, (![53, 0] : Fin 2 → Nat) a + S1x2048.size a ≤ S127x2048.size a
  inb_S127_S1_54 : ∀ a, (![54] : Fin 1 → Nat) a + S1.size a ≤ S127.size a
  inb_S127x2048_S1x2048_54_0 : ∀ a, (![54, 0] : Fin 2 → Nat) a + S1x2048.size a ≤ S127x2048.size a
  inb_S127_S1_55 : ∀ a, (![55] : Fin 1 → Nat) a + S1.size a ≤ S127.size a
  inb_S127x2048_S1x2048_55_0 : ∀ a, (![55, 0] : Fin 2 → Nat) a + S1x2048.size a ≤ S127x2048.size a
  inb_S127_S1_56 : ∀ a, (![56] : Fin 1 → Nat) a + S1.size a ≤ S127.size a
  inb_S127x2048_S1x2048_56_0 : ∀ a, (![56, 0] : Fin 2 → Nat) a + S1x2048.size a ≤ S127x2048.size a
  inb_S127_S1_57 : ∀ a, (![57] : Fin 1 → Nat) a + S1.size a ≤ S127.size a
  inb_S127x2048_S1x2048_57_0 : ∀ a, (![57, 0] : Fin 2 → Nat) a + S1x2048.size a ≤ S127x2048.size a
  inb_S127_S1_58 : ∀ a, (![58] : Fin 1 → Nat) a + S1.size a ≤ S127.size a
  inb_S127x2048_S1x2048_58_0 : ∀ a, (![58, 0] : Fin 2 → Nat) a + S1x2048.size a ≤ S127x2048.size a
  inb_S127_S1_59 : ∀ a, (![59] : Fin 1 → Nat) a + S1.size a ≤ S127.size a
  inb_S127x2048_S1x2048_59_0 : ∀ a, (![59, 0] : Fin 2 → Nat) a + S1x2048.size a ≤ S127x2048.size a
  inb_S127_S1_60 : ∀ a, (![60] : Fin 1 → Nat) a + S1.size a ≤ S127.size a
  inb_S127x2048_S1x2048_60_0 : ∀ a, (![60, 0] : Fin 2 → Nat) a + S1x2048.size a ≤ S127x2048.size a
  inb_S127_S1_61 : ∀ a, (![61] : Fin 1 → Nat) a + S1.size a ≤ S127.size a
  inb_S127x2048_S1x2048_61_0 : ∀ a, (![61, 0] : Fin 2 → Nat) a + S1x2048.size a ≤ S127x2048.size a
  inb_S127_S1_62 : ∀ a, (![62] : Fin 1 → Nat) a + S1.size a ≤ S127.size a
  inb_S127x2048_S1x2048_62_0 : ∀ a, (![62, 0] : Fin 2 → Nat) a + S1x2048.size a ≤ S127x2048.size a
  inb_S127_S1_63 : ∀ a, (![63] : Fin 1 → Nat) a + S1.size a ≤ S127.size a
  inb_S127x2048_S1x2048_63_0 : ∀ a, (![63, 0] : Fin 2 → Nat) a + S1x2048.size a ≤ S127x2048.size a
  inb_S127_S1_64 : ∀ a, (![64] : Fin 1 → Nat) a + S1.size a ≤ S127.size a
  inb_S127x2048_S1x2048_64_0 : ∀ a, (![64, 0] : Fin 2 → Nat) a + S1x2048.size a ≤ S127x2048.size a
  inb_S127_S1_65 : ∀ a, (![65] : Fin 1 → Nat) a + S1.size a ≤ S127.size a
  inb_S127x2048_S1x2048_65_0 : ∀ a, (![65, 0] : Fin 2 → Nat) a + S1x2048.size a ≤ S127x2048.size a
  inb_S127_S1_66 : ∀ a, (![66] : Fin 1 → Nat) a + S1.size a ≤ S127.size a
  inb_S127x2048_S1x2048_66_0 : ∀ a, (![66, 0] : Fin 2 → Nat) a + S1x2048.size a ≤ S127x2048.size a
  inb_S127_S1_67 : ∀ a, (![67] : Fin 1 → Nat) a + S1.size a ≤ S127.size a
  inb_S127x2048_S1x2048_67_0 : ∀ a, (![67, 0] : Fin 2 → Nat) a + S1x2048.size a ≤ S127x2048.size a
  inb_S127_S1_68 : ∀ a, (![68] : Fin 1 → Nat) a + S1.size a ≤ S127.size a
  inb_S127x2048_S1x2048_68_0 : ∀ a, (![68, 0] : Fin 2 → Nat) a + S1x2048.size a ≤ S127x2048.size a
  inb_S127_S1_69 : ∀ a, (![69] : Fin 1 → Nat) a + S1.size a ≤ S127.size a
  inb_S127x2048_S1x2048_69_0 : ∀ a, (![69, 0] : Fin 2 → Nat) a + S1x2048.size a ≤ S127x2048.size a
  inb_S127_S1_70 : ∀ a, (![70] : Fin 1 → Nat) a + S1.size a ≤ S127.size a
  inb_S127x2048_S1x2048_70_0 : ∀ a, (![70, 0] : Fin 2 → Nat) a + S1x2048.size a ≤ S127x2048.size a
  inb_S127_S1_71 : ∀ a, (![71] : Fin 1 → Nat) a + S1.size a ≤ S127.size a
  inb_S127x2048_S1x2048_71_0 : ∀ a, (![71, 0] : Fin 2 → Nat) a + S1x2048.size a ≤ S127x2048.size a
  inb_S127_S1_72 : ∀ a, (![72] : Fin 1 → Nat) a + S1.size a ≤ S127.size a
  inb_S127x2048_S1x2048_72_0 : ∀ a, (![72, 0] : Fin 2 → Nat) a + S1x2048.size a ≤ S127x2048.size a
  inb_S127_S1_73 : ∀ a, (![73] : Fin 1 → Nat) a + S1.size a ≤ S127.size a
  inb_S127x2048_S1x2048_73_0 : ∀ a, (![73, 0] : Fin 2 → Nat) a + S1x2048.size a ≤ S127x2048.size a
  inb_S127_S1_74 : ∀ a, (![74] : Fin 1 → Nat) a + S1.size a ≤ S127.size a
  inb_S127x2048_S1x2048_74_0 : ∀ a, (![74, 0] : Fin 2 → Nat) a + S1x2048.size a ≤ S127x2048.size a
  inb_S127_S1_75 : ∀ a, (![75] : Fin 1 → Nat) a + S1.size a ≤ S127.size a
  inb_S127x2048_S1x2048_75_0 : ∀ a, (![75, 0] : Fin 2 → Nat) a + S1x2048.size a ≤ S127x2048.size a
  inb_S127_S1_76 : ∀ a, (![76] : Fin 1 → Nat) a + S1.size a ≤ S127.size a
  inb_S127x2048_S1x2048_76_0 : ∀ a, (![76, 0] : Fin 2 → Nat) a + S1x2048.size a ≤ S127x2048.size a
  inb_S127_S1_77 : ∀ a, (![77] : Fin 1 → Nat) a + S1.size a ≤ S127.size a
  inb_S127x2048_S1x2048_77_0 : ∀ a, (![77, 0] : Fin 2 → Nat) a + S1x2048.size a ≤ S127x2048.size a
  inb_S127_S1_78 : ∀ a, (![78] : Fin 1 → Nat) a + S1.size a ≤ S127.size a
  inb_S127x2048_S1x2048_78_0 : ∀ a, (![78, 0] : Fin 2 → Nat) a + S1x2048.size a ≤ S127x2048.size a
  inb_S127_S1_79 : ∀ a, (![79] : Fin 1 → Nat) a + S1.size a ≤ S127.size a
  inb_S127x2048_S1x2048_79_0 : ∀ a, (![79, 0] : Fin 2 → Nat) a + S1x2048.size a ≤ S127x2048.size a
  inb_S127_S1_80 : ∀ a, (![80] : Fin 1 → Nat) a + S1.size a ≤ S127.size a
  inb_S127x2048_S1x2048_80_0 : ∀ a, (![80, 0] : Fin 2 → Nat) a + S1x2048.size a ≤ S127x2048.size a
  inb_S127_S1_81 : ∀ a, (![81] : Fin 1 → Nat) a + S1.size a ≤ S127.size a
  inb_S127x2048_S1x2048_81_0 : ∀ a, (![81, 0] : Fin 2 → Nat) a + S1x2048.size a ≤ S127x2048.size a
  inb_S127_S1_82 : ∀ a, (![82] : Fin 1 → Nat) a + S1.size a ≤ S127.size a
  inb_S127x2048_S1x2048_82_0 : ∀ a, (![82, 0] : Fin 2 → Nat) a + S1x2048.size a ≤ S127x2048.size a
  inb_S127_S1_83 : ∀ a, (![83] : Fin 1 → Nat) a + S1.size a ≤ S127.size a
  inb_S127x2048_S1x2048_83_0 : ∀ a, (![83, 0] : Fin 2 → Nat) a + S1x2048.size a ≤ S127x2048.size a
  inb_S127_S1_84 : ∀ a, (![84] : Fin 1 → Nat) a + S1.size a ≤ S127.size a
  inb_S127x2048_S1x2048_84_0 : ∀ a, (![84, 0] : Fin 2 → Nat) a + S1x2048.size a ≤ S127x2048.size a
  inb_S127_S1_85 : ∀ a, (![85] : Fin 1 → Nat) a + S1.size a ≤ S127.size a
  inb_S127x2048_S1x2048_85_0 : ∀ a, (![85, 0] : Fin 2 → Nat) a + S1x2048.size a ≤ S127x2048.size a
  inb_S127_S1_86 : ∀ a, (![86] : Fin 1 → Nat) a + S1.size a ≤ S127.size a
  inb_S127x2048_S1x2048_86_0 : ∀ a, (![86, 0] : Fin 2 → Nat) a + S1x2048.size a ≤ S127x2048.size a
  inb_S127_S1_87 : ∀ a, (![87] : Fin 1 → Nat) a + S1.size a ≤ S127.size a
  inb_S127x2048_S1x2048_87_0 : ∀ a, (![87, 0] : Fin 2 → Nat) a + S1x2048.size a ≤ S127x2048.size a
  inb_S127_S1_88 : ∀ a, (![88] : Fin 1 → Nat) a + S1.size a ≤ S127.size a
  inb_S127x2048_S1x2048_88_0 : ∀ a, (![88, 0] : Fin 2 → Nat) a + S1x2048.size a ≤ S127x2048.size a
  inb_S127_S1_89 : ∀ a, (![89] : Fin 1 → Nat) a + S1.size a ≤ S127.size a
  inb_S127x2048_S1x2048_89_0 : ∀ a, (![89, 0] : Fin 2 → Nat) a + S1x2048.size a ≤ S127x2048.size a
  inb_S127_S1_90 : ∀ a, (![90] : Fin 1 → Nat) a + S1.size a ≤ S127.size a
  inb_S127x2048_S1x2048_90_0 : ∀ a, (![90, 0] : Fin 2 → Nat) a + S1x2048.size a ≤ S127x2048.size a
  inb_S127_S1_91 : ∀ a, (![91] : Fin 1 → Nat) a + S1.size a ≤ S127.size a
  inb_S127x2048_S1x2048_91_0 : ∀ a, (![91, 0] : Fin 2 → Nat) a + S1x2048.size a ≤ S127x2048.size a
  inb_S127_S1_92 : ∀ a, (![92] : Fin 1 → Nat) a + S1.size a ≤ S127.size a
  inb_S127x2048_S1x2048_92_0 : ∀ a, (![92, 0] : Fin 2 → Nat) a + S1x2048.size a ≤ S127x2048.size a
  inb_S127_S1_93 : ∀ a, (![93] : Fin 1 → Nat) a + S1.size a ≤ S127.size a
  inb_S127x2048_S1x2048_93_0 : ∀ a, (![93, 0] : Fin 2 → Nat) a + S1x2048.size a ≤ S127x2048.size a
  inb_S127_S1_94 : ∀ a, (![94] : Fin 1 → Nat) a + S1.size a ≤ S127.size a
  inb_S127x2048_S1x2048_94_0 : ∀ a, (![94, 0] : Fin 2 → Nat) a + S1x2048.size a ≤ S127x2048.size a
  inb_S127_S1_95 : ∀ a, (![95] : Fin 1 → Nat) a + S1.size a ≤ S127.size a
  inb_S127x2048_S1x2048_95_0 : ∀ a, (![95, 0] : Fin 2 → Nat) a + S1x2048.size a ≤ S127x2048.size a
  inb_S127_S1_96 : ∀ a, (![96] : Fin 1 → Nat) a + S1.size a ≤ S127.size a
  inb_S127x2048_S1x2048_96_0 : ∀ a, (![96, 0] : Fin 2 → Nat) a + S1x2048.size a ≤ S127x2048.size a
  inb_S127_S1_97 : ∀ a, (![97] : Fin 1 → Nat) a + S1.size a ≤ S127.size a
  inb_S127x2048_S1x2048_97_0 : ∀ a, (![97, 0] : Fin 2 → Nat) a + S1x2048.size a ≤ S127x2048.size a
  inb_S127_S1_98 : ∀ a, (![98] : Fin 1 → Nat) a + S1.size a ≤ S127.size a
  inb_S127x2048_S1x2048_98_0 : ∀ a, (![98, 0] : Fin 2 → Nat) a + S1x2048.size a ≤ S127x2048.size a
  inb_S127_S1_99 : ∀ a, (![99] : Fin 1 → Nat) a + S1.size a ≤ S127.size a
  inb_S127x2048_S1x2048_99_0 : ∀ a, (![99, 0] : Fin 2 → Nat) a + S1x2048.size a ≤ S127x2048.size a
  inb_S127_S1_100 : ∀ a, (![100] : Fin 1 → Nat) a + S1.size a ≤ S127.size a
  inb_S127x2048_S1x2048_100_0 : ∀ a, (![100, 0] : Fin 2 → Nat) a + S1x2048.size a ≤ S127x2048.size a
  inb_S127_S1_101 : ∀ a, (![101] : Fin 1 → Nat) a + S1.size a ≤ S127.size a
  inb_S127x2048_S1x2048_101_0 : ∀ a, (![101, 0] : Fin 2 → Nat) a + S1x2048.size a ≤ S127x2048.size a
  inb_S127_S1_102 : ∀ a, (![102] : Fin 1 → Nat) a + S1.size a ≤ S127.size a
  inb_S127x2048_S1x2048_102_0 : ∀ a, (![102, 0] : Fin 2 → Nat) a + S1x2048.size a ≤ S127x2048.size a
  inb_S127_S1_103 : ∀ a, (![103] : Fin 1 → Nat) a + S1.size a ≤ S127.size a
  inb_S127x2048_S1x2048_103_0 : ∀ a, (![103, 0] : Fin 2 → Nat) a + S1x2048.size a ≤ S127x2048.size a
  inb_S127_S1_104 : ∀ a, (![104] : Fin 1 → Nat) a + S1.size a ≤ S127.size a
  inb_S127x2048_S1x2048_104_0 : ∀ a, (![104, 0] : Fin 2 → Nat) a + S1x2048.size a ≤ S127x2048.size a
  inb_S127_S1_105 : ∀ a, (![105] : Fin 1 → Nat) a + S1.size a ≤ S127.size a
  inb_S127x2048_S1x2048_105_0 : ∀ a, (![105, 0] : Fin 2 → Nat) a + S1x2048.size a ≤ S127x2048.size a
  inb_S127_S1_106 : ∀ a, (![106] : Fin 1 → Nat) a + S1.size a ≤ S127.size a
  inb_S127x2048_S1x2048_106_0 : ∀ a, (![106, 0] : Fin 2 → Nat) a + S1x2048.size a ≤ S127x2048.size a
  inb_S127_S1_107 : ∀ a, (![107] : Fin 1 → Nat) a + S1.size a ≤ S127.size a
  inb_S127x2048_S1x2048_107_0 : ∀ a, (![107, 0] : Fin 2 → Nat) a + S1x2048.size a ≤ S127x2048.size a
  inb_S127_S1_108 : ∀ a, (![108] : Fin 1 → Nat) a + S1.size a ≤ S127.size a
  inb_S127x2048_S1x2048_108_0 : ∀ a, (![108, 0] : Fin 2 → Nat) a + S1x2048.size a ≤ S127x2048.size a
  inb_S127_S1_109 : ∀ a, (![109] : Fin 1 → Nat) a + S1.size a ≤ S127.size a
  inb_S127x2048_S1x2048_109_0 : ∀ a, (![109, 0] : Fin 2 → Nat) a + S1x2048.size a ≤ S127x2048.size a
  inb_S127_S1_110 : ∀ a, (![110] : Fin 1 → Nat) a + S1.size a ≤ S127.size a
  inb_S127x2048_S1x2048_110_0 : ∀ a, (![110, 0] : Fin 2 → Nat) a + S1x2048.size a ≤ S127x2048.size a
  inb_S127_S1_111 : ∀ a, (![111] : Fin 1 → Nat) a + S1.size a ≤ S127.size a
  inb_S127x2048_S1x2048_111_0 : ∀ a, (![111, 0] : Fin 2 → Nat) a + S1x2048.size a ≤ S127x2048.size a
  inb_S127_S1_112 : ∀ a, (![112] : Fin 1 → Nat) a + S1.size a ≤ S127.size a
  inb_S127x2048_S1x2048_112_0 : ∀ a, (![112, 0] : Fin 2 → Nat) a + S1x2048.size a ≤ S127x2048.size a
  inb_S127_S1_113 : ∀ a, (![113] : Fin 1 → Nat) a + S1.size a ≤ S127.size a
  inb_S127x2048_S1x2048_113_0 : ∀ a, (![113, 0] : Fin 2 → Nat) a + S1x2048.size a ≤ S127x2048.size a
  inb_S127_S1_114 : ∀ a, (![114] : Fin 1 → Nat) a + S1.size a ≤ S127.size a
  inb_S127x2048_S1x2048_114_0 : ∀ a, (![114, 0] : Fin 2 → Nat) a + S1x2048.size a ≤ S127x2048.size a
  inb_S127_S1_115 : ∀ a, (![115] : Fin 1 → Nat) a + S1.size a ≤ S127.size a
  inb_S127x2048_S1x2048_115_0 : ∀ a, (![115, 0] : Fin 2 → Nat) a + S1x2048.size a ≤ S127x2048.size a
  inb_S127_S1_116 : ∀ a, (![116] : Fin 1 → Nat) a + S1.size a ≤ S127.size a
  inb_S127x2048_S1x2048_116_0 : ∀ a, (![116, 0] : Fin 2 → Nat) a + S1x2048.size a ≤ S127x2048.size a
  inb_S127_S1_117 : ∀ a, (![117] : Fin 1 → Nat) a + S1.size a ≤ S127.size a
  inb_S127x2048_S1x2048_117_0 : ∀ a, (![117, 0] : Fin 2 → Nat) a + S1x2048.size a ≤ S127x2048.size a
  inb_S127_S1_118 : ∀ a, (![118] : Fin 1 → Nat) a + S1.size a ≤ S127.size a
  inb_S127x2048_S1x2048_118_0 : ∀ a, (![118, 0] : Fin 2 → Nat) a + S1x2048.size a ≤ S127x2048.size a
  inb_S127_S1_119 : ∀ a, (![119] : Fin 1 → Nat) a + S1.size a ≤ S127.size a
  inb_S127x2048_S1x2048_119_0 : ∀ a, (![119, 0] : Fin 2 → Nat) a + S1x2048.size a ≤ S127x2048.size a
  inb_S127_S1_120 : ∀ a, (![120] : Fin 1 → Nat) a + S1.size a ≤ S127.size a
  inb_S127x2048_S1x2048_120_0 : ∀ a, (![120, 0] : Fin 2 → Nat) a + S1x2048.size a ≤ S127x2048.size a
  inb_S127_S1_121 : ∀ a, (![121] : Fin 1 → Nat) a + S1.size a ≤ S127.size a
  inb_S127x2048_S1x2048_121_0 : ∀ a, (![121, 0] : Fin 2 → Nat) a + S1x2048.size a ≤ S127x2048.size a
  inb_S127_S1_122 : ∀ a, (![122] : Fin 1 → Nat) a + S1.size a ≤ S127.size a
  inb_S127x2048_S1x2048_122_0 : ∀ a, (![122, 0] : Fin 2 → Nat) a + S1x2048.size a ≤ S127x2048.size a
  inb_S127_S1_123 : ∀ a, (![123] : Fin 1 → Nat) a + S1.size a ≤ S127.size a
  inb_S127x2048_S1x2048_123_0 : ∀ a, (![123, 0] : Fin 2 → Nat) a + S1x2048.size a ≤ S127x2048.size a
  inb_S127_S1_124 : ∀ a, (![124] : Fin 1 → Nat) a + S1.size a ≤ S127.size a
  inb_S127x2048_S1x2048_124_0 : ∀ a, (![124, 0] : Fin 2 → Nat) a + S1x2048.size a ≤ S127x2048.size a
  inb_S127_S1_125 : ∀ a, (![125] : Fin 1 → Nat) a + S1.size a ≤ S127.size a
  inb_S127x2048_S1x2048_125_0 : ∀ a, (![125, 0] : Fin 2 → Nat) a + S1x2048.size a ≤ S127x2048.size a
  inb_S127_S1_126 : ∀ a, (![126] : Fin 1 → Nat) a + S1.size a ≤ S127.size a
  inb_S127x2048_S1x2048_126_0 : ∀ a, (![126, 0] : Fin 2 → Nat) a + S1x2048.size a ≤ S127x2048.size a
  inb_S1x127x1_S1x127x1_0_0_0 : ∀ a, (![0, 0, 0] : Fin 3 → Nat) a + S1x127x1.size a ≤ S1x127x1.size a
  h_S1x127x1 : 0 < S1x127x1.numel
  shapeCasts_S1x127x1_S127 : S1x127x1.ShapeCasts S127
  shapeCasts_S127_S127x1 : S127.ShapeCasts S127x1
  inb_S127x2048_S127x2048_0_0 : ∀ a, (![0, 0] : Fin 2 → Nat) a + S127x2048.size a ≤ S127x2048.size a
  h_S127x2048 : 0 < S127x2048.numel
  iota_S127x2048_d0_w32 : S127x2048.Iotas .tc 32 [0]
  shapeCasts_S2048_S1x2048 : S2048.ShapeCasts S1x2048
  broadcasts_S1x2048_S127x2048 : S1x2048.Broadcasts S127x2048
  natLt_1_32 : 1 < 32
  reduces_S127x2048_S2048 : S127x2048.Reduces [0] S2048
  broadcasts_S127x1_S127x2048 : S127x1.Broadcasts S127x2048
  iota_S128x2048_d0_w32 : S128x2048.Iotas .tc 32 [0]
  broadcasts_S1x2048_S128x2048 : S1x2048.Broadcasts S128x2048
  inb_S1x128x10_S1x128x10_0_0_0 : ∀ a, (![0, 0, 0] : Fin 3 → Nat) a + S1x128x10.size a ≤ S1x128x10.size a
  h_S1x128x10 : 0 < S1x128x10.numel
  shapeCasts_S1x128x10_S128x10 : S1x128x10.ShapeCasts S128x10
  shapeCasts_S2048_S2048x1 : S2048.ShapeCasts S2048x1
  broadcasts_S2048x1_S2048x10 : S2048x1.Broadcasts S2048x10
  shapeCasts_S1x2048x10_S2048x10 : S1x2048x10.ShapeCasts S2048x10
  shapeCasts_S2048x10_S1x2048x10 : S2048x10.ShapeCasts S1x2048x10
  reducesTo_S2x2048x10_S2048x10_d0 : S2x2048x10.ReducesTo [0] S2048x10
  dot_S512x256_S256x2048_S512x2048_1_0_0_1_n_n_wf : DotDims.WF S512x256 S256x2048 S512x2048 [1] [0] [0] [1] [] []
  dot_S128x2048_S128x10_S2048x10_0_0_1_1_n_n_wf : DotDims.WF S128x2048 S128x10 S2048x10 [0] [0] [1] [1] [] []
  hcc1_scratch1 : 11 + S127.numel ≤ 138
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S26112x256.size a
  hwx0_1 : ∀ i : grid0.Coords, EltTy.bits .f32 = 32 ∨ (Rect.block (s := S26112x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S26112x2048.size a
  hwx0_2 : ∀ i : grid0.Coords, EltTy.bits .f32 = 32 ∨ (Rect.block (s := S26112x2048) S512x2048.size (cc0_transform_2 i) (hinb0_2 i)).WholeWords (EltTy.packing .f32)
  hrank1 : 0 < grid1.rank
  k1_off1_inb : ∀ i : grid1.Coords, ∀ a, (k1_off1 i) a + S1x1.size a ≤ S1024x127.size a
  k1_off3_inb : ∀ i : grid1.Coords, ∀ a, (k1_off3 i) a + S1x1.size a ≤ S1024x127.size a
  k1_off5_inb : ∀ i : grid1.Coords, ∀ a, (k1_off5 i) a + S1x1.size a ≤ S1024x127.size a
  k1_off7_inb : ∀ i : grid1.Coords, ∀ a, (k1_off7 i) a + S1x1.size a ≤ S1024x127.size a
  k1_off9_inb : ∀ i : grid1.Coords, ∀ a, (k1_off9 i) a + S1x1.size a ≤ S1024x127.size a
  k1_off11_inb : ∀ i : grid1.Coords, ∀ a, (k1_off11 i) a + S1x1.size a ≤ S1024x127.size a
  k1_off13_inb : ∀ i : grid1.Coords, ∀ a, (k1_off13 i) a + S1x1.size a ≤ S1024x127.size a
  k1_off15_inb : ∀ i : grid1.Coords, ∀ a, (k1_off15 i) a + S1x1.size a ≤ S1024x127.size a
  k1_off17_inb : ∀ i : grid1.Coords, ∀ a, (k1_off17 i) a + S1x1.size a ≤ S1024x127.size a
  k1_off19_inb : ∀ i : grid1.Coords, ∀ a, (k1_off19 i) a + S1x1.size a ≤ S1024x127.size a
  k1_off21_inb : ∀ i : grid1.Coords, ∀ a, (k1_off21 i) a + S1x1.size a ≤ S1024x127.size a
  k1_off23_inb : ∀ i : grid1.Coords, ∀ a, (k1_off23 i) a + S1x1.size a ≤ S1024x127.size a
  k1_off25_inb : ∀ i : grid1.Coords, ∀ a, (k1_off25 i) a + S1x1.size a ≤ S1024x127.size a
  k1_off27_inb : ∀ i : grid1.Coords, ∀ a, (k1_off27 i) a + S1x1.size a ≤ S1024x127.size a
  k1_off29_inb : ∀ i : grid1.Coords, ∀ a, (k1_off29 i) a + S1x1.size a ≤ S1024x127.size a
  k1_off31_inb : ∀ i : grid1.Coords, ∀ a, (k1_off31 i) a + S1x1.size a ≤ S1024x127.size a
  k1_off33_inb : ∀ i : grid1.Coords, ∀ a, (k1_off33 i) a + S1x1.size a ≤ S1024x127.size a
  k1_off35_inb : ∀ i : grid1.Coords, ∀ a, (k1_off35 i) a + S1x1.size a ≤ S1024x127.size a
  k1_off37_inb : ∀ i : grid1.Coords, ∀ a, (k1_off37 i) a + S1x1.size a ≤ S1024x127.size a
  k1_off39_inb : ∀ i : grid1.Coords, ∀ a, (k1_off39 i) a + S1x1.size a ≤ S1024x127.size a
  k1_off41_inb : ∀ i : grid1.Coords, ∀ a, (k1_off41 i) a + S1x1.size a ≤ S1024x127.size a
  k1_off43_inb : ∀ i : grid1.Coords, ∀ a, (k1_off43 i) a + S1x1.size a ≤ S1024x127.size a
  k1_off45_inb : ∀ i : grid1.Coords, ∀ a, (k1_off45 i) a + S1x1.size a ≤ S1024x127.size a
  k1_off47_inb : ∀ i : grid1.Coords, ∀ a, (k1_off47 i) a + S1x1.size a ≤ S1024x127.size a
  k1_off49_inb : ∀ i : grid1.Coords, ∀ a, (k1_off49 i) a + S1x1.size a ≤ S1024x127.size a
  k1_off51_inb : ∀ i : grid1.Coords, ∀ a, (k1_off51 i) a + S1x1.size a ≤ S1024x127.size a
  k1_off53_inb : ∀ i : grid1.Coords, ∀ a, (k1_off53 i) a + S1x1.size a ≤ S1024x127.size a
  k1_off55_inb : ∀ i : grid1.Coords, ∀ a, (k1_off55 i) a + S1x1.size a ≤ S1024x127.size a
  k1_off57_inb : ∀ i : grid1.Coords, ∀ a, (k1_off57 i) a + S1x1.size a ≤ S1024x127.size a
  k1_off59_inb : ∀ i : grid1.Coords, ∀ a, (k1_off59 i) a + S1x1.size a ≤ S1024x127.size a
  k1_off61_inb : ∀ i : grid1.Coords, ∀ a, (k1_off61 i) a + S1x1.size a ≤ S1024x127.size a
  k1_off63_inb : ∀ i : grid1.Coords, ∀ a, (k1_off63 i) a + S1x1.size a ≤ S1024x127.size a
  k1_off65_inb : ∀ i : grid1.Coords, ∀ a, (k1_off65 i) a + S1x1.size a ≤ S1024x127.size a
  k1_off67_inb : ∀ i : grid1.Coords, ∀ a, (k1_off67 i) a + S1x1.size a ≤ S1024x127.size a
  k1_off69_inb : ∀ i : grid1.Coords, ∀ a, (k1_off69 i) a + S1x1.size a ≤ S1024x127.size a
  k1_off71_inb : ∀ i : grid1.Coords, ∀ a, (k1_off71 i) a + S1x1.size a ≤ S1024x127.size a
  k1_off73_inb : ∀ i : grid1.Coords, ∀ a, (k1_off73 i) a + S1x1.size a ≤ S1024x127.size a
  k1_off75_inb : ∀ i : grid1.Coords, ∀ a, (k1_off75 i) a + S1x1.size a ≤ S1024x127.size a
  k1_off77_inb : ∀ i : grid1.Coords, ∀ a, (k1_off77 i) a + S1x1.size a ≤ S1024x127.size a
  k1_off79_inb : ∀ i : grid1.Coords, ∀ a, (k1_off79 i) a + S1x1.size a ≤ S1024x127.size a
  k1_off81_inb : ∀ i : grid1.Coords, ∀ a, (k1_off81 i) a + S1x1.size a ≤ S1024x127.size a
  k1_off83_inb : ∀ i : grid1.Coords, ∀ a, (k1_off83 i) a + S1x1.size a ≤ S1024x127.size a
  k1_off85_inb : ∀ i : grid1.Coords, ∀ a, (k1_off85 i) a + S1x1.size a ≤ S1024x127.size a
  k1_off87_inb : ∀ i : grid1.Coords, ∀ a, (k1_off87 i) a + S1x1.size a ≤ S1024x127.size a
  k1_off89_inb : ∀ i : grid1.Coords, ∀ a, (k1_off89 i) a + S1x1.size a ≤ S1024x127.size a
  k1_off91_inb : ∀ i : grid1.Coords, ∀ a, (k1_off91 i) a + S1x1.size a ≤ S1024x127.size a
  k1_off93_inb : ∀ i : grid1.Coords, ∀ a, (k1_off93 i) a + S1x1.size a ≤ S1024x127.size a
  k1_off95_inb : ∀ i : grid1.Coords, ∀ a, (k1_off95 i) a + S1x1.size a ≤ S1024x127.size a
  k1_off97_inb : ∀ i : grid1.Coords, ∀ a, (k1_off97 i) a + S1x1.size a ≤ S1024x127.size a
  k1_off99_inb : ∀ i : grid1.Coords, ∀ a, (k1_off99 i) a + S1x1.size a ≤ S1024x127.size a
  k1_off101_inb : ∀ i : grid1.Coords, ∀ a, (k1_off101 i) a + S1x1.size a ≤ S1024x127.size a
  k1_off103_inb : ∀ i : grid1.Coords, ∀ a, (k1_off103 i) a + S1x1.size a ≤ S1024x127.size a
  k1_off105_inb : ∀ i : grid1.Coords, ∀ a, (k1_off105 i) a + S1x1.size a ≤ S1024x127.size a
  k1_off107_inb : ∀ i : grid1.Coords, ∀ a, (k1_off107 i) a + S1x1.size a ≤ S1024x127.size a
  k1_off109_inb : ∀ i : grid1.Coords, ∀ a, (k1_off109 i) a + S1x1.size a ≤ S1024x127.size a
  k1_off111_inb : ∀ i : grid1.Coords, ∀ a, (k1_off111 i) a + S1x1.size a ≤ S1024x127.size a
  k1_off113_inb : ∀ i : grid1.Coords, ∀ a, (k1_off113 i) a + S1x1.size a ≤ S1024x127.size a
  k1_off115_inb : ∀ i : grid1.Coords, ∀ a, (k1_off115 i) a + S1x1.size a ≤ S1024x127.size a
  k1_off117_inb : ∀ i : grid1.Coords, ∀ a, (k1_off117 i) a + S1x1.size a ≤ S1024x127.size a
  k1_off119_inb : ∀ i : grid1.Coords, ∀ a, (k1_off119 i) a + S1x1.size a ≤ S1024x127.size a
  k1_off121_inb : ∀ i : grid1.Coords, ∀ a, (k1_off121 i) a + S1x1.size a ≤ S1024x127.size a
  k1_off123_inb : ∀ i : grid1.Coords, ∀ a, (k1_off123 i) a + S1x1.size a ≤ S1024x127.size a
  k1_off125_inb : ∀ i : grid1.Coords, ∀ a, (k1_off125 i) a + S1x1.size a ≤ S1024x127.size a
  k1_off127_inb : ∀ i : grid1.Coords, ∀ a, (k1_off127 i) a + S1x1.size a ≤ S1024x127.size a
  k1_off129_inb : ∀ i : grid1.Coords, ∀ a, (k1_off129 i) a + S1x1.size a ≤ S1024x127.size a
  k1_off131_inb : ∀ i : grid1.Coords, ∀ a, (k1_off131 i) a + S1x1.size a ≤ S1024x127.size a
  k1_off133_inb : ∀ i : grid1.Coords, ∀ a, (k1_off133 i) a + S1x1.size a ≤ S1024x127.size a
  k1_off135_inb : ∀ i : grid1.Coords, ∀ a, (k1_off135 i) a + S1x1.size a ≤ S1024x127.size a
  k1_off137_inb : ∀ i : grid1.Coords, ∀ a, (k1_off137 i) a + S1x1.size a ≤ S1024x127.size a
  k1_off139_inb : ∀ i : grid1.Coords, ∀ a, (k1_off139 i) a + S1x1.size a ≤ S1024x127.size a
  k1_off141_inb : ∀ i : grid1.Coords, ∀ a, (k1_off141 i) a + S1x1.size a ≤ S1024x127.size a
  k1_off143_inb : ∀ i : grid1.Coords, ∀ a, (k1_off143 i) a + S1x1.size a ≤ S1024x127.size a
  k1_off145_inb : ∀ i : grid1.Coords, ∀ a, (k1_off145 i) a + S1x1.size a ≤ S1024x127.size a
  k1_off147_inb : ∀ i : grid1.Coords, ∀ a, (k1_off147 i) a + S1x1.size a ≤ S1024x127.size a
  k1_off149_inb : ∀ i : grid1.Coords, ∀ a, (k1_off149 i) a + S1x1.size a ≤ S1024x127.size a
  k1_off151_inb : ∀ i : grid1.Coords, ∀ a, (k1_off151 i) a + S1x1.size a ≤ S1024x127.size a
  k1_off153_inb : ∀ i : grid1.Coords, ∀ a, (k1_off153 i) a + S1x1.size a ≤ S1024x127.size a
  k1_off155_inb : ∀ i : grid1.Coords, ∀ a, (k1_off155 i) a + S1x1.size a ≤ S1024x127.size a
  k1_off157_inb : ∀ i : grid1.Coords, ∀ a, (k1_off157 i) a + S1x1.size a ≤ S1024x127.size a
  k1_off159_inb : ∀ i : grid1.Coords, ∀ a, (k1_off159 i) a + S1x1.size a ≤ S1024x127.size a
  k1_off161_inb : ∀ i : grid1.Coords, ∀ a, (k1_off161 i) a + S1x1.size a ≤ S1024x127.size a
  k1_off163_inb : ∀ i : grid1.Coords, ∀ a, (k1_off163 i) a + S1x1.size a ≤ S1024x127.size a
  k1_off165_inb : ∀ i : grid1.Coords, ∀ a, (k1_off165 i) a + S1x1.size a ≤ S1024x127.size a
  k1_off167_inb : ∀ i : grid1.Coords, ∀ a, (k1_off167 i) a + S1x1.size a ≤ S1024x127.size a
  k1_off169_inb : ∀ i : grid1.Coords, ∀ a, (k1_off169 i) a + S1x1.size a ≤ S1024x127.size a
  k1_off171_inb : ∀ i : grid1.Coords, ∀ a, (k1_off171 i) a + S1x1.size a ≤ S1024x127.size a
  k1_off173_inb : ∀ i : grid1.Coords, ∀ a, (k1_off173 i) a + S1x1.size a ≤ S1024x127.size a
  k1_off175_inb : ∀ i : grid1.Coords, ∀ a, (k1_off175 i) a + S1x1.size a ≤ S1024x127.size a
  k1_off177_inb : ∀ i : grid1.Coords, ∀ a, (k1_off177 i) a + S1x1.size a ≤ S1024x127.size a
  k1_off179_inb : ∀ i : grid1.Coords, ∀ a, (k1_off179 i) a + S1x1.size a ≤ S1024x127.size a
  k1_off181_inb : ∀ i : grid1.Coords, ∀ a, (k1_off181 i) a + S1x1.size a ≤ S1024x127.size a
  k1_off183_inb : ∀ i : grid1.Coords, ∀ a, (k1_off183 i) a + S1x1.size a ≤ S1024x127.size a
  k1_off185_inb : ∀ i : grid1.Coords, ∀ a, (k1_off185 i) a + S1x1.size a ≤ S1024x127.size a
  k1_off187_inb : ∀ i : grid1.Coords, ∀ a, (k1_off187 i) a + S1x1.size a ≤ S1024x127.size a
  k1_off189_inb : ∀ i : grid1.Coords, ∀ a, (k1_off189 i) a + S1x1.size a ≤ S1024x127.size a
  k1_off191_inb : ∀ i : grid1.Coords, ∀ a, (k1_off191 i) a + S1x1.size a ≤ S1024x127.size a
  k1_off193_inb : ∀ i : grid1.Coords, ∀ a, (k1_off193 i) a + S1x1.size a ≤ S1024x127.size a
  k1_off195_inb : ∀ i : grid1.Coords, ∀ a, (k1_off195 i) a + S1x1.size a ≤ S1024x127.size a
  k1_off197_inb : ∀ i : grid1.Coords, ∀ a, (k1_off197 i) a + S1x1.size a ≤ S1024x127.size a
  k1_off199_inb : ∀ i : grid1.Coords, ∀ a, (k1_off199 i) a + S1x1.size a ≤ S1024x127.size a
  k1_off201_inb : ∀ i : grid1.Coords, ∀ a, (k1_off201 i) a + S1x1.size a ≤ S1024x127.size a
  k1_off203_inb : ∀ i : grid1.Coords, ∀ a, (k1_off203 i) a + S1x1.size a ≤ S1024x127.size a
  k1_off205_inb : ∀ i : grid1.Coords, ∀ a, (k1_off205 i) a + S1x1.size a ≤ S1024x127.size a
  k1_off207_inb : ∀ i : grid1.Coords, ∀ a, (k1_off207 i) a + S1x1.size a ≤ S1024x127.size a
  k1_off209_inb : ∀ i : grid1.Coords, ∀ a, (k1_off209 i) a + S1x1.size a ≤ S1024x127.size a
  k1_off211_inb : ∀ i : grid1.Coords, ∀ a, (k1_off211 i) a + S1x1.size a ≤ S1024x127.size a
  k1_off213_inb : ∀ i : grid1.Coords, ∀ a, (k1_off213 i) a + S1x1.size a ≤ S1024x127.size a
  k1_off215_inb : ∀ i : grid1.Coords, ∀ a, (k1_off215 i) a + S1x1.size a ≤ S1024x127.size a
  k1_off217_inb : ∀ i : grid1.Coords, ∀ a, (k1_off217 i) a + S1x1.size a ≤ S1024x127.size a
  k1_off219_inb : ∀ i : grid1.Coords, ∀ a, (k1_off219 i) a + S1x1.size a ≤ S1024x127.size a
  k1_off221_inb : ∀ i : grid1.Coords, ∀ a, (k1_off221 i) a + S1x1.size a ≤ S1024x127.size a
  k1_off223_inb : ∀ i : grid1.Coords, ∀ a, (k1_off223 i) a + S1x1.size a ≤ S1024x127.size a
  k1_off225_inb : ∀ i : grid1.Coords, ∀ a, (k1_off225 i) a + S1x1.size a ≤ S1024x127.size a
  k1_off227_inb : ∀ i : grid1.Coords, ∀ a, (k1_off227 i) a + S1x1.size a ≤ S1024x127.size a
  k1_off229_inb : ∀ i : grid1.Coords, ∀ a, (k1_off229 i) a + S1x1.size a ≤ S1024x127.size a
  k1_off231_inb : ∀ i : grid1.Coords, ∀ a, (k1_off231 i) a + S1x1.size a ≤ S1024x127.size a
  k1_off233_inb : ∀ i : grid1.Coords, ∀ a, (k1_off233 i) a + S1x1.size a ≤ S1024x127.size a
  k1_off235_inb : ∀ i : grid1.Coords, ∀ a, (k1_off235 i) a + S1x1.size a ≤ S1024x127.size a
  k1_off237_inb : ∀ i : grid1.Coords, ∀ a, (k1_off237 i) a + S1x1.size a ≤ S1024x127.size a
  k1_off239_inb : ∀ i : grid1.Coords, ∀ a, (k1_off239 i) a + S1x1.size a ≤ S1024x127.size a
  k1_off241_inb : ∀ i : grid1.Coords, ∀ a, (k1_off241 i) a + S1x1.size a ≤ S1024x127.size a
  k1_off243_inb : ∀ i : grid1.Coords, ∀ a, (k1_off243 i) a + S1x1.size a ≤ S1024x127.size a
  k1_off245_inb : ∀ i : grid1.Coords, ∀ a, (k1_off245 i) a + S1x1.size a ≤ S1024x127.size a
  k1_off247_inb : ∀ i : grid1.Coords, ∀ a, (k1_off247 i) a + S1x1.size a ≤ S1024x127.size a
  k1_off249_inb : ∀ i : grid1.Coords, ∀ a, (k1_off249 i) a + S1x1.size a ≤ S1024x127.size a
  k1_off251_inb : ∀ i : grid1.Coords, ∀ a, (k1_off251 i) a + S1x1.size a ≤ S1024x127.size a
  k1_off253_inb : ∀ i : grid1.Coords, ∀ a, (k1_off253 i) a + S1x1.size a ≤ S1024x127.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x127x1.size a ≤ S1024x127x1.size a
  hwx1_0 : ∀ i : grid1.Coords, EltTy.bits .f32 = 32 ∨ (Rect.block (s := S1024x127x1) S1x127x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x10.size a ≤ S1024x128x10.size a
  hwx1_1 : ∀ i : grid1.Coords, EltTy.bits .f32 = 32 ∨ (Rect.block (s := S1024x128x10) S1x128x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S1x2048x10.size a ≤ S2x2048x10.size a
  hwx1_2 : ∀ i : grid1.Coords, EltTy.bits .f32 = 32 ∨ (Rect.block (s := S2x2048x10) S1x2048x10.size (cc1_transform_3 i) (hinb1_2 i)).WholeWords (EltTy.packing .f32)

variable [Facts₀]

abbrev cc1_scratch1 : DmaSems sig S127 := SemArray.consecutive 11 S127 hcc1_scratch1
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S128x2048_S128x10_S2048x10_0_0_1_1_n_n : DotDims S128x2048 S128x10 S2048x10 where
  lhsContracting := [0]
  rhsContracting := [0]
  lhsNonContracting := [1]
  rhsNonContracting := [1]
  lhsBatch := []
  rhsBatch := []
  wf := dot_S128x2048_S128x10_S2048x10_0_0_1_1_n_n_wf

abbrev win0_0 : Pipeline.Window sig grid0 :=
  Pipeline.Window.ofSpec (Memref.whole main_v1) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v3) S1x127x1.size reads1_0 false false 2 stage1_0 sem1_0 nbuf1_0 hstage1_0

abbrev spec1_1 : Pipeline.WinSpec sig grid1.rank :=
  Pipeline.WinSpec.ofSpec (Memref.whole main_arg3) S1x128x10.size reads1_1 false false 2 stage1_1 sem1_1 nbuf1_1 hstage1_1

abbrev spec1_2 : Pipeline.WinSpec sig grid1.rank :=
  Pipeline.WinSpec.ofSpec (Memref.whole main_v4) S1x2048x10.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_3 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S2048x256 : Shape := ⟨2, ![2048, 256]⟩
abbrev S26009x256 : Shape := ⟨2, ![26009, 256]⟩
abbrev S1024x127 : Shape := ⟨2, ![1024, 127]⟩
abbrev S1024x128x10 : Shape := ⟨3, ![1024, 128, 10]⟩
abbrev S256x26009 : Shape := ⟨2, ![256, 26009]⟩
abbrev S2048x26009 : Shape := ⟨2, ![2048, 26009]⟩
abbrev S_ : Shape := ⟨0, ![]⟩
abbrev S26009 : Shape := ⟨1, ![26009]⟩
abbrev S1x26009 : Shape := ⟨2, ![1, 26009]⟩
abbrev S1024 : Shape := ⟨1, ![1024]⟩
abbrev S1x1024 : Shape := ⟨2, ![1, 1024]⟩
abbrev S2048x1024 : Shape := ⟨2, ![2048, 1024]⟩
abbrev S2048x1024x1 : Shape := ⟨3, ![2048, 1024, 1]⟩
abbrev S2048x1024x2 : Shape := ⟨3, ![2048, 1024, 2]⟩
abbrev S1 : Shape := ⟨1, ![1]⟩
abbrev S1x1x1 : Shape := ⟨3, ![1, 1, 1]⟩
abbrev S2048x1024x10 : Shape := ⟨3, ![2048, 1024, 10]⟩
abbrev S2048x10 : Shape := ⟨2, ![2048, 10]⟩

abbrev nBuf : Space → Nat
  | .hbm => 596
  | .vmem => 0
  | .smem => 0
  | _ => 0

abbrev hbmTy0_0 (i : Nat) : BufTy := match i % 128 with
  | 0 => ⟨S2048x256, .f32⟩
  | 1 => ⟨S26009x256, .f32⟩
  | 2 => ⟨S1024x127, .f32⟩
  | 3 => ⟨S1024x128x10, .f32⟩
  | 4 => ⟨S1024x127, .i32⟩
  | 5 => ⟨S256x26009, .f32⟩
  | 6 => ⟨S2048x26009, .f32⟩
  | 7 => ⟨S_, .f32⟩
  | 8 => ⟨S26009, .f32⟩
  | 9 => ⟨S_, .f32⟩
  | 10 => ⟨S26009, .f32⟩
  | 11 => ⟨S26009, .f32⟩
  | 12 => ⟨S_, .i32⟩
  | 13 => ⟨S_, .f32⟩
  | 14 => ⟨S26009, .f32⟩
  | 15 => ⟨S1x26009, .f32⟩
  | 16 => ⟨S_, .f32⟩
  | 17 => ⟨S1x26009, .f32⟩
  | 18 => ⟨S1x26009, .f32⟩
  | 19 => ⟨S2048x26009, .f32⟩
  | 20 => ⟨S2048x26009, .f32⟩
  | 21 => ⟨S2048x26009, .f32⟩
  | 22 => ⟨S_, .f32⟩
  | 23 => ⟨S_, .f32⟩
  | 24 => ⟨S_, .f32⟩
  | 25 => ⟨S_, .f32⟩
  | 26 => ⟨S26009, .f32⟩
  | 27 => ⟨S26009, .f32⟩
  | 28 => ⟨S26009, .f32⟩
  | 29 => ⟨S_, .f32⟩
  | 30 => ⟨S_, .i1⟩
  | 31 => ⟨S_, .f32⟩
  | 32 => ⟨S_, .f32⟩
  | 33 => ⟨S26009, .f32⟩
  | 34 => ⟨S26009, .f32⟩
  | 35 => ⟨S1x26009, .f32⟩
  | 36 => ⟨S2048x26009, .f32⟩
  | 37 => ⟨S2048x26009, .f32⟩
  | 38 => ⟨S_, .f32⟩
  | 39 => ⟨S26009, .f32⟩
  | 40 => ⟨S26009, .f32⟩
  | 41 => ⟨S26009, .f32⟩
  | 42 => ⟨S1x26009, .f32⟩
  | 43 => ⟨S2048x26009, .f32⟩
  | 44 => ⟨S2048x26009, .f32⟩
  | 45 => ⟨S1024, .i32⟩
  | 46 => ⟨S1x1024, .i32⟩
  | 47 => ⟨S_, .i32⟩
  | 48 => ⟨S2048x1024, .i32⟩
  | 49 => ⟨S_, .f32⟩
  | 50 => ⟨S2048x1024, .f32⟩
  | 51 => ⟨S_, .i32⟩
  | 52 => ⟨S1x1024, .i32⟩
  | 53 => ⟨S1x1024, .i1⟩
  | 54 => ⟨S_, .i32⟩
  | 55 => ⟨S1x1024, .i32⟩
  | 56 => ⟨S1x1024, .i32⟩
  | 57 => ⟨S1x1024, .i32⟩
  | 58 => ⟨S_, .i32⟩
  | 59 => ⟨S2048x1024, .i32⟩
  | 60 => ⟨S2048x1024, .i1⟩
  | 61 => ⟨S_, .i32⟩
  | 62 => ⟨S2048x1024, .i32⟩
  | 63 => ⟨S2048x1024, .i32⟩
  | 64 => ⟨S2048x1024, .i32⟩
  | 65 => ⟨S2048x1024, .i32⟩
  | 66 => ⟨S2048x1024x1, .i32⟩
  | 67 => ⟨S2048x1024x1, .i32⟩
  | 68 => ⟨S2048x1024x2, .i32⟩
  | 69 => ⟨S2048x1024, .i32⟩
  | 70 => ⟨S_, .i32⟩
  | 71 => ⟨S1x1024, .i32⟩
  | 72 => ⟨S1x1024, .i1⟩
  | 73 => ⟨S_, .i32⟩
  | 74 => ⟨S1x1024, .i32⟩
  | 75 => ⟨S1x1024, .i32⟩
  | 76 => ⟨S1x1024, .i32⟩
  | 77 => ⟨S_, .i32⟩
  | 78 => ⟨S2048x1024, .i32⟩
  | 79 => ⟨S2048x1024, .i1⟩
  | 80 => ⟨S_, .i32⟩
  | 81 => ⟨S2048x1024, .i32⟩
  | 82 => ⟨S2048x1024, .i32⟩
  | 83 => ⟨S2048x1024, .i32⟩
  | 84 => ⟨S2048x1024, .i32⟩
  | 85 => ⟨S2048x1024x1, .i32⟩
  | 86 => ⟨S2048x1024x1, .i32⟩
  | 87 => ⟨S2048x1024x2, .i32⟩
  | 88 => ⟨S2048x1024, .f32⟩
  | 89 => ⟨S_, .i32⟩
  | 90 => ⟨S2048x1024, .i32⟩
  | 91 => ⟨S2048x1024, .i1⟩
  | 92 => ⟨S_, .i32⟩
  | 93 => ⟨S2048x1024, .i32⟩
  | 94 => ⟨S2048x1024, .i32⟩
  | 95 => ⟨S2048x1024, .i32⟩
  | 96 => ⟨S2048x1024x1, .i32⟩
  | 97 => ⟨S1, .i32⟩
  | 98 => ⟨S_, .i32⟩
  | 99 => ⟨S2048x1024x1, .i32⟩
  | 100 => ⟨S2048x1024x1, .i1⟩
  | 101 => ⟨S1x1x1, .i32⟩
  | 102 => ⟨S2048x1024x1, .i32⟩
  | 103 => ⟨S2048x1024x1, .i1⟩
  | 104 => ⟨S2048x1024x1, .i1⟩
  | 105 => ⟨S_, .i1⟩
  | 106 => ⟨S2048x1024, .i1⟩
  | 107 => ⟨S2048x1024, .f32⟩
  | 108 => ⟨S_, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S_, .i32⟩
  | 115 => ⟨S2048x1024, .i32⟩
  | 116 => ⟨S2048x1024, .i32⟩
  | 117 => ⟨S_, .i32⟩
  | 118 => ⟨S2048x1024, .i32⟩
  | 119 => ⟨S2048x1024, .i32⟩
  | 120 => ⟨S_, .f32⟩
  | 121 => ⟨S2048x1024, .f32⟩
  | 122 => ⟨S2048x1024, .i1⟩
  | 123 => ⟨S2048x1024, .i32⟩
  | 124 => ⟨S2048x1024, .i32⟩
  | 125 => ⟨S_, .i32⟩
  | 126 => ⟨S1x1024, .i32⟩
  | 127 => ⟨S1x1024, .i1⟩
  | _ => ⟨S2048x256, .f32⟩

abbrev hbmTy0_1 (i : Nat) : BufTy := match i % 128 with
  | 0 => ⟨S_, .i32⟩
  | 1 => ⟨S1x1024, .i32⟩
  | 2 => ⟨S1x1024, .i32⟩
  | 3 => ⟨S1x1024, .i32⟩
  | 4 => ⟨S_, .i32⟩
  | 5 => ⟨S2048x1024, .i32⟩
  | 6 => ⟨S2048x1024, .i1⟩
  | 7 => ⟨S_, .i32⟩
  | 8 => ⟨S2048x1024, .i32⟩
  | 9 => ⟨S2048x1024, .i32⟩
  | 10 => ⟨S2048x1024, .i32⟩
  | 11 => ⟨S2048x1024, .i32⟩
  | 12 => ⟨S2048x1024x1, .i32⟩
  | 13 => ⟨S2048x1024x1, .i32⟩
  | 14 => ⟨S2048x1024x2, .i32⟩
  | 15 => ⟨S2048x1024, .i32⟩
  | 16 => ⟨S_, .i32⟩
  | 17 => ⟨S1x1024, .i32⟩
  | 18 => ⟨S1x1024, .i1⟩
  | 19 => ⟨S_, .i32⟩
  | 20 => ⟨S1x1024, .i32⟩
  | 21 => ⟨S1x1024, .i32⟩
  | 22 => ⟨S1x1024, .i32⟩
  | 23 => ⟨S_, .i32⟩
  | 24 => ⟨S2048x1024, .i32⟩
  | 25 => ⟨S2048x1024, .i1⟩
  | 26 => ⟨S_, .i32⟩
  | 27 => ⟨S2048x1024, .i32⟩
  | 28 => ⟨S2048x1024, .i32⟩
  | 29 => ⟨S2048x1024, .i32⟩
  | 30 => ⟨S2048x1024, .i32⟩
  | 31 => ⟨S2048x1024x1, .i32⟩
  | 32 => ⟨S2048x1024x1, .i32⟩
  | 33 => ⟨S2048x1024x2, .i32⟩
  | 34 => ⟨S2048x1024, .f32⟩
  | 35 => ⟨S_, .i32⟩
  | 36 => ⟨S2048x1024, .i32⟩
  | 37 => ⟨S2048x1024, .i1⟩
  | 38 => ⟨S_, .i32⟩
  | 39 => ⟨S2048x1024, .i32⟩
  | 40 => ⟨S2048x1024, .i32⟩
  | 41 => ⟨S2048x1024, .i32⟩
  | 42 => ⟨S2048x1024x1, .i32⟩
  | 43 => ⟨S1, .i32⟩
  | 44 => ⟨S_, .i32⟩
  | 45 => ⟨S2048x1024x1, .i32⟩
  | 46 => ⟨S2048x1024x1, .i1⟩
  | 47 => ⟨S1x1x1, .i32⟩
  | 48 => ⟨S2048x1024x1, .i32⟩
  | 49 => ⟨S2048x1024x1, .i1⟩
  | 50 => ⟨S2048x1024x1, .i1⟩
  | 51 => ⟨S_, .i1⟩
  | 52 => ⟨S2048x1024, .i1⟩
  | 53 => ⟨S2048x1024, .f32⟩
  | 54 => ⟨S_, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S_, .i32⟩
  | 61 => ⟨S2048x1024, .i32⟩
  | 62 => ⟨S2048x1024, .i32⟩
  | 63 => ⟨S_, .i32⟩
  | 64 => ⟨S2048x1024, .i32⟩
  | 65 => ⟨S2048x1024, .i32⟩
  | 66 => ⟨S_, .f32⟩
  | 67 => ⟨S2048x1024, .f32⟩
  | 68 => ⟨S2048x1024, .i1⟩
  | 69 => ⟨S2048x1024, .i32⟩
  | 70 => ⟨S2048x1024, .i32⟩
  | 71 => ⟨S_, .i32⟩
  | 72 => ⟨S1x1024, .i32⟩
  | 73 => ⟨S1x1024, .i1⟩
  | 74 => ⟨S_, .i32⟩
  | 75 => ⟨S1x1024, .i32⟩
  | 76 => ⟨S1x1024, .i32⟩
  | 77 => ⟨S1x1024, .i32⟩
  | 78 => ⟨S_, .i32⟩
  | 79 => ⟨S2048x1024, .i32⟩
  | 80 => ⟨S2048x1024, .i1⟩
  | 81 => ⟨S_, .i32⟩
  | 82 => ⟨S2048x1024, .i32⟩
  | 83 => ⟨S2048x1024, .i32⟩
  | 84 => ⟨S2048x1024, .i32⟩
  | 85 => ⟨S2048x1024, .i32⟩
  | 86 => ⟨S2048x1024x1, .i32⟩
  | 87 => ⟨S2048x1024x1, .i32⟩
  | 88 => ⟨S2048x1024x2, .i32⟩
  | 89 => ⟨S2048x1024, .i32⟩
  | 90 => ⟨S_, .i32⟩
  | 91 => ⟨S1x1024, .i32⟩
  | 92 => ⟨S1x1024, .i1⟩
  | 93 => ⟨S_, .i32⟩
  | 94 => ⟨S1x1024, .i32⟩
  | 95 => ⟨S1x1024, .i32⟩
  | 96 => ⟨S1x1024, .i32⟩
  | 97 => ⟨S_, .i32⟩
  | 98 => ⟨S2048x1024, .i32⟩
  | 99 => ⟨S2048x1024, .i1⟩
  | 100 => ⟨S_, .i32⟩
  | 101 => ⟨S2048x1024, .i32⟩
  | 102 => ⟨S2048x1024, .i32⟩
  | 103 => ⟨S2048x1024, .i32⟩
  | 104 => ⟨S2048x1024, .i32⟩
  | 105 => ⟨S2048x1024x1, .i32⟩
  | 106 => ⟨S2048x1024x1, .i32⟩
  | 107 => ⟨S2048x1024x2, .i32⟩
  | 108 => ⟨S2048x1024, .f32⟩
  | 109 => ⟨S_, .i32⟩
  | 110 => ⟨S2048x1024, .i32⟩
  | 111 => ⟨S2048x1024, .i1⟩
  | 112 => ⟨S_, .i32⟩
  | 113 => ⟨S2048x1024, .i32⟩
  | 114 => ⟨S2048x1024, .i32⟩
  | 115 => ⟨S2048x1024, .i32⟩
  | 116 => ⟨S2048x1024x1, .i32⟩
  | 117 => ⟨S1, .i32⟩
  | 118 => ⟨S_, .i32⟩
  | 119 => ⟨S2048x1024x1, .i32⟩
  | 120 => ⟨S2048x1024x1, .i1⟩
  | 121 => ⟨S1x1x1, .i32⟩
  | 122 => ⟨S2048x1024x1, .i32⟩
  | 123 => ⟨S2048x1024x1, .i1⟩
  | 124 => ⟨S2048x1024x1, .i1⟩
  | 125 => ⟨S_, .i1⟩
  | 126 => ⟨S2048x1024, .i1⟩
  | 127 => ⟨S2048x1024, .f32⟩
  | _ => ⟨S2048x256, .f32⟩

abbrev hbmTy0_2 (i : Nat) : BufTy := match i % 128 with
  | 0 => ⟨S_, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S_, .i32⟩
  | 7 => ⟨S2048x1024, .i32⟩
  | 8 => ⟨S2048x1024, .i32⟩
  | 9 => ⟨S_, .i32⟩
  | 10 => ⟨S2048x1024, .i32⟩
  | 11 => ⟨S2048x1024, .i32⟩
  | 12 => ⟨S_, .f32⟩
  | 13 => ⟨S2048x1024, .f32⟩
  | 14 => ⟨S2048x1024, .i1⟩
  | 15 => ⟨S2048x1024, .i32⟩
  | 16 => ⟨S2048x1024, .i32⟩
  | 17 => ⟨S_, .i32⟩
  | 18 => ⟨S1x1024, .i32⟩
  | 19 => ⟨S1x1024, .i1⟩
  | 20 => ⟨S_, .i32⟩
  | 21 => ⟨S1x1024, .i32⟩
  | 22 => ⟨S1x1024, .i32⟩
  | 23 => ⟨S1x1024, .i32⟩
  | 24 => ⟨S_, .i32⟩
  | 25 => ⟨S2048x1024, .i32⟩
  | 26 => ⟨S2048x1024, .i1⟩
  | 27 => ⟨S_, .i32⟩
  | 28 => ⟨S2048x1024, .i32⟩
  | 29 => ⟨S2048x1024, .i32⟩
  | 30 => ⟨S2048x1024, .i32⟩
  | 31 => ⟨S2048x1024, .i32⟩
  | 32 => ⟨S2048x1024x1, .i32⟩
  | 33 => ⟨S2048x1024x1, .i32⟩
  | 34 => ⟨S2048x1024x2, .i32⟩
  | 35 => ⟨S2048x1024, .i32⟩
  | 36 => ⟨S_, .i32⟩
  | 37 => ⟨S1x1024, .i32⟩
  | 38 => ⟨S1x1024, .i1⟩
  | 39 => ⟨S_, .i32⟩
  | 40 => ⟨S1x1024, .i32⟩
  | 41 => ⟨S1x1024, .i32⟩
  | 42 => ⟨S1x1024, .i32⟩
  | 43 => ⟨S_, .i32⟩
  | 44 => ⟨S2048x1024, .i32⟩
  | 45 => ⟨S2048x1024, .i1⟩
  | 46 => ⟨S_, .i32⟩
  | 47 => ⟨S2048x1024, .i32⟩
  | 48 => ⟨S2048x1024, .i32⟩
  | 49 => ⟨S2048x1024, .i32⟩
  | 50 => ⟨S2048x1024, .i32⟩
  | 51 => ⟨S2048x1024x1, .i32⟩
  | 52 => ⟨S2048x1024x1, .i32⟩
  | 53 => ⟨S2048x1024x2, .i32⟩
  | 54 => ⟨S2048x1024, .f32⟩
  | 55 => ⟨S_, .i32⟩
  | 56 => ⟨S2048x1024, .i32⟩
  | 57 => ⟨S2048x1024, .i1⟩
  | 58 => ⟨S_, .i32⟩
  | 59 => ⟨S2048x1024, .i32⟩
  | 60 => ⟨S2048x1024, .i32⟩
  | 61 => ⟨S2048x1024, .i32⟩
  | 62 => ⟨S2048x1024x1, .i32⟩
  | 63 => ⟨S1, .i32⟩
  | 64 => ⟨S_, .i32⟩
  | 65 => ⟨S2048x1024x1, .i32⟩
  | 66 => ⟨S2048x1024x1, .i1⟩
  | 67 => ⟨S1x1x1, .i32⟩
  | 68 => ⟨S2048x1024x1, .i32⟩
  | 69 => ⟨S2048x1024x1, .i1⟩
  | 70 => ⟨S2048x1024x1, .i1⟩
  | 71 => ⟨S_, .i1⟩
  | 72 => ⟨S2048x1024, .i1⟩
  | 73 => ⟨S2048x1024, .f32⟩
  | 74 => ⟨S_, .f32⟩
  | 75 => ⟨S2048x1024, .f32⟩
  | 76 => ⟨S2048x1024, .f32⟩
  | 77 => ⟨S2048x1024, .f32⟩
  | 78 => ⟨S2048x1024, .f32⟩
  | 79 => ⟨S2048x1024, .f32⟩
  | 80 => ⟨S_, .i32⟩
  | 81 => ⟨S2048x1024, .i32⟩
  | 82 => ⟨S2048x1024, .i32⟩
  | 83 => ⟨S_, .i32⟩
  | 84 => ⟨S2048x1024, .i32⟩
  | 85 => ⟨S2048x1024, .i32⟩
  | 86 => ⟨S_, .f32⟩
  | 87 => ⟨S2048x1024, .f32⟩
  | 88 => ⟨S2048x1024, .i1⟩
  | 89 => ⟨S2048x1024, .i32⟩
  | 90 => ⟨S2048x1024, .i32⟩
  | 91 => ⟨S_, .i32⟩
  | 92 => ⟨S1x1024, .i32⟩
  | 93 => ⟨S1x1024, .i1⟩
  | 94 => ⟨S_, .i32⟩
  | 95 => ⟨S1x1024, .i32⟩
  | 96 => ⟨S1x1024, .i32⟩
  | 97 => ⟨S1x1024, .i32⟩
  | 98 => ⟨S_, .i32⟩
  | 99 => ⟨S2048x1024, .i32⟩
  | 100 => ⟨S2048x1024, .i1⟩
  | 101 => ⟨S_, .i32⟩
  | 102 => ⟨S2048x1024, .i32⟩
  | 103 => ⟨S2048x1024, .i32⟩
  | 104 => ⟨S2048x1024, .i32⟩
  | 105 => ⟨S2048x1024, .i32⟩
  | 106 => ⟨S2048x1024x1, .i32⟩
  | 107 => ⟨S2048x1024x1, .i32⟩
  | 108 => ⟨S2048x1024x2, .i32⟩
  | 109 => ⟨S2048x1024, .i32⟩
  | 110 => ⟨S_, .i32⟩
  | 111 => ⟨S1x1024, .i32⟩
  | 112 => ⟨S1x1024, .i1⟩
  | 113 => ⟨S_, .i32⟩
  | 114 => ⟨S1x1024, .i32⟩
  | 115 => ⟨S1x1024, .i32⟩
  | 116 => ⟨S1x1024, .i32⟩
  | 117 => ⟨S_, .i32⟩
  | 118 => ⟨S2048x1024, .i32⟩
  | 119 => ⟨S2048x1024, .i1⟩
  | 120 => ⟨S_, .i32⟩
  | 121 => ⟨S2048x1024, .i32⟩
  | 122 => ⟨S2048x1024, .i32⟩
  | 123 => ⟨S2048x1024, .i32⟩
  | 124 => ⟨S2048x1024, .i32⟩
  | 125 => ⟨S2048x1024x1, .i32⟩
  | 126 => ⟨S2048x1024x1, .i32⟩
  | 127 => ⟨S2048x1024x2, .i32⟩
  | _ => ⟨S2048x256, .f32⟩

abbrev hbmTy0_3 (i : Nat) : BufTy := match i % 128 with
  | 0 => ⟨S2048x1024, .f32⟩
  | 1 => ⟨S_, .i32⟩
  | 2 => ⟨S2048x1024, .i32⟩
  | 3 => ⟨S2048x1024, .i1⟩
  | 4 => ⟨S_, .i32⟩
  | 5 => ⟨S2048x1024, .i32⟩
  | 6 => ⟨S2048x1024, .i32⟩
  | 7 => ⟨S2048x1024, .i32⟩
  | 8 => ⟨S2048x1024x1, .i32⟩
  | 9 => ⟨S1, .i32⟩
  | 10 => ⟨S_, .i32⟩
  | 11 => ⟨S2048x1024x1, .i32⟩
  | 12 => ⟨S2048x1024x1, .i1⟩
  | 13 => ⟨S1x1x1, .i32⟩
  | 14 => ⟨S2048x1024x1, .i32⟩
  | 15 => ⟨S2048x1024x1, .i1⟩
  | 16 => ⟨S2048x1024x1, .i1⟩
  | 17 => ⟨S_, .i1⟩
  | 18 => ⟨S2048x1024, .i1⟩
  | 19 => ⟨S2048x1024, .f32⟩
  | 20 => ⟨S_, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S_, .i32⟩
  | 27 => ⟨S2048x1024, .i32⟩
  | 28 => ⟨S2048x1024, .i32⟩
  | 29 => ⟨S_, .i32⟩
  | 30 => ⟨S2048x1024, .i32⟩
  | 31 => ⟨S2048x1024, .i32⟩
  | 32 => ⟨S_, .f32⟩
  | 33 => ⟨S2048x1024, .f32⟩
  | 34 => ⟨S2048x1024, .i1⟩
  | 35 => ⟨S2048x1024, .i32⟩
  | 36 => ⟨S2048x1024, .i32⟩
  | 37 => ⟨S_, .i32⟩
  | 38 => ⟨S1x1024, .i32⟩
  | 39 => ⟨S1x1024, .i1⟩
  | 40 => ⟨S_, .i32⟩
  | 41 => ⟨S1x1024, .i32⟩
  | 42 => ⟨S1x1024, .i32⟩
  | 43 => ⟨S1x1024, .i32⟩
  | 44 => ⟨S_, .i32⟩
  | 45 => ⟨S2048x1024, .i32⟩
  | 46 => ⟨S2048x1024, .i1⟩
  | 47 => ⟨S_, .i32⟩
  | 48 => ⟨S2048x1024, .i32⟩
  | 49 => ⟨S2048x1024, .i32⟩
  | 50 => ⟨S2048x1024, .i32⟩
  | 51 => ⟨S2048x1024, .i32⟩
  | 52 => ⟨S2048x1024x1, .i32⟩
  | 53 => ⟨S2048x1024x1, .i32⟩
  | 54 => ⟨S2048x1024x2, .i32⟩
  | 55 => ⟨S2048x1024, .i32⟩
  | 56 => ⟨S_, .i32⟩
  | 57 => ⟨S1x1024, .i32⟩
  | 58 => ⟨S1x1024, .i1⟩
  | 59 => ⟨S_, .i32⟩
  | 60 => ⟨S1x1024, .i32⟩
  | 61 => ⟨S1x1024, .i32⟩
  | 62 => ⟨S1x1024, .i32⟩
  | 63 => ⟨S_, .i32⟩
  | 64 => ⟨S2048x1024, .i32⟩
  | 65 => ⟨S2048x1024, .i1⟩
  | 66 => ⟨S_, .i32⟩
  | 67 => ⟨S2048x1024, .i32⟩
  | 68 => ⟨S2048x1024, .i32⟩
  | 69 => ⟨S2048x1024, .i32⟩
  | 70 => ⟨S2048x1024, .i32⟩
  | 71 => ⟨S2048x1024x1, .i32⟩
  | 72 => ⟨S2048x1024x1, .i32⟩
  | 73 => ⟨S2048x1024x2, .i32⟩
  | 74 => ⟨S2048x1024, .f32⟩
  | 75 => ⟨S_, .i32⟩
  | 76 => ⟨S2048x1024, .i32⟩
  | 77 => ⟨S2048x1024, .i1⟩
  | 78 => ⟨S_, .i32⟩
  | 79 => ⟨S2048x1024, .i32⟩
  | 80 => ⟨S2048x1024, .i32⟩
  | 81 => ⟨S2048x1024, .i32⟩
  | 82 => ⟨S2048x1024x1, .i32⟩
  | 83 => ⟨S1, .i32⟩
  | 84 => ⟨S_, .i32⟩
  | 85 => ⟨S2048x1024x1, .i32⟩
  | 86 => ⟨S2048x1024x1, .i1⟩
  | 87 => ⟨S1x1x1, .i32⟩
  | 88 => ⟨S2048x1024x1, .i32⟩
  | 89 => ⟨S2048x1024x1, .i1⟩
  | 90 => ⟨S2048x1024x1, .i1⟩
  | 91 => ⟨S_, .i1⟩
  | 92 => ⟨S2048x1024, .i1⟩
  | 93 => ⟨S2048x1024, .f32⟩
  | 94 => ⟨S_, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S_, .i32⟩
  | 101 => ⟨S2048x1024, .i32⟩
  | 102 => ⟨S2048x1024, .i32⟩
  | 103 => ⟨S_, .i32⟩
  | 104 => ⟨S2048x1024, .i32⟩
  | 105 => ⟨S2048x1024, .i32⟩
  | 106 => ⟨S_, .f32⟩
  | 107 => ⟨S2048x1024, .f32⟩
  | 108 => ⟨S2048x1024, .i1⟩
  | 109 => ⟨S2048x1024, .i32⟩
  | 110 => ⟨S2048x1024, .i32⟩
  | 111 => ⟨S_, .i32⟩
  | 112 => ⟨S1x1024, .i32⟩
  | 113 => ⟨S1x1024, .i1⟩
  | 114 => ⟨S_, .i32⟩
  | 115 => ⟨S1x1024, .i32⟩
  | 116 => ⟨S1x1024, .i32⟩
  | 117 => ⟨S1x1024, .i32⟩
  | 118 => ⟨S_, .i32⟩
  | 119 => ⟨S2048x1024, .i32⟩
  | 120 => ⟨S2048x1024, .i1⟩
  | 121 => ⟨S_, .i32⟩
  | 122 => ⟨S2048x1024, .i32⟩
  | 123 => ⟨S2048x1024, .i32⟩
  | 124 => ⟨S2048x1024, .i32⟩
  | 125 => ⟨S2048x1024, .i32⟩
  | 126 => ⟨S2048x1024x1, .i32⟩
  | 127 => ⟨S2048x1024x1, .i32⟩
  | _ => ⟨S2048x256, .f32⟩

abbrev hbmTy0_4 (i : Nat) : BufTy := match i % 128 with
  | 0 => ⟨S2048x1024x2, .i32⟩
  | 1 => ⟨S2048x1024, .i32⟩
  | 2 => ⟨S_, .i32⟩
  | 3 => ⟨S1x1024, .i32⟩
  | 4 => ⟨S1x1024, .i1⟩
  | 5 => ⟨S_, .i32⟩
  | 6 => ⟨S1x1024, .i32⟩
  | 7 => ⟨S1x1024, .i32⟩
  | 8 => ⟨S1x1024, .i32⟩
  | 9 => ⟨S_, .i32⟩
  | 10 => ⟨S2048x1024, .i32⟩
  | 11 => ⟨S2048x1024, .i1⟩
  | 12 => ⟨S_, .i32⟩
  | 13 => ⟨S2048x1024, .i32⟩
  | 14 => ⟨S2048x1024, .i32⟩
  | 15 => ⟨S2048x1024, .i32⟩
  | 16 => ⟨S2048x1024, .i32⟩
  | 17 => ⟨S2048x1024x1, .i32⟩
  | 18 => ⟨S2048x1024x1, .i32⟩
  | 19 => ⟨S2048x1024x2, .i32⟩
  | 20 => ⟨S2048x1024, .f32⟩
  | 21 => ⟨S_, .i32⟩
  | 22 => ⟨S2048x1024, .i32⟩
  | 23 => ⟨S2048x1024, .i1⟩
  | 24 => ⟨S_, .i32⟩
  | 25 => ⟨S2048x1024, .i32⟩
  | 26 => ⟨S2048x1024, .i32⟩
  | 27 => ⟨S2048x1024, .i32⟩
  | 28 => ⟨S2048x1024x1, .i32⟩
  | 29 => ⟨S1, .i32⟩
  | 30 => ⟨S_, .i32⟩
  | 31 => ⟨S2048x1024x1, .i32⟩
  | 32 => ⟨S2048x1024x1, .i1⟩
  | 33 => ⟨S1x1x1, .i32⟩
  | 34 => ⟨S2048x1024x1, .i32⟩
  | 35 => ⟨S2048x1024x1, .i1⟩
  | 36 => ⟨S2048x1024x1, .i1⟩
  | 37 => ⟨S_, .i1⟩
  | 38 => ⟨S2048x1024, .i1⟩
  | 39 => ⟨S2048x1024, .f32⟩
  | 40 => ⟨S_, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S_, .i32⟩
  | 47 => ⟨S2048x1024, .i32⟩
  | 48 => ⟨S2048x1024, .i32⟩
  | 49 => ⟨S_, .i32⟩
  | 50 => ⟨S2048x1024, .i32⟩
  | 51 => ⟨S2048x1024, .i32⟩
  | 52 => ⟨S_, .f32⟩
  | 53 => ⟨S2048x1024, .f32⟩
  | 54 => ⟨S2048x1024, .i1⟩
  | 55 => ⟨S2048x1024, .i32⟩
  | 56 => ⟨S2048x1024, .i32⟩
  | 57 => ⟨S_, .i32⟩
  | 58 => ⟨S2048x1024, .i32⟩
  | 59 => ⟨S2048x1024, .i32⟩
  | 60 => ⟨S2048x1024x1, .f32⟩
  | 61 => ⟨S_, .i32⟩
  | 62 => ⟨S1x1024, .i32⟩
  | 63 => ⟨S1x1024, .i1⟩
  | 64 => ⟨S_, .i32⟩
  | 65 => ⟨S1x1024, .i32⟩
  | 66 => ⟨S1x1024, .i32⟩
  | 67 => ⟨S1x1024, .i32⟩
  | 68 => ⟨S_, .i32⟩
  | 69 => ⟨S2048x1024, .i32⟩
  | 70 => ⟨S2048x1024, .i1⟩
  | 71 => ⟨S_, .i32⟩
  | 72 => ⟨S2048x1024, .i32⟩
  | 73 => ⟨S2048x1024, .i32⟩
  | 74 => ⟨S2048x1024, .i32⟩
  | 75 => ⟨S2048x1024, .i32⟩
  | 76 => ⟨S2048x1024x1, .i32⟩
  | 77 => ⟨S2048x1024x1, .i32⟩
  | 78 => ⟨S2048x1024x2, .i32⟩
  | 79 => ⟨S2048x1024x10, .f32⟩
  | 80 => ⟨S2048x1024x10, .f32⟩
  | 81 => ⟨S2048x1024x10, .f32⟩
  | 82 => ⟨S_, .f32⟩
  | 83 => ⟨S2048x10, .f32⟩
  | _ => ⟨S2048x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_c_4 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_6 : Ref sig .tc := ⟨.hbm, 58, rfl⟩
abbrev main_v24 : Ref sig .tc := ⟨.hbm, 59, rfl⟩
abbrev main_v25 : Ref sig .tc := ⟨.hbm, 60, rfl⟩
abbrev main_c_7 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_8 : Ref sig .tc := ⟨.hbm, 70, rfl⟩
abbrev main_v34 : Ref sig .tc := ⟨.hbm, 71, rfl⟩
abbrev main_v35 : Ref sig .tc := ⟨.hbm, 72, rfl⟩
abbrev main_c_9 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_10 : Ref sig .tc := ⟨.hbm, 77, rfl⟩
abbrev main_v39 : Ref sig .tc := ⟨.hbm, 78, rfl⟩
abbrev main_v40 : Ref sig .tc := ⟨.hbm, 79, rfl⟩
abbrev main_c_11 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_c_1 : Ref sig .tc := ⟨.hbm, 97, rfl⟩
abbrev main_call1_c_2 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_3 : Ref sig .tc := ⟨.hbm, 105, rfl⟩
abbrev main_call1_v12 : Ref sig .tc := ⟨.hbm, 106, rfl⟩
abbrev main_call1_v13 : Ref sig .tc := ⟨.hbm, 107, rfl⟩
abbrev main_call1_cst : Ref sig .tc := ⟨.hbm, 108, rfl⟩
abbrev main_call1_v14 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_c_12 : Ref sig .tc := ⟨.hbm, 114, rfl⟩
abbrev main_v53 : Ref sig .tc := ⟨.hbm, 115, rfl⟩
abbrev main_v54 : Ref sig .tc := ⟨.hbm, 116, rfl⟩
abbrev main_c_13 : Ref sig .tc := ⟨.hbm, 117, rfl⟩
abbrev main_v55 : Ref sig .tc := ⟨.hbm, 118, rfl⟩
abbrev main_v56 : Ref sig .tc := ⟨.hbm, 119, rfl⟩
abbrev main_cst_14 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_c_15 : Ref sig .tc := ⟨.hbm, 125, rfl⟩
abbrev main_v61 : Ref sig .tc := ⟨.hbm, 126, rfl⟩
abbrev main_v62 : Ref sig .tc := ⟨.hbm, 127, rfl⟩
abbrev main_c_16 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_c_17 : Ref sig .tc := ⟨.hbm, 132, rfl⟩
abbrev main_v66 : Ref sig .tc := ⟨.hbm, 133, rfl⟩
abbrev main_v67 : Ref sig .tc := ⟨.hbm, 134, rfl⟩
abbrev main_c_18 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_c_19 : Ref sig .tc := ⟨.hbm, 144, rfl⟩
abbrev main_v76 : Ref sig .tc := ⟨.hbm, 145, rfl⟩
abbrev main_v77 : Ref sig .tc := ⟨.hbm, 146, rfl⟩
abbrev main_c_20 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_c_21 : Ref sig .tc := ⟨.hbm, 151, rfl⟩
abbrev main_v81 : Ref sig .tc := ⟨.hbm, 152, rfl⟩
abbrev main_v82 : Ref sig .tc := ⟨.hbm, 153, rfl⟩
abbrev main_c_22 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_call2_c : Ref sig .tc := ⟨.hbm, 163, rfl⟩
abbrev main_call2_v0 : Ref sig .tc := ⟨.hbm, 164, rfl⟩
abbrev main_call2_v1 : Ref sig .tc := ⟨.hbm, 165, rfl⟩
abbrev main_call2_c_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_c_1 : Ref sig .tc := ⟨.hbm, 171, rfl⟩
abbrev main_call2_c_2 : Ref sig .tc := ⟨.hbm, 172, rfl⟩
abbrev main_call2_v6 : Ref sig .tc := ⟨.hbm, 173, rfl⟩
abbrev main_call2_v7 : Ref sig .tc := ⟨.hbm, 174, rfl⟩
abbrev main_call2_v8 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_c_3 : Ref sig .tc := ⟨.hbm, 179, rfl⟩
abbrev main_call2_v12 : Ref sig .tc := ⟨.hbm, 180, rfl⟩
abbrev main_call2_v13 : Ref sig .tc := ⟨.hbm, 181, rfl⟩
abbrev main_call2_cst : Ref sig .tc := ⟨.hbm, 182, rfl⟩
abbrev main_call2_v14 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_c_23 : Ref sig .tc := ⟨.hbm, 188, rfl⟩
abbrev main_v95 : Ref sig .tc := ⟨.hbm, 189, rfl⟩
abbrev main_v96 : Ref sig .tc := ⟨.hbm, 190, rfl⟩
abbrev main_c_24 : Ref sig .tc := ⟨.hbm, 191, rfl⟩
abbrev main_v97 : Ref sig .tc := ⟨.hbm, 192, rfl⟩
abbrev main_v98 : Ref sig .tc := ⟨.hbm, 193, rfl⟩
abbrev main_cst_25 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_c_26 : Ref sig .tc := ⟨.hbm, 199, rfl⟩
abbrev main_v103 : Ref sig .tc := ⟨.hbm, 200, rfl⟩
abbrev main_v104 : Ref sig .tc := ⟨.hbm, 201, rfl⟩
abbrev main_c_27 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_c_28 : Ref sig .tc := ⟨.hbm, 206, rfl⟩
abbrev main_v108 : Ref sig .tc := ⟨.hbm, 207, rfl⟩
abbrev main_v109 : Ref sig .tc := ⟨.hbm, 208, rfl⟩
abbrev main_c_29 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_c_30 : Ref sig .tc := ⟨.hbm, 218, rfl⟩
abbrev main_v118 : Ref sig .tc := ⟨.hbm, 219, rfl⟩
abbrev main_v119 : Ref sig .tc := ⟨.hbm, 220, rfl⟩
abbrev main_c_31 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_c_32 : Ref sig .tc := ⟨.hbm, 225, rfl⟩
abbrev main_v123 : Ref sig .tc := ⟨.hbm, 226, rfl⟩
abbrev main_v124 : Ref sig .tc := ⟨.hbm, 227, rfl⟩
abbrev main_c_33 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_call3_c : Ref sig .tc := ⟨.hbm, 237, rfl⟩
abbrev main_call3_v0 : Ref sig .tc := ⟨.hbm, 238, rfl⟩
abbrev main_call3_v1 : Ref sig .tc := ⟨.hbm, 239, rfl⟩
abbrev main_call3_c_0 : Ref sig .tc := ⟨.hbm, 240, rfl⟩
abbrev main_call3_v2 : Ref sig .tc := ⟨.hbm, 241, rfl⟩
abbrev main_call3_v3 : Ref sig .tc := ⟨.hbm, 242, rfl⟩
abbrev main_call3_v4 : Ref sig .tc := ⟨.hbm, 243, rfl⟩
abbrev main_call3_v5 : Ref sig .tc := ⟨.hbm, 244, rfl⟩
abbrev main_call3_c_1 : Ref sig .tc := ⟨.hbm, 245, rfl⟩
abbrev main_call3_c_2 : Ref sig .tc := ⟨.hbm, 246, rfl⟩
abbrev main_call3_v6 : Ref sig .tc := ⟨.hbm, 247, rfl⟩
abbrev main_call3_v7 : Ref sig .tc := ⟨.hbm, 248, rfl⟩
abbrev main_call3_v8 : Ref sig .tc := ⟨.hbm, 249, rfl⟩
abbrev main_call3_v9 : Ref sig .tc := ⟨.hbm, 250, rfl⟩
abbrev main_call3_v10 : Ref sig .tc := ⟨.hbm, 251, rfl⟩
abbrev main_call3_v11 : Ref sig .tc := ⟨.hbm, 252, rfl⟩
abbrev main_call3_c_3 : Ref sig .tc := ⟨.hbm, 253, rfl⟩
abbrev main_call3_v12 : Ref sig .tc := ⟨.hbm, 254, rfl⟩
abbrev main_call3_v13 : Ref sig .tc := ⟨.hbm, 255, rfl⟩
abbrev main_call3_cst : Ref sig .tc := ⟨.hbm, 256, rfl⟩
abbrev main_call3_v14 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_c_34 : Ref sig .tc := ⟨.hbm, 262, rfl⟩
abbrev main_v137 : Ref sig .tc := ⟨.hbm, 263, rfl⟩
abbrev main_v138 : Ref sig .tc := ⟨.hbm, 264, rfl⟩
abbrev main_c_35 : Ref sig .tc := ⟨.hbm, 265, rfl⟩
abbrev main_v139 : Ref sig .tc := ⟨.hbm, 266, rfl⟩
abbrev main_v140 : Ref sig .tc := ⟨.hbm, 267, rfl⟩
abbrev main_cst_36 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_c_37 : Ref sig .tc := ⟨.hbm, 273, rfl⟩
abbrev main_v145 : Ref sig .tc := ⟨.hbm, 274, rfl⟩
abbrev main_v146 : Ref sig .tc := ⟨.hbm, 275, rfl⟩
abbrev main_c_38 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_c_39 : Ref sig .tc := ⟨.hbm, 280, rfl⟩
abbrev main_v150 : Ref sig .tc := ⟨.hbm, 281, rfl⟩
abbrev main_v151 : Ref sig .tc := ⟨.hbm, 282, rfl⟩
abbrev main_c_40 : Ref sig .tc := ⟨.hbm, 283, rfl⟩
abbrev main_v152 : Ref sig .tc := ⟨.hbm, 284, rfl⟩
abbrev main_v153 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_c_41 : Ref sig .tc := ⟨.hbm, 292, rfl⟩
abbrev main_v160 : Ref sig .tc := ⟨.hbm, 293, rfl⟩
abbrev main_v161 : Ref sig .tc := ⟨.hbm, 294, rfl⟩
abbrev main_c_42 : Ref sig .tc := ⟨.hbm, 295, rfl⟩
abbrev main_v162 : Ref sig .tc := ⟨.hbm, 296, rfl⟩
abbrev main_v163 : Ref sig .tc := ⟨.hbm, 297, rfl⟩
abbrev main_v164 : Ref sig .tc := ⟨.hbm, 298, rfl⟩
abbrev main_c_43 : Ref sig .tc := ⟨.hbm, 299, rfl⟩
abbrev main_v165 : Ref sig .tc := ⟨.hbm, 300, rfl⟩
abbrev main_v166 : Ref sig .tc := ⟨.hbm, 301, rfl⟩
abbrev main_c_44 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_v174 : Ref sig .tc := ⟨.hbm, 310, rfl⟩
abbrev main_call4_c : Ref sig .tc := ⟨.hbm, 311, rfl⟩
abbrev main_call4_v0 : Ref sig .tc := ⟨.hbm, 312, rfl⟩
abbrev main_call4_v1 : Ref sig .tc := ⟨.hbm, 313, rfl⟩
abbrev main_call4_c_0 : Ref sig .tc := ⟨.hbm, 314, rfl⟩
abbrev main_call4_v2 : Ref sig .tc := ⟨.hbm, 315, rfl⟩
abbrev main_call4_v3 : Ref sig .tc := ⟨.hbm, 316, rfl⟩
abbrev main_call4_v4 : Ref sig .tc := ⟨.hbm, 317, rfl⟩
abbrev main_call4_v5 : Ref sig .tc := ⟨.hbm, 318, rfl⟩
abbrev main_call4_c_1 : Ref sig .tc := ⟨.hbm, 319, rfl⟩
abbrev main_call4_c_2 : Ref sig .tc := ⟨.hbm, 320, rfl⟩
abbrev main_call4_v6 : Ref sig .tc := ⟨.hbm, 321, rfl⟩
abbrev main_call4_v7 : Ref sig .tc := ⟨.hbm, 322, rfl⟩
abbrev main_call4_v8 : Ref sig .tc := ⟨.hbm, 323, rfl⟩
abbrev main_call4_v9 : Ref sig .tc := ⟨.hbm, 324, rfl⟩
abbrev main_call4_v10 : Ref sig .tc := ⟨.hbm, 325, rfl⟩
abbrev main_call4_v11 : Ref sig .tc := ⟨.hbm, 326, rfl⟩
abbrev main_call4_c_3 : Ref sig .tc := ⟨.hbm, 327, rfl⟩
abbrev main_call4_v12 : Ref sig .tc := ⟨.hbm, 328, rfl⟩
abbrev main_call4_v13 : Ref sig .tc := ⟨.hbm, 329, rfl⟩
abbrev main_call4_cst : Ref sig .tc := ⟨.hbm, 330, rfl⟩
abbrev main_call4_v14 : Ref sig .tc := ⟨.hbm, 331, rfl⟩
abbrev main_v175 : Ref sig .tc := ⟨.hbm, 332, rfl⟩
abbrev main_v176 : Ref sig .tc := ⟨.hbm, 333, rfl⟩
abbrev main_v177 : Ref sig .tc := ⟨.hbm, 334, rfl⟩
abbrev main_v178 : Ref sig .tc := ⟨.hbm, 335, rfl⟩
abbrev main_c_45 : Ref sig .tc := ⟨.hbm, 336, rfl⟩
abbrev main_v179 : Ref sig .tc := ⟨.hbm, 337, rfl⟩
abbrev main_v180 : Ref sig .tc := ⟨.hbm, 338, rfl⟩
abbrev main_c_46 : Ref sig .tc := ⟨.hbm, 339, rfl⟩
abbrev main_v181 : Ref sig .tc := ⟨.hbm, 340, rfl⟩
abbrev main_v182 : Ref sig .tc := ⟨.hbm, 341, rfl⟩
abbrev main_cst_47 : Ref sig .tc := ⟨.hbm, 342, rfl⟩
abbrev main_v183 : Ref sig .tc := ⟨.hbm, 343, rfl⟩
abbrev main_v184 : Ref sig .tc := ⟨.hbm, 344, rfl⟩
abbrev main_v185 : Ref sig .tc := ⟨.hbm, 345, rfl⟩
abbrev main_v186 : Ref sig .tc := ⟨.hbm, 346, rfl⟩
abbrev main_c_48 : Ref sig .tc := ⟨.hbm, 347, rfl⟩
abbrev main_v187 : Ref sig .tc := ⟨.hbm, 348, rfl⟩
abbrev main_v188 : Ref sig .tc := ⟨.hbm, 349, rfl⟩
abbrev main_c_49 : Ref sig .tc := ⟨.hbm, 350, rfl⟩
abbrev main_v189 : Ref sig .tc := ⟨.hbm, 351, rfl⟩
abbrev main_v190 : Ref sig .tc := ⟨.hbm, 352, rfl⟩
abbrev main_v191 : Ref sig .tc := ⟨.hbm, 353, rfl⟩
abbrev main_c_50 : Ref sig .tc := ⟨.hbm, 354, rfl⟩
abbrev main_v192 : Ref sig .tc := ⟨.hbm, 355, rfl⟩
abbrev main_v193 : Ref sig .tc := ⟨.hbm, 356, rfl⟩
abbrev main_c_51 : Ref sig .tc := ⟨.hbm, 357, rfl⟩
abbrev main_v194 : Ref sig .tc := ⟨.hbm, 358, rfl⟩
abbrev main_v195 : Ref sig .tc := ⟨.hbm, 359, rfl⟩
abbrev main_v196 : Ref sig .tc := ⟨.hbm, 360, rfl⟩
abbrev main_v197 : Ref sig .tc := ⟨.hbm, 361, rfl⟩
abbrev main_v198 : Ref sig .tc := ⟨.hbm, 362, rfl⟩
abbrev main_v199 : Ref sig .tc := ⟨.hbm, 363, rfl⟩
abbrev main_v200 : Ref sig .tc := ⟨.hbm, 364, rfl⟩
abbrev main_v201 : Ref sig .tc := ⟨.hbm, 365, rfl⟩
abbrev main_c_52 : Ref sig .tc := ⟨.hbm, 366, rfl⟩
abbrev main_v202 : Ref sig .tc := ⟨.hbm, 367, rfl⟩
abbrev main_v203 : Ref sig .tc := ⟨.hbm, 368, rfl⟩
abbrev main_c_53 : Ref sig .tc := ⟨.hbm, 369, rfl⟩
abbrev main_v204 : Ref sig .tc := ⟨.hbm, 370, rfl⟩
abbrev main_v205 : Ref sig .tc := ⟨.hbm, 371, rfl⟩
abbrev main_v206 : Ref sig .tc := ⟨.hbm, 372, rfl⟩
abbrev main_c_54 : Ref sig .tc := ⟨.hbm, 373, rfl⟩
abbrev main_v207 : Ref sig .tc := ⟨.hbm, 374, rfl⟩
abbrev main_v208 : Ref sig .tc := ⟨.hbm, 375, rfl⟩
abbrev main_c_55 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_v214 : Ref sig .tc := ⟨.hbm, 382, rfl⟩
abbrev main_v215 : Ref sig .tc := ⟨.hbm, 383, rfl⟩
abbrev main_v216 : Ref sig .tc := ⟨.hbm, 384, rfl⟩
abbrev main_call5_c : Ref sig .tc := ⟨.hbm, 385, rfl⟩
abbrev main_call5_v0 : Ref sig .tc := ⟨.hbm, 386, rfl⟩
abbrev main_call5_v1 : Ref sig .tc := ⟨.hbm, 387, rfl⟩
abbrev main_call5_c_0 : Ref sig .tc := ⟨.hbm, 388, rfl⟩
abbrev main_call5_v2 : Ref sig .tc := ⟨.hbm, 389, rfl⟩
abbrev main_call5_v3 : Ref sig .tc := ⟨.hbm, 390, rfl⟩
abbrev main_call5_v4 : Ref sig .tc := ⟨.hbm, 391, rfl⟩
abbrev main_call5_v5 : Ref sig .tc := ⟨.hbm, 392, rfl⟩
abbrev main_call5_c_1 : Ref sig .tc := ⟨.hbm, 393, rfl⟩
abbrev main_call5_c_2 : Ref sig .tc := ⟨.hbm, 394, rfl⟩
abbrev main_call5_v6 : Ref sig .tc := ⟨.hbm, 395, rfl⟩
abbrev main_call5_v7 : Ref sig .tc := ⟨.hbm, 396, rfl⟩
abbrev main_call5_v8 : Ref sig .tc := ⟨.hbm, 397, rfl⟩
abbrev main_call5_v9 : Ref sig .tc := ⟨.hbm, 398, rfl⟩
abbrev main_call5_v10 : Ref sig .tc := ⟨.hbm, 399, rfl⟩
abbrev main_call5_v11 : Ref sig .tc := ⟨.hbm, 400, rfl⟩
abbrev main_call5_c_3 : Ref sig .tc := ⟨.hbm, 401, rfl⟩
abbrev main_call5_v12 : Ref sig .tc := ⟨.hbm, 402, rfl⟩
abbrev main_call5_v13 : Ref sig .tc := ⟨.hbm, 403, rfl⟩
abbrev main_call5_cst : Ref sig .tc := ⟨.hbm, 404, rfl⟩
abbrev main_call5_v14 : Ref sig .tc := ⟨.hbm, 405, rfl⟩
abbrev main_v217 : Ref sig .tc := ⟨.hbm, 406, rfl⟩
abbrev main_v218 : Ref sig .tc := ⟨.hbm, 407, rfl⟩
abbrev main_v219 : Ref sig .tc := ⟨.hbm, 408, rfl⟩
abbrev main_v220 : Ref sig .tc := ⟨.hbm, 409, rfl⟩
abbrev main_c_56 : Ref sig .tc := ⟨.hbm, 410, rfl⟩
abbrev main_v221 : Ref sig .tc := ⟨.hbm, 411, rfl⟩
abbrev main_v222 : Ref sig .tc := ⟨.hbm, 412, rfl⟩
abbrev main_c_57 : Ref sig .tc := ⟨.hbm, 413, rfl⟩
abbrev main_v223 : Ref sig .tc := ⟨.hbm, 414, rfl⟩
abbrev main_v224 : Ref sig .tc := ⟨.hbm, 415, rfl⟩
abbrev main_cst_58 : Ref sig .tc := ⟨.hbm, 416, rfl⟩
abbrev main_v225 : Ref sig .tc := ⟨.hbm, 417, rfl⟩
abbrev main_v226 : Ref sig .tc := ⟨.hbm, 418, rfl⟩
abbrev main_v227 : Ref sig .tc := ⟨.hbm, 419, rfl⟩
abbrev main_v228 : Ref sig .tc := ⟨.hbm, 420, rfl⟩
abbrev main_c_59 : Ref sig .tc := ⟨.hbm, 421, rfl⟩
abbrev main_v229 : Ref sig .tc := ⟨.hbm, 422, rfl⟩
abbrev main_v230 : Ref sig .tc := ⟨.hbm, 423, rfl⟩
abbrev main_c_60 : Ref sig .tc := ⟨.hbm, 424, rfl⟩
abbrev main_v231 : Ref sig .tc := ⟨.hbm, 425, rfl⟩
abbrev main_v232 : Ref sig .tc := ⟨.hbm, 426, rfl⟩
abbrev main_v233 : Ref sig .tc := ⟨.hbm, 427, rfl⟩
abbrev main_c_61 : Ref sig .tc := ⟨.hbm, 428, rfl⟩
abbrev main_v234 : Ref sig .tc := ⟨.hbm, 429, rfl⟩
abbrev main_v235 : Ref sig .tc := ⟨.hbm, 430, rfl⟩
abbrev main_c_62 : Ref sig .tc := ⟨.hbm, 431, rfl⟩
abbrev main_v236 : Ref sig .tc := ⟨.hbm, 432, rfl⟩
abbrev main_v237 : Ref sig .tc := ⟨.hbm, 433, rfl⟩
abbrev main_v238 : Ref sig .tc := ⟨.hbm, 434, rfl⟩
abbrev main_v239 : Ref sig .tc := ⟨.hbm, 435, rfl⟩
abbrev main_v240 : Ref sig .tc := ⟨.hbm, 436, rfl⟩
abbrev main_v241 : Ref sig .tc := ⟨.hbm, 437, rfl⟩
abbrev main_v242 : Ref sig .tc := ⟨.hbm, 438, rfl⟩
abbrev main_v243 : Ref sig .tc := ⟨.hbm, 439, rfl⟩
abbrev main_c_63 : Ref sig .tc := ⟨.hbm, 440, rfl⟩
abbrev main_v244 : Ref sig .tc := ⟨.hbm, 441, rfl⟩
abbrev main_v245 : Ref sig .tc := ⟨.hbm, 442, rfl⟩
abbrev main_c_64 : Ref sig .tc := ⟨.hbm, 443, rfl⟩
abbrev main_v246 : Ref sig .tc := ⟨.hbm, 444, rfl⟩
abbrev main_v247 : Ref sig .tc := ⟨.hbm, 445, rfl⟩
abbrev main_v248 : Ref sig .tc := ⟨.hbm, 446, rfl⟩
abbrev main_c_65 : Ref sig .tc := ⟨.hbm, 447, rfl⟩
abbrev main_v249 : Ref sig .tc := ⟨.hbm, 448, rfl⟩
abbrev main_v250 : Ref sig .tc := ⟨.hbm, 449, rfl⟩
abbrev main_c_66 : Ref sig .tc := ⟨.hbm, 450, rfl⟩
abbrev main_v251 : Ref sig .tc := ⟨.hbm, 451, rfl⟩
abbrev main_v252 : Ref sig .tc := ⟨.hbm, 452, rfl⟩
abbrev main_v253 : Ref sig .tc := ⟨.hbm, 453, rfl⟩
abbrev main_v254 : Ref sig .tc := ⟨.hbm, 454, rfl⟩
abbrev main_v255 : Ref sig .tc := ⟨.hbm, 455, rfl⟩
abbrev main_v256 : Ref sig .tc := ⟨.hbm, 456, rfl⟩
abbrev main_v257 : Ref sig .tc := ⟨.hbm, 457, rfl⟩
abbrev main_v258 : Ref sig .tc := ⟨.hbm, 458, rfl⟩
abbrev main_call6_c : Ref sig .tc := ⟨.hbm, 459, rfl⟩
abbrev main_call6_v0 : Ref sig .tc := ⟨.hbm, 460, rfl⟩
abbrev main_call6_v1 : Ref sig .tc := ⟨.hbm, 461, rfl⟩
abbrev main_call6_c_0 : Ref sig .tc := ⟨.hbm, 462, rfl⟩
abbrev main_call6_v2 : Ref sig .tc := ⟨.hbm, 463, rfl⟩
abbrev main_call6_v3 : Ref sig .tc := ⟨.hbm, 464, rfl⟩
abbrev main_call6_v4 : Ref sig .tc := ⟨.hbm, 465, rfl⟩
abbrev main_call6_v5 : Ref sig .tc := ⟨.hbm, 466, rfl⟩
abbrev main_call6_c_1 : Ref sig .tc := ⟨.hbm, 467, rfl⟩
abbrev main_call6_c_2 : Ref sig .tc := ⟨.hbm, 468, rfl⟩
abbrev main_call6_v6 : Ref sig .tc := ⟨.hbm, 469, rfl⟩
abbrev main_call6_v7 : Ref sig .tc := ⟨.hbm, 470, rfl⟩
abbrev main_call6_v8 : Ref sig .tc := ⟨.hbm, 471, rfl⟩
abbrev main_call6_v9 : Ref sig .tc := ⟨.hbm, 472, rfl⟩
abbrev main_call6_v10 : Ref sig .tc := ⟨.hbm, 473, rfl⟩
abbrev main_call6_v11 : Ref sig .tc := ⟨.hbm, 474, rfl⟩
abbrev main_call6_c_3 : Ref sig .tc := ⟨.hbm, 475, rfl⟩
abbrev main_call6_v12 : Ref sig .tc := ⟨.hbm, 476, rfl⟩
abbrev main_call6_v13 : Ref sig .tc := ⟨.hbm, 477, rfl⟩
abbrev main_call6_cst : Ref sig .tc := ⟨.hbm, 478, rfl⟩
abbrev main_call6_v14 : Ref sig .tc := ⟨.hbm, 479, rfl⟩
abbrev main_v259 : Ref sig .tc := ⟨.hbm, 480, rfl⟩
abbrev main_v260 : Ref sig .tc := ⟨.hbm, 481, rfl⟩
abbrev main_v261 : Ref sig .tc := ⟨.hbm, 482, rfl⟩
abbrev main_v262 : Ref sig .tc := ⟨.hbm, 483, rfl⟩
abbrev main_c_67 : Ref sig .tc := ⟨.hbm, 484, rfl⟩
abbrev main_v263 : Ref sig .tc := ⟨.hbm, 485, rfl⟩
abbrev main_v264 : Ref sig .tc := ⟨.hbm, 486, rfl⟩
abbrev main_c_68 : Ref sig .tc := ⟨.hbm, 487, rfl⟩
abbrev main_v265 : Ref sig .tc := ⟨.hbm, 488, rfl⟩
abbrev main_v266 : Ref sig .tc := ⟨.hbm, 489, rfl⟩
abbrev main_cst_69 : Ref sig .tc := ⟨.hbm, 490, rfl⟩
abbrev main_v267 : Ref sig .tc := ⟨.hbm, 491, rfl⟩
abbrev main_v268 : Ref sig .tc := ⟨.hbm, 492, rfl⟩
abbrev main_v269 : Ref sig .tc := ⟨.hbm, 493, rfl⟩
abbrev main_v270 : Ref sig .tc := ⟨.hbm, 494, rfl⟩
abbrev main_c_70 : Ref sig .tc := ⟨.hbm, 495, rfl⟩
abbrev main_v271 : Ref sig .tc := ⟨.hbm, 496, rfl⟩
abbrev main_v272 : Ref sig .tc := ⟨.hbm, 497, rfl⟩
abbrev main_c_71 : Ref sig .tc := ⟨.hbm, 498, rfl⟩
abbrev main_v273 : Ref sig .tc := ⟨.hbm, 499, rfl⟩
abbrev main_v274 : Ref sig .tc := ⟨.hbm, 500, rfl⟩
abbrev main_v275 : Ref sig .tc := ⟨.hbm, 501, rfl⟩
abbrev main_c_72 : Ref sig .tc := ⟨.hbm, 502, rfl⟩
abbrev main_v276 : Ref sig .tc := ⟨.hbm, 503, rfl⟩
abbrev main_v277 : Ref sig .tc := ⟨.hbm, 504, rfl⟩
abbrev main_c_73 : Ref sig .tc := ⟨.hbm, 505, rfl⟩
abbrev main_v278 : Ref sig .tc := ⟨.hbm, 506, rfl⟩
abbrev main_v279 : Ref sig .tc := ⟨.hbm, 507, rfl⟩
abbrev main_v280 : Ref sig .tc := ⟨.hbm, 508, rfl⟩
abbrev main_v281 : Ref sig .tc := ⟨.hbm, 509, rfl⟩
abbrev main_v282 : Ref sig .tc := ⟨.hbm, 510, rfl⟩
abbrev main_v283 : Ref sig .tc := ⟨.hbm, 511, rfl⟩
abbrev main_v284 : Ref sig .tc := ⟨.hbm, 512, rfl⟩
abbrev main_v285 : Ref sig .tc := ⟨.hbm, 513, rfl⟩
abbrev main_c_74 : Ref sig .tc := ⟨.hbm, 514, rfl⟩
abbrev main_v286 : Ref sig .tc := ⟨.hbm, 515, rfl⟩
abbrev main_v287 : Ref sig .tc := ⟨.hbm, 516, rfl⟩
abbrev main_c_75 : Ref sig .tc := ⟨.hbm, 517, rfl⟩
abbrev main_v288 : Ref sig .tc := ⟨.hbm, 518, rfl⟩
abbrev main_v289 : Ref sig .tc := ⟨.hbm, 519, rfl⟩
abbrev main_v290 : Ref sig .tc := ⟨.hbm, 520, rfl⟩
abbrev main_c_76 : Ref sig .tc := ⟨.hbm, 521, rfl⟩
abbrev main_v291 : Ref sig .tc := ⟨.hbm, 522, rfl⟩
abbrev main_v292 : Ref sig .tc := ⟨.hbm, 523, rfl⟩
abbrev main_c_77 : Ref sig .tc := ⟨.hbm, 524, rfl⟩
abbrev main_v293 : Ref sig .tc := ⟨.hbm, 525, rfl⟩
abbrev main_v294 : Ref sig .tc := ⟨.hbm, 526, rfl⟩
abbrev main_v295 : Ref sig .tc := ⟨.hbm, 527, rfl⟩
abbrev main_v296 : Ref sig .tc := ⟨.hbm, 528, rfl⟩
abbrev main_v297 : Ref sig .tc := ⟨.hbm, 529, rfl⟩
abbrev main_v298 : Ref sig .tc := ⟨.hbm, 530, rfl⟩
abbrev main_v299 : Ref sig .tc := ⟨.hbm, 531, rfl⟩
abbrev main_v300 : Ref sig .tc := ⟨.hbm, 532, rfl⟩
abbrev main_call7_c : Ref sig .tc := ⟨.hbm, 533, rfl⟩
abbrev main_call7_v0 : Ref sig .tc := ⟨.hbm, 534, rfl⟩
abbrev main_call7_v1 : Ref sig .tc := ⟨.hbm, 535, rfl⟩
abbrev main_call7_c_0 : Ref sig .tc := ⟨.hbm, 536, rfl⟩
abbrev main_call7_v2 : Ref sig .tc := ⟨.hbm, 537, rfl⟩
abbrev main_call7_v3 : Ref sig .tc := ⟨.hbm, 538, rfl⟩
abbrev main_call7_v4 : Ref sig .tc := ⟨.hbm, 539, rfl⟩
abbrev main_call7_v5 : Ref sig .tc := ⟨.hbm, 540, rfl⟩
abbrev main_call7_c_1 : Ref sig .tc := ⟨.hbm, 541, rfl⟩
abbrev main_call7_c_2 : Ref sig .tc := ⟨.hbm, 542, rfl⟩
abbrev main_call7_v6 : Ref sig .tc := ⟨.hbm, 543, rfl⟩
abbrev main_call7_v7 : Ref sig .tc := ⟨.hbm, 544, rfl⟩
abbrev main_call7_v8 : Ref sig .tc := ⟨.hbm, 545, rfl⟩
abbrev main_call7_v9 : Ref sig .tc := ⟨.hbm, 546, rfl⟩
abbrev main_call7_v10 : Ref sig .tc := ⟨.hbm, 547, rfl⟩
abbrev main_call7_v11 : Ref sig .tc := ⟨.hbm, 548, rfl⟩
abbrev main_call7_c_3 : Ref sig .tc := ⟨.hbm, 549, rfl⟩
abbrev main_call7_v12 : Ref sig .tc := ⟨.hbm, 550, rfl⟩
abbrev main_call7_v13 : Ref sig .tc := ⟨.hbm, 551, rfl⟩
abbrev main_call7_cst : Ref sig .tc := ⟨.hbm, 552, rfl⟩
abbrev main_call7_v14 : Ref sig .tc := ⟨.hbm, 553, rfl⟩
abbrev main_v301 : Ref sig .tc := ⟨.hbm, 554, rfl⟩
abbrev main_v302 : Ref sig .tc := ⟨.hbm, 555, rfl⟩
abbrev main_v303 : Ref sig .tc := ⟨.hbm, 556, rfl⟩
abbrev main_v304 : Ref sig .tc := ⟨.hbm, 557, rfl⟩
abbrev main_c_78 : Ref sig .tc := ⟨.hbm, 558, rfl⟩
abbrev main_v305 : Ref sig .tc := ⟨.hbm, 559, rfl⟩
abbrev main_v306 : Ref sig .tc := ⟨.hbm, 560, rfl⟩
abbrev main_c_79 : Ref sig .tc := ⟨.hbm, 561, rfl⟩
abbrev main_v307 : Ref sig .tc := ⟨.hbm, 562, rfl⟩
abbrev main_v308 : Ref sig .tc := ⟨.hbm, 563, rfl⟩
abbrev main_cst_80 : Ref sig .tc := ⟨.hbm, 564, rfl⟩
abbrev main_v309 : Ref sig .tc := ⟨.hbm, 565, rfl⟩
abbrev main_v310 : Ref sig .tc := ⟨.hbm, 566, rfl⟩
abbrev main_v311 : Ref sig .tc := ⟨.hbm, 567, rfl⟩
abbrev main_v312 : Ref sig .tc := ⟨.hbm, 568, rfl⟩
abbrev main_c_81 : Ref sig .tc := ⟨.hbm, 569, rfl⟩
abbrev main_v313 : Ref sig .tc := ⟨.hbm, 570, rfl⟩
abbrev main_v314 : Ref sig .tc := ⟨.hbm, 571, rfl⟩
abbrev main_v315 : Ref sig .tc := ⟨.hbm, 572, rfl⟩
abbrev main_c_82 : Ref sig .tc := ⟨.hbm, 573, rfl⟩
abbrev main_v316 : Ref sig .tc := ⟨.hbm, 574, rfl⟩
abbrev main_v317 : Ref sig .tc := ⟨.hbm, 575, rfl⟩
abbrev main_c_83 : Ref sig .tc := ⟨.hbm, 576, rfl⟩
abbrev main_v318 : Ref sig .tc := ⟨.hbm, 577, rfl⟩
abbrev main_v319 : Ref sig .tc := ⟨.hbm, 578, rfl⟩
abbrev main_v320 : Ref sig .tc := ⟨.hbm, 579, rfl⟩
abbrev main_c_84 : Ref sig .tc := ⟨.hbm, 580, rfl⟩
abbrev main_v321 : Ref sig .tc := ⟨.hbm, 581, rfl⟩
abbrev main_v322 : Ref sig .tc := ⟨.hbm, 582, rfl⟩
abbrev main_c_85 : Ref sig .tc := ⟨.hbm, 583, rfl⟩
abbrev main_v323 : Ref sig .tc := ⟨.hbm, 584, rfl⟩
abbrev main_v324 : Ref sig .tc := ⟨.hbm, 585, rfl⟩
abbrev main_v325 : Ref sig .tc := ⟨.hbm, 586, rfl⟩
abbrev main_v326 : Ref sig .tc := ⟨.hbm, 587, rfl⟩
abbrev main_v327 : Ref sig .tc := ⟨.hbm, 588, rfl⟩
abbrev main_v328 : Ref sig .tc := ⟨.hbm, 589, rfl⟩
abbrev main_v329 : Ref sig .tc := ⟨.hbm, 590, rfl⟩
abbrev main_v330 : Ref sig .tc := ⟨.hbm, 591, rfl⟩
abbrev main_v331 : Ref sig .tc := ⟨.hbm, 592, rfl⟩
abbrev main_v332 : Ref sig .tc := ⟨.hbm, 593, rfl⟩
abbrev main_cst_86 : Ref sig .tc := ⟨.hbm, 594, rfl⟩
abbrev main_v333 : Ref sig .tc := ⟨.hbm, 595, rfl⟩

abbrev nD : Nat := 1
abbrev τ : Topo := Topo.v7x

variable {F : FTy → Type} [FloatOps F]

class Facts₀ : Prop where
  transposes_S26009x256_S256x26009_1_0 : S26009x256.Transposes [1, 0] S256x26009
  reducesTo_S2048x26009_S26009_d0 : S2048x26009.ReducesTo [0] S26009
  h_S_ : 0 < S_.numel
  bcast_S_S26009 : S_.BroadcastsInDim S26009 (![] : Fin 0 → Fin S26009.rank)
  bcast_S26009_S1x26009_1 : S26009.BroadcastsInDim S1x26009 (![1] : Fin 1 → Fin S1x26009.rank)
  bcast_S_S1x26009 : S_.BroadcastsInDim S1x26009 (![] : Fin 0 → Fin S1x26009.rank)
  bcast_S1x26009_S2048x26009_0_1 : S1x26009.BroadcastsInDim S2048x26009 (![0, 1] : Fin 2 → Fin S2048x26009.rank)
  bcast_S1024_S1x1024_1 : S1024.BroadcastsInDim S1x1024 (![1] : Fin 1 → Fin S1x1024.rank)
  bcast_S_S2048x1024 : S_.BroadcastsInDim S2048x1024 (![] : Fin 0 → Fin S2048x1024.rank)
  bcast_S_S1x1024 : S_.BroadcastsInDim S1x1024 (![] : Fin 0 → Fin S1x1024.rank)
  bcast_S1x1024_S2048x1024_0_1 : S1x1024.BroadcastsInDim S2048x1024 (![0, 1] : Fin 2 → Fin S2048x1024.rank)
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  shapeCasts_S2048x1024_S2048x1024x1 : S2048x1024.ShapeCasts S2048x1024x1
  bcast_S_S2048x1024x1 : S_.BroadcastsInDim S2048x1024x1 (![] : Fin 0 → Fin S2048x1024x1.rank)
  bcast_S1_S1x1x1_2 : S1.BroadcastsInDim S1x1x1 (![2] : Fin 1 → Fin S1x1x1.rank)
  bcast_S1x1x1_S2048x1024x1_0_1_2 : S1x1x1.BroadcastsInDim S2048x1024x1 (![0, 1, 2] : Fin 3 → Fin S2048x1024x1.rank)
  reducesTo_S2048x1024x1_S2048x1024_d2 : S2048x1024x1.ReducesTo [2] S2048x1024
  natLt_1_32 : 1 < 32
  bcast_S2048x1024x1_S2048x1024x10_0_1_2 : S2048x1024x1.BroadcastsInDim S2048x1024x10 (![0, 1, 2] : Fin 3 → Fin S2048x1024x10.rank)
  reducesTo_S2048x1024x10_S2048x10_d1 : S2048x1024x10.ReducesTo [1] S2048x10
  dot_S2048x256_S256x26009_S2048x26009_1_0_0_1_n_n_wf : DotDims.WF S2048x256 S256x26009 S2048x26009 [1] [0] [0] [1] [] []
  gather_S1024x127_S2048x1024x2_S2048x1024_n_01_n_n_01_2_11_wf : GatherDims.WF S1024x127 S2048x1024x2 S2048x1024 [] [0, 1] [] [0, 1] [] 2 ![1, 1]
  gather_S2048x26009_S2048x1024x1_S2048x1024_n_1_0_0_1_2_11_wf : GatherDims.WF S2048x26009 S2048x1024x1 S2048x1024 [] [1] [0] [1] [0] 2 ![1, 1]
  gather_S1024x128x10_S2048x1024x2_S2048x1024x10_2_01_n_n_01_2_1110_wf : GatherDims.WF S1024x128x10 S2048x1024x2 S2048x1024x10 [2] [0, 1] [] [0, 1] [] 2 ![1, 1, 10]

variable [Facts₀]

def dot_S2048x256_S256x26009_S2048x26009_1_0_0_1_n_n : DotDims S2048x256 S256x26009 S2048x26009 where
  lhsContracting := [1]
  rhsContracting := [0]
  lhsNonContracting := [0]
  rhsNonContracting := [1]
  lhsBatch := []
  rhsBatch := []
  wf := dot_S2048x256_S256x26009_S2048x26009_1_0_0_1_n_n_wf
def gather_S1024x127_S2048x1024x2_S2048x1024_n_01_n_n_01_2_11 : GatherDims S1024x127 S2048x1024x2 S2048x1024 where
  offsetDims := []
  collapsedSliceDims := [0, 1]
  operandBatchingDims := []
  startIndicesBatchingDims := []
  startIndexMap := [0, 1]
  indexVectorDim := 2
  sliceSizes := ![1, 1]
  wf := gather_S1024x127_S2048x1024x2_S2048x1024_n_01_n_n_01_2_11_wf
def gather_S2048x26009_S2048x1024x1_S2048x1024_n_1_0_0_1_2_11 : GatherDims S2048x26009 S2048x1024x1 S2048x1024 where
  offsetDims := []
  collapsedSliceDims := [1]
  operandBatchingDims := [0]
  startIndicesBatchingDims := [0]
  startIndexMap := [1]
  indexVectorDim := 2
  sliceSizes := ![1, 1]
  wf := gather_S2048x26009_S2048x1024x1_S2048x1024_n_1_0_0_1_2_11_wf
def gather_S1024x128x10_S2048x1024x2_S2048x1024x10_2_01_n_n_01_2_1110 : GatherDims S1024x128x10 S2048x1024x2 S2048x1024x10 where
  offsetDims := [2]
  collapsedSliceDims := [0, 1]
  operandBatchingDims := []
  startIndicesBatchingDims := []
  startIndexMap := [0, 1]
  indexVectorDim := 2
  sliceSizes := ![1, 1, 10]
  wf := gather_S1024x128x10_S2048x1024x2_S2048x1024x10_2_01_n_n_01_2_1110_wf

class Facts : Prop extends Facts₀ where

variable [Facts]
-- ==== Proof.PreDecode.lean ====
/-
  The added precondition, read back. The printed precondition ends in two conjuncts over the integer table
  `ordinals` (the fifth argument): every entry is at least 0 and every entry is below 26009, both compared as
  signed words, each reduced by `and` over the whole table and and-ed onto the finiteness conjuncts. The claim
  that the printed function is 1 therefore says of each entry `w` that 0 ≤ w < 26009 read signed; a word that is
  nonnegative read signed has its top bit clear and reads the same unsigned, so `w.toNat < 26009`: the entry names
  a row of the 26009-row (26112 padded) feature table.
-/
import proofs.«409293_j18485539242413_1_alg».proof.Pre_finite_inputs
import proofs.«409293_j18485539242413_1_alg».proof.Proof.Gen.Pre_finite_inputs
import Idealize.ShloMosaic.Lib.ReduceAll
import Idealize.ShloMosaic.Lib.ValueIdx

namespace Cert.Hand.PreDecode

open Idealize.ShloMosaic Cert.Pre_finite_inputs

/-- The rank-0 shape has one index. -/
instance subsingleton_S_ : Subsingleton S_.Idx := ⟨fun a b => funext fun d => d.elim0⟩

/-- A word that tests `≥ 0` and `< 26009` as a signed word lies in [0, 26009) read signed, and read unsigned. -/
theorem word_range (w : BitVec 32) (h0 : IntOp.cmpi .sge w 0#32 = 1#1) (h1 : IntOp.cmpi .slt w 26009#32 = 1#1) :
    0 ≤ w.toInt ∧ w.toInt < 26009 ∧ w.toNat < 26009 := by
  rw [IntOp.cmpi_sge, show (0#32 : BitVec 32).toInt = 0 from by decide] at h0
  rw [IntOp.cmpi_slt, show (26009#32 : BitVec 32).toInt = 26009 from by decide] at h1
  refine ⟨h0, h1, ?_⟩
  have hc := BitVec.toInt_eq_toNat_cond w
  have hlt := w.isLt
  split at hc <;> omega

/-- The two added conjuncts at one entry: the entry tests `≥ 0` and `< 26009`. -/
theorem ord_cmp {F : FTy → Type} [FloatOps F] [Cert.Pre_finite_inputs.Facts]
    (a0 : FVec F S2048x256 .f32) (a1 : FVec F S26009x256 .f32) (a2 : FVec F S1024x127 .f32)
    (a3 : FVec F S1024x128x10 .f32) (a4 : IVec S1024x127 32)
    (h : Cert.Pre_finite_inputs.fn (F := F) a0 a1 a2 a3 a4 = fun _ => 1#1) (i : S1024x127.Idx) :
    IntOp.cmpi .sge (a4 i) 0#32 = 1#1 ∧ IntOp.cmpi .slt (a4 i) 26009#32 = 1#1 := by
  have e := congrFun h ValueIdx.ix0
  dsimp only [Cert.Pre_finite_inputs.fn, Cert.Pre_finite_inputs.fn_part1] at e
  -- the last three `and`s at the one index: (finiteness ∧ all ≥ 0) ∧ all < 26009
  obtain ⟨e22, e25⟩ := IntOp.andi_eq_one.1 e
  obtain ⟨_, e21⟩ := IntOp.andi_eq_one.1 e22
  exact ⟨Host.reduce_andi_all _ _ _ _ _ e21 i, Host.reduce_andi_all _ _ _ _ _ e25 i⟩

/-- Every entry of `ordinals` lies in [0, 26009) read signed. -/
theorem ord_range_signed {F : FTy → Type} [FloatOps F] [Cert.Pre_finite_inputs.Facts]
    (a0 : FVec F S2048x256 .f32) (a1 : FVec F S26009x256 .f32) (a2 : FVec F S1024x127 .f32)
    (a3 : FVec F S1024x128x10 .f32) (a4 : IVec S1024x127 32)
    (h : Cert.Pre_finite_inputs.fn (F := F) a0 a1 a2 a3 a4 = fun _ => 1#1) :
    ∀ i : S1024x127.Idx, 0 ≤ (a4 i).toInt ∧ (a4 i).toInt < 26009 := fun i =>
  have c := ord_cmp a0 a1 a2 a3 a4 h i
  have r := word_range (a4 i) c.1 c.2
  ⟨r.1, r.2.1⟩

/-- Every entry of `ordinals`, read unsigned, is below 26009. -/
theorem ord_range {F : FTy → Type} [FloatOps F] [Cert.Pre_finite_inputs.Facts]
    (a0 : FVec F S2048x256 .f32) (a1 : FVec F S26009x256 .f32) (a2 : FVec F S1024x127 .f32)
    (a3 : FVec F S1024x128x10 .f32) (a4 : IVec S1024x127 32)
    (h : Cert.Pre_finite_inputs.fn (F := F) a0 a1 a2 a3 a4 = fun _ => 1#1) :
    ∀ i : S1024x127.Idx, (a4 i).toNat < 26009 := fun i =>
  have c := ord_cmp a0 a1 a2 a3 a4 h i
  (word_range (a4 i) c.1 c.2).2.2

/-- A one-row, 2048-column block starting at row `v`, column 0 fits the [26112 × 2048] array when `v < 26009`. -/
theorem row_inb (v : BitVec 32) (h : v.toNat < 26009) :
    ∀ a : Fin 2, (![v.toNat, 0] : Fin 2 → Nat) a + (![1, 2048] : Fin 2 → Nat) a ≤ (![26112, 2048] : Fin 2 → Nat) a := by
  refine Fin.forall_fin_two.2 ⟨?_, ?_⟩
  · show v.toNat + 1 ≤ 26112
    omega
  · show 0 + 2048 ≤ 2048
    omega

end Cert.Hand.PreDecode
-- ==== Proof.RefOps.lean ====
/- The table only: @main's host operations in program order, one list per printed window main_partK, each
   call replaced by the callee's operations over the call's record of buffers (a nested call likewise). -/
import proofs.«409293_j18485539242413_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 81 operations of main_part0 (its 60 statements, calls replaced by their bodies). -/
abbrev ops_0 : List (HloOp τ sig (Elt F)) :=
  [ StableHlo.unary main_arg1 main_v0 ((transpose S256x26009 [1, 0] · transposes_S26009x256_S256x26009_1_0) : (⟨S26009x256, .f32⟩ : BufTy).Contents (Elt F) → (⟨S256x26009, .f32⟩ : BufTy).Contents (Elt F)),
    StableHlo.binary main_arg0 main_v0 main_v1 ((fun l r => Host.dotGeneral dot_S2048x256_S256x26009_S2048x26009_1_0_0_1_n_n none l r) : (⟨S2048x256, .f32⟩ : BufTy).Contents (Elt F) → (⟨S256x26009, .f32⟩ : BufTy).Contents (Elt F) → (⟨S2048x26009, .f32⟩ : BufTy).Contents (Elt F)),
    StableHlo.nullary main_cst (constant S_ .f32 0x00000000#32),
    StableHlo.binary main_v1 main_cst main_v2 ((fun x v => Host.reduceAdd x v reducesTo_S2048x26009_S26009_d0 h_S_) : (⟨S2048x26009, .f32⟩ : BufTy).Contents (Elt F) → (⟨S_, .f32⟩ : BufTy).Contents (Elt F) → (⟨S26009, .f32⟩ : BufTy).Contents (Elt F)),
    StableHlo.nullary main_cst_0 (constant S_ .f32 0x45000000#32),
    StableHlo.unary main_cst_0 main_v3 (broadcastInDim S26009 ![] bcast_S_S26009 : (⟨S_, .f32⟩ : BufTy).Contents (Elt F) → (⟨S26009, .f32⟩ : BufTy).Contents (Elt F)),
    StableHlo.binary main_v2 main_v3 main_v4 (Host.divf : (⟨S26009, .f32⟩ : BufTy).Contents (Elt F) → (⟨S26009, .f32⟩ : BufTy).Contents (Elt F) → (⟨S26009, .f32⟩ : BufTy).Contents (Elt F)),
    StableHlo.nullary main_c (constantI S_ 32 0#32),
    StableHlo.TRef.nullary main_call0.cst (constant S_ .f32 0x00000000#32),
    StableHlo.TRef.binary (.of main_v1 : StableHlo.TRef sig ⟨S2048x26009, .f32⟩) main_call0.cst main_call0.v0 (fun x v => Host.reduceAdd x v reducesTo_S2048x26009_S26009_d0 h_S_),
    StableHlo.TRef.unary main_call0.v0 main_call0.v1 (broadcastInDim S1x26009 ![1] bcast_S26009_S1x26009_1),
    StableHlo.TRef.nullary main_call0.cst_0 (constant S_ .f32 0x45000000#32),
    StableHlo.TRef.unary main_call0.cst_0 main_call0.v2 (broadcastInDim S1x26009 ![] bcast_S_S1x26009),
    StableHlo.TRef.binary main_call0.v1 main_call0.v2 main_call0.v3 Host.divf,
    StableHlo.TRef.unary main_call0.v3 main_call0.v4 (broadcastInDim S2048x26009 ![0, 1] bcast_S1x26009_S2048x26009_0_1),
    StableHlo.TRef.binary (.of main_v1 : StableHlo.TRef sig ⟨S2048x26009, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x45000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2048x26009_S26009_d0 h_S_),
    StableHlo.TRef.unary main_call0.v8 main_call0.v10 (broadcastInDim S26009 ![] bcast_S_S26009),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S26009 ![] bcast_S_S26009),
    StableHlo.TRef.ternary main_call0.v12 main_call0.v11 main_call0.call0.v1 main_call0.call0.v2 (fun p a b => select (broadcastInDim S26009 ![] bcast_S_S26009 p) a b),
    StableHlo.unary main_v4 main_v6 (broadcastInDim S1x26009 ![1] bcast_S26009_S1x26009_1 : (⟨S26009, .f32⟩ : BufTy).Contents (Elt F) → (⟨S1x26009, .f32⟩ : BufTy).Contents (Elt F)),
    StableHlo.unary main_v6 main_v7 (broadcastInDim S2048x26009 ![0, 1] bcast_S1x26009_S2048x26009_0_1 : (⟨S1x26009, .f32⟩ : BufTy).Contents (Elt F) → (⟨S2048x26009, .f32⟩ : BufTy).Contents (Elt F)),
    StableHlo.binary main_v1 main_v7 main_v8 (subf : (⟨S2048x26009, .f32⟩ : BufTy).Contents (Elt F) → (⟨S2048x26009, .f32⟩ : BufTy).Contents (Elt F) → (⟨S2048x26009, .f32⟩ : BufTy).Contents (Elt F)),
    StableHlo.nullary main_cst_1 (constant S_ .f32 0x3727C5AC#32),
    StableHlo.unary main_cst_1 main_v9 (broadcastInDim S26009 ![] bcast_S_S26009 : (⟨S_, .f32⟩ : BufTy).Contents (Elt F) → (⟨S26009, .f32⟩ : BufTy).Contents (Elt F)),
    StableHlo.binary main_v5 main_v9 main_v10 (addf : (⟨S26009, .f32⟩ : BufTy).Contents (Elt F) → (⟨S26009, .f32⟩ : BufTy).Contents (Elt F) → (⟨S26009, .f32⟩ : BufTy).Contents (Elt F)),
    StableHlo.unary main_v10 main_v11 (Host.rsqrt : (⟨S26009, .f32⟩ : BufTy).Contents (Elt F) → (⟨S26009, .f32⟩ : BufTy).Contents (Elt F)),
    StableHlo.unary main_v11 main_v12 (broadcastInDim S1x26009 ![1] bcast_S26009_S1x26009_1 : (⟨S26009, .f32⟩ : BufTy).Contents (Elt F) → (⟨S1x26009, .f32⟩ : BufTy).Contents (Elt F)),
    StableHlo.unary main_v12 main_v13 (broadcastInDim S2048x26009 ![0, 1] bcast_S1x26009_S2048x26009_0_1 : (⟨S1x26009, .f32⟩ : BufTy).Contents (Elt F) → (⟨S2048x26009, .f32⟩ : BufTy).Contents (Elt F)),
    StableHlo.binary main_v8 main_v13 main_v14 (mulf : (⟨S2048x26009, .f32⟩ : BufTy).Contents (Elt F) → (⟨S2048x26009, .f32⟩ : BufTy).Contents (Elt F) → (⟨S2048x26009, .f32⟩ : BufTy).Contents (Elt F)),
    StableHlo.nullary main_v15 (iotaInDim S1024 32 0),
    StableHlo.unary main_v15 main_v16 (broadcastInDim S1x1024 ![1] bcast_S1024_S1x1024_1 : (⟨S1024, .i32⟩ : BufTy).Contents (Elt F) → (⟨S1x1024, .i32⟩ : BufTy).Contents (Elt F)),
    StableHlo.nullary main_c_2 (constantI S_ 32 0#32),
    StableHlo.unary main_c_2 main_v17 (broadcastInDim S2048x1024 ![] bcast_S_S2048x1024 : (⟨S_, .i32⟩ : BufTy).Contents (Elt F) → (⟨S2048x1024, .i32⟩ : BufTy).Contents (Elt F)),
    StableHlo.nullary main_cst_3 (constant S_ .f32 0x7F800000#32),
    StableHlo.unary main_cst_3 main_v18 (broadcastInDim S2048x1024 ![] bcast_S_S2048x1024 : (⟨S_, .f32⟩ : BufTy).Contents (Elt F) → (⟨S2048x1024, .f32⟩ : BufTy).Contents (Elt F)),
    StableHlo.nullary main_c_4 (constantI S_ 32 0#32),
    StableHlo.unary main_c_4 main_v19 (broadcastInDim S1x1024 ![] bcast_S_S1x1024 : (⟨S_, .i32⟩ : BufTy).Contents (Elt F) → (⟨S1x1024, .i32⟩ : BufTy).Contents (Elt F)),
    StableHlo.binary main_v16 main_v19 main_v20 (cmpi .slt : (⟨S1x1024, .i32⟩ : BufTy).Contents (Elt F) → (⟨S1x1024, .i32⟩ : BufTy).Contents (Elt F) → (⟨S1x1024, .i1⟩ : BufTy).Contents (Elt F)),
    StableHlo.nullary main_c_5 (constantI S_ 32 1024#32),
    StableHlo.unary main_c_5 main_v21 (broadcastInDim S1x1024 ![] bcast_S_S1x1024 : (⟨S_, .i32⟩ : BufTy).Contents (Elt F) → (⟨S1x1024, .i32⟩ : BufTy).Contents (Elt F)),
    StableHlo.binary main_v16 main_v21 main_v22 (addi : (⟨S1x1024, .i32⟩ : BufTy).Contents (Elt F) → (⟨S1x1024, .i32⟩ : BufTy).Contents (Elt F) → (⟨S1x1024, .i32⟩ : BufTy).Contents (Elt F)),
    StableHlo.ternary main_v20 main_v22 main_v16 main_v23 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_6 (constantI S_ 32 0#32),
    StableHlo.unary main_c_6 main_v24 (broadcastInDim S2048x1024 ![] bcast_S_S2048x1024 : (⟨S_, .i32⟩ : BufTy).Contents (Elt F) → (⟨S2048x1024, .i32⟩ : BufTy).Contents (Elt F)),
    StableHlo.binary main_v17 main_v24 main_v25 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_7 (constantI S_ 32 127#32),
    StableHlo.unary main_c_7 main_v26 (broadcastInDim S2048x1024 ![] bcast_S_S2048x1024 : (⟨S_, .i32⟩ : BufTy).Contents (Elt F) → (⟨S2048x1024, .i32⟩ : BufTy).Contents (Elt F)),
    StableHlo.binary main_v17 main_v26 main_v27 (addi : (⟨S2048x1024, .i32⟩ : BufTy).Contents (Elt F) → (⟨S2048x1024, .i32⟩ : BufTy).Contents (Elt F) → (⟨S2048x1024, .i32⟩ : BufTy).Contents (Elt F)),
    StableHlo.ternary main_v25 main_v27 main_v17 main_v28 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v23 main_v29 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v29 main_v30 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v28 main_v31 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v30 main_v31 main_v32 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg4 main_v32 main_v33 ((fun x i => Host.gather gather_S1024x127_S2048x1024x2_S2048x1024_n_01_n_n_01_2_11 x i) : (⟨S1024x127, .i32⟩ : BufTy).Contents (Elt F) → (⟨S2048x1024x2, .i32⟩ : BufTy).Contents (Elt F) → (⟨S2048x1024, .i32⟩ : BufTy).Contents (Elt F)),
    StableHlo.nullary main_c_8 (constantI S_ 32 0#32),
    StableHlo.unary main_c_8 main_v34 (broadcastInDim S1x1024 ![] bcast_S_S1x1024 : (⟨S_, .i32⟩ : BufTy).Contents (Elt F) → (⟨S1x1024, .i32⟩ : BufTy).Contents (Elt F)),
    StableHlo.binary main_v16 main_v34 main_v35 (cmpi .slt : (⟨S1x1024, .i32⟩ : BufTy).Contents (Elt F) → (⟨S1x1024, .i32⟩ : BufTy).Contents (Elt F) → (⟨S1x1024, .i1⟩ : BufTy).Contents (Elt F)),
    StableHlo.nullary main_c_9 (constantI S_ 32 1024#32),
    StableHlo.unary main_c_9 main_v36 (broadcastInDim S1x1024 ![] bcast_S_S1x1024 : (⟨S_, .i32⟩ : BufTy).Contents (Elt F) → (⟨S1x1024, .i32⟩ : BufTy).Contents (Elt F)),
    StableHlo.binary main_v16 main_v36 main_v37 (addi : (⟨S1x1024, .i32⟩ : BufTy).Contents (Elt F) → (⟨S1x1024, .i32⟩ : BufTy).Contents (Elt F) → (⟨S1x1024, .i32⟩ : BufTy).Contents (Elt F)),
    StableHlo.ternary main_v35 main_v37 main_v16 main_v38 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_10 (constantI S_ 32 0#32),
    StableHlo.unary main_c_10 main_v39 (broadcastInDim S2048x1024 ![] bcast_S_S2048x1024 : (⟨S_, .i32⟩ : BufTy).Contents (Elt F) → (⟨S2048x1024, .i32⟩ : BufTy).Contents (Elt F)),
    StableHlo.binary main_v17 main_v39 main_v40 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_11 (constantI S_ 32 127#32),
    StableHlo.unary main_c_11 main_v41 (broadcastInDim S2048x1024 ![] bcast_S_S2048x1024 : (⟨S_, .i32⟩ : BufTy).Contents (Elt F) → (⟨S2048x1024, .i32⟩ : BufTy).Contents (Elt F)),
    StableHlo.binary main_v17 main_v41 main_v42 (addi : (⟨S2048x1024, .i32⟩ : BufTy).Contents (Elt F) → (⟨S2048x1024, .i32⟩ : BufTy).Contents (Elt F) → (⟨S2048x1024, .i32⟩ : BufTy).Contents (Elt F)),
    StableHlo.ternary main_v40 main_v42 main_v17 main_v43 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v38 main_v44 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v44 main_v45 (broadcastInDim S2048x1024x1 ![0, 1] bcast_S2048x1024_S2048x1024x1_0_1 : (⟨S2048x1024, .i32⟩ : BufTy).Contents (Elt F) → (⟨S2048x1024x1, .i32⟩ : BufTy).Contents (Elt F)) ]

set_option maxHeartbeats 40000000 in
/-- The 102 operations of main_part1 (its 60 statements, calls replaced by their bodies). -/
abbrev ops_1 : List (HloOp τ sig (Elt F)) :=
  [ StableHlo.unary main_v43 main_v46 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v45 main_v46 main_v47 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg2 main_v47 main_v48 ((fun x i => Host.gather gather_S1024x127_S2048x1024x2_S2048x1024_n_01_n_n_01_2_11 x i) : (⟨S1024x127, .f32⟩ : BufTy).Contents (Elt F) → (⟨S2048x1024x2, .i32⟩ : BufTy).Contents (Elt F) → (⟨S2048x1024, .f32⟩ : BufTy).Contents (Elt F)),
    StableHlo.TRef.nullary main_call1.c (constantI S_ 32 0#32),
    StableHlo.TRef.unary main_call1.c main_call1.v0 (broadcastInDim S2048x1024 ![] bcast_S_S2048x1024),
    StableHlo.TRef.binary (.of main_v33 : StableHlo.TRef sig ⟨S2048x1024, .i32⟩) main_call1.v0 main_call1.v1 (cmpi .slt),
    StableHlo.TRef.nullary main_call1.c_0 (constantI S_ 32 26009#32),
    StableHlo.TRef.unary main_call1.c_0 main_call1.v2 (broadcastInDim S2048x1024 ![] bcast_S_S2048x1024),
    StableHlo.TRef.binary (.of main_v33 : StableHlo.TRef sig ⟨S2048x1024, .i32⟩) main_call1.v2 main_call1.v3 addi,
    StableHlo.TRef.ternary main_call1.v1 main_call1.v3 (.of main_v33 : StableHlo.TRef sig ⟨S2048x1024, .i32⟩) main_call1.v4 select,
    StableHlo.TRef.reshape main_call1.v4 main_call1.v5 rfl shapeCasts_S2048x1024_S2048x1024x1,
    StableHlo.TRef.nullary main_call1.c_1 (constantI S1 32 26008#32),
    StableHlo.TRef.nullary main_call1.c_2 (constantI S_ 32 0#32),
    StableHlo.TRef.unary main_call1.c_2 main_call1.v6 (broadcastInDim S2048x1024x1 ![] bcast_S_S2048x1024x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S2048x1024x1 ![0, 1, 2] bcast_S1x1x1_S2048x1024x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S2048x1024x1_S2048x1024_d2 h_S_),
    StableHlo.TRef.binary (.of main_v14 : StableHlo.TRef sig ⟨S2048x26009, .f32⟩) main_call1.v5 main_call1.v13 (fun x i => Host.gather gather_S2048x26009_S2048x1024x1_S2048x1024_n_1_0_0_1_2_11 x i),
    StableHlo.TRef.nullary main_call1.cst (constant S_ .f32 0x7FC00000#32),
    StableHlo.TRef.unary main_call1.cst main_call1.v14 (broadcastInDim S2048x1024 ![] bcast_S_S2048x1024),
    StableHlo.TRef.ternary main_call1.v12 main_call1.v13 main_call1.v14 main_call1.v15 select,
    StableHlo.binary main_v49 main_v48 main_v50 (subf : (⟨S2048x1024, .f32⟩ : BufTy).Contents (Elt F) → (⟨S2048x1024, .f32⟩ : BufTy).Contents (Elt F) → (⟨S2048x1024, .f32⟩ : BufTy).Contents (Elt F)),
    StableHlo.unary main_v50 main_v51 (Host.absf : (⟨S2048x1024, .f32⟩ : BufTy).Contents (Elt F) → (⟨S2048x1024, .f32⟩ : BufTy).Contents (Elt F)),
    StableHlo.binary main_v18 main_v51 main_v52 (minimumf : (⟨S2048x1024, .f32⟩ : BufTy).Contents (Elt F) → (⟨S2048x1024, .f32⟩ : BufTy).Contents (Elt F) → (⟨S2048x1024, .f32⟩ : BufTy).Contents (Elt F)),
    StableHlo.nullary main_c_12 (constantI S_ 32 2#32),
    StableHlo.unary main_c_12 main_v53 (broadcastInDim S2048x1024 ![] bcast_S_S2048x1024 : (⟨S_, .i32⟩ : BufTy).Contents (Elt F) → (⟨S2048x1024, .i32⟩ : BufTy).Contents (Elt F)),
    StableHlo.binary main_v53 main_v17 main_v54 (muli : (⟨S2048x1024, .i32⟩ : BufTy).Contents (Elt F) → (⟨S2048x1024, .i32⟩ : BufTy).Contents (Elt F) → (⟨S2048x1024, .i32⟩ : BufTy).Contents (Elt F)),
    StableHlo.nullary main_c_13 (constantI S_ 32 1#32),
    StableHlo.unary main_c_13 main_v55 (broadcastInDim S2048x1024 ![] bcast_S_S2048x1024 : (⟨S_, .i32⟩ : BufTy).Contents (Elt F) → (⟨S2048x1024, .i32⟩ : BufTy).Contents (Elt F)),
    StableHlo.binary main_v54 main_v55 main_v56 (addi : (⟨S2048x1024, .i32⟩ : BufTy).Contents (Elt F) → (⟨S2048x1024, .i32⟩ : BufTy).Contents (Elt F) → (⟨S2048x1024, .i32⟩ : BufTy).Contents (Elt F)),
    StableHlo.nullary main_cst_14 (constant S_ .f32 0x00000000#32),
    StableHlo.unary main_cst_14 main_v57 (broadcastInDim S2048x1024 ![] bcast_S_S2048x1024 : (⟨S_, .f32⟩ : BufTy).Contents (Elt F) → (⟨S2048x1024, .f32⟩ : BufTy).Contents (Elt F)),
    StableHlo.binary main_v50 main_v57 main_v58 (cmpf .ogt : (⟨S2048x1024, .f32⟩ : BufTy).Contents (Elt F) → (⟨S2048x1024, .f32⟩ : BufTy).Contents (Elt F) → (⟨S2048x1024, .i1⟩ : BufTy).Contents (Elt F)),
    StableHlo.unary main_v58 main_v59 ((extui 32 · natLt_1_32) : (⟨S2048x1024, .i1⟩ : BufTy).Contents (Elt F) → (⟨S2048x1024, .i32⟩ : BufTy).Contents (Elt F)),
    StableHlo.binary main_v56 main_v59 main_v60 (addi : (⟨S2048x1024, .i32⟩ : BufTy).Contents (Elt F) → (⟨S2048x1024, .i32⟩ : BufTy).Contents (Elt F) → (⟨S2048x1024, .i32⟩ : BufTy).Contents (Elt F)),
    StableHlo.nullary main_c_15 (constantI S_ 32 0#32),
    StableHlo.unary main_c_15 main_v61 (broadcastInDim S1x1024 ![] bcast_S_S1x1024 : (⟨S_, .i32⟩ : BufTy).Contents (Elt F) → (⟨S1x1024, .i32⟩ : BufTy).Contents (Elt F)),
    StableHlo.binary main_v16 main_v61 main_v62 (cmpi .slt : (⟨S1x1024, .i32⟩ : BufTy).Contents (Elt F) → (⟨S1x1024, .i32⟩ : BufTy).Contents (Elt F) → (⟨S1x1024, .i1⟩ : BufTy).Contents (Elt F)),
    StableHlo.nullary main_c_16 (constantI S_ 32 1024#32),
    StableHlo.unary main_c_16 main_v63 (broadcastInDim S1x1024 ![] bcast_S_S1x1024 : (⟨S_, .i32⟩ : BufTy).Contents (Elt F) → (⟨S1x1024, .i32⟩ : BufTy).Contents (Elt F)),
    StableHlo.binary main_v16 main_v63 main_v64 (addi : (⟨S1x1024, .i32⟩ : BufTy).Contents (Elt F) → (⟨S1x1024, .i32⟩ : BufTy).Contents (Elt F) → (⟨S1x1024, .i32⟩ : BufTy).Contents (Elt F)),
    StableHlo.ternary main_v62 main_v64 main_v16 main_v65 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_17 (constantI S_ 32 0#32),
    StableHlo.unary main_c_17 main_v66 (broadcastInDim S2048x1024 ![] bcast_S_S2048x1024 : (⟨S_, .i32⟩ : BufTy).Contents (Elt F) → (⟨S2048x1024, .i32⟩ : BufTy).Contents (Elt F)),
    StableHlo.binary main_v60 main_v66 main_v67 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_18 (constantI S_ 32 127#32),
    StableHlo.unary main_c_18 main_v68 (broadcastInDim S2048x1024 ![] bcast_S_S2048x1024 : (⟨S_, .i32⟩ : BufTy).Contents (Elt F) → (⟨S2048x1024, .i32⟩ : BufTy).Contents (Elt F)),
    StableHlo.binary main_v60 main_v68 main_v69 (addi : (⟨S2048x1024, .i32⟩ : BufTy).Contents (Elt F) → (⟨S2048x1024, .i32⟩ : BufTy).Contents (Elt F) → (⟨S2048x1024, .i32⟩ : BufTy).Contents (Elt F)),
    StableHlo.ternary main_v67 main_v69 main_v60 main_v70 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v65 main_v71 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v71 main_v72 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v70 main_v73 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v72 main_v73 main_v74 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg4 main_v74 main_v75 ((fun x i => Host.gather gather_S1024x127_S2048x1024x2_S2048x1024_n_01_n_n_01_2_11 x i) : (⟨S1024x127, .i32⟩ : BufTy).Contents (Elt F) → (⟨S2048x1024x2, .i32⟩ : BufTy).Contents (Elt F) → (⟨S2048x1024, .i32⟩ : BufTy).Contents (Elt F)),
    StableHlo.nullary main_c_19 (constantI S_ 32 0#32),
    StableHlo.unary main_c_19 main_v76 (broadcastInDim S1x1024 ![] bcast_S_S1x1024 : (⟨S_, .i32⟩ : BufTy).Contents (Elt F) → (⟨S1x1024, .i32⟩ : BufTy).Contents (Elt F)),
    StableHlo.binary main_v16 main_v76 main_v77 (cmpi .slt : (⟨S1x1024, .i32⟩ : BufTy).Contents (Elt F) → (⟨S1x1024, .i32⟩ : BufTy).Contents (Elt F) → (⟨S1x1024, .i1⟩ : BufTy).Contents (Elt F)),
    StableHlo.nullary main_c_20 (constantI S_ 32 1024#32),
    StableHlo.unary main_c_20 main_v78 (broadcastInDim S1x1024 ![] bcast_S_S1x1024 : (⟨S_, .i32⟩ : BufTy).Contents (Elt F) → (⟨S1x1024, .i32⟩ : BufTy).Contents (Elt F)),
    StableHlo.binary main_v16 main_v78 main_v79 (addi : (⟨S1x1024, .i32⟩ : BufTy).Contents (Elt F) → (⟨S1x1024, .i32⟩ : BufTy).Contents (Elt F) → (⟨S1x1024, .i32⟩ : BufTy).Contents (Elt F)),
    StableHlo.ternary main_v77 main_v79 main_v16 main_v80 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_21 (constantI S_ 32 0#32),
    StableHlo.unary main_c_21 main_v81 (broadcastInDim S2048x1024 ![] bcast_S_S2048x1024 : (⟨S_, .i32⟩ : BufTy).Contents (Elt F) → (⟨S2048x1024, .i32⟩ : BufTy).Contents (Elt F)),
    StableHlo.binary main_v60 main_v81 main_v82 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_22 (constantI S_ 32 127#32),
    StableHlo.unary main_c_22 main_v83 (broadcastInDim S2048x1024 ![] bcast_S_S2048x1024 : (⟨S_, .i32⟩ : BufTy).Contents (Elt F) → (⟨S2048x1024, .i32⟩ : BufTy).Contents (Elt F)),
    StableHlo.binary main_v60 main_v83 main_v84 (addi : (⟨S2048x1024, .i32⟩ : BufTy).Contents (Elt F) → (⟨S2048x1024, .i32⟩ : BufTy).Contents (Elt F) → (⟨S2048x1024, .i32⟩ : BufTy).Contents (Elt F)),
    StableHlo.ternary main_v82 main_v84 main_v60 main_v85 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v80 main_v86 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v86 main_v87 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v85 main_v88 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v87 main_v88 main_v89 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg2 main_v89 main_v90 ((fun x i => Host.gather gather_S1024x127_S2048x1024x2_S2048x1024_n_01_n_n_01_2_11 x i) : (⟨S1024x127, .f32⟩ : BufTy).Contents (Elt F) → (⟨S2048x1024x2, .i32⟩ : BufTy).Contents (Elt F) → (⟨S2048x1024, .f32⟩ : BufTy).Contents (Elt F)),
    StableHlo.TRef.nullary main_call2.c (constantI S_ 32 0#32),
    StableHlo.TRef.unary main_call2.c main_call2.v0 (broadcastInDim S2048x1024 ![] bcast_S_S2048x1024),
    StableHlo.TRef.binary (.of main_v75 : StableHlo.TRef sig ⟨S2048x1024, .i32⟩) main_call2.v0 main_call2.v1 (cmpi .slt),
    StableHlo.TRef.nullary main_call2.c_0 (constantI S_ 32 26009#32),
    StableHlo.TRef.unary main_call2.c_0 main_call2.v2 (broadcastInDim S2048x1024 ![] bcast_S_S2048x1024),
    StableHlo.TRef.binary (.of main_v75 : StableHlo.TRef sig ⟨S2048x1024, .i32⟩) main_call2.v2 main_call2.v3 addi,
    StableHlo.TRef.ternary main_call2.v1 main_call2.v3 (.of main_v75 : StableHlo.TRef sig ⟨S2048x1024, .i32⟩) main_call2.v4 select,
    StableHlo.TRef.reshape main_call2.v4 main_call2.v5 rfl shapeCasts_S2048x1024_S2048x1024x1,
    StableHlo.TRef.nullary main_call2.c_1 (constantI S1 32 26008#32),
    StableHlo.TRef.nullary main_call2.c_2 (constantI S_ 32 0#32),
    StableHlo.TRef.unary main_call2.c_2 main_call2.v6 (broadcastInDim S2048x1024x1 ![] bcast_S_S2048x1024x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S2048x1024x1 ![0, 1, 2] bcast_S1x1x1_S2048x1024x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S2048x1024x1_S2048x1024_d2 h_S_),
    StableHlo.TRef.binary (.of main_v14 : StableHlo.TRef sig ⟨S2048x26009, .f32⟩) main_call2.v5 main_call2.v13 (fun x i => Host.gather gather_S2048x26009_S2048x1024x1_S2048x1024_n_1_0_0_1_2_11 x i),
    StableHlo.TRef.nullary main_call2.cst (constant S_ .f32 0x7FC00000#32),
    StableHlo.TRef.unary main_call2.cst main_call2.v14 (broadcastInDim S2048x1024 ![] bcast_S_S2048x1024),
    StableHlo.TRef.ternary main_call2.v12 main_call2.v13 main_call2.v14 main_call2.v15 select,
    StableHlo.binary main_v91 main_v90 main_v92 (subf : (⟨S2048x1024, .f32⟩ : BufTy).Contents (Elt F) → (⟨S2048x1024, .f32⟩ : BufTy).Contents (Elt F) → (⟨S2048x1024, .f32⟩ : BufTy).Contents (Elt F)),
    StableHlo.unary main_v92 main_v93 (Host.absf : (⟨S2048x1024, .f32⟩ : BufTy).Contents (Elt F) → (⟨S2048x1024, .f32⟩ : BufTy).Contents (Elt F)),
    StableHlo.binary main_v52 main_v93 main_v94 (minimumf : (⟨S2048x1024, .f32⟩ : BufTy).Contents (Elt F) → (⟨S2048x1024, .f32⟩ : BufTy).Contents (Elt F) → (⟨S2048x1024, .f32⟩ : BufTy).Contents (Elt F)) ]

set_option maxHeartbeats 40000000 in
/-- The 81 operations of main_part2 (its 60 statements, calls replaced by their bodies). -/
abbrev ops_2 : List (HloOp τ sig (Elt F)) :=
  [ StableHlo.nullary main_c_23 (constantI S_ 32 2#32),
    StableHlo.unary main_c_23 main_v95 (broadcastInDim S2048x1024 ![] bcast_S_S2048x1024 : (⟨S_, .i32⟩ : BufTy).Contents (Elt F) → (⟨S2048x1024, .i32⟩ : BufTy).Contents (Elt F)),
    StableHlo.binary main_v95 main_v60 main_v96 (muli : (⟨S2048x1024, .i32⟩ : BufTy).Contents (Elt F) → (⟨S2048x1024, .i32⟩ : BufTy).Contents (Elt F) → (⟨S2048x1024, .i32⟩ : BufTy).Contents (Elt F)),
    StableHlo.nullary main_c_24 (constantI S_ 32 1#32),
    StableHlo.unary main_c_24 main_v97 (broadcastInDim S2048x1024 ![] bcast_S_S2048x1024 : (⟨S_, .i32⟩ : BufTy).Contents (Elt F) → (⟨S2048x1024, .i32⟩ : BufTy).Contents (Elt F)),
    StableHlo.binary main_v96 main_v97 main_v98 (addi : (⟨S2048x1024, .i32⟩ : BufTy).Contents (Elt F) → (⟨S2048x1024, .i32⟩ : BufTy).Contents (Elt F) → (⟨S2048x1024, .i32⟩ : BufTy).Contents (Elt F)),
    StableHlo.nullary main_cst_25 (constant S_ .f32 0x00000000#32),
    StableHlo.unary main_cst_25 main_v99 (broadcastInDim S2048x1024 ![] bcast_S_S2048x1024 : (⟨S_, .f32⟩ : BufTy).Contents (Elt F) → (⟨S2048x1024, .f32⟩ : BufTy).Contents (Elt F)),
    StableHlo.binary main_v92 main_v99 main_v100 (cmpf .ogt : (⟨S2048x1024, .f32⟩ : BufTy).Contents (Elt F) → (⟨S2048x1024, .f32⟩ : BufTy).Contents (Elt F) → (⟨S2048x1024, .i1⟩ : BufTy).Contents (Elt F)),
    StableHlo.unary main_v100 main_v101 ((extui 32 · natLt_1_32) : (⟨S2048x1024, .i1⟩ : BufTy).Contents (Elt F) → (⟨S2048x1024, .i32⟩ : BufTy).Contents (Elt F)),
    StableHlo.binary main_v98 main_v101 main_v102 (addi : (⟨S2048x1024, .i32⟩ : BufTy).Contents (Elt F) → (⟨S2048x1024, .i32⟩ : BufTy).Contents (Elt F) → (⟨S2048x1024, .i32⟩ : BufTy).Contents (Elt F)),
    StableHlo.nullary main_c_26 (constantI S_ 32 0#32),
    StableHlo.unary main_c_26 main_v103 (broadcastInDim S1x1024 ![] bcast_S_S1x1024 : (⟨S_, .i32⟩ : BufTy).Contents (Elt F) → (⟨S1x1024, .i32⟩ : BufTy).Contents (Elt F)),
    StableHlo.binary main_v16 main_v103 main_v104 (cmpi .slt : (⟨S1x1024, .i32⟩ : BufTy).Contents (Elt F) → (⟨S1x1024, .i32⟩ : BufTy).Contents (Elt F) → (⟨S1x1024, .i1⟩ : BufTy).Contents (Elt F)),
    StableHlo.nullary main_c_27 (constantI S_ 32 1024#32),
    StableHlo.unary main_c_27 main_v105 (broadcastInDim S1x1024 ![] bcast_S_S1x1024 : (⟨S_, .i32⟩ : BufTy).Contents (Elt F) → (⟨S1x1024, .i32⟩ : BufTy).Contents (Elt F)),
    StableHlo.binary main_v16 main_v105 main_v106 (addi : (⟨S1x1024, .i32⟩ : BufTy).Contents (Elt F) → (⟨S1x1024, .i32⟩ : BufTy).Contents (Elt F) → (⟨S1x1024, .i32⟩ : BufTy).Contents (Elt F)),
    StableHlo.ternary main_v104 main_v106 main_v16 main_v107 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_28 (constantI S_ 32 0#32),
    StableHlo.unary main_c_28 main_v108 (broadcastInDim S2048x1024 ![] bcast_S_S2048x1024 : (⟨S_, .i32⟩ : BufTy).Contents (Elt F) → (⟨S2048x1024, .i32⟩ : BufTy).Contents (Elt F)),
    StableHlo.binary main_v102 main_v108 main_v109 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_29 (constantI S_ 32 127#32),
    StableHlo.unary main_c_29 main_v110 (broadcastInDim S2048x1024 ![] bcast_S_S2048x1024 : (⟨S_, .i32⟩ : BufTy).Contents (Elt F) → (⟨S2048x1024, .i32⟩ : BufTy).Contents (Elt F)),
    StableHlo.binary main_v102 main_v110 main_v111 (addi : (⟨S2048x1024, .i32⟩ : BufTy).Contents (Elt F) → (⟨S2048x1024, .i32⟩ : BufTy).Contents (Elt F) → (⟨S2048x1024, .i32⟩ : BufTy).Contents (Elt F)),
    StableHlo.ternary main_v109 main_v111 main_v102 main_v112 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v107 main_v113 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v113 main_v114 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v112 main_v115 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v114 main_v115 main_v116 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg4 main_v116 main_v117 ((fun x i => Host.gather gather_S1024x127_S2048x1024x2_S2048x1024_n_01_n_n_01_2_11 x i) : (⟨S1024x127, .i32⟩ : BufTy).Contents (Elt F) → (⟨S2048x1024x2, .i32⟩ : BufTy).Contents (Elt F) → (⟨S2048x1024, .i32⟩ : BufTy).Contents (Elt F)),
    StableHlo.nullary main_c_30 (constantI S_ 32 0#32),
    StableHlo.unary main_c_30 main_v118 (broadcastInDim S1x1024 ![] bcast_S_S1x1024 : (⟨S_, .i32⟩ : BufTy).Contents (Elt F) → (⟨S1x1024, .i32⟩ : BufTy).Contents (Elt F)),
    StableHlo.binary main_v16 main_v118 main_v119 (cmpi .slt : (⟨S1x1024, .i32⟩ : BufTy).Contents (Elt F) → (⟨S1x1024, .i32⟩ : BufTy).Contents (Elt F) → (⟨S1x1024, .i1⟩ : BufTy).Contents (Elt F)),
    StableHlo.nullary main_c_31 (constantI S_ 32 1024#32),
    StableHlo.unary main_c_31 main_v120 (broadcastInDim S1x1024 ![] bcast_S_S1x1024 : (⟨S_, .i32⟩ : BufTy).Contents (Elt F) → (⟨S1x1024, .i32⟩ : BufTy).Contents (Elt F)),
    StableHlo.binary main_v16 main_v120 main_v121 (addi : (⟨S1x1024, .i32⟩ : BufTy).Contents (Elt F) → (⟨S1x1024, .i32⟩ : BufTy).Contents (Elt F) → (⟨S1x1024, .i32⟩ : BufTy).Contents (Elt F)),
    StableHlo.ternary main_v119 main_v121 main_v16 main_v122 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_32 (constantI S_ 32 0#32),
    StableHlo.unary main_c_32 main_v123 (broadcastInDim S2048x1024 ![] bcast_S_S2048x1024 : (⟨S_, .i32⟩ : BufTy).Contents (Elt F) → (⟨S2048x1024, .i32⟩ : BufTy).Contents (Elt F)),
    StableHlo.binary main_v102 main_v123 main_v124 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_33 (constantI S_ 32 127#32),
    StableHlo.unary main_c_33 main_v125 (broadcastInDim S2048x1024 ![] bcast_S_S2048x1024 : (⟨S_, .i32⟩ : BufTy).Contents (Elt F) → (⟨S2048x1024, .i32⟩ : BufTy).Contents (Elt F)),
    StableHlo.binary main_v102 main_v125 main_v126 (addi : (⟨S2048x1024, .i32⟩ : BufTy).Contents (Elt F) → (⟨S2048x1024, .i32⟩ : BufTy).Contents (Elt F) → (⟨S2048x1024, .i32⟩ : BufTy).Contents (Elt F)),
    StableHlo.ternary main_v124 main_v126 main_v102 main_v127 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v122 main_v128 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v128 main_v129 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v127 main_v130 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v129 main_v130 main_v131 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg2 main_v131 main_v132 ((fun x i => Host.gather gather_S1024x127_S2048x1024x2_S2048x1024_n_01_n_n_01_2_11 x i) : (⟨S1024x127, .f32⟩ : BufTy).Contents (Elt F) → (⟨S2048x1024x2, .i32⟩ : BufTy).Contents (Elt F) → (⟨S2048x1024, .f32⟩ : BufTy).Contents (Elt F)),
    StableHlo.TRef.nullary main_call3.c (constantI S_ 32 0#32),
    StableHlo.TRef.unary main_call3.c main_call3.v0 (broadcastInDim S2048x1024 ![] bcast_S_S2048x1024),
    StableHlo.TRef.binary (.of main_v117 : StableHlo.TRef sig ⟨S2048x1024, .i32⟩) main_call3.v0 main_call3.v1 (cmpi .slt),
    StableHlo.TRef.nullary main_call3.c_0 (constantI S_ 32 26009#32),
    StableHlo.TRef.unary main_call3.c_0 main_call3.v2 (broadcastInDim S2048x1024 ![] bcast_S_S2048x1024),
    StableHlo.TRef.binary (.of main_v117 : StableHlo.TRef sig ⟨S2048x1024, .i32⟩) main_call3.v2 main_call3.v3 addi,
    StableHlo.TRef.ternary main_call3.v1 main_call3.v3 (.of main_v117 : StableHlo.TRef sig ⟨S2048x1024, .i32⟩) main_call3.v4 select,
    StableHlo.TRef.reshape main_call3.v4 main_call3.v5 rfl shapeCasts_S2048x1024_S2048x1024x1,
    StableHlo.TRef.nullary main_call3.c_1 (constantI S1 32 26008#32),
    StableHlo.TRef.nullary main_call3.c_2 (constantI S_ 32 0#32),
    StableHlo.TRef.unary main_call3.c_2 main_call3.v6 (broadcastInDim S2048x1024x1 ![] bcast_S_S2048x1024x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S2048x1024x1 ![0, 1, 2] bcast_S1x1x1_S2048x1024x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S2048x1024x1_S2048x1024_d2 h_S_),
    StableHlo.TRef.binary (.of main_v14 : StableHlo.TRef sig ⟨S2048x26009, .f32⟩) main_call3.v5 main_call3.v13 (fun x i => Host.gather gather_S2048x26009_S2048x1024x1_S2048x1024_n_1_0_0_1_2_11 x i),
    StableHlo.TRef.nullary main_call3.cst (constant S_ .f32 0x7FC00000#32),
    StableHlo.TRef.unary main_call3.cst main_call3.v14 (broadcastInDim S2048x1024 ![] bcast_S_S2048x1024),
    StableHlo.TRef.ternary main_call3.v12 main_call3.v13 main_call3.v14 main_call3.v15 select,
    StableHlo.binary main_v133 main_v132 main_v134 (subf : (⟨S2048x1024, .f32⟩ : BufTy).Contents (Elt F) → (⟨S2048x1024, .f32⟩ : BufTy).Contents (Elt F) → (⟨S2048x1024, .f32⟩ : BufTy).Contents (Elt F)),
    StableHlo.unary main_v134 main_v135 (Host.absf : (⟨S2048x1024, .f32⟩ : BufTy).Contents (Elt F) → (⟨S2048x1024, .f32⟩ : BufTy).Contents (Elt F)),
    StableHlo.binary main_v94 main_v135 main_v136 (minimumf : (⟨S2048x1024, .f32⟩ : BufTy).Contents (Elt F) → (⟨S2048x1024, .f32⟩ : BufTy).Contents (Elt F) → (⟨S2048x1024, .f32⟩ : BufTy).Contents (Elt F)),
    StableHlo.nullary main_c_34 (constantI S_ 32 2#32),
    StableHlo.unary main_c_34 main_v137 (broadcastInDim S2048x1024 ![] bcast_S_S2048x1024 : (⟨S_, .i32⟩ : BufTy).Contents (Elt F) → (⟨S2048x1024, .i32⟩ : BufTy).Contents (Elt F)),
    StableHlo.binary main_v137 main_v102 main_v138 (muli : (⟨S2048x1024, .i32⟩ : BufTy).Contents (Elt F) → (⟨S2048x1024, .i32⟩ : BufTy).Contents (Elt F) → (⟨S2048x1024, .i32⟩ : BufTy).Contents (Elt F)),
    StableHlo.nullary main_c_35 (constantI S_ 32 1#32),
    StableHlo.unary main_c_35 main_v139 (broadcastInDim S2048x1024 ![] bcast_S_S2048x1024 : (⟨S_, .i32⟩ : BufTy).Contents (Elt F) → (⟨S2048x1024, .i32⟩ : BufTy).Contents (Elt F)),
    StableHlo.binary main_v138 main_v139 main_v140 (addi : (⟨S2048x1024, .i32⟩ : BufTy).Contents (Elt F) → (⟨S2048x1024, .i32⟩ : BufTy).Contents (Elt F) → (⟨S2048x1024, .i32⟩ : BufTy).Contents (Elt F)),
    StableHlo.nullary main_cst_36 (constant S_ .f32 0x00000000#32) ]

set_option maxHeartbeats 40000000 in
/-- The 81 operations of main_part3 (its 60 statements, calls replaced by their bodies). -/
abbrev ops_3 : List (HloOp τ sig (Elt F)) :=
  [ StableHlo.unary main_cst_36 main_v141 (broadcastInDim S2048x1024 ![] bcast_S_S2048x1024 : (⟨S_, .f32⟩ : BufTy).Contents (Elt F) → (⟨S2048x1024, .f32⟩ : BufTy).Contents (Elt F)),
    StableHlo.binary main_v134 main_v141 main_v142 (cmpf .ogt : (⟨S2048x1024, .f32⟩ : BufTy).Contents (Elt F) → (⟨S2048x1024, .f32⟩ : BufTy).Contents (Elt F) → (⟨S2048x1024, .i1⟩ : BufTy).Contents (Elt F)),
    StableHlo.unary main_v142 main_v143 ((extui 32 · natLt_1_32) : (⟨S2048x1024, .i1⟩ : BufTy).Contents (Elt F) → (⟨S2048x1024, .i32⟩ : BufTy).Contents (Elt F)),
    StableHlo.binary main_v140 main_v143 main_v144 (addi : (⟨S2048x1024, .i32⟩ : BufTy).Contents (Elt F) → (⟨S2048x1024, .i32⟩ : BufTy).Contents (Elt F) → (⟨S2048x1024, .i32⟩ : BufTy).Contents (Elt F)),
    StableHlo.nullary main_c_37 (constantI S_ 32 0#32),
    StableHlo.unary main_c_37 main_v145 (broadcastInDim S1x1024 ![] bcast_S_S1x1024 : (⟨S_, .i32⟩ : BufTy).Contents (Elt F) → (⟨S1x1024, .i32⟩ : BufTy).Contents (Elt F)),
    StableHlo.binary main_v16 main_v145 main_v146 (cmpi .slt : (⟨S1x1024, .i32⟩ : BufTy).Contents (Elt F) → (⟨S1x1024, .i32⟩ : BufTy).Contents (Elt F) → (⟨S1x1024, .i1⟩ : BufTy).Contents (Elt F)),
    StableHlo.nullary main_c_38 (constantI S_ 32 1024#32),
    StableHlo.unary main_c_38 main_v147 (broadcastInDim S1x1024 ![] bcast_S_S1x1024 : (⟨S_, .i32⟩ : BufTy).Contents (Elt F) → (⟨S1x1024, .i32⟩ : BufTy).Contents (Elt F)),
    StableHlo.binary main_v16 main_v147 main_v148 (addi : (⟨S1x1024, .i32⟩ : BufTy).Contents (Elt F) → (⟨S1x1024, .i32⟩ : BufTy).Contents (Elt F) → (⟨S1x1024, .i32⟩ : BufTy).Contents (Elt F)),
    StableHlo.ternary main_v146 main_v148 main_v16 main_v149 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_39 (constantI S_ 32 0#32),
    StableHlo.unary main_c_39 main_v150 (broadcastInDim S2048x1024 ![] bcast_S_S2048x1024 : (⟨S_, .i32⟩ : BufTy).Contents (Elt F) → (⟨S2048x1024, .i32⟩ : BufTy).Contents (Elt F)),
    StableHlo.binary main_v144 main_v150 main_v151 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_40 (constantI S_ 32 127#32),
    StableHlo.unary main_c_40 main_v152 (broadcastInDim S2048x1024 ![] bcast_S_S2048x1024 : (⟨S_, .i32⟩ : BufTy).Contents (Elt F) → (⟨S2048x1024, .i32⟩ : BufTy).Contents (Elt F)),
    StableHlo.binary main_v144 main_v152 main_v153 (addi : (⟨S2048x1024, .i32⟩ : BufTy).Contents (Elt F) → (⟨S2048x1024, .i32⟩ : BufTy).Contents (Elt F) → (⟨S2048x1024, .i32⟩ : BufTy).Contents (Elt F)),
    StableHlo.ternary main_v151 main_v153 main_v144 main_v154 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v149 main_v155 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v155 main_v156 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v154 main_v157 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v156 main_v157 main_v158 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg4 main_v158 main_v159 ((fun x i => Host.gather gather_S1024x127_S2048x1024x2_S2048x1024_n_01_n_n_01_2_11 x i) : (⟨S1024x127, .i32⟩ : BufTy).Contents (Elt F) → (⟨S2048x1024x2, .i32⟩ : BufTy).Contents (Elt F) → (⟨S2048x1024, .i32⟩ : BufTy).Contents (Elt F)),
    StableHlo.nullary main_c_41 (constantI S_ 32 0#32),
    StableHlo.unary main_c_41 main_v160 (broadcastInDim S1x1024 ![] bcast_S_S1x1024 : (⟨S_, .i32⟩ : BufTy).Contents (Elt F) → (⟨S1x1024, .i32⟩ : BufTy).Contents (Elt F)),
    StableHlo.binary main_v16 main_v160 main_v161 (cmpi .slt : (⟨S1x1024, .i32⟩ : BufTy).Contents (Elt F) → (⟨S1x1024, .i32⟩ : BufTy).Contents (Elt F) → (⟨S1x1024, .i1⟩ : BufTy).Contents (Elt F)),
    StableHlo.nullary main_c_42 (constantI S_ 32 1024#32),
    StableHlo.unary main_c_42 main_v162 (broadcastInDim S1x1024 ![] bcast_S_S1x1024 : (⟨S_, .i32⟩ : BufTy).Contents (Elt F) → (⟨S1x1024, .i32⟩ : BufTy).Contents (Elt F)),
    StableHlo.binary main_v16 main_v162 main_v163 (addi : (⟨S1x1024, .i32⟩ : BufTy).Contents (Elt F) → (⟨S1x1024, .i32⟩ : BufTy).Contents (Elt F) → (⟨S1x1024, .i32⟩ : BufTy).Contents (Elt F)),
    StableHlo.ternary main_v161 main_v163 main_v16 main_v164 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_43 (constantI S_ 32 0#32),
    StableHlo.unary main_c_43 main_v165 (broadcastInDim S2048x1024 ![] bcast_S_S2048x1024 : (⟨S_, .i32⟩ : BufTy).Contents (Elt F) → (⟨S2048x1024, .i32⟩ : BufTy).Contents (Elt F)),
    StableHlo.binary main_v144 main_v165 main_v166 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_44 (constantI S_ 32 127#32),
    StableHlo.unary main_c_44 main_v167 (broadcastInDim S2048x1024 ![] bcast_S_S2048x1024 : (⟨S_, .i32⟩ : BufTy).Contents (Elt F) → (⟨S2048x1024, .i32⟩ : BufTy).Contents (Elt F)),
    StableHlo.binary main_v144 main_v167 main_v168 (addi : (⟨S2048x1024, .i32⟩ : BufTy).Contents (Elt F) → (⟨S2048x1024, .i32⟩ : BufTy).Contents (Elt F) → (⟨S2048x1024, .i32⟩ : BufTy).Contents (Elt F)),
    StableHlo.ternary main_v166 main_v168 main_v144 main_v169 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v164 main_v170 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v170 main_v171 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v169 main_v172 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v171 main_v172 main_v173 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg2 main_v173 main_v174 ((fun x i => Host.gather gather_S1024x127_S2048x1024x2_S2048x1024_n_01_n_n_01_2_11 x i) : (⟨S1024x127, .f32⟩ : BufTy).Contents (Elt F) → (⟨S2048x1024x2, .i32⟩ : BufTy).Contents (Elt F) → (⟨S2048x1024, .f32⟩ : BufTy).Contents (Elt F)),
    StableHlo.TRef.nullary main_call4.c (constantI S_ 32 0#32),
    StableHlo.TRef.unary main_call4.c main_call4.v0 (broadcastInDim S2048x1024 ![] bcast_S_S2048x1024),
    StableHlo.TRef.binary (.of main_v159 : StableHlo.TRef sig ⟨S2048x1024, .i32⟩) main_call4.v0 main_call4.v1 (cmpi .slt),
    StableHlo.TRef.nullary main_call4.c_0 (constantI S_ 32 26009#32),
    StableHlo.TRef.unary main_call4.c_0 main_call4.v2 (broadcastInDim S2048x1024 ![] bcast_S_S2048x1024),
    StableHlo.TRef.binary (.of main_v159 : StableHlo.TRef sig ⟨S2048x1024, .i32⟩) main_call4.v2 main_call4.v3 addi,
    StableHlo.TRef.ternary main_call4.v1 main_call4.v3 (.of main_v159 : StableHlo.TRef sig ⟨S2048x1024, .i32⟩) main_call4.v4 select,
    StableHlo.TRef.reshape main_call4.v4 main_call4.v5 rfl shapeCasts_S2048x1024_S2048x1024x1,
    StableHlo.TRef.nullary main_call4.c_1 (constantI S1 32 26008#32),
    StableHlo.TRef.nullary main_call4.c_2 (constantI S_ 32 0#32),
    StableHlo.TRef.unary main_call4.c_2 main_call4.v6 (broadcastInDim S2048x1024x1 ![] bcast_S_S2048x1024x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S2048x1024x1 ![0, 1, 2] bcast_S1x1x1_S2048x1024x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S2048x1024x1_S2048x1024_d2 h_S_),
    StableHlo.TRef.binary (.of main_v14 : StableHlo.TRef sig ⟨S2048x26009, .f32⟩) main_call4.v5 main_call4.v13 (fun x i => Host.gather gather_S2048x26009_S2048x1024x1_S2048x1024_n_1_0_0_1_2_11 x i),
    StableHlo.TRef.nullary main_call4.cst (constant S_ .f32 0x7FC00000#32),
    StableHlo.TRef.unary main_call4.cst main_call4.v14 (broadcastInDim S2048x1024 ![] bcast_S_S2048x1024),
    StableHlo.TRef.ternary main_call4.v12 main_call4.v13 main_call4.v14 main_call4.v15 select,
    StableHlo.binary main_v175 main_v174 main_v176 (subf : (⟨S2048x1024, .f32⟩ : BufTy).Contents (Elt F) → (⟨S2048x1024, .f32⟩ : BufTy).Contents (Elt F) → (⟨S2048x1024, .f32⟩ : BufTy).Contents (Elt F)),
    StableHlo.unary main_v176 main_v177 (Host.absf : (⟨S2048x1024, .f32⟩ : BufTy).Contents (Elt F) → (⟨S2048x1024, .f32⟩ : BufTy).Contents (Elt F)),
    StableHlo.binary main_v136 main_v177 main_v178 (minimumf : (⟨S2048x1024, .f32⟩ : BufTy).Contents (Elt F) → (⟨S2048x1024, .f32⟩ : BufTy).Contents (Elt F) → (⟨S2048x1024, .f32⟩ : BufTy).Contents (Elt F)),
    StableHlo.nullary main_c_45 (constantI S_ 32 2#32),
    StableHlo.unary main_c_45 main_v179 (broadcastInDim S2048x1024 ![] bcast_S_S2048x1024 : (⟨S_, .i32⟩ : BufTy).Contents (Elt F) → (⟨S2048x1024, .i32⟩ : BufTy).Contents (Elt F)),
    StableHlo.binary main_v179 main_v144 main_v180 (muli : (⟨S2048x1024, .i32⟩ : BufTy).Contents (Elt F) → (⟨S2048x1024, .i32⟩ : BufTy).Contents (Elt F) → (⟨S2048x1024, .i32⟩ : BufTy).Contents (Elt F)),
    StableHlo.nullary main_c_46 (constantI S_ 32 1#32),
    StableHlo.unary main_c_46 main_v181 (broadcastInDim S2048x1024 ![] bcast_S_S2048x1024 : (⟨S_, .i32⟩ : BufTy).Contents (Elt F) → (⟨S2048x1024, .i32⟩ : BufTy).Contents (Elt F)),
    StableHlo.binary main_v180 main_v181 main_v182 (addi : (⟨S2048x1024, .i32⟩ : BufTy).Contents (Elt F) → (⟨S2048x1024, .i32⟩ : BufTy).Contents (Elt F) → (⟨S2048x1024, .i32⟩ : BufTy).Contents (Elt F)),
    StableHlo.nullary main_cst_47 (constant S_ .f32 0x00000000#32),
    StableHlo.unary main_cst_47 main_v183 (broadcastInDim S2048x1024 ![] bcast_S_S2048x1024 : (⟨S_, .f32⟩ : BufTy).Contents (Elt F) → (⟨S2048x1024, .f32⟩ : BufTy).Contents (Elt F)),
    StableHlo.binary main_v176 main_v183 main_v184 (cmpf .ogt : (⟨S2048x1024, .f32⟩ : BufTy).Contents (Elt F) → (⟨S2048x1024, .f32⟩ : BufTy).Contents (Elt F) → (⟨S2048x1024, .i1⟩ : BufTy).Contents (Elt F)),
    StableHlo.unary main_v184 main_v185 ((extui 32 · natLt_1_32) : (⟨S2048x1024, .i1⟩ : BufTy).Contents (Elt F) → (⟨S2048x1024, .i32⟩ : BufTy).Contents (Elt F)),
    StableHlo.binary main_v182 main_v185 main_v186 (addi : (⟨S2048x1024, .i32⟩ : BufTy).Contents (Elt F) → (⟨S2048x1024, .i32⟩ : BufTy).Contents (Elt F) → (⟨S2048x1024, .i32⟩ : BufTy).Contents (Elt F)),
    StableHlo.nullary main_c_48 (constantI S_ 32 0#32),
    StableHlo.unary main_c_48 main_v187 (broadcastInDim S1x1024 ![] bcast_S_S1x1024 : (⟨S_, .i32⟩ : BufTy).Contents (Elt F) → (⟨S1x1024, .i32⟩ : BufTy).Contents (Elt F)),
    StableHlo.binary main_v16 main_v187 main_v188 (cmpi .slt : (⟨S1x1024, .i32⟩ : BufTy).Contents (Elt F) → (⟨S1x1024, .i32⟩ : BufTy).Contents (Elt F) → (⟨S1x1024, .i1⟩ : BufTy).Contents (Elt F)) ]

set_option maxHeartbeats 40000000 in
/-- The 81 operations of main_part4 (its 60 statements, calls replaced by their bodies). -/
abbrev ops_4 : List (HloOp τ sig (Elt F)) :=
  [ StableHlo.nullary main_c_49 (constantI S_ 32 1024#32),
    StableHlo.unary main_c_49 main_v189 (broadcastInDim S1x1024 ![] bcast_S_S1x1024 : (⟨S_, .i32⟩ : BufTy).Contents (Elt F) → (⟨S1x1024, .i32⟩ : BufTy).Contents (Elt F)),
    StableHlo.binary main_v16 main_v189 main_v190 (addi : (⟨S1x1024, .i32⟩ : BufTy).Contents (Elt F) → (⟨S1x1024, .i32⟩ : BufTy).Contents (Elt F) → (⟨S1x1024, .i32⟩ : BufTy).Contents (Elt F)),
    StableHlo.ternary main_v188 main_v190 main_v16 main_v191 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_50 (constantI S_ 32 0#32),
    StableHlo.unary main_c_50 main_v192 (broadcastInDim S2048x1024 ![] bcast_S_S2048x1024 : (⟨S_, .i32⟩ : BufTy).Contents (Elt F) → (⟨S2048x1024, .i32⟩ : BufTy).Contents (Elt F)),
    StableHlo.binary main_v186 main_v192 main_v193 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_51 (constantI S_ 32 127#32),
    StableHlo.unary main_c_51 main_v194 (broadcastInDim S2048x1024 ![] bcast_S_S2048x1024 : (⟨S_, .i32⟩ : BufTy).Contents (Elt F) → (⟨S2048x1024, .i32⟩ : BufTy).Contents (Elt F)),
    StableHlo.binary main_v186 main_v194 main_v195 (addi : (⟨S2048x1024, .i32⟩ : BufTy).Contents (Elt F) → (⟨S2048x1024, .i32⟩ : BufTy).Contents (Elt F) → (⟨S2048x1024, .i32⟩ : BufTy).Contents (Elt F)),
    StableHlo.ternary main_v193 main_v195 main_v186 main_v196 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v191 main_v197 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v197 main_v198 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v196 main_v199 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v198 main_v199 main_v200 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg4 main_v200 main_v201 ((fun x i => Host.gather gather_S1024x127_S2048x1024x2_S2048x1024_n_01_n_n_01_2_11 x i) : (⟨S1024x127, .i32⟩ : BufTy).Contents (Elt F) → (⟨S2048x1024x2, .i32⟩ : BufTy).Contents (Elt F) → (⟨S2048x1024, .i32⟩ : BufTy).Contents (Elt F)),
    StableHlo.nullary main_c_52 (constantI S_ 32 0#32),
    StableHlo.unary main_c_52 main_v202 (broadcastInDim S1x1024 ![] bcast_S_S1x1024 : (⟨S_, .i32⟩ : BufTy).Contents (Elt F) → (⟨S1x1024, .i32⟩ : BufTy).Contents (Elt F)),
    StableHlo.binary main_v16 main_v202 main_v203 (cmpi .slt : (⟨S1x1024, .i32⟩ : BufTy).Contents (Elt F) → (⟨S1x1024, .i32⟩ : BufTy).Contents (Elt F) → (⟨S1x1024, .i1⟩ : BufTy).Contents (Elt F)),
    StableHlo.nullary main_c_53 (constantI S_ 32 1024#32),
    StableHlo.unary main_c_53 main_v204 (broadcastInDim S1x1024 ![] bcast_S_S1x1024 : (⟨S_, .i32⟩ : BufTy).Contents (Elt F) → (⟨S1x1024, .i32⟩ : BufTy).Contents (Elt F)),
    StableHlo.binary main_v16 main_v204 main_v205 (addi : (⟨S1x1024, .i32⟩ : BufTy).Contents (Elt F) → (⟨S1x1024, .i32⟩ : BufTy).Contents (Elt F) → (⟨S1x1024, .i32⟩ : BufTy).Contents (Elt F)),
    StableHlo.ternary main_v203 main_v205 main_v16 main_v206 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_54 (constantI S_ 32 0#32),
    StableHlo.unary main_c_54 main_v207 (broadcastInDim S2048x1024 ![] bcast_S_S2048x1024 : (⟨S_, .i32⟩ : BufTy).Contents (Elt F) → (⟨S2048x1024, .i32⟩ : BufTy).Contents (Elt F)),
    StableHlo.binary main_v186 main_v207 main_v208 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_55 (constantI S_ 32 127#32),
    StableHlo.unary main_c_55 main_v209 (broadcastInDim S2048x1024 ![] bcast_S_S2048x1024 : (⟨S_, .i32⟩ : BufTy).Contents (Elt F) → (⟨S2048x1024, .i32⟩ : BufTy).Contents (Elt F)),
    StableHlo.binary main_v186 main_v209 main_v210 (addi : (⟨S2048x1024, .i32⟩ : BufTy).Contents (Elt F) → (⟨S2048x1024, .i32⟩ : BufTy).Contents (Elt F) → (⟨S2048x1024, .i32⟩ : BufTy).Contents (Elt F)),
    StableHlo.ternary main_v208 main_v210 main_v186 main_v211 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v206 main_v212 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v212 main_v213 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v211 main_v214 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v213 main_v214 main_v215 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg2 main_v215 main_v216 ((fun x i => Host.gather gather_S1024x127_S2048x1024x2_S2048x1024_n_01_n_n_01_2_11 x i) : (⟨S1024x127, .f32⟩ : BufTy).Contents (Elt F) → (⟨S2048x1024x2, .i32⟩ : BufTy).Contents (Elt F) → (⟨S2048x1024, .f32⟩ : BufTy).Contents (Elt F)),
    StableHlo.TRef.nullary main_call5.c (constantI S_ 32 0#32),
    StableHlo.TRef.unary main_call5.c main_call5.v0 (broadcastInDim S2048x1024 ![] bcast_S_S2048x1024),
    StableHlo.TRef.binary (.of main_v201 : StableHlo.TRef sig ⟨S2048x1024, .i32⟩) main_call5.v0 main_call5.v1 (cmpi .slt),
    StableHlo.TRef.nullary main_call5.c_0 (constantI S_ 32 26009#32),
    StableHlo.TRef.unary main_call5.c_0 main_call5.v2 (broadcastInDim S2048x1024 ![] bcast_S_S2048x1024),
    StableHlo.TRef.binary (.of main_v201 : StableHlo.TRef sig ⟨S2048x1024, .i32⟩) main_call5.v2 main_call5.v3 addi,
    StableHlo.TRef.ternary main_call5.v1 main_call5.v3 (.of main_v201 : StableHlo.TRef sig ⟨S2048x1024, .i32⟩) main_call5.v4 select,
    StableHlo.TRef.reshape main_call5.v4 main_call5.v5 rfl shapeCasts_S2048x1024_S2048x1024x1,
    StableHlo.TRef.nullary main_call5.c_1 (constantI S1 32 26008#32),
    StableHlo.TRef.nullary main_call5.c_2 (constantI S_ 32 0#32),
    StableHlo.TRef.unary main_call5.c_2 main_call5.v6 (broadcastInDim S2048x1024x1 ![] bcast_S_S2048x1024x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S2048x1024x1 ![0, 1, 2] bcast_S1x1x1_S2048x1024x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S2048x1024x1_S2048x1024_d2 h_S_),
    StableHlo.TRef.binary (.of main_v14 : StableHlo.TRef sig ⟨S2048x26009, .f32⟩) main_call5.v5 main_call5.v13 (fun x i => Host.gather gather_S2048x26009_S2048x1024x1_S2048x1024_n_1_0_0_1_2_11 x i),
    StableHlo.TRef.nullary main_call5.cst (constant S_ .f32 0x7FC00000#32),
    StableHlo.TRef.unary main_call5.cst main_call5.v14 (broadcastInDim S2048x1024 ![] bcast_S_S2048x1024),
    StableHlo.TRef.ternary main_call5.v12 main_call5.v13 main_call5.v14 main_call5.v15 select,
    StableHlo.binary main_v217 main_v216 main_v218 (subf : (⟨S2048x1024, .f32⟩ : BufTy).Contents (Elt F) → (⟨S2048x1024, .f32⟩ : BufTy).Contents (Elt F) → (⟨S2048x1024, .f32⟩ : BufTy).Contents (Elt F)),
    StableHlo.unary main_v218 main_v219 (Host.absf : (⟨S2048x1024, .f32⟩ : BufTy).Contents (Elt F) → (⟨S2048x1024, .f32⟩ : BufTy).Contents (Elt F)),
    StableHlo.binary main_v178 main_v219 main_v220 (minimumf : (⟨S2048x1024, .f32⟩ : BufTy).Contents (Elt F) → (⟨S2048x1024, .f32⟩ : BufTy).Contents (Elt F) → (⟨S2048x1024, .f32⟩ : BufTy).Contents (Elt F)),
    StableHlo.nullary main_c_56 (constantI S_ 32 2#32),
    StableHlo.unary main_c_56 main_v221 (broadcastInDim S2048x1024 ![] bcast_S_S2048x1024 : (⟨S_, .i32⟩ : BufTy).Contents (Elt F) → (⟨S2048x1024, .i32⟩ : BufTy).Contents (Elt F)),
    StableHlo.binary main_v221 main_v186 main_v222 (muli : (⟨S2048x1024, .i32⟩ : BufTy).Contents (Elt F) → (⟨S2048x1024, .i32⟩ : BufTy).Contents (Elt F) → (⟨S2048x1024, .i32⟩ : BufTy).Contents (Elt F)),
    StableHlo.nullary main_c_57 (constantI S_ 32 1#32),
    StableHlo.unary main_c_57 main_v223 (broadcastInDim S2048x1024 ![] bcast_S_S2048x1024 : (⟨S_, .i32⟩ : BufTy).Contents (Elt F) → (⟨S2048x1024, .i32⟩ : BufTy).Contents (Elt F)),
    StableHlo.binary main_v222 main_v223 main_v224 (addi : (⟨S2048x1024, .i32⟩ : BufTy).Contents (Elt F) → (⟨S2048x1024, .i32⟩ : BufTy).Contents (Elt F) → (⟨S2048x1024, .i32⟩ : BufTy).Contents (Elt F)),
    StableHlo.nullary main_cst_58 (constant S_ .f32 0x00000000#32),
    StableHlo.unary main_cst_58 main_v225 (broadcastInDim S2048x1024 ![] bcast_S_S2048x1024 : (⟨S_, .f32⟩ : BufTy).Contents (Elt F) → (⟨S2048x1024, .f32⟩ : BufTy).Contents (Elt F)),
    StableHlo.binary main_v218 main_v225 main_v226 (cmpf .ogt : (⟨S2048x1024, .f32⟩ : BufTy).Contents (Elt F) → (⟨S2048x1024, .f32⟩ : BufTy).Contents (Elt F) → (⟨S2048x1024, .i1⟩ : BufTy).Contents (Elt F)),
    StableHlo.unary main_v226 main_v227 ((extui 32 · natLt_1_32) : (⟨S2048x1024, .i1⟩ : BufTy).Contents (Elt F) → (⟨S2048x1024, .i32⟩ : BufTy).Contents (Elt F)),
    StableHlo.binary main_v224 main_v227 main_v228 (addi : (⟨S2048x1024, .i32⟩ : BufTy).Contents (Elt F) → (⟨S2048x1024, .i32⟩ : BufTy).Contents (Elt F) → (⟨S2048x1024, .i32⟩ : BufTy).Contents (Elt F)),
    StableHlo.nullary main_c_59 (constantI S_ 32 0#32),
    StableHlo.unary main_c_59 main_v229 (broadcastInDim S1x1024 ![] bcast_S_S1x1024 : (⟨S_, .i32⟩ : BufTy).Contents (Elt F) → (⟨S1x1024, .i32⟩ : BufTy).Contents (Elt F)),
    StableHlo.binary main_v16 main_v229 main_v230 (cmpi .slt : (⟨S1x1024, .i32⟩ : BufTy).Contents (Elt F) → (⟨S1x1024, .i32⟩ : BufTy).Contents (Elt F) → (⟨S1x1024, .i1⟩ : BufTy).Contents (Elt F)),
    StableHlo.nullary main_c_60 (constantI S_ 32 1024#32),
    StableHlo.unary main_c_60 main_v231 (broadcastInDim S1x1024 ![] bcast_S_S1x1024 : (⟨S_, .i32⟩ : BufTy).Contents (Elt F) → (⟨S1x1024, .i32⟩ : BufTy).Contents (Elt F)),
    StableHlo.binary main_v16 main_v231 main_v232 (addi : (⟨S1x1024, .i32⟩ : BufTy).Contents (Elt F) → (⟨S1x1024, .i32⟩ : BufTy).Contents (Elt F) → (⟨S1x1024, .i32⟩ : BufTy).Contents (Elt F)),
    StableHlo.ternary main_v230 main_v232 main_v16 main_v233 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_61 (constantI S_ 32 0#32),
    StableHlo.unary main_c_61 main_v234 (broadcastInDim S2048x1024 ![] bcast_S_S2048x1024 : (⟨S_, .i32⟩ : BufTy).Contents (Elt F) → (⟨S2048x1024, .i32⟩ : BufTy).Contents (Elt F)),
    StableHlo.binary main_v228 main_v234 main_v235 (cmpi .slt : (⟨S2048x1024, .i32⟩ : BufTy).Contents (Elt F) → (⟨S2048x1024, .i32⟩ : BufTy).Contents (Elt F) → (⟨S2048x1024, .i1⟩ : BufTy).Contents (Elt F)) ]

set_option maxHeartbeats 40000000 in
/-- The 81 operations of main_part5 (its 60 statements, calls replaced by their bodies). -/
abbrev ops_5 : List (HloOp τ sig (Elt F)) :=
  [ StableHlo.nullary main_c_62 (constantI S_ 32 127#32),
    StableHlo.unary main_c_62 main_v236 (broadcastInDim S2048x1024 ![] bcast_S_S2048x1024 : (⟨S_, .i32⟩ : BufTy).Contents (Elt F) → (⟨S2048x1024, .i32⟩ : BufTy).Contents (Elt F)),
    StableHlo.binary main_v228 main_v236 main_v237 (addi : (⟨S2048x1024, .i32⟩ : BufTy).Contents (Elt F) → (⟨S2048x1024, .i32⟩ : BufTy).Contents (Elt F) → (⟨S2048x1024, .i32⟩ : BufTy).Contents (Elt F)),
    StableHlo.ternary main_v235 main_v237 main_v228 main_v238 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v233 main_v239 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v239 main_v240 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v238 main_v241 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v240 main_v241 main_v242 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg4 main_v242 main_v243 ((fun x i => Host.gather gather_S1024x127_S2048x1024x2_S2048x1024_n_01_n_n_01_2_11 x i) : (⟨S1024x127, .i32⟩ : BufTy).Contents (Elt F) → (⟨S2048x1024x2, .i32⟩ : BufTy).Contents (Elt F) → (⟨S2048x1024, .i32⟩ : BufTy).Contents (Elt F)),
    StableHlo.nullary main_c_63 (constantI S_ 32 0#32),
    StableHlo.unary main_c_63 main_v244 (broadcastInDim S1x1024 ![] bcast_S_S1x1024 : (⟨S_, .i32⟩ : BufTy).Contents (Elt F) → (⟨S1x1024, .i32⟩ : BufTy).Contents (Elt F)),
    StableHlo.binary main_v16 main_v244 main_v245 (cmpi .slt : (⟨S1x1024, .i32⟩ : BufTy).Contents (Elt F) → (⟨S1x1024, .i32⟩ : BufTy).Contents (Elt F) → (⟨S1x1024, .i1⟩ : BufTy).Contents (Elt F)),
    StableHlo.nullary main_c_64 (constantI S_ 32 1024#32),
    StableHlo.unary main_c_64 main_v246 (broadcastInDim S1x1024 ![] bcast_S_S1x1024 : (⟨S_, .i32⟩ : BufTy).Contents (Elt F) → (⟨S1x1024, .i32⟩ : BufTy).Contents (Elt F)),
    StableHlo.binary main_v16 main_v246 main_v247 (addi : (⟨S1x1024, .i32⟩ : BufTy).Contents (Elt F) → (⟨S1x1024, .i32⟩ : BufTy).Contents (Elt F) → (⟨S1x1024, .i32⟩ : BufTy).Contents (Elt F)),
    StableHlo.ternary main_v245 main_v247 main_v16 main_v248 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_65 (constantI S_ 32 0#32),
    StableHlo.unary main_c_65 main_v249 (broadcastInDim S2048x1024 ![] bcast_S_S2048x1024 : (⟨S_, .i32⟩ : BufTy).Contents (Elt F) → (⟨S2048x1024, .i32⟩ : BufTy).Contents (Elt F)),
    StableHlo.binary main_v228 main_v249 main_v250 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_66 (constantI S_ 32 127#32),
    StableHlo.unary main_c_66 main_v251 (broadcastInDim S2048x1024 ![] bcast_S_S2048x1024 : (⟨S_, .i32⟩ : BufTy).Contents (Elt F) → (⟨S2048x1024, .i32⟩ : BufTy).Contents (Elt F)),
    StableHlo.binary main_v228 main_v251 main_v252 (addi : (⟨S2048x1024, .i32⟩ : BufTy).Contents (Elt F) → (⟨S2048x1024, .i32⟩ : BufTy).Contents (Elt F) → (⟨S2048x1024, .i32⟩ : BufTy).Contents (Elt F)),
    StableHlo.ternary main_v250 main_v252 main_v228 main_v253 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v248 main_v254 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v254 main_v255 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v253 main_v256 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v255 main_v256 main_v257 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg2 main_v257 main_v258 ((fun x i => Host.gather gather_S1024x127_S2048x1024x2_S2048x1024_n_01_n_n_01_2_11 x i) : (⟨S1024x127, .f32⟩ : BufTy).Contents (Elt F) → (⟨S2048x1024x2, .i32⟩ : BufTy).Contents (Elt F) → (⟨S2048x1024, .f32⟩ : BufTy).Contents (Elt F)),
    StableHlo.TRef.nullary main_call6.c (constantI S_ 32 0#32),
    StableHlo.TRef.unary main_call6.c main_call6.v0 (broadcastInDim S2048x1024 ![] bcast_S_S2048x1024),
    StableHlo.TRef.binary (.of main_v243 : StableHlo.TRef sig ⟨S2048x1024, .i32⟩) main_call6.v0 main_call6.v1 (cmpi .slt),
    StableHlo.TRef.nullary main_call6.c_0 (constantI S_ 32 26009#32),
    StableHlo.TRef.unary main_call6.c_0 main_call6.v2 (broadcastInDim S2048x1024 ![] bcast_S_S2048x1024),
    StableHlo.TRef.binary (.of main_v243 : StableHlo.TRef sig ⟨S2048x1024, .i32⟩) main_call6.v2 main_call6.v3 addi,
    StableHlo.TRef.ternary main_call6.v1 main_call6.v3 (.of main_v243 : StableHlo.TRef sig ⟨S2048x1024, .i32⟩) main_call6.v4 select,
    StableHlo.TRef.reshape main_call6.v4 main_call6.v5 rfl shapeCasts_S2048x1024_S2048x1024x1,
    StableHlo.TRef.nullary main_call6.c_1 (constantI S1 32 26008#32),
    StableHlo.TRef.nullary main_call6.c_2 (constantI S_ 32 0#32),
    StableHlo.TRef.unary main_call6.c_2 main_call6.v6 (broadcastInDim S2048x1024x1 ![] bcast_S_S2048x1024x1),
    StableHlo.TRef.binary main_call6.v5 main_call6.v6 main_call6.v7 (cmpi .sge),
    StableHlo.TRef.unary main_call6.c_1 main_call6.v8 (broadcastInDim S1x1x1 ![2] bcast_S1_S1x1x1_2),
    StableHlo.TRef.unary main_call6.v8 main_call6.v9 (broadcastInDim S2048x1024x1 ![0, 1, 2] bcast_S1x1x1_S2048x1024x1_0_1_2),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S2048x1024x1_S2048x1024_d2 h_S_),
    StableHlo.TRef.binary (.of main_v14 : StableHlo.TRef sig ⟨S2048x26009, .f32⟩) main_call6.v5 main_call6.v13 (fun x i => Host.gather gather_S2048x26009_S2048x1024x1_S2048x1024_n_1_0_0_1_2_11 x i),
    StableHlo.TRef.nullary main_call6.cst (constant S_ .f32 0x7FC00000#32),
    StableHlo.TRef.unary main_call6.cst main_call6.v14 (broadcastInDim S2048x1024 ![] bcast_S_S2048x1024),
    StableHlo.TRef.ternary main_call6.v12 main_call6.v13 main_call6.v14 main_call6.v15 select,
    StableHlo.binary main_v259 main_v258 main_v260 (subf : (⟨S2048x1024, .f32⟩ : BufTy).Contents (Elt F) → (⟨S2048x1024, .f32⟩ : BufTy).Contents (Elt F) → (⟨S2048x1024, .f32⟩ : BufTy).Contents (Elt F)),
    StableHlo.unary main_v260 main_v261 (Host.absf : (⟨S2048x1024, .f32⟩ : BufTy).Contents (Elt F) → (⟨S2048x1024, .f32⟩ : BufTy).Contents (Elt F)),
    StableHlo.binary main_v220 main_v261 main_v262 (minimumf : (⟨S2048x1024, .f32⟩ : BufTy).Contents (Elt F) → (⟨S2048x1024, .f32⟩ : BufTy).Contents (Elt F) → (⟨S2048x1024, .f32⟩ : BufTy).Contents (Elt F)),
    StableHlo.nullary main_c_67 (constantI S_ 32 2#32),
    StableHlo.unary main_c_67 main_v263 (broadcastInDim S2048x1024 ![] bcast_S_S2048x1024 : (⟨S_, .i32⟩ : BufTy).Contents (Elt F) → (⟨S2048x1024, .i32⟩ : BufTy).Contents (Elt F)),
    StableHlo.binary main_v263 main_v228 main_v264 (muli : (⟨S2048x1024, .i32⟩ : BufTy).Contents (Elt F) → (⟨S2048x1024, .i32⟩ : BufTy).Contents (Elt F) → (⟨S2048x1024, .i32⟩ : BufTy).Contents (Elt F)),
    StableHlo.nullary main_c_68 (constantI S_ 32 1#32),
    StableHlo.unary main_c_68 main_v265 (broadcastInDim S2048x1024 ![] bcast_S_S2048x1024 : (⟨S_, .i32⟩ : BufTy).Contents (Elt F) → (⟨S2048x1024, .i32⟩ : BufTy).Contents (Elt F)),
    StableHlo.binary main_v264 main_v265 main_v266 (addi : (⟨S2048x1024, .i32⟩ : BufTy).Contents (Elt F) → (⟨S2048x1024, .i32⟩ : BufTy).Contents (Elt F) → (⟨S2048x1024, .i32⟩ : BufTy).Contents (Elt F)),
    StableHlo.nullary main_cst_69 (constant S_ .f32 0x00000000#32),
    StableHlo.unary main_cst_69 main_v267 (broadcastInDim S2048x1024 ![] bcast_S_S2048x1024 : (⟨S_, .f32⟩ : BufTy).Contents (Elt F) → (⟨S2048x1024, .f32⟩ : BufTy).Contents (Elt F)),
    StableHlo.binary main_v260 main_v267 main_v268 (cmpf .ogt : (⟨S2048x1024, .f32⟩ : BufTy).Contents (Elt F) → (⟨S2048x1024, .f32⟩ : BufTy).Contents (Elt F) → (⟨S2048x1024, .i1⟩ : BufTy).Contents (Elt F)),
    StableHlo.unary main_v268 main_v269 ((extui 32 · natLt_1_32) : (⟨S2048x1024, .i1⟩ : BufTy).Contents (Elt F) → (⟨S2048x1024, .i32⟩ : BufTy).Contents (Elt F)),
    StableHlo.binary main_v266 main_v269 main_v270 (addi : (⟨S2048x1024, .i32⟩ : BufTy).Contents (Elt F) → (⟨S2048x1024, .i32⟩ : BufTy).Contents (Elt F) → (⟨S2048x1024, .i32⟩ : BufTy).Contents (Elt F)),
    StableHlo.nullary main_c_70 (constantI S_ 32 0#32),
    StableHlo.unary main_c_70 main_v271 (broadcastInDim S1x1024 ![] bcast_S_S1x1024 : (⟨S_, .i32⟩ : BufTy).Contents (Elt F) → (⟨S1x1024, .i32⟩ : BufTy).Contents (Elt F)),
    StableHlo.binary main_v16 main_v271 main_v272 (cmpi .slt : (⟨S1x1024, .i32⟩ : BufTy).Contents (Elt F) → (⟨S1x1024, .i32⟩ : BufTy).Contents (Elt F) → (⟨S1x1024, .i1⟩ : BufTy).Contents (Elt F)),
    StableHlo.nullary main_c_71 (constantI S_ 32 1024#32),
    StableHlo.unary main_c_71 main_v273 (broadcastInDim S1x1024 ![] bcast_S_S1x1024 : (⟨S_, .i32⟩ : BufTy).Contents (Elt F) → (⟨S1x1024, .i32⟩ : BufTy).Contents (Elt F)),
    StableHlo.binary main_v16 main_v273 main_v274 (addi : (⟨S1x1024, .i32⟩ : BufTy).Contents (Elt F) → (⟨S1x1024, .i32⟩ : BufTy).Contents (Elt F) → (⟨S1x1024, .i32⟩ : BufTy).Contents (Elt F)),
    StableHlo.ternary main_v272 main_v274 main_v16 main_v275 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_72 (constantI S_ 32 0#32),
    StableHlo.unary main_c_72 main_v276 (broadcastInDim S2048x1024 ![] bcast_S_S2048x1024 : (⟨S_, .i32⟩ : BufTy).Contents (Elt F) → (⟨S2048x1024, .i32⟩ : BufTy).Contents (Elt F)),
    StableHlo.binary main_v270 main_v276 main_v277 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_73 (constantI S_ 32 127#32),
    StableHlo.unary main_c_73 main_v278 (broadcastInDim S2048x1024 ![] bcast_S_S2048x1024 : (⟨S_, .i32⟩ : BufTy).Contents (Elt F) → (⟨S2048x1024, .i32⟩ : BufTy).Contents (Elt F)),
    StableHlo.binary main_v270 main_v278 main_v279 (addi : (⟨S2048x1024, .i32⟩ : BufTy).Contents (Elt F) → (⟨S2048x1024, .i32⟩ : BufTy).Contents (Elt F) → (⟨S2048x1024, .i32⟩ : BufTy).Contents (Elt F)),
    StableHlo.ternary main_v277 main_v279 main_v270 main_v280 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v275 main_v281 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v281 main_v282 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v280 main_v283 (broadcastInDim S2048x1024x1 ![0, 1] bcast_S2048x1024_S2048x1024x1_0_1 : (⟨S2048x1024, .i32⟩ : BufTy).Contents (Elt F) → (⟨S2048x1024x1, .i32⟩ : BufTy).Contents (Elt F)) ]

set_option maxHeartbeats 40000000 in
/-- The 81 operations of main_part6 (its 60 statements, calls replaced by their bodies). -/
abbrev ops_6 : List (HloOp τ sig (Elt F)) :=
  [ StableHlo.binary main_v282 main_v283 main_v284 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg4 main_v284 main_v285 ((fun x i => Host.gather gather_S1024x127_S2048x1024x2_S2048x1024_n_01_n_n_01_2_11 x i) : (⟨S1024x127, .i32⟩ : BufTy).Contents (Elt F) → (⟨S2048x1024x2, .i32⟩ : BufTy).Contents (Elt F) → (⟨S2048x1024, .i32⟩ : BufTy).Contents (Elt F)),
    StableHlo.nullary main_c_74 (constantI S_ 32 0#32),
    StableHlo.unary main_c_74 main_v286 (broadcastInDim S1x1024 ![] bcast_S_S1x1024 : (⟨S_, .i32⟩ : BufTy).Contents (Elt F) → (⟨S1x1024, .i32⟩ : BufTy).Contents (Elt F)),
    StableHlo.binary main_v16 main_v286 main_v287 (cmpi .slt : (⟨S1x1024, .i32⟩ : BufTy).Contents (Elt F) → (⟨S1x1024, .i32⟩ : BufTy).Contents (Elt F) → (⟨S1x1024, .i1⟩ : BufTy).Contents (Elt F)),
    StableHlo.nullary main_c_75 (constantI S_ 32 1024#32),
    StableHlo.unary main_c_75 main_v288 (broadcastInDim S1x1024 ![] bcast_S_S1x1024 : (⟨S_, .i32⟩ : BufTy).Contents (Elt F) → (⟨S1x1024, .i32⟩ : BufTy).Contents (Elt F)),
    StableHlo.binary main_v16 main_v288 main_v289 (addi : (⟨S1x1024, .i32⟩ : BufTy).Contents (Elt F) → (⟨S1x1024, .i32⟩ : BufTy).Contents (Elt F) → (⟨S1x1024, .i32⟩ : BufTy).Contents (Elt F)),
    StableHlo.ternary main_v287 main_v289 main_v16 main_v290 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_76 (constantI S_ 32 0#32),
    StableHlo.unary main_c_76 main_v291 (broadcastInDim S2048x1024 ![] bcast_S_S2048x1024 : (⟨S_, .i32⟩ : BufTy).Contents (Elt F) → (⟨S2048x1024, .i32⟩ : BufTy).Contents (Elt F)),
    StableHlo.binary main_v270 main_v291 main_v292 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_77 (constantI S_ 32 127#32),
    StableHlo.unary main_c_77 main_v293 (broadcastInDim S2048x1024 ![] bcast_S_S2048x1024 : (⟨S_, .i32⟩ : BufTy).Contents (Elt F) → (⟨S2048x1024, .i32⟩ : BufTy).Contents (Elt F)),
    StableHlo.binary main_v270 main_v293 main_v294 (addi : (⟨S2048x1024, .i32⟩ : BufTy).Contents (Elt F) → (⟨S2048x1024, .i32⟩ : BufTy).Contents (Elt F) → (⟨S2048x1024, .i32⟩ : BufTy).Contents (Elt F)),
    StableHlo.ternary main_v292 main_v294 main_v270 main_v295 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v290 main_v296 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v296 main_v297 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v295 main_v298 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v297 main_v298 main_v299 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg2 main_v299 main_v300 ((fun x i => Host.gather gather_S1024x127_S2048x1024x2_S2048x1024_n_01_n_n_01_2_11 x i) : (⟨S1024x127, .f32⟩ : BufTy).Contents (Elt F) → (⟨S2048x1024x2, .i32⟩ : BufTy).Contents (Elt F) → (⟨S2048x1024, .f32⟩ : BufTy).Contents (Elt F)),
    StableHlo.TRef.nullary main_call7.c (constantI S_ 32 0#32),
    StableHlo.TRef.unary main_call7.c main_call7.v0 (broadcastInDim S2048x1024 ![] bcast_S_S2048x1024),
    StableHlo.TRef.binary (.of main_v285 : StableHlo.TRef sig ⟨S2048x1024, .i32⟩) main_call7.v0 main_call7.v1 (cmpi .slt),
    StableHlo.TRef.nullary main_call7.c_0 (constantI S_ 32 26009#32),
    StableHlo.TRef.unary main_call7.c_0 main_call7.v2 (broadcastInDim S2048x1024 ![] bcast_S_S2048x1024),
    StableHlo.TRef.binary (.of main_v285 : StableHlo.TRef sig ⟨S2048x1024, .i32⟩) main_call7.v2 main_call7.v3 addi,
    StableHlo.TRef.ternary main_call7.v1 main_call7.v3 (.of main_v285 : StableHlo.TRef sig ⟨S2048x1024, .i32⟩) main_call7.v4 select,
    StableHlo.TRef.reshape main_call7.v4 main_call7.v5 rfl shapeCasts_S2048x1024_S2048x1024x1,
    StableHlo.TRef.nullary main_call7.c_1 (constantI S1 32 26008#32),
    StableHlo.TRef.nullary main_call7.c_2 (constantI S_ 32 0#32),
    StableHlo.TRef.unary main_call7.c_2 main_call7.v6 (broadcastInDim S2048x1024x1 ![] bcast_S_S2048x1024x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S2048x1024x1 ![0, 1, 2] bcast_S1x1x1_S2048x1024x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S2048x1024x1_S2048x1024_d2 h_S_),
    StableHlo.TRef.binary (.of main_v14 : StableHlo.TRef sig ⟨S2048x26009, .f32⟩) main_call7.v5 main_call7.v13 (fun x i => Host.gather gather_S2048x26009_S2048x1024x1_S2048x1024_n_1_0_0_1_2_11 x i),
    StableHlo.TRef.nullary main_call7.cst (constant S_ .f32 0x7FC00000#32),
    StableHlo.TRef.unary main_call7.cst main_call7.v14 (broadcastInDim S2048x1024 ![] bcast_S_S2048x1024),
    StableHlo.TRef.ternary main_call7.v12 main_call7.v13 main_call7.v14 main_call7.v15 select,
    StableHlo.binary main_v301 main_v300 main_v302 (subf : (⟨S2048x1024, .f32⟩ : BufTy).Contents (Elt F) → (⟨S2048x1024, .f32⟩ : BufTy).Contents (Elt F) → (⟨S2048x1024, .f32⟩ : BufTy).Contents (Elt F)),
    StableHlo.unary main_v302 main_v303 (Host.absf : (⟨S2048x1024, .f32⟩ : BufTy).Contents (Elt F) → (⟨S2048x1024, .f32⟩ : BufTy).Contents (Elt F)),
    StableHlo.binary main_v262 main_v303 main_v304 (minimumf : (⟨S2048x1024, .f32⟩ : BufTy).Contents (Elt F) → (⟨S2048x1024, .f32⟩ : BufTy).Contents (Elt F) → (⟨S2048x1024, .f32⟩ : BufTy).Contents (Elt F)),
    StableHlo.nullary main_c_78 (constantI S_ 32 2#32),
    StableHlo.unary main_c_78 main_v305 (broadcastInDim S2048x1024 ![] bcast_S_S2048x1024 : (⟨S_, .i32⟩ : BufTy).Contents (Elt F) → (⟨S2048x1024, .i32⟩ : BufTy).Contents (Elt F)),
    StableHlo.binary main_v305 main_v270 main_v306 (muli : (⟨S2048x1024, .i32⟩ : BufTy).Contents (Elt F) → (⟨S2048x1024, .i32⟩ : BufTy).Contents (Elt F) → (⟨S2048x1024, .i32⟩ : BufTy).Contents (Elt F)),
    StableHlo.nullary main_c_79 (constantI S_ 32 1#32),
    StableHlo.unary main_c_79 main_v307 (broadcastInDim S2048x1024 ![] bcast_S_S2048x1024 : (⟨S_, .i32⟩ : BufTy).Contents (Elt F) → (⟨S2048x1024, .i32⟩ : BufTy).Contents (Elt F)),
    StableHlo.binary main_v306 main_v307 main_v308 (addi : (⟨S2048x1024, .i32⟩ : BufTy).Contents (Elt F) → (⟨S2048x1024, .i32⟩ : BufTy).Contents (Elt F) → (⟨S2048x1024, .i32⟩ : BufTy).Contents (Elt F)),
    StableHlo.nullary main_cst_80 (constant S_ .f32 0x00000000#32),
    StableHlo.unary main_cst_80 main_v309 (broadcastInDim S2048x1024 ![] bcast_S_S2048x1024 : (⟨S_, .f32⟩ : BufTy).Contents (Elt F) → (⟨S2048x1024, .f32⟩ : BufTy).Contents (Elt F)),
    StableHlo.binary main_v302 main_v309 main_v310 (cmpf .ogt : (⟨S2048x1024, .f32⟩ : BufTy).Contents (Elt F) → (⟨S2048x1024, .f32⟩ : BufTy).Contents (Elt F) → (⟨S2048x1024, .i1⟩ : BufTy).Contents (Elt F)),
    StableHlo.unary main_v310 main_v311 ((extui 32 · natLt_1_32) : (⟨S2048x1024, .i1⟩ : BufTy).Contents (Elt F) → (⟨S2048x1024, .i32⟩ : BufTy).Contents (Elt F)),
    StableHlo.binary main_v308 main_v311 main_v312 (addi : (⟨S2048x1024, .i32⟩ : BufTy).Contents (Elt F) → (⟨S2048x1024, .i32⟩ : BufTy).Contents (Elt F) → (⟨S2048x1024, .i32⟩ : BufTy).Contents (Elt F)),
    StableHlo.nullary main_c_81 (constantI S_ 32 127#32),
    StableHlo.unary main_c_81 main_v313 (broadcastInDim S2048x1024 ![] bcast_S_S2048x1024 : (⟨S_, .i32⟩ : BufTy).Contents (Elt F) → (⟨S2048x1024, .i32⟩ : BufTy).Contents (Elt F)),
    StableHlo.binary main_v312 main_v313 main_v314 (subi : (⟨S2048x1024, .i32⟩ : BufTy).Contents (Elt F) → (⟨S2048x1024, .i32⟩ : BufTy).Contents (Elt F) → (⟨S2048x1024, .i32⟩ : BufTy).Contents (Elt F)),
    StableHlo.unary main_v304 main_v315 (broadcastInDim S2048x1024x1 ![0, 1] bcast_S2048x1024_S2048x1024x1_0_1 : (⟨S2048x1024, .f32⟩ : BufTy).Contents (Elt F) → (⟨S2048x1024x1, .f32⟩ : BufTy).Contents (Elt F)),
    StableHlo.nullary main_c_82 (constantI S_ 32 0#32),
    StableHlo.unary main_c_82 main_v316 (broadcastInDim S1x1024 ![] bcast_S_S1x1024 : (⟨S_, .i32⟩ : BufTy).Contents (Elt F) → (⟨S1x1024, .i32⟩ : BufTy).Contents (Elt F)),
    StableHlo.binary main_v16 main_v316 main_v317 (cmpi .slt : (⟨S1x1024, .i32⟩ : BufTy).Contents (Elt F) → (⟨S1x1024, .i32⟩ : BufTy).Contents (Elt F) → (⟨S1x1024, .i1⟩ : BufTy).Contents (Elt F)),
    StableHlo.nullary main_c_83 (constantI S_ 32 1024#32),
    StableHlo.unary main_c_83 main_v318 (broadcastInDim S1x1024 ![] bcast_S_S1x1024 : (⟨S_, .i32⟩ : BufTy).Contents (Elt F) → (⟨S1x1024, .i32⟩ : BufTy).Contents (Elt F)),
    StableHlo.binary main_v16 main_v318 main_v319 (addi : (⟨S1x1024, .i32⟩ : BufTy).Contents (Elt F) → (⟨S1x1024, .i32⟩ : BufTy).Contents (Elt F) → (⟨S1x1024, .i32⟩ : BufTy).Contents (Elt F)),
    StableHlo.ternary main_v317 main_v319 main_v16 main_v320 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    StableHlo.nullary main_c_84 (constantI S_ 32 0#32),
    StableHlo.unary main_c_84 main_v321 (broadcastInDim S2048x1024 ![] bcast_S_S2048x1024 : (⟨S_, .i32⟩ : BufTy).Contents (Elt F) → (⟨S2048x1024, .i32⟩ : BufTy).Contents (Elt F)),
    StableHlo.binary main_v314 main_v321 main_v322 (cmpi .slt : (⟨S2048x1024, .i32⟩ : BufTy).Contents (Elt F) → (⟨S2048x1024, .i32⟩ : BufTy).Contents (Elt F) → (⟨S2048x1024, .i1⟩ : BufTy).Contents (Elt F)),
    StableHlo.nullary main_c_85 (constantI S_ 32 128#32),
    StableHlo.unary main_c_85 main_v323 (broadcastInDim S2048x1024 ![] bcast_S_S2048x1024 : (⟨S_, .i32⟩ : BufTy).Contents (Elt F) → (⟨S2048x1024, .i32⟩ : BufTy).Contents (Elt F)),
    StableHlo.binary main_v314 main_v323 main_v324 (addi : (⟨S2048x1024, .i32⟩ : BufTy).Contents (Elt F) → (⟨S2048x1024, .i32⟩ : BufTy).Contents (Elt F) → (⟨S2048x1024, .i32⟩ : BufTy).Contents (Elt F)),
    StableHlo.ternary main_v322 main_v324 main_v314 main_v325 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    StableHlo.unary main_v320 main_v326 (broadcastInDim S2048x1024 ![0, 1] bcast_S1x1024_S2048x1024_0_1 : (⟨S1x1024, .i32⟩ : BufTy).Contents (Elt F) → (⟨S2048x1024, .i32⟩ : BufTy).Contents (Elt F)),
    StableHlo.unary main_v326 main_v327 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.unary main_v325 main_v328 (broadcastInDim S2048x1024x1 ![0, 1] bcast_S2048x1024_S2048x1024x1_0_1 : (⟨S2048x1024, .i32⟩ : BufTy).Contents (Elt F) → (⟨S2048x1024x1, .i32⟩ : BufTy).Contents (Elt F)),
    StableHlo.binary main_v327 main_v328 main_v329 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    StableHlo.binary main_arg3 main_v329 main_v330 ((fun x i => Host.gather gather_S1024x128x10_S2048x1024x2_S2048x1024x10_2_01_n_n_01_2_1110 x i) : (⟨S1024x128x10, .f32⟩ : BufTy).Contents (Elt F) → (⟨S2048x1024x2, .i32⟩ : BufTy).Contents (Elt F) → (⟨S2048x1024x10, .f32⟩ : BufTy).Contents (Elt F)),
    StableHlo.unary main_v315 main_v331 (broadcastInDim S2048x1024x10 ![0, 1, 2] bcast_S2048x1024x1_S2048x1024x10_0_1_2 : (⟨S2048x1024x1, .f32⟩ : BufTy).Contents (Elt F) → (⟨S2048x1024x10, .f32⟩ : BufTy).Contents (Elt F)) ]

set_option maxHeartbeats 40000000 in
/-- The 3 operations of main_part7 (its 3 statements, calls replaced by their bodies). -/
abbrev ops_7 : List (HloOp τ sig (Elt F)) :=
  [ StableHlo.binary main_v331 main_v330 main_v332 (mulf : (⟨S2048x1024x10, .f32⟩ : BufTy).Contents (Elt F) → (⟨S2048x1024x10, .f32⟩ : BufTy).Contents (Elt F) → (⟨S2048x1024x10, .f32⟩ : BufTy).Contents (Elt F)),
    StableHlo.nullary main_cst_86 (constant S_ .f32 0x00000000#32),
    StableHlo.binary main_v332 main_cst_86 main_v333 ((fun x v => Host.reduceAdd x v reducesTo_S2048x1024x10_S2048x10_d1 h_S_) : (⟨S2048x1024x10, .f32⟩ : BufTy).Contents (Elt F) → (⟨S_, .f32⟩ : BufTy).Contents (Elt F) → (⟨S2048x10, .f32⟩ : BufTy).Contents (Elt F)) ]

/-- @main's operations in order: the windows' lists one after the other. -/
abbrev ops : List (HloOp τ sig (Elt F)) :=
  ops_0 ++ (ops_1 ++ (ops_2 ++ (ops_3 ++ (ops_4 ++ (ops_5 ++ (ops_6 ++ (ops_7)))))))

end Cert.ReferenceIdeal.Hand

end
-- ==== Proof.RefRun.lean ====
/- The reference's run. @main of the reference program is the straight line of its host operations (the table of
   RefOps.lean: each window's statements in order, every call replaced by the callee's body over the call's record of
   buffers), so every weakly fair execution terminates with each buffer at the operations' fold over the launch
   contents; and the five argument buffers, which no operation writes, end as they began. -/
import proofs.«409293_j18485539242413_1_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line

Window by window. A window's statements are host steps and calls; a call is its callee's definition applied, whose
statements are again host steps (and, in the variance, one more call). Unfolding the definitions at the calls leaves
one chain of host steps, which is the window's list run in order once the sequencing is reassociated. -/

set_option maxRecDepth 8192 in
set_option maxHeartbeats 4000000 in
theorem main_part0_eq (c : Dev nD) : main_part0 (F := F) c = seq ops_0 := by
  simp only [main_part0, fn_var.body, fn_where.body, seq, bind_assoc, pure_bind]
  rfl

set_option maxRecDepth 8192 in
set_option maxHeartbeats 4000000 in
theorem main_part1_eq (c : Dev nD) : main_part1 (F := F) c = seq ops_1 := by
  simp only [main_part1, fn_take_along_axis.body, seq, bind_assoc, pure_bind]
  rfl

set_option maxRecDepth 8192 in
set_option maxHeartbeats 4000000 in
theorem main_part2_eq (c : Dev nD) : main_part2 (F := F) c = seq ops_2 := by
  simp only [main_part2, fn_take_along_axis.body, seq, bind_assoc, pure_bind]
  rfl

set_option maxRecDepth 8192 in
set_option maxHeartbeats 4000000 in
theorem main_part3_eq (c : Dev nD) : main_part3 (F := F) c = seq ops_3 := by
  simp only [main_part3, fn_take_along_axis.body, seq, bind_assoc, pure_bind]
  rfl

set_option maxRecDepth 8192 in
set_option maxHeartbeats 4000000 in
theorem main_part4_eq (c : Dev nD) : main_part4 (F := F) c = seq ops_4 := by
  simp only [main_part4, fn_take_along_axis.body, seq, bind_assoc, pure_bind]
  rfl

set_option maxRecDepth 8192 in
set_option maxHeartbeats 4000000 in
theorem main_part5_eq (c : Dev nD) : main_part5 (F := F) c = seq ops_5 := by
  simp only [main_part5, fn_take_along_axis.body, seq, bind_assoc, pure_bind]
  rfl

set_option maxRecDepth 8192 in
set_option maxHeartbeats 4000000 in
theorem main_part6_eq (c : Dev nD) : main_part6 (F := F) c = seq ops_6 := by
  simp only [main_part6, fn_take_along_axis.body, seq, bind_assoc, pure_bind]
  rfl

theorem main_part7_eq (c : Dev nD) : main_part7 (F := F) c = seq ops_7 := rfl

/-- @main runs its windows one after the other, and a list run after a list is their concatenation run as one. -/
theorem main_eq (c : Dev nD) : main (F := F) c = seq ops := by
  simp only [ops, seq_append, ← main_part0_eq c, ← main_part1_eq c, ← main_part2_eq c, ← main_part3_eq c,
    ← main_part4_eq c, ← main_part5_eq c, ← main_part6_eq c, ← main_part7_eq c]
  rfl

/-! ## What holds of every operation holds window by window -/

/-- A property of every operation of every window is one of every operation of @main. -/
theorem forall_ops {p : HloOp τ sig (Elt F) → Prop} (h0 : ops_0.Forall p) (h1 : ops_1.Forall p) (h2 : ops_2.Forall p)
    (h3 : ops_3.Forall p) (h4 : ops_4.Forall p) (h5 : ops_5.Forall p) (h6 : ops_6.Forall p) (h7 : ops_7.Forall p) :
    (ops : List (HloOp τ sig (Elt F))).Forall p :=
  List.forall_iff_forall_mem.mpr fun op h => by
    simp only [ops, List.mem_append] at h
    rcases h with h | h | h | h | h | h | h | h
    exacts [List.forall_iff_forall_mem.mp h0 op h, List.forall_iff_forall_mem.mp h1 op h,
      List.forall_iff_forall_mem.mp h2 op h, List.forall_iff_forall_mem.mp h3 op h,
      List.forall_iff_forall_mem.mp h4 op h, List.forall_iff_forall_mem.mp h5 op h,
      List.forall_iff_forall_mem.mp h6 op h, List.forall_iff_forall_mem.mp h7 op h]

/-! ## Every operation touches TensorCore references only -/

/-- Over a literal list: the conjunction of one builder fact per operation. -/
macro "bufs_sub_each" : tactic =>
  `(tactic| simp only [List.Forall, nullary_bufs_sub, unary_bufs_sub, binary_bufs_sub, ternary_bufs_sub,
      reshape_bufs_sub, and_self])

theorem ops_0_sub : (ops_0 : List (HloOp τ sig (Elt F))).Forall fun op => op.bufs ⊆ tcRefs τ sig := by bufs_sub_each
theorem ops_1_sub : (ops_1 : List (HloOp τ sig (Elt F))).Forall fun op => op.bufs ⊆ tcRefs τ sig := by bufs_sub_each
theorem ops_2_sub : (ops_2 : List (HloOp τ sig (Elt F))).Forall fun op => op.bufs ⊆ tcRefs τ sig := by bufs_sub_each
theorem ops_3_sub : (ops_3 : List (HloOp τ sig (Elt F))).Forall fun op => op.bufs ⊆ tcRefs τ sig := by bufs_sub_each
theorem ops_4_sub : (ops_4 : List (HloOp τ sig (Elt F))).Forall fun op => op.bufs ⊆ tcRefs τ sig := by bufs_sub_each
theorem ops_5_sub : (ops_5 : List (HloOp τ sig (Elt F))).Forall fun op => op.bufs ⊆ tcRefs τ sig := by bufs_sub_each
theorem ops_6_sub : (ops_6 : List (HloOp τ sig (Elt F))).Forall fun op => op.bufs ⊆ tcRefs τ sig := by bufs_sub_each
theorem ops_7_sub : (ops_7 : List (HloOp τ sig (Elt F))).Forall fun op => op.bufs ⊆ tcRefs τ sig := by bufs_sub_each

theorem ops_sub : (ops : List (HloOp τ sig (Elt F))).Forall fun op => op.bufs ⊆ tcRefs τ sig :=
  forall_ops ops_0_sub ops_1_sub ops_2_sub ops_3_sub ops_4_sub ops_5_sub ops_6_sub ops_7_sub

/-! ## Every operation determines its results -/

/-- Over a literal list: each builder's operation leaves nothing to choose, by computation. -/
macro "fresh_each" : tactic =>
  `(tactic| (simp only [List.Forall]
             repeat' constructor
             all_goals rfl))

theorem ops_0_fresh : (ops_0 : List (HloOp τ sig (Elt F))).Forall fun op => op.fresh = ∅ := by fresh_each
theorem ops_1_fresh : (ops_1 : List (HloOp τ sig (Elt F))).Forall fun op => op.fresh = ∅ := by fresh_each
theorem ops_2_fresh : (ops_2 : List (HloOp τ sig (Elt F))).Forall fun op => op.fresh = ∅ := by fresh_each
theorem ops_3_fresh : (ops_3 : List (HloOp τ sig (Elt F))).Forall fun op => op.fresh = ∅ := by fresh_each
theorem ops_4_fresh : (ops_4 : List (HloOp τ sig (Elt F))).Forall fun op => op.fresh = ∅ := by fresh_each
theorem ops_5_fresh : (ops_5 : List (HloOp τ sig (Elt F))).Forall fun op => op.fresh = ∅ := by fresh_each
theorem ops_6_fresh : (ops_6 : List (HloOp τ sig (Elt F))).Forall fun op => op.fresh = ∅ := by fresh_each
theorem ops_7_fresh : (ops_7 : List (HloOp τ sig (Elt F))).Forall fun op => op.fresh = ∅ := by fresh_each

theorem ops_fresh : ∀ op ∈ (ops : List (HloOp τ sig (Elt F))), op.fresh = ∅ :=
  List.forall_iff_forall_mem.mp
    (forall_ops ops_0_fresh ops_1_fresh ops_2_fresh ops_3_fresh ops_4_fresh ops_5_fresh ops_6_fresh ops_7_fresh)

/-! ## No operation writes an argument

The arguments are the first five buffers of the table; every operation writes one buffer, a value's, and the values'
buffers come after them. -/

/-- The operation writes none of the first five buffers. -/
def KeepsArgs (op : HloOp τ sig (Elt F)) : Prop :=
  ∀ r : Ref sig .tc, r.idx.val < 5 → (Proc.devRef .tc r : DevRef τ sig) ∉ op.writes

/-- An operation whose one written buffer is the sixth or a later one writes none of the first five. -/
theorem keepsArgs_of_writes {op : HloOp τ sig (Elt F)} {y : Ref sig .tc}
    (hw : op.writes = {(Proc.devRef .tc y : DevRef τ sig)}) (hy : 5 ≤ y.idx.val) : KeepsArgs op := by
  intro r hr hm
  rw [hw, Finset.mem_singleton] at hm
  have e : r = y := Proc.devRef_injective _ hm
  rw [e] at hr
  omega

/-- Over a literal list: each builder's operation writes its result buffer only, whose index is a literal. -/
macro "keeps_each" : tactic =>
  `(tactic| (simp only [List.Forall]
             repeat' constructor
             all_goals exact keepsArgs_of_writes rfl (by decide)))

theorem ops_0_keeps : (ops_0 : List (HloOp τ sig (Elt F))).Forall KeepsArgs := by keeps_each
theorem ops_1_keeps : (ops_1 : List (HloOp τ sig (Elt F))).Forall KeepsArgs := by keeps_each
theorem ops_2_keeps : (ops_2 : List (HloOp τ sig (Elt F))).Forall KeepsArgs := by keeps_each
theorem ops_3_keeps : (ops_3 : List (HloOp τ sig (Elt F))).Forall KeepsArgs := by keeps_each
theorem ops_4_keeps : (ops_4 : List (HloOp τ sig (Elt F))).Forall KeepsArgs := by keeps_each
theorem ops_5_keeps : (ops_5 : List (HloOp τ sig (Elt F))).Forall KeepsArgs := by keeps_each
theorem ops_6_keeps : (ops_6 : List (HloOp τ sig (Elt F))).Forall KeepsArgs := by keeps_each
theorem ops_7_keeps : (ops_7 : List (HloOp τ sig (Elt F))).Forall KeepsArgs := by keeps_each

/-- An argument's buffer holds after the line what it held before. -/
theorem after_arg (V : Valuation τ sig (Elt F)) (r : Ref sig .tc) (hr : r.idx.val < 5) :
    after ops V (Proc.devRef .tc r) = V (Proc.devRef .tc r) :=
  after_of_forall_not_mem ops V fun op hop =>
    List.forall_iff_forall_mem.mp
      (forall_ops ops_0_keeps ops_1_keeps ops_2_keeps ops_3_keeps ops_4_keeps ops_5_keeps ops_6_keeps ops_7_keeps)
      op hop r hr

/-- The fold over @main's operations is the windows' folds one after the other. -/
theorem after_ops (V : Valuation τ sig (Elt F)) :
    after ops V = after ops_7 (after ops_6 (after ops_5 (after ops_4 (after ops_3 (after ops_2 (after ops_1 (after ops_0 V))))))) := by
  simp only [ops, after_append]

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the operations' fold over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The run leaves the five arguments as they were. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_arg0).trans (after_arg _ main_arg0 (by decide)),
        (h c main_arg1).trans (after_arg _ main_arg1 (by decide)),
        (h c main_arg2).trans (after_arg _ main_arg2 (by decide)),
        (h c main_arg3).trans (after_arg _ main_arg3 (by decide)),
        (h c main_arg4).trans (after_arg _ main_arg4 (by decide))⟩)
    (run_raw m ρ)

end Cert.ReferenceIdeal.Hand

end
-- ==== Proof.Spec.lean ====
/-
  The mathematics both programs compute, over the extended reals, as plain functions of the five argument arrays
  (x : 2048×256, W : 26009×256, thr : 1024×127, wts : 1024×128×10 extended reals; ord : 1024×127 words).

  1. The projection  p(f,b) = Σₖ x(b,k)·W(f,k), and its normalisation over the batch:
     mean(f) = (Σ_b p(f,b)) / 2048,  cen(f,b) = p(f,b) − mean(f),  var(f) = (Σ_b cen(f,b)²) / 2048,
     h(f,b) = cen(f,b) · rsqrt(var(f) + ε).
  2. For every tree t and sample b a walk of seven steps down a complete binary tree in heap order: from node 0 with
     margin +∞; at node n the value v = h(ord(t,n), b) − thr(t,n); the margin becomes min(margin, |v|) and the node
     2n + 1 + [v > 0].  After seven steps the node is a leaf 127 + l, l < 128.
  3. The result  out(b,e) = Σ_t margin(t,b) · wts(t, l(t,b), e).

  Indices out of range read 0 (total functions over ℕ): along a walk they never occur (route_lt).
-/
import Idealize.ShloMosaic.PureOps.Ideal
import Mathlib.Algebra.BigOperators.Fin

noncomputable section

namespace Cert.Spec

open Idealize.ShloMosaic

variable (x : Fin 2048 → Fin 256 → EReal) (W : Fin 26009 → Fin 256 → EReal)
  (thr : Fin 1024 → Fin 127 → EReal) (wts : Fin 1024 → Fin 128 → Fin 10 → EReal)
  (ord : Fin 1024 → Fin 127 → BitVec 32)

/-- The batch size as both programs write it (the f32 pattern of 2048). -/
def c2048 : EReal := Ideal.ofBits .f32 0x45000000#32
/-- The variance's offset as both programs write it (the f32 pattern nearest 1e-5). -/
def eps : EReal := Ideal.ofBits .f32 0x3727C5AC#32

/-- The projection of sample `b` on feature `f`. -/
def proj (f : Fin 26009) (b : Fin 2048) : EReal := ∑ k : Fin 256, x b k * W f k
/-- Its mean over the batch. -/
def mean (f : Fin 26009) : EReal := Ideal.div (∑ b : Fin 2048, proj x W f b) c2048
/-- The centred projection. -/
def cen (f : Fin 26009) (b : Fin 2048) : EReal := proj x W f b - mean x W f
/-- The (biased) variance over the batch. -/
def var (f : Fin 26009) : EReal := Ideal.div (∑ b : Fin 2048, cen x W f b * cen x W f b) c2048
/-- The normalised feature. -/
def hn (f : Fin 26009) (b : Fin 2048) : EReal := cen x W f b * Ideal.rsqrt (var x W f + eps)

/-- The normalised feature at a natural-number index (0 past the end). -/
def hAt (f : ℕ) (b : Fin 2048) : EReal := if h : f < 26009 then hn x W ⟨f, h⟩ b else 0
/-- The feature a node of tree `t` reads, as a natural number (0 past the last inner node). -/
def ordAt (t : Fin 1024) (n : ℕ) : ℕ := if h : n < 127 then (ord t ⟨n, h⟩).toNat else 0
/-- The threshold of a node of tree `t` (0 past the last inner node). -/
def thrAt (t : Fin 1024) (n : ℕ) : EReal := if h : n < 127 then thr t ⟨n, h⟩ else 0

/-- The decision value of sample `b` at node `n` of tree `t`. -/
def val (t : Fin 1024) (b : Fin 2048) (n : ℕ) : EReal := hAt x W (ordAt ord t n) b - thrAt thr t n

/-- One step of the walk: the child chosen by the sign of the value, the margin lowered to its magnitude. -/
def step (t : Fin 1024) (b : Fin 2048) (s : ℕ × EReal) : ℕ × EReal :=
  (2 * s.1 + 1 + (if 0 < val x W thr ord t b s.1 then 1 else 0),
   min s.2 (max (val x W thr ord t b s.1) (-(val x W thr ord t b s.1))))

/-- The walk after `k` steps: the node reached and the least magnitude met. -/
def route (t : Fin 1024) (b : Fin 2048) : ℕ → ℕ × EReal
  | 0 => (0, ⊤)
  | k + 1 => step x W thr ord t b (route t b k)

theorem route_zero (t : Fin 1024) (b : Fin 2048) : route x W thr ord t b 0 = (0, ⊤) := rfl
theorem route_succ (t : Fin 1024) (b : Fin 2048) (k : ℕ) :
    route x W thr ord t b (k + 1) = step x W thr ord t b (route x W thr ord t b k) := rfl

/-- After `k` steps the node lies on level `k` of the heap: `2^k − 1 ≤ n < 2^(k+1) − 1`. -/
theorem route_bounds (t : Fin 1024) (b : Fin 2048) (k : ℕ) :
    2 ^ k - 1 ≤ (route x W thr ord t b k).1 ∧ (route x W thr ord t b k).1 + 1 < 2 ^ (k + 1) := by
  induction k with
  | zero => simp [route]
  | succ k ih =>
    obtain ⟨h1, h2⟩ := ih
    have hp : 1 ≤ 2 ^ k := Nat.one_le_two_pow
    have e1 : 2 ^ (k + 1) = 2 * 2 ^ k := by rw [pow_succ]; ring
    have e2 : 2 ^ (k + 1 + 1) = 2 * (2 * 2 ^ k) := by rw [pow_succ, pow_succ]; ring
    rw [route_succ]; unfold step; dsimp only
    rw [e2]; rw [e1] at h2 ⊢
    split <;> constructor <;> omega

/-- The leaf reached, counted from the first leaf. -/
def leaf (t : Fin 1024) (b : Fin 2048) : ℕ := (route x W thr ord t b 7).1 - 127
/-- The least magnitude met on the way. -/
def margin (t : Fin 1024) (b : Fin 2048) : EReal := (route x W thr ord t b 7).2

theorem leaf_lt (t : Fin 1024) (b : Fin 2048) : leaf x W thr ord t b < 128 := by
  have h := (route_bounds x W thr ord t b 7).2
  unfold leaf; norm_num at h; omega

theorem leaf_node (t : Fin 1024) (b : Fin 2048) : (route x W thr ord t b 7).1 = leaf x W thr ord t b + 127 := by
  have h := (route_bounds x W thr ord t b 7).1
  unfold leaf; norm_num at h; omega

/-- The leaf weights of tree `t` at a natural-number leaf (0 past the end). -/
def wAt (t : Fin 1024) (l : ℕ) (e : Fin 10) : EReal := if h : l < 128 then wts t ⟨l, h⟩ e else 0

/-- The contribution of tree `t` to sample `b`. -/
def contrib (t : Fin 1024) (b : Fin 2048) (e : Fin 10) : EReal :=
  margin x W thr ord t b * wAt wts t (leaf x W thr ord t b) e

/-- THE RESULT both programs end with. -/
def out (b : Fin 2048) (e : Fin 10) : EReal := ∑ t : Fin 1024, contrib x W thr wts ord t b e

end Cert.Spec

end
-- ==== Proof.RefMathIdx.lean ====
/-
  Host operations read at one index: the three gathers of the routing (a table element named by a two-word start
  index held in a rank-3 array of start indices; a row-batched element named by one word; a table row named by two
  words), the and-reduction and the reshape along a trailing unit axis, the two-plane concatenation along the last
  axis, and the broadcasts that move a vector or a rectangle into a larger shape.  All at any extents.
-/
import Idealize.ShloMosaic.Lib.ValueIdx
import Idealize.ShloMosaic.Lib.Pipeline.Value
import Idealize.ShloMosaic.PureOps.ShapeOps
import Idealize.ShloMosaic.PureOps.Dims
import Idealize.ShloMosaic.PureOps.Contract

namespace Cert.ReferenceIdeal.HandVal

open Idealize.ShloMosaic Idealize.ShloMosaic.ValueIdx

/-- A word read signed and clamped into an axis of extent `U`. -/
def clampTo {w : Nat} (U : Nat) (hU : 0 < U) (z : BitVec w) : Fin U := ⟨min z.toInt.toNat (U - 1), by omega⟩

theorem clampTo_val {w : Nat} (U : Nat) (hU : 0 < U) (z : BitVec w) : (clampTo U hU z).val = min z.toInt.toNat (U - 1) := rfl

/-- A word that, read signed, is a position of the axis names that position. -/
theorem clampTo_of_lt {w : Nat} (U : Nat) (hU : 0 < U) (z : BitVec w) (n : Nat) (hz : z.toInt = (n : Int)) (hn : n < U) :
    clampTo U hU z = ⟨n, hn⟩ := by
  apply Fin.ext
  rw [clampTo_val, hz]
  simp only [Int.toNat_natCast]
  omega

/-! ## The gathers -/

/-- Single elements of a table `[U, V]` named by the two words of a start index, the start indices a `[B, T, 2]`
    array: result element `(b, t)` is the table at the two words of row `(b, t)`, each clamped into its axis. -/
theorem gather_point3 {α : Type} {U V B T w : Nat} (d : GatherDims ⟨2, ![U, V]⟩ ⟨3, ![B, T, 2]⟩ ⟨2, ![B, T]⟩)
    (hod : d.offsetDims = []) (hcoll : d.collapsedSliceDims = [0, 1]) (hob : d.operandBatchingDims = [])
    (hsim : d.startIndexMap = [0, 1]) (hivd : d.indexVectorDim = 2) (hU : 0 < U) (hV : 0 < V)
    (x : (⟨2, ![U, V]⟩ : Shape).Idx → α) (idx : IVec ⟨3, ![B, T, 2]⟩ w) (b : Fin B) (t : Fin T) :
    Host.gather d x idx (ix2 b t) = x (ix2 (clampTo U hU (idx (ix3 b t 0))) (clampTo V hV (idx (ix3 b t 1)))) := by
  have hsl0 : d.sliceSizes 0 = 1 := d.slice_collapsed 0 (by rw [hcoll]; exact List.mem_cons_self)
  have hsl1 : d.sliceSizes 1 = 1 :=
    d.slice_collapsed 1 (by rw [hcoll]; exact List.mem_cons_of_mem _ (List.mem_singleton.mpr rfl))
  obtain ⟨od, cd, ob, sb, sm, iv, ss, wf⟩ := d
  dsimp only at hod hcoll hob hsim hivd hsl0 hsl1
  subst hod hcoll hob hsim hivd
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 List.mem_cons_self)]
    unfold GatherDims.start
    rw [dif_pos List.mem_cons_self]
    show min (idx _).toInt.toNat (U - ss 0) = min (idx (ix3 b t 0)).toInt.toNat (U - 1)
    rw [hsl0]
    refine congrArg (fun v => min (idx v).toInt.toNat (U - 1)) ?_
    funext q
    refine Fin.ext ?_
    match q with
    | ⟨0, _⟩ => rfl
    | ⟨1, _⟩ => rfl
    | ⟨2, _⟩ => rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    unfold GatherDims.start
    rw [dif_pos (List.mem_cons_of_mem _ (List.mem_singleton.mpr rfl))]
    show min (idx _).toInt.toNat (V - ss 1) = min (idx (ix3 b t 1)).toInt.toNat (V - 1)
    rw [hsl1]
    refine congrArg (fun v => min (idx v).toInt.toNat (V - 1)) ?_
    funext q
    refine Fin.ext ?_
    match q with
    | ⟨0, _⟩ => rfl
    | ⟨1, _⟩ => rfl
    | ⟨2, _⟩ => rfl

/-- Rows of a table `[U, V, E]` named by the two words of a start index: result element `(b, t, e)` is the table at
    the two clamped words of row `(b, t)` and position `e` of the kept axis. -/
theorem gather_row3 {α : Type} {U V E B T w : Nat} (d : GatherDims ⟨3, ![U, V, E]⟩ ⟨3, ![B, T, 2]⟩ ⟨3, ![B, T, E]⟩)
    (hod : d.offsetDims = [2]) (hcoll : d.collapsedSliceDims = [0, 1]) (hob : d.operandBatchingDims = [])
    (hsim : d.startIndexMap = [0, 1]) (hivd : d.indexVectorDim = 2) (hU : 0 < U) (hV : 0 < V)
    (x : (⟨3, ![U, V, E]⟩ : Shape).Idx → α) (idx : IVec ⟨3, ![B, T, 2]⟩ w) (b : Fin B) (t : Fin T) (e : Fin E) :
    Host.gather d x idx (ix3 b t e)
      = x (ix3 (clampTo U hU (idx (ix3 b t 0))) (clampTo V hV (idx (ix3 b t 1))) e) := by
  have hsl0 : d.sliceSizes 0 = 1 := d.slice_collapsed 0 (by rw [hcoll]; exact List.mem_cons_self)
  have hsl1 : d.sliceSizes 1 = 1 :=
    d.slice_collapsed 1 (by rw [hcoll]; exact List.mem_cons_of_mem _ (List.mem_singleton.mpr rfl))
  obtain ⟨od, cd, ob, sb, sm, iv, ss, wf⟩ := d
  dsimp only at hod hcoll hob hsim hivd hsl0 hsl1
  subst hod hcoll hob hsim hivd
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 List.mem_cons_self)]
    unfold GatherDims.start
    rw [dif_pos List.mem_cons_self]
    show min (idx _).toInt.toNat (U - ss 0) = min (idx (ix3 b t 0)).toInt.toNat (U - 1)
    rw [hsl0]
    refine congrArg (fun v => min (idx v).toInt.toNat (U - 1)) ?_
    funext q
    refine Fin.ext ?_
    match q with
    | ⟨0, _⟩ => rfl
    | ⟨1, _⟩ => rfl
    | ⟨2, _⟩ => rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    unfold GatherDims.start
    rw [dif_pos (List.mem_cons_of_mem _ (List.mem_singleton.mpr rfl))]
    show min (idx _).toInt.toNat (V - ss 1) = min (idx (ix3 b t 1)).toInt.toNat (V - 1)
    rw [hsl1]
    refine congrArg (fun v => min (idx v).toInt.toNat (V - 1)) ?_
    funext q
    refine Fin.ext ?_
    match q with
    | ⟨0, _⟩ => rfl
    | ⟨1, _⟩ => rfl
    | ⟨2, _⟩ => rfl
  | ⟨2, _⟩ =>
    show GatherDims.start _ _ idx 2 + GatherDims.batchCoord _ _ 2 + GatherDims.offCoord _ _ 2 = _
    rw [GatherDims.batchCoord_eq_zero _ _ _ List.not_mem_nil]
    unfold GatherDims.start
    rw [dif_neg (show (2 : Fin 3) ∉ ([0, 1] : List (Fin 3)) by decide)]
    unfold GatherDims.offCoord
    rw [dif_pos ((GatherDims.mem_sKept _ _).2 ⟨show (2 : Fin 3) ∉ ([0, 1] : List (Fin 3)) by decide, List.not_mem_nil⟩)]
    simp only [Nat.zero_add, Nat.add_zero]
    rfl

/-- One element per row of a `[B, N]` table, the row axis a batching axis of operand and start indices alike (taking
    along the second axis): result element `(b, t)` is the table at row `b` and the clamped word of `(b, t)`. -/
theorem gather_batched {α : Type} {B N T w : Nat} (d : GatherDims ⟨2, ![B, N]⟩ ⟨3, ![B, T, 1]⟩ ⟨2, ![B, T]⟩)
    (hod : d.offsetDims = []) (hcoll : d.collapsedSliceDims = [1]) (hob : d.operandBatchingDims = [0])
    (hsb : d.startIndicesBatchingDims = [0]) (hsim : d.startIndexMap = [1]) (hivd : d.indexVectorDim = 2) (hN : 0 < N)
    (x : (⟨2, ![B, N]⟩ : Shape).Idx → α) (idx : IVec ⟨3, ![B, T, 1]⟩ w) (b : Fin B) (t : Fin T) :
    Host.gather d x idx (ix2 b t) = x (ix2 b (clampTo N hN (idx (ix3 b t 0)))) := by
  have hsl1 : d.sliceSizes 1 = 1 := d.slice_collapsed 1 (by rw [hcoll]; exact List.mem_cons_self)
  obtain ⟨od, cd, ob, sb, sm, iv, ss, wf⟩ := d
  dsimp only at hod hcoll hob hsb hsim hivd hsl1
  subst hod hcoll hob hsb hsim hivd
  unfold Host.gather
  congr 1
  funext a
  refine Fin.ext ?_
  match a with
  | ⟨0, _⟩ =>
    show GatherDims.start _ _ idx 0 + GatherDims.batchCoord _ _ 0 + GatherDims.offCoord _ _ 0 = _
    rw [GatherDims.offCoord_eq_zero _ _ _ (fun h => ((GatherDims.mem_sKept _ _).mp h).2 List.mem_cons_self)]
    unfold GatherDims.start
    rw [dif_neg (show (0 : Fin 2) ∉ ([1] : List (Fin 2)) by decide)]
    unfold GatherDims.batchCoord
    rw [dif_pos List.mem_cons_self]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ (show (1 : Fin 2) ∉ ([0] : List (Fin 2)) by decide),
      GatherDims.offCoord_eq_zero _ _ _ (fun h => ((GatherDims.mem_sKept _ _).mp h).1 List.mem_cons_self)]
    unfold GatherDims.start
    rw [dif_pos List.mem_cons_self]
    show min (idx _).toInt.toNat (N - ss 1) = min (idx (ix3 b t 0)).toInt.toNat (N - 1)
    rw [hsl1]
    refine congrArg (fun v => min (idx v).toInt.toNat (N - 1)) ?_
    funext q
    refine Fin.ext ?_
    match q with
    | ⟨0, _⟩ => rfl
    | ⟨1, _⟩ => rfl
    | ⟨2, _⟩ => rfl

/-! ## The and-reduction and the reshape along a trailing unit axis -/

private theorem foldl_andi_ones {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a List.mem_cons_self]
    exact foldl_andi_ones f l fun n hn => hl n (List.mem_cons_of_mem _ hn)

private theorem drops_to_plane {B T : Nat} (h : (⟨3, ![B, T, 1]⟩ : Shape).ReducesTo [2] ⟨2, ![B, T]⟩)
    (i : (⟨3, ![B, T, 1]⟩ : Shape).Idx) (b : Fin B) (t : Fin T) (hi : h.drop i = ix2 b t) : i = ix3 b t 0 := by
  have h0 : (h.drop i 0).val = b.val := by rw [hi]; rfl
  have h1 : (h.drop i 1).val = t.val := by rw [hi]; rfl
  funext a
  refine Fin.ext ?_
  match a with
  | ⟨0, _⟩ => exact h0
  | ⟨1, _⟩ => exact h1
  | ⟨2, _⟩ => exact Nat.lt_one_iff.1 (i 2).isLt

/-- The and-reduction of a `[B, T, 1]` array of bits along its unit axis, from 1: 1 where the element is 1. -/
theorem reduce_andi_unit3 {B T : Nat} (x : (⟨3, ![B, T, 1]⟩ : Shape).Idx → BitVec 1) (init : (⟨0, ![]⟩ : Shape).Idx → BitVec 1)
    (h : (⟨3, ![B, T, 1]⟩ : Shape).ReducesTo [2] ⟨2, ![B, T]⟩) (hu : 0 < (⟨0, ![]⟩ : Shape).numel) (b : Fin B) (t : Fin T)
    (hinit : ∀ i, init i = 1#1) (hx : x (ix3 b t 0) = 1#1) : Host.reduce IntOp.andi x init h hu (ix2 b t) = 1#1 := by
  unfold Host.reduce
  rw [hinit]
  refine foldl_andi_ones _ _ fun n hn => ?_
  rw [drops_to_plane h _ b t (of_decide_eq_true (List.mem_filter.1 hn).2)]
  exact hx

/-- A `[B, T]` array seen as `[B, T, 1]` reads the same element. -/
theorem shapeCast_unit3_apply {α : Type} {B T : Nat} (x : (⟨2, ![B, T]⟩ : Shape).Idx → α)
    (h : (⟨2, ![B, T]⟩ : Shape).ShapeCasts ⟨3, ![B, T, 1]⟩) (b : Fin B) (t : Fin T) (c : Fin 1) :
    shapeCast ⟨3, ![B, T, 1]⟩ x h (ix3 b t c) = x (ix2 b t) := by
  refine shapeCast_apply x h _ (ix2 b t) ?_
  rw [Shape.rowMajor_val_two, Shape.rowMajor_val_three]
  have hc : c.val = 0 := Nat.lt_one_iff.1 c.isLt
  show b.val * T + t.val = (b.val * T + t.val) * 1 + c.val
  omega

/-! ## The two-plane concatenation along the last axis -/

theorem cat_planes_zero {α : Type} {B T : Nat} (x₁ x₂ : (⟨3, ![B, T, 1]⟩ : Shape).Idx → α)
    (h : Shape.Concatenates [⟨3, ![B, T, 1]⟩, ⟨3, ![B, T, 1]⟩] ⟨3, ![B, T, 2]⟩ 2) (b : Fin B) (t : Fin T) :
    concatenate ⟨3, ![B, T, 2]⟩ 2 [⟨⟨3, ![B, T, 1]⟩, x₁⟩, ⟨⟨3, ![B, T, 1]⟩, x₂⟩] h (ix3 b t 0) = x₁ (ix3 b t 0) := by
  refine concatenate_pair_apply_left 2 x₁ x₂ h _ rfl (ix3 b t 0) fun q => ?_
  match q with
  | ⟨0, _⟩ => rfl
  | ⟨1, _⟩ => rfl
  | ⟨2, _⟩ => rfl

theorem cat_planes_one {α : Type} {B T : Nat} (x₁ x₂ : (⟨3, ![B, T, 1]⟩ : Shape).Idx → α)
    (h : Shape.Concatenates [⟨3, ![B, T, 1]⟩, ⟨3, ![B, T, 1]⟩] ⟨3, ![B, T, 2]⟩ 2) (b : Fin B) (t : Fin T) :
    concatenate ⟨3, ![B, T, 2]⟩ 2 [⟨⟨3, ![B, T, 1]⟩, x₁⟩, ⟨⟨3, ![B, T, 1]⟩, x₂⟩] h (ix3 b t 1) = x₂ (ix3 b t 0) := by
  refine concatenate_pair_apply_right 2 x₁ x₂ h _ rfl rfl (ix3 b t 0) (fun q hq => ?_) rfl
  match q with
  | ⟨0, _⟩ => rfl
  | ⟨1, _⟩ => rfl
  | ⟨2, _⟩ => exact absurd rfl hq

/-! ## Broadcasts -/

private theorem val_eq_ite {n : Nat} (p : Fin n) : p.val = if n = 1 then 0 else p.val := by
  have := p.isLt
  split <;> omega

/-- A vector as a `[1, T]` row. -/
theorem bc_vec_row {α : Type} {T : Nat} (h : (⟨1, ![T]⟩ : Shape).BroadcastsInDim ⟨2, ![1, T]⟩ ![1])
    (x : (⟨1, ![T]⟩ : Shape).Idx → α) (z : Fin 1) (t : Fin T) :
    broadcastInDim ⟨2, ![1, T]⟩ ![1] h x (ix2 z t) = x (ix1 t) := by
  refine broadcastInDim_apply _ h x _ (ix1 t) fun a => ?_
  match a with
  | ⟨0, _⟩ => exact val_eq_ite t

/-- A `[1, T]` row down the rows of a `[B, T]` rectangle. -/
theorem bc_row_rect {α : Type} {B T : Nat} (h : (⟨2, ![1, T]⟩ : Shape).BroadcastsInDim ⟨2, ![B, T]⟩ ![0, 1])
    (x : (⟨2, ![1, T]⟩ : Shape).Idx → α) (b : Fin B) (t : Fin T) :
    broadcastInDim ⟨2, ![B, T]⟩ ![0, 1] h x (ix2 b t) = x (ix2 0 t) := by
  refine broadcastInDim_apply _ h x _ (ix2 0 t) fun a => ?_
  match a with
  | ⟨0, _⟩ => rfl
  | ⟨1, _⟩ => exact val_eq_ite t

/-- A `[B, T]` rectangle as a `[B, T, 1]` array. -/
theorem bc_rect_unit3 {α : Type} {B T : Nat} (h : (⟨2, ![B, T]⟩ : Shape).BroadcastsInDim ⟨3, ![B, T, 1]⟩ ![0, 1])
    (x : (⟨2, ![B, T]⟩ : Shape).Idx → α) (b : Fin B) (t : Fin T) (c : Fin 1) :
    broadcastInDim ⟨3, ![B, T, 1]⟩ ![0, 1] h x (ix3 b t c) = x (ix2 b t) := by
  refine broadcastInDim_apply _ h x _ (ix2 b t) fun a => ?_
  match a with
  | ⟨0, _⟩ => exact val_eq_ite b
  | ⟨1, _⟩ => exact val_eq_ite t

/-- A `[B, T, 1]` array along a new last axis of extent `E`. -/
theorem bc_unit3_last {α : Type} {B T E : Nat} (h : (⟨3, ![B, T, 1]⟩ : Shape).BroadcastsInDim ⟨3, ![B, T, E]⟩ ![0, 1, 2])
    (x : (⟨3, ![B, T, 1]⟩ : Shape).Idx → α) (b : Fin B) (t : Fin T) (e : Fin E) :
    broadcastInDim ⟨3, ![B, T, E]⟩ ![0, 1, 2] h x (ix3 b t e) = x (ix3 b t 0) := by
  refine broadcastInDim_apply _ h x _ (ix3 b t 0) fun a => ?_
  match a with
  | ⟨0, _⟩ => exact val_eq_ite b
  | ⟨1, _⟩ => exact val_eq_ite t
  | ⟨2, _⟩ => rfl

end Cert.ReferenceIdeal.HandVal
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.RefMathH.lean ====
/-
  The reference's normalised features as a pure function of the two argument arrays, and what it computes.

  The projection is a host matrix product against the transposed weights; its column sums divided by the batch size are
  the means; the variance is the outlined routine's: the column sums of the squared centred projection divided by
  `2048 − 0`, selected where that normaliser is positive (it always is); the result is the centred projection times the
  reciprocal square root of the variance plus the offset.
-/
import proofs.«409293_j18485539242413_1_alg».proof.Proof.Gen.ReferenceIdeal
import proofs.«409293_j18485539242413_1_alg».proof.Proof.Spec
import proofs.«409293_j18485539242413_1_alg».proof.Proof.RefMathIdx
import proofs.«409293_j18485539242413_1_alg».proof.Proof.LibDot
import Idealize.ShloMosaic.Lib.IdealHost
import Idealize.ShloMosaic.PureOps.Ideal.Laws

noncomputable section

namespace Cert.ReferenceIdeal.HandVal

open Cert.ReferenceIdeal Idealize.ShloMosaic Idealize.ShloMosaic.ValueIdx
open Facts₀ Facts

/-! ## General reads -/

/-- The host's float sum down the rows of a rectangle, read at a column: the initial value plus the column's sum. -/
theorem hostReduceAdd_rows {B N : Nat} (h' : (⟨2, ![B, N]⟩ : Shape).ReducesTo [0] ⟨1, ![N]⟩)
    (hR : (⟨2, ![B, N]⟩ : Shape).Reduces [0] ⟨1, ![N]⟩) (x : (⟨2, ![B, N]⟩ : Shape).Idx → EReal) (init : EReal) (f : Fin N) :
    Ideal.hostReduceAdd h' x init (ix1 f) = init + ∑ b : Fin B, x (ix2 b f) := by
  rw [Ideal.hostReduceAdd_single h' hR]
  refine congrArg (init + ·) ?_
  refine Finset.sum_congr rfl fun k _ => congrArg x (funext fun a => Fin.ext ?_)
  match a with
  | ⟨0, _⟩ => rfl
  | ⟨1, _⟩ => rfl

/-- A scalar constant broadcast to any shape reads the real its pattern denotes. -/
theorem bc_const {T : Shape} (h : (⟨0, ![]⟩ : Shape).BroadcastsInDim T ![]) (c : BitVec 32) (j : T.Idx) :
    broadcastInDim T ![] h (constant (F := Ideal) ⟨0, ![]⟩ .f32 c) j = Ideal.ofBits .f32 c := rfl

/-- The host's reciprocal square root at an index. -/
theorem hostRsqrt_apply {s : Shape} (a : FVec Ideal s .f32) (i : s.Idx) : Host.rsqrt a i = Ideal.rsqrt (a i) := rfl

/-- The pattern `0x45000000` denotes 2048. -/
theorem ofBits_2048 : Ideal.ofBits .f32 0x45000000#32 = ((2048 : ℝ) : EReal) := by
  simp [Ideal.ofBits, Ideal.ieee, -EReal.coe_mul]; norm_num

theorem ofBits_2048_pos : (0 : EReal) < Ideal.ofBits .f32 0x45000000#32 := by
  rw [ofBits_2048]; exact EReal.coe_pos.mpr (by norm_num)

variable [Facts]

/-! ## The pure functions -/

/-- The projection: samples times transposed weights. -/
def refProj (x : FVec Ideal S2048x256 .f32) (W : FVec Ideal S26009x256 .f32) : FVec Ideal S2048x26009 .f32 :=
  Host.dotGeneral dot_S2048x256_S256x26009_S2048x26009_1_0_0_1_n_n none x (transpose S256x26009 [1, 0] W transposes_S26009x256_S256x26009_1_0)

/-- The sums down the batch. -/
def colSum (p : FVec Ideal S2048x26009 .f32) : FVec Ideal S26009 .f32 :=
  Host.reduceAdd p (constant S_ .f32 0x00000000#32) reducesTo_S2048x26009_S26009_d0 h_S_

/-- The means. -/
def refMean (p : FVec Ideal S2048x26009 .f32) : FVec Ideal S26009 .f32 :=
  Host.divf (colSum p) (broadcastInDim S26009 ![] bcast_S_S26009 (constant S_ .f32 0x45000000#32))

/-- The variance routine's centred values (its own mean, kept as a row). -/
def varCen (p : FVec Ideal S2048x26009 .f32) : FVec Ideal S2048x26009 .f32 :=
  subf p (broadcastInDim S2048x26009 ![0, 1] bcast_S1x26009_S2048x26009_0_1
    (Host.divf (broadcastInDim S1x26009 ![1] bcast_S26009_S1x26009_1 (colSum p))
      (broadcastInDim S1x26009 ![] bcast_S_S1x26009 (constant S_ .f32 0x45000000#32))))

/-- The variance routine's normaliser: the batch size less the correction, which is the word zero. -/
def varN : FVec Ideal S_ .f32 := subf (constant S_ .f32 0x45000000#32) (sitofp .f32 (constantI S_ 32 0#32))

/-- The variances. -/
def refVar (p : FVec Ideal S2048x26009 .f32) : FVec Ideal S26009 .f32 :=
  select (broadcastInDim S26009 ![] bcast_S_S26009 (cmpf .ogt varN (constant S_ .f32 0x00000000#32)))
    (Host.divf (colSum (mulf (varCen p) (varCen p))) (broadcastInDim S26009 ![] bcast_S_S26009 varN))
    (broadcastInDim S26009 ![] bcast_S_S26009 (id (constant S_ .f32 0x7FC00000#32)))

/-- The normalisation from the projection. -/
def normH (p : FVec Ideal S2048x26009 .f32) : FVec Ideal S2048x26009 .f32 :=
  mulf
    (subf p (broadcastInDim S2048x26009 ![0, 1] bcast_S1x26009_S2048x26009_0_1
      (broadcastInDim S1x26009 ![1] bcast_S26009_S1x26009_1 (refMean p))))
    (broadcastInDim S2048x26009 ![0, 1] bcast_S1x26009_S2048x26009_0_1
      (broadcastInDim S1x26009 ![1] bcast_S26009_S1x26009_1
        (Host.rsqrt (addf (refVar p) (broadcastInDim S26009 ![] bcast_S_S26009 (constant S_ .f32 0x3727C5AC#32))))))

/-- THE NORMALISED FEATURES. -/
def refH (x : FVec Ideal S2048x256 .f32) (W : FVec Ideal S26009x256 .f32) : FVec Ideal S2048x26009 .f32 :=
  normH (refProj x W)

/-! ## Read at an index -/

theorem refProj_apply (x : FVec Ideal S2048x256 .f32) (W : FVec Ideal S26009x256 .f32) (b : Fin 2048) (f : Fin 26009) :
    refProj x W (ix2 b f) = ∑ k : Fin 256, x (ix2 b k) * W (ix2 f k) := by
  unfold refProj
  refine (Cert.LibDot.dotGeneral_plain_apply dot_S2048x256_S256x26009_S2048x26009_1_0_0_1_n_n rfl rfl rfl rfl rfl rfl none x _ b f).trans ?_
  refine Finset.sum_congr rfl fun k _ => congrArg (x (ix2 b k) * ·) ?_
  refine transpose_apply [1, 0] W transposes_S26009x256_S256x26009_1_0 (ix2 k f) (ix2 f k) fun q => ?_
  match q with
  | ⟨0, _⟩ => rfl
  | ⟨1, _⟩ => rfl

theorem colSum_apply (p : FVec Ideal S2048x26009 .f32) (f : Fin 26009) :
    colSum p (ix1 f) = ∑ b : Fin 2048, p (ix2 b f) := by
  unfold colSum
  rw [hostReduceAdd_apply]
  refine (hostReduceAdd_rows reducesTo_S2048x26009_S26009_d0 (by decide) p _ f).trans ?_
  rw [constant_apply, Ideal.ofBits_zero_f32, zero_add]

theorem refMean_apply (p : FVec Ideal S2048x26009 .f32) (f : Fin 26009) :
    refMean p (ix1 f) = Ideal.div (∑ b : Fin 2048, p (ix2 b f)) (Ideal.ofBits .f32 0x45000000#32) := by
  unfold refMean
  rw [hostDivf_apply, colSum_apply, bc_const]

theorem varCen_apply (p : FVec Ideal S2048x26009 .f32) (b : Fin 2048) (f : Fin 26009) :
    varCen p (ix2 b f) = p (ix2 b f) - Ideal.div (∑ b' : Fin 2048, p (ix2 b' f)) (Ideal.ofBits .f32 0x45000000#32) := by
  have e : broadcastInDim S1x26009 ![1] bcast_S26009_S1x26009_1 (colSum p) (ix2 0 f) = ∑ b' : Fin 2048, p (ix2 b' f) :=
    (bc_vec_row bcast_S26009_S1x26009_1 _ 0 f).trans (colSum_apply p f)
  have e' : broadcastInDim S2048x26009 ![0, 1] bcast_S1x26009_S2048x26009_0_1
      (Host.divf (broadcastInDim S1x26009 ![1] bcast_S26009_S1x26009_1 (colSum p))
        (broadcastInDim S1x26009 ![] bcast_S_S1x26009 (constant S_ .f32 0x45000000#32))) (ix2 b f)
      = Ideal.div (∑ b' : Fin 2048, p (ix2 b' f)) (Ideal.ofBits .f32 0x45000000#32) := by
    refine (bc_row_rect bcast_S1x26009_S2048x26009_0_1 _ b f).trans ?_
    rw [hostDivf_apply, bc_const, e]
  unfold varCen
  rw [subf_apply, e']

theorem varN_apply (j : S_.Idx) : varN j = Ideal.ofBits .f32 0x45000000#32 := by
  unfold varN
  rw [subf_apply, constant_apply, sitofp_apply]
  show Ideal.ofBits .f32 0x45000000#32 - (((constantI S_ 32 0#32 j).toInt : ℝ) : EReal) = _
  have : (constantI S_ 32 0#32 j).toInt = 0 := rfl
  rw [this]
  simp

theorem refVar_apply (p : FVec Ideal S2048x26009 .f32) (f : Fin 26009) :
    refVar p (ix1 f)
      = Ideal.div (∑ b : Fin 2048, varCen p (ix2 b f) * varCen p (ix2 b f)) (Ideal.ofBits .f32 0x45000000#32) := by
  have hc : broadcastInDim S26009 ![] bcast_S_S26009 (cmpf .ogt varN (constant S_ .f32 0x00000000#32)) (ix1 f) = 1#1 := by
    rw [broadcastInDim_scalar_apply, cmpf_apply, varN_apply, constant_apply, Ideal.cmpf_def, Ideal.ofBits_zero_f32]
    unfold Ideal.cmp
    simp [ofBits_2048_pos]
  unfold refVar
  rw [select_apply, hc, select_one, hostDivf_apply, colSum_apply, broadcastInDim_scalar_apply, varN_apply]
  simp only [mulf_apply]

section Spec

variable (xf : Fin 2048 → Fin 256 → EReal) (Wf : Fin 26009 → Fin 256 → EReal)
  (x : FVec Ideal S2048x256 .f32) (W : FVec Ideal S26009x256 .f32)

/-- THE NORMALISED FEATURES are the specification's. -/
theorem refH_apply (hx : ∀ (b : Fin 2048) (k : Fin 256), x (ix2 b k) = xf b k)
    (hW : ∀ (f : Fin 26009) (k : Fin 256), W (ix2 f k) = Wf f k) (b : Fin 2048) (f : Fin 26009) :
    refH x W (ix2 b f) = Spec.hn xf Wf f b := by
  have hp : ∀ (b : Fin 2048) (f : Fin 26009), refProj x W (ix2 b f) = Spec.proj xf Wf f b := fun b f => by
    rw [refProj_apply]; unfold Spec.proj
    simp only [hx, hW]
  have hm : ∀ f : Fin 26009, Ideal.div (∑ b' : Fin 2048, refProj x W (ix2 b' f)) (Ideal.ofBits .f32 0x45000000#32)
      = Spec.mean xf Wf f := fun f => by
    unfold Spec.mean Spec.c2048
    simp only [hp]
  have hcen : ∀ (b : Fin 2048) (f : Fin 26009), varCen (refProj x W) (ix2 b f) = Spec.cen xf Wf f b := fun b f => by
    rw [varCen_apply, hm, hp]; unfold Spec.cen; rfl
  have hvar : refVar (refProj x W) (ix1 f) = Spec.var xf Wf f := by
    rw [refVar_apply]; unfold Spec.var Spec.c2048
    simp only [hcen]
  unfold refH normH
  rw [mulf_apply, subf_apply]
  unfold Spec.hn
  have e1 : broadcastInDim S2048x26009 ![0, 1] bcast_S1x26009_S2048x26009_0_1
      (broadcastInDim S1x26009 ![1] bcast_S26009_S1x26009_1 (refMean (refProj x W))) (ix2 b f) = Spec.mean xf Wf f := by
    refine (bc_row_rect bcast_S1x26009_S2048x26009_0_1 _ b f).trans ?_
    refine (bc_vec_row bcast_S26009_S1x26009_1 _ 0 f).trans ?_
    rw [refMean_apply, hm]
  have e2 : broadcastInDim S2048x26009 ![0, 1] bcast_S1x26009_S2048x26009_0_1
      (broadcastInDim S1x26009 ![1] bcast_S26009_S1x26009_1
        (Host.rsqrt (addf (refVar (refProj x W)) (broadcastInDim S26009 ![] bcast_S_S26009 (constant S_ .f32 0x3727C5AC#32)))))
      (ix2 b f) = Ideal.rsqrt (Spec.var xf Wf f + Spec.eps) := by
    refine (bc_row_rect bcast_S1x26009_S2048x26009_0_1 _ b f).trans ?_
    refine (bc_vec_row bcast_S26009_S1x26009_1 _ 0 f).trans ?_
    rw [hostRsqrt_apply, addf_apply, hvar, bc_const]
    unfold Spec.eps
    rfl
  rw [e1, e2, hp]
  unfold Spec.cen
  rfl

end Spec

end Cert.ReferenceIdeal.HandVal

end
-- ==== Proof.RefMathLevel.lean ====
/-
  One level of the reference's routing as pure functions of the arrays, and what they compute.

  From the node array (a word per sample and tree) and the margin array the level builds the start indices
  (tree, node), gathers the node's feature number and threshold, takes the sample's normalised feature at that number,
  subtracts the threshold, lowers the margin to the magnitude of the difference and moves to the child the sign names.
  Read at one sample and tree, with the node a position on level `k` of the heap, this is one step of the walk.
-/
import proofs.«409293_j18485539242413_1_alg».proof.Proof.Gen.ReferenceIdeal
import proofs.«409293_j18485539242413_1_alg».proof.Proof.Spec
import proofs.«409293_j18485539242413_1_alg».proof.Proof.RefMathIdx
import Idealize.ShloMosaic.Lib.StableHlo.Predicate
import Idealize.ShloMosaic.PureOps.Ideal.Laws

noncomputable section

namespace Cert.ReferenceIdeal.HandVal

open Cert.ReferenceIdeal Idealize.ShloMosaic Idealize.ShloMosaic.ValueIdx Idealize.ShloMosaic.StableHlo.Predicate
open Facts₀ Facts

variable [Facts]

/-! ## The pure functions -/

/-- The tree numbers as a `[1, 1024]` row. -/
def treeIdx : IVec S1x1024 32 := broadcastInDim S1x1024 ![1] bcast_S1024_S1x1024_1 (iotaInDim S1024 32 0)

/-- A tree number normalised as an index (a negative one counted from the end). -/
def normTree (ti : IVec S1x1024 32) : IVec S1x1024 32 :=
  select (cmpi .slt ti (broadcastInDim S1x1024 ![] bcast_S_S1x1024 (constantI S_ 32 0#32)))
    (addi ti (broadcastInDim S1x1024 ![] bcast_S_S1x1024 (constantI S_ 32 1024#32))) ti

/-- A node (or leaf) number normalised as an index into an axis of extent `N`. -/
def normNode (N : BitVec 32) (node : IVec S2048x1024 32) : IVec S2048x1024 32 :=
  select (cmpi .slt node (broadcastInDim S2048x1024 ![] bcast_S_S2048x1024 (constantI S_ 32 0#32)))
    (addi node (broadcastInDim S2048x1024 ![] bcast_S_S2048x1024 (constantI S_ 32 N))) node

/-- The start indices (tree, node) of every sample and tree. -/
def startIdx (ti : IVec S1x1024 32) (N : BitVec 32) (node : IVec S2048x1024 32) : IVec S2048x1024x2 32 :=
  concatenate S2048x1024x2 2
    [⟨S2048x1024x1, broadcastInDim S2048x1024x1 ![0, 1] bcast_S2048x1024_S2048x1024x1_0_1
        (broadcastInDim S2048x1024 ![0, 1] bcast_S1x1024_S2048x1024_0_1 (normTree ti))⟩,
     ⟨S2048x1024x1, broadcastInDim S2048x1024x1 ![0, 1] bcast_S2048x1024_S2048x1024x1_0_1 (normNode N node)⟩]
    concatenates_S2048x1024x1_S2048x1024x1_S2048x1024x2_d2

/-- The start indices of taking along the feature axis: the feature numbers normalised, as a `[2048, 1024, 1]` array. -/
def takeIdx (idx : IVec S2048x1024 32) : IVec S2048x1024x1 32 :=
  shapeCast S2048x1024x1
    (select (cmpi .slt idx (broadcastInDim S2048x1024 ![] bcast_S_S2048x1024 (constantI S_ 32 0#32)))
      (addi idx (broadcastInDim S2048x1024 ![] bcast_S_S2048x1024 (constantI S_ 32 26009#32))) idx)
    shapeCasts_S2048x1024_S2048x1024x1

/-- Where the feature number is in range. -/
def takeMask (i3 : IVec S2048x1024x1 32) : IVec S2048x1024 1 :=
  Host.reduce IntOp.andi
    (andi (cmpi .sge i3 (broadcastInDim S2048x1024x1 ![] bcast_S_S2048x1024x1 (constantI S_ 32 0#32)))
      (cmpi .sle i3 (broadcastInDim S2048x1024x1 ![0, 1, 2] bcast_S1x1x1_S2048x1024x1_0_1_2
        (broadcastInDim S1x1x1 ![2] bcast_S1_S1x1x1_2 (constantI S1 32 26008#32)))))
    (constantI S_ 1 1#1) reducesTo_S2048x1024x1_S2048x1024_d2 h_S_

/-- Each sample's normalised feature at the numbers `idx` (out of range: the filler). -/
def takeAlong (h : FVec Ideal S2048x26009 .f32) (idx : IVec S2048x1024 32) : FVec Ideal S2048x1024 .f32 :=
  select (takeMask (takeIdx idx)) (Host.gather gather_S2048x26009_S2048x1024x1_S2048x1024_n_1_0_0_1_2_11 h (takeIdx idx))
    (broadcastInDim S2048x1024 ![] bcast_S_S2048x1024 (constant S_ .f32 0x7FC00000#32))

/-- The decision values of a level. -/
def levelVal (h : FVec Ideal S2048x26009 .f32) (ord : IVec S1024x127 32) (thr : FVec Ideal S1024x127 .f32)
    (ti : IVec S1x1024 32) (node : IVec S2048x1024 32) : FVec Ideal S2048x1024 .f32 :=
  subf (takeAlong h (Host.gather gather_S1024x127_S2048x1024x2_S2048x1024_n_01_n_n_01_2_11 ord (startIdx ti 127#32 node)))
    (Host.gather gather_S1024x127_S2048x1024x2_S2048x1024_n_01_n_n_01_2_11 thr (startIdx ti 127#32 node))

/-- The margins after a level. -/
def levelMargin (margin v : FVec Ideal S2048x1024 .f32) : FVec Ideal S2048x1024 .f32 := minimumf margin (Host.absf v)

/-- The nodes after a level. -/
def levelNode (node : IVec S2048x1024 32) (v : FVec Ideal S2048x1024 .f32) : IVec S2048x1024 32 :=
  addi (addi (muli (broadcastInDim S2048x1024 ![] bcast_S_S2048x1024 (constantI S_ 32 2#32)) node)
      (broadcastInDim S2048x1024 ![] bcast_S_S2048x1024 (constantI S_ 32 1#32)))
    (extui 32 (cmpf .ogt v (broadcastInDim S2048x1024 ![] bcast_S_S2048x1024 (constant S_ .f32 0x00000000#32))) natLt_1_32)

/-- The next node, read at one sample and tree. -/
theorem levelNode_apply (node : IVec S2048x1024 32) (v : FVec Ideal S2048x1024 .f32) (i : S2048x1024.Idx) :
    levelNode node v i = IntOp.addi (IntOp.addi (IntOp.muli 2#32 (node i)) 1#32)
      ((Ideal.cmp .ogt (v i) (Ideal.ofBits .f32 0x00000000#32)).setWidth 32) := rfl

/-- The next margin, read at one sample and tree. -/
theorem levelMargin_apply (margin v : FVec Ideal S2048x1024 .f32) (i : S2048x1024.Idx) :
    levelMargin margin v i = min (margin i) (max (v i) (-(v i))) := rfl

/-! ## Words -/

theorem toNat_ofNat_small (n : ℕ) (hn : n < 2 ^ 31) : (BitVec.ofNat 32 n).toNat = n := by
  rw [BitVec.toNat_ofNat]; omega

/-- A non-negative word is its own normalisation. -/
theorem norm_word (o N : BitVec 32) (ho : o.toNat < 2 ^ 31) :
    Scalar.select (IntOp.cmpi .slt o 0#32) (IntOp.addi o N) o = o := by
  have h0 : ¬ IntOp.cmpi .slt o 0#32 = 1#1 := by
    rw [slt_iff_toNat ho (by decide)]; exact Nat.not_lt_zero _
  rw [eq_zero_of_ne_one h0, select_zero]

/-- The child's number as a word. -/
theorem child_word (n : ℕ) (hn : n < 127) (V : EReal) :
    IntOp.addi (IntOp.addi (IntOp.muli 2#32 (BitVec.ofNat 32 n)) 1#32)
        ((Ideal.cmp .ogt V (Ideal.ofBits .f32 0x00000000#32)).setWidth 32)
      = BitVec.ofNat 32 (2 * n + 1 + (if 0 < V then 1 else 0)) := by
  rw [Ideal.ofBits_zero_f32]
  unfold Ideal.cmp IntOp.addi IntOp.muli
  apply BitVec.eq_of_toNat_eq
  by_cases hV : (0 : EReal) < V
  · simp only [hV, decide_true, if_true, BitVec.toNat_add, BitVec.toNat_mul, BitVec.toNat_ofNat, BitVec.ofBool_true,
      BitVec.toNat_setWidth]
    simp
  · simp only [hV, decide_false, if_false, BitVec.toNat_add, BitVec.toNat_mul, BitVec.toNat_ofNat, BitVec.ofBool_false,
      BitVec.toNat_setWidth]
    simp

/-! ## The pieces read at one sample and tree -/

theorem treeIdx_apply (z : Fin 1) (t : Fin 1024) : treeIdx (ix2 z t) = BitVec.ofNat 32 t.val :=
  (bc_vec_row bcast_S1024_S1x1024_1 (iotaInDim S1024 32 0) z t).trans rfl

theorem normTree_treeIdx_apply (z : Fin 1) (t : Fin 1024) : normTree treeIdx (ix2 z t) = BitVec.ofNat 32 t.val := by
  show Scalar.select (IntOp.cmpi .slt (treeIdx (ix2 z t)) 0#32) (IntOp.addi (treeIdx (ix2 z t)) 1024#32) (treeIdx (ix2 z t)) = _
  rw [treeIdx_apply]
  exact norm_word _ _ (by rw [toNat_ofNat_small _ (by have := t.isLt; omega)]; have := t.isLt; omega)

theorem normNode_apply (N : BitVec 32) (node : IVec S2048x1024 32) (b : Fin 2048) (t : Fin 1024)
    (hn : (node (ix2 b t)).toNat < 2 ^ 31) : normNode N node (ix2 b t) = node (ix2 b t) :=
  norm_word _ _ hn

theorem startIdx_tree (N : BitVec 32) (node : IVec S2048x1024 32) (b : Fin 2048) (t : Fin 1024) :
    startIdx treeIdx N node (ix3 b t 0) = BitVec.ofNat 32 t.val := by
  unfold startIdx
  refine (cat_planes_zero _ _ concatenates_S2048x1024x1_S2048x1024x1_S2048x1024x2_d2 b t).trans ?_
  refine (bc_rect_unit3 bcast_S2048x1024_S2048x1024x1_0_1 _ b t 0).trans ?_
  refine (bc_row_rect bcast_S1x1024_S2048x1024_0_1 _ b t).trans ?_
  exact normTree_treeIdx_apply 0 t

theorem startIdx_node (N : BitVec 32) (node : IVec S2048x1024 32) (b : Fin 2048) (t : Fin 1024)
    (hn : (node (ix2 b t)).toNat < 2 ^ 31) : startIdx treeIdx N node (ix3 b t 1) = node (ix2 b t) := by
  unfold startIdx
  refine (cat_planes_one _ _ concatenates_S2048x1024x1_S2048x1024x1_S2048x1024x2_d2 b t).trans ?_
  refine (bc_rect_unit3 bcast_S2048x1024_S2048x1024x1_0_1 _ b t 0).trans ?_
  exact normNode_apply N node b t hn

/-- The table gather at the start indices (tree, node): the table's element of tree `t` and node `n`. -/
theorem gather_tbl_apply {α : Type} (x : S1024x127.Idx → α) (node : IVec S2048x1024 32) (b : Fin 2048) (t : Fin 1024)
    (n : ℕ) (hn : n < 127) (hnode : node (ix2 b t) = BitVec.ofNat 32 n) :
    Host.gather gather_S1024x127_S2048x1024x2_S2048x1024_n_01_n_n_01_2_11 x (startIdx treeIdx 127#32 node) (ix2 b t) = x (ix2 t ⟨n, hn⟩) := by
  have hnn : (node (ix2 b t)).toNat < 2 ^ 31 := by rw [hnode, toNat_ofNat_small _ (by omega)]; omega
  refine (gather_point3 gather_S1024x127_S2048x1024x2_S2048x1024_n_01_n_n_01_2_11 rfl rfl rfl rfl rfl (by decide) (by decide) x _ b t).trans ?_
  rw [startIdx_tree, startIdx_node _ _ _ _ hnn, hnode]
  have e1 : clampTo 1024 (by decide) (BitVec.ofNat 32 t.val) = t :=
    (clampTo_of_lt 1024 _ _ t.val (toInt_ofNat_small _ (by have := t.isLt; omega)) t.isLt).trans (Fin.eta _ _)
  have e2 : clampTo 127 (by decide) (BitVec.ofNat 32 n) = ⟨n, hn⟩ :=
    clampTo_of_lt 127 _ _ n (toInt_ofNat_small _ (by omega)) hn
  rw [e1, e2]

/-- Taking along the feature axis at an in-range number: the sample's feature at that number. -/
theorem takeAlong_apply (h : FVec Ideal S2048x26009 .f32) (idx : IVec S2048x1024 32) (b : Fin 2048) (t : Fin 1024)
    (ho : (idx (ix2 b t)).toNat < 26009) :
    takeAlong h idx (ix2 b t) = h (ix2 b ⟨(idx (ix2 b t)).toNat, ho⟩) := by
  have ho31 : (idx (ix2 b t)).toNat < 2 ^ 31 := by omega
  have hi3 : takeIdx idx (ix3 b t 0) = idx (ix2 b t) := by
    unfold takeIdx
    refine (shapeCast_unit3_apply _ shapeCasts_S2048x1024_S2048x1024x1 b t 0).trans ?_
    exact norm_word _ _ ho31
  have hmask : takeMask (takeIdx idx) (ix2 b t) = 1#1 := by
    unfold takeMask
    refine reduce_andi_unit3 _ _ reducesTo_S2048x1024x1_S2048x1024_d2 h_S_ b t (fun _ => rfl) ?_
    show IntOp.andi (IntOp.cmpi .sge (takeIdx idx (ix3 b t 0)) 0#32) (IntOp.cmpi .sle (takeIdx idx (ix3 b t 0)) 26008#32) = 1#1
    rw [hi3, (sge_iff_toNat ho31 (by decide)).2 (Nat.zero_le _),
      (sle_iff_toNat ho31 (by decide)).2 (by show (idx (ix2 b t)).toNat ≤ 26008; omega)]
    rfl
  unfold takeAlong
  rw [select_apply, hmask, select_one]
  refine (gather_batched gather_S2048x26009_S2048x1024x1_S2048x1024_n_1_0_0_1_2_11 rfl rfl rfl rfl rfl rfl (by decide) h _ b t).trans ?_
  rw [hi3, clampTo_of_lt 26009 _ _ _ (toInt_eq_toNat_of_lt ho31) ho]

/-! ## One level is one step of the walk -/

/-- The walk's next node and margin, spelt out. -/
theorem route_succ_fst (xf : Fin 2048 → Fin 256 → EReal) (Wf : Fin 26009 → Fin 256 → EReal)
    (thrf : Fin 1024 → Fin 127 → EReal) (ordf : Fin 1024 → Fin 127 → BitVec 32) (t : Fin 1024) (b : Fin 2048) (k : ℕ) :
    (Spec.route xf Wf thrf ordf t b (k + 1)).1
      = 2 * (Spec.route xf Wf thrf ordf t b k).1 + 1
        + (if 0 < Spec.val xf Wf thrf ordf t b (Spec.route xf Wf thrf ordf t b k).1 then 1 else 0) := rfl

theorem route_succ_snd (xf : Fin 2048 → Fin 256 → EReal) (Wf : Fin 26009 → Fin 256 → EReal)
    (thrf : Fin 1024 → Fin 127 → EReal) (ordf : Fin 1024 → Fin 127 → BitVec 32) (t : Fin 1024) (b : Fin 2048) (k : ℕ) :
    (Spec.route xf Wf thrf ordf t b (k + 1)).2
      = min (Spec.route xf Wf thrf ordf t b k).2
          (max (Spec.val xf Wf thrf ordf t b (Spec.route xf Wf thrf ordf t b k).1)
            (-(Spec.val xf Wf thrf ordf t b (Spec.route xf Wf thrf ordf t b k).1))) := rfl

section Level

variable (xf : Fin 2048 → Fin 256 → EReal) (Wf : Fin 26009 → Fin 256 → EReal)
  (thrf : Fin 1024 → Fin 127 → EReal) (ordf : Fin 1024 → Fin 127 → BitVec 32)
  (h : FVec Ideal S2048x26009 .f32) (ord : IVec S1024x127 32) (thr : FVec Ideal S1024x127 .f32)

/-- The level's decision value at a sample and tree whose node is the position `n` below 127: the walk's value. -/
theorem levelVal_apply (node : IVec S2048x1024 32)
    (hH : ∀ (b : Fin 2048) (f : Fin 26009), h (ix2 b f) = Spec.hn xf Wf f b)
    (hord : ∀ (t : Fin 1024) (n : Fin 127), ord (ix2 t n) = ordf t n)
    (hthr : ∀ (t : Fin 1024) (n : Fin 127), thr (ix2 t n) = thrf t n)
    (hrange : ∀ (t : Fin 1024) (n : Fin 127), (ordf t n).toNat < 26009)
    (b : Fin 2048) (t : Fin 1024) (n : ℕ) (hn : n < 127) (hnode : node (ix2 b t) = BitVec.ofNat 32 n) :
    levelVal h ord thr treeIdx node (ix2 b t) = Spec.val xf Wf thrf ordf t b n := by
  have hg : Host.gather gather_S1024x127_S2048x1024x2_S2048x1024_n_01_n_n_01_2_11 ord (startIdx treeIdx 127#32 node) (ix2 b t) = ordf t ⟨n, hn⟩ :=
    (gather_tbl_apply ord node b t n hn hnode).trans (hord t ⟨n, hn⟩)
  have ho : (Host.gather gather_S1024x127_S2048x1024x2_S2048x1024_n_01_n_n_01_2_11 ord (startIdx treeIdx 127#32 node) (ix2 b t)).toNat < 26009 := by
    rw [hg]; exact hrange t ⟨n, hn⟩
  have hF : (⟨(Host.gather gather_S1024x127_S2048x1024x2_S2048x1024_n_01_n_n_01_2_11 ord (startIdx treeIdx 127#32 node) (ix2 b t)).toNat, ho⟩ : Fin 26009)
      = ⟨(ordf t ⟨n, hn⟩).toNat, hrange t ⟨n, hn⟩⟩ := Fin.ext (congrArg BitVec.toNat hg)
  have hS : Spec.val xf Wf thrf ordf t b n
      = Spec.hn xf Wf ⟨(ordf t ⟨n, hn⟩).toNat, hrange t ⟨n, hn⟩⟩ b - thrf t ⟨n, hn⟩ := by
    unfold Spec.val Spec.hAt Spec.ordAt Spec.thrAt
    rw [dif_pos hn, dif_pos hn, dif_pos (hrange t ⟨n, hn⟩)]
  unfold levelVal
  rw [subf_apply, takeAlong_apply h _ b t ho, gather_tbl_apply thr node b t n hn hnode, hthr, hF, hH, hS]

/-- ONE LEVEL: if the node and margin arrays hold the walk after `k` steps (`k < 7`), the level's results hold it after
    `k + 1`. -/
theorem level_step (node : IVec S2048x1024 32) (margin : FVec Ideal S2048x1024 .f32) (k : ℕ) (hk : k < 7)
    (hH : ∀ (b : Fin 2048) (f : Fin 26009), h (ix2 b f) = Spec.hn xf Wf f b)
    (hord : ∀ (t : Fin 1024) (n : Fin 127), ord (ix2 t n) = ordf t n)
    (hthr : ∀ (t : Fin 1024) (n : Fin 127), thr (ix2 t n) = thrf t n)
    (hrange : ∀ (t : Fin 1024) (n : Fin 127), (ordf t n).toNat < 26009)
    (hnode : ∀ (b : Fin 2048) (t : Fin 1024), node (ix2 b t) = BitVec.ofNat 32 (Spec.route xf Wf thrf ordf t b k).1)
    (hmargin : ∀ (b : Fin 2048) (t : Fin 1024), margin (ix2 b t) = (Spec.route xf Wf thrf ordf t b k).2) :
    (∀ (b : Fin 2048) (t : Fin 1024),
      levelNode node (levelVal h ord thr treeIdx node) (ix2 b t) = BitVec.ofNat 32 (Spec.route xf Wf thrf ordf t b (k + 1)).1) ∧
    (∀ (b : Fin 2048) (t : Fin 1024),
      levelMargin margin (levelVal h ord thr treeIdx node) (ix2 b t) = (Spec.route xf Wf thrf ordf t b (k + 1)).2) := by
  have hlt : ∀ (b : Fin 2048) (t : Fin 1024), (Spec.route xf Wf thrf ordf t b k).1 < 127 := fun b t => by
    have h2 := (Spec.route_bounds xf Wf thrf ordf t b k).2
    have hp : 2 ^ (k + 1) ≤ 2 ^ 7 := Nat.pow_le_pow_right (by decide) (by omega)
    have : (2 : ℕ) ^ 7 = 128 := by norm_num
    omega
  have hv : ∀ (b : Fin 2048) (t : Fin 1024), levelVal h ord thr treeIdx node (ix2 b t)
      = Spec.val xf Wf thrf ordf t b (Spec.route xf Wf thrf ordf t b k).1 := fun b t =>
    levelVal_apply xf Wf thrf ordf h ord thr node hH hord hthr hrange b t _ (hlt b t) (hnode b t)
  constructor
  · intro b t
    rw [levelNode_apply, hnode, hv, child_word _ (hlt b t), route_succ_fst]
  · intro b t
    rw [levelMargin_apply, hmargin, hv, route_succ_snd]

end Level

end Cert.ReferenceIdeal.HandVal

end
-- ==== Proof.RefMathOut.lean ====
/-
  The reference's last stage as a pure function of the arrays, and what it computes: the leaf is the node less 127, the
  leaf's weight row is gathered at the start indices (tree, leaf), scaled by the margin and summed over the trees.
-/
import proofs.«409293_j18485539242413_1_alg».proof.Proof.RefMathLevel
import Idealize.ShloMosaic.Lib.IdealHost

noncomputable section

namespace Cert.ReferenceIdeal.HandVal

open Cert.ReferenceIdeal Idealize.ShloMosaic Idealize.ShloMosaic.ValueIdx Idealize.ShloMosaic.StableHlo.Predicate
open Facts₀ Facts

/-- The host's float sum along the middle axis of a rank-3 array: the initial value plus the sum over that axis. -/
theorem hostReduceAdd_mid {B T E : Nat} (h' : (⟨3, ![B, T, E]⟩ : Shape).ReducesTo [1] ⟨2, ![B, E]⟩)
    (hR : (⟨3, ![B, T, E]⟩ : Shape).Reduces [1] ⟨2, ![B, E]⟩) (x : (⟨3, ![B, T, E]⟩ : Shape).Idx → EReal) (init : EReal)
    (b : Fin B) (e : Fin E) :
    Ideal.hostReduceAdd h' x init (ix2 b e) = init + ∑ t : Fin T, x (ix3 b t e) := by
  rw [Ideal.hostReduceAdd_single h' hR]
  refine congrArg (init + ·) ?_
  refine Finset.sum_congr rfl fun k _ => congrArg x (funext fun a => Fin.ext ?_)
  match a with
  | ⟨0, _⟩ => rfl
  | ⟨1, _⟩ => rfl
  | ⟨2, _⟩ => rfl

/-- A node of the last level less 127, as a word. -/
theorem leaf_word (n : ℕ) (h1 : 127 ≤ n) (h2 : n < 255) :
    IntOp.subi (BitVec.ofNat 32 n) 127#32 = BitVec.ofNat 32 (n - 127) := by
  unfold IntOp.subi
  apply BitVec.eq_of_toNat_eq
  simp only [BitVec.toNat_sub, BitVec.toNat_ofNat]
  omega

variable [Facts]

/-- The leaves: the nodes of the last level less 127. -/
def leafOf (node : IVec S2048x1024 32) : IVec S2048x1024 32 :=
  subi node (broadcastInDim S2048x1024 ![] bcast_S_S2048x1024 (constantI S_ 32 127#32))

theorem leafOf_apply (node : IVec S2048x1024 32) (i : S2048x1024.Idx) :
    leafOf node i = IntOp.subi (node i) 127#32 := rfl

/-- THE RESULT from the last level's nodes and margins. -/
def refOut (wts : FVec Ideal S1024x128x10 .f32) (ti : IVec S1x1024 32) (node : IVec S2048x1024 32)
    (margin : FVec Ideal S2048x1024 .f32) : FVec Ideal S2048x10 .f32 :=
  Host.reduceAdd
    (mulf
      (broadcastInDim S2048x1024x10 ![0, 1, 2] bcast_S2048x1024x1_S2048x1024x10_0_1_2
        (broadcastInDim S2048x1024x1 ![0, 1] bcast_S2048x1024_S2048x1024x1_0_1 margin))
      (Host.gather gather_S1024x128x10_S2048x1024x2_S2048x1024x10_2_01_n_n_01_2_1110 wts (startIdx ti 128#32 (leafOf node))))
    (constant S_ .f32 0x00000000#32) reducesTo_S2048x1024x10_S2048x10_d1 h_S_

section Spec

variable (xf : Fin 2048 → Fin 256 → EReal) (Wf : Fin 26009 → Fin 256 → EReal)
  (thrf : Fin 1024 → Fin 127 → EReal) (wtsf : Fin 1024 → Fin 128 → Fin 10 → EReal) (ordf : Fin 1024 → Fin 127 → BitVec 32)

/-- The gathered weight row at a sample and tree whose node is a position of the last level. -/
theorem gather_wts_apply (wts : FVec Ideal S1024x128x10 .f32) (node : IVec S2048x1024 32) (b : Fin 2048) (t : Fin 1024)
    (e : Fin 10) (n : ℕ) (h1 : 127 ≤ n) (h2 : n < 255) (hnode : node (ix2 b t) = BitVec.ofNat 32 n) :
    Host.gather gather_S1024x128x10_S2048x1024x2_S2048x1024x10_2_01_n_n_01_2_1110 wts (startIdx treeIdx 128#32 (leafOf node)) (ix3 b t e)
      = wts (ix3 t ⟨n - 127, by omega⟩ e) := by
  have hl : leafOf node (ix2 b t) = BitVec.ofNat 32 (n - 127) := by rw [leafOf_apply, hnode, leaf_word n h1 h2]
  have hnn : (leafOf node (ix2 b t)).toNat < 2 ^ 31 := by rw [hl, toNat_ofNat_small _ (by omega)]; omega
  refine (gather_row3 gather_S1024x128x10_S2048x1024x2_S2048x1024x10_2_01_n_n_01_2_1110 rfl rfl rfl rfl rfl (by decide) (by decide) wts _ b t e).trans ?_
  rw [startIdx_tree, startIdx_node _ _ _ _ hnn, hl]
  have e1 : clampTo 1024 (by decide) (BitVec.ofNat 32 t.val) = t :=
    (clampTo_of_lt 1024 _ _ t.val (toInt_ofNat_small _ (by have := t.isLt; omega)) t.isLt).trans (Fin.eta _ _)
  have e2 : clampTo 128 (by decide) (BitVec.ofNat 32 (n - 127)) = ⟨n - 127, by omega⟩ :=
    clampTo_of_lt 128 _ _ (n - 127) (toInt_ofNat_small _ (by omega)) (by omega)
  rw [e1, e2]

/-- THE RESULT is the specification's, given the walk after seven steps in the node and margin arrays. -/
theorem refOut_apply (wts : FVec Ideal S1024x128x10 .f32) (node : IVec S2048x1024 32) (margin : FVec Ideal S2048x1024 .f32)
    (hwts : ∀ (t : Fin 1024) (l : Fin 128) (e : Fin 10), wts (ix3 t l e) = wtsf t l e)
    (hnode : ∀ (b : Fin 2048) (t : Fin 1024), node (ix2 b t) = BitVec.ofNat 32 (Spec.route xf Wf thrf ordf t b 7).1)
    (hmargin : ∀ (b : Fin 2048) (t : Fin 1024), margin (ix2 b t) = (Spec.route xf Wf thrf ordf t b 7).2)
    (b : Fin 2048) (e : Fin 10) :
    refOut wts treeIdx node margin (ix2 b e) = Spec.out xf Wf thrf wtsf ordf b e := by
  unfold refOut
  rw [hostReduceAdd_apply]
  refine (hostReduceAdd_mid reducesTo_S2048x1024x10_S2048x10_d1 (by decide) _ _ b e).trans ?_
  rw [constant_apply, Ideal.ofBits_zero_f32, zero_add]
  unfold Spec.out
  refine Finset.sum_congr rfl fun t _ => ?_
  have hb := Spec.route_bounds xf Wf thrf ordf t b 7
  have h1 : 127 ≤ (Spec.route xf Wf thrf ordf t b 7).1 := by have := hb.1; norm_num at this; omega
  have h2 : (Spec.route xf Wf thrf ordf t b 7).1 < 255 := by have := hb.2; norm_num at this; omega
  rw [mulf_apply, gather_wts_apply wts node b t e _ h1 h2 (hnode b t), hwts]
  have em : broadcastInDim S2048x1024x10 ![0, 1, 2] bcast_S2048x1024x1_S2048x1024x10_0_1_2
      (broadcastInDim S2048x1024x1 ![0, 1] bcast_S2048x1024_S2048x1024x1_0_1 margin) (ix3 b t e)
      = (Spec.route xf Wf thrf ordf t b 7).2 := by
    refine (bc_unit3_last bcast_S2048x1024x1_S2048x1024x10_0_1_2 _ b t e).trans ?_
    exact (bc_rect_unit3 bcast_S2048x1024_S2048x1024x1_0_1 _ b t 0).trans (hmargin b t)
  rw [em]
  unfold Spec.contrib Spec.margin Spec.wAt Spec.leaf
  rw [dif_pos (by omega)]

end Spec

end Cert.ReferenceIdeal.HandVal

end
-- ==== Proof.RefValInv.lean ====
/-
  The invariant the reference's program keeps from level to level, over the arrays themselves: the feature array holds
  the specification's normalised features, the tree-number row is the tree numbers, the tables are the argument tables,
  and the node and margin arrays hold the walk after `k` steps.  One level (as the pure functions of a level) takes it
  from `k` to `k + 1`; the start establishes it at 0; at 7 the last stage's result is the specification's.
  Also: a line of host operations cut at any position runs the front part and then the back part.
-/
import proofs.«409293_j18485539242413_1_alg».proof.Proof.RefMathH
import proofs.«409293_j18485539242413_1_alg».proof.Proof.RefMathOut
import Idealize.ShloMosaic.Lib.StableHlo.Run

noncomputable section

namespace Cert.ReferenceIdeal.HandVal

open Cert.ReferenceIdeal Idealize.ShloMosaic Idealize.ShloMosaic.ValueIdx Idealize.ShloMosaic.StableHlo
open Facts₀ Facts

/-! ## Cutting a line of operations -/

section Cut
variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `n` operations. -/
theorem after_split (n : ℕ) (l : List (HloOp τ sig Val)) (V : Valuation τ sig Val) :
    after l V = after (l.drop n) (after (l.take n) V) := by
  rw [← after_append, List.take_append_drop]

end Cut

/-- The pattern `0x7F800000` denotes `+∞`. -/
theorem ofBits_inf : Ideal.ofBits .f32 0x7F800000#32 = ⊤ := by
  simp [Ideal.ofBits, Ideal.ieee]

variable [Facts]

/-- The nodes at the start: all the root. -/
def node0 : IVec S2048x1024 32 := broadcastInDim S2048x1024 ![] bcast_S_S2048x1024 (constantI S_ 32 0#32)
/-- The margins at the start: all `+∞`. -/
def margin0 : FVec Ideal S2048x1024 .f32 := broadcastInDim S2048x1024 ![] bcast_S_S2048x1024 (constant S_ .f32 0x7F800000#32)

section Inv

variable (xf : Fin 2048 → Fin 256 → EReal) (Wf : Fin 26009 → Fin 256 → EReal)
  (thrf : Fin 1024 → Fin 127 → EReal) (wtsf : Fin 1024 → Fin 128 → Fin 10 → EReal) (ordf : Fin 1024 → Fin 127 → BitVec 32)

/-- What the arrays hold after `k` levels. -/
structure Inv (k : ℕ) (h : FVec Ideal S2048x26009 .f32) (ti : IVec S1x1024 32) (thr : FVec Ideal S1024x127 .f32)
    (wts : FVec Ideal S1024x128x10 .f32) (ord : IVec S1024x127 32) (node : IVec S2048x1024 32)
    (margin : FVec Ideal S2048x1024 .f32) : Prop where
  hH : ∀ (b : Fin 2048) (f : Fin 26009), h (ix2 b f) = Spec.hn xf Wf f b
  hti : ti = treeIdx
  hthr : ∀ (t : Fin 1024) (n : Fin 127), thr (ix2 t n) = thrf t n
  hwts : ∀ (t : Fin 1024) (l : Fin 128) (e : Fin 10), wts (ix3 t l e) = wtsf t l e
  hord : ∀ (t : Fin 1024) (n : Fin 127), ord (ix2 t n) = ordf t n
  hnode : ∀ (b : Fin 2048) (t : Fin 1024), node (ix2 b t) = BitVec.ofNat 32 (Spec.route xf Wf thrf ordf t b k).1
  hmargin : ∀ (b : Fin 2048) (t : Fin 1024), margin (ix2 b t) = (Spec.route xf Wf thrf ordf t b k).2

variable {xf Wf thrf wtsf ordf}

/-- The start. -/
theorem Inv.init {x : FVec Ideal S2048x256 .f32} {W : FVec Ideal S26009x256 .f32} {thr : FVec Ideal S1024x127 .f32}
    {wts : FVec Ideal S1024x128x10 .f32} {ord : IVec S1024x127 32}
    (hx : ∀ (b : Fin 2048) (k : Fin 256), x (ix2 b k) = xf b k) (hW : ∀ (f : Fin 26009) (k : Fin 256), W (ix2 f k) = Wf f k)
    (hthr : ∀ (t : Fin 1024) (n : Fin 127), thr (ix2 t n) = thrf t n)
    (hwts : ∀ (t : Fin 1024) (l : Fin 128) (e : Fin 10), wts (ix3 t l e) = wtsf t l e)
    (hord : ∀ (t : Fin 1024) (n : Fin 127), ord (ix2 t n) = ordf t n)
    {h : FVec Ideal S2048x26009 .f32} {ti : IVec S1x1024 32} {node : IVec S2048x1024 32} {margin : FVec Ideal S2048x1024 .f32}
    (eh : h = refH x W) (eti : ti = treeIdx) (enode : node = node0) (emargin : margin = margin0) :
    Inv xf Wf thrf wtsf ordf 0 h ti thr wts ord node margin := by
  rw [eh, eti, enode, emargin]
  refine ⟨fun b f => refH_apply xf Wf x W hx hW b f, rfl, hthr, hwts, hord, fun b t => ?_, fun b t => ?_⟩
  · rfl
  · show Ideal.ofBits .f32 0x7F800000#32 = _
    rw [ofBits_inf]; rfl

/-- One level. -/
theorem Inv.step {k : ℕ} {h : FVec Ideal S2048x26009 .f32} {ti : IVec S1x1024 32} {thr : FVec Ideal S1024x127 .f32}
    {wts : FVec Ideal S1024x128x10 .f32} {ord : IVec S1024x127 32} {node : IVec S2048x1024 32}
    {margin : FVec Ideal S2048x1024 .f32} (hI : Inv xf Wf thrf wtsf ordf k h ti thr wts ord node margin) (hk : k < 7)
    (hrange : ∀ (t : Fin 1024) (n : Fin 127), (ordf t n).toNat < 26009)
    {h' : FVec Ideal S2048x26009 .f32} {ti' : IVec S1x1024 32} {thr' : FVec Ideal S1024x127 .f32}
    {wts' : FVec Ideal S1024x128x10 .f32} {ord' : IVec S1024x127 32} {node' : IVec S2048x1024 32}
    {margin' : FVec Ideal S2048x1024 .f32}
    (eh : h' = h) (eti : ti' = ti) (ethr : thr' = thr) (ewts : wts' = wts) (eord : ord' = ord)
    (enode : node' = levelNode node (levelVal h ord thr ti node))
    (emargin : margin' = levelMargin margin (levelVal h ord thr ti node)) :
    Inv xf Wf thrf wtsf ordf (k + 1) h' ti' thr' wts' ord' node' margin' := by
  rw [eh, eti, ethr, ewts, eord, enode, emargin]
  obtain ⟨hH, hti, hthr, hwts, hord, hnode, hmargin⟩ := hI
  subst hti
  have hs := level_step xf Wf thrf ordf h ord thr node margin k hk hH hord hthr hrange hnode hmargin
  exact ⟨hH, rfl, hthr, hwts, hord, hs.1, hs.2⟩

/-- The end. -/
theorem Inv.out {h : FVec Ideal S2048x26009 .f32} {ti : IVec S1x1024 32} {thr : FVec Ideal S1024x127 .f32}
    {wts : FVec Ideal S1024x128x10 .f32} {ord : IVec S1024x127 32} {node : IVec S2048x1024 32}
    {margin : FVec Ideal S2048x1024 .f32} (hI : Inv xf Wf thrf wtsf ordf 7 h ti thr wts ord node margin)
    (b : Fin 2048) (e : Fin 10) : refOut wts ti node margin (ix2 b e) = Spec.out xf Wf thrf wtsf ordf b e := by
  obtain ⟨_, hti, _, hwts, _, hnode, hmargin⟩ := hI
  subst hti
  exact refOut_apply xf Wf thrf wtsf ordf wts node margin hwts hnode hmargin b e

end Inv

end Cert.ReferenceIdeal.HandVal

end
-- ==== Proof.LibCat2.lean ====
/-
  A two-piece concatenation as a function of its two operands.

  `concatenate` takes its pieces as a LIST of shape–array pairs. A simplifier pass that computes what a buffer holds after
  a line of host operations rewrites inside the arguments of an operation's function, but not inside such a list, so the
  operands of a concatenation of COMPUTED arrays stay unevaluated folds, and a closing comparison has to evaluate them by
  unfolding, which can take minutes or run out of recursion depth. `cat2` names the two operands as plain arguments:
  rewriting a two-piece `concatenate` to `cat2` (`cat2_eq`, in the same pass) lets the pass go on into both operands;
  `cat2` unfolds back to the `concatenate` by definition.
-/
import Idealize.ShloMosaic.PureOps.ShapeOps

namespace Cert.LibCat2

open Idealize.ShloMosaic

/-- Two arrays joined along axis `a`, as a function of the two. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is `cat2` of its operands. -/
theorem cat2_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

end Cert.LibCat2
-- ==== Proof.RefValPre.lean ====
/-
  The start of the reference's program: what the stretch of the operation table before the first level leaves in the
  feature array (the normalised features of the two argument arrays), the tree-number row, and the node and margin arrays
  (the root, and plus infinity), and that it leaves the argument tables alone.
-/
import proofs.«409293_j18485539242413_1_alg».proof.Proof.RefOps
import proofs.«409293_j18485539242413_1_alg».proof.Proof.RefValInv
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after the stretch before the first level, from the contents X before it. -/
def stage0 (X : Valuation τ sig (Elt Ideal)) : Valuation τ sig (Elt Ideal) := after (List.take 46 (ops_0 (F := Ideal))) X

set_option maxHeartbeats 4000000 in
theorem stage0_h (X : Valuation τ sig (Elt Ideal)) :
    (stage0 X (Proc.devRef .tc main_v14) : FVec Ideal S2048x26009 .f32)
      = refH (X (Proc.devRef .tc main_arg0) : FVec Ideal S2048x256 .f32) (X (Proc.devRef .tc main_arg1) : FVec Ideal S26009x256 .f32) := by
  unfold stage0
  simp only [ops_0, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  try simp only [TRef.ofBuf, TRef.toBuf]
  try simp only [cast_eq']
  unfold refH normH refProj refMean refVar varCen varN colSum
  rfl

set_option maxHeartbeats 4000000 in
theorem stage0_ti (X : Valuation τ sig (Elt Ideal)) :
    (stage0 X (Proc.devRef .tc main_v16) : IVec S1x1024 32) = treeIdx := by
  unfold stage0
  simp only [ops_0, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  try simp only [TRef.ofBuf, TRef.toBuf]
  try simp only [cast_eq']
  unfold treeIdx
  rfl

set_option maxHeartbeats 4000000 in
theorem stage0_node (X : Valuation τ sig (Elt Ideal)) :
    (stage0 X (Proc.devRef .tc main_v17) : IVec S2048x1024 32) = node0 := by
  unfold stage0
  simp only [ops_0, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  try simp only [TRef.ofBuf, TRef.toBuf]
  try simp only [cast_eq']
  unfold node0
  rfl

set_option maxHeartbeats 4000000 in
theorem stage0_margin (X : Valuation τ sig (Elt Ideal)) :
    (stage0 X (Proc.devRef .tc main_v18) : FVec Ideal S2048x1024 .f32) = margin0 := by
  unfold stage0
  simp only [ops_0, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  try simp only [TRef.ofBuf, TRef.toBuf]
  try simp only [cast_eq']
  unfold margin0
  rfl

set_option maxHeartbeats 4000000 in
theorem stage0_keep (X : Valuation τ sig (Elt Ideal)) :
    stage0 X (Proc.devRef .tc main_arg2) = X (Proc.devRef .tc main_arg2)
      ∧ stage0 X (Proc.devRef .tc main_arg3) = X (Proc.devRef .tc main_arg3)
      ∧ stage0 X (Proc.devRef .tc main_arg4) = X (Proc.devRef .tc main_arg4) := by
  unfold stage0
  simp only [ops_0, List.drop_succ_cons, List.drop_zero, List.take_succ_cons, List.take_zero]
  refine ⟨?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValL1.lean ====
/- Level 1 of the reference's routing: what its stretch of the operation table leaves in the node and margin arrays, as the
   pure functions of a level applied to what the stretch found, and that it leaves the feature array, the tree-number row
   and the argument tables alone. -/
import proofs.«409293_j18485539242413_1_alg».proof.Proof.RefOps
import proofs.«409293_j18485539242413_1_alg».proof.Proof.RefMathLevel
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after level 1's stretch, from the contents X before it. -/
def stage1 (X : Valuation τ sig (Elt Ideal)) : Valuation τ sig (Elt Ideal) := after (List.take 39 (ops_1 (F := Ideal))) (after (List.drop 46 (ops_0 (F := Ideal))) X)

set_option maxHeartbeats 4000000 in
theorem stage1_node (X : Valuation τ sig (Elt Ideal)) :
    (stage1 X (Proc.devRef .tc main_v60) : IVec S2048x1024 32)
      = levelNode (X (Proc.devRef .tc main_v17) : IVec S2048x1024 32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v17) : IVec S2048x1024 32)) := by
  unfold stage1
  simp only [ops_0, ops_1, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelNode levelVal takeAlong takeMask takeIdx startIdx normTree normNode Cert.LibCat2.cat2
  rfl

set_option maxHeartbeats 4000000 in
theorem stage1_margin (X : Valuation τ sig (Elt Ideal)) :
    (stage1 X (Proc.devRef .tc main_v52) : FVec Ideal S2048x1024 .f32)
      = levelMargin (X (Proc.devRef .tc main_v18) : FVec Ideal S2048x1024 .f32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v17) : IVec S2048x1024 32)) := by
  unfold stage1
  simp only [ops_0, ops_1, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelMargin levelVal takeAlong takeMask takeIdx startIdx normTree normNode Cert.LibCat2.cat2
  rfl

set_option maxHeartbeats 4000000 in
theorem stage1_keep (X : Valuation τ sig (Elt Ideal)) :
    stage1 X (Proc.devRef .tc main_v14) = X (Proc.devRef .tc main_v14)
      ∧ stage1 X (Proc.devRef .tc main_v16) = X (Proc.devRef .tc main_v16)
      ∧ stage1 X (Proc.devRef .tc main_arg2) = X (Proc.devRef .tc main_arg2)
      ∧ stage1 X (Proc.devRef .tc main_arg3) = X (Proc.devRef .tc main_arg3)
      ∧ stage1 X (Proc.devRef .tc main_arg4) = X (Proc.devRef .tc main_arg4) := by
  unfold stage1
  simp only [ops_0, ops_1, List.drop_succ_cons, List.drop_zero, List.take_succ_cons, List.take_zero]
  refine ⟨?_, ?_, ?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValL2.lean ====
/- Level 2 of the reference's routing: what its stretch of the operation table leaves in the node and margin arrays, as the
   pure functions of a level applied to what the stretch found, and that it leaves the feature array, the tree-number row
   and the argument tables alone. -/
import proofs.«409293_j18485539242413_1_alg».proof.Proof.RefOps
import proofs.«409293_j18485539242413_1_alg».proof.Proof.RefMathLevel
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after level 2's stretch, from the contents X before it. -/
def stage2 (X : Valuation τ sig (Elt Ideal)) : Valuation τ sig (Elt Ideal) := after (List.take 11 (ops_2 (F := Ideal))) (after (List.drop 39 (ops_1 (F := Ideal))) X)

set_option maxHeartbeats 4000000 in
theorem stage2_node (X : Valuation τ sig (Elt Ideal)) :
    (stage2 X (Proc.devRef .tc main_v102) : IVec S2048x1024 32)
      = levelNode (X (Proc.devRef .tc main_v60) : IVec S2048x1024 32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v60) : IVec S2048x1024 32)) := by
  unfold stage2
  simp only [ops_1, ops_2, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelNode levelVal takeAlong takeMask takeIdx startIdx normTree normNode Cert.LibCat2.cat2
  rfl

set_option maxHeartbeats 4000000 in
theorem stage2_margin (X : Valuation τ sig (Elt Ideal)) :
    (stage2 X (Proc.devRef .tc main_v94) : FVec Ideal S2048x1024 .f32)
      = levelMargin (X (Proc.devRef .tc main_v52) : FVec Ideal S2048x1024 .f32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v60) : IVec S2048x1024 32)) := by
  unfold stage2
  simp only [ops_1, ops_2, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelMargin levelVal takeAlong takeMask takeIdx startIdx normTree normNode Cert.LibCat2.cat2
  rfl

set_option maxHeartbeats 4000000 in
theorem stage2_keep (X : Valuation τ sig (Elt Ideal)) :
    stage2 X (Proc.devRef .tc main_v14) = X (Proc.devRef .tc main_v14)
      ∧ stage2 X (Proc.devRef .tc main_v16) = X (Proc.devRef .tc main_v16)
      ∧ stage2 X (Proc.devRef .tc main_arg2) = X (Proc.devRef .tc main_arg2)
      ∧ stage2 X (Proc.devRef .tc main_arg3) = X (Proc.devRef .tc main_arg3)
      ∧ stage2 X (Proc.devRef .tc main_arg4) = X (Proc.devRef .tc main_arg4) := by
  unfold stage2
  simp only [ops_1, ops_2, List.drop_succ_cons, List.drop_zero, List.take_succ_cons, List.take_zero]
  refine ⟨?_, ?_, ?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValL3.lean ====
/- Level 3 of the reference's routing: what its stretch of the operation table leaves in the node and margin arrays, as the
   pure functions of a level applied to what the stretch found, and that it leaves the feature array, the tree-number row
   and the argument tables alone. -/
import proofs.«409293_j18485539242413_1_alg».proof.Proof.RefOps
import proofs.«409293_j18485539242413_1_alg».proof.Proof.RefMathLevel
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after level 3's stretch, from the contents X before it. -/
def stage3 (X : Valuation τ sig (Elt Ideal)) : Valuation τ sig (Elt Ideal) := after (List.take 4 (ops_3 (F := Ideal))) (after (List.drop 11 (ops_2 (F := Ideal))) X)

set_option maxHeartbeats 4000000 in
theorem stage3_node (X : Valuation τ sig (Elt Ideal)) :
    (stage3 X (Proc.devRef .tc main_v144) : IVec S2048x1024 32)
      = levelNode (X (Proc.devRef .tc main_v102) : IVec S2048x1024 32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v102) : IVec S2048x1024 32)) := by
  unfold stage3
  simp only [ops_2, ops_3, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelNode levelVal takeAlong takeMask takeIdx startIdx normTree normNode Cert.LibCat2.cat2
  rfl

set_option maxHeartbeats 4000000 in
theorem stage3_margin (X : Valuation τ sig (Elt Ideal)) :
    (stage3 X (Proc.devRef .tc main_v136) : FVec Ideal S2048x1024 .f32)
      = levelMargin (X (Proc.devRef .tc main_v94) : FVec Ideal S2048x1024 .f32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v102) : IVec S2048x1024 32)) := by
  unfold stage3
  simp only [ops_2, ops_3, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelMargin levelVal takeAlong takeMask takeIdx startIdx normTree normNode Cert.LibCat2.cat2
  rfl

set_option maxHeartbeats 4000000 in
theorem stage3_keep (X : Valuation τ sig (Elt Ideal)) :
    stage3 X (Proc.devRef .tc main_v14) = X (Proc.devRef .tc main_v14)
      ∧ stage3 X (Proc.devRef .tc main_v16) = X (Proc.devRef .tc main_v16)
      ∧ stage3 X (Proc.devRef .tc main_arg2) = X (Proc.devRef .tc main_arg2)
      ∧ stage3 X (Proc.devRef .tc main_arg3) = X (Proc.devRef .tc main_arg3)
      ∧ stage3 X (Proc.devRef .tc main_arg4) = X (Proc.devRef .tc main_arg4) := by
  unfold stage3
  simp only [ops_2, ops_3, List.drop_succ_cons, List.drop_zero, List.take_succ_cons, List.take_zero]
  refine ⟨?_, ?_, ?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValL4.lean ====
/- Level 4 of the reference's routing: what its stretch of the operation table leaves in the node and margin arrays, as the
   pure functions of a level applied to what the stretch found, and that it leaves the feature array, the tree-number row
   and the argument tables alone. -/
import proofs.«409293_j18485539242413_1_alg».proof.Proof.RefOps
import proofs.«409293_j18485539242413_1_alg».proof.Proof.RefMathLevel
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after level 4's stretch, from the contents X before it. -/
def stage4 (X : Valuation τ sig (Elt Ideal)) : Valuation τ sig (Elt Ideal) := after (List.take 74 (List.drop 4 (ops_3 (F := Ideal)))) X

set_option maxHeartbeats 4000000 in
theorem stage4_node (X : Valuation τ sig (Elt Ideal)) :
    (stage4 X (Proc.devRef .tc main_v186) : IVec S2048x1024 32)
      = levelNode (X (Proc.devRef .tc main_v144) : IVec S2048x1024 32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v144) : IVec S2048x1024 32)) := by
  unfold stage4
  simp only [ops_3, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelNode levelVal takeAlong takeMask takeIdx startIdx normTree normNode Cert.LibCat2.cat2
  rfl

set_option maxHeartbeats 4000000 in
theorem stage4_margin (X : Valuation τ sig (Elt Ideal)) :
    (stage4 X (Proc.devRef .tc main_v178) : FVec Ideal S2048x1024 .f32)
      = levelMargin (X (Proc.devRef .tc main_v136) : FVec Ideal S2048x1024 .f32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v144) : IVec S2048x1024 32)) := by
  unfold stage4
  simp only [ops_3, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelMargin levelVal takeAlong takeMask takeIdx startIdx normTree normNode Cert.LibCat2.cat2
  rfl

set_option maxHeartbeats 4000000 in
theorem stage4_keep (X : Valuation τ sig (Elt Ideal)) :
    stage4 X (Proc.devRef .tc main_v14) = X (Proc.devRef .tc main_v14)
      ∧ stage4 X (Proc.devRef .tc main_v16) = X (Proc.devRef .tc main_v16)
      ∧ stage4 X (Proc.devRef .tc main_arg2) = X (Proc.devRef .tc main_arg2)
      ∧ stage4 X (Proc.devRef .tc main_arg3) = X (Proc.devRef .tc main_arg3)
      ∧ stage4 X (Proc.devRef .tc main_arg4) = X (Proc.devRef .tc main_arg4) := by
  unfold stage4
  simp only [ops_3, List.drop_succ_cons, List.drop_zero, List.take_succ_cons, List.take_zero]
  refine ⟨?_, ?_, ?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValL5.lean ====
/- Level 5 of the reference's routing: what its stretch of the operation table leaves in the node and margin arrays, as the
   pure functions of a level applied to what the stretch found, and that it leaves the feature array, the tree-number row
   and the argument tables alone. -/
import proofs.«409293_j18485539242413_1_alg».proof.Proof.RefOps
import proofs.«409293_j18485539242413_1_alg».proof.Proof.RefMathLevel
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after level 5's stretch, from the contents X before it. -/
def stage5 (X : Valuation τ sig (Elt Ideal)) : Valuation τ sig (Elt Ideal) := after (List.take 71 (ops_4 (F := Ideal))) (after (List.drop 74 (List.drop 4 (ops_3 (F := Ideal)))) X)

set_option maxHeartbeats 4000000 in
theorem stage5_node (X : Valuation τ sig (Elt Ideal)) :
    (stage5 X (Proc.devRef .tc main_v228) : IVec S2048x1024 32)
      = levelNode (X (Proc.devRef .tc main_v186) : IVec S2048x1024 32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v186) : IVec S2048x1024 32)) := by
  unfold stage5
  simp only [ops_3, ops_4, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelNode levelVal takeAlong takeMask takeIdx startIdx normTree normNode Cert.LibCat2.cat2
  rfl

set_option maxHeartbeats 4000000 in
theorem stage5_margin (X : Valuation τ sig (Elt Ideal)) :
    (stage5 X (Proc.devRef .tc main_v220) : FVec Ideal S2048x1024 .f32)
      = levelMargin (X (Proc.devRef .tc main_v178) : FVec Ideal S2048x1024 .f32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v186) : IVec S2048x1024 32)) := by
  unfold stage5
  simp only [ops_3, ops_4, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelMargin levelVal takeAlong takeMask takeIdx startIdx normTree normNode Cert.LibCat2.cat2
  rfl

set_option maxHeartbeats 4000000 in
theorem stage5_keep (X : Valuation τ sig (Elt Ideal)) :
    stage5 X (Proc.devRef .tc main_v14) = X (Proc.devRef .tc main_v14)
      ∧ stage5 X (Proc.devRef .tc main_v16) = X (Proc.devRef .tc main_v16)
      ∧ stage5 X (Proc.devRef .tc main_arg2) = X (Proc.devRef .tc main_arg2)
      ∧ stage5 X (Proc.devRef .tc main_arg3) = X (Proc.devRef .tc main_arg3)
      ∧ stage5 X (Proc.devRef .tc main_arg4) = X (Proc.devRef .tc main_arg4) := by
  unfold stage5
  simp only [ops_3, ops_4, List.drop_succ_cons, List.drop_zero, List.take_succ_cons, List.take_zero]
  refine ⟨?_, ?_, ?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValL6.lean ====
/- Level 6 of the reference's routing: what its stretch of the operation table leaves in the node and margin arrays, as the
   pure functions of a level applied to what the stretch found, and that it leaves the feature array, the tree-number row
   and the argument tables alone. -/
import proofs.«409293_j18485539242413_1_alg».proof.Proof.RefOps
import proofs.«409293_j18485539242413_1_alg».proof.Proof.RefMathLevel
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after level 6's stretch, from the contents X before it. -/
def stage6 (X : Valuation τ sig (Elt Ideal)) : Valuation τ sig (Elt Ideal) := after (List.take 64 (ops_5 (F := Ideal))) (after (List.drop 71 (ops_4 (F := Ideal))) X)

set_option maxHeartbeats 4000000 in
theorem stage6_node (X : Valuation τ sig (Elt Ideal)) :
    (stage6 X (Proc.devRef .tc main_v270) : IVec S2048x1024 32)
      = levelNode (X (Proc.devRef .tc main_v228) : IVec S2048x1024 32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v228) : IVec S2048x1024 32)) := by
  unfold stage6
  simp only [ops_4, ops_5, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelNode levelVal takeAlong takeMask takeIdx startIdx normTree normNode Cert.LibCat2.cat2
  rfl

set_option maxHeartbeats 4000000 in
theorem stage6_margin (X : Valuation τ sig (Elt Ideal)) :
    (stage6 X (Proc.devRef .tc main_v262) : FVec Ideal S2048x1024 .f32)
      = levelMargin (X (Proc.devRef .tc main_v220) : FVec Ideal S2048x1024 .f32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v228) : IVec S2048x1024 32)) := by
  unfold stage6
  simp only [ops_4, ops_5, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelMargin levelVal takeAlong takeMask takeIdx startIdx normTree normNode Cert.LibCat2.cat2
  rfl

set_option maxHeartbeats 4000000 in
theorem stage6_keep (X : Valuation τ sig (Elt Ideal)) :
    stage6 X (Proc.devRef .tc main_v14) = X (Proc.devRef .tc main_v14)
      ∧ stage6 X (Proc.devRef .tc main_v16) = X (Proc.devRef .tc main_v16)
      ∧ stage6 X (Proc.devRef .tc main_arg2) = X (Proc.devRef .tc main_arg2)
      ∧ stage6 X (Proc.devRef .tc main_arg3) = X (Proc.devRef .tc main_arg3)
      ∧ stage6 X (Proc.devRef .tc main_arg4) = X (Proc.devRef .tc main_arg4) := by
  unfold stage6
  simp only [ops_4, ops_5, List.drop_succ_cons, List.drop_zero, List.take_succ_cons, List.take_zero]
  refine ⟨?_, ?_, ?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValL7.lean ====
/- Level 7 of the reference's routing: what its stretch of the operation table leaves in the node and margin arrays, as the
   pure functions of a level applied to what the stretch found, and that it leaves the feature array, the tree-number row
   and the argument tables alone. -/
import proofs.«409293_j18485539242413_1_alg».proof.Proof.RefOps
import proofs.«409293_j18485539242413_1_alg».proof.Proof.RefMathLevel
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after level 7's stretch, from the contents X before it. -/
def stage7 (X : Valuation τ sig (Elt Ideal)) : Valuation τ sig (Elt Ideal) := after (List.take 57 (ops_6 (F := Ideal))) (after (List.drop 64 (ops_5 (F := Ideal))) X)

set_option maxHeartbeats 4000000 in
theorem stage7_node (X : Valuation τ sig (Elt Ideal)) :
    (stage7 X (Proc.devRef .tc main_v312) : IVec S2048x1024 32)
      = levelNode (X (Proc.devRef .tc main_v270) : IVec S2048x1024 32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v270) : IVec S2048x1024 32)) := by
  unfold stage7
  simp only [ops_5, ops_6, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelNode levelVal takeAlong takeMask takeIdx startIdx normTree normNode Cert.LibCat2.cat2
  rfl

set_option maxHeartbeats 4000000 in
theorem stage7_margin (X : Valuation τ sig (Elt Ideal)) :
    (stage7 X (Proc.devRef .tc main_v304) : FVec Ideal S2048x1024 .f32)
      = levelMargin (X (Proc.devRef .tc main_v262) : FVec Ideal S2048x1024 .f32)
          (levelVal (X (Proc.devRef .tc main_v14) : FVec Ideal S2048x26009 .f32) (X (Proc.devRef .tc main_arg4) : IVec S1024x127 32)
            (X (Proc.devRef .tc main_arg2) : FVec Ideal S1024x127 .f32) (X (Proc.devRef .tc main_v16) : IVec S1x1024 32)
            (X (Proc.devRef .tc main_v270) : IVec S2048x1024 32)) := by
  unfold stage7
  simp only [ops_5, ops_6, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  simp only [TRef.ofBuf, TRef.toBuf]
  simp only [cast_eq']
  unfold levelMargin levelVal takeAlong takeMask takeIdx startIdx normTree normNode Cert.LibCat2.cat2
  rfl

set_option maxHeartbeats 4000000 in
theorem stage7_keep (X : Valuation τ sig (Elt Ideal)) :
    stage7 X (Proc.devRef .tc main_v14) = X (Proc.devRef .tc main_v14)
      ∧ stage7 X (Proc.devRef .tc main_v16) = X (Proc.devRef .tc main_v16)
      ∧ stage7 X (Proc.devRef .tc main_arg2) = X (Proc.devRef .tc main_arg2)
      ∧ stage7 X (Proc.devRef .tc main_arg3) = X (Proc.devRef .tc main_arg3)
      ∧ stage7 X (Proc.devRef .tc main_arg4) = X (Proc.devRef .tc main_arg4) := by
  unfold stage7
  simp only [ops_5, ops_6, List.drop_succ_cons, List.drop_zero, List.take_succ_cons, List.take_zero]
  refine ⟨?_, ?_, ?_, ?_, ?_⟩ <;> simp (disch := decide) only [after_cons, after_nil, nullary_result', unary_result', binary_result', ternary_result', reshape_result', nullary_result_ne', unary_result_ne', binary_result_ne', ternary_result_ne', reshape_result_ne', Cert.LibCat2.cat2_eq]

end Cert.ReferenceIdeal.HandVal

end
-- ==== Proof.RefValFin.lean ====
/-
  The end of the reference's program: what the stretch of the operation table after the seventh level leaves in the
  result array, as the pure function of the last stage applied to the weight table, the tree-number row and the node and
  margin arrays the stretch found.
-/
import proofs.«409293_j18485539242413_1_alg».proof.Proof.RefOps
import proofs.«409293_j18485539242413_1_alg».proof.Proof.RefValInv
import proofs.«409293_j18485539242413_1_alg».proof.Proof.LibCat2

noncomputable section

namespace Cert.ReferenceIdeal.HandVal

open Cert.ReferenceIdeal Cert.ReferenceIdeal.Hand Idealize.ShloMosaic Idealize.ShloMosaic.StableHlo Idealize.SL.Sem

/-- A cast along an equation of a type with itself is the identity (the propositional form, for rewriting). -/
private theorem cast_eq' {α : Sort _} (h : α = α) (a : α) : cast h a = a := cast_eq h a

/-- The buffers after the stretch that follows the seventh level, from the contents X before it. -/
def stage8 (X : Valuation τ sig (Elt Ideal)) : Valuation τ sig (Elt Ideal) :=
  after (ops_7 (F := Ideal)) (after (List.drop 57 (ops_6 (F := Ideal))) X)

set_option maxHeartbeats 4000000 in
theorem stage8_out (X : Valuation τ sig (Elt Ideal)) :
    (stage8 X (Proc.devRef .tc main_v333) : FVec Ideal S2048x10 .f32)
      = refOut (X (Proc.devRef .tc main_arg3) : FVec Ideal S1024x128x10 .f32) (X (Proc.devRef .tc main_v16) : IVec S1x1024 32)
          (X (Proc.devRef .tc main_v312) : IVec S2048x1024 32) (X (Proc.devRef .tc main_v304) : FVec Ideal S2048x1024 .f32) := by
  unfold stage8
  simp only [ops_6, ops_7, List.drop_succ_cons, List.drop_zero, List.take_succ_cons, List.take_zero]
  simp (disch := decide) only [after_cons, after_nil, nullary_result', unary_result', binary_result', ternary_result', reshape_result', nullary_result_ne', unary_result_ne', binary_result_ne', ternary_result_ne', reshape_result_ne', Cert.LibCat2.cat2_eq]
  try simp only [TRef.ofBuf, TRef.toBuf]
  try simp only [cast_eq']
  unfold refOut leafOf startIdx normTree normNode Cert.LibCat2.cat2
  rfl

end Cert.ReferenceIdeal.HandVal

end
-- ==== Proof.RefVal.lean ====
/-
  THE REFERENCE'S VALUE.  The operation table is cut at the level boundaries into nine stretches (the start, the seven
  levels, the end); the start establishes the invariant of the walk at 0 steps, each level takes it one step further, and
  at 7 steps the end's result is the specification's.
-/
import proofs.«409293_j18485539242413_1_alg».proof.Proof.RefRun
import proofs.«409293_j18485539242413_1_alg».proof.Proof.RefValPre
import proofs.«409293_j18485539242413_1_alg».proof.Proof.RefValL1
import proofs.«409293_j18485539242413_1_alg».proof.Proof.RefValL2
import proofs.«409293_j18485539242413_1_alg».proof.Proof.RefValL3
import proofs.«409293_j18485539242413_1_alg».proof.Proof.RefValL4
import proofs.«409293_j18485539242413_1_alg».proof.Proof.RefValL5
import proofs.«409293_j18485539242413_1_alg».proof.Proof.RefValL6
import proofs.«409293_j18485539242413_1_alg».proof.Proof.RefValL7
import proofs.«409293_j18485539242413_1_alg».proof.Proof.RefValFin

noncomputable section

namespace Cert.ReferenceIdeal.HandVal

open Cert.ReferenceIdeal Cert.ReferenceIdeal.Hand Idealize.ShloMosaic Idealize.ShloMosaic.StableHlo Idealize.SL.Sem
open Idealize.ShloMosaic.ValueIdx

/-- The whole table run is the nine stretches run in order. -/
theorem after_ops_stages (V : Valuation τ sig (Elt Ideal)) :
    after (ops (F := Ideal)) V
      = stage8 (stage7 (stage6 (stage5 (stage4 (stage3 (stage2 (stage1 (stage0 V)))))))) := by
  unfold stage8 stage7 stage6 stage5 stage4 stage3 stage2 stage1 stage0
  rw [after_ops, after_split 46 (ops_0 (F := Ideal)), after_split 39 (ops_1 (F := Ideal)), after_split 11 (ops_2 (F := Ideal)),
    after_split 4 (ops_3 (F := Ideal)), after_split 74 (List.drop 4 (ops_3 (F := Ideal))), after_split 71 (ops_4 (F := Ideal)),
    after_split 64 (ops_5 (F := Ideal)), after_split 57 (ops_6 (F := Ideal))]

/-- THE REFERENCE'S RESULT, element by element, is the specification's result of the five argument arrays, provided every
    word of the fifth is a feature number. -/
theorem ref_value (V : Valuation τ sig (Elt Ideal))
    (hord : ∀ i : S1024x127.Idx, ((V (Proc.devRef .tc main_arg4) : IVec S1024x127 32) i).toNat < 26009)
    (b : Fin 2048) (e : Fin 10) :
    (after (ops (F := Ideal)) V (Proc.devRef .tc main_v333) : FVec Ideal S2048x10 .f32) (ix2 b e)
      = Spec.out (fun b k => (V (Proc.devRef .tc main_arg0) : FVec Ideal S2048x256 .f32) (ix2 b k))
          (fun f k => (V (Proc.devRef .tc main_arg1) : FVec Ideal S26009x256 .f32) (ix2 f k))
          (fun t n => (V (Proc.devRef .tc main_arg2) : FVec Ideal S1024x127 .f32) (ix2 t n))
          (fun t l e => (V (Proc.devRef .tc main_arg3) : FVec Ideal S1024x128x10 .f32) (ix3 t l e))
          (fun t n => (V (Proc.devRef .tc main_arg4) : IVec S1024x127 32) (ix2 t n)) b e := by
  have hrange : ∀ (t : Fin 1024) (n : Fin 127),
      ((V (Proc.devRef .tc main_arg4) : IVec S1024x127 32) (ix2 t n)).toNat < 26009 := fun t n => hord (ix2 t n)
  rw [after_ops_stages]
  have k0 := stage0_keep V
  have I0 := Inv.init (xf := fun b k => (V (Proc.devRef .tc main_arg0) : FVec Ideal S2048x256 .f32) (ix2 b k))
    (Wf := fun f k => (V (Proc.devRef .tc main_arg1) : FVec Ideal S26009x256 .f32) (ix2 f k))
    (thrf := fun t n => (V (Proc.devRef .tc main_arg2) : FVec Ideal S1024x127 .f32) (ix2 t n))
    (wtsf := fun t l e => (V (Proc.devRef .tc main_arg3) : FVec Ideal S1024x128x10 .f32) (ix3 t l e))
    (ordf := fun t n => (V (Proc.devRef .tc main_arg4) : IVec S1024x127 32) (ix2 t n))
    (x := V (Proc.devRef .tc main_arg0)) (W := V (Proc.devRef .tc main_arg1))
    (thr := stage0 V (Proc.devRef .tc main_arg2)) (wts := stage0 V (Proc.devRef .tc main_arg3))
    (ord := stage0 V (Proc.devRef .tc main_arg4))
    (fun _ _ => rfl) (fun _ _ => rfl) (fun t n => congrFun k0.1 (ix2 t n)) (fun t l e => congrFun k0.2.1 (ix3 t l e))
    (fun t n => congrFun k0.2.2 (ix2 t n)) (stage0_h V) (stage0_ti V) (stage0_node V) (stage0_margin V)
  clear k0
  generalize stage0 V = V0 at I0 ⊢
  have I1 := I0.step (by decide) hrange (stage1_keep V0).1 (stage1_keep V0).2.1 (stage1_keep V0).2.2.1 (stage1_keep V0).2.2.2.1 (stage1_keep V0).2.2.2.2 (stage1_node V0) (stage1_margin V0)
  clear I0
  generalize stage1 V0 = V1 at I1 ⊢
  have I2 := I1.step (by decide) hrange (stage2_keep V1).1 (stage2_keep V1).2.1 (stage2_keep V1).2.2.1 (stage2_keep V1).2.2.2.1 (stage2_keep V1).2.2.2.2 (stage2_node V1) (stage2_margin V1)
  clear I1
  generalize stage2 V1 = V2 at I2 ⊢
  have I3 := I2.step (by decide) hrange (stage3_keep V2).1 (stage3_keep V2).2.1 (stage3_keep V2).2.2.1 (stage3_keep V2).2.2.2.1 (stage3_keep V2).2.2.2.2 (stage3_node V2) (stage3_margin V2)
  clear I2
  generalize stage3 V2 = V3 at I3 ⊢
  have I4 := I3.step (by decide) hrange (stage4_keep V3).1 (stage4_keep V3).2.1 (stage4_keep V3).2.2.1 (stage4_keep V3).2.2.2.1 (stage4_keep V3).2.2.2.2 (stage4_node V3) (stage4_margin V3)
  clear I3
  generalize stage4 V3 = V4 at I4 ⊢
  have I5 := I4.step (by decide) hrange (stage5_keep V4).1 (stage5_keep V4).2.1 (stage5_keep V4).2.2.1 (stage5_keep V4).2.2.2.1 (stage5_keep V4).2.2.2.2 (stage5_node V4) (stage5_margin V4)
  clear I4
  generalize stage5 V4 = V5 at I5 ⊢
  have I6 := I5.step (by decide) hrange (stage6_keep V5).1 (stage6_keep V5).2.1 (stage6_keep V5).2.2.1 (stage6_keep V5).2.2.2.1 (stage6_keep V5).2.2.2.2 (stage6_node V5) (stage6_margin V5)
  clear I5
  generalize stage6 V5 = V6 at I6 ⊢
  have I7 := I6.step (by decide) hrange (stage7_keep V6).1 (stage7_keep V6).2.1 (stage7_keep V6).2.2.1 (stage7_keep V6).2.2.2.1 (stage7_keep V6).2.2.2.2 (stage7_node V6) (stage7_margin V6)
  clear I6
  generalize stage7 V6 = V7 at I7 ⊢
  exact (congrFun (stage8_out V7) (ix2 b e)).trans (I7.out b e)

end Cert.ReferenceIdeal.HandVal

end
-- ==== Proof.KI.Body0.lean ====
/-
  The body of the first kernel on its three staging buffers.

  The body reads the whole 256×2048 block of the transposed samples and the whole 512×256 block of the padded
  weights, and overwrites the whole 512×2048 output block with one value computed from those two reads (the
  normalised projections of 512 features).  It also reads the output block before overwriting it; that value is
  not used.  So after the body the two input buffers are unchanged and the output buffer holds the payload of the
  two input blocks, whatever it held before.
-/
import proofs.«409293_j18485539242413_1_alg».proof.Proof.Gen.KernelIdeal.Launch
import proofs.«409293_j18485539242413_1_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's accesses: each is the whole buffer -/

/-- The whole block of transposed samples (256 features of the input × 2048 samples). -/
abbrev r0 : Rect S256x2048 := Rect.unit (s := S256x2048) ![0, 0] S256x2048.size inb_S256x2048_S256x2048_0_0
/-- The whole block of padded weights (512 output features × 256 input features). -/
abbrev r1 : Rect S512x256 := Rect.unit (s := S512x256) ![0, 0] S512x256.size inb_S512x256_S512x256_0_0
/-- The whole output block (512 output features × 2048 samples). -/
abbrev r2 : Rect S512x2048 := Rect.unit (s := S512x2048) ![0, 0] S512x2048.size inb_S512x2048_S512x2048_0_0

/-! ## What the body leaves in the output buffer -/

/-- The output buffer after the body, from the two input blocks: its one store, of the whole block. -/
def out0_2 (x0 : Vec F S256x2048 .f32) (x1 : Vec F S512x256 .f32) : Vec F S512x2048 .f32 :=
  View.canon [⟨r2, k0_pay1 (View.ld x0 r0) (View.ld x1 r1)⟩]

/-- The one store tiles the output buffer, so it covers it. -/
theorem cover0_2 (p0 : Vec F S512x2048 .f32) (y : S512x2048.Idx) :
    ∃ pc ∈ ([⟨r2, p0⟩] : List (View.Piece (Elt F) S512x2048 .f32)), y ∈ pc.1.set :=
  View.cover_of_tiled [⟨r2, p0⟩] S512x2048.size (by rfl) y

/-! ## The body's triple -/

set_option maxHeartbeats 1000000 in
/-- The body on whole staging buffers, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S256x2048 .f32) (harg1 : arg1.IsWhole)
    (arg2 : Memref sig .tc .vmem S512x256 .f32) (harg2 : arg2.IsWhole)
    (arg3 : Memref sig .tc .vmem S512x2048 .f32) (harg3 : arg3.IsWhole)
    (x0 : Vec F S256x2048 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__phase1_kernel i arg1 harg1 arg2 harg2 arg3 harg3) K := by
  simp only [cc0__phase1_kernel_eq_skeleton]; unfold cc0__phase1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Hand

end
-- ==== Proof.KI.Data0.lean ====
/-
  Pallas call 0 as a pipeline's proof data, at a PARAMETER `V` (the TensorCore's buffer contents when the region is
  entered): each window's block at a grid point read off its array; after the body at point `t` the two input windows'
  staging buffers hold their blocks and the output window's holds the body's value of them (one whole-block store);
  the invariant is the scoped rest and the generator register, untouched; nothing is owed; full shares.
  Then the body obligation at every point, from the body's triple.
-/
import proofs.«409293_j18485539242413_1_alg».proof.Proof.KI.Body0
import proofs.«409293_j18485539242413_1_alg».proof.Proof.Gen.KernelIdeal.Launch
import proofs.«409293_j18485539242413_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1Lib.lean ====
/-
  Pallas call 1's body: the vocabulary its run is stated in.

  The operands the body reaches by itself (the prefetched table, the array left in HBM, the scratch rows, its 127 DMA
  cells), the side condition on the table's words, the closed form of its one conditional, and the bookkeeping that
  turns "the array held whole" into "one read token per cell" and back, and "the cells at zero" into a chain of 127
  hypotheses and back.
-/
import proofs.«409293_j18485539242413_1_alg».proof.Proof.Gen.KernelIdeal.Skeleton
import proofs.«409293_j18485539242413_1_alg».proof.Proof.Gen.KernelIdeal.Launch
import proofs.«409293_j18485539242413_1_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic
import Idealize.ShloMosaic.Lib.Transfers

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Chains of numbered hypotheses -/

open Lean in
/-- The list literal `[0, 1, …, n-1]`. -/
macro "nat_list% " n:num : term => do
  let xs := (List.range n.getNat).toArray.map fun k => Syntax.mkNumLit (toString k)
  `([$xs,*])

open Lean Elab Tactic in
/-- Opens the chain `Φ lo ∗ … ∗ Φ (lo+n-1)` held as the hypothesis `h` into `n` hypotheses named `<pre><lo>`, …. -/
elab "ichain_open " h:ident pre:ident lo:num n:num : tactic => do
  let name (k : Nat) : Ident := mkIdent (Name.mkSimple s!"{pre.getId.toString}{k}")
  for j in [0:n.getNat - 1] do
    let bi ← `(binderIdent| $(name (lo.getNat + j)):ident)
    let bh ← `(binderIdent| $h:ident)
    evalTactic (← `(tactic| icases $h:ident with ⟨$bi:binderIdent, $bh:binderIdent⟩))
  let bl ← `(binderIdent| $(name (lo.getNat + n.getNat - 1)):ident)
  evalTactic (← `(tactic| icases $h:ident with $bl:binderIdent))

open Lean Elab Tactic in
/-- Closes a goal `Φ lo ∗ … ∗ Φ (lo+n-1)` from the hypotheses `<pre><lo>`, …, each handed to its own conjunct. -/
elab "ichain_close " pre:ident lo:num n:num : tactic => do
  let name (k : Nat) : Ident := mkIdent (Name.mkSimple s!"{pre.getId.toString}{k}")
  for j in [0:n.getNat - 1] do
    let x := name (lo.getNat + j)
    evalTactic (← `(tactic| (isplitl [$x:ident]; · iexact $x:ident)))
  let x := name (lo.getNat + n.getNat - 1)
  evalTactic (← `(tactic| iexact $x:ident))

open Lean in
/-- The chain `semVal (c, dma lo) 0 ∗ … ∗ semVal (c, dma (lo+n-1)) 0`, written out. -/
macro "sem_chain% " c:ident lo:num n:num : term => do
  let cell (k : Nat) : MacroM (TSyntax `term) :=
    `(semVal (($c : Thread nD τ), SemLoc.dma $(Syntax.mkNumLit (toString k))) 0)
  let mut acc ← cell (lo.getNat + n.getNat - 1)
  for j in (List.range (n.getNat - 1)).reverse do
    acc ← `(iprop($(← cell (lo.getNat + j)) ∗ $acc))
  return acc

open Lean in
/-- The chain `P lo ∗ … ∗ P (lo+n-1)` of a family `P` over numerals, written out. -/
macro "sep_chain% " P:term:max lo:num n:num : term => do
  let cell (k : Nat) : MacroM (TSyntax `term) := `($P $(Syntax.mkNumLit (toString k)))
  let mut acc ← cell (lo.getNat + n.getNat - 1)
  for j in (List.range (n.getNat - 1)).reverse do
    acc ← `(iprop($(← cell (lo.getNat + j)) ∗ $acc))
  return acc

open Lean Elab Tactic in
/-- `isplitl` handing the hypotheses `<pre><lo>`, …, `<pre><lo+n-1>` to the left conjunct. -/
elab "isplitl_range " pre:ident lo:num n:num : tactic => do
  let ids : Array Ident := (Array.range n.getNat).map fun j => mkIdent (Name.mkSimple s!"{pre.getId.toString}{lo.getNat + j}")
  evalTactic (← `(tactic| isplitl [$ids*]))

/-! ## The operands the body reaches by itself -/

/-- The prefetched table, the array left in HBM and the scratch rows, whole. -/
abbrev tblM : Memref sig .tc .smem S1024x127 .i32 := Memref.whole main_arg4
abbrev hbM : Memref sig .tc .hbm S26112x2048 .f32 := Memref.whole main_v2
abbrev scM : Memref sig .tc .vmem S127x2048 .f32 := Memref.whole cc1_scratch0
/-- Memref `M`'s buffer on core `c`: its contents type, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The array at share `q`. -/
abbrev hbAt (c : Dev nD) (q : PosShare TreeShare) (f : HbBuf1 (F := F) c hbM) : sProp 𝕄 :=
  hbM.view.loc (c : Thread nD τ) ↦{q} f

/-- Every word of the table, read as a row number, is a row of the array. -/
def RowsOk (c : Dev nD) (tb : HbBuf1 (F := F) c tblM) : Prop :=
  ∀ (o : Fin 2 → ℕ) (ho : ∀ a, o a + S1x1.size a ≤ S1024x127.size a),
    (tblM.view.readAt (Elt F) (Rect.unit (s := S1024x127) o S1x1.size ho).toLoadRect tb (Shape.Idx.first (numel1_S1x1.symm ▸ Nat.one_pos))).toNat + 1 ≤ 26112

/-- A word below the array's row count names a row inside it. -/
theorem chk_row (v : BitVec 32) (h : v.toNat + 1 ≤ 26112) : ∀ a, (![v.toNat, 0] : Fin 2 → ℕ) a + S1x2048.size a ≤ S26112x2048.size a := by
  intro a; fin_cases a
  · simpa using h
  · simp

/-- The body's own DMA semaphores: cell `k` is semaphore `11 + k` of the pool. -/
abbrev osem1 : Fin 127 → SemLoc sig := fun k => SemLoc.dma (⟨11 + k.val, by have := k.isLt; omega⟩ : Fin 138)

theorem ownSemFacts1 : Pipeline.OwnSemFacts spec1 osem1 := by decide

/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = sem_chain% c 11 127 := by
  rw [Pipeline.ownSems0_eq_of_list c osem1 (nat_list% 127) (by decide) (by decide)]; rfl

/-- The array's read token for the cell numbered `k`. -/
abbrev hbTok (c : Dev nD) (f : HbBuf1 (F := F) c hbM) (k : ℕ) : sProp 𝕄 := hbAt c (Transfers.shareTokN fullShare k) f

/-- The array split into what remains after 138 read tokens and the tokens, one per cell number, as a chain. -/
theorem hb_toks (c : Dev nD) (f : HbBuf1 (F := F) c hbM) :
    (hbPt1 c hbM f : sProp 𝕄) ⊣⊢ iprop(hbAt c (Transfers.shareDrop fullShare 138) f
      ∗ sep_chain% (hbTok c f) 0 138) := by
  have h := Transfers.pointsTo_toks_range (Ix := Unit) (Name := ℕ) (U := Pipeline.UD sig nD τ) (Lvl := ℕ)
    (ℓ := hbM.view.loc (c : Thread nD τ)) (S := Finset.univ) (f := f) fullShare 138
  rw [BI.bigSep_eq_bigSepL_of_eq (S := Finset.range 138) (nat_list% 138) (by decide) (by decide)] at h
  exact h

/-- The printed condition of the body's `scf.if`: the second grid coordinate is zero. -/
abbrev cond1_0 (i : grid1.Coords) : Prop := (Scalar.cmpi .ne (Scalar.extui (Scalar.cmpi .eq (BitVec.ofNat 32 (i 1).val) 0#32)) 0#32) = 1#1

/-- It holds at the first point of each half of the grid. -/
theorem hcond1_0 : ∀ t : Fin grid1.N, cond1_0 (grid1.coords t) ↔ t.val % 512 = 0 :=
  (by decide +kernel : ∀ t : Fin grid1.N, cond1_0 (grid1.coords t) ↔ t.val % 512 = 0)

/-- A table whose every word is below the reference's row count has every word a row of the padded array. -/
theorem rowsOk_of_range (c : Dev nD) (tb : HbBuf1 (F := F) c tblM)
    (h : ∀ j : S1024x127.Idx, ((tb : S1024x127.Idx → BitVec 32) j).toNat < 26009) : RowsOk c tb := by
  intro o ho
  rw [View.readAt_apply]
  simp only [Memref.view_whole, View.read_whole]
  exact Nat.le_trans (Nat.succ_le_of_lt (h _)) (by decide)

/-- One staging buffer of the output window, through which its contents are stated. -/
abbrev VO1_2 : View sig .tc .vmem S1x2048x10 .f32 := (Memref.whole cc1_stg2_0 : Memref sig .tc .vmem S1x2048x10 .f32).view

end Cert.KernelIdeal.Hand

end
-- ==== Proof.KI.Body1Rows.lean ====
/-
  Pallas call 1's body: the scratch as its 127 rows.

  A 127-row memref held by its own elements is its rows, each held by its own elements; rows held each at contents of
  its own join into the memref held at ONE contents function, which on row `k` is row `k`'s; and the memref read
  back at an element of row `k` is row `k`'s contents read there.
-/
import proofs.«409293_j18485539242413_1_alg».proof.Proof.KI.Body1Lib
import Idealize.ShloMosaic.Lib.SparseCore.Stream
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `k` of a 127-row memref: the rectangle of offsets `(k, 0)` and sizes `(1, 2048)`. -/
abbrev rowOf (m : Memref sig .tc .vmem S127x2048 .f32) (k : ℕ) (hk : ∀ a, (![k, 0] : Fin 2 → ℕ) a + S1x2048.size a ≤ S127x2048.size a) : Memref sig .tc .vmem S1x2048 .f32 :=
  m.slice (Rect.unit (s := S127x2048) ![k, 0] S1x2048.size hk) (fun _ => rfl)

/-- Row `k` held by its own elements at contents `f`. -/
abbrev rowPt (m : Memref sig .tc .vmem S127x2048 .f32) (c : Dev nD) (k : ℕ) (hk : ∀ a, (![k, 0] : Fin 2 → ℕ) a + S1x2048.size a ≤ S127x2048.size a)
    (f : Buf (Elt F) ((rowOf m k hk).view.loc (c : Thread nD τ))) : sProp 𝕄 :=
  (rowOf m k hk).view.loc (c : Thread nD τ) ↦[(rowOf m k hk).view.set]{fullShare} f

open Lean in
/-- The chain `rowPt m c lo _ (f lo) ∗ … ∗ rowPt m c (lo+n-1) _ (f (lo+n-1))`, written out over numerals. -/
macro "row_chain% " m:ident c:ident f:term:max lo:num n:num : term => do
  let cell (k : Nat) : MacroM (TSyntax `term) := do
    let inb := mkIdent (Name.mkSimple s!"inb_S127x2048_S1x2048_{k}_0")
    let kk := Syntax.mkNumLit (toString k)
    `(rowPt $m $c $kk $inb ($f $kk))
  let mut acc ← cell (lo.getNat + n.getNat - 1)
  for j in (List.range (n.getNat - 1)).reverse do
    acc ← `(iprop($(← cell (lo.getNat + j)) ∗ $acc))
  return acc

/-- Unit-stride rectangles with equal offsets and sizes are equal. -/
theorem Rect.unit_congr {s : Shape} {off off' size size' : Fin s.rank → ℕ} (ho : off = off') (hs : size = size')
    (inb : ∀ a, off a + size a ≤ s.size a) (inb' : ∀ a, off' a + size' a ≤ s.size a) :
    Rect.unit (s := s) off size inb = Rect.unit (s := s) off' size' inb' := by
  subst ho; subst hs; rfl

/-- A view's slices through equal rectangles have the same elements. -/
theorem View.slice_set_congr {κ : Kind} {sp : Space} {s : Shape} {e : EltTy} (v : View sig κ sp s e) {r r' : Rect s} (h : r = r') :
    ((v.slice r).set : Finset v.ty.Idx) = (v.slice r').set := by subst h; rfl

theorem inb_row (k : Fin 127) : ∀ a, (![k.val, 0] : Fin 2 → ℕ) a + S1x2048.size a ≤ S127x2048.size a := by
  intro a; fin_cases a
  · have := k.isLt; show k.val + 1 ≤ 127; omega
  · show 0 + 2048 ≤ 2048; omega

/-- Row `k` along the first axis is the rectangle of offsets `(k, 0)` and sizes `(1, 2048)`. -/
theorem rowRect_eq (k : Fin 127) :
    S127x2048.rowRect (0 : Fin 2) k = Rect.unit (s := S127x2048) ![k.val, 0] S1x2048.size (inb_row k) := by
  unfold Shape.rowRect
  apply Rect.unit_congr
  · funext b; fin_cases b <;> rfl
  · funext b; fin_cases b <;> rfl

/-- An element of row `k` has first coordinate `k`. -/
theorem row_emb_zero (k : ℕ) (hk : ∀ a, (![k, 0] : Fin 2 → ℕ) a + S1x2048.size a ≤ S127x2048.size a) (x : S1x2048.Idx) :
    (((Rect.unit (s := S127x2048) ![k, 0] S1x2048.size hk).emb x) (0 : Fin 2)).val = k := by
  have h := Rect.emb_apply (Rect.unit (s := S127x2048) ![k, 0] S1x2048.size hk) x (0 : Fin 2)
  have hx : (x (0 : Fin 2)).val < 1 := (x (0 : Fin 2)).isLt
  rw [h]
  show k + 1 * (x (0 : Fin 2)).val = k
  omega

section
variable (m : Memref sig .tc .vmem S127x2048 .f32) (c : Dev nD)

theorem rowSet_eq (k : Fin 127) : ((m.view.slice (S127x2048.rowRect (0 : Fin 2) k)).set : Finset m.view.ty.Idx) = (rowOf m k.val (inb_row k)).view.set :=
  View.slice_set_congr m.view (rowRect_eq k)

/-- The memref's elements are its rows'. -/
theorem m_set_rows : (m.view.set : Finset m.view.ty.Idx) = Finset.univ.biUnion (fun k : Fin 127 => ((rowOf m k.val (inb_row k)).view.set : Finset m.view.ty.Idx)) :=
  (View.set_eq_biUnion_rows m.view (0 : Fin 2)).trans (congrArg (Finset.biUnion Finset.univ) (funext fun k => rowSet_eq m k))

/-- A 127-row memref held by its own elements is its rows, each held by its own. -/
theorem m_rows (d : Buf (Elt F) (m.view.loc (c : Thread nD τ))) :
    (m.view.loc (c : Thread nD τ) ↦[m.view.set]{fullShare} d : sProp 𝕄)
      = bigSep Finset.univ fun k : Fin 127 => rowPt m c k.val (inb_row k) d := by
  have h := pointsTo_rows (Ix := Unit) (Val := Elt F) (Name := ℕ) (U := Pipeline.UD sig nD τ) (Lvl := ℕ) (c : Thread nD τ) m.view (0 : Fin 2) fullShare d
  refine h.trans ?_
  exact congrArg (bigSep Finset.univ) (funext fun k => congrArg (fun S => (m.view.loc (c : Thread nD τ) ↦[S]{fullShare} d : sProp 𝕄)) (rowSet_eq m k))

/-- Rows held at contents of their own join into the memref held at some contents that agrees with each on its row. -/
theorem m_join (fs : Fin 127 → Buf (Elt F) (m.view.loc (c : Thread nD τ))) :
    bigSep Finset.univ (fun k : Fin 127 => rowPt m c k.val (inb_row k) (fs k))
      ⊢ (iprop(∃ g : Buf (Elt F) (m.view.loc (c : Thread nD τ)), ⌜∀ k : Fin 127, ∀ i ∈ (rowOf m k.val (inb_row k)).view.set, g i = fs k i⌝
          ∗ m.view.loc (c : Thread nD τ) ↦[m.view.set]{fullShare} g) : sProp 𝕄) := by
  have hd : ∀ k ∈ (Finset.univ : Finset (Fin 127)), ∀ k' ∈ (Finset.univ : Finset (Fin 127)), k ≠ k' →
      Disjoint ((rowOf m k.val (inb_row k)).view.set : Finset m.view.ty.Idx) (rowOf m k'.val (inb_row k')).view.set := by
    intro k _ k' _ hk
    rw [← rowSet_eq m k, ← rowSet_eq m k']
    exact View.disjoint_rows m.view (0 : Fin 2) hk
  have hj := pointsTo_biUnion_join (Ix := Unit) (Val := Elt F) (Name := ℕ) (U := Pipeline.UD sig nD τ) (Lvl := ℕ) (ℓ := m.view.loc (c : Thread nD τ)) (q := fullShare)
    Finset.univ (fun k : Fin 127 => ((rowOf m k.val (inb_row k)).view.set : Finset m.view.ty.Idx)) fs (fs 0) hd
  refine (show (bigSep Finset.univ (fun k : Fin 127 => rowPt m c k.val (inb_row k) (fs k)) : sProp 𝕄) ⊢ _ from hj).trans ?_
  iintro ⟨%g, %hg, H⟩
  iexists g
  isplitr
  · ipureintro; intro k i hi; exact hg k (Finset.mem_univ k) i hi
  · rw [m_set_rows m]; iexact H

/-- The contents that on row `k` are `f k`'s: an element of the memref takes the contents of the row its first
    coordinate names. -/
def rowsGlue {c : Dev nD} (f : ℕ → Buf (Elt F) (m.view.loc (c : Thread nD τ))) : Buf (Elt F) (m.view.loc (c : Thread nD τ)) :=
  fun i => match preimage? m.view.emb i with
    | some y => f (y (0 : Fin 2)).val i
    | none => f 0 i

theorem rowsGlue_emb {c : Dev nD} (f : ℕ → Buf (Elt F) (m.view.loc (c : Thread nD τ))) (y : S127x2048.Idx) :
    rowsGlue m f (m.view.emb y) = f (y (0 : Fin 2)).val (m.view.emb y) := by
  unfold rowsGlue; rw [preimage?_emb]

theorem mod127_lt (k : ℕ) : k % 127 < 127 := Nat.mod_lt k (by decide)

/-- The family of the rows' contents after every row has been overwritten whole: row `k` is `d` with the payload `w k`
    written over all of it. -/
def rowF {c : Dev nD} (d : Buf (Elt F) (m.view.loc (c : Thread nD τ))) (w : ℕ → S1x2048.Idx → Elt F .f32) : ℕ → Buf (Elt F) (m.view.loc (c : Thread nD τ)) :=
  fun k => ((rowOf m (k % 127) (inb_row ⟨k % 127, mod127_lt k⟩)).view.writes (Elt F) (d : m.view.ty.Contents (Elt F)) [⟨Rect.whole S1x2048, w k⟩] : m.view.ty.Contents (Elt F))

theorem rowF_aux {c : Dev nD} (d : Buf (Elt F) (m.view.loc (c : Thread nD τ))) (p : S1x2048.Idx → Elt F .f32) (j k : ℕ) (h : j = k)
    (hj : ∀ a, (![j, 0] : Fin 2 → ℕ) a + S1x2048.size a ≤ S127x2048.size a) (hk : ∀ a, (![k, 0] : Fin 2 → ℕ) a + S1x2048.size a ≤ S127x2048.size a) :
    ((rowOf m j hj).view.writes (Elt F) d [⟨Rect.whole S1x2048, p⟩] : m.view.ty.Contents (Elt F))
      = (rowOf m k hk).view.writes (Elt F) d [⟨Rect.whole S1x2048, p⟩] := by
  subst h; rfl

/-- The memref's contents made of the payloads alone: element `(k, b)` is payload `k` at `(0, b)`. -/
def rowsOf (w : ℕ → S1x2048.Idx → Elt F .f32) : m.view.ty.Contents (Elt F) :=
  m.view.write (Elt F) (m.view.junk : m.view.ty.Contents (Elt F)) (fun y : S127x2048.Idx => w (y (0 : Fin 2)).val (ix2 (0 : Fin 1) (y (1 : Fin 2)))) Finset.univ

/-- Read back, it is the payloads. -/
theorem rowsOf_read (w : ℕ → S1x2048.Idx → Elt F .f32) (y : S127x2048.Idx) :
    m.view.read (Elt F) (rowsOf m w) y = w (y (0 : Fin 2)).val (ix2 (0 : Fin 1) (y (1 : Fin 2))) :=
  congrFun (View.read_write_univ (v := m.view) (m.view.junk : m.view.ty.Contents (Elt F)) _) y

/-- On the memref's elements the glued overwritten rows are the payloads' contents. -/
theorem rowsGlue_rowF {c : Dev nD} (d : Buf (Elt F) (m.view.loc (c : Thread nD τ))) (w : ℕ → S1x2048.Idx → Elt F .f32) :
    ∀ i ∈ (m.view.set : Finset m.view.ty.Idx), rowsGlue m (rowF m d w) i = rowsOf m w i := by
  intro i hi
  obtain ⟨y, -, rfl⟩ := Finset.mem_map.mp hi
  rw [rowsGlue_emb]
  have hy : (y (0 : Fin 2)).val < 127 := (y (0 : Fin 2)).isLt
  have hF : rowF m d w (y (0 : Fin 2)).val = (rowOf m (y (0 : Fin 2)).val (inb_row ⟨(y (0 : Fin 2)).val, hy⟩)).view.writes (Elt F) d [⟨Rect.whole S1x2048, w (y (0 : Fin 2)).val⟩] := by
    exact rowF_aux m d (w (y (0 : Fin 2)).val) _ _ (Nat.mod_eq_of_lt hy) _ _
  rw [hF]
  have hyx : y = (Rect.unit (s := S127x2048) ![(y (0 : Fin 2)).val, 0] S1x2048.size (inb_row ⟨(y (0 : Fin 2)).val, hy⟩)).emb (ix2 (0 : Fin 1) (y (1 : Fin 2))) := by
    funext a
    apply Fin.ext
    rw [Rect.emb_apply]
    match a with
    | ⟨0, _⟩ => show (y (0 : Fin 2)).val = (y (0 : Fin 2)).val + 1 * 0; omega
    | ⟨1, _⟩ => show (y (1 : Fin 2)).val = 0 + 1 * (y (1 : Fin 2)).val; omega
  have he : m.view.emb y = (rowOf m (y (0 : Fin 2)).val (inb_row ⟨(y (0 : Fin 2)).val, hy⟩)).view.emb (ix2 (0 : Fin 1) (y (1 : Fin 2))) :=
    congrArg m.view.emb hyx
  have h1 : (rowOf m (y (0 : Fin 2)).val (inb_row ⟨(y (0 : Fin 2)).val, hy⟩)).view.writes (Elt F) d [⟨Rect.whole S1x2048, w (y (0 : Fin 2)).val⟩]
        ((rowOf m (y (0 : Fin 2)).val (inb_row ⟨(y (0 : Fin 2)).val, hy⟩)).view.emb (ix2 (0 : Fin 1) (y (1 : Fin 2))))
      = _root_.cast (congrArg (Elt F) m.view.elt_eq.symm) (w (y (0 : Fin 2)).val (ix2 (0 : Fin 1) (y (1 : Fin 2)))) := by
    rw [← View.write_univ_eq_writes_whole (rowOf m (y (0 : Fin 2)).val (inb_row ⟨(y (0 : Fin 2)).val, hy⟩)).view d [] (w (y (0 : Fin 2)).val)]
    exact View.write_emb_of_mem _ _ (Finset.mem_univ _)
  have h2 : rowsOf m w (m.view.emb y)
      = _root_.cast (congrArg (Elt F) m.view.elt_eq.symm) (w (y (0 : Fin 2)).val (ix2 (0 : Fin 1) (y (1 : Fin 2)))) :=
    View.write_emb_of_mem _ _ (Finset.mem_univ y)
  rw [h2, ← h1, ← he]

open Lean in
/-- The chain of the rows, row `k` at `d` overwritten whole with the payload `w k`, written out over numerals. -/
macro "row_chainW% " m:ident c:ident d:ident w:ident lo:num n:num : term => do
  let cell (k : Nat) : MacroM (TSyntax `term) := do
    let inb := mkIdent (Name.mkSimple s!"inb_S127x2048_S1x2048_{k}_0")
    let kk := Syntax.mkNumLit (toString k)
    `(rowPt $m $c $kk $inb ((rowOf $m $kk $inb).view.writes _ $d [⟨Rect.whole S1x2048, $w $kk⟩]))
  let mut acc ← cell (lo.getNat + n.getNat - 1)
  for j in (List.range (n.getNat - 1)).reverse do
    acc ← `(iprop($(← cell (lo.getNat + j)) ∗ $acc))
  return acc

set_option maxHeartbeats 8000000 in
/-- The memref held by its own elements at `d` is the chain of its rows, each at `d`. -/
theorem sc_split (d : Buf (Elt F) (m.view.loc (c : Thread nD τ))) :
    (m.view.loc (c : Thread nD τ) ↦[m.view.set]{fullShare} d : sProp 𝕄) ⊣⊢ row_chain% m c (fun _ : ℕ => d) 0 127 := by
  have h : (m.view.loc (c : Thread nD τ) ↦[m.view.set]{fullShare} d : sProp 𝕄) = row_chain% m c (fun _ : ℕ => d) 0 127 := by
    rw [m_rows m c d, BI.bigSep_univ_eq_bigSepL (nat_list% 127) (by decide) (by decide)]
    rfl
  rw [h]

set_option maxHeartbeats 8000000 in
/-- The chain of the rows, row `k` at `f k`, joins into the memref held at `rowsGlue m f`. -/
theorem sc_joinGlue (f : ℕ → Buf (Elt F) (m.view.loc (c : Thread nD τ))) :
    (row_chain% m c f 0 127 : sProp 𝕄) ⊢ m.view.loc (c : Thread nD τ) ↦[m.view.set]{fullShare} (rowsGlue m f) := by
  have h := m_join (F := F) m c (fun k => f k.val)
  rw [BI.bigSep_univ_eq_bigSepL (nat_list% 127) (by decide) (by decide)] at h
  refine (show (row_chain% m c f 0 127 : sProp 𝕄) ⊢ _ from h).trans ?_
  iintro ⟨%g, %hg, H⟩
  have hc : ∀ i ∈ (m.view.set : Finset m.view.ty.Idx), g i = rowsGlue m f i := by
    intro i hi
    rw [m_set_rows m] at hi
    obtain ⟨k, -, hk⟩ := Finset.mem_biUnion.mp hi
    have hgk := hg k i hk
    obtain ⟨x, -, rfl⟩ := Finset.mem_map.mp hk
    rw [hgk]
    show f k.val (m.view.emb ((Rect.unit (s := S127x2048) ![k.val, 0] S1x2048.size (inb_row k)).emb x)) = rowsGlue m f (m.view.emb ((Rect.unit (s := S127x2048) ![k.val, 0] S1x2048.size (inb_row k)).emb x))
    rw [rowsGlue_emb, row_emb_zero]
  have e : (m.view.loc (c : Thread nD τ) ↦[m.view.set]{fullShare} g : sProp 𝕄) = (m.view.loc (c : Thread nD τ) ↦[m.view.set]{fullShare} rowsGlue m f) :=
    pointsTo_congr hc
  rw [← e]
  iexact H

set_option maxHeartbeats 8000000 in
/-- The chain of the rows, row `k` overwritten whole with the payload `w k`, joins into the memref held at the
    payloads' contents `rowsOf m w`, whatever it held before. -/
theorem sc_join (d : Buf (Elt F) (m.view.loc (c : Thread nD τ))) (w : ℕ → S1x2048.Idx → Elt F .f32) :
    (row_chainW% m c d w 0 127 : sProp 𝕄) ⊢ m.view.loc (c : Thread nD τ) ↦[m.view.set]{fullShare} (rowsOf m w) := by
  have e : (m.view.loc (c : Thread nD τ) ↦[m.view.set]{fullShare} rowsGlue m (rowF m d w) : sProp 𝕄) = (m.view.loc (c : Thread nD τ) ↦[m.view.set]{fullShare} rowsOf m w) :=
    pointsTo_congr (rowsGlue_rowF m d w)
  rw [← e]
  exact sc_joinGlue m c (rowF m d w)

/-- The joined contents read back at an element of row `k` are row `k`'s contents read there. -/
theorem rowsGlue_apply {c : Dev nD} (f : ℕ → Buf (Elt F) (m.view.loc (c : Thread nD τ))) (k : ℕ)
    (hk : ∀ a, (![k, 0] : Fin 2 → ℕ) a + S1x2048.size a ≤ S127x2048.size a) (x : S1x2048.Idx) :
    m.view.read (Elt F) (rowsGlue m f) ((Rect.unit (s := S127x2048) ![k, 0] S1x2048.size hk).emb x)
      = (rowOf m k hk).view.read (Elt F) (f k) x := by
  rw [View.read_apply, View.read_apply, rowsGlue_emb, row_emb_zero]
  rfl

end

end Cert.KernelIdeal.Hand

end
-- ==== Proof.KI.Body1Fam.lean ====
/-
  Pallas call 1's body: two helpers the runs use to speak of the 127 copies' payloads at once — the payload family as
  a lookup over the names a run gives them, and a tactic form that takes the 127 row hypotheses as one list.
-/
import proofs.«409293_j18485539242413_1_alg».proof.Proof.KI.Body1Lib

namespace Cert.KernelIdeal.Hand

open Lean Elab Tactic in
/-- Runs the tactic written `<before> <pre><lo> … <pre><lo+n-1> <after>` (a tactic that takes a LIST of hypothesis names). -/
elab "irange_tac " before:str pre:ident lo:num n:num after:str : tactic => do
  let names := (List.range n.getNat).map fun j => s!"{pre.getId.toString}{lo.getNat + j}"
  let text := before.getString ++ " " ++ " ".intercalate names ++ " " ++ after.getString
  match Parser.runParserCategory (← getEnv) `tactic text with
  | .ok stx => evalTactic stx
  | .error e => throwError "irange_tac: {e}\n{text}"

open Lean in
/-- The family `k ↦ the payload of the copy into row k`, as a lookup over the payload names `<decl>.sl.dma<k+1>` a run of
    the body gives its `n` copies (applied to `args`). -/
macro "payload_fam% " decl:ident "[" args:term:max* "]" n:num : term => do
  let T (k : Nat) : MacroM (TSyntax `term) := do
    let dma := mkIdent (decl.getId ++ `sl ++ Name.mkSimple s!"dma{k+1}")
    `($dma $args*)
  let mut acc ← T (n.getNat - 1)
  for j in (List.range (n.getNat - 1)).reverse do
    let tj ← T j
    acc ← `(if k = $(Syntax.mkNumLit (toString j)) then $tj else $acc)
  `(fun (k : ℕ) => $acc)

end Cert.KernelIdeal.Hand
-- ==== Proof.KI.Body1RunA.lean ====
/-
  Pallas call 1's body run by the symbolic executor, case A (the second grid coordinate is zero: the output block is zeroed first).

  The array left in HBM goes in whole, is held during the run as one read token per DMA cell (every one of the 127 row
  copies reads it while the others are in flight), and comes out whole; each copy lands in its own row of the scratch
  (held row by row meanwhile), all 127 are waited for, the rows are joined back, and only then is the scratch read.  Each table word's side condition (the row it names lies
  inside the array) comes from the one hypothesis `RowsOk`.
-/
import proofs.«409293_j18485539242413_1_alg».proof.Proof.KI.Body1Rows
import proofs.«409293_j18485539242413_1_alg».proof.Proof.KI.Body1Fam

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

open Lean in
/-- The payload family of this case's run: the copy into row `k` is the run's `(k + 1 + shift)`-th named read (the taken
    branch's load and store of the output block come before the first copy). -/
macro "payload_famA% " decl:ident shift:num "[" args:term:max* "]" n:num : term => do
  let T (k : Nat) : MacroM (TSyntax `term) := do
    let dma := mkIdent (decl.getId ++ `sl ++ Name.mkSimple s!"dma{k+1+shift.getNat}")
    `($dma $args*)
  let mut acc ← T (n.getNat - 1)
  for j in (List.range (n.getNat - 1)).reverse do
    let tj ← T j
    acc ← `(if k = $(Syntax.mkNumLit (toString j)) then $tj else $acc)
  `(fun (k : ℕ) => $acc)

set_option maxHeartbeats 400000000 in
/-- What the body's stores leave in the output's staging memref, as pieces (last first), in case A, with the proof that
    from whole staging memrefs — the thresholds' and the weights' blocks at their contents, the output's at
    anything, the scratch at anything, the cells at zero, the table and the HBM array whole — the body runs to
    the continuation holding all of them back as they were and the output's buffer with its pieces written.  The scratch
    is held row by row while the 127 copies are in flight (each copy takes its own row) and joined back before it is read. -/
noncomputable def kernelRun1_A (c : Dev nD) (i : grid1.Coords) (hc0 : cond1_0 i)
    (arg3 : Memref sig .tc .vmem S1x127x1 .f32) (harg3 : arg3.IsWhole) (arg4 : Memref sig .tc .vmem S1x128x10 .f32) (harg4 : arg4.IsWhole)
    (arg6 : Memref sig .tc .vmem S1x2048x10 .f32) (harg6 : arg6.IsWhole)
    (x3 : Vec F S1x127x1 .f32) (x4 : Vec F S1x128x10 .f32) (tb : HbBuf1 (F := F) c tblM) (fh : HbBuf1 (F := F) c hbM) (hw : RowsOk c tb) :
    { L : List (View.Piece (Elt F) S1x2048x10 .f32) //
      ∀ (W : Waits sig Unit) (K : PUnit → sProp 𝕄),
        iprop(owns (c : Thread nD τ) arg3 fullShare x3 ∗ owns (c : Thread nD τ) arg4 fullShare x4 ∗ (∃ d, owns (c : Thread nD τ) arg6 fullShare d)
            ∗ (∃ d, owns (c : Thread nD τ) scM fullShare d)
            ∗ Pipeline.ownSems0 (Ix := Unit) (Name := ℕ) (U := Pipeline.UD sig nD τ) (Lvl := ℕ) (Val := Elt F) (τ := τ) osem1 c
            ∗ hbPt1 c tblM tb ∗ hbPt1 c hbM fh ∗ owes (c : Thread nD τ) 0 W
            ∗ (iprop(owns (c : Thread nD τ) arg3 fullShare x3 ∗ owns (c : Thread nD τ) arg4 fullShare x4
                ∗ (∃ f, arg6.view.loc (c : Thread nD τ) ↦[arg6.view.set]{fullShare} arg6.view.writes (Elt F) f L)
                ∗ (∃ d, owns (c : Thread nD τ) scM fullShare d)
                ∗ Pipeline.ownSems0 (Ix := Unit) (Name := ℕ) (U := Pipeline.UD sig nD τ) (Lvl := ℕ) (Val := Elt F) (τ := τ) osem1 c
                ∗ hbPt1 c tblM tb ∗ hbPt1 c hbM fh ∗ (∃ W', owes (c : Thread nD τ) 0 W')) -∗ K ⟨⟩))
          ⊢ wp frame (wpE (defs₀ (F := F)) Variants.none c none) Set.univ
              (cc1__phase2_kernel i tblM (Memref.isWhole_whole _) arg3 harg3 arg4 harg4 hbM (Memref.isWhole_whole _) arg6 harg6 scM (Memref.isWhole_whole _) cc1_scratch1) K } := by
  refine ⟨?_, fun W K => ?run⟩
  case run =>
    rw [cc1__phase2_kernel_eq_skeleton]; unfold cc1__phase2_kernel_skel
    rw [ownSems01_eq]
    unfold owns
    iintro ⟨⟨%f3, %hf3, H3⟩, ⟨%f4, %hf4, H4⟩, ⟨%d6, %f6, -, H6⟩, ⟨%ds0, %fs0, -, HS0⟩, Hq, Htb, Hfh, HW, Hk⟩
    obtain rfl := harg3.eq_unread hf3; obtain rfl := harg4.eq_unread hf4
    -- the array as one read token per cell number, the cells one by one, the scratch row by row
    ihave Hfh' := (hb_toks c fh).1 $$ Hfh
    icases Hfh' with ⟨Hrest, HTs⟩
    ichain_open HTs HT 0 138
    ichain_open Hq Hq 11 127
    ihave HRs := (sc_split scM c fs0).1 $$ HS0
    ichain_open HRs HR 0 127
    -- the 127 copies and their waits; the run stops at the load of the whole scratch
    sl_exec_parts (disch := first | exact ⟨chk_row _ (hw _ _), chk_row _ (hw _ _)⟩ | exact chk_row _ (hw _ _) | sl_exact hc0)
    -- the landed rows joined back into the scratch
    irange_tac "ihave HS0 := (sc_join scM c fs0 (payload_famA% kernelRun1_A 2 [c i tb fh hw] 127)) $$ [" HR 0 127 "]"
    · ichain_close HR 0 127
    sl_exec_parts (disch := first | sl_exact hc0)
    sl_step
    iapply Hk
    isplitl [H3]
    · iexists _; isplitr; · ipureintro; exact harg3.read_unread _
      iexact H3
    isplitl [H4]
    · iexists _; isplitr; · ipureintro; exact harg4.read_unread _
      iexact H4
    isplitl [H6]; · iexists _; iexact H6
    isplitl [HS0]
    · iexists _, _; isplitr; swap; · iexact HS0
      ipureintro; rfl
    isplitl_range Hq 11 127
    · ichain_close Hq 11 127
    isplitl [Htb]; · iexact Htb
    isplitr [HW]
    · iapply (hb_toks c fh).2
      isplitl [Hrest]; · iexact Hrest
      ichain_close HT 0 138
    iexists _; iexact HW

end Cert.KernelIdeal.Hand

end
-- ==== Proof.KI.Body1RunB.lean ====
/-
  Pallas call 1's body run by the symbolic executor, case B (the second grid coordinate is not zero: the output block is read and added to).

  The array left in HBM goes in whole, is held during the run as one read token per DMA cell (every one of the 127 row
  copies reads it while the others are in flight), and comes out whole; each copy lands in its own row of the scratch
  (held row by row meanwhile), all 127 are waited for, the rows are joined back, and only then is the scratch read.  Each table word's side condition (the row it names lies
  inside the array) comes from the one hypothesis `RowsOk`.
-/
import proofs.«409293_j18485539242413_1_alg».proof.Proof.KI.Body1Rows
import proofs.«409293_j18485539242413_1_alg».proof.Proof.KI.Body1Fam

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000000 in
/-- What the body's stores leave in the output's staging memref, as pieces (last first), in case B, with the proof that
    from whole staging memrefs — the thresholds' and the weights' blocks at their contents, the output's at
    its running contents (it is read), the scratch at anything, the cells at zero, the table and the HBM array whole — the body runs to
    the continuation holding all of them back as they were and the output's buffer with its pieces written.  The scratch
    is held row by row while the 127 copies are in flight (each copy takes its own row) and joined back before it is read. -/
noncomputable def kernelRun1_B (c : Dev nD) (i : grid1.Coords) (hc0 : ¬ cond1_0 i)
    (arg3 : Memref sig .tc .vmem S1x127x1 .f32) (harg3 : arg3.IsWhole) (arg4 : Memref sig .tc .vmem S1x128x10 .f32) (harg4 : arg4.IsWhole)
    (arg6 : Memref sig .tc .vmem S1x2048x10 .f32) (harg6 : arg6.IsWhole)
    (x3 : Vec F S1x127x1 .f32) (x4 : Vec F S1x128x10 .f32) (x6 : Vec F S1x2048x10 .f32) (tb : HbBuf1 (F := F) c tblM) (fh : HbBuf1 (F := F) c hbM) (hw : RowsOk c tb) :
    { L : List (View.Piece (Elt F) S1x2048x10 .f32) //
      ∀ (W : Waits sig Unit) (K : PUnit → sProp 𝕄),
        iprop(owns (c : Thread nD τ) arg3 fullShare x3 ∗ owns (c : Thread nD τ) arg4 fullShare x4 ∗ owns (c : Thread nD τ) arg6 fullShare x6
            ∗ (∃ d, owns (c : Thread nD τ) scM fullShare d)
            ∗ Pipeline.ownSems0 (Ix := Unit) (Name := ℕ) (U := Pipeline.UD sig nD τ) (Lvl := ℕ) (Val := Elt F) (τ := τ) osem1 c
            ∗ hbPt1 c tblM tb ∗ hbPt1 c hbM fh ∗ owes (c : Thread nD τ) 0 W
            ∗ (iprop(owns (c : Thread nD τ) arg3 fullShare x3 ∗ owns (c : Thread nD τ) arg4 fullShare x4
                ∗ (∃ f, arg6.view.loc (c : Thread nD τ) ↦[arg6.view.set]{fullShare} arg6.view.writes (Elt F) f L)
                ∗ (∃ d, owns (c : Thread nD τ) scM fullShare d)
                ∗ Pipeline.ownSems0 (Ix := Unit) (Name := ℕ) (U := Pipeline.UD sig nD τ) (Lvl := ℕ) (Val := Elt F) (τ := τ) osem1 c
                ∗ hbPt1 c tblM tb ∗ hbPt1 c hbM fh ∗ (∃ W', owes (c : Thread nD τ) 0 W')) -∗ K ⟨⟩))
          ⊢ wp frame (wpE (defs₀ (F := F)) Variants.none c none) Set.univ
              (cc1__phase2_kernel i tblM (Memref.isWhole_whole _) arg3 harg3 arg4 harg4 hbM (Memref.isWhole_whole _) arg6 harg6 scM (Memref.isWhole_whole _) cc1_scratch1) K } := by
  refine ⟨?_, fun W K => ?run⟩
  case run =>
    rw [cc1__phase2_kernel_eq_skeleton]; unfold cc1__phase2_kernel_skel
    rw [ownSems01_eq]
    unfold owns
    iintro ⟨⟨%f3, %hf3, H3⟩, ⟨%f4, %hf4, H4⟩, ⟨%f6, %hf6, H6⟩, ⟨%ds0, %fs0, -, HS0⟩, Hq, Htb, Hfh, HW, Hk⟩
    obtain rfl := harg3.eq_unread hf3; obtain rfl := harg4.eq_unread hf4; obtain rfl := harg6.eq_unread hf6
    -- the array as one read token per cell number, the cells one by one, the scratch row by row
    ihave Hfh' := (hb_toks c fh).1 $$ Hfh
    icases Hfh' with ⟨Hrest, HTs⟩
    ichain_open HTs HT 0 138
    ichain_open Hq Hq 11 127
    ihave HRs := (sc_split scM c fs0).1 $$ HS0
    ichain_open HRs HR 0 127
    -- the 127 copies and their waits; the run stops at the load of the whole scratch
    sl_exec_parts (disch := first | exact hc0 | exact ⟨chk_row _ (hw _ _), chk_row _ (hw _ _)⟩ | exact chk_row _ (hw _ _))
    -- the landed rows joined back into the scratch
    irange_tac "ihave HS0 := (sc_join scM c fs0 (payload_fam% kernelRun1_B [c i tb fh hw] 127)) $$ [" HR 0 127 "]"
    · ichain_close HR 0 127
    sl_exec_parts (disch := first | exact hc0)
    sl_step
    iapply Hk
    isplitl [H3]
    · iexists _; isplitr; · ipureintro; exact harg3.read_unread _
      iexact H3
    isplitl [H4]
    · iexists _; isplitr; · ipureintro; exact harg4.read_unread _
      iexact H4
    isplitl [H6]; · iexists _; iexact H6
    isplitl [HS0]
    · iexists _, _; isplitr; swap; · iexact HS0
      ipureintro; rfl
    isplitl_range Hq 11 127
    · ichain_close Hq 11 127
    isplitl [Htb]; · iexact Htb
    isplitr [HW]
    · iapply (hb_toks c fh).2
      isplitl [Hrest]; · iexact Hrest
      ichain_close HT 0 138
    iexists _; iexact HW

end Cert.KernelIdeal.Hand

end
-- ==== Proof.KI.Body1Run.lean ====
/-
  Pallas call 1's body: the two cases' runs, that the pieces each finds for the output block cover it, and what they
  leave there read back.
-/
import proofs.«409293_j18485539242413_1_alg».proof.Proof.KI.Body1RunA
import proofs.«409293_j18485539242413_1_alg».proof.Proof.KI.Body1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Case A's pieces for the output block (the zero store, then the accumulating store, each the whole block) cover it. -/
theorem cover1_A_2 (c : Dev nD) (i : grid1.Coords) (hc0 : cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (tb : HbBuf1 (F := F) c tblM) (fh : HbBuf1 (F := F) c hbM) (hw : RowsOk c tb) (y : S1x2048x10.Idx) :
    ∃ pc ∈ (kernelRun1_A c i hc0 arg3 harg3 arg4 harg4 arg6 harg6 x3 x4 tb fh hw).1, y ∈ pc.1.set :=
  View.cover_of_tiledL (kernelRun1_A c i hc0 arg3 harg3 arg4 harg4 arg6 harg6 x3 x4 tb fh hw).1 S1x2048x10.size (by sl_kernel_rfl) y

/-- Case B's piece for the output block (the accumulating store of the whole block) covers it. -/
theorem cover1_B_2 (c : Dev nD) (i : grid1.Coords) (hc0 : ¬ cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (x6 : Vec F S1x2048x10 .f32) (tb : HbBuf1 (F := F) c tblM) (fh : HbBuf1 (F := F) c hbM) (hw : RowsOk c tb) (y : S1x2048x10.Idx) :
    ∃ pc ∈ (kernelRun1_B c i hc0 arg3 harg3 arg4 harg4 arg6 harg6 x3 x4 x6 tb fh hw).1, y ∈ pc.1.set :=
  View.cover_of_tiledL (kernelRun1_B c i hc0 arg3 harg3 arg4 harg4 arg6 harg6 x3 x4 x6 tb fh hw).1 S1x2048x10.size (by sl_kernel_rfl) y

/-- What case A leaves in the output's staging buffer: its pieces read back over junk. -/
def out1_A_2 (c : Dev nD) (i : grid1.Coords) (hc0 : cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (tb : HbBuf1 (F := F) c tblM) (fh : HbBuf1 (F := F) c hbM) (hw : RowsOk c tb) : Vec F S1x2048x10 .f32 :=
  VO1_2.read (Elt F) (VO1_2.writes (Elt F) VO1_2.junk (kernelRun1_A c i hc0 arg3 harg3 arg4 harg4 arg6 harg6 x3 x4 tb fh hw).1)

/-- What case B leaves in the output's staging buffer: its pieces read back over junk. -/
def out1_B_2 (c : Dev nD) (i : grid1.Coords) (hc0 : ¬ cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (x6 : Vec F S1x2048x10 .f32) (tb : HbBuf1 (F := F) c tblM) (fh : HbBuf1 (F := F) c hbM) (hw : RowsOk c tb) : Vec F S1x2048x10 .f32 :=
  VO1_2.read (Elt F) (VO1_2.writes (Elt F) VO1_2.junk (kernelRun1_B c i hc0 arg3 harg3 arg4 harg4 arg6 harg6 x3 x4 x6 tb fh hw).1)

end Cert.KernelIdeal.Hand

end
-- ==== Proof.KI.Data1.lean ====
/-
  Pallas call 1 as a pipeline's proof data, at a PARAMETER `V` (the TensorCore's buffer contents when the region is
  entered) and at any admissible contents `a1` of the prefetched table (no index map reads it, so the schedule is the same
  at all of them): the two input windows (a tree's thresholds, a tree's leaf weights) hold their blocks at every point;
  the output window (one half's accumulator) is reset at the first tree of a half and otherwise holds what the tree
  before left, so after point `t` it holds the recursion `outsAt1`; the invariant is the scoped rest, the generator
  register, the kernel's 127 transfer cells at zero, the normalised-feature array left in HBM at its entry contents,
  and the table at its entry contents; nothing is owed.
-/
import proofs.«409293_j18485539242413_1_alg».proof.Proof.KI.Body1Run
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a1 : (pcfg1 (F := F)).Adm)

/-! ## The schedule of the output window -/

/-- The accumulator is written back exactly after the last tree of each half. -/
theorem flush1_2 : ∀ t : Fin (cfg1 a1).N, ((cfg1 a1).win 2).flush t = true ↔ t.val % 512 = 511 :=
  (by decide +kernel : ∀ t : Fin grid1.N, Pipeline.Window.flushOf grid1 true cc1_transform_3 t = true ↔ t.val % 512 = 511)

theorem N1_eq : (cfg1 a1).N = 1024 := N_1

/-! ## The windows' blocks and staging memrefs -/

/-- Window `w`'s block at point `t`, read off its array as the region finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

theorem before1_0_of {c : Dev nD} (dat : Dat τ (Elt F) Unit ℕ (Pipeline.UD sig nD τ) ℕ (cfg1 a1) c) (hA : dat.A 0 = V c (Pipeline.arrRef spec1 0))
    (hafter : ∀ t, dat.after 0 t = iblk1 V a1 c 0 t) (t : Fin (cfg1 a1).N) (d) : dat.before 0 t d = iblk1 V a1 c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ (cfg1 a1) c) (hA : dat.A 1 = V c (Pipeline.arrRef spec1 1))
    (hafter : ∀ t, dat.after 1 t = iblk1 V a1 c 1 t) (t : Fin (cfg1 a1).N) (d) : dat.before 1 t d = iblk1 V a1 c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin (cfg1 a1).N) : Memref sig .tc .vmem S1x127x1 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S1x128x10 .f32 := spec1_1.stage ((cfg1 a1).slots t 1)
abbrev hs1_1 (t : Fin (cfg1 a1).N) : (ms1_1 a1 t).IsWhole := hstage1_1 (((cfg1 a1).slots t 1).cast nbuf1_1)
abbrev ms1_2 (t : Fin (cfg1 a1).N) : Memref sig .tc .vmem S1x2048x10 .f32 := spec1_2.stage ((cfg1 a1).slots t 2)
abbrev hs1_2 (t : Fin (cfg1 a1).N) : (ms1_2 a1 t).IsWhole := hstage1_2 (((cfg1 a1).slots t 2).cast nbuf1_2)

/-- The kernel body at point `t`, on what the pipeline calls it with. -/
abbrev bodyAt1 (t : Fin (cfg1 a1).N) : Prog (TpuEff nD τ sig (Elt F) Λ₀ .tc) PUnit :=
  cc1__phase2_kernel (grid1.coords t) (Memref.whole main_arg4) (Memref.isWhole_whole _) (spec1_0.stage ((cfg1 a1).slots t 0)) (hstage1_0 (((cfg1 a1).slots t 0).cast nbuf1_0)) (spec1_1.stage ((cfg1 a1).slots t 1)) (hstage1_1 (((cfg1 a1).slots t 1).cast nbuf1_1)) (Memref.whole main_v2) (Memref.isWhole_whole _) (spec1_2.stage ((cfg1 a1).slots t 2)) (hstage1_2 (((cfg1 a1).slots t 2).cast nbuf1_2)) (Memref.whole cc1_scratch0) (Memref.isWhole_whole _) cc1_scratch1

/-! ## What the accumulator holds after each point -/

/-- THE ACCUMULATION: after the first tree of a half the reset-and-add case's contents; after any other tree the add case's,
    over what the tree before left. -/
def outsAt1 (c : Dev nD) (hw : RowsOk c (V c main_arg4)) : (n : ℕ) → n < (cfg1 a1).N → Vec F S1x2048x10 .f32
  | 0, hn => out1_A_2 c (grid1.coords ⟨0, hn⟩) ((hcond1_0 ⟨0, hn⟩).mpr (Nat.zero_mod _)) (ms1_0 a1 ⟨0, hn⟩) (hs1_0 a1 ⟨0, hn⟩) (ms1_1 a1 ⟨0, hn⟩) (hs1_1 a1 ⟨0, hn⟩) (ms1_2 a1 ⟨0, hn⟩) (hs1_2 a1 ⟨0, hn⟩)
      (iblk1 V a1 c 0 ⟨0, hn⟩) (iblk1 V a1 c 1 ⟨0, hn⟩) (V c main_arg4) (V c main_v2) hw
  | n + 1, hn =>
    if h0 : (n + 1) % 512 = 0 then
      out1_A_2 c (grid1.coords ⟨n + 1, hn⟩) ((hcond1_0 ⟨n + 1, hn⟩).mpr h0) (ms1_0 a1 ⟨n + 1, hn⟩) (hs1_0 a1 ⟨n + 1, hn⟩) (ms1_1 a1 ⟨n + 1, hn⟩) (hs1_1 a1 ⟨n + 1, hn⟩) (ms1_2 a1 ⟨n + 1, hn⟩) (hs1_2 a1 ⟨n + 1, hn⟩)
        (iblk1 V a1 c 0 ⟨n + 1, hn⟩) (iblk1 V a1 c 1 ⟨n + 1, hn⟩) (V c main_arg4) (V c main_v2) hw
    else
      out1_B_2 c (grid1.coords ⟨n + 1, hn⟩) (fun h => h0 ((hcond1_0 ⟨n + 1, hn⟩).mp h)) (ms1_0 a1 ⟨n + 1, hn⟩) (hs1_0 a1 ⟨n + 1, hn⟩) (ms1_1 a1 ⟨n + 1, hn⟩) (hs1_1 a1 ⟨n + 1, hn⟩) (ms1_2 a1 ⟨n + 1, hn⟩) (hs1_2 a1 ⟨n + 1, hn⟩)
        (iblk1 V a1 c 0 ⟨n + 1, hn⟩) (iblk1 V a1 c 1 ⟨n + 1, hn⟩) (outsAt1 c hw n (Nat.lt_of_succ_lt hn)) (V c main_arg4) (V c main_v2) hw

theorem outsAt1_A (c : Dev nD) (hw : RowsOk c (V c main_arg4)) (t : Fin (cfg1 a1).N) (h0 : t.val % 512 = 0) :
    outsAt1 V a1 c hw t.val t.isLt = out1_A_2 c (grid1.coords t) ((hcond1_0 t).mpr h0) (ms1_0 a1 t) (hs1_0 a1 t) (ms1_1 a1 t) (hs1_1 a1 t) (ms1_2 a1 t) (hs1_2 a1 t)
      (iblk1 V a1 c 0 t) (iblk1 V a1 c 1 t) (V c main_arg4) (V c main_v2) hw := by
  obtain ⟨n, hn⟩ := t
  cases n with
  | zero => exact rfl
  | succ n => exact (dif_pos h0).trans rfl

theorem outsAt1_B (c : Dev nD) (hw : RowsOk c (V c main_arg4)) (t : Fin (cfg1 a1).N) (h0 : ¬ t.val % 512 = 0) :
    outsAt1 V a1 c hw t.val t.isLt = out1_B_2 c (grid1.coords t) (fun h => h0 ((hcond1_0 t).mp h)) (ms1_0 a1 t) (hs1_0 a1 t) (ms1_1 a1 t) (hs1_1 a1 t) (ms1_2 a1 t) (hs1_2 a1 t)
      (iblk1 V a1 c 0 t) (iblk1 V a1 c 1 t) (outsAt1 V a1 c hw (t.val - 1) (Nat.lt_of_le_of_lt (Nat.sub_le _ _) t.isLt)) (V c main_arg4) (V c main_v2) hw := by
  obtain ⟨n, hn⟩ := t
  cases n with
  | zero => exact (by exfalso; (try dsimp only at h0); exact absurd (Nat.zero_mod _) h0)
  | succ n => exact (dif_neg h0).trans rfl

/-! ## The proof data -/

/-- The HBM operand the body copies rows out of, as a reference: unscoped, no window's array, no table. -/
def H1 : Finset (Ref sig .tc) := {main_v2}

/-- The prefetched table's contents as the region finds it. -/
def tbl1 (c : Dev nD) : pre1.Contents (Elt F) := fun k => V c (pre1.ref k)

/-- The invariant: the library's for a body with transfers of its own out of `H1`, and the table. -/
def Φ1 (c : Dev nD) : sProp 𝕄 :=
  iprop(Pipeline.ΦD osem1 spec1 H1 V c ∗ Pipeline.prefHeld (Ix := Unit) (Name := ℕ) (U := Pipeline.UD sig nD τ) (Lvl := ℕ) pre1 c (fun _ => fullShare) (tbl1 V c))

def dat1 (c : Dev nD) (hw : RowsOk c (V c main_arg4)) : Dat τ (Elt F) Unit ℕ (Pipeline.UD sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => outsAt1 V a1 c hw t.val t.isLt
  Φ _ := Φ1 V c
  q _ := fullShare
  owed _ := 0

theorem A_eq1 (c : Dev nD) (hw : RowsOk c (V c main_arg4)) (w : Fin (cfg1 a1).W) : (dat1 V a1 c hw).A w = V c (Pipeline.arrRef spec1 w) := by
  dsimp only [dat1]

theorem after1_0 (c : Dev nD) (hw) (t : Fin (cfg1 a1).N) : (dat1 V a1 c hw).after 0 t = iblk1 V a1 c 0 t := by dsimp only [dat1]; try rfl
theorem after1_1 (c : Dev nD) (hw) (t : Fin (cfg1 a1).N) : (dat1 V a1 c hw).after 1 t = iblk1 V a1 c 1 t := by dsimp only [dat1]; try rfl
theorem after1_2 (c : Dev nD) (hw) (t : Fin (cfg1 a1).N) : (dat1 V a1 c hw).after 2 t = outsAt1 V a1 c hw t.val t.isLt := by dsimp only [dat1]; try rfl

theorem before1_0 (c : Dev nD) (hw) (t : Fin (cfg1 a1).N) (d) : (dat1 V a1 c hw).before 0 t d = iblk1 V a1 c 0 t :=
  before1_0_of V a1 (dat1 V a1 c hw) (A_eq1 V a1 c hw 0) (after1_0 V a1 c hw) t d
theorem before1_1 (c : Dev nD) (hw) (t : Fin (cfg1 a1).N) (d) : (dat1 V a1 c hw).before 1 t d = iblk1 V a1 c 1 t :=
  before1_1_of V a1 (dat1 V a1 c hw) (A_eq1 V a1 c hw 1) (after1_1 V a1 c hw) t d

/-- At a tree that is not the first of its half the accumulator holds what the tree before left: the point is not the
    first, the buffer was not written back between, the window is live and uncut. -/
theorem before1_2_B (c : Dev nD) (hw) (t : Fin (cfg1 a1).N) (h0 : ¬ t.val % 512 = 0) (d) :
    (dat1 V a1 c hw).before 2 t d = outsAt1 V a1 c hw (t.val - 1) (Nat.lt_of_le_of_lt (Nat.sub_le _ _) t.isLt) := by
  have hN : t.val < 1024 := lt_of_lt_of_eq t.isLt (N1_eq a1)
  rw [Dat.before_out_kept _ 2 rfl t (by omega) (Bool.eq_false_iff.mpr fun h => by have := (flush1_2 a1 _).mp h; dsimp only at this; omega)
    (fun _ => rfl) (fun _ _ => rfl)]
  exact after1_2 V a1 c hw ⟨t.val - 1, Nat.lt_of_le_of_lt (Nat.sub_le _ _) t.isLt⟩

end Cert.KernelIdeal.Hand

end
-- ==== Proof.KI.Oblig1.lean ====
/-
  The body obligation of pallas call 1 at every grid point: the two input windows' memrefs hold their blocks; the point is
  the first tree of a half (the accumulator is reset, its prior contents irrelevant) or not (it holds what the tree before
  left); the invariant hands the body its scratch, its 127 cells at zero, the HBM array and the table, and takes them
  back as they were; the core's dues go in at nothing and come back with the point's waits recorded.
-/
import proofs.«409293_j18485539242413_1_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a1 : (pcfg1 (F := F)).Adm)

theorem H1_sub : H1 ⊆ Pipeline.restRefs sig spec1 := by decide

/-- The HBM operand's points-to at the region-entry contents. -/
theorem hbmPts1_eq (c : Dev nD) :
    (bigSep H1 (fun b => ((c : Thread nD τ).loc b) ↦{fullShare} V c b) : sProp 𝕄) = iprop(hbPt1 c hbM (V c main_v2)) := by
  rw [BI.bigSep_eq_bigSepL_of_eq [main_v2] (by decide) (by decide)]; rfl

/-- The table's points-to at the region-entry contents. -/
theorem pref1_eq (c : Dev nD) :
    (Pipeline.prefHeld (Ix := Unit) (Name := ℕ) (U := Pipeline.UD sig nD τ) (Lvl := ℕ) pre1 c (fun _ => fullShare) (tbl1 V c) : sProp 𝕄)
      = iprop(hbPt1 c tblM (V c main_arg4)) := by
  unfold Pipeline.prefHeld
  rw [show (Finset.univ : Finset (Fin 1)) = {(0 : Fin 1)} from by decide, bigSep_singleton]
  rfl

/-- The invariant conjunct by conjunct. -/
theorem Phi1_eq (c : Dev nD) :
    (Φ1 V c : sProp 𝕄)
      = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d))
          ∗ (∃ r, prngReg c r)
          ∗ Pipeline.ownSems0 (Ix := Unit) (Name := ℕ) (U := Pipeline.UD sig nD τ) (Lvl := ℕ) (Val := Elt F) (τ := τ) osem1 c
          ∗ iprop(hbPt1 c hbM (V c main_v2)))
        ∗ iprop(hbPt1 c tblM (V c main_arg4))) := by
  unfold Φ1
  rw [Pipeline.ΦD_eq, scopedRest1_eq, hbmPts1_eq, pref1_eq]; simp only [scM, owns_whole]; try rfl

def bodyPre1 (c : Dev nD) (hw : RowsOk c (V c main_arg4)) (t : Fin (cfg1 a1).N) : sProp 𝕄 :=
  iprop((dat1 V a1 c hw).Φ t.castSucc ∗ (dat1 V a1 c hw).owesAt () t.castSucc
    ∗ (∃ d, owns (c : Thread nD τ) (ms1_0 a1 t) fullShare ((dat1 V a1 c hw).before 0 t d))
    ∗ (∃ d, owns (c : Thread nD τ) (ms1_1 a1 t) fullShare ((dat1 V a1 c hw).before 1 t d))
    ∗ (∃ d, owns (c : Thread nD τ) (ms1_2 a1 t) fullShare ((dat1 V a1 c hw).before 2 t d)))

def bodyPost1 (c : Dev nD) (hw : RowsOk c (V c main_arg4)) (t : Fin (cfg1 a1).N) : sProp 𝕄 :=
  iprop((dat1 V a1 c hw).Φ t.succ ∗ (dat1 V a1 c hw).owesAt () t.succ
    ∗ owns (c : Thread nD τ) (ms1_0 a1 t) fullShare ((dat1 V a1 c hw).after 0 t)
    ∗ owns (c : Thread nD τ) (ms1_1 a1 t) fullShare ((dat1 V a1 c hw).after 1 t)
    ∗ owns (c : Thread nD τ) (ms1_2 a1 t) fullShare ((dat1 V a1 c hw).after 2 t))

set_option maxHeartbeats 1600000 in
theorem sound_body1 (c : Dev nD) (hw : RowsOk c (V c main_arg4)) (t : Fin (cfg1 a1).N) :
    bodyPre1 V a1 c hw t ⊢ wp frame (wpE (defs₀ (F := F)) Variants.none c none) Set.univ (bodyAt1 a1 t) (fun _ => bodyPost1 V a1 c hw t) := by
  unfold bodyPre1 bodyPost1 bodyAt1
  simp only [before1_0, before1_1]
  rw [show (dat1 V a1 c hw).Φ t.succ = (dat1 V a1 c hw).Φ t.castSucc from rfl,
    after1_0, after1_1, after1_2]
  rw [show (dat1 V a1 c hw).Φ t.castSucc = Φ1 V c from rfl, Phi1_eq]
  unfold Dat.owesAt Pipeline.owesWithin
  rw [show (dat1 V a1 c hw).owed t.castSucc = 0 from rfl, show (dat1 V a1 c hw).owed t.succ = 0 from rfl]
  have hN : t.val < 1024 := lt_of_lt_of_eq t.isLt (N1_eq a1)
  by_cases h0 : t.val % 512 = 0
  · rw [outsAt1_A V a1 c hw t h0]
    unfold out1_A_2
    iintro ⟨⟨⟨⟨HR0, HR1, HR2, HR3, HR4, HS0⟩, Hg, Hq0, Hh0⟩, Ht0⟩, ⟨%W, -, HW⟩, ⟨%d0, H0⟩, ⟨%d1, H1⟩, ⟨%d2, H2⟩⟩
    iapply ((kernelRun1_A c (grid1.coords t) ((hcond1_0 t).mpr h0) _ _ _ _ _ _ (iblk1 V a1 c 0 t) (iblk1 V a1 c 1 t) (V c main_arg4) (V c main_v2) hw).2 W _)
    isplitl [H0]; · iexact H0
    isplitl [H1]; · iexact H1
    isplitl [H2]; · iexists _; iexact H2
    isplitl [HS0]; · iexact HS0
    isplitl [Hq0]; · iexact Hq0
    isplitl [Ht0]; · iexact Ht0
    isplitl [Hh0]; · iexact Hh0
    isplitl [HW]; · iexact HW
    iintro ⟨H0, H1, ⟨%e2, H2⟩, HS0, Hq0, Ht0, Hh0, ⟨%W', HW'⟩⟩
    isplitl [HR0 HR1 HR2 HR3 HR4 HS0 Hg Hq0 Hh0 Ht0]
    · isplitl [HR0 HR1 HR2 HR3 HR4 HS0 Hg Hq0 Hh0]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          iexact HS0
        isplitl [Hg]; · iexact Hg
        isplitl [Hq0]; · iexact Hq0
        iexact Hh0
      iexact Ht0
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _ _)
  · rw [outsAt1_B V a1 c hw t h0]
    simp only [before1_2_B V a1 c hw t h0]
    unfold out1_B_2
    iintro ⟨⟨⟨⟨HR0, HR1, HR2, HR3, HR4, HS0⟩, Hg, Hq0, Hh0⟩, Ht0⟩, ⟨%W, -, HW⟩, ⟨%d0, H0⟩, ⟨%d1, H1⟩, ⟨%d2, H2⟩⟩
    iapply ((kernelRun1_B c (grid1.coords t) (fun h => h0 ((hcond1_0 t).mp h)) _ _ _ _ _ _ (iblk1 V a1 c 0 t) (iblk1 V a1 c 1 t) _ (V c main_arg4) (V c main_v2) hw).2 W _)
    isplitl [H0]; · iexact H0
    isplitl [H1]; · iexact H1
    isplitl [H2]; · iexact H2
    isplitl [HS0]; · iexact HS0
    isplitl [Hq0]; · iexact Hq0
    isplitl [Ht0]; · iexact Ht0
    isplitl [Hh0]; · iexact Hh0
    isplitl [HW]; · iexact HW
    iintro ⟨H0, H1, ⟨%e2, H2⟩, HS0, Hq0, Ht0, Hh0, ⟨%W', HW'⟩⟩
    isplitl [HR0 HR1 HR2 HR3 HR4 HS0 Hg Hq0 Hh0 Ht0]
    · isplitl [HR0 HR1 HR2 HR3 HR4 HS0 Hg Hq0 Hh0]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          iexact HS0
        isplitl [Hg]; · iexact Hg
        isplitl [Hq0]; · iexact Hq0
        iexact Hh0
      iexact Ht0
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The library's body obligation, at every point. -/
theorem body_obligation1 (c : Dev nD) (hw : RowsOk c (V c main_arg4)) :
    BodyObligation (dat1 (F := F) V a1 c hw) (defs₀ (F := F)) Variants.none () Set.univ := fun t => by
  rw [bigSep_W1, bigSep_W1]
  exact sound_body1 V a1 c hw t

end Cert.KernelIdeal.Hand

end
-- ==== Proof.KI.Run.lean ====
/-
  The whole program as its seven items — three host stretches, pallas call 0, a host stretch, pallas call 1, a host
  stretch — over the thread state "every unscoped buffer at the boundary's contents, the generator register at some
  state, nothing owed": the contents the two regions leave (call 0: the normalised features in its output array; call 1:
  the two halves' sums in its), the tables' admissible contents, both pipelines' proof data at their entry contents, the
  regions' entry and exit bookkeeping, and the run: every weakly fair execution ends with every unscoped buffer at the
  last valuation.
-/
import proofs.«409293_j18485539242413_1_alg».proof.Proof.KI.RunCond
import proofs.«409293_j18485539242413_1_alg».proof.Proof.KI.Data0
import proofs.«409293_j18485539242413_1_alg».proof.Proof.KI.Oblig1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the regions' entries, and what the regions leave -/

/-- The TensorCore's buffers when pallas call 0 is entered. -/
abbrev Vin0 : (c : Dev nD) → (b : Ref sig .tc) → Buf (Elt F) ((c : Thread nD τ).loc b) := fun c b => V3 m c b

/-- What pallas call 0 leaves in its output array. -/
def outs4 (c : Dev nD) : Buf (Elt F) ((c : Thread nD τ).loc main_v2) := (dat0 (Vin0 m) c).arrAt 2 cfg0.N

/-- The contents the regions leave, pallas call 0's part only (what call 1's entry contents are stated over). -/
def outsA : Outs (F := F) := fun _ =>
  Function.update (β := fun r : Ref sig .tc => (c : Dev nD) → Buf (Elt F) ((c : Thread nD τ).loc r)) (fun r c => V3 m c r) main_v2 (fun c => outs4 m c)

/-- The TensorCore's buffers when pallas call 1 is entered. -/
abbrev Vin1 : (c : Dev nD) → (b : Ref sig .tc) → Buf (Elt F) ((c : Thread nD τ).loc b) := fun c b => V5 m (outsA m) c b

/-- The table's contents (the program runs on ONE device), admissible (the side condition is empty). -/
def adm1 : (pcfg1 (F := F)).Adm := ⟨tbl1 (Vin1 m) (0 : Dev nD), (show ok1 (F := F) (tbl1 (Vin1 m) (0 : Dev nD)) from by unfold ok1; trivial)⟩

def adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

variable (hH : ∀ c : Dev nD, RowsOk c (Vin1 m c main_arg4))

/-- What pallas call 1 leaves in its output array. -/
def outs6 (c : Dev nD) : Buf (Elt F) ((c : Thread nD τ).loc main_v4) := (dat1 (Vin1 m) (adm1 m) c (hH c)).arrAt 2 (cfg1 (adm1 m)).N

/-- The contents the regions leave. -/
def outs : Outs (F := F) := fun J =>
  Function.update (β := fun r : Ref sig .tc => (c : Dev nD) → Buf (Elt F) ((c : Thread nD τ).loc r)) (outsA m J) main_v4 (fun c => outs6 m hH c)

theorem outs_v2 (J : ℕ) (c : Dev nD) : outs m hH J main_v2 c = outs4 m c := by
  unfold outs outsA
  rw [Function.update_of_ne (by decide), Function.update_self]
theorem outs_v4 (J : ℕ) (c : Dev nD) : outs m hH J main_v4 c = outs6 m hH c := by
  unfold outs
  rw [Function.update_self]
theorem outsA_v2 (J : ℕ) (c : Dev nD) : outsA m J main_v2 c = outs4 m c := by
  unfold outsA
  rw [Function.update_self]

/-- Pallas call 1's entry contents do not depend on what it leaves itself. -/
theorem V4_outs (c : Dev nD) : V4 m (outs m hH) c = V4 m (outsA m) c := by
  unfold V4; rw [outs_v2, outsA_v2]
theorem V5_outs (c : Dev nD) : V5 m (outs m hH) c = V5 m (outsA m) c := by
  unfold V5; rw [V4_outs]

/-! ## The proof data family -/

def pdats : (p : Fin 2) → (c : Dev nD) → Dat τ (Elt F) Unit ℕ (Pipeline.UD sig nD τ) ℕ (Pipeline.pin (pcfgs (F := F)) (adm m) p) c
  | ⟨0, _⟩ => fun c => dat0 (Vin0 m) c
  | ⟨1, _⟩ => fun c => dat1 (Vin1 m) (adm1 m) c (hH c)
  | ⟨_ + 2, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The contents at the regions' exits -/

/-- The TensorCore's buffers when pallas call 0 is left. -/
abbrev Vout0 : (c : Dev nD) → (b : Ref sig .tc) → Buf (Elt F) ((c : Thread nD τ).loc b) := fun c b => V4 m (outs m hH) c b
/-- The TensorCore's buffers when pallas call 1 is left. -/
abbrev Vout1 : (c : Dev nD) → (b : Ref sig .tc) → Buf (Elt F) ((c : Thread nD τ).loc b) := fun c b => V6 m (outs m hH) c b

theorem V4_v2 (c : Dev nD) : V4 m (outs m hH) c main_v2 = outs4 m c := by
  simp only [V4, Function.update_self, outs_v2]

theorem hF0 (c : Dev nD) : ∀ w : Fin cfg0.W, (dat0 (Vin0 m) c).arrAt w cfg0.N = Vout0 m hH c (Pipeline.arrRef spec0 w)
  | ⟨0, _⟩ => (((dat0 (Vin0 m) c).arrAt_in 0 rfl _).trans (A_eq0 (Vin0 m) c 0)).trans (V4_of m (outs m hH) c main_v1 (by decide)).symm
  | ⟨1, _⟩ => (((dat0 (Vin0 m) c).arrAt_in 1 rfl _).trans (A_eq0 (Vin0 m) c 1)).trans (V4_of m (outs m hH) c main_v0 (by decide)).symm
  | ⟨2, _⟩ => (V4_v2 m hH c).symm
  | ⟨_ + 3, h⟩ => absurd h (Nat.not_lt.2 (Nat.le_add_left _ _))

theorem hrest0 (c : Dev nD) : ∀ b, b ∉ Finset.univ.image (Pipeline.arrRef spec0) → Vout0 m hH c b = Vin0 m c b :=
  fun b hb => V4_of m (outs m hH) c b (by
    simp only [List.mem_singleton]; rintro rfl
    exact hb (Finset.mem_image.mpr ⟨2, Finset.mem_univ _, rfl⟩))

theorem V6_v4 (c : Dev nD) : V6 m (outs m hH) c main_v4 = outs6 m hH c := by
  simp only [V6]
  rw [Function.update_of_ne (StableHlo.devRef_ne_of_ne (by decide) : (Proc.devRef .tc main_v4 : DevRef τ sig) ≠ Proc.devRef .tc main_v2), Function.update_self, outs_v4]

theorem V6_v2 (c : Dev nD) : V6 m (outs m hH) c main_v2 = outs4 m c := by
  simp only [V6, Function.update_self, outs_v2]

theorem V5_v2 (c : Dev nD) : V5 m (outsA m) c main_v2 = outs4 m c := by
  rw [V5_of m (outsA m) c main_v2 (by decide)]
  simp only [V4, Function.update_self, outsA_v2]

theorem hF1 (c : Dev nD) : ∀ w : Fin (cfg1 (adm1 m)).W, (dat1 (Vin1 m) (adm1 m) c (hH c)).arrAt w (cfg1 (adm1 m)).N = Vout1 m hH c (Pipeline.arrRef spec1 w)
  | ⟨0, _⟩ => (((dat1 (Vin1 m) (adm1 m) c (hH c)).arrAt_in 0 rfl _).trans (A_eq1 (Vin1 m) (adm1 m) c (hH c) 0)).trans
      ((V6_of m (outs m hH) c main_v3 (by decide)).trans (congrFun (V5_outs m hH c) _)).symm
  | ⟨1, _⟩ => (((dat1 (Vin1 m) (adm1 m) c (hH c)).arrAt_in 1 rfl _).trans (A_eq1 (Vin1 m) (adm1 m) c (hH c) 1)).trans
      ((V6_of m (outs m hH) c main_arg3 (by decide)).trans (congrFun (V5_outs m hH c) _)).symm
  | ⟨2, _⟩ => (V6_v4 m hH c).symm
  | ⟨_ + 3, h⟩ => absurd h (Nat.not_lt.2 (Nat.le_add_left _ _))

theorem hrest1 (c : Dev nD) : ∀ b, b ∉ Finset.univ.image (Pipeline.arrRef spec1) → Vout1 m hH c b = Vin1 m c b := fun b hb => by
  by_cases hb2 : b = main_v2
  · subst hb2; exact (V6_v2 m hH c).trans (V5_v2 m c).symm
  · refine (V6_of m (outs m hH) c b ?_).trans (congrFun (V5_outs m hH c) _)
    simp only [List.mem_cons, List.mem_singleton, List.not_mem_nil, or_false, not_or]
    refine ⟨?_, hb2⟩
    rintro rfl
    exact hb (Finset.mem_image.mpr ⟨2, Finset.mem_univ _, rfl⟩)

/-! ## The regions as segments -/

set_option backward.isDefEq.respectTransparency.types false in
/-- PALLAS CALL 0 over the thread state: entered from every unscoped buffer at the third valuation, left at the fourth.
    Its arrays split out of the unscoped buffers and put back at the exit contents; the generator register into the
    class invariant and out; nothing owed; no semaphore of the kernel's own. -/
def reg0 : RegionSeg (pcfgs (F := F)) (adm m) (pdats m hH) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V3 m c) ∗ E 0 c)
  post c := iprop(StableHlo.held (c : Thread nD τ) (Pipeline.ucRefs τ sig) (V4 m (outs m hH) c) ∗ E 1 c)
  X c := iprop(∃ r, prngReg c r)
  Y c := iprop(∃ r, prngReg c r)
  Z c := Pipeline.unscopedRest (Ix := Unit) (Name := ℕ) (U := Pipeline.UD sig nD τ) (Lvl := ℕ) spec0 c (Vin0 m c)
  hentry c := by
    rw [Pipeline.ownSems0_none]
    have hsplit := Pipeline.arrays_of_unscopedBufs (p := 0) (pcfgs (F := F)) (adm m) (pdats m hH) (launch0 (F := F)).win (launch0 (F := F)).arr_whole c
      ((pdats m hH 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hH 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hH) ((pdats m hH 0 c).share_full fun _ => rfl)
      (Vin0 m c) (Vout0 m hH c) ((pdats m hH 0 c).arrAt · cfg0.N) (hF0 m hH c) (hrest0 m hH c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two unscoped buffers pallas call 1's body is handed besides its windows: the HBM array it copies rows out of and
    the table. -/
def H2 : Finset (Ref sig .tc) := {main_v2, main_arg4}
theorem H2_sub : H2 ⊆ Pipeline.restRefs sig spec1 := by decide

theorem H2_pts (c : Dev nD) (W : (b : Ref sig .tc) → Buf (Elt F) ((c : Thread nD τ).loc b)) :
    (bigSep H2 (fun b => ((c : Thread nD τ).loc b) ↦{fullShare} W b) : sProp 𝕄)
      = iprop(hbPt1 c hbM (W main_v2) ∗ hbPt1 c tblM (W main_arg4)) := by
  rw [BI.bigSep_eq_bigSepL_of_eq [main_v2, main_arg4] (by decide) (by decide)]; rfl

/-- The table's contents on any core are the admissible contents (there is one core). -/
theorem tbl_adm (c : Dev nD) : tbl1 (Vin1 m) c = (adm1 (F := F) m).1 := by
  obtain rfl : c = 0 := Subsingleton.elim _ _; rfl

theorem rest_split1 (c : Dev nD) :
    (Pipeline.unscopedRest (Ix := Unit) (Name := ℕ) (U := Pipeline.UD sig nD τ) (Lvl := ℕ) spec1 c (Vin1 m c) : sProp 𝕄)
      = iprop(iprop(hbPt1 c hbM (Vin1 m c main_v2) ∗ hbPt1 c tblM (Vin1 m c main_arg4))
          ∗ (bigSep (Pipeline.restRefs sig spec1 \ H2) fun b => (((c : Thread nD τ)).loc b) ↦{fullShare} Vin1 m c b)) := by
  rw [← H2_pts]; unfold Pipeline.unscopedRest; exact BI.bigSep_sdiff_split H2_sub

set_option backward.isDefEq.respectTransparency.types false in
/-- PALLAS CALL 1 over the thread state: entered from every unscoped buffer at the fifth valuation, left at the sixth.
    Its arrays split out of the unscoped buffers and put back at the exit contents; the generator register, the kernel's
    own 127 cells, the HBM array and the table into the invariant and out, as they were; nothing owed. -/
def reg1 : RegionSeg (pcfgs (F := F)) (adm m) (pdats m hH) () defs₀ 𝒱₀ L lv 1 where
  win := (launch1 (F := F)).win.to₀
  block_pos := (launch1 (F := F)).block_pos
  stage_whole := (launch1 (F := F)).stage_whole
  K := Fin 127
  osem := osem1
  ho := ownSemFacts1
  hbody c := (body_obligation1 (Vin1 m) (adm1 m) c (hH c)).loose
  hwaits := Pipeline.hwaits_of_owed_zero _ _ _ _ L lv 1 fun _ _ => rfl
  pre c := iprop(StableHlo.held (c : Thread nD τ) (Pipeline.ucRefs τ sig) (V5 m (outs m hH) c) ∗ E 1 c)
  post c := iprop(StableHlo.held (c : Thread nD τ) (Pipeline.ucRefs τ sig) (V6 m (outs m hH) c) ∗ E 2 c)
  X c := iprop((∃ r, prngReg c r) ∗ Pipeline.ownSems0 (Ix := Unit) (Name := ℕ) (U := Pipeline.UD sig nD τ) (Lvl := ℕ) (Val := Elt F) (τ := τ) osem1 c ∗ hbPt1 c hbM (Vin1 m c main_v2))
  Y c := iprop((∃ r, prngReg c r) ∗ hbPt1 c hbM (Vin1 m c main_v2) ∗ hbPt1 c tblM (Vin1 m c main_arg4))
  Z c := bigSep (Pipeline.restRefs sig spec1 \ H2) fun b => (((c : Thread nD τ)).loc b) ↦{fullShare} Vin1 m c b
  hentry c := by
    have hsplit := Pipeline.arrays_of_unscopedBufs (p := 1) (pcfgs (F := F)) (adm m) (pdats m hH) (launch1 (F := F)).win (launch1 (F := F)).arr_whole c
      ((pdats m hH 1 c).share_full fun _ => rfl) (Vin1 m c) fun _ => rfl
    rw [Pipeline.unscopedBufs_held] at hsplit
    rw [V5_outs]
    iintro ⟨⟨Hub, Hp, HO⟩, Hos, -⟩
    ihave H := hsplit $$ Hub
    icases H with ⟨Ha, Hrest⟩
    ihave H' := (Entails.of_eq (rest_split1 m c)) $$ Hrest
    icases H' with ⟨⟨HH, HT⟩, HR⟩
    imodintro
    isplitl [Ha]; · iexact Ha
    isplitl [HT]
    · rw [show (adm (F := F) m 1).1 = tbl1 (Vin1 m) c from (tbl_adm m c).symm]
      iapply (Entails.of_eq (pref1_eq (Vin1 m) c).symm); iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hH 1 c).Φ 0 = Φ1 (Vin1 m) c from rfl]; unfold Φ1
    rw [Pipeline.ΦD_eq, hbmPts1_eq, show (adm (F := F) m 1).1 = tbl1 (Vin1 m) c from (tbl_adm m c).symm]
    iintro ⟨⟨Hp, Ho, HH⟩, HT, Hr⟩
    isplitr [HT]
    · isplitl [Hr]; · iexact Hr
      isplitl [Hp]; · iexact Hp
      isplitl [Ho]; · iexact Ho
      iexact HH
    iexact HT
  hout c := by
    rw [show (pdats m hH 1 c).Φ (Fin.last _) = Φ1 (Vin1 m) c from rfl]; unfold Φ1
    rw [Pipeline.ΦD_eq, hbmPts1_eq, pref1_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hH) ((pdats m hH 1 c).share_full fun _ => rfl)
      (Vin1 m c) (Vout1 m hH c) ((pdats m hH 1 c).arrAt · (cfg1 (adm1 m)).N) (hF1 m hH c) (hrest1 m hH c)
    rw [Pipeline.unscopedBufs_held] at hjoin
    iintro ⟨Ha, HO, ⟨HY, HH, HT⟩, HR⟩
    ihave Hrest := (Entails.of_eq (rest_split1 m c).symm) $$ [HH HT HR]
    · isplitl [HH HT]
      · isplitl [HH]; · iexact HH
        iexact HT
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN. At the compiled mesh, from any memory with zero counters whose table rows are inside the feature array:
    every weakly fair execution of the program terminates, nothing faulting, and every final state holds every unscoped
    buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V7 m (outs m hH) c b) :=
  run_cond m embL () 𝒱₀ L lv (fun _ _ => rfl) ρ (outs m hH) (adm m) (pdats m hH)
    (O₀ := 0) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m hH) (hpre0 := fun _ => .rfl) (hpost0 := fun _ => .rfl)
    (R1 := reg1 m hH) (hpre1 := fun _ => .rfl) (hpost1 := fun _ => .rfl)

end Cert.KernelIdeal.Hand

end
-- ==== Proof.KI.Frame.lean ====
/-
  The frame of the program from its run: under the precondition's range of the table's words every weakly fair execution
  terminates, nothing faulting, and the five argument arrays end as launched — no host stretch writes one and no region
  may change one, so the last valuation at an argument walks back to the launch memory.
-/
import proofs.«409293_j18485539242413_1_alg».proof.Proof.KI.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The table reaches pallas call 1 as launched. -/
theorem Vin1_arg4 (c : Dev nD) : Vin1 m c main_arg4 = m ((c : Thread nD τ).loc main_arg4) :=
  (V5_of m (outsA m) c main_arg4 (by decide)).trans <| (V4_of m (outsA m) c main_arg4 (by decide)).trans <|
    (V3_of m c main_arg4 (by decide)).trans <| (V2_of m c main_arg4 (by decide)).trans <| (V1_of m c main_arg4 (by decide)).trans rfl

/-- The table's words in range put every row the body copies inside the feature array. -/
theorem rows_ok (hr : ∀ (c : Dev nD) (i : S1024x127.Idx), ((m ((c : Thread nD τ).loc main_arg4) : S1024x127.Idx → BitVec 32) i).toNat < 26009) :
    ∀ c : Dev nD, RowsOk c (Vin1 m c main_arg4) := fun c => by
  rw [Vin1_arg4]; exact rowsOk_of_range c _ (hr c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance, under the table's range. -/
theorem frame (hr : ∀ (c : Dev nD) (i : S1024x127.Idx), ((m ((c : Thread nD τ).loc main_arg4) : S1024x127.Idx → BitVec 32) i).toNat < 26009) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V7_main_arg0 m _ c),
     (h c _ (mem_uc main_arg1 (by decide))).trans (V7_main_arg1 m _ c),
     (h c _ (mem_uc main_arg2 (by decide))).trans (V7_main_arg2 m _ c),
     (h c _ (mem_uc main_arg3 (by decide))).trans (V7_main_arg3 m _ c),
     (h c _ (mem_uc main_arg4 (by decide))).trans (V7_main_arg4 m _ c)⟩)
    (run_main m ρ (rows_ok m hr))

end Cert.KernelIdeal.Hand

end
-- ==== Proof.K.Body0.lean ====
/-
  The body of the first kernel on its three staging buffers.

  The body reads the whole 256×2048 block of the transposed samples and the whole 512×256 block of the padded
  weights, and overwrites the whole 512×2048 output block with one value computed from those two reads (the
  normalised projections of 512 features).  It also reads the output block before overwriting it; that value is
  not used.  So after the body the two input buffers are unchanged and the output buffer holds the payload of the
  two input blocks, whatever it held before.
-/
import proofs.«409293_j18485539242413_1_alg».proof.Proof.Gen.Kernel.Launch
import proofs.«409293_j18485539242413_1_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's accesses: each is the whole buffer -/

/-- The whole block of transposed samples (256 features of the input × 2048 samples). -/
abbrev r0 : Rect S256x2048 := Rect.unit (s := S256x2048) ![0, 0] S256x2048.size inb_S256x2048_S256x2048_0_0
/-- The whole block of padded weights (512 output features × 256 input features). -/
abbrev r1 : Rect S512x256 := Rect.unit (s := S512x256) ![0, 0] S512x256.size inb_S512x256_S512x256_0_0
/-- The whole output block (512 output features × 2048 samples). -/
abbrev r2 : Rect S512x2048 := Rect.unit (s := S512x2048) ![0, 0] S512x2048.size inb_S512x2048_S512x2048_0_0

/-! ## What the body leaves in the output buffer -/

/-- The output buffer after the body, from the two input blocks: its one store, of the whole block. -/
def out0_2 (x0 : Vec F S256x2048 .f32) (x1 : Vec F S512x256 .f32) : Vec F S512x2048 .f32 :=
  View.canon [⟨r2, k0_pay1 (View.ld x0 r0) (View.ld x1 r1)⟩]

/-- The one store tiles the output buffer, so it covers it. -/
theorem cover0_2 (p0 : Vec F S512x2048 .f32) (y : S512x2048.Idx) :
    ∃ pc ∈ ([⟨r2, p0⟩] : List (View.Piece (Elt F) S512x2048 .f32)), y ∈ pc.1.set :=
  View.cover_of_tiled [⟨r2, p0⟩] S512x2048.size (by rfl) y

/-! ## The body's triple -/

set_option maxHeartbeats 1000000 in
/-- The body on whole staging buffers, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S256x2048 .f32) (harg1 : arg1.IsWhole)
    (arg2 : Memref sig .tc .vmem S512x256 .f32) (harg2 : arg2.IsWhole)
    (arg3 : Memref sig .tc .vmem S512x2048 .f32) (harg3 : arg3.IsWhole)
    (x0 : Vec F S256x2048 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__phase1_kernel i arg1 harg1 arg2 harg2 arg3 harg3) K := by
  simp only [cc0__phase1_kernel_eq_skeleton]; unfold cc0__phase1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Hand

end
-- ==== Proof.K.Data0.lean ====
/-
  Pallas call 0 as a pipeline's proof data, at a PARAMETER `V` (the TensorCore's buffer contents when the region is
  entered): each window's block at a grid point read off its array; after the body at point `t` the two input windows'
  staging buffers hold their blocks and the output window's holds the body's value of them (one whole-block store);
  the invariant is the scoped rest and the generator register, untouched; nothing is owed; full shares.
  Then the body obligation at every point, from the body's triple.
-/
import proofs.«409293_j18485539242413_1_alg».proof.Proof.K.Body0
import proofs.«409293_j18485539242413_1_alg».proof.Proof.Gen.Kernel.Launch
import proofs.«409293_j18485539242413_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1Lib.lean ====
/-
  Pallas call 1's body: the vocabulary its run is stated in.

  The operands the body reaches by itself (the prefetched table, the array left in HBM, the scratch rows, its 127 DMA
  cells), the side condition on the table's words, the closed form of its one conditional, and the bookkeeping that
  turns "the array held whole" into "one read token per cell" and back, and "the cells at zero" into a chain of 127
  hypotheses and back.
-/
import proofs.«409293_j18485539242413_1_alg».proof.Proof.Gen.Kernel.Skeleton
import proofs.«409293_j18485539242413_1_alg».proof.Proof.Gen.Kernel.Launch
import proofs.«409293_j18485539242413_1_alg».proof.Proof.Gen.Kernel.Points
import Idealize.ShloMosaic.Lib.Pipeline.FrameBody
import Idealize.ShloMosaic.Lib.Pipeline.Kit
import Idealize.ShloMosaic.Lib.Ring
import Idealize.ShloMosaic.Lib.Tactic
import Idealize.ShloMosaic.Lib.Transfers

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Chains of numbered hypotheses -/

open Lean in
/-- The list literal `[0, 1, …, n-1]`. -/
macro "nat_list% " n:num : term => do
  let xs := (List.range n.getNat).toArray.map fun k => Syntax.mkNumLit (toString k)
  `([$xs,*])

open Lean Elab Tactic in
/-- Opens the chain `Φ lo ∗ … ∗ Φ (lo+n-1)` held as the hypothesis `h` into `n` hypotheses named `<pre><lo>`, …. -/
elab "ichain_open " h:ident pre:ident lo:num n:num : tactic => do
  let name (k : Nat) : Ident := mkIdent (Name.mkSimple s!"{pre.getId.toString}{k}")
  for j in [0:n.getNat - 1] do
    let bi ← `(binderIdent| $(name (lo.getNat + j)):ident)
    let bh ← `(binderIdent| $h:ident)
    evalTactic (← `(tactic| icases $h:ident with ⟨$bi:binderIdent, $bh:binderIdent⟩))
  let bl ← `(binderIdent| $(name (lo.getNat + n.getNat - 1)):ident)
  evalTactic (← `(tactic| icases $h:ident with $bl:binderIdent))

open Lean Elab Tactic in
/-- Closes a goal `Φ lo ∗ … ∗ Φ (lo+n-1)` from the hypotheses `<pre><lo>`, …, each handed to its own conjunct. -/
elab "ichain_close " pre:ident lo:num n:num : tactic => do
  let name (k : Nat) : Ident := mkIdent (Name.mkSimple s!"{pre.getId.toString}{k}")
  for j in [0:n.getNat - 1] do
    let x := name (lo.getNat + j)
    evalTactic (← `(tactic| (isplitl [$x:ident]; · iexact $x:ident)))
  let x := name (lo.getNat + n.getNat - 1)
  evalTactic (← `(tactic| iexact $x:ident))

open Lean in
/-- The chain `semVal (c, dma lo) 0 ∗ … ∗ semVal (c, dma (lo+n-1)) 0`, written out. -/
macro "sem_chain% " c:ident lo:num n:num : term => do
  let cell (k : Nat) : MacroM (TSyntax `term) :=
    `(semVal (($c : Thread nD τ), SemLoc.dma $(Syntax.mkNumLit (toString k))) 0)
  let mut acc ← cell (lo.getNat + n.getNat - 1)
  for j in (List.range (n.getNat - 1)).reverse do
    acc ← `(iprop($(← cell (lo.getNat + j)) ∗ $acc))
  return acc

open Lean in
/-- The chain `P lo ∗ … ∗ P (lo+n-1)` of a family `P` over numerals, written out. -/
macro "sep_chain% " P:term:max lo:num n:num : term => do
  let cell (k : Nat) : MacroM (TSyntax `term) := `($P $(Syntax.mkNumLit (toString k)))
  let mut acc ← cell (lo.getNat + n.getNat - 1)
  for j in (List.range (n.getNat - 1)).reverse do
    acc ← `(iprop($(← cell (lo.getNat + j)) ∗ $acc))
  return acc

open Lean Elab Tactic in
/-- `isplitl` handing the hypotheses `<pre><lo>`, …, `<pre><lo+n-1>` to the left conjunct. -/
elab "isplitl_range " pre:ident lo:num n:num : tactic => do
  let ids : Array Ident := (Array.range n.getNat).map fun j => mkIdent (Name.mkSimple s!"{pre.getId.toString}{lo.getNat + j}")
  evalTactic (← `(tactic| isplitl [$ids*]))

/-! ## The operands the body reaches by itself -/

/-- The prefetched table, the array left in HBM and the scratch rows, whole. -/
abbrev tblM : Memref sig .tc .smem S1024x127 .i32 := Memref.whole main_arg4
abbrev hbM : Memref sig .tc .hbm S26112x2048 .f32 := Memref.whole main_v2
abbrev scM : Memref sig .tc .vmem S127x2048 .f32 := Memref.whole cc1_scratch0
/-- Memref `M`'s buffer on core `c`: its contents type, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The array at share `q`. -/
abbrev hbAt (c : Dev nD) (q : PosShare TreeShare) (f : HbBuf1 (F := F) c hbM) : sProp 𝕄 :=
  hbM.view.loc (c : Thread nD τ) ↦{q} f

/-- Every word of the table, read as a row number, is a row of the array. -/
def RowsOk (c : Dev nD) (tb : HbBuf1 (F := F) c tblM) : Prop :=
  ∀ (o : Fin 2 → ℕ) (ho : ∀ a, o a + S1x1.size a ≤ S1024x127.size a),
    (tblM.view.readAt (Elt F) (Rect.unit (s := S1024x127) o S1x1.size ho).toLoadRect tb (Shape.Idx.first (numel1_S1x1.symm ▸ Nat.one_pos))).toNat + 1 ≤ 26112

/-- A word below the array's row count names a row inside it. -/
theorem chk_row (v : BitVec 32) (h : v.toNat + 1 ≤ 26112) : ∀ a, (![v.toNat, 0] : Fin 2 → ℕ) a + S1x2048.size a ≤ S26112x2048.size a := by
  intro a; fin_cases a
  · simpa using h
  · simp

/-- The body's own DMA semaphores: cell `k` is semaphore `11 + k` of the pool. -/
abbrev osem1 : Fin 127 → SemLoc sig := fun k => SemLoc.dma (⟨11 + k.val, by have := k.isLt; omega⟩ : Fin 138)

theorem ownSemFacts1 : Pipeline.OwnSemFacts spec1 osem1 := by decide

/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = sem_chain% c 11 127 := by
  rw [Pipeline.ownSems0_eq_of_list c osem1 (nat_list% 127) (by decide) (by decide)]; rfl

/-- The array's read token for the cell numbered `k`. -/
abbrev hbTok (c : Dev nD) (f : HbBuf1 (F := F) c hbM) (k : ℕ) : sProp 𝕄 := hbAt c (Transfers.shareTokN fullShare k) f

/-- The array split into what remains after 138 read tokens and the tokens, one per cell number, as a chain. -/
theorem hb_toks (c : Dev nD) (f : HbBuf1 (F := F) c hbM) :
    (hbPt1 c hbM f : sProp 𝕄) ⊣⊢ iprop(hbAt c (Transfers.shareDrop fullShare 138) f
      ∗ sep_chain% (hbTok c f) 0 138) := by
  have h := Transfers.pointsTo_toks_range (Ix := Unit) (Name := ℕ) (U := Pipeline.UD sig nD τ) (Lvl := ℕ)
    (ℓ := hbM.view.loc (c : Thread nD τ)) (S := Finset.univ) (f := f) fullShare 138
  rw [BI.bigSep_eq_bigSepL_of_eq (S := Finset.range 138) (nat_list% 138) (by decide) (by decide)] at h
  exact h

/-- The printed condition of the body's `scf.if`: the second grid coordinate is zero. -/
abbrev cond1_0 (i : grid1.Coords) : Prop := (Scalar.cmpi .ne (Scalar.extui (Scalar.cmpi .eq (BitVec.ofNat 32 (i 1).val) 0#32)) 0#32) = 1#1

/-- It holds at the first point of each half of the grid. -/
theorem hcond1_0 : ∀ t : Fin grid1.N, cond1_0 (grid1.coords t) ↔ t.val % 512 = 0 :=
  (by decide +kernel : ∀ t : Fin grid1.N, cond1_0 (grid1.coords t) ↔ t.val % 512 = 0)

/-- A table whose every word is below the reference's row count has every word a row of the padded array. -/
theorem rowsOk_of_range (c : Dev nD) (tb : HbBuf1 (F := F) c tblM)
    (h : ∀ j : S1024x127.Idx, ((tb : S1024x127.Idx → BitVec 32) j).toNat < 26009) : RowsOk c tb := by
  intro o ho
  rw [View.readAt_apply]
  simp only [Memref.view_whole, View.read_whole]
  exact Nat.le_trans (Nat.succ_le_of_lt (h _)) (by decide)

/-- One staging buffer of the output window, through which its contents are stated. -/
abbrev VO1_2 : View sig .tc .vmem S1x2048x10 .f32 := (Memref.whole cc1_stg2_0 : Memref sig .tc .vmem S1x2048x10 .f32).view

end Cert.Kernel.Hand

end
-- ==== Proof.K.Body1Rows.lean ====
/-
  Pallas call 1's body: the scratch as its 127 rows.

  A 127-row memref held by its own elements is its rows, each held by its own elements; rows held each at contents of
  its own join into the memref held at ONE contents function, which on row `k` is row `k`'s; and the memref read
  back at an element of row `k` is row `k`'s contents read there.
-/
import proofs.«409293_j18485539242413_1_alg».proof.Proof.K.Body1Lib
import Idealize.ShloMosaic.Lib.SparseCore.Stream
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `k` of a 127-row memref: the rectangle of offsets `(k, 0)` and sizes `(1, 2048)`. -/
abbrev rowOf (m : Memref sig .tc .vmem S127x2048 .f32) (k : ℕ) (hk : ∀ a, (![k, 0] : Fin 2 → ℕ) a + S1x2048.size a ≤ S127x2048.size a) : Memref sig .tc .vmem S1x2048 .f32 :=
  m.slice (Rect.unit (s := S127x2048) ![k, 0] S1x2048.size hk) (fun _ => rfl)

/-- Row `k` held by its own elements at contents `f`. -/
abbrev rowPt (m : Memref sig .tc .vmem S127x2048 .f32) (c : Dev nD) (k : ℕ) (hk : ∀ a, (![k, 0] : Fin 2 → ℕ) a + S1x2048.size a ≤ S127x2048.size a)
    (f : Buf (Elt F) ((rowOf m k hk).view.loc (c : Thread nD τ))) : sProp 𝕄 :=
  (rowOf m k hk).view.loc (c : Thread nD τ) ↦[(rowOf m k hk).view.set]{fullShare} f

open Lean in
/-- The chain `rowPt m c lo _ (f lo) ∗ … ∗ rowPt m c (lo+n-1) _ (f (lo+n-1))`, written out over numerals. -/
macro "row_chain% " m:ident c:ident f:term:max lo:num n:num : term => do
  let cell (k : Nat) : MacroM (TSyntax `term) := do
    let inb := mkIdent (Name.mkSimple s!"inb_S127x2048_S1x2048_{k}_0")
    let kk := Syntax.mkNumLit (toString k)
    `(rowPt $m $c $kk $inb ($f $kk))
  let mut acc ← cell (lo.getNat + n.getNat - 1)
  for j in (List.range (n.getNat - 1)).reverse do
    acc ← `(iprop($(← cell (lo.getNat + j)) ∗ $acc))
  return acc

/-- Unit-stride rectangles with equal offsets and sizes are equal. -/
theorem Rect.unit_congr {s : Shape} {off off' size size' : Fin s.rank → ℕ} (ho : off = off') (hs : size = size')
    (inb : ∀ a, off a + size a ≤ s.size a) (inb' : ∀ a, off' a + size' a ≤ s.size a) :
    Rect.unit (s := s) off size inb = Rect.unit (s := s) off' size' inb' := by
  subst ho; subst hs; rfl

/-- A view's slices through equal rectangles have the same elements. -/
theorem View.slice_set_congr {κ : Kind} {sp : Space} {s : Shape} {e : EltTy} (v : View sig κ sp s e) {r r' : Rect s} (h : r = r') :
    ((v.slice r).set : Finset v.ty.Idx) = (v.slice r').set := by subst h; rfl

theorem inb_row (k : Fin 127) : ∀ a, (![k.val, 0] : Fin 2 → ℕ) a + S1x2048.size a ≤ S127x2048.size a := by
  intro a; fin_cases a
  · have := k.isLt; show k.val + 1 ≤ 127; omega
  · show 0 + 2048 ≤ 2048; omega

/-- Row `k` along the first axis is the rectangle of offsets `(k, 0)` and sizes `(1, 2048)`. -/
theorem rowRect_eq (k : Fin 127) :
    S127x2048.rowRect (0 : Fin 2) k = Rect.unit (s := S127x2048) ![k.val, 0] S1x2048.size (inb_row k) := by
  unfold Shape.rowRect
  apply Rect.unit_congr
  · funext b; fin_cases b <;> rfl
  · funext b; fin_cases b <;> rfl

/-- An element of row `k` has first coordinate `k`. -/
theorem row_emb_zero (k : ℕ) (hk : ∀ a, (![k, 0] : Fin 2 → ℕ) a + S1x2048.size a ≤ S127x2048.size a) (x : S1x2048.Idx) :
    (((Rect.unit (s := S127x2048) ![k, 0] S1x2048.size hk).emb x) (0 : Fin 2)).val = k := by
  have h := Rect.emb_apply (Rect.unit (s := S127x2048) ![k, 0] S1x2048.size hk) x (0 : Fin 2)
  have hx : (x (0 : Fin 2)).val < 1 := (x (0 : Fin 2)).isLt
  rw [h]
  show k + 1 * (x (0 : Fin 2)).val = k
  omega

section
variable (m : Memref sig .tc .vmem S127x2048 .f32) (c : Dev nD)

theorem rowSet_eq (k : Fin 127) : ((m.view.slice (S127x2048.rowRect (0 : Fin 2) k)).set : Finset m.view.ty.Idx) = (rowOf m k.val (inb_row k)).view.set :=
  View.slice_set_congr m.view (rowRect_eq k)

/-- The memref's elements are its rows'. -/
theorem m_set_rows : (m.view.set : Finset m.view.ty.Idx) = Finset.univ.biUnion (fun k : Fin 127 => ((rowOf m k.val (inb_row k)).view.set : Finset m.view.ty.Idx)) :=
  (View.set_eq_biUnion_rows m.view (0 : Fin 2)).trans (congrArg (Finset.biUnion Finset.univ) (funext fun k => rowSet_eq m k))

/-- A 127-row memref held by its own elements is its rows, each held by its own. -/
theorem m_rows (d : Buf (Elt F) (m.view.loc (c : Thread nD τ))) :
    (m.view.loc (c : Thread nD τ) ↦[m.view.set]{fullShare} d : sProp 𝕄)
      = bigSep Finset.univ fun k : Fin 127 => rowPt m c k.val (inb_row k) d := by
  have h := pointsTo_rows (Ix := Unit) (Val := Elt F) (Name := ℕ) (U := Pipeline.UD sig nD τ) (Lvl := ℕ) (c : Thread nD τ) m.view (0 : Fin 2) fullShare d
  refine h.trans ?_
  exact congrArg (bigSep Finset.univ) (funext fun k => congrArg (fun S => (m.view.loc (c : Thread nD τ) ↦[S]{fullShare} d : sProp 𝕄)) (rowSet_eq m k))

/-- Rows held at contents of their own join into the memref held at some contents that agrees with each on its row. -/
theorem m_join (fs : Fin 127 → Buf (Elt F) (m.view.loc (c : Thread nD τ))) :
    bigSep Finset.univ (fun k : Fin 127 => rowPt m c k.val (inb_row k) (fs k))
      ⊢ (iprop(∃ g : Buf (Elt F) (m.view.loc (c : Thread nD τ)), ⌜∀ k : Fin 127, ∀ i ∈ (rowOf m k.val (inb_row k)).view.set, g i = fs k i⌝
          ∗ m.view.loc (c : Thread nD τ) ↦[m.view.set]{fullShare} g) : sProp 𝕄) := by
  have hd : ∀ k ∈ (Finset.univ : Finset (Fin 127)), ∀ k' ∈ (Finset.univ : Finset (Fin 127)), k ≠ k' →
      Disjoint ((rowOf m k.val (inb_row k)).view.set : Finset m.view.ty.Idx) (rowOf m k'.val (inb_row k')).view.set := by
    intro k _ k' _ hk
    rw [← rowSet_eq m k, ← rowSet_eq m k']
    exact View.disjoint_rows m.view (0 : Fin 2) hk
  have hj := pointsTo_biUnion_join (Ix := Unit) (Val := Elt F) (Name := ℕ) (U := Pipeline.UD sig nD τ) (Lvl := ℕ) (ℓ := m.view.loc (c : Thread nD τ)) (q := fullShare)
    Finset.univ (fun k : Fin 127 => ((rowOf m k.val (inb_row k)).view.set : Finset m.view.ty.Idx)) fs (fs 0) hd
  refine (show (bigSep Finset.univ (fun k : Fin 127 => rowPt m c k.val (inb_row k) (fs k)) : sProp 𝕄) ⊢ _ from hj).trans ?_
  iintro ⟨%g, %hg, H⟩
  iexists g
  isplitr
  · ipureintro; intro k i hi; exact hg k (Finset.mem_univ k) i hi
  · rw [m_set_rows m]; iexact H

/-- The contents that on row `k` are `f k`'s: an element of the memref takes the contents of the row its first
    coordinate names. -/
def rowsGlue {c : Dev nD} (f : ℕ → Buf (Elt F) (m.view.loc (c : Thread nD τ))) : Buf (Elt F) (m.view.loc (c : Thread nD τ)) :=
  fun i => match preimage? m.view.emb i with
    | some y => f (y (0 : Fin 2)).val i
    | none => f 0 i

theorem rowsGlue_emb {c : Dev nD} (f : ℕ → Buf (Elt F) (m.view.loc (c : Thread nD τ))) (y : S127x2048.Idx) :
    rowsGlue m f (m.view.emb y) = f (y (0 : Fin 2)).val (m.view.emb y) := by
  unfold rowsGlue; rw [preimage?_emb]

theorem mod127_lt (k : ℕ) : k % 127 < 127 := Nat.mod_lt k (by decide)

/-- The family of the rows' contents after every row has been overwritten whole: row `k` is `d` with the payload `w k`
    written over all of it. -/
def rowF {c : Dev nD} (d : Buf (Elt F) (m.view.loc (c : Thread nD τ))) (w : ℕ → S1x2048.Idx → Elt F .f32) : ℕ → Buf (Elt F) (m.view.loc (c : Thread nD τ)) :=
  fun k => ((rowOf m (k % 127) (inb_row ⟨k % 127, mod127_lt k⟩)).view.writes (Elt F) (d : m.view.ty.Contents (Elt F)) [⟨Rect.whole S1x2048, w k⟩] : m.view.ty.Contents (Elt F))

theorem rowF_aux {c : Dev nD} (d : Buf (Elt F) (m.view.loc (c : Thread nD τ))) (p : S1x2048.Idx → Elt F .f32) (j k : ℕ) (h : j = k)
    (hj : ∀ a, (![j, 0] : Fin 2 → ℕ) a + S1x2048.size a ≤ S127x2048.size a) (hk : ∀ a, (![k, 0] : Fin 2 → ℕ) a + S1x2048.size a ≤ S127x2048.size a) :
    ((rowOf m j hj).view.writes (Elt F) d [⟨Rect.whole S1x2048, p⟩] : m.view.ty.Contents (Elt F))
      = (rowOf m k hk).view.writes (Elt F) d [⟨Rect.whole S1x2048, p⟩] := by
  subst h; rfl

/-- The memref's contents made of the payloads alone: element `(k, b)` is payload `k` at `(0, b)`. -/
def rowsOf (w : ℕ → S1x2048.Idx → Elt F .f32) : m.view.ty.Contents (Elt F) :=
  m.view.write (Elt F) (m.view.junk : m.view.ty.Contents (Elt F)) (fun y : S127x2048.Idx => w (y (0 : Fin 2)).val (ix2 (0 : Fin 1) (y (1 : Fin 2)))) Finset.univ

/-- Read back, it is the payloads. -/
theorem rowsOf_read (w : ℕ → S1x2048.Idx → Elt F .f32) (y : S127x2048.Idx) :
    m.view.read (Elt F) (rowsOf m w) y = w (y (0 : Fin 2)).val (ix2 (0 : Fin 1) (y (1 : Fin 2))) :=
  congrFun (View.read_write_univ (v := m.view) (m.view.junk : m.view.ty.Contents (Elt F)) _) y

/-- On the memref's elements the glued overwritten rows are the payloads' contents. -/
theorem rowsGlue_rowF {c : Dev nD} (d : Buf (Elt F) (m.view.loc (c : Thread nD τ))) (w : ℕ → S1x2048.Idx → Elt F .f32) :
    ∀ i ∈ (m.view.set : Finset m.view.ty.Idx), rowsGlue m (rowF m d w) i = rowsOf m w i := by
  intro i hi
  obtain ⟨y, -, rfl⟩ := Finset.mem_map.mp hi
  rw [rowsGlue_emb]
  have hy : (y (0 : Fin 2)).val < 127 := (y (0 : Fin 2)).isLt
  have hF : rowF m d w (y (0 : Fin 2)).val = (rowOf m (y (0 : Fin 2)).val (inb_row ⟨(y (0 : Fin 2)).val, hy⟩)).view.writes (Elt F) d [⟨Rect.whole S1x2048, w (y (0 : Fin 2)).val⟩] := by
    exact rowF_aux m d (w (y (0 : Fin 2)).val) _ _ (Nat.mod_eq_of_lt hy) _ _
  rw [hF]
  have hyx : y = (Rect.unit (s := S127x2048) ![(y (0 : Fin 2)).val, 0] S1x2048.size (inb_row ⟨(y (0 : Fin 2)).val, hy⟩)).emb (ix2 (0 : Fin 1) (y (1 : Fin 2))) := by
    funext a
    apply Fin.ext
    rw [Rect.emb_apply]
    match a with
    | ⟨0, _⟩ => show (y (0 : Fin 2)).val = (y (0 : Fin 2)).val + 1 * 0; omega
    | ⟨1, _⟩ => show (y (1 : Fin 2)).val = 0 + 1 * (y (1 : Fin 2)).val; omega
  have he : m.view.emb y = (rowOf m (y (0 : Fin 2)).val (inb_row ⟨(y (0 : Fin 2)).val, hy⟩)).view.emb (ix2 (0 : Fin 1) (y (1 : Fin 2))) :=
    congrArg m.view.emb hyx
  have h1 : (rowOf m (y (0 : Fin 2)).val (inb_row ⟨(y (0 : Fin 2)).val, hy⟩)).view.writes (Elt F) d [⟨Rect.whole S1x2048, w (y (0 : Fin 2)).val⟩]
        ((rowOf m (y (0 : Fin 2)).val (inb_row ⟨(y (0 : Fin 2)).val, hy⟩)).view.emb (ix2 (0 : Fin 1) (y (1 : Fin 2))))
      = _root_.cast (congrArg (Elt F) m.view.elt_eq.symm) (w (y (0 : Fin 2)).val (ix2 (0 : Fin 1) (y (1 : Fin 2)))) := by
    rw [← View.write_univ_eq_writes_whole (rowOf m (y (0 : Fin 2)).val (inb_row ⟨(y (0 : Fin 2)).val, hy⟩)).view d [] (w (y (0 : Fin 2)).val)]
    exact View.write_emb_of_mem _ _ (Finset.mem_univ _)
  have h2 : rowsOf m w (m.view.emb y)
      = _root_.cast (congrArg (Elt F) m.view.elt_eq.symm) (w (y (0 : Fin 2)).val (ix2 (0 : Fin 1) (y (1 : Fin 2)))) :=
    View.write_emb_of_mem _ _ (Finset.mem_univ y)
  rw [h2, ← h1, ← he]

open Lean in
/-- The chain of the rows, row `k` at `d` overwritten whole with the payload `w k`, written out over numerals. -/
macro "row_chainW% " m:ident c:ident d:ident w:ident lo:num n:num : term => do
  let cell (k : Nat) : MacroM (TSyntax `term) := do
    let inb := mkIdent (Name.mkSimple s!"inb_S127x2048_S1x2048_{k}_0")
    let kk := Syntax.mkNumLit (toString k)
    `(rowPt $m $c $kk $inb ((rowOf $m $kk $inb).view.writes _ $d [⟨Rect.whole S1x2048, $w $kk⟩]))
  let mut acc ← cell (lo.getNat + n.getNat - 1)
  for j in (List.range (n.getNat - 1)).reverse do
    acc ← `(iprop($(← cell (lo.getNat + j)) ∗ $acc))
  return acc

set_option maxHeartbeats 8000000 in
/-- The memref held by its own elements at `d` is the chain of its rows, each at `d`. -/
theorem sc_split (d : Buf (Elt F) (m.view.loc (c : Thread nD τ))) :
    (m.view.loc (c : Thread nD τ) ↦[m.view.set]{fullShare} d : sProp 𝕄) ⊣⊢ row_chain% m c (fun _ : ℕ => d) 0 127 := by
  have h : (m.view.loc (c : Thread nD τ) ↦[m.view.set]{fullShare} d : sProp 𝕄) = row_chain% m c (fun _ : ℕ => d) 0 127 := by
    rw [m_rows m c d, BI.bigSep_univ_eq_bigSepL (nat_list% 127) (by decide) (by decide)]
    rfl
  rw [h]

set_option maxHeartbeats 8000000 in
/-- The chain of the rows, row `k` at `f k`, joins into the memref held at `rowsGlue m f`. -/
theorem sc_joinGlue (f : ℕ → Buf (Elt F) (m.view.loc (c : Thread nD τ))) :
    (row_chain% m c f 0 127 : sProp 𝕄) ⊢ m.view.loc (c : Thread nD τ) ↦[m.view.set]{fullShare} (rowsGlue m f) := by
  have h := m_join (F := F) m c (fun k => f k.val)
  rw [BI.bigSep_univ_eq_bigSepL (nat_list% 127) (by decide) (by decide)] at h
  refine (show (row_chain% m c f 0 127 : sProp 𝕄) ⊢ _ from h).trans ?_
  iintro ⟨%g, %hg, H⟩
  have hc : ∀ i ∈ (m.view.set : Finset m.view.ty.Idx), g i = rowsGlue m f i := by
    intro i hi
    rw [m_set_rows m] at hi
    obtain ⟨k, -, hk⟩ := Finset.mem_biUnion.mp hi
    have hgk := hg k i hk
    obtain ⟨x, -, rfl⟩ := Finset.mem_map.mp hk
    rw [hgk]
    show f k.val (m.view.emb ((Rect.unit (s := S127x2048) ![k.val, 0] S1x2048.size (inb_row k)).emb x)) = rowsGlue m f (m.view.emb ((Rect.unit (s := S127x2048) ![k.val, 0] S1x2048.size (inb_row k)).emb x))
    rw [rowsGlue_emb, row_emb_zero]
  have e : (m.view.loc (c : Thread nD τ) ↦[m.view.set]{fullShare} g : sProp 𝕄) = (m.view.loc (c : Thread nD τ) ↦[m.view.set]{fullShare} rowsGlue m f) :=
    pointsTo_congr hc
  rw [← e]
  iexact H

set_option maxHeartbeats 8000000 in
/-- The chain of the rows, row `k` overwritten whole with the payload `w k`, joins into the memref held at the
    payloads' contents `rowsOf m w`, whatever it held before. -/
theorem sc_join (d : Buf (Elt F) (m.view.loc (c : Thread nD τ))) (w : ℕ → S1x2048.Idx → Elt F .f32) :
    (row_chainW% m c d w 0 127 : sProp 𝕄) ⊢ m.view.loc (c : Thread nD τ) ↦[m.view.set]{fullShare} (rowsOf m w) := by
  have e : (m.view.loc (c : Thread nD τ) ↦[m.view.set]{fullShare} rowsGlue m (rowF m d w) : sProp 𝕄) = (m.view.loc (c : Thread nD τ) ↦[m.view.set]{fullShare} rowsOf m w) :=
    pointsTo_congr (rowsGlue_rowF m d w)
  rw [← e]
  exact sc_joinGlue m c (rowF m d w)

/-- The joined contents read back at an element of row `k` are row `k`'s contents read there. -/
theorem rowsGlue_apply {c : Dev nD} (f : ℕ → Buf (Elt F) (m.view.loc (c : Thread nD τ))) (k : ℕ)
    (hk : ∀ a, (![k, 0] : Fin 2 → ℕ) a + S1x2048.size a ≤ S127x2048.size a) (x : S1x2048.Idx) :
    m.view.read (Elt F) (rowsGlue m f) ((Rect.unit (s := S127x2048) ![k, 0] S1x2048.size hk).emb x)
      = (rowOf m k hk).view.read (Elt F) (f k) x := by
  rw [View.read_apply, View.read_apply, rowsGlue_emb, row_emb_zero]
  rfl

end

end Cert.Kernel.Hand

end
-- ==== Proof.K.Body1Fam.lean ====
/-
  Pallas call 1's body: two helpers the runs use to speak of the 127 copies' payloads at once — the payload family as
  a lookup over the names a run gives them, and a tactic form that takes the 127 row hypotheses as one list.
-/
import proofs.«409293_j18485539242413_1_alg».proof.Proof.K.Body1Lib

namespace Cert.Kernel.Hand

open Lean Elab Tactic in
/-- Runs the tactic written `<before> <pre><lo> … <pre><lo+n-1> <after>` (a tactic that takes a LIST of hypothesis names). -/
elab "irange_tac " before:str pre:ident lo:num n:num after:str : tactic => do
  let names := (List.range n.getNat).map fun j => s!"{pre.getId.toString}{lo.getNat + j}"
  let text := before.getString ++ " " ++ " ".intercalate names ++ " " ++ after.getString
  match Parser.runParserCategory (← getEnv) `tactic text with
  | .ok stx => evalTactic stx
  | .error e => throwError "irange_tac: {e}\n{text}"

open Lean in
/-- The family `k ↦ the payload of the copy into row k`, as a lookup over the payload names `<decl>.sl.dma<k+1>` a run of
    the body gives its `n` copies (applied to `args`). -/
macro "payload_fam% " decl:ident "[" args:term:max* "]" n:num : term => do
  let T (k : Nat) : MacroM (TSyntax `term) := do
    let dma := mkIdent (decl.getId ++ `sl ++ Name.mkSimple s!"dma{k+1}")
    `($dma $args*)
  let mut acc ← T (n.getNat - 1)
  for j in (List.range (n.getNat - 1)).reverse do
    let tj ← T j
    acc ← `(if k = $(Syntax.mkNumLit (toString j)) then $tj else $acc)
  `(fun (k : ℕ) => $acc)

end Cert.Kernel.Hand
-- ==== Proof.K.Body1RunA.lean ====
/-
  Pallas call 1's body run by the symbolic executor, case A (the second grid coordinate is zero: the output block is zeroed first).

  The array left in HBM goes in whole, is held during the run as one read token per DMA cell (every one of the 127 row
  copies reads it while the others are in flight), and comes out whole; each copy lands in its own row of the scratch
  (held row by row meanwhile), all 127 are waited for, the rows are joined back, and only then is the scratch read.  Each table word's side condition (the row it names lies
  inside the array) comes from the one hypothesis `RowsOk`.
-/
import proofs.«409293_j18485539242413_1_alg».proof.Proof.K.Body1Rows
import proofs.«409293_j18485539242413_1_alg».proof.Proof.K.Body1Fam

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

open Lean in
/-- The payload family of this case's run: the copy into row `k` is the run's `(k + 1 + shift)`-th named read (the taken
    branch's load and store of the output block come before the first copy). -/
macro "payload_famA% " decl:ident shift:num "[" args:term:max* "]" n:num : term => do
  let T (k : Nat) : MacroM (TSyntax `term) := do
    let dma := mkIdent (decl.getId ++ `sl ++ Name.mkSimple s!"dma{k+1+shift.getNat}")
    `($dma $args*)
  let mut acc ← T (n.getNat - 1)
  for j in (List.range (n.getNat - 1)).reverse do
    let tj ← T j
    acc ← `(if k = $(Syntax.mkNumLit (toString j)) then $tj else $acc)
  `(fun (k : ℕ) => $acc)

set_option maxHeartbeats 400000000 in
/-- What the body's stores leave in the output's staging memref, as pieces (last first), in case A, with the proof that
    from whole staging memrefs — the thresholds' and the weights' blocks at their contents, the output's at
    anything, the scratch at anything, the cells at zero, the table and the HBM array whole — the body runs to
    the continuation holding all of them back as they were and the output's buffer with its pieces written.  The scratch
    is held row by row while the 127 copies are in flight (each copy takes its own row) and joined back before it is read. -/
noncomputable def kernelRun1_A (c : Dev nD) (i : grid1.Coords) (hc0 : cond1_0 i)
    (arg3 : Memref sig .tc .vmem S1x127x1 .f32) (harg3 : arg3.IsWhole) (arg4 : Memref sig .tc .vmem S1x128x10 .f32) (harg4 : arg4.IsWhole)
    (arg6 : Memref sig .tc .vmem S1x2048x10 .f32) (harg6 : arg6.IsWhole)
    (x3 : Vec F S1x127x1 .f32) (x4 : Vec F S1x128x10 .f32) (tb : HbBuf1 (F := F) c tblM) (fh : HbBuf1 (F := F) c hbM) (hw : RowsOk c tb) :
    { L : List (View.Piece (Elt F) S1x2048x10 .f32) //
      ∀ (W : Waits sig Unit) (K : PUnit → sProp 𝕄),
        iprop(owns (c : Thread nD τ) arg3 fullShare x3 ∗ owns (c : Thread nD τ) arg4 fullShare x4 ∗ (∃ d, owns (c : Thread nD τ) arg6 fullShare d)
            ∗ (∃ d, owns (c : Thread nD τ) scM fullShare d)
            ∗ Pipeline.ownSems0 (Ix := Unit) (Name := ℕ) (U := Pipeline.UD sig nD τ) (Lvl := ℕ) (Val := Elt F) (τ := τ) osem1 c
            ∗ hbPt1 c tblM tb ∗ hbPt1 c hbM fh ∗ owes (c : Thread nD τ) 0 W
            ∗ (iprop(owns (c : Thread nD τ) arg3 fullShare x3 ∗ owns (c : Thread nD τ) arg4 fullShare x4
                ∗ (∃ f, arg6.view.loc (c : Thread nD τ) ↦[arg6.view.set]{fullShare} arg6.view.writes (Elt F) f L)
                ∗ (∃ d, owns (c : Thread nD τ) scM fullShare d)
                ∗ Pipeline.ownSems0 (Ix := Unit) (Name := ℕ) (U := Pipeline.UD sig nD τ) (Lvl := ℕ) (Val := Elt F) (τ := τ) osem1 c
                ∗ hbPt1 c tblM tb ∗ hbPt1 c hbM fh ∗ (∃ W', owes (c : Thread nD τ) 0 W')) -∗ K ⟨⟩))
          ⊢ wp frame (wpE (defs₀ (F := F)) Variants.none c none) Set.univ
              (cc1__phase2_kernel i tblM (Memref.isWhole_whole _) arg3 harg3 arg4 harg4 hbM (Memref.isWhole_whole _) arg6 harg6 scM (Memref.isWhole_whole _) cc1_scratch1) K } := by
  refine ⟨?_, fun W K => ?run⟩
  case run =>
    rw [cc1__phase2_kernel_eq_skeleton]; unfold cc1__phase2_kernel_skel
    rw [ownSems01_eq]
    unfold owns
    iintro ⟨⟨%f3, %hf3, H3⟩, ⟨%f4, %hf4, H4⟩, ⟨%d6, %f6, -, H6⟩, ⟨%ds0, %fs0, -, HS0⟩, Hq, Htb, Hfh, HW, Hk⟩
    obtain rfl := harg3.eq_unread hf3; obtain rfl := harg4.eq_unread hf4
    -- the array as one read token per cell number, the cells one by one, the scratch row by row
    ihave Hfh' := (hb_toks c fh).1 $$ Hfh
    icases Hfh' with ⟨Hrest, HTs⟩
    ichain_open HTs HT 0 138
    ichain_open Hq Hq 11 127
    ihave HRs := (sc_split scM c fs0).1 $$ HS0
    ichain_open HRs HR 0 127
    -- the 127 copies and their waits; the run stops at the load of the whole scratch
    sl_exec_parts (disch := first | exact ⟨chk_row _ (hw _ _), chk_row _ (hw _ _)⟩ | exact chk_row _ (hw _ _) | sl_exact hc0)
    -- the landed rows joined back into the scratch
    irange_tac "ihave HS0 := (sc_join scM c fs0 (payload_famA% kernelRun1_A 2 [c i tb fh hw] 127)) $$ [" HR 0 127 "]"
    · ichain_close HR 0 127
    sl_exec_parts (disch := first | sl_exact hc0)
    sl_step
    iapply Hk
    isplitl [H3]
    · iexists _; isplitr; · ipureintro; exact harg3.read_unread _
      iexact H3
    isplitl [H4]
    · iexists _; isplitr; · ipureintro; exact harg4.read_unread _
      iexact H4
    isplitl [H6]; · iexists _; iexact H6
    isplitl [HS0]
    · iexists _, _; isplitr; swap; · iexact HS0
      ipureintro; rfl
    isplitl_range Hq 11 127
    · ichain_close Hq 11 127
    isplitl [Htb]; · iexact Htb
    isplitr [HW]
    · iapply (hb_toks c fh).2
      isplitl [Hrest]; · iexact Hrest
      ichain_close HT 0 138
    iexists _; iexact HW

end Cert.Kernel.Hand

end
-- ==== Proof.K.Body1RunB.lean ====
/-
  Pallas call 1's body run by the symbolic executor, case B (the second grid coordinate is not zero: the output block is read and added to).

  The array left in HBM goes in whole, is held during the run as one read token per DMA cell (every one of the 127 row
  copies reads it while the others are in flight), and comes out whole; each copy lands in its own row of the scratch
  (held row by row meanwhile), all 127 are waited for, the rows are joined back, and only then is the scratch read.  Each table word's side condition (the row it names lies
  inside the array) comes from the one hypothesis `RowsOk`.
-/
import proofs.«409293_j18485539242413_1_alg».proof.Proof.K.Body1Rows
import proofs.«409293_j18485539242413_1_alg».proof.Proof.K.Body1Fam

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000000 in
/-- What the body's stores leave in the output's staging memref, as pieces (last first), in case B, with the proof that
    from whole staging memrefs — the thresholds' and the weights' blocks at their contents, the output's at
    its running contents (it is read), the scratch at anything, the cells at zero, the table and the HBM array whole — the body runs to
    the continuation holding all of them back as they were and the output's buffer with its pieces written.  The scratch
    is held row by row while the 127 copies are in flight (each copy takes its own row) and joined back before it is read. -/
noncomputable def kernelRun1_B (c : Dev nD) (i : grid1.Coords) (hc0 : ¬ cond1_0 i)
    (arg3 : Memref sig .tc .vmem S1x127x1 .f32) (harg3 : arg3.IsWhole) (arg4 : Memref sig .tc .vmem S1x128x10 .f32) (harg4 : arg4.IsWhole)
    (arg6 : Memref sig .tc .vmem S1x2048x10 .f32) (harg6 : arg6.IsWhole)
    (x3 : Vec F S1x127x1 .f32) (x4 : Vec F S1x128x10 .f32) (x6 : Vec F S1x2048x10 .f32) (tb : HbBuf1 (F := F) c tblM) (fh : HbBuf1 (F := F) c hbM) (hw : RowsOk c tb) :
    { L : List (View.Piece (Elt F) S1x2048x10 .f32) //
      ∀ (W : Waits sig Unit) (K : PUnit → sProp 𝕄),
        iprop(owns (c : Thread nD τ) arg3 fullShare x3 ∗ owns (c : Thread nD τ) arg4 fullShare x4 ∗ owns (c : Thread nD τ) arg6 fullShare x6
            ∗ (∃ d, owns (c : Thread nD τ) scM fullShare d)
            ∗ Pipeline.ownSems0 (Ix := Unit) (Name := ℕ) (U := Pipeline.UD sig nD τ) (Lvl := ℕ) (Val := Elt F) (τ := τ) osem1 c
            ∗ hbPt1 c tblM tb ∗ hbPt1 c hbM fh ∗ owes (c : Thread nD τ) 0 W
            ∗ (iprop(owns (c : Thread nD τ) arg3 fullShare x3 ∗ owns (c : Thread nD τ) arg4 fullShare x4
                ∗ (∃ f, arg6.view.loc (c : Thread nD τ) ↦[arg6.view.set]{fullShare} arg6.view.writes (Elt F) f L)
                ∗ (∃ d, owns (c : Thread nD τ) scM fullShare d)
                ∗ Pipeline.ownSems0 (Ix := Unit) (Name := ℕ) (U := Pipeline.UD sig nD τ) (Lvl := ℕ) (Val := Elt F) (τ := τ) osem1 c
                ∗ hbPt1 c tblM tb ∗ hbPt1 c hbM fh ∗ (∃ W', owes (c : Thread nD τ) 0 W')) -∗ K ⟨⟩))
          ⊢ wp frame (wpE (defs₀ (F := F)) Variants.none c none) Set.univ
              (cc1__phase2_kernel i tblM (Memref.isWhole_whole _) arg3 harg3 arg4 harg4 hbM (Memref.isWhole_whole _) arg6 harg6 scM (Memref.isWhole_whole _) cc1_scratch1) K } := by
  refine ⟨?_, fun W K => ?run⟩
  case run =>
    rw [cc1__phase2_kernel_eq_skeleton]; unfold cc1__phase2_kernel_skel
    rw [ownSems01_eq]
    unfold owns
    iintro ⟨⟨%f3, %hf3, H3⟩, ⟨%f4, %hf4, H4⟩, ⟨%f6, %hf6, H6⟩, ⟨%ds0, %fs0, -, HS0⟩, Hq, Htb, Hfh, HW, Hk⟩
    obtain rfl := harg3.eq_unread hf3; obtain rfl := harg4.eq_unread hf4; obtain rfl := harg6.eq_unread hf6
    -- the array as one read token per cell number, the cells one by one, the scratch row by row
    ihave Hfh' := (hb_toks c fh).1 $$ Hfh
    icases Hfh' with ⟨Hrest, HTs⟩
    ichain_open HTs HT 0 138
    ichain_open Hq Hq 11 127
    ihave HRs := (sc_split scM c fs0).1 $$ HS0
    ichain_open HRs HR 0 127
    -- the 127 copies and their waits; the run stops at the load of the whole scratch
    sl_exec_parts (disch := first | exact hc0 | exact ⟨chk_row _ (hw _ _), chk_row _ (hw _ _)⟩ | exact chk_row _ (hw _ _))
    -- the landed rows joined back into the scratch
    irange_tac "ihave HS0 := (sc_join scM c fs0 (payload_fam% kernelRun1_B [c i tb fh hw] 127)) $$ [" HR 0 127 "]"
    · ichain_close HR 0 127
    sl_exec_parts (disch := first | exact hc0)
    sl_step
    iapply Hk
    isplitl [H3]
    · iexists _; isplitr; · ipureintro; exact harg3.read_unread _
      iexact H3
    isplitl [H4]
    · iexists _; isplitr; · ipureintro; exact harg4.read_unread _
      iexact H4
    isplitl [H6]; · iexists _; iexact H6
    isplitl [HS0]
    · iexists _, _; isplitr; swap; · iexact HS0
      ipureintro; rfl
    isplitl_range Hq 11 127
    · ichain_close Hq 11 127
    isplitl [Htb]; · iexact Htb
    isplitr [HW]
    · iapply (hb_toks c fh).2
      isplitl [Hrest]; · iexact Hrest
      ichain_close HT 0 138
    iexists _; iexact HW

end Cert.Kernel.Hand

end
-- ==== Proof.K.Body1Run.lean ====
/-
  Pallas call 1's body: the two cases' runs, that the pieces each finds for the output block cover it, and what they
  leave there read back.
-/
import proofs.«409293_j18485539242413_1_alg».proof.Proof.K.Body1RunA
import proofs.«409293_j18485539242413_1_alg».proof.Proof.K.Body1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Case A's pieces for the output block (the zero store, then the accumulating store, each the whole block) cover it. -/
theorem cover1_A_2 (c : Dev nD) (i : grid1.Coords) (hc0 : cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (tb : HbBuf1 (F := F) c tblM) (fh : HbBuf1 (F := F) c hbM) (hw : RowsOk c tb) (y : S1x2048x10.Idx) :
    ∃ pc ∈ (kernelRun1_A c i hc0 arg3 harg3 arg4 harg4 arg6 harg6 x3 x4 tb fh hw).1, y ∈ pc.1.set :=
  View.cover_of_tiledL (kernelRun1_A c i hc0 arg3 harg3 arg4 harg4 arg6 harg6 x3 x4 tb fh hw).1 S1x2048x10.size (by sl_kernel_rfl) y

/-- Case B's piece for the output block (the accumulating store of the whole block) covers it. -/
theorem cover1_B_2 (c : Dev nD) (i : grid1.Coords) (hc0 : ¬ cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (x6 : Vec F S1x2048x10 .f32) (tb : HbBuf1 (F := F) c tblM) (fh : HbBuf1 (F := F) c hbM) (hw : RowsOk c tb) (y : S1x2048x10.Idx) :
    ∃ pc ∈ (kernelRun1_B c i hc0 arg3 harg3 arg4 harg4 arg6 harg6 x3 x4 x6 tb fh hw).1, y ∈ pc.1.set :=
  View.cover_of_tiledL (kernelRun1_B c i hc0 arg3 harg3 arg4 harg4 arg6 harg6 x3 x4 x6 tb fh hw).1 S1x2048x10.size (by sl_kernel_rfl) y

/-- What case A leaves in the output's staging buffer: its pieces read back over junk. -/
def out1_A_2 (c : Dev nD) (i : grid1.Coords) (hc0 : cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (tb : HbBuf1 (F := F) c tblM) (fh : HbBuf1 (F := F) c hbM) (hw : RowsOk c tb) : Vec F S1x2048x10 .f32 :=
  VO1_2.read (Elt F) (VO1_2.writes (Elt F) VO1_2.junk (kernelRun1_A c i hc0 arg3 harg3 arg4 harg4 arg6 harg6 x3 x4 tb fh hw).1)

/-- What case B leaves in the output's staging buffer: its pieces read back over junk. -/
def out1_B_2 (c : Dev nD) (i : grid1.Coords) (hc0 : ¬ cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec F S1x127x1 .f32) (x4 : Vec F S1x128x10 .f32) (x6 : Vec F S1x2048x10 .f32) (tb : HbBuf1 (F := F) c tblM) (fh : HbBuf1 (F := F) c hbM) (hw : RowsOk c tb) : Vec F S1x2048x10 .f32 :=
  VO1_2.read (Elt F) (VO1_2.writes (Elt F) VO1_2.junk (kernelRun1_B c i hc0 arg3 harg3 arg4 harg4 arg6 harg6 x3 x4 x6 tb fh hw).1)

end Cert.Kernel.Hand

end
-- ==== Proof.K.Data1.lean ====
/-
  Pallas call 1 as a pipeline's proof data, at a PARAMETER `V` (the TensorCore's buffer contents when the region is
  entered) and at any admissible contents `a1` of the prefetched table (no index map reads it, so the schedule is the same
  at all of them): the two input windows (a tree's thresholds, a tree's leaf weights) hold their blocks at every point;
  the output window (one half's accumulator) is reset at the first tree of a half and otherwise holds what the tree
  before left, so after point `t` it holds the recursion `outsAt1`; the invariant is the scoped rest, the generator
  register, the kernel's 127 transfer cells at zero, the normalised-feature array left in HBM at its entry contents,
  and the table at its entry contents; nothing is owed.
-/
import proofs.«409293_j18485539242413_1_alg».proof.Proof.K.Body1Run
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a1 : (pcfg1 (F := F)).Adm)

/-! ## The schedule of the output window -/

/-- The accumulator is written back exactly after the last tree of each half. -/
theorem flush1_2 : ∀ t : Fin (cfg1 a1).N, ((cfg1 a1).win 2).flush t = true ↔ t.val % 512 = 511 :=
  (by decide +kernel : ∀ t : Fin grid1.N, Pipeline.Window.flushOf grid1 true cc1_transform_3 t = true ↔ t.val % 512 = 511)

theorem N1_eq : (cfg1 a1).N = 1024 := N_1

/-! ## The windows' blocks and staging memrefs -/

/-- Window `w`'s block at point `t`, read off its array as the region finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

theorem before1_0_of {c : Dev nD} (dat : Dat τ (Elt F) Unit ℕ (Pipeline.UD sig nD τ) ℕ (cfg1 a1) c) (hA : dat.A 0 = V c (Pipeline.arrRef spec1 0))
    (hafter : ∀ t, dat.after 0 t = iblk1 V a1 c 0 t) (t : Fin (cfg1 a1).N) (d) : dat.before 0 t d = iblk1 V a1 c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ (cfg1 a1) c) (hA : dat.A 1 = V c (Pipeline.arrRef spec1 1))
    (hafter : ∀ t, dat.after 1 t = iblk1 V a1 c 1 t) (t : Fin (cfg1 a1).N) (d) : dat.before 1 t d = iblk1 V a1 c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin (cfg1 a1).N) : Memref sig .tc .vmem S1x127x1 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S1x128x10 .f32 := spec1_1.stage ((cfg1 a1).slots t 1)
abbrev hs1_1 (t : Fin (cfg1 a1).N) : (ms1_1 a1 t).IsWhole := hstage1_1 (((cfg1 a1).slots t 1).cast nbuf1_1)
abbrev ms1_2 (t : Fin (cfg1 a1).N) : Memref sig .tc .vmem S1x2048x10 .f32 := spec1_2.stage ((cfg1 a1).slots t 2)
abbrev hs1_2 (t : Fin (cfg1 a1).N) : (ms1_2 a1 t).IsWhole := hstage1_2 (((cfg1 a1).slots t 2).cast nbuf1_2)

/-- The kernel body at point `t`, on what the pipeline calls it with. -/
abbrev bodyAt1 (t : Fin (cfg1 a1).N) : Prog (TpuEff nD τ sig (Elt F) Λ₀ .tc) PUnit :=
  cc1__phase2_kernel (grid1.coords t) (Memref.whole main_arg4) (Memref.isWhole_whole _) (spec1_0.stage ((cfg1 a1).slots t 0)) (hstage1_0 (((cfg1 a1).slots t 0).cast nbuf1_0)) (spec1_1.stage ((cfg1 a1).slots t 1)) (hstage1_1 (((cfg1 a1).slots t 1).cast nbuf1_1)) (Memref.whole main_v2) (Memref.isWhole_whole _) (spec1_2.stage ((cfg1 a1).slots t 2)) (hstage1_2 (((cfg1 a1).slots t 2).cast nbuf1_2)) (Memref.whole cc1_scratch0) (Memref.isWhole_whole _) cc1_scratch1

/-! ## What the accumulator holds after each point -/

/-- THE ACCUMULATION: after the first tree of a half the reset-and-add case's contents; after any other tree the add case's,
    over what the tree before left. -/
def outsAt1 (c : Dev nD) (hw : RowsOk c (V c main_arg4)) : (n : ℕ) → n < (cfg1 a1).N → Vec F S1x2048x10 .f32
  | 0, hn => out1_A_2 c (grid1.coords ⟨0, hn⟩) ((hcond1_0 ⟨0, hn⟩).mpr (Nat.zero_mod _)) (ms1_0 a1 ⟨0, hn⟩) (hs1_0 a1 ⟨0, hn⟩) (ms1_1 a1 ⟨0, hn⟩) (hs1_1 a1 ⟨0, hn⟩) (ms1_2 a1 ⟨0, hn⟩) (hs1_2 a1 ⟨0, hn⟩)
      (iblk1 V a1 c 0 ⟨0, hn⟩) (iblk1 V a1 c 1 ⟨0, hn⟩) (V c main_arg4) (V c main_v2) hw
  | n + 1, hn =>
    if h0 : (n + 1) % 512 = 0 then
      out1_A_2 c (grid1.coords ⟨n + 1, hn⟩) ((hcond1_0 ⟨n + 1, hn⟩).mpr h0) (ms1_0 a1 ⟨n + 1, hn⟩) (hs1_0 a1 ⟨n + 1, hn⟩) (ms1_1 a1 ⟨n + 1, hn⟩) (hs1_1 a1 ⟨n + 1, hn⟩) (ms1_2 a1 ⟨n + 1, hn⟩) (hs1_2 a1 ⟨n + 1, hn⟩)
        (iblk1 V a1 c 0 ⟨n + 1, hn⟩) (iblk1 V a1 c 1 ⟨n + 1, hn⟩) (V c main_arg4) (V c main_v2) hw
    else
      out1_B_2 c (grid1.coords ⟨n + 1, hn⟩) (fun h => h0 ((hcond1_0 ⟨n + 1, hn⟩).mp h)) (ms1_0 a1 ⟨n + 1, hn⟩) (hs1_0 a1 ⟨n + 1, hn⟩) (ms1_1 a1 ⟨n + 1, hn⟩) (hs1_1 a1 ⟨n + 1, hn⟩) (ms1_2 a1 ⟨n + 1, hn⟩) (hs1_2 a1 ⟨n + 1, hn⟩)
        (iblk1 V a1 c 0 ⟨n + 1, hn⟩) (iblk1 V a1 c 1 ⟨n + 1, hn⟩) (outsAt1 c hw n (Nat.lt_of_succ_lt hn)) (V c main_arg4) (V c main_v2) hw

theorem outsAt1_A (c : Dev nD) (hw : RowsOk c (V c main_arg4)) (t : Fin (cfg1 a1).N) (h0 : t.val % 512 = 0) :
    outsAt1 V a1 c hw t.val t.isLt = out1_A_2 c (grid1.coords t) ((hcond1_0 t).mpr h0) (ms1_0 a1 t) (hs1_0 a1 t) (ms1_1 a1 t) (hs1_1 a1 t) (ms1_2 a1 t) (hs1_2 a1 t)
      (iblk1 V a1 c 0 t) (iblk1 V a1 c 1 t) (V c main_arg4) (V c main_v2) hw := by
  obtain ⟨n, hn⟩ := t
  cases n with
  | zero => exact rfl
  | succ n => exact (dif_pos h0).trans rfl

theorem outsAt1_B (c : Dev nD) (hw : RowsOk c (V c main_arg4)) (t : Fin (cfg1 a1).N) (h0 : ¬ t.val % 512 = 0) :
    outsAt1 V a1 c hw t.val t.isLt = out1_B_2 c (grid1.coords t) (fun h => h0 ((hcond1_0 t).mp h)) (ms1_0 a1 t) (hs1_0 a1 t) (ms1_1 a1 t) (hs1_1 a1 t) (ms1_2 a1 t) (hs1_2 a1 t)
      (iblk1 V a1 c 0 t) (iblk1 V a1 c 1 t) (outsAt1 V a1 c hw (t.val - 1) (Nat.lt_of_le_of_lt (Nat.sub_le _ _) t.isLt)) (V c main_arg4) (V c main_v2) hw := by
  obtain ⟨n, hn⟩ := t
  cases n with
  | zero => exact (by exfalso; (try dsimp only at h0); exact absurd (Nat.zero_mod _) h0)
  | succ n => exact (dif_neg h0).trans rfl

/-! ## The proof data -/

/-- The HBM operand the body copies rows out of, as a reference: unscoped, no window's array, no table. -/
def H1 : Finset (Ref sig .tc) := {main_v2}

/-- The prefetched table's contents as the region finds it. -/
def tbl1 (c : Dev nD) : pre1.Contents (Elt F) := fun k => V c (pre1.ref k)

/-- The invariant: the library's for a body with transfers of its own out of `H1`, and the table. -/
def Φ1 (c : Dev nD) : sProp 𝕄 :=
  iprop(Pipeline.ΦD osem1 spec1 H1 V c ∗ Pipeline.prefHeld (Ix := Unit) (Name := ℕ) (U := Pipeline.UD sig nD τ) (Lvl := ℕ) pre1 c (fun _ => fullShare) (tbl1 V c))

def dat1 (c : Dev nD) (hw : RowsOk c (V c main_arg4)) : Dat τ (Elt F) Unit ℕ (Pipeline.UD sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => outsAt1 V a1 c hw t.val t.isLt
  Φ _ := Φ1 V c
  q _ := fullShare
  owed _ := 0

theorem A_eq1 (c : Dev nD) (hw : RowsOk c (V c main_arg4)) (w : Fin (cfg1 a1).W) : (dat1 V a1 c hw).A w = V c (Pipeline.arrRef spec1 w) := by
  dsimp only [dat1]

theorem after1_0 (c : Dev nD) (hw) (t : Fin (cfg1 a1).N) : (dat1 V a1 c hw).after 0 t = iblk1 V a1 c 0 t := by dsimp only [dat1]; try rfl
theorem after1_1 (c : Dev nD) (hw) (t : Fin (cfg1 a1).N) : (dat1 V a1 c hw).after 1 t = iblk1 V a1 c 1 t := by dsimp only [dat1]; try rfl
theorem after1_2 (c : Dev nD) (hw) (t : Fin (cfg1 a1).N) : (dat1 V a1 c hw).after 2 t = outsAt1 V a1 c hw t.val t.isLt := by dsimp only [dat1]; try rfl

theorem before1_0 (c : Dev nD) (hw) (t : Fin (cfg1 a1).N) (d) : (dat1 V a1 c hw).before 0 t d = iblk1 V a1 c 0 t :=
  before1_0_of V a1 (dat1 V a1 c hw) (A_eq1 V a1 c hw 0) (after1_0 V a1 c hw) t d
theorem before1_1 (c : Dev nD) (hw) (t : Fin (cfg1 a1).N) (d) : (dat1 V a1 c hw).before 1 t d = iblk1 V a1 c 1 t :=
  before1_1_of V a1 (dat1 V a1 c hw) (A_eq1 V a1 c hw 1) (after1_1 V a1 c hw) t d

/-- At a tree that is not the first of its half the accumulator holds what the tree before left: the point is not the
    first, the buffer was not written back between, the window is live and uncut. -/
theorem before1_2_B (c : Dev nD) (hw) (t : Fin (cfg1 a1).N) (h0 : ¬ t.val % 512 = 0) (d) :
    (dat1 V a1 c hw).before 2 t d = outsAt1 V a1 c hw (t.val - 1) (Nat.lt_of_le_of_lt (Nat.sub_le _ _) t.isLt) := by
  have hN : t.val < 1024 := lt_of_lt_of_eq t.isLt (N1_eq a1)
  rw [Dat.before_out_kept _ 2 rfl t (by omega) (Bool.eq_false_iff.mpr fun h => by have := (flush1_2 a1 _).mp h; dsimp only at this; omega)
    (fun _ => rfl) (fun _ _ => rfl)]
  exact after1_2 V a1 c hw ⟨t.val - 1, Nat.lt_of_le_of_lt (Nat.sub_le _ _) t.isLt⟩

end Cert.Kernel.Hand

end
-- ==== Proof.K.Oblig1.lean ====
/-
  The body obligation of pallas call 1 at every grid point: the two input windows' memrefs hold their blocks; the point is
  the first tree of a half (the accumulator is reset, its prior contents irrelevant) or not (it holds what the tree before
  left); the invariant hands the body its scratch, its 127 cells at zero, the HBM array and the table, and takes them
  back as they were; the core's dues go in at nothing and come back with the point's waits recorded.
-/
import proofs.«409293_j18485539242413_1_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a1 : (pcfg1 (F := F)).Adm)

theorem H1_sub : H1 ⊆ Pipeline.restRefs sig spec1 := by decide

/-- The HBM operand's points-to at the region-entry contents. -/
theorem hbmPts1_eq (c : Dev nD) :
    (bigSep H1 (fun b => ((c : Thread nD τ).loc b) ↦{fullShare} V c b) : sProp 𝕄) = iprop(hbPt1 c hbM (V c main_v2)) := by
  rw [BI.bigSep_eq_bigSepL_of_eq [main_v2] (by decide) (by decide)]; rfl

/-- The table's points-to at the region-entry contents. -/
theorem pref1_eq (c : Dev nD) :
    (Pipeline.prefHeld (Ix := Unit) (Name := ℕ) (U := Pipeline.UD sig nD τ) (Lvl := ℕ) pre1 c (fun _ => fullShare) (tbl1 V c) : sProp 𝕄)
      = iprop(hbPt1 c tblM (V c main_arg4)) := by
  unfold Pipeline.prefHeld
  rw [show (Finset.univ : Finset (Fin 1)) = {(0 : Fin 1)} from by decide, bigSep_singleton]
  rfl

/-- The invariant conjunct by conjunct. -/
theorem Phi1_eq (c : Dev nD) :
    (Φ1 V c : sProp 𝕄)
      = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d))
          ∗ (∃ r, prngReg c r)
          ∗ Pipeline.ownSems0 (Ix := Unit) (Name := ℕ) (U := Pipeline.UD sig nD τ) (Lvl := ℕ) (Val := Elt F) (τ := τ) osem1 c
          ∗ iprop(hbPt1 c hbM (V c main_v2)))
        ∗ iprop(hbPt1 c tblM (V c main_arg4))) := by
  unfold Φ1
  rw [Pipeline.ΦD_eq, scopedRest1_eq, hbmPts1_eq, pref1_eq]; simp only [scM, owns_whole]; try rfl

def bodyPre1 (c : Dev nD) (hw : RowsOk c (V c main_arg4)) (t : Fin (cfg1 a1).N) : sProp 𝕄 :=
  iprop((dat1 V a1 c hw).Φ t.castSucc ∗ (dat1 V a1 c hw).owesAt () t.castSucc
    ∗ (∃ d, owns (c : Thread nD τ) (ms1_0 a1 t) fullShare ((dat1 V a1 c hw).before 0 t d))
    ∗ (∃ d, owns (c : Thread nD τ) (ms1_1 a1 t) fullShare ((dat1 V a1 c hw).before 1 t d))
    ∗ (∃ d, owns (c : Thread nD τ) (ms1_2 a1 t) fullShare ((dat1 V a1 c hw).before 2 t d)))

def bodyPost1 (c : Dev nD) (hw : RowsOk c (V c main_arg4)) (t : Fin (cfg1 a1).N) : sProp 𝕄 :=
  iprop((dat1 V a1 c hw).Φ t.succ ∗ (dat1 V a1 c hw).owesAt () t.succ
    ∗ owns (c : Thread nD τ) (ms1_0 a1 t) fullShare ((dat1 V a1 c hw).after 0 t)
    ∗ owns (c : Thread nD τ) (ms1_1 a1 t) fullShare ((dat1 V a1 c hw).after 1 t)
    ∗ owns (c : Thread nD τ) (ms1_2 a1 t) fullShare ((dat1 V a1 c hw).after 2 t))

set_option maxHeartbeats 1600000 in
theorem sound_body1 (c : Dev nD) (hw : RowsOk c (V c main_arg4)) (t : Fin (cfg1 a1).N) :
    bodyPre1 V a1 c hw t ⊢ wp frame (wpE (defs₀ (F := F)) Variants.none c none) Set.univ (bodyAt1 a1 t) (fun _ => bodyPost1 V a1 c hw t) := by
  unfold bodyPre1 bodyPost1 bodyAt1
  simp only [before1_0, before1_1]
  rw [show (dat1 V a1 c hw).Φ t.succ = (dat1 V a1 c hw).Φ t.castSucc from rfl,
    after1_0, after1_1, after1_2]
  rw [show (dat1 V a1 c hw).Φ t.castSucc = Φ1 V c from rfl, Phi1_eq]
  unfold Dat.owesAt Pipeline.owesWithin
  rw [show (dat1 V a1 c hw).owed t.castSucc = 0 from rfl, show (dat1 V a1 c hw).owed t.succ = 0 from rfl]
  have hN : t.val < 1024 := lt_of_lt_of_eq t.isLt (N1_eq a1)
  by_cases h0 : t.val % 512 = 0
  · rw [outsAt1_A V a1 c hw t h0]
    unfold out1_A_2
    iintro ⟨⟨⟨⟨HR0, HR1, HR2, HR3, HR4, HS0⟩, Hg, Hq0, Hh0⟩, Ht0⟩, ⟨%W, -, HW⟩, ⟨%d0, H0⟩, ⟨%d1, H1⟩, ⟨%d2, H2⟩⟩
    iapply ((kernelRun1_A c (grid1.coords t) ((hcond1_0 t).mpr h0) _ _ _ _ _ _ (iblk1 V a1 c 0 t) (iblk1 V a1 c 1 t) (V c main_arg4) (V c main_v2) hw).2 W _)
    isplitl [H0]; · iexact H0
    isplitl [H1]; · iexact H1
    isplitl [H2]; · iexists _; iexact H2
    isplitl [HS0]; · iexact HS0
    isplitl [Hq0]; · iexact Hq0
    isplitl [Ht0]; · iexact Ht0
    isplitl [Hh0]; · iexact Hh0
    isplitl [HW]; · iexact HW
    iintro ⟨H0, H1, ⟨%e2, H2⟩, HS0, Hq0, Ht0, Hh0, ⟨%W', HW'⟩⟩
    isplitl [HR0 HR1 HR2 HR3 HR4 HS0 Hg Hq0 Hh0 Ht0]
    · isplitl [HR0 HR1 HR2 HR3 HR4 HS0 Hg Hq0 Hh0]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          iexact HS0
        isplitl [Hg]; · iexact Hg
        isplitl [Hq0]; · iexact Hq0
        iexact Hh0
      iexact Ht0
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _ _)
  · rw [outsAt1_B V a1 c hw t h0]
    simp only [before1_2_B V a1 c hw t h0]
    unfold out1_B_2
    iintro ⟨⟨⟨⟨HR0, HR1, HR2, HR3, HR4, HS0⟩, Hg, Hq0, Hh0⟩, Ht0⟩, ⟨%W, -, HW⟩, ⟨%d0, H0⟩, ⟨%d1, H1⟩, ⟨%d2, H2⟩⟩
    iapply ((kernelRun1_B c (grid1.coords t) (fun h => h0 ((hcond1_0 t).mp h)) _ _ _ _ _ _ (iblk1 V a1 c 0 t) (iblk1 V a1 c 1 t) _ (V c main_arg4) (V c main_v2) hw).2 W _)
    isplitl [H0]; · iexact H0
    isplitl [H1]; · iexact H1
    isplitl [H2]; · iexact H2
    isplitl [HS0]; · iexact HS0
    isplitl [Hq0]; · iexact Hq0
    isplitl [Ht0]; · iexact Ht0
    isplitl [Hh0]; · iexact Hh0
    isplitl [HW]; · iexact HW
    iintro ⟨H0, H1, ⟨%e2, H2⟩, HS0, Hq0, Ht0, Hh0, ⟨%W', HW'⟩⟩
    isplitl [HR0 HR1 HR2 HR3 HR4 HS0 Hg Hq0 Hh0 Ht0]
    · isplitl [HR0 HR1 HR2 HR3 HR4 HS0 Hg Hq0 Hh0]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          iexact HS0
        isplitl [Hg]; · iexact Hg
        isplitl [Hq0]; · iexact Hq0
        iexact Hh0
      iexact Ht0
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The library's body obligation, at every point. -/
theorem body_obligation1 (c : Dev nD) (hw : RowsOk c (V c main_arg4)) :
    BodyObligation (dat1 (F := F) V a1 c hw) (defs₀ (F := F)) Variants.none () Set.univ := fun t => by
  rw [bigSep_W1, bigSep_W1]
  exact sound_body1 V a1 c hw t

end Cert.Kernel.Hand

end
-- ==== Proof.K.Run.lean ====
/-
  The whole program as its seven items — three host stretches, pallas call 0, a host stretch, pallas call 1, a host
  stretch — over the thread state "every unscoped buffer at the boundary's contents, the generator register at some
  state, nothing owed": the contents the two regions leave (call 0: the normalised features in its output array; call 1:
  the two halves' sums in its), the tables' admissible contents, both pipelines' proof data at their entry contents, the
  regions' entry and exit bookkeeping, and the run: every weakly fair execution ends with every unscoped buffer at the
  last valuation.
-/
import proofs.«409293_j18485539242413_1_alg».proof.Proof.K.RunCond
import proofs.«409293_j18485539242413_1_alg».proof.Proof.K.Data0
import proofs.«409293_j18485539242413_1_alg».proof.Proof.K.Oblig1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the regions' entries, and what the regions leave -/

/-- The TensorCore's buffers when pallas call 0 is entered. -/
abbrev Vin0 : (c : Dev nD) → (b : Ref sig .tc) → Buf (Elt F) ((c : Thread nD τ).loc b) := fun c b => V3 m c b

/-- What pallas call 0 leaves in its output array. -/
def outs4 (c : Dev nD) : Buf (Elt F) ((c : Thread nD τ).loc main_v2) := (dat0 (Vin0 m) c).arrAt 2 cfg0.N

/-- The contents the regions leave, pallas call 0's part only (what call 1's entry contents are stated over). -/
def outsA : Outs (F := F) := fun _ =>
  Function.update (β := fun r : Ref sig .tc => (c : Dev nD) → Buf (Elt F) ((c : Thread nD τ).loc r)) (fun r c => V3 m c r) main_v2 (fun c => outs4 m c)

/-- The TensorCore's buffers when pallas call 1 is entered. -/
abbrev Vin1 : (c : Dev nD) → (b : Ref sig .tc) → Buf (Elt F) ((c : Thread nD τ).loc b) := fun c b => V5 m (outsA m) c b

/-- The table's contents (the program runs on ONE device), admissible (the side condition is empty). -/
def adm1 : (pcfg1 (F := F)).Adm := ⟨tbl1 (Vin1 m) (0 : Dev nD), (show ok1 (F := F) (tbl1 (Vin1 m) (0 : Dev nD)) from by unfold ok1; trivial)⟩

def adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

variable (hH : ∀ c : Dev nD, RowsOk c (Vin1 m c main_arg4))

/-- What pallas call 1 leaves in its output array. -/
def outs6 (c : Dev nD) : Buf (Elt F) ((c : Thread nD τ).loc main_v4) := (dat1 (Vin1 m) (adm1 m) c (hH c)).arrAt 2 (cfg1 (adm1 m)).N

/-- The contents the regions leave. -/
def outs : Outs (F := F) := fun J =>
  Function.update (β := fun r : Ref sig .tc => (c : Dev nD) → Buf (Elt F) ((c : Thread nD τ).loc r)) (outsA m J) main_v4 (fun c => outs6 m hH c)

theorem outs_v2 (J : ℕ) (c : Dev nD) : outs m hH J main_v2 c = outs4 m c := by
  unfold outs outsA
  rw [Function.update_of_ne (by decide), Function.update_self]
theorem outs_v4 (J : ℕ) (c : Dev nD) : outs m hH J main_v4 c = outs6 m hH c := by
  unfold outs
  rw [Function.update_self]
theorem outsA_v2 (J : ℕ) (c : Dev nD) : outsA m J main_v2 c = outs4 m c := by
  unfold outsA
  rw [Function.update_self]

/-- Pallas call 1's entry contents do not depend on what it leaves itself. -/
theorem V4_outs (c : Dev nD) : V4 m (outs m hH) c = V4 m (outsA m) c := by
  unfold V4; rw [outs_v2, outsA_v2]
theorem V5_outs (c : Dev nD) : V5 m (outs m hH) c = V5 m (outsA m) c := by
  unfold V5; rw [V4_outs]

/-! ## The proof data family -/

def pdats : (p : Fin 2) → (c : Dev nD) → Dat τ (Elt F) Unit ℕ (Pipeline.UD sig nD τ) ℕ (Pipeline.pin (pcfgs (F := F)) (adm m) p) c
  | ⟨0, _⟩ => fun c => dat0 (Vin0 m) c
  | ⟨1, _⟩ => fun c => dat1 (Vin1 m) (adm1 m) c (hH c)
  | ⟨_ + 2, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The contents at the regions' exits -/

/-- The TensorCore's buffers when pallas call 0 is left. -/
abbrev Vout0 : (c : Dev nD) → (b : Ref sig .tc) → Buf (Elt F) ((c : Thread nD τ).loc b) := fun c b => V4 m (outs m hH) c b
/-- The TensorCore's buffers when pallas call 1 is left. -/
abbrev Vout1 : (c : Dev nD) → (b : Ref sig .tc) → Buf (Elt F) ((c : Thread nD τ).loc b) := fun c b => V6 m (outs m hH) c b

theorem V4_v2 (c : Dev nD) : V4 m (outs m hH) c main_v2 = outs4 m c := by
  simp only [V4, Function.update_self, outs_v2]

theorem hF0 (c : Dev nD) : ∀ w : Fin cfg0.W, (dat0 (Vin0 m) c).arrAt w cfg0.N = Vout0 m hH c (Pipeline.arrRef spec0 w)
  | ⟨0, _⟩ => (((dat0 (Vin0 m) c).arrAt_in 0 rfl _).trans (A_eq0 (Vin0 m) c 0)).trans (V4_of m (outs m hH) c main_v1 (by decide)).symm
  | ⟨1, _⟩ => (((dat0 (Vin0 m) c).arrAt_in 1 rfl _).trans (A_eq0 (Vin0 m) c 1)).trans (V4_of m (outs m hH) c main_v0 (by decide)).symm
  | ⟨2, _⟩ => (V4_v2 m hH c).symm
  | ⟨_ + 3, h⟩ => absurd h (Nat.not_lt.2 (Nat.le_add_left _ _))

theorem hrest0 (c : Dev nD) : ∀ b, b ∉ Finset.univ.image (Pipeline.arrRef spec0) → Vout0 m hH c b = Vin0 m c b :=
  fun b hb => V4_of m (outs m hH) c b (by
    simp only [List.mem_singleton]; rintro rfl
    exact hb (Finset.mem_image.mpr ⟨2, Finset.mem_univ _, rfl⟩))

theorem V6_v4 (c : Dev nD) : V6 m (outs m hH) c main_v4 = outs6 m hH c := by
  simp only [V6]
  rw [Function.update_of_ne (StableHlo.devRef_ne_of_ne (by decide) : (Proc.devRef .tc main_v4 : DevRef τ sig) ≠ Proc.devRef .tc main_v2), Function.update_self, outs_v4]

theorem V6_v2 (c : Dev nD) : V6 m (outs m hH) c main_v2 = outs4 m c := by
  simp only [V6, Function.update_self, outs_v2]

theorem V5_v2 (c : Dev nD) : V5 m (outsA m) c main_v2 = outs4 m c := by
  rw [V5_of m (outsA m) c main_v2 (by decide)]
  simp only [V4, Function.update_self, outsA_v2]

theorem hF1 (c : Dev nD) : ∀ w : Fin (cfg1 (adm1 m)).W, (dat1 (Vin1 m) (adm1 m) c (hH c)).arrAt w (cfg1 (adm1 m)).N = Vout1 m hH c (Pipeline.arrRef spec1 w)
  | ⟨0, _⟩ => (((dat1 (Vin1 m) (adm1 m) c (hH c)).arrAt_in 0 rfl _).trans (A_eq1 (Vin1 m) (adm1 m) c (hH c) 0)).trans
      ((V6_of m (outs m hH) c main_v3 (by decide)).trans (congrFun (V5_outs m hH c) _)).symm
  | ⟨1, _⟩ => (((dat1 (Vin1 m) (adm1 m) c (hH c)).arrAt_in 1 rfl _).trans (A_eq1 (Vin1 m) (adm1 m) c (hH c) 1)).trans
      ((V6_of m (outs m hH) c main_arg3 (by decide)).trans (congrFun (V5_outs m hH c) _)).symm
  | ⟨2, _⟩ => (V6_v4 m hH c).symm
  | ⟨_ + 3, h⟩ => absurd h (Nat.not_lt.2 (Nat.le_add_left _ _))

theorem hrest1 (c : Dev nD) : ∀ b, b ∉ Finset.univ.image (Pipeline.arrRef spec1) → Vout1 m hH c b = Vin1 m c b := fun b hb => by
  by_cases hb2 : b = main_v2
  · subst hb2; exact (V6_v2 m hH c).trans (V5_v2 m c).symm
  · refine (V6_of m (outs m hH) c b ?_).trans (congrFun (V5_outs m hH c) _)
    simp only [List.mem_cons, List.mem_singleton, List.not_mem_nil, or_false, not_or]
    refine ⟨?_, hb2⟩
    rintro rfl
    exact hb (Finset.mem_image.mpr ⟨2, Finset.mem_univ _, rfl⟩)

/-! ## The regions as segments -/

set_option backward.isDefEq.respectTransparency.types false in
/-- PALLAS CALL 0 over the thread state: entered from every unscoped buffer at the third valuation, left at the fourth.
    Its arrays split out of the unscoped buffers and put back at the exit contents; the generator register into the
    class invariant and out; nothing owed; no semaphore of the kernel's own. -/
def reg0 : RegionSeg (pcfgs (F := F)) (adm m) (pdats m hH) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V3 m c) ∗ E 0 c)
  post c := iprop(StableHlo.held (c : Thread nD τ) (Pipeline.ucRefs τ sig) (V4 m (outs m hH) c) ∗ E 1 c)
  X c := iprop(∃ r, prngReg c r)
  Y c := iprop(∃ r, prngReg c r)
  Z c := Pipeline.unscopedRest (Ix := Unit) (Name := ℕ) (U := Pipeline.UD sig nD τ) (Lvl := ℕ) spec0 c (Vin0 m c)
  hentry c := by
    rw [Pipeline.ownSems0_none]
    have hsplit := Pipeline.arrays_of_unscopedBufs (p := 0) (pcfgs (F := F)) (adm m) (pdats m hH) (launch0 (F := F)).win (launch0 (F := F)).arr_whole c
      ((pdats m hH 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hH 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hH) ((pdats m hH 0 c).share_full fun _ => rfl)
      (Vin0 m c) (Vout0 m hH c) ((pdats m hH 0 c).arrAt · cfg0.N) (hF0 m hH c) (hrest0 m hH c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two unscoped buffers pallas call 1's body is handed besides its windows: the HBM array it copies rows out of and
    the table. -/
def H2 : Finset (Ref sig .tc) := {main_v2, main_arg4}
theorem H2_sub : H2 ⊆ Pipeline.restRefs sig spec1 := by decide

theorem H2_pts (c : Dev nD) (W : (b : Ref sig .tc) → Buf (Elt F) ((c : Thread nD τ).loc b)) :
    (bigSep H2 (fun b => ((c : Thread nD τ).loc b) ↦{fullShare} W b) : sProp 𝕄)
      = iprop(hbPt1 c hbM (W main_v2) ∗ hbPt1 c tblM (W main_arg4)) := by
  rw [BI.bigSep_eq_bigSepL_of_eq [main_v2, main_arg4] (by decide) (by decide)]; rfl

/-- The table's contents on any core are the admissible contents (there is one core). -/
theorem tbl_adm (c : Dev nD) : tbl1 (Vin1 m) c = (adm1 (F := F) m).1 := by
  obtain rfl : c = 0 := Subsingleton.elim _ _; rfl

theorem rest_split1 (c : Dev nD) :
    (Pipeline.unscopedRest (Ix := Unit) (Name := ℕ) (U := Pipeline.UD sig nD τ) (Lvl := ℕ) spec1 c (Vin1 m c) : sProp 𝕄)
      = iprop(iprop(hbPt1 c hbM (Vin1 m c main_v2) ∗ hbPt1 c tblM (Vin1 m c main_arg4))
          ∗ (bigSep (Pipeline.restRefs sig spec1 \ H2) fun b => (((c : Thread nD τ)).loc b) ↦{fullShare} Vin1 m c b)) := by
  rw [← H2_pts]; unfold Pipeline.unscopedRest; exact BI.bigSep_sdiff_split H2_sub

set_option backward.isDefEq.respectTransparency.types false in
/-- PALLAS CALL 1 over the thread state: entered from every unscoped buffer at the fifth valuation, left at the sixth.
    Its arrays split out of the unscoped buffers and put back at the exit contents; the generator register, the kernel's
    own 127 cells, the HBM array and the table into the invariant and out, as they were; nothing owed. -/
def reg1 : RegionSeg (pcfgs (F := F)) (adm m) (pdats m hH) () defs₀ 𝒱₀ L lv 1 where
  win := (launch1 (F := F)).win.to₀
  block_pos := (launch1 (F := F)).block_pos
  stage_whole := (launch1 (F := F)).stage_whole
  K := Fin 127
  osem := osem1
  ho := ownSemFacts1
  hbody c := (body_obligation1 (Vin1 m) (adm1 m) c (hH c)).loose
  hwaits := Pipeline.hwaits_of_owed_zero _ _ _ _ L lv 1 fun _ _ => rfl
  pre c := iprop(StableHlo.held (c : Thread nD τ) (Pipeline.ucRefs τ sig) (V5 m (outs m hH) c) ∗ E 1 c)
  post c := iprop(StableHlo.held (c : Thread nD τ) (Pipeline.ucRefs τ sig) (V6 m (outs m hH) c) ∗ E 2 c)
  X c := iprop((∃ r, prngReg c r) ∗ Pipeline.ownSems0 (Ix := Unit) (Name := ℕ) (U := Pipeline.UD sig nD τ) (Lvl := ℕ) (Val := Elt F) (τ := τ) osem1 c ∗ hbPt1 c hbM (Vin1 m c main_v2))
  Y c := iprop((∃ r, prngReg c r) ∗ hbPt1 c hbM (Vin1 m c main_v2) ∗ hbPt1 c tblM (Vin1 m c main_arg4))
  Z c := bigSep (Pipeline.restRefs sig spec1 \ H2) fun b => (((c : Thread nD τ)).loc b) ↦{fullShare} Vin1 m c b
  hentry c := by
    have hsplit := Pipeline.arrays_of_unscopedBufs (p := 1) (pcfgs (F := F)) (adm m) (pdats m hH) (launch1 (F := F)).win (launch1 (F := F)).arr_whole c
      ((pdats m hH 1 c).share_full fun _ => rfl) (Vin1 m c) fun _ => rfl
    rw [Pipeline.unscopedBufs_held] at hsplit
    rw [V5_outs]
    iintro ⟨⟨Hub, Hp, HO⟩, Hos, -⟩
    ihave H := hsplit $$ Hub
    icases H with ⟨Ha, Hrest⟩
    ihave H' := (Entails.of_eq (rest_split1 m c)) $$ Hrest
    icases H' with ⟨⟨HH, HT⟩, HR⟩
    imodintro
    isplitl [Ha]; · iexact Ha
    isplitl [HT]
    · rw [show (adm (F := F) m 1).1 = tbl1 (Vin1 m) c from (tbl_adm m c).symm]
      iapply (Entails.of_eq (pref1_eq (Vin1 m) c).symm); iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hH 1 c).Φ 0 = Φ1 (Vin1 m) c from rfl]; unfold Φ1
    rw [Pipeline.ΦD_eq, hbmPts1_eq, show (adm (F := F) m 1).1 = tbl1 (Vin1 m) c from (tbl_adm m c).symm]
    iintro ⟨⟨Hp, Ho, HH⟩, HT, Hr⟩
    isplitr [HT]
    · isplitl [Hr]; · iexact Hr
      isplitl [Hp]; · iexact Hp
      isplitl [Ho]; · iexact Ho
      iexact HH
    iexact HT
  hout c := by
    rw [show (pdats m hH 1 c).Φ (Fin.last _) = Φ1 (Vin1 m) c from rfl]; unfold Φ1
    rw [Pipeline.ΦD_eq, hbmPts1_eq, pref1_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hH) ((pdats m hH 1 c).share_full fun _ => rfl)
      (Vin1 m c) (Vout1 m hH c) ((pdats m hH 1 c).arrAt · (cfg1 (adm1 m)).N) (hF1 m hH c) (hrest1 m hH c)
    rw [Pipeline.unscopedBufs_held] at hjoin
    iintro ⟨Ha, HO, ⟨HY, HH, HT⟩, HR⟩
    ihave Hrest := (Entails.of_eq (rest_split1 m c).symm) $$ [HH HT HR]
    · isplitl [HH HT]
      · isplitl [HH]; · iexact HH
        iexact HT
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN. At the compiled mesh, from any memory with zero counters whose table rows are inside the feature array:
    every weakly fair execution of the program terminates, nothing faulting, and every final state holds every unscoped
    buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V7 m (outs m hH) c b) :=
  run_cond m embL () 𝒱₀ L lv (fun _ _ => rfl) ρ (outs m hH) (adm m) (pdats m hH)
    (O₀ := 0) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m hH) (hpre0 := fun _ => .rfl) (hpost0 := fun _ => .rfl)
    (R1 := reg1 m hH) (hpre1 := fun _ => .rfl) (hpost1 := fun _ => .rfl)

end Cert.Kernel.Hand

end
-- ==== Proof.K.Frame.lean ====
/-
  The frame of the program from its run: under the precondition's range of the table's words every weakly fair execution
  terminates, nothing faulting, and the five argument arrays end as launched — no host stretch writes one and no region
  may change one, so the last valuation at an argument walks back to the launch memory.
-/
import proofs.«409293_j18485539242413_1_alg».proof.Proof.K.Run

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The table reaches pallas call 1 as launched. -/
theorem Vin1_arg4 (c : Dev nD) : Vin1 m c main_arg4 = m ((c : Thread nD τ).loc main_arg4) :=
  (V5_of m (outsA m) c main_arg4 (by decide)).trans <| (V4_of m (outsA m) c main_arg4 (by decide)).trans <|
    (V3_of m c main_arg4 (by decide)).trans <| (V2_of m c main_arg4 (by decide)).trans <| (V1_of m c main_arg4 (by decide)).trans rfl

/-- The table's words in range put every row the body copies inside the feature array. -/
theorem rows_ok (hr : ∀ (c : Dev nD) (i : S1024x127.Idx), ((m ((c : Thread nD τ).loc main_arg4) : S1024x127.Idx → BitVec 32) i).toNat < 26009) :
    ∀ c : Dev nD, RowsOk c (Vin1 m c main_arg4) := fun c => by
  rw [Vin1_arg4]; exact rowsOk_of_range c _ (hr c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance, under the table's range. -/
theorem frame (hr : ∀ (c : Dev nD) (i : S1024x127.Idx), ((m ((c : Thread nD τ).loc main_arg4) : S1024x127.Idx → BitVec 32) i).toNat < 26009) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V7_main_arg0 m _ c),
     (h c _ (mem_uc main_arg1 (by decide))).trans (V7_main_arg1 m _ c),
     (h c _ (mem_uc main_arg2 (by decide))).trans (V7_main_arg2 m _ c),
     (h c _ (mem_uc main_arg3 (by decide))).trans (V7_main_arg3 m _ c),
     (h c _ (mem_uc main_arg4 (by decide))).trans (V7_main_arg4 m _ c)⟩)
    (run_main m ρ (rows_ok m hr))

end Cert.Kernel.Hand

end
-- ==== Proof.KI.KHost.lean ====
/-
  The host operations of the entry function, each read at one index.

  Before the first kernel the weight array is padded with 103 rows at its end, and the sample array is transposed;
  before the second the threshold array gets a trailing axis of extent one; after it the two halves of the result
  are added up from zero.  Read at an index: a padded row below the old end is the operand's row, whatever the
  padding value; a transposed matrix at (k, b) is the operand at (b, k); the array with the new unit axis at
  (t, n, 0) is the operand at (t, n); the sum over the leading axis of extent two at (b, e) is the sum of the two
  halves at (b, e).
-/
import proofs.«409293_j18485539242413_1_alg».proof.Proof.Gen.KernelIdeal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Mathlib.Algebra.BigOperators.Fin

noncomputable section

namespace Cert.KernelIdeal.HandVal

open Cert.KernelIdeal Cert.KernelIdeal.Gen
open Idealize.ShloMosaic Idealize.ShloMosaic.ValueIdx

section Layout
variable {α : Type}

/-- The padded weight array at a row below the old end is the weight array's row: on both axes the low padding is
    zero and there is no interior padding, so the index is inside the operand and the padding value is not read. -/
theorem pad_W_apply (Wa : S26009x256.Idx → α) {u : Shape} (v : u.Idx → α)
    (h : S26009x256.Pads (![0, 0] : Fin 2 → Nat) ![103, 0] ![0, 0] S26112x256) (hu : 0 < u.numel)
    (f : Fin 26009) (hf : f.val < 26112) (k : Fin 256) :
    pad S26112x256 ![0, 0] ![103, 0] ![0, 0] Wa v h hu (ix2 ⟨f.val, hf⟩ k) = Wa (ix2 f k) :=
  pad_apply_of_inside _ _ _ Wa v h hu _ (ix2 f k) fun a =>
    match a with
    | ⟨0, _⟩ => by show f.val = 0 + f.val * (0 + 1); omega
    | ⟨1, _⟩ => by show k.val = 0 + k.val * (0 + 1); omega

/-- The transposed sample array at (k, b) is the sample array at (b, k). -/
theorem transpose_x_apply (xa : S2048x256.Idx → α) (h : S2048x256.Transposes [1, 0] S256x2048)
    (k : Fin 256) (b : Fin 2048) :
    transpose S256x2048 [1, 0] xa h (ix2 k b) = xa (ix2 b k) :=
  transpose_ix2_apply xa h k b

/-- The threshold array with a trailing unit axis, at (t, n, 0), is the threshold array at (t, n). -/
theorem bcast_thr_apply (ta : S1024x127.Idx → α)
    (h : S1024x127.BroadcastsInDim S1024x127x1 (![0, 1] : Fin 2 → Fin S1024x127x1.rank))
    (t : Fin 1024) (n : Fin 127) (z : Fin 1) :
    broadcastInDim S1024x127x1 ![0, 1] h ta (ix3 t n z) = ta (ix2 t n) :=
  broadcastInDim_apply _ h ta _ (ix2 t n) fun a =>
    match a with
    | ⟨0, _⟩ => rfl
    | ⟨1, _⟩ => rfl

end Layout

/-- The sum of the two halves from a zero initial value, at (b, e): the first half's entry plus the second's. -/
theorem reduce_halves_apply (y : FVec Ideal S2x2048x10 .f32) (h : S2x2048x10.ReducesTo [0] S2048x10)
    (hu : 0 < S_.numel) (b : Fin 2048) (e : Fin 10) :
    (Host.reduceAdd y (constant (F := Ideal) S_ .f32 0x00000000#32) h hu : FVec Ideal S2048x10 .f32) (ix2 b e)
      = (y (ix3 (0 : Fin 2) b e) : EReal) + (y (ix3 (1 : Fin 2) b e) : EReal) := by
  have hr : S2x2048x10.Reduces [0] S2048x10 := by decide
  refine (hostReduceAdd_apply y _ h hu (ix2 b e)).trans ?_
  refine (Ideal.hostReduceAdd_single h hr y _ (ix2 b e)).trans ?_
  rw [constant_apply, Ideal.ofBits_zero_f32, zero_add]
  refine (Fin.sum_univ_two _).trans ?_
  congr 1
  · refine congrArg y ?_
    funext a; refine Fin.ext ?_
    match a with
    | ⟨0, _⟩ => rfl
    | ⟨1, _⟩ => rfl
    | ⟨2, _⟩ => rfl
  · refine congrArg y ?_
    funext a; refine Fin.ext ?_
    match a with
    | ⟨0, _⟩ => rfl
    | ⟨1, _⟩ => rfl
    | ⟨2, _⟩ => rfl

end Cert.KernelIdeal.HandVal

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.KI.Val0.lean ====
/-
  The value of the first kernel's block, index by index, over the extended reals.

  The body multiplies the 512×256 weight block by the 256×2048 block of transposed samples (a plain matrix product
  into a zero accumulator), sums each row of the product over the 2048 samples and divides by 2048 (the mean), subtracts
  the mean from the row, sums the squares of the centred row and divides by 2048 (the variance), and multiplies the
  centred row by the reciprocal square root of the variance plus a small offset.  Read at row `r` and sample `b`
  every layout step (a row sum kept as a column, a column spread along the rows) reads the row's own entry, so the
  block at `(r, b)` is the normalised projection of sample `b` on row `r` of the weight block.
-/
import proofs.«409293_j18485539242413_1_alg».proof.Proof.KI.Body0
import proofs.«409293_j18485539242413_1_alg».proof.Proof.Spec
import proofs.«409293_j18485539242413_1_alg».proof.Proof.LibColumn
import proofs.«409293_j18485539242413_1_alg».proof.Proof.LibDot
import Idealize.ShloMosaic.PureOps.Ideal.Laws
import Idealize.ShloMosaic.Lib.ValueIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.ValueIdx

/-! ## The mathematics of one block -/

section Math
variable (x0 : Vec Ideal S256x2048 .f32) (x1 : Vec Ideal S512x256 .f32)

/-- Row `r` of the weight block against sample `b`: the weight is the left factor, as the kernel multiplies. -/
def projT (r : Fin 512) (b : Fin 2048) : EReal := ∑ k : Fin 256, (x1 (ix2 r k) : EReal) * (x0 (ix2 k b) : EReal)
/-- Its mean over the samples. -/
def meanT (r : Fin 512) : EReal := Ideal.div (∑ b : Fin 2048, projT x0 x1 r b) Cert.Spec.c2048
/-- The centred projection. -/
def cenT (r : Fin 512) (b : Fin 2048) : EReal := projT x0 x1 r b - meanT x0 x1 r
/-- The variance over the samples. -/
def varT (r : Fin 512) : EReal := Ideal.div (∑ b : Fin 2048, cenT x0 x1 r b * cenT x0 x1 r b) Cert.Spec.c2048

end Math

/-! ## The layout steps at an index -/

/-- The sum along the rows, kept as a column: at `(r, ·)` the sum of row `r`. -/
theorem rowSumCol_apply (v : FVec Ideal S512x2048 .f32) (r : Fin 512) (u : Fin 1) :
    shapeCast S512x1 (multiReduction (F := Ideal) .add [1] S512 v 0x00000000#32 reduces_S512x2048_S512 (.inl rfl) rfl)
        shapeCasts_S512_S512x1 (ix2 r u) = ∑ b : Fin 2048, v (ix2 r b) := by
  refine (Cert.LibColumn.shapeCast_a_a1_apply _ shapeCasts_S512_S512x1 r u).trans ?_
  refine (Ideal.multiReduction_add_single v _ reduces_S512x2048_S512 _ _ (ValueIdx.ix1 r)).trans ?_
  refine Finset.sum_congr rfl fun b _ => congrArg v ?_
  funext a; refine Fin.ext ?_
  match a with
  | ⟨0, _⟩ => rfl
  | ⟨1, _⟩ => rfl

/-- A column spread along the rows: at `(r, b)` the column's entry `r`. -/
theorem colBroadcast_apply (w : FVec Ideal S512x1 .f32) (r : Fin 512) (b : Fin 2048) :
    broadcastTo S512x2048 w broadcasts_S512x1_S512x2048 (ix2 r b) = w (ix2 r (0 : Fin 1)) :=
  Cert.LibColumn.broadcastTo_a1_ab_apply w broadcasts_S512x1_S512x2048 r b

/-! ## The block's stages as vectors -/

section Stages
variable (x0 : Vec Ideal S256x2048 .f32) (x1 : Vec Ideal S512x256 .f32)

/-- The matrix product of the weight block and the transposed samples. -/
def mm : FVec Ideal S512x2048 .f32 :=
  matmul dot_S512x256_S256x2048_S512x2048_1_0_0_1_n_n none
    (shapeCast S512x256 x1 shapeCasts_S512x256_S512x256 : FVec Ideal S512x256 .f32)
    (shapeCast S256x2048 x0 shapeCasts_S256x2048_S256x2048 : FVec Ideal S256x2048 .f32)
    (constant S512x2048 .f32 0x00000000#32)

/-- The row sums of a 512×2048 vector divided by 2048, as a column. -/
def meanCol (v : FVec Ideal S512x2048 .f32) : FVec Ideal S512x1 .f32 :=
  divf (shapeCast S512x1 (multiReduction .add [1] S512 v 0x00000000#32 reduces_S512x2048_S512 (.inl rfl) rfl) shapeCasts_S512_S512x1)
    (broadcast S512x1 (Scalar.ofBits .f32 0x45000000#32))

/-- The product minus its row means. -/
def cenV : FVec Ideal S512x2048 .f32 :=
  subf (mm x0 x1) (broadcastTo S512x2048 (meanCol (mm x0 x1)) broadcasts_S512x1_S512x2048)

/-- The payload is the centred product times the reciprocal root of its mean square plus the offset, spread along the rows. -/
theorem k0_pay1_eq :
    k0_pay1 (F := Ideal) x0 x1 = mulf (cenV x0 x1) (broadcastTo S512x2048
      (rsqrt (addf (meanCol (mulf (cenV x0 x1) (cenV x0 x1))) (broadcast S512x1 (Scalar.ofBits .f32 0x3727C5AC#32))))
      broadcasts_S512x1_S512x2048) := rfl

theorem mm_apply (r : Fin 512) (b : Fin 2048) : mm x0 x1 (ix2 r b) = projT x0 x1 r b := by
  unfold mm projT
  rw [shapeCast_self, shapeCast_self]
  exact Cert.LibDot.matmul_plain_apply dot_S512x256_S256x2048_S512x2048_1_0_0_1_n_n rfl rfl rfl rfl rfl rfl none x1 x0 r b

theorem meanCol_apply (v : FVec Ideal S512x2048 .f32) (r : Fin 512) (u : Fin 1) :
    meanCol v (ix2 r u) = Ideal.div (∑ b : Fin 2048, v (ix2 r b)) Cert.Spec.c2048 := by
  unfold meanCol
  refine (divf_apply _ _ _).trans ?_
  rw [rowSumCol_apply v r u]
  rfl

theorem cenV_apply (r : Fin 512) (b : Fin 2048) : cenV x0 x1 (ix2 r b) = cenT x0 x1 r b := by
  unfold cenV cenT meanT
  refine (subf_apply _ _ _).trans ?_
  rw [colBroadcast_apply, meanCol_apply, mm_apply]
  simp only [mm_apply]

/-- THE PAYLOAD AT AN INDEX: the normalised projection of sample `b` on row `r`. -/
theorem k0_pay1_apply (r : Fin 512) (b : Fin 2048) :
    k0_pay1 (F := Ideal) x0 x1 (ix2 r b) = cenT x0 x1 r b * Ideal.rsqrt (varT x0 x1 r + Cert.Spec.eps) := by
  rw [k0_pay1_eq]
  refine (mulf_apply _ _ _).trans ?_
  rw [colBroadcast_apply, cenV_apply]
  refine congrArg (cenT x0 x1 r b * ·) ?_
  show Ideal.rsqrt (meanCol (mulf (cenV x0 x1) (cenV x0 x1)) (ix2 r (0 : Fin 1)) + Cert.Spec.eps) = _
  rw [meanCol_apply]
  unfold varT
  simp only [mulf_apply, cenV_apply]

end Stages

/-! ## The output buffer after the body, at an index -/

/-- The zero offsets of a whole-buffer rectangle. -/
theorem hz2 : (![0, 0] : Fin 2 → Nat) = fun _ => 0 := funext fun a => by fin_cases a <;> rfl

/-- The body's one store covers the buffer and its two loads read the whole input blocks, so the buffer holds the
    payload of the two blocks: at `(r, b)` the normalised projection of sample `b` on row `r`. -/
theorem out0_2_apply (x0 : Vec Ideal S256x2048 .f32) (x1 : Vec Ideal S512x256 .f32) (r : Fin 512) (b : Fin 2048) :
    out0_2 (F := Ideal) x0 x1 (ix2 r b) = cenT x0 x1 r b * Ideal.rsqrt (varT x0 x1 r + Cert.Spec.eps) := by
  unfold out0_2
  rw [View.canon_unit_zero hz2, View.ld_unit_zero (S := S256x2048) hz2, View.ld_unit_zero (S := S512x256) hz2]
  exact k0_pay1_apply x0 x1 r b

/-! ## Against the specification

  When the sample block is the transposed sample array and row `r` of the weight block is row `f` of the weight
  array, the block's projection is the specification's with the factors of each product exchanged, and the mean, the
  centred value, the variance and the normalised value follow term by term. -/

section Spec
variable (x : Fin 2048 → Fin 256 → EReal) (W : Fin 26009 → Fin 256 → EReal)
  (x0 : Vec Ideal S256x2048 .f32) (x1 : Vec Ideal S512x256 .f32) (r : Fin 512) (f : Fin 26009)
  (hx : ∀ (k : Fin 256) (b : Fin 2048), x0 (ix2 k b) = x b k) (hW : ∀ k : Fin 256, x1 (ix2 r k) = W f k)
include hx hW

theorem projT_eq_proj (b : Fin 2048) : projT x0 x1 r b = Cert.Spec.proj x W f b := by
  unfold projT Cert.Spec.proj
  refine Finset.sum_congr rfl fun k _ => ?_
  rw [hW k, hx k b]
  exact mul_comm _ _

theorem meanT_eq_mean : meanT x0 x1 r = Cert.Spec.mean x W f := by
  unfold meanT Cert.Spec.mean
  simp only [projT_eq_proj x W x0 x1 r f hx hW]

theorem cenT_eq_cen (b : Fin 2048) : cenT x0 x1 r b = Cert.Spec.cen x W f b := by
  unfold cenT Cert.Spec.cen
  rw [projT_eq_proj x W x0 x1 r f hx hW, meanT_eq_mean x W x0 x1 r f hx hW]

theorem varT_eq_var : varT x0 x1 r = Cert.Spec.var x W f := by
  unfold varT Cert.Spec.var
  simp only [cenT_eq_cen x W x0 x1 r f hx hW]

/-- THE BLOCK AGAINST THE SPECIFICATION: row `r` of the output block is the normalised feature `f`. -/
theorem out0_2_eq_hn (b : Fin 2048) : out0_2 (F := Ideal) x0 x1 (ix2 r b) = Cert.Spec.hn x W f b := by
  rw [out0_2_apply, cenT_eq_cen x W x0 x1 r f hx hW, varT_eq_var x W x0 x1 r f hx hW]
  rfl

end Spec

end Cert.KernelIdeal.HandVal

end
-- ==== Proof.KI.KVal0.lean ====
/-
  The array the first kernel leaves: every row below the old end of the weight array is the normalised feature.

  The kernel runs over 51 points.  At point t it reads the whole array of transposed samples and rows
  512 t … 512 t + 511 of the padded weight array, and writes rows 512 t … 512 t + 511 of its result, every point
  writing its block back.  So the block written at point t is the block, at the same rows, of ONE function of the two
  input arrays: at row i the body's value of the samples and of the tile of weights holding row i, read at row
  i mod 512.  The 51 blocks tile the 26112 rows (row i is in block i / 512), so the result array ends holding that
  function; and at a row below 26009 the tile's row is the weight array's own row, so the entry is the
  specification's normalised feature.
-/
import proofs.«409293_j18485539242413_1_alg».proof.Proof.KI.Data0
import proofs.«409293_j18485539242413_1_alg».proof.Proof.KI.Val0
import Idealize.ShloMosaic.Lib.Pipeline.Value
import Idealize.ShloMosaic.Lib.Decide

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## One function of the two input arrays -/

/-- Tile `q` of the padded weight array: its rows `512 q … 512 q + 511`. -/
def wtile (wa : Vec Ideal S26112x256 .f32) (q : Fin 51) : Vec Ideal S512x256 .f32 :=
  fun y => wa (ix2 ⟨q.val * 512 + (y 0).val, by have := idx2_lt0 y; have := q.isLt; omega⟩ (y 1))

/-- The result array as a function of the samples and the padded weights: at row `i` the body's value on the
    samples and the tile holding row `i`, read at row `i mod 512`. -/
def G0 (xa : Vec Ideal S256x2048 .f32) (wa : Vec Ideal S26112x256 .f32) : Vec Ideal S26112x2048 .f32 :=
  fun i => out0_2 (F := Ideal) xa (wtile wa ⟨(i 0).val / 512, by have := idx2_lt0 i; omega⟩)
    (ix2 ⟨(i 0).val % 512, Nat.mod_lt _ (by decide)⟩ (i 1))

/-- Inside tile `q` the function is the body's value on that tile. -/
theorem G0_apply_block (xa : Vec Ideal S256x2048 .f32) (wa : Vec Ideal S26112x256 .f32) (q : Fin 51)
    (y : S512x2048.Idx) (i : S26112x2048.Idx) (h0 : (i 0).val = q.val * 512 + (y 0).val) (h1 : (i 1).val = (y 1).val) :
    G0 xa wa i = out0_2 (F := Ideal) xa (wtile wa q) y := by
  have hy : (y 0).val < 512 := idx2_lt0 y
  have eq : (⟨(i 0).val / 512, by have := idx2_lt0 i; omega⟩ : Fin 51) = q := Fin.ext (by show (i 0).val / 512 = q.val; omega)
  have ey : (ix2 (⟨(i 0).val % 512, Nat.mod_lt _ (by decide)⟩ : Fin 512) (i 1) : S512x2048.Idx) = y := by
    funext a; refine Fin.ext ?_
    match a with
    | ⟨0, _⟩ => show (i 0).val % 512 = (y 0).val; omega
    | ⟨1, _⟩ => exact h1
  unfold G0
  rw [eq, ey]

/-! ## The windows' blocks at a point -/

section Blocks
variable (V : (c : Dev nD) → (b : Ref sig .tc) → Buf (Elt Ideal) ((c : Thread nD τ).loc b))

/-- The transposed samples as the region finds them. -/
abbrev xarr (c : Dev nD) : Vec Ideal S256x2048 .f32 := V c main_v1
/-- The padded weights as the region finds them. -/
abbrev warr (c : Dev nD) : Vec Ideal S26112x256 .f32 := V c main_v0

/-- The printed index maps over the grid: the samples' block does not move; the weights' and the result's are the
    point's own block of rows. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A point as a tile number. -/
abbrev tileOf (t : Fin cfg0.N) : Fin 51 := ⟨t.val, lt_of_lt_of_eq t.isLt N_0⟩

/-- The samples' block at every point is the whole array. -/
theorem iblk0_0_eq (c : Dev nD) (t : Fin cfg0.N) : (iblk0 V c 0 t : Vec Ideal S256x2048 .f32) = xarr V c := by
  obtain ⟨e0, e1, -⟩ := idx_facts0 t
  funext y
  unfold iblk0
  rw [View.read_apply]
  show V c main_v1 (((cfg0.win 0).blk t).view.emb y) = V c main_v1 y
  refine congrArg (V c main_v1) ?_
  funext a; apply Fin.ext
  match a with
  | ⟨0, _⟩ => show win0_0.index t (0 : Fin 2) * 256 + 1 * (y 0).val = (y 0).val; omega
  | ⟨1, _⟩ => show win0_0.index t (1 : Fin 2) * 2048 + 1 * (y 1).val = (y 1).val; omega

/-- The weights' block at point `t` is tile `t`. -/
theorem iblk0_1_eq (c : Dev nD) (t : Fin cfg0.N) : (iblk0 V c 1 t : Vec Ideal S512x256 .f32) = wtile (warr V c) (tileOf t) := by
  obtain ⟨-, -, e2, e3, -⟩ := idx_facts0 t
  funext y
  unfold iblk0 wtile
  rw [View.read_apply]
  show V c main_v0 (((cfg0.win 1).blk t).view.emb y) = V c main_v0 _
  refine congrArg (V c main_v0) ?_
  funext a; apply Fin.ext
  match a with
  | ⟨0, _⟩ => show win0_1.index t (0 : Fin 2) * 512 + 1 * (y 0).val = t.val * 512 + (y 0).val; omega
  | ⟨1, _⟩ => show win0_1.index t (1 : Fin 2) * 256 + 1 * (y 1).val = (y 1).val; omega

/-! ## What a point writes back -/

/-- A block cut to its part inside the array is the array function read through the point's block, once the two
    agree element by element (stated over any block contents and any array function). -/
theorem cut_eq_read0_2 (t : Fin cfg0.N) (X : Vec Ideal S512x2048 .f32) (G : Vec Ideal S26112x2048 .f32)
    (h : ∀ j : ((cfg0.win 2).xblock (grid0.coords t)).Idx,
      X ((cfg0.win 2).xinj (grid0.coords t) j) = G (((cfg0.win 2).blk t).view.emb j)) :
    (cfg0.win 2).cut (grid0.coords t) X = ((cfg0.win 2).blk t).view.read (Elt Ideal) G :=
  funext h

/-- What point `t` writes back is block `t` of the one function. -/
theorem flushed0_2_eq (c : Dev nD) (t : Fin cfg0.N) :
    (dat0 (F := Ideal) V c).flushed 2 t = ((cfg0.win 2).blk t).view.read (Elt Ideal) (G0 (xarr V c) (warr V c)) := by
  obtain ⟨-, -, -, -, e4, e5⟩ := idx_facts0 t
  show (cfg0.win 2).cut (grid0.coords t) ((dat0 V c).after 2 t) = _
  rw [after0_2, iblk0_0_eq, iblk0_1_eq]
  refine cut_eq_read0_2 t _ _ fun j => ?_
  have h0 : ((((cfg0.win 2).blk t).view.emb j) 0).val = (tileOf t).val * 512 + (j 0).val := by
    show win0_2.index t (0 : Fin 2) * 512 + 1 * (j 0).val = t.val * 512 + (j 0).val; omega
  have h1 : ((((cfg0.win 2).blk t).view.emb j) 1).val = (j 1).val := by
    show win0_2.index t (1 : Fin 2) * 2048 + 1 * (j 1).val = (j 1).val; omega
  exact (G0_apply_block (xarr V c) (warr V c) (tileOf t) ((cfg0.win 2).xinj (grid0.coords t) j)
    (((cfg0.win 2).blk t).view.emb j) h0 h1).symm

/-! ## The blocks tile the array -/

/-- An index of the array is in point `t`'s block iff each coordinate is in the block's range on its axis. -/
theorem mem_blk0_2 (t : Fin cfg0.N) (i : S26112x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- Row `i` is in the block of point `i / 512`, which writes back. -/
theorem cover0_2_arr (i : S26112x2048.Idx) :
    ∃ t : Fin cfg0.N, (cfg0.win 2).flush t = true ∧ i ∈ ((cfg0.win 2).blk t).view.set := by
  have hi0 : (i 0).val < 26112 := idx2_lt0 i
  have hi1 : (i 1).val < 2048 := idx2_lt1 i
  have hN : (i 0).val / 512 < cfg0.N := lt_of_lt_of_eq (by omega : (i 0).val / 512 < 51) N_0.symm
  obtain ⟨-, -, -, -, e4, e5⟩ := idx_facts0 ⟨(i 0).val / 512, hN⟩
  refine ⟨⟨(i 0).val / 512, hN⟩, flush0_2 _, ?_⟩
  rw [mem_blk0_2]
  intro a
  match a with
  | ⟨0, _⟩ =>
    show win0_2.index ⟨(i 0).val / 512, hN⟩ (0 : Fin 2) * 512 ≤ (i 0).val
      ∧ (i 0).val < win0_2.index ⟨(i 0).val / 512, hN⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hN⟩ (1 : Fin 2) * 2048 ≤ (i 1).val
      ∧ (i 1).val < win0_2.index ⟨(i 0).val / 512, hN⟩ (1 : Fin 2) * 2048 + 2048
    rw [e5]; omega

/-! ## The array after the run -/

/-- The result array ends holding the one function of the two input arrays. -/
theorem arr0_eq_G0 (c : Dev nD) :
    ((dat0 (F := Ideal) V c).arrAt 2 cfg0.N : Vec Ideal S26112x2048 .f32) = G0 (xarr V c) (warr V c) :=
  (dat0 (F := Ideal) V c).arrAt_eq_of_cover 2 (G0 (xarr V c) (warr V c)) (fun t _ => flushed0_2_eq V c t) cover0_2_arr

/-- THE FIRST KERNEL'S ARRAY AGAINST THE SPECIFICATION: when the samples' array is the transposed sample matrix and
    the first 26009 rows of the padded weights are the weight matrix, row `f` of the result is the normalised
    feature `f`. -/
theorem arr0_value (c : Dev nD) (x : Fin 2048 → Fin 256 → EReal) (W : Fin 26009 → Fin 256 → EReal)
    (hx : ∀ (k : Fin 256) (b : Fin 2048), (V c main_v1 : S256x2048.Idx → EReal) (ix2 k b) = x b k)
    (hW : ∀ (f : Fin 26009) (k : Fin 256), (V c main_v0 : S26112x256.Idx → EReal) (ix2 ⟨f.val, by omega⟩ k) = W f k)
    (f : Fin 26009) (b : Fin 2048) :
    ((dat0 (F := Ideal) V c).arrAt 2 cfg0.N : S26112x2048.Idx → EReal) (ix2 ⟨f.val, by omega⟩ b) = Cert.Spec.hn x W f b := by
  have hf : f.val < 26009 := f.isLt
  refine (congrFun (arr0_eq_G0 V c) _).trans ?_
  refine (G0_apply_block (xarr V c) (warr V c) ⟨f.val / 512, by omega⟩
    (ix2 (⟨f.val % 512, Nat.mod_lt _ (by decide)⟩ : Fin 512) b) _ ?_ rfl).trans ?_
  · show f.val = f.val / 512 * 512 + f.val % 512; omega
  · refine out0_2_eq_hn x W (xarr V c) _ ⟨f.val % 512, Nat.mod_lt _ (by decide)⟩ f hx (fun k => ?_) b
    unfold wtile
    refine Eq.trans (congrArg (warr V c) ?_) (hW f k)
    funext a; refine Fin.ext ?_
    match a with
    | ⟨0, _⟩ => show f.val / 512 * 512 + f.val % 512 = f.val; omega
    | ⟨1, _⟩ => rfl

end Blocks

end Cert.KernelIdeal.HandVal

end
-- ==== Proof.KI.Body1ValLib.lean ====
/-
  Pallas call 1's body, the value side: the tree a grid point works on, the table's words for its nodes, and the scratch
  as the body reads it after its 127 copies — row `k` is the HBM array's row that the table's word for node `k` names.
  Generic in the float instance.
-/
import proofs.«409293_j18485539242413_1_alg».proof.Proof.KI.Body1Lib
import Idealize.ShloMosaic.Lib.Pipeline.Value
import Idealize.ShloMosaic.Lib.ValueIdxCoords

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem

variable {F : FTy → Type} [FloatOps F]

/-! ## The tree of a grid point, and the table's words for it -/

/-- The tree a grid point of pallas call 1 works on. -/
def treeOf (i : grid1.Coords) : ℕ := (i 0).val * 512 + (i 1).val
theorem treeOf_lt (i : grid1.Coords) : treeOf i < 1024 := by
  have h0 : (i 0).val < 2 := (i 0).isLt
  have h1 : (i 1).val < 512 := (i 1).isLt
  unfold treeOf; omega

/-- The row index the body computes for the table: the tree's number as a word. -/
abbrev treeW (i : grid1.Coords) : BitVec 32 :=
  Scalar.indexCast (Scalar.addi (Scalar.muli (BitVec.ofNat 32 (i 0).val) 512#32) (BitVec.ofNat 32 (i 1).val))

theorem treeW_toNat (i : grid1.Coords) : (treeW i).toNat = treeOf i := by
  have h0 : (i 0).val < 2 := (i 0).isLt
  have h1 : (i 1).val < 512 := (i 1).isLt
  unfold treeW treeOf Scalar.indexCast Scalar.addi Scalar.muli IntOp.addi IntOp.muli
  simp only [BitVec.toNat_add, BitVec.toNat_mul, BitVec.toNat_ofNat, BitVec.toNat_setWidth]
  omega

/-- The table's word for node `k` of the point's tree. -/
def wordAt (c : Dev nD) (i : grid1.Coords) (tb : HbBuf1 (F := F) c tblM) (k : Fin 127) : BitVec 32 :=
  (tb : S1024x127.Idx → BitVec 32) (ix2 ⟨treeOf i, treeOf_lt i⟩ k)

/-- The word the body loads at column `k` of the tree's row, however the offsets are spelt, is that word. -/
theorem word_eq (c : Dev nD) (i : grid1.Coords) (tb : HbBuf1 (F := F) c tblM) (k : ℕ) (hk : k < 127)
    (off : Fin 2 → ℕ) (hoff : off = ![(treeW i).toNat, k]) (ho : ∀ a, off a + S1x1.size a ≤ S1024x127.size a) :
    tblM.view.readAt (Elt F) (Rect.unit (s := S1024x127) off S1x1.size ho).toLoadRect tb (Shape.Idx.first (numel1_S1x1.symm ▸ Nat.one_pos))
      = wordAt c i tb ⟨k, hk⟩ := by
  subst hoff
  rw [View.readAt_apply]
  simp only [Memref.view_whole, View.read_whole]
  unfold wordAt
  congr 1
  funext a
  fin_cases a
  · apply Fin.ext; show (treeW i).toNat + 1 * 0 = treeOf i; rw [treeW_toNat]; omega
  · apply Fin.ext; show k + 1 * 0 = k; omega

/-! ## The scratch after the 127 copies -/

/-- The scratch as the body loads it after its 127 waits: row `k` is the array's row the table's word for node `k` names. -/
def hgv (c : Dev nD) (i : grid1.Coords) (tb : HbBuf1 (F := F) c tblM) (fh : HbBuf1 (F := F) c hbM) : Vec F S127x2048 .f32 :=
  fun y => (fh : S26112x2048.Idx → Elt F .f32)
    (ix2 ⟨(wordAt c i tb (y 0)).toNat % 26112, Nat.mod_lt _ (by decide)⟩ (y 1))

/-- Row `k` of the scratch is the row of the HBM array the table's word for node `k` of the point's tree names. -/
theorem hgv_apply (c : Dev nD) (i : grid1.Coords) (tb : HbBuf1 (F := F) c tblM) (fh : HbBuf1 (F := F) c hbM)
    (hr : ∀ k : Fin 127, ((tb : S1024x127.Idx → BitVec 32) (ix2 ⟨treeOf i, treeOf_lt i⟩ k)).toNat < 26112) (k : Fin 127) (b : Fin 2048) :
    hgv c i tb fh (ix2 k b) = (fh : S26112x2048.Idx → Elt F .f32) (ix2 ⟨((tb : S1024x127.Idx → BitVec 32) (ix2 ⟨treeOf i, treeOf_lt i⟩ k)).toNat, hr k⟩ b) := by
  unfold hgv
  congr 1
  funext a
  fin_cases a
  · apply Fin.ext; show (wordAt c i tb k).toNat % 26112 = _; exact Nat.mod_eq_of_lt (hr k)
  · rfl

/-- One copy's payload — the array read through a one-row slice at the row a word names, however its offsets are spelt —
    is `hgv` on the scratch row it lands in. -/
theorem row_piece (c : Dev nD) (i : grid1.Coords) (tb : HbBuf1 (F := F) c tblM) (fh : HbBuf1 (F := F) c hbM)
    (k : ℕ) (hk : k < 127) (r : ℕ) (hr : r = (wordAt c i tb ⟨k, hk⟩).toNat) (hlt : r + 1 ≤ 26112)
    (off : Fin 2 → ℕ) (hoff : off = ![r, 0]) (inb : ∀ a, off a + S1x2048.size a ≤ S26112x2048.size a) (hs)
    (x : S1x2048.Idx) :
    (ReadAs.same.apply ((hbM.slice (Rect.unit (s := S26112x2048) off S1x2048.size inb) hs).view.read (Elt F) fh)) x
      = hgv c i tb fh (ix2 ⟨k, hk⟩ (x 1)) := by
  subst hoff
  have hx0 : ((x 0 : Fin (S1x2048.size 0)) : ℕ) = 0 := by
    have h1 : ((x 0 : Fin (S1x2048.size 0)) : ℕ) < 1 := (x 0).isLt
    omega
  have hmod : r % 26112 = r := Nat.mod_eq_of_lt (by omega)
  rw [ReadAs.apply_same, View.read_apply]
  unfold hgv
  show (fh : S26112x2048.Idx → Elt F .f32) _ = (fh : S26112x2048.Idx → Elt F .f32) _
  congr 1
  funext a
  fin_cases a
  · apply Fin.ext
    show r + 1 * ((x 0 : Fin (S1x2048.size 0)) : ℕ) = (wordAt c i tb ⟨k, hk⟩).toNat % 26112
    rw [← hr, hmod, hx0]
    omega
  · apply Fin.ext
    show 0 + 1 * ((x 1 : Fin (S1x2048.size 1)) : ℕ) = ((x 1 : Fin (S1x2048.size 1)) : ℕ)
    omega

end Cert.KernelIdeal.HandVal

end
-- ==== Proof.LibOneHot.lean ====
/-
  A table lookup written as a product with a one-hot row.

  Row `w` of a table with `n` rows, for a 32-bit word `w` below `n`, is the sum over all rows `q` of the row times
  the indicator `[q = w]`, the indicator being the comparison bit widened to 32 bits and converted to a float
  (`1` or `0` exactly). On the extended reals `0 · x = 0` and `1 · x = x` whatever `x` is, so nothing is asked of
  the table's entries.
-/
import Idealize.ShloMosaic.PureOps.Ideal
import Mathlib.Algebra.BigOperators.Fin

noncomputable section

namespace Cert.LibOneHot

open Idealize.ShloMosaic

/-- The indicator bit as a float: one where the words agree. -/
theorem indicator_eq (x w : BitVec 32) (h : x = w) :
    FloatOps.sitofp (F := Ideal) .f32 ((IntOp.cmpi .eq x w).setWidth 32) = 1 := by
  subst h
  show (((((IntOp.cmpi .eq x x).setWidth 32).toInt : ℝ)) : EReal) = 1
  have : (IntOp.cmpi .eq x x).setWidth 32 = 1#32 := by
    unfold IntOp.cmpi; simp
  rw [this]; norm_num

/-- … and zero where they differ. -/
theorem indicator_ne (x w : BitVec 32) (h : x ≠ w) :
    FloatOps.sitofp (F := Ideal) .f32 ((IntOp.cmpi .eq x w).setWidth 32) = 0 := by
  show (((((IntOp.cmpi .eq x w).setWidth 32).toInt : ℝ)) : EReal) = 0
  have hb : (x == w) = false := by simpa using h
  have : (IntOp.cmpi .eq x w).setWidth 32 = 0#32 := by
    unfold IntOp.cmpi; rw [hb]; rfl
  rw [this]; norm_num

/-- The product with the one-hot row picks the row. -/
theorem sum_onehot {n : Nat} (hn : n ≤ 2 ^ 32) (w : BitVec 32) (hw : w.toNat < n) (g : Fin n → EReal) :
    ∑ q : Fin n, FloatOps.sitofp (F := Ideal) .f32 ((IntOp.cmpi .eq (BitVec.ofNat 32 q.val) w).setWidth 32) * g q
      = g ⟨w.toNat, hw⟩ := by
  rw [Finset.sum_eq_single (⟨w.toNat, hw⟩ : Fin n)]
  · rw [indicator_eq _ _ (by simp), one_mul]
  · intro q _ hq
    rw [indicator_ne _ _ ?_, zero_mul]
    intro h
    apply hq
    apply Fin.ext
    have := congrArg BitVec.toNat h
    simp only [BitVec.toNat_ofNat] at this
    rw [Nat.mod_eq_of_lt (lt_of_lt_of_le q.isLt hn)] at this
    exact this
  · intro h; exact absurd (Finset.mem_univ _) h

end Cert.LibOneHot

end
-- ==== Proof.KI.Pay1a.lean ====
/-
  The arithmetic of the tree-routing body at the ideal values, read one sample at a time: the building blocks.

  One level of the walk computes, for every sample `b` at once,
    mask(n, b) = [n = node(b)]  (a comparison bit widened to a word and converted to a float: exactly 1 or 0),
    value(b)   = Σₙ mask(n, b)·hg(n, b) − Σₙ mask(n, b)·thr(n),
    node'(b)   = 2·node(b) + 1 + [value(b) > 0],   margin'(b) = min(margin(b), |value(b)|).
  On the extended reals `0 · y = 0` and `1 · y = y` for every `y`, so each one-hot sum is the selected entry whatever the
  other entries are.  This file states the level over plain vectors (`maskG`, `valG`, `nodeG`, `margG`) and reads each at
  a sample; the leaf mask, the leaf-weight product and the zero block follow.
-/
import proofs.«409293_j18485539242413_1_alg».proof.Proof.Gen.KernelIdeal.Skeleton
import proofs.«409293_j18485539242413_1_alg».proof.Proof.LibOneHot
import proofs.«409293_j18485539242413_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandVal

open Idealize.ShloMosaic Idealize.ShloMosaic.ValueIdx Cert.KernelIdeal.Gen

/-! ## Readers for the layout and reduction operations of the body -/

/-- The reduced index `c` with the coordinate `k` put back on the FIRST axis is `(k, c)`. -/
theorem lift_first {a b : ℕ} (h : (⟨2, ![a, b]⟩ : Shape).Reduces [0] ⟨1, ![b]⟩) (c : Fin b)
    (k : Fin ((⟨2, ![a, b]⟩ : Shape).size 0)) : h.lift (ValueIdx.ix1 c) k = ix2 (⟨k.val, k.isLt⟩ : Fin a) c := by
  funext d; apply Fin.ext
  fin_cases d <;> rfl

/-- An add-reduction of an `[a, b]` array along its first axis, at column `c`: the sum of the column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ValueIdx.ix1 c) = ∑ k : Fin a, src (ix2 k c) := by
  rw [Ideal.multiReduction_add_single]
  exact Finset.sum_congr rfl fun k _ => congrArg src (lift_first h c k)

/-- A length-2048 vector laid along every row of an `[a, 2048]` array reads, at `(n, b)`, the vector at `b`. -/
theorem rowOfVector_apply {α : Type} {a : ℕ} (v : (⟨1, ![2048]⟩ : Shape).Idx → α)
    (h₁ : (⟨1, ![2048]⟩ : Shape).ShapeCasts ⟨2, ![1, 2048]⟩) (h₂ : (⟨2, ![1, 2048]⟩ : Shape).Broadcasts ⟨2, ![a, 2048]⟩)
    (n : Fin a) (b : Fin 2048) :
    broadcastTo ⟨2, ![a, 2048]⟩ (shapeCast ⟨2, ![1, 2048]⟩ v h₁) h₂ (ix2 n b) = v (ValueIdx.ix1 b) :=
  (broadcastTo_1b_ab_apply _ h₂ n b).trans (shapeCast_a_1a_apply v h₁ 0 b)

/-- The row-number array reads, at `(n, b)`, the word of `n`. -/
theorem iota0_apply {a : ℕ} (h : (⟨2, ![a, 2048]⟩ : Shape).Iotas .tc 32 [0]) (n : Fin a) (b : Fin 2048) :
    iota .tc ⟨2, ![a, 2048]⟩ 32 [0] h (ix2 n b) = BitVec.ofNat 32 n.val := by
  show BitVec.ofNat 32 (0 * _ + n.val) = _
  rw [Nat.zero_mul, Nat.zero_add]

/-! ## One level over plain vectors -/

/-- The one-hot mask of a node vector against the row numbers, as floats. -/
def maskG (io : IVec S127x2048 32) (node : IVec S2048 32) : FVec Ideal S127x2048 .f32 :=
  sitofp .f32 (extui 32 (cmpi .eq io
    (broadcastTo S127x2048 (shapeCast S1x2048 node shapeCasts_S2048_S1x2048) broadcasts_S1x2048_S127x2048)) natLt_1_32)

/-- The decision values of one level: the selected table entry minus the selected threshold. -/
def valG (thrcol : FVec Ideal S127x1 .f32) (hg : Vec Ideal S127x2048 .f32) (io : IVec S127x2048 32)
    (node : IVec S2048 32) : FVec Ideal S2048 .f32 :=
  subf
    (multiReduction .add [0] S2048 (mulf (maskG io node) hg) 0x00000000#32 reduces_S127x2048_S2048 (.inl rfl) rfl)
    (multiReduction .add [0] S2048 (mulf (maskG io node) (broadcastTo S127x2048 thrcol broadcasts_S127x1_S127x2048))
      0x00000000#32 reduces_S127x2048_S2048 (.inl rfl) rfl)

/-- The next node: `2·node + 1 + [value > 0]`, on words. -/
def nodeG (node : IVec S2048 32) (val : FVec Ideal S2048 .f32) : IVec S2048 32 :=
  addi (addi (muli (broadcast S2048 2#32) node) (broadcast S2048 1#32))
    (extui 32 (cmpf .ogt val (broadcast S2048 (Scalar.ofBits .f32 0x00000000#32))) natLt_1_32)

/-- The next margin: the least of the margin and the value's magnitude. -/
def margG (marg val : FVec Ideal S2048 .f32) : FVec Ideal S2048 .f32 := minimumf marg (absf val)

/-- The mask at `(n, b)` is the indicator of "row `n` is sample `b`'s node". -/
theorem maskG_apply (io : IVec S127x2048 32) (node : IVec S2048 32)
    (hio : ∀ (n : Fin 127) (b : Fin 2048), io (ix2 n b) = BitVec.ofNat 32 n.val) (n : Fin 127) (b : Fin 2048) :
    maskG io node (ix2 n b)
      = FloatOps.sitofp (F := Ideal) .f32
          ((IntOp.cmpi .eq (BitVec.ofNat 32 n.val) (node (ValueIdx.ix1 b))).setWidth 32) := by
  show FloatOps.sitofp (F := Ideal) .f32 ((IntOp.cmpi .eq (io (ix2 n b))
    (broadcastTo S127x2048 (shapeCast S1x2048 node shapeCasts_S2048_S1x2048) broadcasts_S1x2048_S127x2048 (ix2 n b))).setWidth 32) = _
  rw [hio, rowOfVector_apply]

/-- A one-hot sum over the 127 inner nodes picks the entry at the node. -/
theorem sum_mask (io : IVec S127x2048 32) (node : IVec S2048 32)
    (hio : ∀ (n : Fin 127) (b : Fin 2048), io (ix2 n b) = BitVec.ofNat 32 n.val) (b : Fin 2048) (s : ℕ) (hs : s < 127)
    (hnode : node (ValueIdx.ix1 b) = BitVec.ofNat 32 s) (g : Fin 127 → EReal) :
    ∑ n : Fin 127, maskG io node (ix2 n b) * g n = g ⟨s, hs⟩ := by
  have hw : (node (ValueIdx.ix1 b)).toNat = s := by
    rw [hnode, BitVec.toNat_ofNat]; exact Nat.mod_eq_of_lt (by omega)
  have hw' : (node (ValueIdx.ix1 b)).toNat < 127 := by omega
  have h := LibOneHot.sum_onehot (n := 127) (by norm_num) (node (ValueIdx.ix1 b)) hw' g
  have e : (⟨(node (ValueIdx.ix1 b)).toNat, hw'⟩ : Fin 127) = ⟨s, hs⟩ := Fin.ext hw
  rw [e] at h
  refine Eq.trans (Finset.sum_congr rfl fun n _ => ?_) h
  rw [maskG_apply io node hio]

/-- THE VALUE OF ONE LEVEL at sample `b`: if the sample stands at inner node `s`, the table's entry there minus the
    node's threshold. -/
theorem valG_apply (thrcol : FVec Ideal S127x1 .f32) (hg : Vec Ideal S127x2048 .f32) (io : IVec S127x2048 32)
    (node : IVec S2048 32) (hgf : ℕ → Fin 2048 → EReal) (thrf : ℕ → EReal)
    (hio : ∀ (n : Fin 127) (b : Fin 2048), io (ix2 n b) = BitVec.ofNat 32 n.val)
    (hhg : ∀ (n : Fin 127) (b : Fin 2048), hg (ix2 n b) = hgf n.val b)
    (hthr : ∀ n : Fin 127, thrcol (ix2 n (0 : Fin 1)) = thrf n.val)
    (b : Fin 2048) (s : ℕ) (hs : s < 127) (hnode : node (ValueIdx.ix1 b) = BitVec.ofNat 32 s) :
    valG thrcol hg io node (ValueIdx.ix1 b) = hgf s b - thrf s := by
  have e1 : multiReduction (F := Ideal) .add [0] S2048 (mulf (maskG io node) hg) 0x00000000#32
      reduces_S127x2048_S2048 (.inl rfl) rfl (ValueIdx.ix1 b) = hgf s b := by
    refine (colSum_apply _ _ _ _ _ b).trans ?_
    refine Eq.trans (Finset.sum_congr rfl fun n _ => ?_) (sum_mask io node hio b s hs hnode fun n => hgf n.val b)
    rw [mulf_apply, hhg]
  have e2 : multiReduction (F := Ideal) .add [0] S2048
      (mulf (maskG io node) (broadcastTo S127x2048 thrcol broadcasts_S127x1_S127x2048)) 0x00000000#32
      reduces_S127x2048_S2048 (.inl rfl) rfl (ValueIdx.ix1 b) = thrf s := by
    refine (colSum_apply _ _ _ _ _ b).trans ?_
    refine Eq.trans (Finset.sum_congr rfl fun n _ => ?_) (sum_mask io node hio b s hs hnode fun n => thrf n.val)
    rw [mulf_apply, LibColumn.broadcastTo_a1_ab_apply, hthr]
  exact congrArg₂ (· - ·) e1 e2

/-- Words: doubling, adding one and adding a comparison bit follow the natural numbers. -/
theorem word_step (s : ℕ) (c : Bool) :
    IntOp.addi (IntOp.addi (IntOp.muli 2#32 (BitVec.ofNat 32 s)) 1#32) ((BitVec.ofBool c).setWidth 32)
      = BitVec.ofNat 32 (2 * s + 1 + (if c then 1 else 0)) := by
  unfold IntOp.addi IntOp.muli
  cases c <;> simp [BitVec.ofNat_add, BitVec.ofNat_mul]

/-- THE NEXT NODE at sample `b`. -/
theorem nodeG_apply (node : IVec S2048 32) (val : FVec Ideal S2048 .f32) (b : Fin 2048) (s : ℕ)
    (hnode : node (ValueIdx.ix1 b) = BitVec.ofNat 32 s) :
    nodeG node val (ValueIdx.ix1 b)
      = BitVec.ofNat 32 (2 * s + 1 + (if 0 < val (ValueIdx.ix1 b) then 1 else 0)) := by
  show IntOp.addi (IntOp.addi (IntOp.muli 2#32 (node (ValueIdx.ix1 b))) 1#32)
    ((Ideal.cmp .ogt (val (ValueIdx.ix1 b)) (Ideal.ofBits .f32 0x00000000#32)).setWidth 32) = _
  rw [hnode, Ideal.ofBits_zero_f32]
  show IntOp.addi (IntOp.addi (IntOp.muli 2#32 (BitVec.ofNat 32 s)) 1#32)
    ((BitVec.ofBool (decide (0 < val (ValueIdx.ix1 b)))).setWidth 32) = _
  rw [word_step]
  by_cases h : 0 < val (ValueIdx.ix1 b) <;> simp [h]

/-- THE NEXT MARGIN at sample `b`. -/
theorem margG_apply (marg val : FVec Ideal S2048 .f32) (b : Fin 2048) :
    margG marg val (ValueIdx.ix1 b)
      = min (marg (ValueIdx.ix1 b)) (max (val (ValueIdx.ix1 b)) (-(val (ValueIdx.ix1 b)))) := rfl

/-! ## The start of the walk, the thresholds' column, the zero block -/

/-- The walk starts at node 0 … -/
theorem pay4_apply (b : Fin 2048) : k1_pay4 (ValueIdx.ix1 b) = BitVec.ofNat 32 0 := rfl

/-- The f32 word of +∞ is the top of the extended reals. -/
theorem ofBits_inf_f32 : Ideal.ofBits .f32 0x7F800000#32 = (⊤ : EReal) := by
  simp [Ideal.ofBits, Ideal.ieee]

/-- … with margin +∞. -/
theorem pay5_apply (b : Fin 2048) : k1_pay5 (F := Ideal) (ValueIdx.ix1 b) = (⊤ : EReal) := ofBits_inf_f32

/-- The block the first tree of a half starts from is zero everywhere. -/
theorem pay2_apply (j : S1x2048x10.Idx) : k1_pay2 (F := Ideal) j = (0 : EReal) := Ideal.ofBits_zero_f32

/-- The thresholds' column reads, at `(n, 0)`, the loaded block at `(0, n, 0)`. -/
theorem pay3_apply (v1275 : Vec Ideal S1x127x1 .f32) (n : Fin 127) :
    k1_pay3 v1275 (ix2 n (0 : Fin 1)) = v1275 (ix3 (0 : Fin 1) n (0 : Fin 1)) := by
  refine (LibColumn.shapeCast_a_a1_apply (shapeCast S127 v1275 shapeCasts_S1x127x1_S127) shapeCasts_S127_S127x1 n 0).trans ?_
  exact shapeCast_apply v1275 shapeCasts_S1x127x1_S127 _ _ (by
    rw [Shape.rowMajor_val_three, Shape.rowMajor_val_one]
    show ((0 : ℕ) * 127 + n.val) * 1 + 0 = n.val
    omega)

/-! ## The leaf mask -/

/-- Words: taking 127 off a leaf's heap number gives its number among the leaves. -/
theorem word_leaf (s : ℕ) (h : 127 ≤ s) : IntOp.subi (BitVec.ofNat 32 s) 127#32 = BitVec.ofNat 32 (s - 127) := by
  unfold IntOp.subi
  obtain ⟨r, rfl⟩ : ∃ r, s = r + 127 := ⟨s - 127, by omega⟩
  rw [Nat.add_sub_cancel, BitVec.ofNat_add]
  exact BitVec.add_sub_cancel _ _

/-- THE LEAF MASK at `(l, b)`: one exactly where `l` is the leaf sample `b` reached. -/
theorem pay29_apply (v1424 v1427 : IVec S2048 32) (l : Fin 128) (b : Fin 2048) (s : ℕ) (h127 : 127 ≤ s) (hs : s < 255)
    (hn : IntOp.addi (v1424 (ValueIdx.ix1 b)) (v1427 (ValueIdx.ix1 b)) = BitVec.ofNat 32 s) :
    k1_pay29 (F := Ideal) v1424 v1427 (ix2 l b) = if l.val = s - 127 then (1 : EReal) else 0 := by
  show FloatOps.sitofp (F := Ideal) .f32 ((IntOp.cmpi .eq (iota .tc S128x2048 32 [0] iota_S128x2048_d0_w32 (ix2 l b))
    (broadcastTo S128x2048 (shapeCast S1x2048 (subi (addi v1424 v1427) (broadcast S2048 127#32)) shapeCasts_S2048_S1x2048)
      broadcasts_S1x2048_S128x2048 (ix2 l b))).setWidth 32) = _
  rw [iota0_apply, rowOfVector_apply]
  show FloatOps.sitofp (F := Ideal) .f32 ((IntOp.cmpi .eq (BitVec.ofNat 32 l.val)
    (IntOp.subi (IntOp.addi (v1424 (ValueIdx.ix1 b)) (v1427 (ValueIdx.ix1 b))) 127#32)).setWidth 32) = _
  rw [hn, word_leaf s h127]
  by_cases h : l.val = s - 127
  · rw [if_pos h, h]; exact LibOneHot.indicator_eq _ _ rfl
  · rw [if_neg h]
    refine LibOneHot.indicator_ne _ _ fun e => h ?_
    have h' := congrArg BitVec.toNat e
    simp only [BitVec.toNat_ofNat] at h'
    have hl := l.isLt
    rw [Nat.mod_eq_of_lt (by omega), Nat.mod_eq_of_lt (by omega)] at h'
    exact h'

/-! ## The leaf-weight product -/

theorem lhs_leaf_0 (j : S2048x10.Idx) (k : dot_S128x2048_S128x10_S2048x10_0_0_1_1_n_n.contr.Idx) :
    (dot_S128x2048_S128x10_S2048x10_0_0_1_1_n_n.lhsIdx j k 0).val = (k ⟨0, by decide⟩).val :=
  DotDims.lhsIdx_val_of_single _ rfl j k
theorem lhs_leaf_1 (j : S2048x10.Idx) (k : dot_S128x2048_S128x10_S2048x10_0_0_1_1_n_n.contr.Idx) :
    (dot_S128x2048_S128x10_S2048x10_0_0_1_1_n_n.lhsIdx j k 1).val = (j 0).val := rfl
theorem rhs_leaf_0 (j : S2048x10.Idx) (k : dot_S128x2048_S128x10_S2048x10_0_0_1_1_n_n.contr.Idx) :
    (dot_S128x2048_S128x10_S2048x10_0_0_1_1_n_n.rhsIdx j k 0).val = (k ⟨0, by decide⟩).val :=
  DotDims.rhsIdx_val_of_single _ rfl j k
theorem rhs_leaf_1 (j : S2048x10.Idx) (k : dot_S128x2048_S128x10_S2048x10_0_0_1_1_n_n.contr.Idx) :
    (dot_S128x2048_S128x10_S2048x10_0_0_1_1_n_n.rhsIdx j k 1).val = (j 1).val := rfl

/-- The product of the leaf mask (contracted along the leaves) with the leaf weights, at `(b, e)`: the sum over the
    leaves of mask times weight. -/
theorem matmul_leaf_apply (ml : FVec Ideal S128x2048 .f32) (w : FVec Ideal S128x10 .f32) (b : Fin 2048) (e : Fin 10) :
    matmul dot_S128x2048_S128x10_S2048x10_0_0_1_1_n_n none ml w (constant S2048x10 .f32 0x00000000#32) (ix2 b e)
      = ∑ l : Fin 128, ml (ix2 l b) * w (ix2 l e) := by
  refine (Ideal.matmul_constant_zero_apply _ none ml w (ix2 b e)).trans ?_
  refine (Equiv.sum_comp (contrEquiv1 dot_S128x2048_S128x10_S2048x10_0_0_1_1_n_n 128 rfl rfl).symm _).symm.trans ?_
  refine Finset.sum_congr rfl fun l _ => ?_
  have hk := contrEquiv1_symm_val dot_S128x2048_S128x10_S2048x10_0_0_1_1_n_n 128 rfl rfl l
  refine congrArg₂ (· * ·) (congrArg ml (funext fun a => Fin.ext ?_)) (congrArg w (funext fun a => Fin.ext ?_))
  · match a with
    | ⟨0, _⟩ => exact (lhs_leaf_0 _ _).trans hk
    | ⟨1, _⟩ => exact lhs_leaf_1 _ _
  · match a with
    | ⟨0, _⟩ => exact (rhs_leaf_0 _ _).trans hk
    | ⟨1, _⟩ => exact rhs_leaf_1 _ _

/-- THE BLOCK STORED BACK at `(0, b, e)`: the block as loaded plus the reached leaf's weight times the margin. -/
theorem pay1_apply (marg : FVec Ideal S2048 .f32) (ml : FVec Ideal S128x2048 .f32) (v1437 : Vec Ideal S1x128x10 .f32)
    (v1443 : Vec Ideal S1x2048x10 .f32) (b : Fin 2048) (e : Fin 10) (leaf : ℕ) (hl : leaf < 128)
    (hml : ∀ l : Fin 128, ml (ix2 l b) = if l.val = leaf then (1 : EReal) else 0) :
    k1_pay1 marg ml v1437 v1443 (ix3 (0 : Fin 1) b e)
      = v1443 (ix3 (0 : Fin 1) b e) + v1437 (ix3 (0 : Fin 1) (⟨leaf, hl⟩ : Fin 128) e) * marg (ValueIdx.ix1 b) := by
  show shapeCast S1x2048x10 (addf (shapeCast S2048x10 v1443 shapeCasts_S1x2048x10_S2048x10)
      (mulf (matmul dot_S128x2048_S128x10_S2048x10_0_0_1_1_n_n none ml (shapeCast S128x10 v1437 shapeCasts_S1x128x10_S128x10)
          (constant S2048x10 .f32 0x00000000#32))
        (broadcastTo S2048x10 (shapeCast S2048x1 marg shapeCasts_S2048_S2048x1) broadcasts_S2048x1_S2048x10)))
    shapeCasts_S2048x10_S1x2048x10 (ix3 (0 : Fin 1) b e) = _
  refine (shapeCast_ab_1ab_apply _ shapeCasts_S2048x10_S1x2048x10 0 b e).trans ?_
  have e1 : shapeCast S2048x10 v1443 shapeCasts_S1x2048x10_S2048x10 (ix2 b e) = v1443 (ix3 (0 : Fin 1) b e) :=
    shapeCast_1ab_ab_apply v1443 _ b e
  have e2 : matmul dot_S128x2048_S128x10_S2048x10_0_0_1_1_n_n none ml
      (shapeCast S128x10 v1437 shapeCasts_S1x128x10_S128x10 : FVec Ideal S128x10 .f32)
      (constant S2048x10 .f32 0x00000000#32) (ix2 b e) = v1437 (ix3 (0 : Fin 1) (⟨leaf, hl⟩ : Fin 128) e) := by
    refine (matmul_leaf_apply ml _ b e).trans ?_
    rw [Finset.sum_eq_single (⟨leaf, hl⟩ : Fin 128)]
    · rw [hml, if_pos rfl, one_mul]; exact shapeCast_1ab_ab_apply v1437 _ _ e
    · intro l _ hne
      rw [hml, if_neg (fun h => hne (Fin.ext h)), zero_mul]
    · intro h; exact absurd (Finset.mem_univ _) h
  have e3 : broadcastTo S2048x10 (shapeCast S2048x1 marg shapeCasts_S2048_S2048x1) broadcasts_S2048x1_S2048x10 (ix2 b e)
      = marg (ValueIdx.ix1 b) := LibColumn.column_of_vector_apply marg _ _ b e
  show shapeCast S2048x10 v1443 shapeCasts_S1x2048x10_S2048x10 (ix2 b e)
      + matmul dot_S128x2048_S128x10_S2048x10_0_0_1_1_n_n none ml
          (shapeCast S128x10 v1437 shapeCasts_S1x128x10_S128x10 : FVec Ideal S128x10 .f32)
          (constant S2048x10 .f32 0x00000000#32) (ix2 b e)
        * broadcastTo S2048x10 (shapeCast S2048x1 marg shapeCasts_S2048_S2048x1) broadcasts_S2048x1_S2048x10 (ix2 b e) = _
  rw [e1, e2, e3]

end Cert.KernelIdeal.HandVal

end
-- ==== Proof.KI.Walk.lean ====
/-
  The seven-step walk down a complete binary tree in heap order, over plain functions.

  Given the value table of one tree, `hgf n b` (what sample `b` reads at node `n`), and the node thresholds `thrf n`,
  the walk starts at node 0 with margin +∞; at node `n` the decision value is `v = hgf n b − thrf n`, the margin becomes
  `min margin |v|` and the node `2n + 1 + [v > 0]`.  This is the specification's walk with the table and the
  thresholds left abstract; at the specification's table it is the specification's walk (`route_eq_walkK`).
-/
import proofs.«409293_j18485539242413_1_alg».proof.Proof.Spec

noncomputable section

namespace Cert.Walk

variable (hgf : ℕ → Fin 2048 → EReal) (thrf : ℕ → EReal)

/-- The decision value of sample `b` at node `n`. -/
def valK (b : Fin 2048) (n : ℕ) : EReal := hgf n b - thrf n

/-- One step: the child chosen by the sign of the value, the margin lowered to its magnitude. -/
def stepK (b : Fin 2048) (s : ℕ × EReal) : ℕ × EReal :=
  (2 * s.1 + 1 + (if 0 < valK hgf thrf b s.1 then 1 else 0),
   min s.2 (max (valK hgf thrf b s.1) (-(valK hgf thrf b s.1))))

/-- The walk after `k` steps: the node reached and the least magnitude met. -/
def walkK (b : Fin 2048) : ℕ → ℕ × EReal
  | 0 => (0, ⊤)
  | k + 1 => stepK hgf thrf b (walkK b k)

theorem walkK_zero (b : Fin 2048) : walkK hgf thrf b 0 = (0, ⊤) := rfl
theorem walkK_succ (b : Fin 2048) (k : ℕ) :
    walkK hgf thrf b (k + 1) = stepK hgf thrf b (walkK hgf thrf b k) := rfl

/-- After `k` steps the node lies on level `k` of the heap: `2^k − 1 ≤ n < 2^(k+1) − 1`. -/
theorem walkK_bounds (b : Fin 2048) (k : ℕ) :
    2 ^ k - 1 ≤ (walkK hgf thrf b k).1 ∧ (walkK hgf thrf b k).1 + 1 < 2 ^ (k + 1) := by
  induction k with
  | zero => simp [walkK]
  | succ k ih =>
    obtain ⟨h1, h2⟩ := ih
    have hp : 1 ≤ 2 ^ k := Nat.one_le_two_pow
    have e1 : 2 ^ (k + 1) = 2 * 2 ^ k := by rw [pow_succ]; ring
    have e2 : 2 ^ (k + 1 + 1) = 2 * (2 * 2 ^ k) := by rw [pow_succ, pow_succ]; ring
    rw [walkK_succ]; unfold stepK; dsimp only
    rw [e2]; rw [e1] at h2 ⊢
    split <;> constructor <;> omega

/-- Before the seventh step the node is an inner node. -/
theorem walkK_lt_127 (b : Fin 2048) (k : ℕ) (hk : k < 7) : (walkK hgf thrf b k).1 < 127 := by
  have h := (walkK_bounds hgf thrf b k).2
  have hp : 2 ^ (k + 1) ≤ 2 ^ 7 := Nat.pow_le_pow_right (by norm_num) (by omega)
  norm_num at hp
  omega

/-- After the seventh step the node is a leaf: `127 ≤ n < 255`. -/
theorem walkK_seven (b : Fin 2048) : 127 ≤ (walkK hgf thrf b 7).1 ∧ (walkK hgf thrf b 7).1 < 255 := by
  have h := walkK_bounds hgf thrf b 7
  norm_num at h
  omega

/-- The specification's walk of tree `t` is this walk at the specification's value table and thresholds. -/
theorem route_eq_walkK (x : Fin 2048 → Fin 256 → EReal) (W : Fin 26009 → Fin 256 → EReal)
    (thr : Fin 1024 → Fin 127 → EReal) (ord : Fin 1024 → Fin 127 → BitVec 32) (t : Fin 1024) (b : Fin 2048) (k : ℕ) :
    Cert.Spec.route x W thr ord t b k
      = walkK (fun n b => Cert.Spec.hAt x W (Cert.Spec.ordAt ord t n) b) (Cert.Spec.thrAt thr t) b k := by
  induction k with
  | zero => rfl
  | succ k ih => rw [Cert.Spec.route_succ, walkK_succ, ih]; rfl

end Cert.Walk

end
-- ==== Proof.KI.Pay1b.lean ====
/-
  The seven levels of the tree-routing body chained: the node and margin vectors after `k` levels follow the walk.

  `stG T H I k` is the pair (node vector, margin vector) after `k` levels over plain vectors: from (0, +∞), each level
  by `nodeG`, `valG`, `margG`.  If the table `H` reads `hgf`, the thresholds' column `T` reads `thrf` and `I` holds the
  row numbers, then at every sample `b` and every `k ≤ 7` the pair is the walk's state after `k` steps (`stG_tracks`).
  The body's own values — the margin and the leaf mask it hands to the store, named here `c1420` and `c1436` as functions
  of the two loaded blocks — are `stG` at 7 by unfolding, so the stored block is the loaded block plus the reached
  leaf's weight times the walk's margin (`store_apply`).
-/
import proofs.«409293_j18485539242413_1_alg».proof.Proof.KI.Pay1a
import proofs.«409293_j18485539242413_1_alg».proof.Proof.KI.Walk

noncomputable section

open scoped BigOperators

namespace Cert.KernelIdeal.HandVal

open Idealize.ShloMosaic Idealize.ShloMosaic.ValueIdx Cert.KernelIdeal.Gen Cert.Walk

/-! ## The generic level, and the state after `k` levels -/

section Level
variable (T : FVec Ideal S127x1 .f32) (H : Vec Ideal S127x2048 .f32) (I : IVec S127x2048 32)

/-- The node and margin vectors after `k` levels. -/
def stG : ℕ → IVec S2048 32 × FVec Ideal S2048 .f32
  | 0 => (k1_pay4, k1_pay5)
  | k + 1 => (nodeG (stG k).1 (valG T H I (stG k).1), margG (stG k).2 (valG T H I (stG k).1))

variable (hgf : ℕ → Fin 2048 → EReal) (thrf : ℕ → EReal)

/-- ONE LEVEL: if sample `b` stands at inner node `s.1` with margin `s.2`, the level's node and margin vectors read, at
    `b`, the walk's next state. -/
theorem level
    (hio : ∀ (n : Fin 127) (b : Fin 2048), I (ix2 n b) = BitVec.ofNat 32 n.val)
    (hhg : ∀ (n : Fin 127) (b : Fin 2048), H (ix2 n b) = hgf n.val b)
    (hthr : ∀ n : Fin 127, T (ix2 n (0 : Fin 1)) = thrf n.val)
    (node : IVec S2048 32) (marg : FVec Ideal S2048 .f32) (b : Fin 2048) (s : ℕ × EReal)
    (hs : s.1 < 127) (hn : node (ValueIdx.ix1 b) = BitVec.ofNat 32 s.1) (hm : marg (ValueIdx.ix1 b) = s.2) :
    nodeG node (valG T H I node) (ValueIdx.ix1 b) = BitVec.ofNat 32 (stepK hgf thrf b s).1
      ∧ margG marg (valG T H I node) (ValueIdx.ix1 b) = (stepK hgf thrf b s).2 := by
  have hv := valG_apply T H I node hgf thrf hio hhg hthr b s.1 hs hn
  constructor
  · rw [nodeG_apply node _ b s.1 hn, hv]; rfl
  · rw [margG_apply, hm, hv]; rfl

/-- After `k ≤ 7` levels the vectors read the walk's state after `k` steps. -/
theorem stG_tracks
    (hio : ∀ (n : Fin 127) (b : Fin 2048), I (ix2 n b) = BitVec.ofNat 32 n.val)
    (hhg : ∀ (n : Fin 127) (b : Fin 2048), H (ix2 n b) = hgf n.val b)
    (hthr : ∀ n : Fin 127, T (ix2 n (0 : Fin 1)) = thrf n.val)
    (k : ℕ) (hk : k ≤ 7) (b : Fin 2048) :
    (stG T H I k).1 (ValueIdx.ix1 b) = BitVec.ofNat 32 (walkK hgf thrf b k).1
      ∧ (stG T H I k).2 (ValueIdx.ix1 b) = (walkK hgf thrf b k).2 := by
  induction k with
  | zero => exact ⟨rfl, pay5_apply b⟩
  | succ k ih =>
    obtain ⟨h1, h2⟩ := ih (by omega)
    exact level T H I hgf thrf hio hhg hthr _ _ b (walkK hgf thrf b k) (walkK_lt_127 hgf thrf b k (by omega)) h1 h2

end Level

/-! ## The body's values as functions of the two loaded blocks -/

section Chain
variable (v1275 : Vec Ideal S1x127x1 .f32) (v1278 : Vec Ideal S127x2048 .f32)

/-- The row numbers. -/
def cI : IVec S127x2048 32 := iota .tc S127x2048 32 [0] iota_S127x2048_d0_w32
/-- The thresholds' column. -/
def cT : FVec Ideal S127x1 .f32 := k1_pay3 v1275

/-- After two levels: the margin, the node, the node's mask, its table sum, the thresholds laid along the rows. -/
def c1315 : FVec Ideal S2048 .f32 := k1_pay10 (cT v1275) v1278 k1_pay4 k1_pay5 cI k1_pay6
def c1323 : IVec S2048 32 := k1_pay11 (cT v1275) v1278 k1_pay4 cI k1_pay6
def c1328 : FVec Ideal S127x2048 .f32 := k1_pay12 (cT v1275) v1278 k1_pay4 cI k1_pay6
def c1330 : FVec Ideal S2048 .f32 := k1_pay13 (cT v1275) v1278 k1_pay4 cI k1_pay6
def c1331 : FVec Ideal S127x2048 .f32 := k1_pay14 (cT v1275)

/-- After four levels the node and the value there; after five the margin. -/
def c1365 : IVec S2048 32 :=
  k1_pay18 (cT v1275) v1278 cI (c1323 v1275 v1278) (c1328 v1275 v1278) (c1330 v1275 v1278) (c1331 v1275)
def c1376 : FVec Ideal S2048 .f32 :=
  k1_pay19 (cT v1275) v1278 cI (c1323 v1275 v1278) (c1328 v1275 v1278) (c1330 v1275 v1278) (c1331 v1275)
def c1378 : FVec Ideal S2048 .f32 :=
  k1_pay20 (cT v1275) v1278 cI (c1315 v1275 v1278) (c1323 v1275 v1278) (c1328 v1275 v1278) (c1330 v1275 v1278) (c1331 v1275)

/-- After seven levels the margin; the node in two summands; the leaf mask. -/
def c1420 : FVec Ideal S2048 .f32 :=
  k1_pay26 (cT v1275) v1278 cI (c1365 v1275 v1278) (c1376 v1275 v1278) (c1378 v1275 v1278) k1_pay21
def c1424 : IVec S2048 32 := k1_pay27 (cT v1275) v1278 cI (c1365 v1275 v1278) (c1376 v1275 v1278) k1_pay21
def c1427 : IVec S2048 32 := k1_pay28 (cT v1275) v1278 cI (c1365 v1275 v1278) (c1376 v1275 v1278) k1_pay21
def c1436 : FVec Ideal S128x2048 .f32 := k1_pay29 (c1424 v1275 v1278) (c1427 v1275 v1278)

/-! Each is the state after so many levels, by unfolding. -/

theorem c1323_eq : c1323 v1275 v1278 = (stG (cT v1275) v1278 cI 2).1 := rfl
theorem c1315_eq : c1315 v1275 v1278 = (stG (cT v1275) v1278 cI 2).2 := rfl
theorem c1365_eq : c1365 v1275 v1278 = (stG (cT v1275) v1278 cI 4).1 := rfl
theorem c1376_eq : c1376 v1275 v1278 = valG (cT v1275) v1278 cI (stG (cT v1275) v1278 cI 4).1 := rfl
theorem c1378_eq : c1378 v1275 v1278 = (stG (cT v1275) v1278 cI 5).2 := rfl
theorem c1420_eq : c1420 v1275 v1278 = (stG (cT v1275) v1278 cI 7).2 := rfl
theorem c1428_eq : addi (c1424 v1275 v1278) (c1427 v1275 v1278) = (stG (cT v1275) v1278 cI 7).1 := rfl

/-! ## What the store receives -/

variable (hgf : ℕ → Fin 2048 → EReal) (thrf : ℕ → EReal)

theorem cI_apply (n : Fin 127) (b : Fin 2048) : cI (ix2 n b) = BitVec.ofNat 32 n.val :=
  iota0_apply iota_S127x2048_d0_w32 n b

theorem cT_apply (hthr : ∀ n : Fin 127, v1275 (ix3 (0 : Fin 1) n (0 : Fin 1)) = thrf n.val) (n : Fin 127) :
    cT v1275 (ix2 n (0 : Fin 1)) = thrf n.val :=
  (pay3_apply v1275 n).trans (hthr n)

/-- The leaf a sample reaches, counted from the first leaf, is below 128. -/
theorem leafK_lt (b : Fin 2048) : (walkK hgf thrf b 7).1 - 127 < 128 := by
  have h := walkK_seven hgf thrf b
  omega

/-- THE MARGIN handed to the store reads, at sample `b`, the walk's margin after seven steps. -/
theorem c1420_apply
    (hhg : ∀ (n : Fin 127) (b : Fin 2048), v1278 (ix2 n b) = hgf n.val b)
    (hthr : ∀ n : Fin 127, v1275 (ix3 (0 : Fin 1) n (0 : Fin 1)) = thrf n.val) (b : Fin 2048) :
    c1420 v1275 v1278 (ValueIdx.ix1 b) = (walkK hgf thrf b 7).2 := by
  rw [c1420_eq]
  exact (stG_tracks (cT v1275) v1278 cI hgf thrf cI_apply hhg (cT_apply v1275 thrf hthr) 7 le_rfl b).2

/-- THE LEAF MASK handed to the store reads, at `(l, b)`, one exactly where `l` is the leaf sample `b` reaches. -/
theorem c1436_apply
    (hhg : ∀ (n : Fin 127) (b : Fin 2048), v1278 (ix2 n b) = hgf n.val b)
    (hthr : ∀ n : Fin 127, v1275 (ix3 (0 : Fin 1) n (0 : Fin 1)) = thrf n.val) (l : Fin 128) (b : Fin 2048) :
    c1436 v1275 v1278 (ix2 l b) = if l.val = (walkK hgf thrf b 7).1 - 127 then (1 : EReal) else 0 := by
  have h7 := walkK_seven hgf thrf b
  have hn := (stG_tracks (cT v1275) v1278 cI hgf thrf cI_apply hhg (cT_apply v1275 thrf hthr) 7 le_rfl b).1
  rw [← c1428_eq] at hn
  exact pay29_apply _ _ l b _ h7.1 h7.2 hn

/-- THE STORED BLOCK at `(0, b, e)`: the block as loaded plus the reached leaf's weight times the walk's margin. -/
theorem store_apply
    (hhg : ∀ (n : Fin 127) (b : Fin 2048), v1278 (ix2 n b) = hgf n.val b)
    (hthr : ∀ n : Fin 127, v1275 (ix3 (0 : Fin 1) n (0 : Fin 1)) = thrf n.val)
    (v1437 : Vec Ideal S1x128x10 .f32) (v1443 : Vec Ideal S1x2048x10 .f32) (b : Fin 2048) (e : Fin 10) :
    k1_pay1 (c1420 v1275 v1278) (c1436 v1275 v1278) v1437 v1443 (ix3 (0 : Fin 1) b e)
      = v1443 (ix3 (0 : Fin 1) b e)
        + v1437 (ix3 (0 : Fin 1) (⟨(walkK hgf thrf b 7).1 - 127, leafK_lt hgf thrf b⟩ : Fin 128) e)
          * (walkK hgf thrf b 7).2 := by
  rw [pay1_apply _ _ v1437 v1443 b e _ (leafK_lt hgf thrf b)
    (fun l => c1436_apply v1275 v1278 hgf thrf hhg hthr l b), c1420_apply v1275 v1278 hgf thrf hhg hthr b]

end Chain

/-! ## The same against the specification's names -/

section Spec
variable (x : Fin 2048 → Fin 256 → EReal) (W : Fin 26009 → Fin 256 → EReal)
  (thr : Fin 1024 → Fin 127 → EReal) (wts : Fin 1024 → Fin 128 → Fin 10 → EReal)
  (ord : Fin 1024 → Fin 127 → BitVec 32)

/-- For tree `t`: if the table block holds, in row `n`, the normalised feature node `n` of the tree reads, the
    thresholds' block the tree's thresholds and the weights' block the tree's leaf weights, the stored block is the
    loaded one plus the tree's contribution. -/
theorem store_spec (t : Fin 1024) (v1275 : Vec Ideal S1x127x1 .f32) (v1278 : Vec Ideal S127x2048 .f32)
    (v1437 : Vec Ideal S1x128x10 .f32) (v1443 : Vec Ideal S1x2048x10 .f32)
    (hhg : ∀ (n : Fin 127) (b : Fin 2048), v1278 (ix2 n b) = Cert.Spec.hAt x W (Cert.Spec.ordAt ord t n.val) b)
    (hthr : ∀ n : Fin 127, v1275 (ix3 (0 : Fin 1) n (0 : Fin 1)) = Cert.Spec.thrAt thr t n.val)
    (hw : ∀ (l : Fin 128) (e : Fin 10), v1437 (ix3 (0 : Fin 1) l e) = wts t l e) (b : Fin 2048) (e : Fin 10) :
    k1_pay1 (c1420 v1275 v1278) (c1436 v1275 v1278) v1437 v1443 (ix3 (0 : Fin 1) b e)
      = v1443 (ix3 (0 : Fin 1) b e) + Cert.Spec.contrib x W thr wts ord t b e := by
  rw [store_apply v1275 v1278 (fun n b => Cert.Spec.hAt x W (Cert.Spec.ordAt ord t n) b) (Cert.Spec.thrAt thr t)
    hhg hthr v1437 v1443 b e, hw]
  refine congrArg (v1443 (ix3 (0 : Fin 1) b e) + ·) ?_
  unfold Cert.Spec.contrib Cert.Spec.margin Cert.Spec.leaf Cert.Spec.wAt
  rw [route_eq_walkK, dif_pos (leafK_lt _ _ b), mul_comm]

end Spec

end Cert.KernelIdeal.HandVal

end
-- ==== Proof.KI.Body1ValB.lean ====
/-
  Pallas call 1's body, the value side, case B (the second grid coordinate is not zero).

  Each of the 127 copies lands, in row `k` of the scratch, the row of the HBM array that the table's word for node `k`
  of the point's tree names; so the scratch as loaded after the waits is `hgv`, the margin and the leaf mask the body
  hands to its store are the chain's `c1420` and `c1436` at the loaded thresholds' block and `hgv`, and the output
  block the body leaves is the store's payload at those and the two loaded blocks.
-/
import proofs.«409293_j18485539242413_1_alg».proof.Proof.KI.Body1RunB
import proofs.«409293_j18485539242413_1_alg».proof.Proof.KI.Body1ValLib
import proofs.«409293_j18485539242413_1_alg».proof.Proof.KI.Body1Rows
import proofs.«409293_j18485539242413_1_alg».proof.Proof.KI.Pay1b

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem

variable {F : FTy → Type} [FloatOps F]

/-- The all-zero offsets, as the functions the whole-block rectangles are stated with. -/
theorem hz2 : (![0, 0] : Fin 2 → ℕ) = fun _ => 0 := by funext a; fin_cases a <;> rfl
theorem hz3 : (![0, 0, 0] : Fin 3 → ℕ) = fun _ => 0 := by funext a; fin_cases a <;> rfl

/-- The scratch made of payloads that are each the array's row its word names, read back whole, is `hgv`. -/
theorem rowsOf_read_hgv (c : Dev nD) (i : grid1.Coords) (tb : HbBuf1 (F := F) c tblM) (fh : HbBuf1 (F := F) c hbM)
    (w : ℕ → S1x2048.Idx → Elt F .f32)
    (hwv : ∀ (k : ℕ) (hk : k < 127) (x : S1x2048.Idx), w k x = hgv c i tb fh (ix2 ⟨k, hk⟩ (x 1))) :
    scM.view.read (Elt F) (rowsOf scM w) = hgv c i tb fh := by
  funext y
  rw [rowsOf_read, hwv (y 0).val (y 0).isLt]
  exact congrArg (hgv c i tb fh) (eq_ix2 y).symm

open Lean Elab Tactic in
/-- Closes the `n` goals "copy `k`'s payload at `x` is `hgv` at `(k, x 1)`", `k = 0, …, n-1` in order, each from
    `row_piece` at the names the run `decl` gave copy `k`'s word and payload. -/
elab "payload_rows " decl:ident n:num : tactic => do
  let c := mkIdent `c; let i := mkIdent `i; let tb := mkIdent `tb; let fh := mkIdent `fh; let hw := mkIdent `hw; let x := mkIdent `x
  for k in [0:n.getNat] do
    let kk := Syntax.mkNumLit (toString k)
    let dma := mkIdent (decl.getId ++ `sl ++ Name.mkSimple s!"dma{k+1}")
    let r := mkIdent (decl.getId ++ `sl ++ Name.mkSimple (if k = 0 then "r" else s!"r_{k}"))
    let offA := mkIdent (Name.mkSimple s!"k1_off{2*k+1}")
    let offB := mkIdent (Name.mkSimple s!"k1_off{2*k+2}")
    evalTactic (← `(tactic| focus (show $dma $c $i $tb $fh $hw $x = _; unfold $dma; exact row_piece $c $i $tb $fh $kk (by decide) (BitVec.toNat ($r $c $i $tb)) (congrArg BitVec.toNat (word_eq $c $i $tb $kk (by decide) ($offA $i) rfl _)) ($hw _ _) ($offB ($r $c $i $tb)) rfl _ _ $x)))

/-! ## Case B -/

set_option maxHeartbeats 16000000 in
/-- Case B: the payload of the copy into row `k` is `hgv` on that row. -/
theorem payloadB_eq (c : Dev nD) (i : grid1.Coords) (tb : HbBuf1 (F := F) c tblM) (fh : HbBuf1 (F := F) c hbM) (hw : RowsOk c tb) :
    ∀ (k : ℕ) (hk : k < 127) (x : S1x2048.Idx),
      (payload_fam% kernelRun1_B [c i tb fh hw] 127) k x = hgv c i tb fh (ix2 ⟨k, hk⟩ (x 1)) := by
  intro k hk x
  interval_cases k
  payload_rows kernelRun1_B 127

/-- Case B: the scratch as loaded after the waits is `hgv`. -/
theorem v1278B_eq (c : Dev nD) (i : grid1.Coords) (tb : HbBuf1 (F := F) c tblM) (fh : HbBuf1 (F := F) c hbM) (hw : RowsOk c tb) :
    kernelRun1_B.sl.v1278 c i tb fh hw = hgv c i tb fh := by
  unfold kernelRun1_B.sl.v1278
  rw [View.readAt_eq_ld, rowsOf_read_hgv c i tb fh _ (payloadB_eq c i tb fh hw)]
  exact View.ld_unit_zero (S := S127x2048) hz2 _ _

/-- Case B: the thresholds' column as computed from the loaded block. -/
theorem r127B_eq (c : Dev nD) (arg3 : Memref sig .tc .vmem S1x127x1 .f32) (harg3 : arg3.IsWhole) (x3 : Vec F S1x127x1 .f32) :
    kernelRun1_B.sl.r_127 c arg3 harg3 x3 = k1_pay3 x3 := by
  unfold kernelRun1_B.sl.r_127
  simp only [View.readAt_eq_ld, harg3.read_unread, View.ld_unit_zero (S := S1x127x1) hz3]

/-- Case B: the margin handed to the store is `c1420` of the thresholds' block and `hgv`. -/
theorem r136B_eq (c : Dev nD) (i : grid1.Coords) (arg3 : Memref sig .tc .vmem S1x127x1 .f32) (harg3 : arg3.IsWhole) (x3 : Vec Ideal S1x127x1 .f32)
    (tb : HbBuf1 (F := Ideal) c tblM) (fh : HbBuf1 (F := Ideal) c hbM) (hw : RowsOk c tb) :
    kernelRun1_B.sl.r_136 (F := Ideal) c i arg3 harg3 x3 tb fh hw = c1420 x3 (hgv c i tb fh) := by
  unfold kernelRun1_B.sl.r_136 kernelRun1_B.sl.r_135 kernelRun1_B.sl.r_134 kernelRun1_B.sl.r_133 kernelRun1_B.sl.r_132 kernelRun1_B.sl.r_131
    kernelRun1_B.sl.r_130 kernelRun1_B.sl.r_129 kernelRun1_B.sl.r_128 kernelRun1_B.sl.v1281
  rw [r127B_eq, v1278B_eq]
  rfl

/-- Case B: the leaf mask handed to the store is `c1436` of the thresholds' block and `hgv`. -/
theorem r139B_eq (c : Dev nD) (i : grid1.Coords) (arg3 : Memref sig .tc .vmem S1x127x1 .f32) (harg3 : arg3.IsWhole) (x3 : Vec Ideal S1x127x1 .f32)
    (tb : HbBuf1 (F := Ideal) c tblM) (fh : HbBuf1 (F := Ideal) c hbM) (hw : RowsOk c tb) :
    kernelRun1_B.sl.r_139 (F := Ideal) c i arg3 harg3 x3 tb fh hw = c1436 x3 (hgv c i tb fh) := by
  unfold kernelRun1_B.sl.r_139 kernelRun1_B.sl.r_138 kernelRun1_B.sl.r_137 kernelRun1_B.sl.r_134 kernelRun1_B.sl.r_133 kernelRun1_B.sl.r_132 kernelRun1_B.sl.r_131
    kernelRun1_B.sl.r_130 kernelRun1_B.sl.r_129 kernelRun1_B.sl.v1281
  rw [r127B_eq, v1278B_eq]
  rfl

set_option maxHeartbeats 4000000 in
/-- Case B: the output block the body leaves is the store's payload at the loaded blocks. -/
theorem out1_B_2_val (c : Dev nD) (i : grid1.Coords) (hc0 : ¬ cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec Ideal S1x127x1 .f32) (x4 : Vec Ideal S1x128x10 .f32) (x6 : Vec Ideal S1x2048x10 .f32) (tb : HbBuf1 (F := Ideal) c tblM) (fh : HbBuf1 (F := Ideal) c hbM) (hw : RowsOk c tb) :
    VO1_2.read (Elt Ideal) (VO1_2.writes (Elt Ideal) VO1_2.junk (kernelRun1_B (F := Ideal) c i hc0 arg3 harg3 arg4 harg4 arg6 harg6 x3 x4 x6 tb fh hw).1)
      = k1_pay1 (c1420 x3 (hgv c i tb fh)) (c1436 x3 (hgv c i tb fh)) x4 x6 := by
  rw [View.read_writes_eq_canon _ _ _ (View.cover_of_tiledL (kernelRun1_B (F := Ideal) c i hc0 arg3 harg3 arg4 harg4 arg6 harg6 x3 x4 x6 tb fh hw).1 S1x2048x10.size (by sl_kernel_rfl))]
  unfold kernelRun1_B
  dsimp only
  rw [View.canon_unit_zero (S := S1x2048x10) hz3]
  rw [r136B_eq, r139B_eq]
  simp only [View.readAt_eq_ld, harg4.read_unread, harg6.read_unread, View.ld_unit_zero (S := S1x128x10) hz3, View.ld_unit_zero (S := S1x2048x10) hz3]

end Cert.KernelIdeal.HandVal

end
-- ==== Proof.KI.Body1ValA.lean ====
/-
  Pallas call 1's body, the value side, case A (the second grid coordinate is zero: the output block is zeroed first).

  As in case B the scratch as loaded after the waits is `hgv` and the margin and the leaf mask handed to the store are
  the chain's `c1420` and `c1436`; the block the store adds to is the zero block the body wrote at the start.
-/
import proofs.«409293_j18485539242413_1_alg».proof.Proof.KI.Body1RunA
import proofs.«409293_j18485539242413_1_alg».proof.Proof.KI.Body1ValB

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem

variable {F : FTy → Type} [FloatOps F]

open Lean Elab Tactic in
/-- As `payload_rows`, for a run whose copy `k`'s payload is named `dma(k+1+shift)`. -/
elab "payload_rowsS " decl:ident shift:num n:num : tactic => do
  let c := mkIdent `c; let i := mkIdent `i; let tb := mkIdent `tb; let fh := mkIdent `fh; let hw := mkIdent `hw; let x := mkIdent `x
  for k in [0:n.getNat] do
    let kk := Syntax.mkNumLit (toString k)
    let dma := mkIdent (decl.getId ++ `sl ++ Name.mkSimple s!"dma{k+1+shift.getNat}")
    let r := mkIdent (decl.getId ++ `sl ++ Name.mkSimple (if k = 0 then "r" else s!"r_{k}"))
    let offA := mkIdent (Name.mkSimple s!"k1_off{2*k+1}")
    let offB := mkIdent (Name.mkSimple s!"k1_off{2*k+2}")
    evalTactic (← `(tactic| focus (show $dma $c $i $tb $fh $hw $x = _; unfold $dma; exact row_piece $c $i $tb $fh $kk (by decide) (BitVec.toNat ($r $c $i $tb)) (congrArg BitVec.toNat (word_eq $c $i $tb $kk (by decide) ($offA $i) rfl _)) ($hw _ _) ($offB ($r $c $i $tb)) rfl _ _ $x)))

/-! ## Case A -/

set_option maxHeartbeats 16000000 in
/-- Case A: the payload of the copy into row `k` is `hgv` on that row. -/
theorem payloadA_eq (c : Dev nD) (i : grid1.Coords) (tb : HbBuf1 (F := F) c tblM) (fh : HbBuf1 (F := F) c hbM) (hw : RowsOk c tb) :
    ∀ (k : ℕ) (hk : k < 127) (x : S1x2048.Idx),
      (payload_famA% kernelRun1_A 2 [c i tb fh hw] 127) k x = hgv c i tb fh (ix2 ⟨k, hk⟩ (x 1)) := by
  intro k hk x
  interval_cases k
  payload_rowsS kernelRun1_A 2 127

/-- Case A: the scratch as loaded after the waits is `hgv`. -/
theorem v1278A_eq (c : Dev nD) (i : grid1.Coords) (tb : HbBuf1 (F := F) c tblM) (fh : HbBuf1 (F := F) c hbM) (hw : RowsOk c tb) :
    kernelRun1_A.sl.v1278 c i tb fh hw = hgv c i tb fh := by
  unfold kernelRun1_A.sl.v1278
  rw [View.readAt_eq_ld, rowsOf_read_hgv c i tb fh _ (payloadA_eq c i tb fh hw)]
  exact View.ld_unit_zero (S := S127x2048) hz2 _ _

/-- Case A: the thresholds' column as computed from the loaded block. -/
theorem r127A_eq (c : Dev nD) (arg3 : Memref sig .tc .vmem S1x127x1 .f32) (harg3 : arg3.IsWhole) (x3 : Vec F S1x127x1 .f32) :
    kernelRun1_A.sl.r_127 c arg3 harg3 x3 = k1_pay3 x3 := by
  unfold kernelRun1_A.sl.r_127
  simp only [View.readAt_eq_ld, harg3.read_unread, View.ld_unit_zero (S := S1x127x1) hz3]

/-- Case A: the output block read back after it was zeroed is the zero block. -/
theorem v1443A_eq (c : Dev nD) (arg6 : Memref sig .tc .vmem S1x2048x10 .f32) :
    kernelRun1_A.sl.v1443 (F := F) c arg6 = k1_pay2 := by
  unfold kernelRun1_A.sl.v1443 kernelRun1_A.sl.H6_1
  exact View.readCov_unit_zero (S := S1x2048x10) arg6.view hz3 _ _

/-- Case A: the margin handed to the store is `c1420` of the thresholds' block and `hgv`. -/
theorem r136A_eq (c : Dev nD) (i : grid1.Coords) (arg3 : Memref sig .tc .vmem S1x127x1 .f32) (harg3 : arg3.IsWhole) (x3 : Vec Ideal S1x127x1 .f32)
    (tb : HbBuf1 (F := Ideal) c tblM) (fh : HbBuf1 (F := Ideal) c hbM) (hw : RowsOk c tb) :
    kernelRun1_A.sl.r_136 (F := Ideal) c i arg3 harg3 x3 tb fh hw = c1420 x3 (hgv c i tb fh) := by
  unfold kernelRun1_A.sl.r_136 kernelRun1_A.sl.r_135 kernelRun1_A.sl.r_134 kernelRun1_A.sl.r_133 kernelRun1_A.sl.r_132 kernelRun1_A.sl.r_131
    kernelRun1_A.sl.r_130 kernelRun1_A.sl.r_129 kernelRun1_A.sl.r_128 kernelRun1_A.sl.v1281
  rw [r127A_eq, v1278A_eq]
  rfl

/-- Case A: the leaf mask handed to the store is `c1436` of the thresholds' block and `hgv`. -/
theorem r139A_eq (c : Dev nD) (i : grid1.Coords) (arg3 : Memref sig .tc .vmem S1x127x1 .f32) (harg3 : arg3.IsWhole) (x3 : Vec Ideal S1x127x1 .f32)
    (tb : HbBuf1 (F := Ideal) c tblM) (fh : HbBuf1 (F := Ideal) c hbM) (hw : RowsOk c tb) :
    kernelRun1_A.sl.r_139 (F := Ideal) c i arg3 harg3 x3 tb fh hw = c1436 x3 (hgv c i tb fh) := by
  unfold kernelRun1_A.sl.r_139 kernelRun1_A.sl.r_138 kernelRun1_A.sl.r_137 kernelRun1_A.sl.r_134 kernelRun1_A.sl.r_133 kernelRun1_A.sl.r_132 kernelRun1_A.sl.r_131
    kernelRun1_A.sl.r_130 kernelRun1_A.sl.r_129 kernelRun1_A.sl.v1281
  rw [r127A_eq, v1278A_eq]
  rfl

set_option maxHeartbeats 4000000 in
/-- Case A: the output block the body leaves is the store's payload at the loaded blocks and the zero block. -/
theorem out1_A_2_val (c : Dev nD) (i : grid1.Coords) (hc0 : cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec Ideal S1x127x1 .f32) (x4 : Vec Ideal S1x128x10 .f32) (tb : HbBuf1 (F := Ideal) c tblM) (fh : HbBuf1 (F := Ideal) c hbM) (hw : RowsOk c tb) :
    VO1_2.read (Elt Ideal) (VO1_2.writes (Elt Ideal) VO1_2.junk (kernelRun1_A (F := Ideal) c i hc0 arg3 harg3 arg4 harg4 arg6 harg6 x3 x4 tb fh hw).1)
      = k1_pay1 (c1420 x3 (hgv c i tb fh)) (c1436 x3 (hgv c i tb fh)) x4 (k1_pay2 (F := Ideal)) := by
  rw [View.read_writes_eq_canon _ _ _ (View.cover_of_tiledL (kernelRun1_A (F := Ideal) c i hc0 arg3 harg3 arg4 harg4 arg6 harg6 x3 x4 tb fh hw).1 S1x2048x10.size (by sl_kernel_rfl))]
  unfold kernelRun1_A
  dsimp only
  rw [View.canon_cons_unit_zero (S := S1x2048x10) hz3]
  rw [r136A_eq, r139A_eq, v1443A_eq]
  simp only [View.readAt_eq_ld, harg4.read_unread, View.ld_unit_zero (S := S1x128x10) hz3]

end Cert.KernelIdeal.HandVal

end
-- ==== Proof.KI.Body1Val.lean ====
/-
  Pallas call 1's body, the value side: what each case leaves in the output block, as the store's payload at the
  loaded blocks and the scratch `hgv` (row `k`: the HBM array's row that the table's word for node `k` names).
-/
import proofs.«409293_j18485539242413_1_alg».proof.Proof.KI.Body1Run
import proofs.«409293_j18485539242413_1_alg».proof.Proof.KI.Body1ValA

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem

/-- Case A: the output block is the store's payload at the margin, the leaf mask, the weights' block and the zero block. -/
theorem out1_A_2_eq (c : Dev nD) (i : grid1.Coords) (hc0 : cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec Ideal S1x127x1 .f32) (x4 : Vec Ideal S1x128x10 .f32) (tb : HbBuf1 (F := Ideal) c tblM) (fh : HbBuf1 (F := Ideal) c hbM) (hw : RowsOk c tb) :
    out1_A_2 (F := Ideal) c i hc0 arg3 harg3 arg4 harg4 arg6 harg6 x3 x4 tb fh hw
      = k1_pay1 (c1420 x3 (hgv c i tb fh)) (c1436 x3 (hgv c i tb fh)) x4 (k1_pay2 (F := Ideal)) := by
  unfold out1_A_2
  exact out1_A_2_val c i hc0 arg3 harg3 arg4 harg4 arg6 harg6 x3 x4 tb fh hw

/-- Case B: the output block is the store's payload at the margin, the leaf mask, the weights' block and the block as loaded. -/
theorem out1_B_2_eq (c : Dev nD) (i : grid1.Coords) (hc0 : ¬ cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec Ideal S1x127x1 .f32) (x4 : Vec Ideal S1x128x10 .f32) (x6 : Vec Ideal S1x2048x10 .f32) (tb : HbBuf1 (F := Ideal) c tblM) (fh : HbBuf1 (F := Ideal) c hbM) (hw : RowsOk c tb) :
    out1_B_2 (F := Ideal) c i hc0 arg3 harg3 arg4 harg4 arg6 harg6 x3 x4 x6 tb fh hw
      = k1_pay1 (c1420 x3 (hgv c i tb fh)) (c1436 x3 (hgv c i tb fh)) x4 x6 := by
  unfold out1_B_2
  exact out1_B_2_val c i hc0 arg3 harg3 arg4 harg4 arg6 harg6 x3 x4 x6 tb fh hw

end Cert.KernelIdeal.HandVal

end
-- ==== Proof.KI.KVal1Acc.lean ====
/-
  What the second kernel's accumulator holds after each tree.

  The second kernel runs over 1024 points, point t working on tree t; points 0 … 511 are the first half, 512 … 1023
  the second.  At point t it reads row t of the thresholds' array and slab t of the leaf weights' array through its
  two input windows, copies the 127 rows of the normalised-feature array that the table names for the tree's nodes,
  routes every sample down the tree, and adds the reached leaf's weights times the walk's margin into the half's
  accumulator, which it resets at the first tree of a half.

  Over plain blocks one point's step is: the stored block is the loaded one (zero at a reset) plus the tree's
  contribution (pointA, pointB).  The windows' blocks at point t are the rows of their arrays (thrblk_apply,
  wtsblk_apply), so by induction on the position inside a half the accumulator after point n holds the sum of the
  contributions of the trees  512 (n / 512) … n  (outsAt1_eq).
-/
import proofs.«409293_j18485539242413_1_alg».proof.Proof.KI.Data1
import proofs.«409293_j18485539242413_1_alg».proof.Proof.KI.Body1Val
import Idealize.ShloMosaic.Lib.Pipeline.Value
import Idealize.ShloMosaic.Lib.Decide

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## One tree's step, over plain blocks -/

section Point
variable (x : Fin 2048 → Fin 256 → EReal) (W : Fin 26009 → Fin 256 → EReal)
  (thr : Fin 1024 → Fin 127 → EReal) (wts : Fin 1024 → Fin 128 → Fin 10 → EReal)
  (ord : Fin 1024 → Fin 127 → BitVec 32)

/-- The scratch rows at a point of tree `t` are the normalised features the tree's nodes read. -/
theorem hgv_spec (c : Dev nD) (i : grid1.Coords) (tb : HbBuf1 (F := Ideal) c tblM) (fh : HbBuf1 (F := Ideal) c hbM)
    (t : Fin 1024) (ht : treeOf i = t.val)
    (htb : ∀ n : Fin 127, (tb : S1024x127.Idx → BitVec 32) (ix2 t n) = ord t n)
    (hrange : ∀ n : Fin 127, (ord t n).toNat < 26009)
    (hfh : ∀ (f : Fin 26009) (b : Fin 2048), (fh : S26112x2048.Idx → EReal) (ix2 ⟨f.val, by omega⟩ b) = Cert.Spec.hn x W f b)
    (n : Fin 127) (b : Fin 2048) :
    hgv c i tb fh (ix2 n b) = Cert.Spec.hAt x W (Cert.Spec.ordAt ord t n.val) b := by
  obtain rfl : t = ⟨treeOf i, treeOf_lt i⟩ := Fin.ext ht.symm
  have hr : ∀ k : Fin 127, ((tb : S1024x127.Idx → BitVec 32) (ix2 ⟨treeOf i, treeOf_lt i⟩ k)).toNat < 26112 := fun k => by
    rw [htb k]; have := hrange k; omega
  rw [hgv_apply c i tb fh hr n b]
  unfold Cert.Spec.hAt Cert.Spec.ordAt
  have hn : n.val < 127 := n.isLt
  rw [dif_pos hn, dif_pos (hrange ⟨n.val, hn⟩)]
  refine Eq.trans (congrArg (fh : S26112x2048.Idx → EReal) ?_) (hfh ⟨(ord ⟨treeOf i, treeOf_lt i⟩ ⟨n.val, hn⟩).toNat, hrange ⟨n.val, hn⟩⟩ b)
  funext a; refine Fin.ext ?_
  match a with
  | ⟨0, _⟩ => exact congrArg BitVec.toNat (htb n)
  | ⟨1, _⟩ => rfl

/-- The first tree of a half leaves its own contribution. -/
theorem pointA (c : Dev nD) (i : grid1.Coords) (hc0 : cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec Ideal S1x127x1 .f32) (x4 : Vec Ideal S1x128x10 .f32) (tb : HbBuf1 (F := Ideal) c tblM) (fh : HbBuf1 (F := Ideal) c hbM) (hw : RowsOk c tb)
    (t : Fin 1024) (ht : treeOf i = t.val)
    (hx3 : ∀ n : Fin 127, x3 (ix3 (0 : Fin 1) n (0 : Fin 1)) = thr t n)
    (hx4 : ∀ (l : Fin 128) (e : Fin 10), x4 (ix3 (0 : Fin 1) l e) = wts t l e)
    (htb : ∀ n : Fin 127, (tb : S1024x127.Idx → BitVec 32) (ix2 t n) = ord t n)
    (hrange : ∀ n : Fin 127, (ord t n).toNat < 26009)
    (hfh : ∀ (f : Fin 26009) (b : Fin 2048), (fh : S26112x2048.Idx → EReal) (ix2 ⟨f.val, by omega⟩ b) = Cert.Spec.hn x W f b)
    (b : Fin 2048) (e : Fin 10) :
    out1_A_2 (F := Ideal) c i hc0 arg3 harg3 arg4 harg4 arg6 harg6 x3 x4 tb fh hw (ix3 (0 : Fin 1) b e)
      = Cert.Spec.contrib x W thr wts ord t b e := by
  refine (congrFun (out1_A_2_eq c i hc0 arg3 harg3 arg4 harg4 arg6 harg6 x3 x4 tb fh hw) (ix3 (0 : Fin 1) b e)).trans ?_
  refine (store_spec x W thr wts ord t x3 (hgv c i tb fh) x4 (k1_pay2 (F := Ideal))
    (hgv_spec x W ord c i tb fh t ht htb hrange hfh) (fun n => ?_) hx4 b e).trans ?_
  · unfold Cert.Spec.thrAt; rw [dif_pos n.isLt]; exact hx3 n
  · rw [pay2_apply, zero_add]

/-- Every other tree adds its contribution to what the tree before left. -/
theorem pointB (c : Dev nD) (i : grid1.Coords) (hc0 : ¬ cond1_0 i) (arg3 : Memref sig .tc .vmem S1x127x1 .f32) (harg3 : arg3.IsWhole) (arg4 : Memref sig .tc .vmem S1x128x10 .f32) (harg4 : arg4.IsWhole) (arg6 : Memref sig .tc .vmem S1x2048x10 .f32) (harg6 : arg6.IsWhole)
    (x3 : Vec Ideal S1x127x1 .f32) (x4 : Vec Ideal S1x128x10 .f32) (x6 : Vec Ideal S1x2048x10 .f32) (tb : HbBuf1 (F := Ideal) c tblM) (fh : HbBuf1 (F := Ideal) c hbM) (hw : RowsOk c tb)
    (t : Fin 1024) (ht : treeOf i = t.val)
    (hx3 : ∀ n : Fin 127, x3 (ix3 (0 : Fin 1) n (0 : Fin 1)) = thr t n)
    (hx4 : ∀ (l : Fin 128) (e : Fin 10), x4 (ix3 (0 : Fin 1) l e) = wts t l e)
    (htb : ∀ n : Fin 127, (tb : S1024x127.Idx → BitVec 32) (ix2 t n) = ord t n)
    (hrange : ∀ n : Fin 127, (ord t n).toNat < 26009)
    (hfh : ∀ (f : Fin 26009) (b : Fin 2048), (fh : S26112x2048.Idx → EReal) (ix2 ⟨f.val, by omega⟩ b) = Cert.Spec.hn x W f b)
    (b : Fin 2048) (e : Fin 10) :
    out1_B_2 (F := Ideal) c i hc0 arg3 harg3 arg4 harg4 arg6 harg6 x3 x4 x6 tb fh hw (ix3 (0 : Fin 1) b e)
      = x6 (ix3 (0 : Fin 1) b e) + Cert.Spec.contrib x W thr wts ord t b e := by
  refine (congrFun (out1_B_2_eq c i hc0 arg3 harg3 arg4 harg4 arg6 harg6 x3 x4 x6 tb fh hw) (ix3 (0 : Fin 1) b e)).trans ?_
  refine store_spec x W thr wts ord t x3 (hgv c i tb fh) x4 x6
    (hgv_spec x W ord c i tb fh t ht htb hrange hfh) (fun n => ?_) hx4 b e
  unfold Cert.Spec.thrAt; rw [dif_pos n.isLt]; exact hx3 n

end Point

/-! ## The windows' blocks at a point -/

section Blocks1
variable (V : (c : Dev nD) → (b : Ref sig .tc) → Buf (Elt Ideal) ((c : Thread nD τ).loc b))
variable (a1 : (pcfg1 (F := Ideal)).Adm)

/-- The printed index maps over the grid: the thresholds' and the weights' block is the point's own tree, the
    accumulator's block is the point's half; and the tree a point works on is the point's number. -/
theorem idx_facts1 : ∀ t : Fin (cfg1 a1).N,
    ((cfg1 a1).win 0).index t (0 : Fin 3) = t.val ∧ ((cfg1 a1).win 0).index t (1 : Fin 3) = 0 ∧ ((cfg1 a1).win 0).index t (2 : Fin 3) = 0
    ∧ ((cfg1 a1).win 1).index t (0 : Fin 3) = t.val ∧ ((cfg1 a1).win 1).index t (1 : Fin 3) = 0 ∧ ((cfg1 a1).win 1).index t (2 : Fin 3) = 0
    ∧ ((cfg1 a1).win 2).index t (0 : Fin 3) = t.val / 512 ∧ ((cfg1 a1).win 2).index t (1 : Fin 3) = 0 ∧ ((cfg1 a1).win 2).index t (2 : Fin 3) = 0
    ∧ treeOf (grid1.coords t) = t.val :=
  (by decide +kernel : ∀ t : Fin grid1.N,
    cc1_transform_0 (grid1.coords t) (0 : Fin 3) = t.val ∧ cc1_transform_0 (grid1.coords t) (1 : Fin 3) = 0 ∧ cc1_transform_0 (grid1.coords t) (2 : Fin 3) = 0
    ∧ cc1_transform_1 (grid1.coords t) (0 : Fin 3) = t.val ∧ cc1_transform_1 (grid1.coords t) (1 : Fin 3) = 0 ∧ cc1_transform_1 (grid1.coords t) (2 : Fin 3) = 0
    ∧ cc1_transform_3 (grid1.coords t) (0 : Fin 3) = t.val / 512 ∧ cc1_transform_3 (grid1.coords t) (1 : Fin 3) = 0 ∧ cc1_transform_3 (grid1.coords t) (2 : Fin 3) = 0
    ∧ (grid1.coords t 0).val * 512 + (grid1.coords t 1).val = t.val)

/-- A point as a tree number. -/
abbrev treeAt (t : Fin (cfg1 a1).N) : Fin 1024 := ⟨t.val, lt_of_lt_of_eq t.isLt (N1_eq a1)⟩

/-- The thresholds' block at point `t` is row `t` of the thresholds' array. -/
theorem thrblk_apply (c : Dev nD) (t : Fin (cfg1 a1).N) (n : Fin 127) :
    (iblk1 V a1 c 0 t : Vec Ideal S1x127x1 .f32) (ix3 (0 : Fin 1) n (0 : Fin 1))
      = (V c main_v3 : S1024x127x1.Idx → EReal) (ix3 (treeAt a1 t) n (0 : Fin 1)) := by
  obtain ⟨e0, e1, e2, -⟩ := idx_facts1 a1 t
  show V c main_v3 ((((cfg1 a1).win 0).blk t).view.emb (ix3 (0 : Fin 1) n (0 : Fin 1))) = V c main_v3 _
  refine congrArg (V c main_v3) ?_
  funext a; apply Fin.ext
  match a with
  | ⟨0, _⟩ => show ((cfg1 a1).win 0).index t (0 : Fin 3) * 1 + 1 * 0 = t.val; omega
  | ⟨1, _⟩ => show ((cfg1 a1).win 0).index t (1 : Fin 3) * 127 + 1 * n.val = n.val; omega
  | ⟨2, _⟩ => show ((cfg1 a1).win 0).index t (2 : Fin 3) * 1 + 1 * 0 = 0; omega

/-- The weights' block at point `t` is slab `t` of the weights' array. -/
theorem wtsblk_apply (c : Dev nD) (t : Fin (cfg1 a1).N) (l : Fin 128) (e : Fin 10) :
    (iblk1 V a1 c 1 t : Vec Ideal S1x128x10 .f32) (ix3 (0 : Fin 1) l e)
      = (V c main_arg3 : S1024x128x10.Idx → EReal) (ix3 (treeAt a1 t) l e) := by
  obtain ⟨-, -, -, e0, e1, e2, -⟩ := idx_facts1 a1 t
  show V c main_arg3 ((((cfg1 a1).win 1).blk t).view.emb (ix3 (0 : Fin 1) l e)) = V c main_arg3 _
  refine congrArg (V c main_arg3) ?_
  funext a; apply Fin.ext
  match a with
  | ⟨0, _⟩ => show ((cfg1 a1).win 1).index t (0 : Fin 3) * 1 + 1 * 0 = t.val; omega
  | ⟨1, _⟩ => show ((cfg1 a1).win 1).index t (1 : Fin 3) * 128 + 1 * l.val = l.val; omega
  | ⟨2, _⟩ => show ((cfg1 a1).win 1).index t (2 : Fin 3) * 10 + 1 * e.val = e.val; omega

end Blocks1

/-! ## The accumulation -/

section Acc
variable (V : (c : Dev nD) → (b : Ref sig .tc) → Buf (Elt Ideal) ((c : Thread nD τ).loc b))
variable (a1 : (pcfg1 (F := Ideal)).Adm)
variable (x : Fin 2048 → Fin 256 → EReal) (W : Fin 26009 → Fin 256 → EReal)
  (thr : Fin 1024 → Fin 127 → EReal) (wts : Fin 1024 → Fin 128 → Fin 10 → EReal)
  (ord : Fin 1024 → Fin 127 → BitVec 32)

/-- A tree's contribution at a natural-number tree index (0 past the last tree). -/
def contribN (n : ℕ) (b : Fin 2048) (e : Fin 10) : EReal :=
  if h : n < 1024 then Cert.Spec.contrib x W thr wts ord ⟨n, h⟩ b e else 0

variable (c : Dev nD) (hw : RowsOk c (V c main_arg4))
  (hthr : ∀ (t : Fin 1024) (n : Fin 127), (V c main_v3 : S1024x127x1.Idx → EReal) (ix3 t n (0 : Fin 1)) = thr t n)
  (hwts : ∀ (t : Fin 1024) (l : Fin 128) (e : Fin 10), (V c main_arg3 : S1024x128x10.Idx → EReal) (ix3 t l e) = wts t l e)
  (hord : ∀ (t : Fin 1024) (n : Fin 127), (V c main_arg4 : S1024x127.Idx → BitVec 32) (ix2 t n) = ord t n)
  (hrange : ∀ (t : Fin 1024) (n : Fin 127), (ord t n).toNat < 26009)
  (hh : ∀ (f : Fin 26009) (b : Fin 2048), (V c main_v2 : S26112x2048.Idx → EReal) (ix2 ⟨f.val, by omega⟩ b) = Cert.Spec.hn x W f b)

include hthr hwts hord hrange hh

/-- After the first tree of a half the accumulator holds that tree's contribution. -/
theorem stepA (t : Fin (cfg1 a1).N) (h0 : t.val % 512 = 0) (b : Fin 2048) (e : Fin 10) :
    outsAt1 V a1 c hw t.val t.isLt (ix3 (0 : Fin 1) b e) = Cert.Spec.contrib x W thr wts ord (treeAt a1 t) b e := by
  obtain ⟨-, -, -, -, -, -, -, -, -, et⟩ := idx_facts1 a1 t
  rw [outsAt1_A V a1 c hw t h0]
  exact pointA x W thr wts ord c (grid1.coords t) ((hcond1_0 t).mpr h0) (ms1_0 a1 t) (hs1_0 a1 t) (ms1_1 a1 t) (hs1_1 a1 t)
    (ms1_2 a1 t) (hs1_2 a1 t) (iblk1 V a1 c 0 t) (iblk1 V a1 c 1 t) (V c main_arg4) (V c main_v2) hw (treeAt a1 t) et
    (fun n => (thrblk_apply V a1 c t n).trans (hthr (treeAt a1 t) n))
    (fun l e => (wtsblk_apply V a1 c t l e).trans (hwts (treeAt a1 t) l e))
    (fun n => hord (treeAt a1 t) n) (fun n => hrange (treeAt a1 t) n) hh b e

/-- After any other tree it holds what the tree before left plus that tree's contribution. -/
theorem stepB (t : Fin (cfg1 a1).N) (h0 : ¬ t.val % 512 = 0) (b : Fin 2048) (e : Fin 10) :
    outsAt1 V a1 c hw t.val t.isLt (ix3 (0 : Fin 1) b e)
      = outsAt1 V a1 c hw (t.val - 1) (Nat.lt_of_le_of_lt (Nat.sub_le _ _) t.isLt) (ix3 (0 : Fin 1) b e)
        + Cert.Spec.contrib x W thr wts ord (treeAt a1 t) b e := by
  obtain ⟨-, -, -, -, -, -, -, -, -, et⟩ := idx_facts1 a1 t
  rw [outsAt1_B V a1 c hw t h0]
  exact pointB x W thr wts ord c (grid1.coords t) (fun h => h0 ((hcond1_0 t).mp h)) (ms1_0 a1 t) (hs1_0 a1 t) (ms1_1 a1 t) (hs1_1 a1 t)
    (ms1_2 a1 t) (hs1_2 a1 t) (iblk1 V a1 c 0 t) (iblk1 V a1 c 1 t)
    (outsAt1 V a1 c hw (t.val - 1) (Nat.lt_of_le_of_lt (Nat.sub_le _ _) t.isLt)) (V c main_arg4) (V c main_v2) hw (treeAt a1 t) et
    (fun n => (thrblk_apply V a1 c t n).trans (hthr (treeAt a1 t) n))
    (fun l e => (wtsblk_apply V a1 c t l e).trans (hwts (treeAt a1 t) l e))
    (fun n => hord (treeAt a1 t) n) (fun n => hrange (treeAt a1 t) n) hh b e

/-- THE ACCUMULATION: after point `n`, tree `n mod 512` of its half, the accumulator holds the sum of the contributions
    of the half's trees up to that one. -/
theorem outsAt1_eq : ∀ (n : ℕ) (hn : n < (cfg1 a1).N) (b : Fin 2048) (e : Fin 10),
    outsAt1 V a1 c hw n hn (ix3 (0 : Fin 1) b e)
      = ∑ k ∈ Finset.range (n % 512 + 1), contribN x W thr wts ord (n / 512 * 512 + k) b e := by
  intro n
  induction n with
  | zero =>
    intro hn b e
    have hN : (cfg1 a1).N = 1024 := N1_eq a1
    refine (stepA V a1 x W thr wts ord c hw hthr hwts hord hrange hh ⟨0, hn⟩ rfl b e).trans ?_
    rw [show 0 % 512 + 1 = 1 from rfl, Finset.sum_range_one]
    unfold contribN
    rw [dif_pos (by omega : 0 / 512 * 512 + 0 < 1024)]
  | succ n ih =>
    intro hn b e
    have hN : (cfg1 a1).N = 1024 := N1_eq a1
    have hn' : n + 1 < 1024 := lt_of_lt_of_eq hn hN
    by_cases h0 : (n + 1) % 512 = 0
    · refine (stepA V a1 x W thr wts ord c hw hthr hwts hord hrange hh ⟨n + 1, hn⟩ h0 b e).trans ?_
      rw [h0, Finset.sum_range_one]
      unfold contribN
      have e1 : (n + 1) / 512 * 512 + 0 = n + 1 := by omega
      rw [dif_pos (by omega : (n + 1) / 512 * 512 + 0 < 1024)]
      exact congrArg (fun t : Fin 1024 => Cert.Spec.contrib x W thr wts ord t b e) (Fin.ext e1.symm)
    · refine (stepB V a1 x W thr wts ord c hw hthr hwts hord hrange hh ⟨n + 1, hn⟩ h0 b e).trans ?_
      show outsAt1 V a1 c hw n _ (ix3 (0 : Fin 1) b e) + _ = _
      rw [ih (Nat.lt_of_succ_lt hn) b e]
      have e1 : n % 512 + 1 = (n + 1) % 512 := by omega
      have e2 : n / 512 = (n + 1) / 512 := by omega
      rw [e1, e2, Finset.sum_range_succ (fun k => contribN x W thr wts ord ((n + 1) / 512 * 512 + k) b e) ((n + 1) % 512)]
      refine congrArg (_ + ·) ?_
      unfold contribN
      have e3 : (n + 1) / 512 * 512 + (n + 1) % 512 = n + 1 := by omega
      rw [dif_pos (by omega : (n + 1) / 512 * 512 + (n + 1) % 512 < 1024)]
      exact congrArg (fun t : Fin 1024 => Cert.Spec.contrib x W thr wts ord t b e) (Fin.ext e3.symm)

end Acc

end Cert.KernelIdeal.HandVal

end
-- ==== Proof.LibSumBlocks.lean ====
/-
  A sum over `p·q` consecutive numbers is the sum over `p` blocks of the sums over the `q` numbers of each block.
-/
import Mathlib.Algebra.BigOperators.Fin
import Mathlib.Logic.Equiv.Fin.Basic

namespace Cert.LibSumBlocks

/-- The numbers below `p·q`, block by block: number `t·q + r` is entry `r` of block `t`. -/
theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.KI.KVal1.lean ====
/-
  The array the second kernel leaves: entry (g, b, e) is the sum of the contributions of the 512 trees of half g.

  The accumulator of half g is written back once, after the half's last tree (point 512 g + 511), to block g of the
  2 × 2048 × 10 result array.  By the accumulation (outsAt1_eq) what it then holds at (b, e) is the sum over the
  half's 512 trees of the tree's contribution, so what a writing point writes back is its block of ONE function of the
  specification's data (flushed1_2_eq); the two blocks tile the array (cover1_2_arr), so the array ends holding that
  function (arr1_eq_G1, arr1_value).  The two halves together are the sum over all 1024 trees, the specification's
  result (halves_eq_out).
-/
import proofs.«409293_j18485539242413_1_alg».proof.Proof.KI.KVal1Acc
import proofs.«409293_j18485539242413_1_alg».proof.Proof.LibSumBlocks
import Idealize.ShloMosaic.Lib.Pipeline.Value
import Idealize.ShloMosaic.Lib.Decide

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## From the accumulator's blocks to the result array -/

section Array
variable (V : (c : Dev nD) → (b : Ref sig .tc) → Buf (Elt Ideal) ((c : Thread nD τ).loc b))
variable (a1 : (pcfg1 (F := Ideal)).Adm)
variable (x : Fin 2048 → Fin 256 → EReal) (W : Fin 26009 → Fin 256 → EReal)
  (thr : Fin 1024 → Fin 127 → EReal) (wts : Fin 1024 → Fin 128 → Fin 10 → EReal)
  (ord : Fin 1024 → Fin 127 → BitVec 32)

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The sum of the contributions of the 512 trees of half `g`. -/
def halfSum (g : ℕ) (b : Fin 2048) (e : Fin 10) : EReal :=
  ∑ k ∈ Finset.range 512, contribN x W thr wts ord (g * 512 + k) b e

/-- The result array as one function of the specification's data: at `(g, b, e)` half `g`'s sum. -/
def G1 : Vec Ideal S2x2048x10 .f32 := fun i => halfSum x W thr wts ord (i 0).val (i 1) (i 2)

theorem G1_apply (i : S2x2048x10.Idx) (g : ℕ) (b : Fin 2048) (e : Fin 10) (h0 : (i 0).val = g) (h1 : (i 1).val = b.val)
    (h2 : (i 2).val = e.val) : G1 x W thr wts ord i = halfSum x W thr wts ord g b e := by
  unfold G1
  rw [h0, show i 1 = b from Fin.ext h1, show i 2 = e from Fin.ext h2]

/-- Half `g`'s sum as a sum over the 512 trees of the half. -/
theorem halfSum_eq (g : Fin 2) (b : Fin 2048) (e : Fin 10) :
    halfSum x W thr wts ord g.val b e
      = ∑ i : Fin 512, Cert.Spec.contrib x W thr wts ord ⟨g.val * 512 + i.val, by have := g.isLt; have := i.isLt; omega⟩ b e := by
  unfold halfSum
  rw [Finset.sum_range]
  refine Finset.sum_congr rfl fun i _ => ?_
  unfold contribN
  rw [dif_pos (by have := g.isLt; have := i.isLt; omega : g.val * 512 + i.val < 1024)]

variable (c : Dev nD) (hw : RowsOk c (V c main_arg4))
  (hthr : ∀ (t : Fin 1024) (n : Fin 127), (V c main_v3 : S1024x127x1.Idx → EReal) (ix3 t n (0 : Fin 1)) = thr t n)
  (hwts : ∀ (t : Fin 1024) (l : Fin 128) (e : Fin 10), (V c main_arg3 : S1024x128x10.Idx → EReal) (ix3 t l e) = wts t l e)
  (hord : ∀ (t : Fin 1024) (n : Fin 127), (V c main_arg4 : S1024x127.Idx → BitVec 32) (ix2 t n) = ord t n)
  (hrange : ∀ (t : Fin 1024) (n : Fin 127), (ord t n).toNat < 26009)
  (hh : ∀ (f : Fin 26009) (b : Fin 2048), (V c main_v2 : S26112x2048.Idx → EReal) (ix2 ⟨f.val, by omega⟩ b) = Cert.Spec.hn x W f b)

include hthr hwts hord hrange hh in
/-- What the last tree of a half writes back is the half's block of the one function. -/
theorem flushed1_2_eq (t : Fin (cfg1 a1).N) (hf : ((cfg1 a1).win 2).flush t = true) :
    (dat1 (F := Ideal) V a1 c hw).flushed 2 t = (((cfg1 a1).win 2).blk t).view.read (Elt Ideal) (G1 x W thr wts ord) := by
  have hN : t.val < 1024 := lt_of_lt_of_eq t.isLt (N1_eq a1)
  have h511 : t.val % 512 = 511 := (flush1_2 a1 t).mp hf
  obtain ⟨-, -, -, -, -, -, e0, e1, e2, -⟩ := idx_facts1 a1 t
  show ((cfg1 a1).win 2).cut (grid1.coords t) ((dat1 (F := Ideal) V a1 c hw).after 2 t) = _
  rw [after1_2]
  refine funext fun (j : S1x2048x10.Idx) => ?_
  show outsAt1 V a1 c hw t.val t.isLt (((cfg1 a1).win 2).xinj (grid1.coords t) j)
    = G1 x W thr wts ord ((((cfg1 a1).win 2).blk t).view.emb j)
  have hj0 : (j 0).val < 1 := idx3_lt0 j
  have hj1 : (j 1).val < 2048 := idx3_lt1 j
  have hj2 : (j 2).val < 10 := idx3_lt2 j
  refine Eq.trans (b := halfSum x W thr wts ord (t.val / 512) ⟨(j 1).val, hj1⟩ ⟨(j 2).val, hj2⟩) ?_ ?_
  · have ej : ((cfg1 a1).win 2).xinj (grid1.coords t) j = (ix3 (0 : Fin 1) (⟨(j 1).val, hj1⟩ : Fin 2048) (⟨(j 2).val, hj2⟩ : Fin 10) : S1x2048x10.Idx) := by
      funext a; refine Fin.ext ?_
      match a with
      | ⟨0, _⟩ => show (j 0).val = 0; omega
      | ⟨1, _⟩ => rfl
      | ⟨2, _⟩ => rfl
    refine (congrArg (outsAt1 V a1 c hw t.val t.isLt) ej).trans ?_
    refine (outsAt1_eq V a1 x W thr wts ord c hw hthr hwts hord hrange hh t.val t.isLt ⟨(j 1).val, hj1⟩ ⟨(j 2).val, hj2⟩).trans ?_
    rw [h511]
    rfl
  · refine (G1_apply x W thr wts ord _ (t.val / 512) ⟨(j 1).val, hj1⟩ ⟨(j 2).val, hj2⟩ ?_ ?_ ?_).symm
    · show ((cfg1 a1).win 2).index t (0 : Fin 3) * 1 + 1 * (j 0).val = t.val / 512; omega
    · show ((cfg1 a1).win 2).index t (1 : Fin 3) * 2048 + 1 * (j 1).val = (j 1).val; omega
    · show ((cfg1 a1).win 2).index t (2 : Fin 3) * 10 + 1 * (j 2).val = (j 2).val; omega

/-- An index of the array is in point `t`'s block iff each coordinate is in the block's range on its axis. -/
theorem mem_blk1_2 (t : Fin (cfg1 a1).N) (i : S2x2048x10.Idx) :
    i ∈ (((cfg1 a1).win 2).blk t).view.set ↔ ∀ a : Fin 3, ((cfg1 a1).win 2).index t a * S1x2048x10.size a ≤ (i a).val
      ∧ (i a).val < ((cfg1 a1).win 2).index t a * S1x2048x10.size a + S1x2048x10.size a := by
  show i ∈ ((View.whole main_v4).slice (((cfg1 a1).win 2).rect t)).set ↔ _
  exact (iff_of_eq (congrArg (i ∈ ·) (View.set_slice_whole main_v4 (((cfg1 a1).win 2).rect t)))).trans Rect.mem_set_unit

/-- An index whose three coordinates are in the ranges of point `t`'s block is in the block. -/
theorem mem_blk1_2_of (t : Fin (cfg1 a1).N) (i : S2x2048x10.Idx)
    (h0 : ((cfg1 a1).win 2).index t (0 : Fin 3) * 1 ≤ (i 0).val ∧ (i 0).val < ((cfg1 a1).win 2).index t (0 : Fin 3) * 1 + 1)
    (h1 : ((cfg1 a1).win 2).index t (1 : Fin 3) * 2048 ≤ (i 1).val ∧ (i 1).val < ((cfg1 a1).win 2).index t (1 : Fin 3) * 2048 + 2048)
    (h2 : ((cfg1 a1).win 2).index t (2 : Fin 3) * 10 ≤ (i 2).val ∧ (i 2).val < ((cfg1 a1).win 2).index t (2 : Fin 3) * 10 + 10) :
    i ∈ (((cfg1 a1).win 2).blk t).view.set :=
  (mem_blk1_2 a1 t i).mpr fun a =>
    match a with
    | ⟨0, _⟩ => h0
    | ⟨1, _⟩ => h1
    | ⟨2, _⟩ => h2

/-- The last point of half `g`. -/
def lastOf (g : ℕ) (hg : g < 2) : Fin (cfg1 a1).N := ⟨g * 512 + 511, lt_of_lt_of_eq (by omega : g * 512 + 511 < 1024) (N1_eq a1).symm⟩

theorem lastOf_val (g : ℕ) (hg : g < 2) : (lastOf a1 g hg).val = g * 512 + 511 := rfl

/-- Half `g` of the array is the block of the half's last tree, which writes back. -/
theorem cover1_2_arr (i : S2x2048x10.Idx) :
    ∃ t : Fin (cfg1 a1).N, ((cfg1 a1).win 2).flush t = true ∧ i ∈ (((cfg1 a1).win 2).blk t).view.set := by
  have hi0 : (i 0).val < 2 := idx3_lt0 i
  have hi1 : (i 1).val < 2048 := idx3_lt1 i
  have hi2 : (i 2).val < 10 := idx3_lt2 i
  obtain ⟨-, -, -, -, -, -, e0, e1, e2, -⟩ := idx_facts1 a1 (lastOf a1 (i 0).val hi0)
  have hv := lastOf_val a1 (i 0).val hi0
  refine ⟨lastOf a1 (i 0).val hi0, (flush1_2 a1 _).mpr (by rw [hv]; omega), ?_⟩
  rw [hv] at e0
  refine mem_blk1_2_of a1 _ i ?_ ?_ ?_
  · rw [e0]; clear e0 e1 e2 hv; omega
  · rw [e1]; clear e0 e1 e2 hv; omega
  · rw [e2]; clear e0 e1 e2 hv; omega

include hthr hwts hord hrange hh in
/-- The result array ends holding the one function. -/
theorem arr1_eq_G1 :
    ((dat1 (F := Ideal) V a1 c hw).arrAt 2 (cfg1 a1).N : Vec Ideal S2x2048x10 .f32) = G1 x W thr wts ord :=
  (dat1 (F := Ideal) V a1 c hw).arrAt_eq_of_cover 2 (G1 x W thr wts ord)
    (fun t hf => flushed1_2_eq V a1 x W thr wts ord c hw hthr hwts hord hrange hh t hf) (cover1_2_arr a1)

end Array

/-- THE SECOND KERNEL'S ARRAY AGAINST THE SPECIFICATION: when the thresholds', the weights' and the table's arrays hold the
    specification's data, the table's words name rows below the old end, and those rows of the feature array hold the
    normalised features, entry `(g, b, e)` of the result is the sum of the contributions of the 512 trees of half `g`. -/
theorem arr1_value (V : (c : Dev nD) → (b : Ref sig .tc) → Buf (Elt Ideal) ((c : Thread nD τ).loc b))
    (a1 : (pcfg1 (F := Ideal)).Adm) (c : Dev nD) (hw : RowsOk c (V c main_arg4))
    (x : Fin 2048 → Fin 256 → EReal) (W : Fin 26009 → Fin 256 → EReal)
    (thr : Fin 1024 → Fin 127 → EReal) (wts : Fin 1024 → Fin 128 → Fin 10 → EReal) (ord : Fin 1024 → Fin 127 → BitVec 32)
    (hthr : ∀ (t : Fin 1024) (n : Fin 127), (V c main_v3 : S1024x127x1.Idx → EReal) (ix3 t n (0 : Fin 1)) = thr t n)
    (hwts : ∀ (t : Fin 1024) (l : Fin 128) (e : Fin 10), (V c main_arg3 : S1024x128x10.Idx → EReal) (ix3 t l e) = wts t l e)
    (hord : ∀ (t : Fin 1024) (n : Fin 127), (V c main_arg4 : S1024x127.Idx → BitVec 32) (ix2 t n) = ord t n)
    (hrange : ∀ (t : Fin 1024) (n : Fin 127), (ord t n).toNat < 26009)
    (hh : ∀ (f : Fin 26009) (b : Fin 2048), (V c main_v2 : S26112x2048.Idx → EReal) (ix2 ⟨f.val, by omega⟩ b) = Cert.Spec.hn x W f b)
    (g : Fin 2) (b : Fin 2048) (e : Fin 10) :
    ((dat1 (F := Ideal) V a1 c hw).arrAt 2 (cfg1 a1).N : S2x2048x10.Idx → EReal) (ix3 g b e)
      = ∑ i : Fin 512, Cert.Spec.contrib x W thr wts ord ⟨g.val * 512 + i.val, by omega⟩ b e := by
  refine (congrFun (arr1_eq_G1 V a1 x W thr wts ord c hw hthr hwts hord hrange hh) (ix3 g b e)).trans ?_
  exact (G1_apply x W thr wts ord (ix3 g b e) g.val b e rfl rfl rfl).trans (halfSum_eq x W thr wts ord g b e)

/-- The two halves together are the specification's result. -/
theorem halves_eq_out (x : Fin 2048 → Fin 256 → EReal) (W : Fin 26009 → Fin 256 → EReal)
    (thr : Fin 1024 → Fin 127 → EReal) (wts : Fin 1024 → Fin 128 → Fin 10 → EReal) (ord : Fin 1024 → Fin 127 → BitVec 32)
    (b : Fin 2048) (e : Fin 10) :
    (∑ i : Fin 512, Cert.Spec.contrib x W thr wts ord ⟨(0 : Fin 2).val * 512 + i.val, by omega⟩ b e)
      + (∑ i : Fin 512, Cert.Spec.contrib x W thr wts ord ⟨(1 : Fin 2).val * 512 + i.val, by omega⟩ b e)
      = Cert.Spec.out x W thr wts ord b e := by
  rw [← halfSum_eq x W thr wts ord 0 b e, ← halfSum_eq x W thr wts ord 1 b e]
  unfold Cert.Spec.out
  have h := Cert.LibSumBlocks.sum_fin_mul 2 512 (fun n => contribN x W thr wts ord n b e)
  rw [Finset.sum_range_succ, Finset.sum_range_one] at h
  have e1 : ∑ t : Fin 1024, Cert.Spec.contrib x W thr wts ord t b e = ∑ t : Fin (2 * 512), contribN x W thr wts ord t.val b e := by
    refine Finset.sum_congr rfl fun t _ => ?_
    unfold contribN
    rw [dif_pos t.isLt]
  rw [e1, h]
  unfold halfSum
  rw [Finset.sum_range, Finset.sum_range]
  rfl

end Cert.KernelIdeal.HandVal

end
-- ==== Proof.KI.KAsm.lean ====
/-
  The idealized kernel's result as a function of its arguments: the last valuation at the result buffer is the sum of the
  two halves pallas call 1 leaves, each half the sum of its 512 trees' contributions, over the normalised features pallas
  call 0 leaves (read through the host's transpose and zero padding) and the thresholds read through the host's added
  unit axis: the specification's `out`.
-/
import proofs.«409293_j18485539242413_1_alg».proof.Proof.KI.Frame
import proofs.«409293_j18485539242413_1_alg».proof.Proof.KI.KHost
import proofs.«409293_j18485539242413_1_alg».proof.Proof.KI.KVal0
import proofs.«409293_j18485539242413_1_alg».proof.Proof.KI.KVal1
import Idealize.ShloMosaic.Lib.StableHlo.Run

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

/-- The five arguments on core `c`, as plain functions. -/
def xA (c : Dev nD) : Fin 2048 → Fin 256 → EReal := fun b k => (m ((c : Thread nD τ).loc main_arg0) : S2048x256.Idx → EReal) (ix2 b k)
def WA (c : Dev nD) : Fin 26009 → Fin 256 → EReal := fun f k => (m ((c : Thread nD τ).loc main_arg1) : S26009x256.Idx → EReal) (ix2 f k)
def thrA (c : Dev nD) : Fin 1024 → Fin 127 → EReal := fun t n => (m ((c : Thread nD τ).loc main_arg2) : S1024x127.Idx → EReal) (ix2 t n)
def wtsA (c : Dev nD) : Fin 1024 → Fin 128 → Fin 10 → EReal := fun t l e => (m ((c : Thread nD τ).loc main_arg3) : S1024x128x10.Idx → EReal) (ix3 t l e)
def ordA (c : Dev nD) : Fin 1024 → Fin 127 → BitVec 32 := fun t n => (m ((c : Thread nD τ).loc main_arg4) : S1024x127.Idx → BitVec 32) (ix2 t n)

/-! ## The host stretches read at the buffers the regions take -/

theorem V2_arg (c : Dev nD) (r : Ref sig .tc) (h1 : r ∉ hostOps0_W) (h2 : r ∉ hostOps0_1_W) : V2 m c r = m ((c : Thread nD τ).loc r) :=
  (V2_of m c r h2).trans <| (V1_of m c r h1).trans rfl

/-- The transposed samples pallas call 0 reads. -/
theorem Vin0_v1 (c : Dev nD) (k : Fin 256) (b : Fin 2048) : (Vin0 m c main_v1 : S256x2048.Idx → EReal) (ix2 k b) = xA m c b k := by
  have e : (V3 m c main_v1 : S256x2048.Idx → EReal) = transpose S256x2048 [1, 0] (V2 m c main_arg0) transposes_S2048x256_S256x2048_1_0 := by
    dsimp only [V3, hostOps0_2]; after_results; try rfl
  show (V3 m c main_v1 : S256x2048.Idx → EReal) (ix2 k b) = _
  rw [e, transpose_x_apply, V2_arg m c main_arg0 (by decide) (by decide)]; rfl

/-- The zero-padded weights pallas call 0 reads, at a row of the original matrix. -/
theorem Vin0_v0 (c : Dev nD) (f : Fin 26009) (k : Fin 256) : (Vin0 m c main_v0 : S26112x256.Idx → EReal) (ix2 ⟨f.val, by omega⟩ k) = WA m c f k := by
  have e : (V2 m c main_v0 : S26112x256.Idx → EReal)
      = pad S26112x256 ![0, 0] ![103, 0] ![0, 0] (V1 m c main_arg1) (sitofp (F := Ideal) .f32 (V1 m c main_c)) pads_S26009x256_S26112x256_01030_000 h_S_ := by
    dsimp only [V2, hostOps0_1]; after_results; try rfl
  show (V3 m c main_v0 : S26112x256.Idx → EReal) (ix2 ⟨f.val, by omega⟩ k) = _
  rw [V3_of m c main_v0 (by decide), e, pad_W_apply, V1_of m c main_arg1 (by decide)]; rfl

/-- The thresholds with their added unit axis, as pallas call 1 reads them. -/
theorem Vin1_v3 (c : Dev nD) (t : Fin 1024) (n : Fin 127) : (Vin1 m c main_v3 : S1024x127x1.Idx → EReal) (ix3 t n 0) = thrA m c t n := by
  have e : (V5 m (outsA m) c main_v3 : S1024x127x1.Idx → EReal)
      = broadcastInDim S1024x127x1 ![0, 1] bcast_S1024x127_S1024x127x1_0_1 (V4 m (outsA m) c main_arg2) := by
    dsimp only [V5, hostOps1]; after_results; try rfl
  show (V5 m (outsA m) c main_v3 : S1024x127x1.Idx → EReal) (ix3 t n 0) = _
  rw [e, bcast_thr_apply, V4_of m (outsA m) c main_arg2 (by decide), V3_of m c main_arg2 (by decide), V2_arg m c main_arg2 (by decide) (by decide)]; rfl

theorem Vin1_arg3 (c : Dev nD) : Vin1 m c main_arg3 = m ((c : Thread nD τ).loc main_arg3) :=
  (V5_of m (outsA m) c main_arg3 (by decide)).trans <| (V4_of m (outsA m) c main_arg3 (by decide)).trans <|
    (V3_of m c main_arg3 (by decide)).trans <| V2_arg m c main_arg3 (by decide) (by decide)

variable (hr : ∀ (c : Dev nD) (i : S1024x127.Idx), ((m ((c : Thread nD τ).loc main_arg4) : S1024x127.Idx → BitVec 32) i).toNat < 26009)

/-- The normalised features pallas call 1 copies rows of. -/
theorem Vin1_v2 (c : Dev nD) (f : Fin 26009) (b : Fin 2048) :
    (Vin1 m c main_v2 : S26112x2048.Idx → EReal) (ix2 ⟨f.val, by omega⟩ b) = Cert.Spec.hn (xA m c) (WA m c) f b := by
  show (V5 m (outsA m) c main_v2 : S26112x2048.Idx → EReal) (ix2 ⟨f.val, by omega⟩ b) = _
  rw [V5_v2]
  exact arr0_value (Vin0 m) c (xA m c) (WA m c) (Vin0_v1 m c) (Vin0_v0 m c) f b

/-- THE KERNEL'S VALUE: the result buffer at the last valuation is the specification's `out` of the arguments. -/
theorem kernel_value (c : Dev nD) (b : Fin 2048) (e : Fin 10) :
    (V7 m (outs m (rows_ok m hr)) c main_v5 : S2048x10.Idx → EReal) (ix2 b e)
      = Cert.Spec.out (xA m c) (WA m c) (thrA m c) (wtsA m c) (ordA m c) b e := by
  have e7 : (V7 m (outs m (rows_ok m hr)) c main_v5 : S2048x10.Idx → EReal)
      = Host.reduceAdd (V6 m (outs m (rows_ok m hr)) c main_v4) (constant (F := Ideal) S_ .f32 0x00000000#32) reducesTo_S2x2048x10_S2048x10_d0 h_S_ := by
    dsimp only [V7, hostOps2]; after_results; try rfl
  rw [e7, reduce_halves_apply, V6_v4]
  have hval := fun g : Fin 2 => arr1_value (Vin1 m) (adm1 m) c (rows_ok m hr c) (xA m c) (WA m c) (thrA m c) (wtsA m c) (ordA m c)
    (Vin1_v3 m c) (fun t l e => by rw [Vin1_arg3]; rfl) (fun t n => by rw [Vin1_arg4]; rfl) (fun t n => hr c _) (Vin1_v2 m c) g b e
  unfold outs6
  rw [hval 0, hval 1]
  exact halves_eq_out (xA m c) (WA m c) (thrA m c) (wtsA m c) (ordA m c) b e

end Cert.KernelIdeal.HandVal

end
-- ==== Proof.lean ====
/-
  The certificate's claims, assembled.

  Both programs compute, at the ideal instance, the specification's `out` (Proof/Spec.lean): the projection of every sample on
  every feature, normalised over the batch; per tree a seven-step walk down a complete binary tree that keeps the least
  magnitude met; the sum over the trees of the leaf weights times that magnitude. The kernel does it in two pallas calls
  (the normalised features by tiles of 512 feature rows; then, tree by tree, the 127 feature rows a tree reads copied
  into a scratch, the walk by one-hot selection, the contributions accumulated per half and the halves added by the
  host); the reference by gathers. The statement's precondition bounds the table's words by the number of features, which
  keeps every row the kernel copies inside the feature array and every gather of the reference inside its operand.
  The frames come from the runs (the kernel's at both instances); `preserves` is trivial (the ideal pass rewrote
  nothing); `algebraic` is the two runs read at the result.
-/
import proofs.«409293_j18485539242413_1_alg».proof.Defs
import proofs.«409293_j18485539242413_1_alg».proof.Proof.Gen.Kernel
import proofs.«409293_j18485539242413_1_alg».proof.Proof.Gen.KernelIdeal
import proofs.«409293_j18485539242413_1_alg».proof.Proof.Gen.ReferenceIdeal
import proofs.«409293_j18485539242413_1_alg».proof.Proof.Gen.Pre_finite_inputs
import proofs.«409293_j18485539242413_1_alg».proof.Proof.PreDecode
import proofs.«409293_j18485539242413_1_alg».proof.Proof.RefRun
import proofs.«409293_j18485539242413_1_alg».proof.Proof.RefVal
import proofs.«409293_j18485539242413_1_alg».proof.Proof.KI.Frame
import proofs.«409293_j18485539242413_1_alg».proof.Proof.K.Frame
import proofs.«409293_j18485539242413_1_alg».proof.Proof.KI.KAsm

set_option maxRecDepth 16384

noncomputable section

namespace Cert.Proof

open Idealize.ShloMosaic Idealize.ShloMosaic.TcCoe Idealize.SL.Sem

instance : Cert.Pre_finite_inputs.Facts := Cert.Pre_finite_inputs.Gen.facts
instance : Cert.KernelIdeal.Facts := Cert.KernelIdeal.Gen.facts
instance : Cert.Kernel.Facts := Cert.Kernel.Gen.facts
instance : Cert.ReferenceIdeal.Facts := Cert.ReferenceIdeal.Gen.facts

/-- The precondition bounds every word of the table, on the idealized kernel's memory. -/
theorem range_ki (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S1024x127.Idx) :
    ((m ((c : Thread Cert.KernelIdeal.nD Cert.KernelIdeal.τ).loc Cert.KernelIdeal.main_arg4) : Cert.KernelIdeal.S1024x127.Idx → BitVec 32) i).toNat < 26009 :=
  Cert.Hand.PreDecode.ord_range (F := Ideal) _ _ _ _ _ (h c) i

/-- The same on the word-level kernel's memory. -/
theorem range_k (m : (ℓ : Loc Cert.Kernel.nD Cert.Kernel.τ Cert.Kernel.sig) → Buf (Elt Bits) ℓ) (h : Cert.Pre_Kernel m)
    (c : Dev Cert.Kernel.nD) (i : Cert.Kernel.S1024x127.Idx) :
    ((m ((c : Thread Cert.Kernel.nD Cert.Kernel.τ).loc Cert.Kernel.main_arg4) : Cert.Kernel.S1024x127.Idx → BitVec 32) i).toNat < 26009 :=
  Cert.Hand.PreDecode.ord_range (F := Bits) _ _ _ _ _ (h c) i

theorem frame_k : Cert.frame_Kernel := fun m ρ h => Cert.Kernel.Hand.frame (F := Bits) m ρ (range_k m h)

theorem frame_ki : Cert.frame_KernelIdeal := fun m ρ h => Cert.KernelIdeal.Hand.frame (F := Ideal) m ρ (range_ki m h)

theorem frame_ri : Cert.frame_ReferenceIdeal := fun m g _ => Cert.ReferenceIdeal.Hand.frame (F := Ideal) m g

open Cert.KernelIdeal.Hand Cert.KernelIdeal.Gen in
theorem algebraic : Cert.algebraic_KernelIdeal_ReferenceIdeal := by
  intro m ρ m' ρ' hpre hagree
  have hr := range_ki m hpre
  refine ⟨fun c => Cert.KernelIdeal.Gen.V7 m (Cert.KernelIdeal.Hand.outs m (Cert.KernelIdeal.Hand.rows_ok m hr)) c Cert.KernelIdeal.main_v5, ?_, ?_⟩
  · exact (θ_run _ _ _).mono (fun r h c =>
      ⟨h c _ (Cert.KernelIdeal.Hand.mem_uc Cert.KernelIdeal.main_v5 (by decide)),
       (h c _ (Cert.KernelIdeal.Hand.mem_uc Cert.KernelIdeal.main_arg0 (by decide))).trans (Cert.KernelIdeal.Gen.V7_main_arg0 m _ c),
       (h c _ (Cert.KernelIdeal.Hand.mem_uc Cert.KernelIdeal.main_arg1 (by decide))).trans (Cert.KernelIdeal.Gen.V7_main_arg1 m _ c),
       (h c _ (Cert.KernelIdeal.Hand.mem_uc Cert.KernelIdeal.main_arg2 (by decide))).trans (Cert.KernelIdeal.Gen.V7_main_arg2 m _ c),
       (h c _ (Cert.KernelIdeal.Hand.mem_uc Cert.KernelIdeal.main_arg3 (by decide))).trans (Cert.KernelIdeal.Gen.V7_main_arg3 m _ c),
       (h c _ (Cert.KernelIdeal.Hand.mem_uc Cert.KernelIdeal.main_arg4 (by decide))).trans (Cert.KernelIdeal.Gen.V7_main_arg4 m _ c)⟩)
      (Cert.KernelIdeal.Hand.run_main m ρ (Cert.KernelIdeal.Hand.rows_ok m hr))
  · refine (θ_run _ _ _).mono (fun r h c =>
      ⟨(h c Cert.ReferenceIdeal.main_v333).trans ?_,
       (h c Cert.ReferenceIdeal.main_arg0).trans (Cert.ReferenceIdeal.Hand.after_arg _ Cert.ReferenceIdeal.main_arg0 (by decide)),
       (h c Cert.ReferenceIdeal.main_arg1).trans (Cert.ReferenceIdeal.Hand.after_arg _ Cert.ReferenceIdeal.main_arg1 (by decide)),
       (h c Cert.ReferenceIdeal.main_arg2).trans (Cert.ReferenceIdeal.Hand.after_arg _ Cert.ReferenceIdeal.main_arg2 (by decide)),
       (h c Cert.ReferenceIdeal.main_arg3).trans (Cert.ReferenceIdeal.Hand.after_arg _ Cert.ReferenceIdeal.main_arg3 (by decide)),
       (h c Cert.ReferenceIdeal.main_arg4).trans (Cert.ReferenceIdeal.Hand.after_arg _ Cert.ReferenceIdeal.main_arg4 (by decide))⟩)
      (Cert.ReferenceIdeal.Hand.run_raw (F := Ideal) m' ρ')
    funext i
    obtain ⟨b, e, rfl⟩ : ∃ (b : Fin 2048) (e : Fin 10), i = ValueIdx.ix2 b e := ⟨i 0, i 1, ValueIdx.eq_ix2 i⟩
    refine (Cert.ReferenceIdeal.HandVal.ref_value (StableHlo.launchContents m' c)
      (fun j => by
        have := hr c j
        rw [← (hagree c).2.2.2.2] at this
        exact this) b e).trans ?_
    refine Eq.trans ?_ (Cert.KernelIdeal.HandVal.kernel_value m hr c b e).symm
    have h0 := (hagree c).1
    have h1 := (hagree c).2.1
    have h2 := (hagree c).2.2.1
    have h3 := (hagree c).2.2.2.1
    have h4 := (hagree c).2.2.2.2
    unfold Cert.KernelIdeal.HandVal.xA Cert.KernelIdeal.HandVal.WA Cert.KernelIdeal.HandVal.thrA Cert.KernelIdeal.HandVal.wtsA Cert.KernelIdeal.HandVal.ordA
    rw [← h0, ← h1, ← h2, ← h3, ← h4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
